-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v84) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4000x128 : Shape := ⟨2, ![4000, 128]⟩
abbrev S128x128 : Shape := ⟨2, ![128, 128]⟩
abbrev S128 : Shape := ⟨1, ![128]⟩
abbrev S800000 : Shape := ⟨1, ![800000]⟩
abbrev S400000 : Shape := ⟨1, ![400000]⟩
abbrev S160000 : Shape := ⟨1, ![160000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4000x128 : S_.BroadcastsInDim S4000x128 (![] : Fin 0 → Fin S4000x128.rank)
  reducesTo_S4000x128_S_d0_1 : S4000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_
  bcast_S_S400000 : S_.BroadcastsInDim S400000 (![] : Fin 0 → Fin S400000.rank)
  reducesTo_S400000_S_d0 : S400000.ReducesTo [0] S_
  bcast_S_S160000 : S_.BroadcastsInDim S160000 (![] : Fin 0 → Fin S160000.rank)
  reducesTo_S160000_S_d0 : S160000.ReducesTo [0] S_

variable [Facts]

def fn_part6 {F : FTy → Type} [FloatOps F] (main_arg21 : IVec S160000 32) (main_arg24 : IVec S160000 32) (main_v97 : IVec S_ 1) (main_v99 : IVec S400000 1) (main_v101 : IVec S400000 1) : IVec S_ 1 :=
  let main_v102 : IVec S400000 1 := andi main_v99 main_v101
  let main_c_40 : IVec S_ 1 := constantI S_ 1 1#1
  let main_v103 : IVec S_ 1 := (fun x v => Host.reduce IntOp.andi x v reducesTo_S400000_S_d0 h_S_) main_v102 main_c_40
  let main_v104 : IVec S_ 1 := andi main_v97 main_v103
  let main_c_41 : IVec S_ 32 := constantI S_ 32 0#32
  let main_v105 : IVec S160000 32 := broadcastInDim S160000 ![] bcast_S_S160000 main_c_41
  let main_v106 : IVec S160000 1 := cmpi .sge main_arg21 main_v105
  let main_c_42 : IVec S_ 32 := constantI S_ 32 4000#32
  let main_v107 : IVec S160000 32 := broadcastInDim S160000 ![] bcast_S_S160000 main_c_42
  let main_v108 : IVec S160000 1 := cmpi .slt main_arg21 main_v107
  let main_v109 : IVec S160000 1 := andi main_v106 main_v108
  let main_c_43 : IVec S_ 1 := constantI S_ 1 1#1
  let main_v110 : IVec S_ 1 := (fun x v => Host.reduce IntOp.andi x v reducesTo_S160000_S_d0 h_S_) main_v109 main_c_43
  let main_v111 : IVec S_ 1 := andi main_v104 main_v110
  let main_c_44 : IVec S_ 32 := constantI S_ 32 0#32
  let main_v112 : IVec S160000 32 := broadcastInDim S160000 ![] bcast_S_S160000 main_c_44
  let main_v113 : IVec S160000 1 := cmpi .sge main_arg24 main_v112
  let main_c_45 : IVec S_ 32 := constantI S_ 32 4000#32
  let main_v114 : IVec S160000 32 := broadcastInDim S160000 ![] bcast_S_S160000 main_c_45
  let main_v115 : IVec S160000 1 := cmpi .slt main_arg24 main_v114
  let main_v116 : IVec S160000 1 := andi main_v113 main_v115
  let main_c_46 : IVec S_ 1 := constantI S_ 1 1#1
  let main_v117 : IVec S_ 1 := (fun x v => Host.reduce IntOp.andi x v reducesTo_S160000_S_d0 h_S_) main_v116 main_c_46
  let main_v118 : IVec S_ 1 := andi main_v111 main_v117
  main_v118

def fn_part5 {F : FTy → Type} [FloatOps F] (main_arg12 : IVec S800000 32) (main_arg15 : IVec S400000 32) (main_arg18 : IVec S400000 32) (main_arg21 : IVec S160000 32) (main_arg24 : IVec S160000 32) (main_v83 : IVec S_ 1) (main_v84 : IVec S800000 32) : IVec S_ 1 :=
  let main_v85 : IVec S800000 1 := cmpi .sge main_arg12 main_v84
  let main_c_33 : IVec S_ 32 := constantI S_ 32 50000#32
  let main_v86 : IVec S800000 32 := broadcastInDim S800000 ![] bcast_S_S800000 main_c_33
  let main_v87 : IVec S800000 1 := cmpi .slt main_arg12 main_v86
  let main_v88 : IVec S800000 1 := andi main_v85 main_v87
  let main_c_34 : IVec S_ 1 := constantI S_ 1 1#1
  let main_v89 : IVec S_ 1 := (fun x v => Host.reduce IntOp.andi x v reducesTo_S800000_S_d0 h_S_) main_v88 main_c_34
  let main_v90 : IVec S_ 1 := andi main_v83 main_v89
  let main_c_35 : IVec S_ 32 := constantI S_ 32 0#32
  let main_v91 : IVec S400000 32 := broadcastInDim S400000 ![] bcast_S_S400000 main_c_35
  let main_v92 : IVec S400000 1 := cmpi .sge main_arg15 main_v91
  let main_c_36 : IVec S_ 32 := constantI S_ 32 50000#32
  let main_v93 : IVec S400000 32 := broadcastInDim S400000 ![] bcast_S_S400000 main_c_36
  let main_v94 : IVec S400000 1 := cmpi .slt main_arg15 main_v93
  let main_v95 : IVec S400000 1 := andi main_v92 main_v94
  let main_c_37 : IVec S_ 1 := constantI S_ 1 1#1
  let main_v96 : IVec S_ 1 := (fun x v => Host.reduce IntOp.andi x v reducesTo_S400000_S_d0 h_S_) main_v95 main_c_37
  let main_v97 : IVec S_ 1 := andi main_v90 main_v96
  let main_c_38 : IVec S_ 32 := constantI S_ 32 0#32
  let main_v98 : IVec S400000 32 := broadcastInDim S400000 ![] bcast_S_S400000 main_c_38
  let main_v99 : IVec S400000 1 := cmpi .sge main_arg18 main_v98
  let main_c_39 : IVec S_ 32 := constantI S_ 32 50000#32
  let main_v100 : IVec S400000 32 := broadcastInDim S400000 ![] bcast_S_S400000 main_c_39
  let main_v101 : IVec S400000 1 := cmpi .slt main_arg18 main_v100
  fn_part6 (F := F) main_arg21 main_arg24 main_v97 main_v99 main_v101

def fn_part4 {F : FTy → Type} [FloatOps F] (main_arg12 : IVec S800000 32) (main_arg15 : IVec S400000 32) (main_arg18 : IVec S400000 32) (main_arg20 : FVec F S400000 .f32) (main_arg21 : IVec S160000 32) (main_arg23 : FVec F S160000 .f32) (main_arg24 : IVec S160000 32) (main_arg26 : FVec F S160000 .f32) (main_v63 : IVec S_ 1) (main_v67 : IVec S_ 1) : IVec S_ 1 :=
  let main_v68 : IVec S_ 1 := andi main_v63 main_v67
  let main_v69 : FVec F S400000 .f32 := Host.absf main_arg20
  let main_cst_26 : FVec F S_ .f32 := constant S_ .f32 0x7F800000#32
  let main_v70 : FVec F S400000 .f32 := broadcastInDim S400000 ![] bcast_S_S400000 main_cst_26
  let main_v71 : IVec S400000 1 := cmpf .olt main_v69 main_v70
  let main_c_27 : IVec S_ 1 := constantI S_ 1 1#1
  let main_v72 : IVec S_ 1 := (fun x v => Host.reduce IntOp.andi x v reducesTo_S400000_S_d0 h_S_) main_v71 main_c_27
  let main_v73 : IVec S_ 1 := andi main_v68 main_v72
  let main_v74 : FVec F S160000 .f32 := Host.absf main_arg23
  let main_cst_28 : FVec F S_ .f32 := constant S_ .f32 0x7F800000#32
  let main_v75 : FVec F S160000 .f32 := broadcastInDim S160000 ![] bcast_S_S160000 main_cst_28
  let main_v76 : IVec S160000 1 := cmpf .olt main_v74 main_v75
  let main_c_29 : IVec S_ 1 := constantI S_ 1 1#1
  let main_v77 : IVec S_ 1 := (fun x v => Host.reduce IntOp.andi x v reducesTo_S160000_S_d0 h_S_) main_v76 main_c_29
  let main_v78 : IVec S_ 1 := andi main_v73 main_v77
  let main_v79 : FVec F S160000 .f32 := Host.absf main_arg26
  let main_cst_30 : FVec F S_ .f32 := constant S_ .f32 0x7F800000#32
  let main_v80 : FVec F S160000 .f32 := broadcastInDim S160000 ![] bcast_S_S160000 main_cst_30
  let main_v81 : IVec S160000 1 := cmpf .olt main_v79 main_v80
  let main_c_31 : IVec S_ 1 := constantI S_ 1 1#1
  let main_v82 : IVec S_ 1 := (fun x v => Host.reduce IntOp.andi x v reducesTo_S160000_S_d0 h_S_) main_v81 main_c_31
  let main_v83 : IVec S_ 1 := andi main_v78 main_v82
  let main_c_32 : IVec S_ 32 := constantI S_ 32 0#32
  let main_v84 : IVec S800000 32 := broadcastInDim S800000 ![] bcast_S_S800000 main_c_32
  fn_part5 (F := F) main_arg12 main_arg15 main_arg18 main_arg21 main_arg24 main_v83 main_v84

def fn_part3 {F : FTy → Type} [FloatOps F] (main_arg11 : FVec F S128 .f32) (main_arg12 : IVec S800000 32) (main_arg14 : FVec F S800000 .f32) (main_arg15 : IVec S400000 32) (main_arg17 : FVec F S400000 .f32) (main_arg18 : IVec S400000 32) (main_arg20 : FVec F S400000 .f32) (main_arg21 : IVec S160000 32) (main_arg23 : FVec F S160000 .f32) (main_arg24 : IVec S160000 32) (main_arg26 : FVec F S160000 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S800000 .f32 := Host.absf main_arg14
  let main_cst_22 : FVec F S_ .f32 := constant S_ .f32 0x7F800000#32
  let main_v60 : FVec F S800000 .f32 := broadcastInDim S800000 ![] bcast_S_S800000 main_cst_22
  let main_v61 : IVec S800000 1 := cmpf .olt main_v59 main_v60
  let main_c_23 : IVec S_ 1 := constantI S_ 1 1#1
  let main_v62 : IVec S_ 1 := (fun x v => Host.reduce IntOp.andi x v reducesTo_S800000_S_d0 h_S_) main_v61 main_c_23
  let main_v63 : IVec S_ 1 := andi main_v58 main_v62
  let main_v64 : FVec F S400000 .f32 := Host.absf main_arg17
  let main_cst_24 : FVec F S_ .f32 := constant S_ .f32 0x7F800000#32
  let main_v65 : FVec F S400000 .f32 := broadcastInDim S400000 ![] bcast_S_S400000 main_cst_24
  let main_v66 : IVec S400000 1 := cmpf .olt main_v64 main_v65
  let main_c_25 : IVec S_ 1 := constantI S_ 1 1#1
  let main_v67 : IVec S_ 1 := (fun x v => Host.reduce IntOp.andi x v reducesTo_S400000_S_d0 h_S_) main_v66 main_c_25
  fn_part4 (F := F) main_arg12 main_arg15 main_arg18 main_arg20 main_arg21 main_arg23 main_arg24 main_arg26 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : IVec S800000 32) (main_arg14 : FVec F S800000 .f32) (main_arg15 : IVec S400000 32) (main_arg17 : FVec F S400000 .f32) (main_arg18 : IVec S400000 32) (main_arg20 : FVec F S400000 .f32) (main_arg21 : IVec S160000 32) (main_arg23 : FVec F S160000 .f32) (main_arg24 : IVec S160000 32) (main_arg26 : FVec F S160000 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg14 main_arg15 main_arg17 main_arg18 main_arg20 main_arg21 main_arg23 main_arg24 main_arg26 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : IVec S800000 32) (main_arg14 : FVec F S800000 .f32) (main_arg15 : IVec S400000 32) (main_arg17 : FVec F S400000 .f32) (main_arg18 : IVec S400000 32) (main_arg20 : FVec F S400000 .f32) (main_arg21 : IVec S160000 32) (main_arg23 : FVec F S160000 .f32) (main_arg24 : IVec S160000 32) (main_arg26 : FVec F S160000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg14 main_arg15 main_arg17 main_arg18 main_arg20 main_arg21 main_arg23 main_arg24 main_arg26 main_v33

def fn {F : FTy → Type} [FloatOps F] (main_arg0 : FVec F S50000x128 .f32) (main_arg1 : FVec F S4000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : IVec S800000 32) (main_arg13 : IVec S800000 32) (main_arg14 : FVec F S800000 .f32) (main_arg15 : IVec S400000 32) (main_arg16 : IVec S400000 32) (main_arg17 : FVec F S400000 .f32) (main_arg18 : IVec S400000 32) (main_arg19 : IVec S400000 32) (main_arg20 : FVec F S400000 .f32) (main_arg21 : IVec S160000 32) (main_arg22 : IVec S160000 32) (main_arg23 : FVec F S160000 .f32) (main_arg24 : IVec S160000 32) (main_arg25 : IVec S160000 32) (main_arg26 : FVec F S160000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4000x128 .f32 := Host.absf main_arg1
  let main_cst_0 : FVec F S_ .f32 := constant S_ .f32 0x7F800000#32
  let main_v5 : FVec F S4000x128 .f32 := broadcastInDim S4000x128 ![] bcast_S_S4000x128 main_cst_0
  let main_v6 : IVec S4000x128 1 := cmpf .olt main_v4 main_v5
  let main_c_1 : IVec S_ 1 := constantI S_ 1 1#1
  let main_v7 : IVec S_ 1 := (fun x v => Host.reduce IntOp.andi x v reducesTo_S4000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg14 main_arg15 main_arg17 main_arg18 main_arg20 main_arg21 main_arg23 main_arg24 main_arg26 main_v13 main_v16
-- ==== Kernel.lean ====
abbrev S50000x128 : Shape := ⟨2, ![50000, 128]⟩
abbrev S4000x128 : Shape := ⟨2, ![4000, 128]⟩
abbrev S128x128 : Shape := ⟨2, ![128, 128]⟩
abbrev S128 : Shape := ⟨1, ![128]⟩
abbrev S800000 : Shape := ⟨1, ![800000]⟩
abbrev S400000 : Shape := ⟨1, ![400000]⟩
abbrev S160000 : Shape := ⟨1, ![160000]⟩
abbrev S2000x128 : Shape := ⟨2, ![2000, 128]⟩
abbrev S1x128 : Shape := ⟨2, ![1, 128]⟩
abbrev S_ : Shape := ⟨0, ![]⟩
abbrev S50176x128 : Shape := ⟨2, ![50176, 128]⟩
abbrev S800768 : Shape := ⟨1, ![800768]⟩
abbrev S800768x128 : Shape := ⟨2, ![800768, 128]⟩
abbrev S2048 : Shape := ⟨1, ![2048]⟩
abbrev S1024x128 : Shape := ⟨2, ![1024, 128]⟩
abbrev S2048x128 : Shape := ⟨2, ![2048, 128]⟩
abbrev S2048x1 : Shape := ⟨2, ![2048, 1]⟩
abbrev S1x1024 : Shape := ⟨2, ![1, 1024]⟩
abbrev S2048x1024 : Shape := ⟨2, ![2048, 1024]⟩
abbrev S1x2048 : Shape := ⟨2, ![1, 2048]⟩
abbrev S1024x1 : Shape := ⟨2, ![1024, 1]⟩
abbrev S1024x2048 : Shape := ⟨2, ![1024, 2048]⟩
abbrev S50000 : Shape := ⟨1, ![50000]⟩
abbrev S800000x1 : Shape := ⟨2, ![800000, 1]⟩
abbrev S50000x1 : Shape := ⟨2, ![50000, 1]⟩
abbrev S4096x128 : Shape := ⟨2, ![4096, 128]⟩
abbrev S401408 : Shape := ⟨1, ![401408]⟩
abbrev S401408x128 : Shape := ⟨2, ![401408, 128]⟩
abbrev S4000 : Shape := ⟨1, ![4000]⟩
abbrev S400000x1 : Shape := ⟨2, ![400000, 1]⟩
abbrev S4000x1 : Shape := ⟨2, ![4000, 1]⟩
abbrev S161792 : Shape := ⟨1, ![161792]⟩
abbrev S161792x128 : Shape := ⟨2, ![161792, 128]⟩
abbrev S160000x1 : Shape := ⟨2, ![160000, 1]⟩
abbrev S20480x128 : Shape := ⟨2, ![20480, 128]⟩
abbrev S20000x128 : Shape := ⟨2, ![20000, 128]⟩
abbrev S20000 : Shape := ⟨1, ![20000]⟩
abbrev S20000x1 : Shape := ⟨2, ![20000, 1]⟩

abbrev nBuf : Space → Nat
  | .hbm => 163
  | .vmem => 110
  | .smem => 0
  | _ => 0

abbrev hbmTy0_0 (i : Nat) : BufTy := match i % 128 with
  | 0 => ⟨S50000x128, .f32⟩
  | 1 => ⟨S4000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S800000, .i32⟩
  | 13 => ⟨S800000, .i32⟩
  | 14 => ⟨S800000, .f32⟩
  | 15 => ⟨S400000, .i32⟩
  | 16 => ⟨S400000, .i32⟩
  | 17 => ⟨S400000, .f32⟩
  | 18 => ⟨S400000, .i32⟩
  | 19 => ⟨S400000, .i32⟩
  | 20 => ⟨S400000, .f32⟩
  | 21 => ⟨S160000, .i32⟩
  | 22 => ⟨S160000, .i32⟩
  | 23 => ⟨S160000, .f32⟩
  | 24 => ⟨S160000, .i32⟩
  | 25 => ⟨S160000, .i32⟩
  | 26 => ⟨S160000, .f32⟩
  | 27 => ⟨S50000x128, .f32⟩
  | 28 => ⟨S_, .i32⟩
  | 29 => ⟨S_, .f32⟩
  | 30 => ⟨S50176x128, .f32⟩
  | 31 => ⟨S_, .i32⟩
  | 32 => ⟨S_, .i32⟩
  | 33 => ⟨S800768, .i32⟩
  | 34 => ⟨S_, .i32⟩
  | 35 => ⟨S_, .i32⟩
  | 36 => ⟨S800768, .i32⟩
  | 37 => ⟨S_, .i32⟩
  | 38 => ⟨S_, .f32⟩
  | 39 => ⟨S800768, .f32⟩
  | 40 => ⟨S800768x128, .bf16⟩
  | 41 => ⟨S50176x128, .f32⟩
  | 42 => ⟨S50000x128, .f32⟩
  | 43 => ⟨S_, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S50000x128, .f32⟩
  | 56 => ⟨S50000x128, .f32⟩
  | 57 => ⟨S4000x128, .f32⟩
  | 58 => ⟨S4000x128, .f32⟩
  | 59 => ⟨S_, .i32⟩
  | 60 => ⟨S_, .f32⟩
  | 61 => ⟨S50176x128, .f32⟩
  | 62 => ⟨S_, .i32⟩
  | 63 => ⟨S_, .f32⟩
  | 64 => ⟨S4096x128, .f32⟩
  | 65 => ⟨S_, .i32⟩
  | 66 => ⟨S_, .i32⟩
  | 67 => ⟨S401408, .i32⟩
  | 68 => ⟨S_, .i32⟩
  | 69 => ⟨S_, .i32⟩
  | 70 => ⟨S401408, .i32⟩
  | 71 => ⟨S_, .i32⟩
  | 72 => ⟨S_, .f32⟩
  | 73 => ⟨S401408, .f32⟩
  | 74 => ⟨S401408x128, .bf16⟩
  | 75 => ⟨S4096x128, .f32⟩
  | 76 => ⟨S4000x128, .f32⟩
  | 77 => ⟨S_, .f32⟩
  | 78 => ⟨S400000, .f32⟩
  | 79 => ⟨S_, .f32⟩
  | 80 => ⟨S4000, .f32⟩
  | 81 => ⟨S400000x1, .i32⟩
  | 82 => ⟨S4000, .f32⟩
  | 83 => ⟨S_, .f32⟩
  | 84 => ⟨S4000, .f32⟩
  | 85 => ⟨S4000, .f32⟩
  | 86 => ⟨S4000x1, .f32⟩
  | 87 => ⟨S4000x128, .f32⟩
  | 88 => ⟨S4000x128, .f32⟩
  | 89 => ⟨S_, .i32⟩
  | 90 => ⟨S_, .i32⟩
  | 91 => ⟨S161792, .i32⟩
  | 92 => ⟨S_, .i32⟩
  | 93 => ⟨S_, .i32⟩
  | 94 => ⟨S161792, .i32⟩
  | 95 => ⟨S_, .i32⟩
  | 96 => ⟨S_, .f32⟩
  | 97 => ⟨S161792, .f32⟩
  | 98 => ⟨S161792x128, .bf16⟩
  | 99 => ⟨S4096x128, .f32⟩
  | 100 => ⟨S4000x128, .f32⟩
  | 101 => ⟨S_, .f32⟩
  | 102 => ⟨S160000, .f32⟩
  | 103 => ⟨S_, .f32⟩
  | 104 => ⟨S4000, .f32⟩
  | 105 => ⟨S160000x1, .i32⟩
  | 106 => ⟨S4000, .f32⟩
  | 107 => ⟨S_, .f32⟩
  | 108 => ⟨S4000, .f32⟩
  | 109 => ⟨S4000, .f32⟩
  | 110 => ⟨S4000x1, .f32⟩
  | 111 => ⟨S4000x128, .f32⟩
  | 112 => ⟨S4000x128, .f32⟩
  | 113 => ⟨S4000x128, .f32⟩
  | 114 => ⟨S_, .i32⟩
  | 115 => ⟨S_, .i32⟩
  | 116 => ⟨S401408, .i32⟩
  | 117 => ⟨S_, .i32⟩
  | 118 => ⟨S_, .i32⟩
  | 119 => ⟨S401408, .i32⟩
  | 120 => ⟨S_, .i32⟩
  | 121 => ⟨S_, .f32⟩
  | 122 => ⟨S401408, .f32⟩
  | 123 => ⟨S401408x128, .bf16⟩
  | 124 => ⟨S20480x128, .f32⟩
  | 125 => ⟨S20000x128, .f32⟩
  | 126 => ⟨S_, .f32⟩
  | 127 => ⟨S400000, .f32⟩
  | _ => ⟨S50000x128, .f32⟩

abbrev hbmTy0_1 (i : Nat) : BufTy := match i % 128 with
  | 0 => ⟨S_, .f32⟩
  | 1 => ⟨S20000, .f32⟩
  | 2 => ⟨S400000x1, .i32⟩
  | 3 => ⟨S20000, .f32⟩
  | 4 => ⟨S_, .f32⟩
  | 5 => ⟨S20000, .f32⟩
  | 6 => ⟨S20000, .f32⟩
  | 7 => ⟨S20000x1, .f32⟩
  | 8 => ⟨S20000x128, .f32⟩
  | 9 => ⟨S20000x128, .f32⟩
  | 10 => ⟨S_, .i32⟩
  | 11 => ⟨S_, .i32⟩
  | 12 => ⟨S161792, .i32⟩
  | 13 => ⟨S_, .i32⟩
  | 14 => ⟨S_, .i32⟩
  | 15 => ⟨S161792, .i32⟩
  | 16 => ⟨S_, .i32⟩
  | 17 => ⟨S_, .f32⟩
  | 18 => ⟨S161792, .f32⟩
  | 19 => ⟨S161792x128, .bf16⟩
  | 20 => ⟨S20480x128, .f32⟩
  | 21 => ⟨S20000x128, .f32⟩
  | 22 => ⟨S_, .f32⟩
  | 23 => ⟨S160000, .f32⟩
  | 24 => ⟨S_, .f32⟩
  | 25 => ⟨S20000, .f32⟩
  | 26 => ⟨S160000x1, .i32⟩
  | 27 => ⟨S20000, .f32⟩
  | 28 => ⟨S_, .f32⟩
  | 29 => ⟨S20000, .f32⟩
  | 30 => ⟨S20000, .f32⟩
  | 31 => ⟨S20000x1, .f32⟩
  | 32 => ⟨S20000x128, .f32⟩
  | 33 => ⟨S20000x128, .f32⟩
  | 34 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2048, .i32⟩
  | .local _ .vmem, ⟨7, _⟩ => ⟨S2048, .i32⟩
  | .local _ .vmem, ⟨8, _⟩ => ⟨S2048, .f32⟩
  | .local _ .vmem, ⟨9, _⟩ => ⟨S2048, .f32⟩
  | .local _ .vmem, ⟨10, _⟩ => ⟨S1024x128, .f32⟩
  | .local _ .vmem, ⟨11, _⟩ => ⟨S1024x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048, .i32⟩
  | .local _ .vmem, ⟨16, _⟩ => ⟨S2048, .i32⟩
  | .local _ .vmem, ⟨17, _⟩ => ⟨S2048x128, .bf16⟩
  | .local _ .vmem, ⟨18, _⟩ => ⟨S2048x128, .bf16⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S128, .f32⟩
  | .local _ .vmem, ⟨44, _⟩ => ⟨S2000x128, .f32⟩
  | .local _ .vmem, ⟨45, _⟩ => ⟨S2000x128, .f32⟩
  | .local _ .vmem, ⟨46, _⟩ => ⟨S2048, .i32⟩
  | .local _ .vmem, ⟨47, _⟩ => ⟨S2048, .i32⟩
  | .local _ .vmem, ⟨48, _⟩ => ⟨S2048, .f32⟩
  | .local _ .vmem, ⟨49, _⟩ => ⟨S2048, .f32⟩
  | .local _ .vmem, ⟨50, _⟩ => ⟨S1024x128, .f32⟩
  | .local _ .vmem, ⟨51, _⟩ => ⟨S1024x128, .f32⟩
  | .local _ .vmem, ⟨52, _⟩ => ⟨S2048x128, .bf16⟩
  | .local _ .vmem, ⟨53, _⟩ => ⟨S2048x128, .bf16⟩
  | .local _ .vmem, ⟨54, _⟩ => ⟨S2048x128, .f32⟩
  | .local _ .vmem, ⟨55, _⟩ => ⟨S2048, .i32⟩
  | .local _ .vmem, ⟨56, _⟩ => ⟨S2048, .i32⟩
  | .local _ .vmem, ⟨57, _⟩ => ⟨S2048x128, .bf16⟩
  | .local _ .vmem, ⟨58, _⟩ => ⟨S2048x128, .bf16⟩
  | .local _ .vmem, ⟨59, _⟩ => ⟨S1024x128, .f32⟩
  | .local _ .vmem, ⟨60, _⟩ => ⟨S1024x128, .f32⟩
  | .local _ .vmem, ⟨61, _⟩ => ⟨S1024x128, .f32⟩
  | .local _ .vmem, ⟨62, _⟩ => ⟨S2048, .i32⟩
  | .local _ .vmem, ⟨63, _⟩ => ⟨S2048, .i32⟩
  | .local _ .vmem, ⟨64, _⟩ => ⟨S2048, .f32⟩
  | .local _ .vmem, ⟨65, _⟩ => ⟨S2048, .f32⟩
  | .local _ .vmem, ⟨66, _⟩ => ⟨S1024x128, .f32⟩
  | .local _ .vmem, ⟨67, _⟩ => ⟨S1024x128, .f32⟩
  | .local _ .vmem, ⟨68, _⟩ => ⟨S2048x128, .bf16⟩
  | .local _ .vmem, ⟨69, _⟩ => ⟨S2048x128, .bf16⟩
  | .local _ .vmem, ⟨70, _⟩ => ⟨S2048x128, .f32⟩
  | .local _ .vmem, ⟨71, _⟩ => ⟨S2048, .i32⟩
  | .local _ .vmem, ⟨72, _⟩ => ⟨S2048, .i32⟩
  | .local _ .vmem, ⟨73, _⟩ => ⟨S2048x128, .bf16⟩
  | .local _ .vmem, ⟨74, _⟩ => ⟨S2048x128, .bf16⟩
  | .local _ .vmem, ⟨75, _⟩ => ⟨S1024x128, .f32⟩
  | .local _ .vmem, ⟨76, _⟩ => ⟨S1024x128, .f32⟩
  | .local _ .vmem, ⟨77, _⟩ => ⟨S1024x128, .f32⟩
  | .local _ .vmem, ⟨78, _⟩ => ⟨S2048, .i32⟩
  | .local _ .vmem, ⟨79, _⟩ => ⟨S2048, .i32⟩
  | .local _ .vmem, ⟨80, _⟩ => ⟨S2048, .f32⟩
  | .local _ .vmem, ⟨81, _⟩ => ⟨S2048, .f32⟩
  | .local _ .vmem, ⟨82, _⟩ => ⟨S1024x128, .f32⟩
  | .local _ .vmem, ⟨83, _⟩ => ⟨S1024x128, .f32⟩
  | .local _ .vmem, ⟨84, _⟩ => ⟨S2048x128, .bf16⟩
  | .local _ .vmem, ⟨85, _⟩ => ⟨S2048x128, .bf16⟩
  | .local _ .vmem, ⟨86, _⟩ => ⟨S2048x128, .f32⟩
  | .local _ .vmem, ⟨87, _⟩ => ⟨S2048, .i32⟩
  | .local _ .vmem, ⟨88, _⟩ => ⟨S2048, .i32⟩
  | .local _ .vmem, ⟨89, _⟩ => ⟨S2048x128, .bf16⟩
  | .local _ .vmem, ⟨90, _⟩ => ⟨S2048x128, .bf16⟩
  | .local _ .vmem, ⟨91, _⟩ => ⟨S1024x128, .f32⟩
  | .local _ .vmem, ⟨92, _⟩ => ⟨S1024x128, .f32⟩
  | .local _ .vmem, ⟨93, _⟩ => ⟨S1024x128, .f32⟩
  | .local _ .vmem, ⟨94, _⟩ => ⟨S2048, .i32⟩
  | .local _ .vmem, ⟨95, _⟩ => ⟨S2048, .i32⟩
  | .local _ .vmem, ⟨96, _⟩ => ⟨S2048, .f32⟩
  | .local _ .vmem, ⟨97, _⟩ => ⟨S2048, .f32⟩
  | .local _ .vmem, ⟨98, _⟩ => ⟨S1024x128, .f32⟩
  | .local _ .vmem, ⟨99, _⟩ => ⟨S1024x128, .f32⟩
  | .local _ .vmem, ⟨100, _⟩ => ⟨S2048x128, .bf16⟩
  | .local _ .vmem, ⟨101, _⟩ => ⟨S2048x128, .bf16⟩
  | .local _ .vmem, ⟨102, _⟩ => ⟨S2048x128, .f32⟩
  | .local _ .vmem, ⟨103, _⟩ => ⟨S2048, .i32⟩
  | .local _ .vmem, ⟨104, _⟩ => ⟨S2048, .i32⟩
  | .local _ .vmem, ⟨105, _⟩ => ⟨S2048x128, .bf16⟩
  | .local _ .vmem, ⟨106, _⟩ => ⟨S2048x128, .bf16⟩
  | .local _ .vmem, ⟨107, _⟩ => ⟨S1024x128, .f32⟩
  | .local _ .vmem, ⟨108, _⟩ => ⟨S1024x128, .f32⟩
  | .local _ .vmem, ⟨109, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_v1 : Ref sig .tc := ⟨.hbm, 30, rfl⟩
abbrev main_c_0 : Ref sig .tc := ⟨.hbm, 31, rfl⟩
abbrev main_call1_v0 : Ref sig .tc := ⟨.hbm, 32, rfl⟩
abbrev main_v2 : Ref sig .tc := ⟨.hbm, 33, rfl⟩
abbrev main_c_1 : Ref sig .tc := ⟨.hbm, 34, rfl⟩
abbrev main_call2_v0 : Ref sig .tc := ⟨.hbm, 35, rfl⟩
abbrev main_v3 : Ref sig .tc := ⟨.hbm, 36, rfl⟩
abbrev main_c_2 : Ref sig .tc := ⟨.hbm, 37, rfl⟩
abbrev main_call3_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_4 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_c_5 : Ref sig .tc := ⟨.hbm, 59, rfl⟩
abbrev main_call4_v0 : Ref sig .tc := ⟨.hbm, 60, rfl⟩
abbrev main_v21 : Ref sig .tc := ⟨.hbm, 61, rfl⟩
abbrev main_c_6 : Ref sig .tc := ⟨.hbm, 62, rfl⟩
abbrev main_call5_v0 : Ref sig .tc := ⟨.hbm, 63, rfl⟩
abbrev main_v22 : Ref sig .tc := ⟨.hbm, 64, rfl⟩
abbrev main_c_7 : Ref sig .tc := ⟨.hbm, 65, rfl⟩
abbrev main_call6_v0 : Ref sig .tc := ⟨.hbm, 66, rfl⟩
abbrev main_v23 : Ref sig .tc := ⟨.hbm, 67, rfl⟩
abbrev main_c_8 : Ref sig .tc := ⟨.hbm, 68, rfl⟩
abbrev main_call7_v0 : Ref sig .tc := ⟨.hbm, 69, rfl⟩
abbrev main_v24 : Ref sig .tc := ⟨.hbm, 70, rfl⟩
abbrev main_c_9 : Ref sig .tc := ⟨.hbm, 71, rfl⟩
abbrev main_call8_v0 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_10 : Ref sig .tc := ⟨.hbm, 77, rfl⟩
abbrev main_v29 : Ref sig .tc := ⟨.hbm, 78, rfl⟩
abbrev main_cst_11 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst_12 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_c_13 : Ref sig .tc := ⟨.hbm, 89, rfl⟩
abbrev main_call9_v0 : Ref sig .tc := ⟨.hbm, 90, rfl⟩
abbrev main_v38 : Ref sig .tc := ⟨.hbm, 91, rfl⟩
abbrev main_c_14 : Ref sig .tc := ⟨.hbm, 92, rfl⟩
abbrev main_call10_v0 : Ref sig .tc := ⟨.hbm, 93, rfl⟩
abbrev main_v39 : Ref sig .tc := ⟨.hbm, 94, rfl⟩
abbrev main_c_15 : Ref sig .tc := ⟨.hbm, 95, rfl⟩
abbrev main_call11_v0 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_16 : Ref sig .tc := ⟨.hbm, 101, rfl⟩
abbrev main_v44 : Ref sig .tc := ⟨.hbm, 102, rfl⟩
abbrev main_cst_17 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_18 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_c_19 : Ref sig .tc := ⟨.hbm, 114, rfl⟩
abbrev main_call12_v0 : Ref sig .tc := ⟨.hbm, 115, rfl⟩
abbrev main_v54 : Ref sig .tc := ⟨.hbm, 116, rfl⟩
abbrev main_c_20 : Ref sig .tc := ⟨.hbm, 117, rfl⟩
abbrev main_call13_v0 : Ref sig .tc := ⟨.hbm, 118, rfl⟩
abbrev main_v55 : Ref sig .tc := ⟨.hbm, 119, rfl⟩
abbrev main_c_21 : Ref sig .tc := ⟨.hbm, 120, rfl⟩
abbrev main_call14_v0 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_cst_22 : Ref sig .tc := ⟨.hbm, 126, rfl⟩
abbrev main_v60 : Ref sig .tc := ⟨.hbm, 127, rfl⟩
abbrev main_cst_23 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_24 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_c_25 : Ref sig .tc := ⟨.hbm, 138, rfl⟩
abbrev main_call15_v0 : Ref sig .tc := ⟨.hbm, 139, rfl⟩
abbrev main_v69 : Ref sig .tc := ⟨.hbm, 140, rfl⟩
abbrev main_c_26 : Ref sig .tc := ⟨.hbm, 141, rfl⟩
abbrev main_call16_v0 : Ref sig .tc := ⟨.hbm, 142, rfl⟩
abbrev main_v70 : Ref sig .tc := ⟨.hbm, 143, rfl⟩
abbrev main_c_27 : Ref sig .tc := ⟨.hbm, 144, rfl⟩
abbrev main_call17_v0 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_cst_28 : Ref sig .tc := ⟨.hbm, 150, rfl⟩
abbrev main_v75 : Ref sig .tc := ⟨.hbm, 151, rfl⟩
abbrev main_cst_29 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_cst_30 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg3_1 : Ref sig .tc := ⟨.vmem, 53, rfl⟩
abbrev cc7_scratch0 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg2_1 : Ref sig .tc := ⟨.vmem, 60, rfl⟩
abbrev cc8_scratch0 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc9_stg3_0 : Ref sig .tc := ⟨.vmem, 68, rfl⟩
abbrev cc9_stg3_1 : Ref sig .tc := ⟨.vmem, 69, rfl⟩
abbrev cc9_scratch0 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg1_1 : Ref sig .tc := ⟨.vmem, 74, rfl⟩
abbrev cc10_stg2_0 : Ref sig .tc := ⟨.vmem, 75, rfl⟩
abbrev cc10_stg2_1 : Ref sig .tc := ⟨.vmem, 76, rfl⟩
abbrev cc10_scratch0 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg1_1 : Ref sig .tc := ⟨.vmem, 81, rfl⟩
abbrev cc11_stg2_0 : Ref sig .tc := ⟨.vmem, 82, rfl⟩
abbrev cc11_stg2_1 : Ref sig .tc := ⟨.vmem, 83, rfl⟩
abbrev cc11_stg3_0 : Ref sig .tc := ⟨.vmem, 84, rfl⟩
abbrev cc11_stg3_1 : Ref sig .tc := ⟨.vmem, 85, rfl⟩
abbrev cc11_scratch0 : Ref sig .tc := ⟨.vmem, 86, rfl⟩
abbrev cc12_stg0_0 : Ref sig .tc := ⟨.vmem, 87, rfl⟩
abbrev cc12_stg0_1 : Ref sig .tc := ⟨.vmem, 88, rfl⟩
abbrev cc12_stg1_0 : Ref sig .tc := ⟨.vmem, 89, rfl⟩
abbrev cc12_stg1_1 : Ref sig .tc := ⟨.vmem, 90, rfl⟩
abbrev cc12_stg2_0 : Ref sig .tc := ⟨.vmem, 91, rfl⟩
abbrev cc12_stg2_1 : Ref sig .tc := ⟨.vmem, 92, rfl⟩
abbrev cc12_scratch0 : Ref sig .tc := ⟨.vmem, 93, rfl⟩
abbrev cc13_stg0_0 : Ref sig .tc := ⟨.vmem, 94, rfl⟩
abbrev cc13_stg0_1 : Ref sig .tc := ⟨.vmem, 95, rfl⟩
abbrev cc13_stg1_0 : Ref sig .tc := ⟨.vmem, 96, rfl⟩
abbrev cc13_stg1_1 : Ref sig .tc := ⟨.vmem, 97, rfl⟩
abbrev cc13_stg2_0 : Ref sig .tc := ⟨.vmem, 98, rfl⟩
abbrev cc13_stg2_1 : Ref sig .tc := ⟨.vmem, 99, rfl⟩
abbrev cc13_stg3_0 : Ref sig .tc := ⟨.vmem, 100, rfl⟩
abbrev cc13_stg3_1 : Ref sig .tc := ⟨.vmem, 101, rfl⟩
abbrev cc13_scratch0 : Ref sig .tc := ⟨.vmem, 102, rfl⟩
abbrev cc14_stg0_0 : Ref sig .tc := ⟨.vmem, 103, rfl⟩
abbrev cc14_stg0_1 : Ref sig .tc := ⟨.vmem, 104, rfl⟩
abbrev cc14_stg1_0 : Ref sig .tc := ⟨.vmem, 105, rfl⟩
abbrev cc14_stg1_1 : Ref sig .tc := ⟨.vmem, 106, rfl⟩
abbrev cc14_stg2_0 : Ref sig .tc := ⟨.vmem, 107, rfl⟩
abbrev cc14_stg2_1 : Ref sig .tc := ⟨.vmem, 108, rfl⟩
abbrev cc14_scratch0 : Ref sig .tc := ⟨.vmem, 109, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc9_sem0_0 : DmaSem sig := 58
abbrev cc9_sem0_1 : DmaSem sig := 59
abbrev cc9_sem1_0 : DmaSem sig := 60
abbrev cc9_sem1_1 : DmaSem sig := 61
abbrev cc9_sem2_0 : DmaSem sig := 62
abbrev cc9_sem2_1 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc10_sem2_1 : DmaSem sig := 71
abbrev cc11_sem0_0 : DmaSem sig := 72
abbrev cc11_sem0_1 : DmaSem sig := 73
abbrev cc11_sem1_0 : DmaSem sig := 74
abbrev cc11_sem1_1 : DmaSem sig := 75
abbrev cc11_sem2_0 : DmaSem sig := 76
abbrev cc11_sem2_1 : DmaSem sig := 77
abbrev cc11_sem3_0 : DmaSem sig := 78
abbrev cc11_sem3_1 : DmaSem sig := 79
abbrev cc12_sem0_0 : DmaSem sig := 80
abbrev cc12_sem0_1 : DmaSem sig := 81
abbrev cc12_sem1_0 : DmaSem sig := 82
abbrev cc12_sem1_1 : DmaSem sig := 83
abbrev cc12_sem2_0 : DmaSem sig := 84
abbrev cc12_sem2_1 : DmaSem sig := 85
abbrev cc13_sem0_0 : DmaSem sig := 86
abbrev cc13_sem0_1 : DmaSem sig := 87
abbrev cc13_sem1_0 : DmaSem sig := 88
abbrev cc13_sem1_1 : DmaSem sig := 89
abbrev cc13_sem2_0 : DmaSem sig := 90
abbrev cc13_sem2_1 : DmaSem sig := 91
abbrev cc13_sem3_0 : DmaSem sig := 92
abbrev cc13_sem3_1 : DmaSem sig := 93
abbrev cc14_sem0_0 : DmaSem sig := 94
abbrev cc14_sem0_1 : DmaSem sig := 95
abbrev cc14_sem1_0 : DmaSem sig := 96
abbrev cc14_sem1_1 : DmaSem sig := 97
abbrev cc14_sem2_0 : DmaSem sig := 98
abbrev cc14_sem2_1 : DmaSem sig := 99

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![391, 49], ![false, false]⟩

def k1_cond2 (i : grid1.Coords) : BitVec 1 :=
  let arg1 : BitVec 32 := BitVec.ofNat 32 (i 1).val
  let c48_i32 : BitVec 32 := 48#32
  let v30 : BitVec 1 := Scalar.cmpi .eq arg1 c48_i32
  let v31 : BitVec 32 := Scalar.extui v30
  let c0_i32_9 : BitVec 32 := 0#32
  let v32 : BitVec 1 := Scalar.cmpi .ne v31 c0_i32_9
  v32

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 391], ![false, false]⟩

def k2_cond2 (i : grid2.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![196, 49], ![false, false]⟩

def k7_cond2 (i : grid7.Coords) : BitVec 1 :=
  let arg1 : BitVec 32 := BitVec.ofNat 32 (i 1).val
  let c48_i32 : BitVec 32 := 48#32
  let v30 : BitVec 1 := Scalar.cmpi .eq arg1 c48_i32
  let v31 : BitVec 32 := Scalar.extui v30
  let c0_i32_9 : BitVec 32 := 0#32
  let v32 : BitVec 1 := Scalar.cmpi .ne v31 c0_i32_9
  v32

def cc7_transform_0 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_1 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S2048x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![4, 196], ![false, false]⟩

def k8_cond2 (i : grid8.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc8_transform_0 (i : grid8.Coords) : Fin 1 → Nat :=
  let arg0 : BitVec 32 := BitVec.ofNat 32 (i 0).val
  let arg1 : BitVec 32 := BitVec.ofNat 32 (i 1).val
  let c0_i32 : BitVec 32 := 0#32
  ![arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S2048x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![79, 4], ![false, false]⟩

def k9_cond2 (i : grid9.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_9 : BitVec 32 := 0#32
  let v32 : BitVec 1 := Scalar.cmpi .ne v31 c0_i32_9
  v32

def cc9_transform_0 (i : grid9.Coords) : Fin 1 → Nat :=
  let arg0 : BitVec 32 := BitVec.ofNat 32 (i 0).val
  let arg1 : BitVec 32 := BitVec.ofNat 32 (i 1).val
  let c0_i32 : BitVec 32 := 0#32
  ![arg0.toNat]

def cc9_transform_1 (i : grid9.Coords) : Fin 1 → Nat :=
  let arg0 : BitVec 32 := BitVec.ofNat 32 (i 0).val
  let arg1 : BitVec 32 := BitVec.ofNat 32 (i 1).val
  let c0_i32 : BitVec 32 := 0#32
  ![arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S2048 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S2048 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S1024x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S2048x128 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![4, 79], ![false, false]⟩

def k10_cond2 (i : grid10.Coords) : BitVec 1 :=
  let arg1 : BitVec 32 := BitVec.ofNat 32 (i 1).val
  let c78_i32 : BitVec 32 := 78#32
  let v24 : BitVec 1 := Scalar.cmpi .eq arg1 c78_i32
  let v25 : BitVec 32 := Scalar.extui v24
  let c0_i32_7 : BitVec 32 := 0#32
  let v26 : BitVec 1 := Scalar.cmpi .ne v25 c0_i32_7
  v26

def cc10_transform_0 (i : grid10.Coords) : Fin 1 → Nat :=
  let arg0 : BitVec 32 := BitVec.ofNat 32 (i 0).val
  let arg1 : BitVec 32 := BitVec.ofNat 32 (i 1).val
  let c0_i32 : BitVec 32 := 0#32
  ![arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2048 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 2 → Memref sig .tc .vmem S2048x128 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨2, ![196, 49], ![false, false]⟩

def k11_cond2 (i : grid11.Coords) : BitVec 1 :=
  let arg1 : BitVec 32 := BitVec.ofNat 32 (i 1).val
  let c48_i32 : BitVec 32 := 48#32
  let v30 : BitVec 1 := Scalar.cmpi .eq arg1 c48_i32
  let v31 : BitVec 32 := Scalar.extui v30
  let c0_i32_9 : BitVec 32 := 0#32
  let v32 : BitVec 1 := Scalar.cmpi .ne v31 c0_i32_9
  v32

def cc11_transform_0 (i : grid11.Coords) : Fin 1 → Nat :=
  let arg0 : BitVec 32 := BitVec.ofNat 32 (i 0).val
  let arg1 : BitVec 32 := BitVec.ofNat 32 (i 1).val
  let c0_i32 : BitVec 32 := 0#32
  ![arg0.toNat]

def cc11_transform_1 (i : grid11.Coords) : Fin 1 → Nat :=
  let arg0 : BitVec 32 := BitVec.ofNat 32 (i 0).val
  let arg1 : BitVec 32 := BitVec.ofNat 32 (i 1).val
  let c0_i32 : BitVec 32 := 0#32
  ![arg0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S2048 .i32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S2048 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S1024x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![false, true]

abbrev stage11_3 : Fin 2 → Memref sig .tc .vmem S2048x128 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev grid12 : Pipeline.Grid := ⟨2, ![20, 196], ![false, false]⟩

def k12_cond2 (i : grid12.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_7 : BitVec 32 := 0#32
  let v26 : BitVec 1 := Scalar.cmpi .ne v25 c0_i32_7
  v26

def cc12_transform_0 (i : grid12.Coords) : Fin 1 → Nat :=
  let arg0 : BitVec 32 := BitVec.ofNat 32 (i 0).val
  let arg1 : BitVec 32 := BitVec.ofNat 32 (i 1).val
  let c0_i32 : BitVec 32 := 0#32
  ![arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S2048 .i32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![false, true]

abbrev stage12_1 : Fin 2 → Memref sig .tc .vmem S2048x128 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1024x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev grid13 : Pipeline.Grid := ⟨2, ![79, 4], ![false, false]⟩

def k13_cond2 (i : grid13.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_9 : BitVec 32 := 0#32
  let v32 : BitVec 1 := Scalar.cmpi .ne v31 c0_i32_9
  v32

def cc13_transform_0 (i : grid13.Coords) : Fin 1 → Nat :=
  let arg0 : BitVec 32 := BitVec.ofNat 32 (i 0).val
  let arg1 : BitVec 32 := BitVec.ofNat 32 (i 1).val
  let c0_i32 : BitVec 32 := 0#32
  ![arg0.toNat]

def cc13_transform_1 (i : grid13.Coords) : Fin 1 → Nat :=
  let arg0 : BitVec 32 := BitVec.ofNat 32 (i 0).val
  let arg1 : BitVec 32 := BitVec.ofNat 32 (i 1).val
  let c0_i32 : BitVec 32 := 0#32
  ![arg0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S2048 .i32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false]

abbrev stage13_1 : Fin 2 → Memref sig .tc .vmem S2048 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true, false]

abbrev stage13_2 : Fin 2 → Memref sig .tc .vmem S1024x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![false, true]

abbrev stage13_3 : Fin 2 → Memref sig .tc .vmem S2048x128 .bf16 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

abbrev grid14 : Pipeline.Grid := ⟨2, ![20, 79], ![false, false]⟩

def k14_cond2 (i : grid14.Coords) : BitVec 1 :=
  let arg1 : BitVec 32 := BitVec.ofNat 32 (i 1).val
  let c78_i32 : BitVec 32 := 78#32
  let v24 : BitVec 1 := Scalar.cmpi .eq arg1 c78_i32
  let v25 : BitVec 32 := Scalar.extui v24
  let c0_i32_7 : BitVec 32 := 0#32
  let v26 : BitVec 1 := Scalar.cmpi .ne v25 c0_i32_7
  v26

def cc14_transform_0 (i : grid14.Coords) : Fin 1 → Nat :=
  let arg0 : BitVec 32 := BitVec.ofNat 32 (i 0).val
  let arg1 : BitVec 32 := BitVec.ofNat 32 (i 1).val
  let c0_i32 : BitVec 32 := 0#32
  ![arg1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S2048 .i32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![false, true]

abbrev stage14_1 : Fin 2 → Memref sig .tc .vmem S2048x128 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1024x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, false]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  pads_S50000x128_S50176x128_01760_000 : S50000x128.Pads (![0, 0] : Fin 2 → Nat) ![176, 0] ![0, 0] S50176x128
  h_S_ : 0 < S_.numel
  pads_S800000_S800768_07680 : S800000.Pads (![0] : Fin 1 → Nat) ![768] ![0] S800768
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  iota_S1x1024_d1_w32 : S1x1024.Iotas .tc 32 [1]
  broadcasts_S2048x1_S2048x1024 : S2048x1.Broadcasts S2048x1024
  broadcasts_S1x1024_S2048x1024 : S1x1024.Broadcasts S2048x1024
  shapeCasts_S2048x1_S2048x1 : S2048x1.ShapeCasts S2048x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S2048x128_S2048x128_0_0 : (Rect.unit (s := S2048x128) ![0, 0] S2048x128.size inb_S2048x128_S2048x128_0_0).PackedRows (EltTy.packing .bf16)
  shapeCasts_S2048_S1x2048 : S2048.ShapeCasts S1x2048
  iota_S1024x1_d0_w32 : S1024x1.Iotas .tc 32 [0]
  broadcasts_S1024x1_S1024x2048 : S1024x1.Broadcasts S1024x2048
  broadcasts_S1x2048_S1024x2048 : S1x2048.Broadcasts S1024x2048
  natLt_1_32 : 1 < 32
  slices_S50176x128_S50000x128_0_0 : S50176x128.Slices ![0, 0] S50000x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S2000x128_S2000x128 : S2000x128.ShapeCasts S2000x128
  pads_S4000x128_S4096x128_0960_000 : S4000x128.Pads (![0, 0] : Fin 2 → Nat) ![96, 0] ![0, 0] S4096x128
  pads_S400000_S401408_014080 : S400000.Pads (![0] : Fin 1 → Nat) ![1408] ![0] S401408
  slices_S4096x128_S4000x128_0_0 : S4096x128.Slices ![0, 0] S4000x128
  bcast_S_S400000 : S_.BroadcastsInDim S400000 (![] : Fin 0 → Fin S400000.rank)
  bcast_S_S4000 : S_.BroadcastsInDim S4000 (![] : Fin 0 → Fin S4000.rank)
  bcast_S400000_S400000x1_0 : S400000.BroadcastsInDim S400000x1 (![0] : Fin 1 → Fin S400000x1.rank)
  bcast_S4000_S4000x1_0 : S4000.BroadcastsInDim S4000x1 (![0] : Fin 1 → Fin S4000x1.rank)
  bcast_S4000x1_S4000x128_0_1 : S4000x1.BroadcastsInDim S4000x128 (![0, 1] : Fin 2 → Fin S4000x128.rank)
  pads_S160000_S161792_017920 : S160000.Pads (![0] : Fin 1 → Nat) ![1792] ![0] S161792
  bcast_S_S160000 : S_.BroadcastsInDim S160000 (![] : Fin 0 → Fin S160000.rank)
  bcast_S160000_S160000x1_0 : S160000.BroadcastsInDim S160000x1 (![0] : Fin 1 → Fin S160000x1.rank)
  slices_S20480x128_S20000x128_0_0 : S20480x128.Slices ![0, 0] S20000x128
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  dot_S2000x128_S128x128_S2000x128_1_0_0_1_n_n_wf : DotDims.WF S2000x128 S128x128 S2000x128 [1] [0] [0] [1] [] []
  dot_S2048x1024_S1024x128_S2048x128_1_0_0_1_n_n_wf : DotDims.WF S2048x1024 S1024x128 S2048x128 [1] [0] [0] [1] [] []
  dot_S1024x2048_S2048x128_S1024x128_1_0_0_1_n_n_wf : DotDims.WF S1024x2048 S2048x128 S1024x128 [1] [0] [0] [1] [] []
  scatter_S50000_S800000x1_S800000_n_0_0_1_wf : ScatterDims.WF S50000 S800000x1 S800000 [] [0] [0] 1
  scatter_S4000_S400000x1_S400000_n_0_0_1_wf : ScatterDims.WF S4000 S400000x1 S400000 [] [0] [0] 1
  scatter_S4000_S160000x1_S160000_n_0_0_1_wf : ScatterDims.WF S4000 S160000x1 S160000 [] [0] [0] 1
  scatter_S20000_S400000x1_S400000_n_0_0_1_wf : ScatterDims.WF S20000 S400000x1 S400000 [] [0] [0] 1
  scatter_S20000_S160000x1_S160000_n_0_0_1_wf : ScatterDims.WF S20000 S160000x1 S160000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S800768.size a
  hwx1_0 : ∀ i : grid1.Coords, EltTy.bits .i32 = 32 ∨ (Rect.block (s := S800768) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S800768.size a
  hwx1_1 : ∀ i : grid1.Coords, EltTy.bits .f32 = 32 ∨ (Rect.block (s := S800768) S2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S800768x128.size a
  hwx1_3 : ∀ i : grid1.Coords, EltTy.bits .bf16 = 32 ∨ (Rect.block (s := S800768x128) S2048x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048.size a ≤ S800768.size a
  hwx2_0 : ∀ i : grid2.Coords, EltTy.bits .i32 = 32 ∨ (Rect.block (s := S800768) S2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S800768x128.size a
  hwx2_1 : ∀ i : grid2.Coords, EltTy.bits .bf16 = 32 ∨ (Rect.block (s := S800768x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S50176x128.size a
  hwx2_2 : ∀ i : grid2.Coords, EltTy.bits .f32 = 32 ∨ (Rect.block (s := S50176x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S4000x128.size a
  hwx5_0 : ∀ i : grid5.Coords, EltTy.bits .f32 = 32 ∨ (Rect.block (s := S4000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S4000x128.size a
  hwx5_3 : ∀ i : grid5.Coords, EltTy.bits .f32 = 32 ∨ (Rect.block (s := S4000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S4000x128.size a
  hwx6_0 : ∀ i : grid6.Coords, EltTy.bits .f32 = 32 ∨ (Rect.block (s := S4000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S4000x128.size a
  hwx6_3 : ∀ i : grid6.Coords, EltTy.bits .f32 = 32 ∨ (Rect.block (s := S4000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048.size a ≤ S401408.size a
  hwx7_0 : ∀ i : grid7.Coords, EltTy.bits .i32 = 32 ∨ (Rect.block (s := S401408) S2048.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048.size a ≤ S401408.size a
  hwx7_1 : ∀ i : grid7.Coords, EltTy.bits .f32 = 32 ∨ (Rect.block (s := S401408) S2048.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S50176x128.size a
  hwx7_2 : ∀ i : grid7.Coords, EltTy.bits .f32 = 32 ∨ (Rect.block (s := S50176x128) S1024x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x128.size a ≤ S401408x128.size a
  hwx7_3 : ∀ i : grid7.Coords, EltTy.bits .bf16 = 32 ∨ (Rect.block (s := S401408x128) S2048x128.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048.size a ≤ S401408.size a
  hwx8_0 : ∀ i : grid8.Coords, EltTy.bits .i32 = 32 ∨ (Rect.block (s := S401408) S2048.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x128.size a ≤ S401408x128.size a
  hwx8_1 : ∀ i : grid8.Coords, EltTy.bits .bf16 = 32 ∨ (Rect.block (s := S401408x128) S2048x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S4096x128.size a
  hwx8_2 : ∀ i : grid8.Coords, EltTy.bits .f32 = 32 ∨ (Rect.block (s := S4096x128) S1024x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2048.size a ≤ S161792.size a
  hwx9_0 : ∀ i : grid9.Coords, EltTy.bits .i32 = 32 ∨ (Rect.block (s := S161792) S2048.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048.size a ≤ S161792.size a
  hwx9_1 : ∀ i : grid9.Coords, EltTy.bits .f32 = 32 ∨ (Rect.block (s := S161792) S2048.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x128.size a ≤ S4096x128.size a
  hwx9_2 : ∀ i : grid9.Coords, EltTy.bits .f32 = 32 ∨ (Rect.block (s := S4096x128) S1024x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x128.size a ≤ S161792x128.size a
  hwx9_3 : ∀ i : grid9.Coords, EltTy.bits .bf16 = 32 ∨ (Rect.block (s := S161792x128) S2048x128.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048.size a ≤ S161792.size a
  hwx10_0 : ∀ i : grid10.Coords, EltTy.bits .i32 = 32 ∨ (Rect.block (s := S161792) S2048.size (cc10_transform_0 i) (hinb10_0 i)).WholeWords (EltTy.packing .i32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2048x128.size a ≤ S161792x128.size a
  hwx10_1 : ∀ i : grid10.Coords, EltTy.bits .bf16 = 32 ∨ (Rect.block (s := S161792x128) S2048x128.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x128.size a ≤ S4096x128.size a
  hwx10_2 : ∀ i : grid10.Coords, EltTy.bits .f32 = 32 ∨ (Rect.block (s := S4096x128) S1024x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2048.size a ≤ S401408.size a
  hwx11_0 : ∀ i : grid11.Coords, EltTy.bits .i32 = 32 ∨ (Rect.block (s := S401408) S2048.size (cc11_transform_0 i) (hinb11_0 i)).WholeWords (EltTy.packing .i32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2048.size a ≤ S401408.size a
  hwx11_1 : ∀ i : grid11.Coords, EltTy.bits .f32 = 32 ∨ (Rect.block (s := S401408) S2048.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x128.size a ≤ S50176x128.size a
  hwx11_2 : ∀ i : grid11.Coords, EltTy.bits .f32 = 32 ∨ (Rect.block (s := S50176x128) S1024x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2048x128.size a ≤ S401408x128.size a
  hwx11_3 : ∀ i : grid11.Coords, EltTy.bits .bf16 = 32 ∨ (Rect.block (s := S401408x128) S2048x128.size (cc11_transform_3 i) (hinb11_3 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2048.size a ≤ S401408.size a
  hwx12_0 : ∀ i : grid12.Coords, EltTy.bits .i32 = 32 ∨ (Rect.block (s := S401408) S2048.size (cc12_transform_0 i) (hinb12_0 i)).WholeWords (EltTy.packing .i32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2048x128.size a ≤ S401408x128.size a
  hwx12_1 : ∀ i : grid12.Coords, EltTy.bits .bf16 = 32 ∨ (Rect.block (s := S401408x128) S2048x128.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1024x128.size a ≤ S20480x128.size a
  hwx12_2 : ∀ i : grid12.Coords, EltTy.bits .f32 = 32 ∨ (Rect.block (s := S20480x128) S1024x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2048.size a ≤ S161792.size a
  hwx13_0 : ∀ i : grid13.Coords, EltTy.bits .i32 = 32 ∨ (Rect.block (s := S161792) S2048.size (cc13_transform_0 i) (hinb13_0 i)).WholeWords (EltTy.packing .i32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2048.size a ≤ S161792.size a
  hwx13_1 : ∀ i : grid13.Coords, EltTy.bits .f32 = 32 ∨ (Rect.block (s := S161792) S2048.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x128.size a ≤ S4096x128.size a
  hwx13_2 : ∀ i : grid13.Coords, EltTy.bits .f32 = 32 ∨ (Rect.block (s := S4096x128) S1024x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2048x128.size a ≤ S161792x128.size a
  hwx13_3 : ∀ i : grid13.Coords, EltTy.bits .bf16 = 32 ∨ (Rect.block (s := S161792x128) S2048x128.size (cc13_transform_3 i) (hinb13_3 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2048.size a ≤ S161792.size a
  hwx14_0 : ∀ i : grid14.Coords, EltTy.bits .i32 = 32 ∨ (Rect.block (s := S161792) S2048.size (cc14_transform_0 i) (hinb14_0 i)).WholeWords (EltTy.packing .i32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2048x128.size a ≤ S161792x128.size a
  hwx14_1 : ∀ i : grid14.Coords, EltTy.bits .bf16 = 32 ∨ (Rect.block (s := S161792x128) S2048x128.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1024x128.size a ≤ S20480x128.size a
  hwx14_2 : ∀ i : grid14.Coords, EltTy.bits .f32 = 32 ∨ (Rect.block (s := S20480x128) S1024x128.size (cc14_transform_2 i) (hinb14_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S4000_S400000x1_S400000_n_0_0_1 : ScatterDims S4000 S400000x1 S400000 where
  updateWindowDims := []
  insertedWindowDims := [0]
  scatterDimsToOperandDims := [0]
  indexVectorDim := 1
  wf := scatter_S4000_S400000x1_S400000_n_0_0_1_wf
def scatter_S4000_S160000x1_S160000_n_0_0_1 : ScatterDims S4000 S160000x1 S160000 where
  updateWindowDims := []
  insertedWindowDims := [0]
  scatterDimsToOperandDims := [0]
  indexVectorDim := 1
  wf := scatter_S4000_S160000x1_S160000_n_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v16) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v17) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v19) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v19) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v20) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v23) S2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v25) S2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v21) S1024x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v26) S2048x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v24) S2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v26) S2048x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v27) S1024x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v38) S2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v40) S2048.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v22) S1024x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v41) S2048x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v39) S2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v41) S2048x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v42) S1024x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v54) S2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v56) S2048.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v21) S1024x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v57) S2048x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

abbrev win12_0 : Pipeline.Window sig grid12 :=
  Pipeline.Window.ofSpec (Memref.whole main_v55) S2048.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v57) S2048x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v58) S1024x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v69) S2048.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v71) S2048.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v22) S1024x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v72) S2048x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

abbrev win14_0 : Pipeline.Window sig grid14 :=
  Pipeline.Window.ofSpec (Memref.whole main_v70) S2048.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v72) S2048x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v73) S1024x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S4000x128 : Shape := ⟨2, ![4000, 128]⟩
abbrev S128x128 : Shape := ⟨2, ![128, 128]⟩
abbrev S128 : Shape := ⟨1, ![128]⟩
abbrev S800000 : Shape := ⟨1, ![800000]⟩
abbrev S400000 : Shape := ⟨1, ![400000]⟩
abbrev S160000 : Shape := ⟨1, ![160000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S400000x1 : Shape := ⟨2, ![400000, 1]⟩
abbrev S400000x128 : Shape := ⟨2, ![400000, 128]⟩
abbrev S4000 : Shape := ⟨1, ![4000]⟩
abbrev S4000x1 : Shape := ⟨2, ![4000, 1]⟩
abbrev S160000x1 : Shape := ⟨2, ![160000, 1]⟩
abbrev S160000x128 : Shape := ⟨2, ![160000, 128]⟩
abbrev S20000x128 : Shape := ⟨2, ![20000, 128]⟩
abbrev S20000 : Shape := ⟨1, ![20000]⟩
abbrev S20000x1 : Shape := ⟨2, ![20000, 1]⟩

abbrev nBuf : Space → Nat
  | .hbm => 194
  | .vmem => 0
  | .smem => 0
  | _ => 0

abbrev hbmTy0_0 (i : Nat) : BufTy := match i % 128 with
  | 0 => ⟨S50000x128, .f32⟩
  | 1 => ⟨S4000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S800000, .i32⟩
  | 13 => ⟨S800000, .i32⟩
  | 14 => ⟨S800000, .f32⟩
  | 15 => ⟨S400000, .i32⟩
  | 16 => ⟨S400000, .i32⟩
  | 17 => ⟨S400000, .f32⟩
  | 18 => ⟨S400000, .i32⟩
  | 19 => ⟨S400000, .i32⟩
  | 20 => ⟨S400000, .f32⟩
  | 21 => ⟨S160000, .i32⟩
  | 22 => ⟨S160000, .i32⟩
  | 23 => ⟨S160000, .f32⟩
  | 24 => ⟨S160000, .i32⟩
  | 25 => ⟨S160000, .i32⟩
  | 26 => ⟨S160000, .f32⟩
  | 27 => ⟨S128x128, .f32⟩
  | 28 => ⟨S50000x128, .f32⟩
  | 29 => ⟨S1x128, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x1, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S_, .f32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S128x128, .f32⟩
  | 61 => ⟨S50000x128, .f32⟩
  | 62 => ⟨S1x128, .f32⟩
  | 63 => ⟨S50000x128, .f32⟩
  | 64 => ⟨S50000x128, .f32⟩
  | 65 => ⟨S128x128, .f32⟩
  | 66 => ⟨S50000x128, .f32⟩
  | 67 => ⟨S1x128, .f32⟩
  | 68 => ⟨S50000x128, .f32⟩
  | 69 => ⟨S50000x128, .f32⟩
  | 70 => ⟨S128x128, .f32⟩
  | 71 => ⟨S4000x128, .f32⟩
  | 72 => ⟨S1x128, .f32⟩
  | 73 => ⟨S4000x128, .f32⟩
  | 74 => ⟨S4000x128, .f32⟩
  | 75 => ⟨S128x128, .f32⟩
  | 76 => ⟨S4000x128, .f32⟩
  | 77 => ⟨S1x128, .f32⟩
  | 78 => ⟨S4000x128, .f32⟩
  | 79 => ⟨S4000x128, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x128, .f32⟩
  | 89 => ⟨S400000x1, .f32⟩
  | 90 => ⟨S400000x128, .f32⟩
  | 91 => ⟨S400000x128, .f32⟩
  | 92 => ⟨S_, .f32⟩
  | 93 => ⟨S4000x128, .f32⟩
  | 94 => ⟨S400000x1, .i32⟩
  | 95 => ⟨S4000x128, .f32⟩
  | 96 => ⟨S_, .f32⟩
  | 97 => ⟨S400000, .f32⟩
  | 98 => ⟨S_, .f32⟩
  | 99 => ⟨S4000, .f32⟩
  | 100 => ⟨S400000x1, .i32⟩
  | 101 => ⟨S4000, .f32⟩
  | 102 => ⟨S_, .f32⟩
  | 103 => ⟨S4000, .f32⟩
  | 104 => ⟨S4000, .f32⟩
  | 105 => ⟨S4000x1, .f32⟩
  | 106 => ⟨S4000x128, .f32⟩
  | 107 => ⟨S4000x128, .f32⟩
  | 108 => ⟨S_, .i32⟩
  | 109 => ⟨S160000, .i32⟩
  | 110 => ⟨S160000, .i1⟩
  | 111 => ⟨S_, .i32⟩
  | 112 => ⟨S160000, .i32⟩
  | 113 => ⟨S160000, .i32⟩
  | 114 => ⟨S160000, .i32⟩
  | 115 => ⟨S160000x1, .i32⟩
  | 116 => ⟨S160000x128, .f32⟩
  | 117 => ⟨S160000x1, .f32⟩
  | 118 => ⟨S160000x128, .f32⟩
  | 119 => ⟨S160000x128, .f32⟩
  | 120 => ⟨S_, .f32⟩
  | 121 => ⟨S4000x128, .f32⟩
  | 122 => ⟨S160000x1, .i32⟩
  | 123 => ⟨S4000x128, .f32⟩
  | 124 => ⟨S_, .f32⟩
  | 125 => ⟨S160000, .f32⟩
  | 126 => ⟨S_, .f32⟩
  | 127 => ⟨S4000, .f32⟩
  | _ => ⟨S50000x128, .f32⟩

abbrev hbmTy0_1 (i : Nat) : BufTy := match i % 128 with
  | 0 => ⟨S160000x1, .i32⟩
  | 1 => ⟨S4000, .f32⟩
  | 2 => ⟨S_, .f32⟩
  | 3 => ⟨S4000, .f32⟩
  | 4 => ⟨S4000, .f32⟩
  | 5 => ⟨S4000x1, .f32⟩
  | 6 => ⟨S4000x128, .f32⟩
  | 7 => ⟨S4000x128, .f32⟩
  | 8 => ⟨S4000x128, .f32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x128, .f32⟩
  | 18 => ⟨S400000x1, .f32⟩
  | 19 => ⟨S400000x128, .f32⟩
  | 20 => ⟨S400000x128, .f32⟩
  | 21 => ⟨S_, .f32⟩
  | 22 => ⟨S20000x128, .f32⟩
  | 23 => ⟨S400000x1, .i32⟩
  | 24 => ⟨S20000x128, .f32⟩
  | 25 => ⟨S_, .f32⟩
  | 26 => ⟨S400000, .f32⟩
  | 27 => ⟨S_, .f32⟩
  | 28 => ⟨S20000, .f32⟩
  | 29 => ⟨S400000x1, .i32⟩
  | 30 => ⟨S20000, .f32⟩
  | 31 => ⟨S_, .f32⟩
  | 32 => ⟨S20000, .f32⟩
  | 33 => ⟨S20000, .f32⟩
  | 34 => ⟨S20000x1, .f32⟩
  | 35 => ⟨S20000x128, .f32⟩
  | 36 => ⟨S20000x128, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x128, .f32⟩
  | 46 => ⟨S160000x1, .f32⟩
  | 47 => ⟨S160000x128, .f32⟩
  | 48 => ⟨S160000x128, .f32⟩
  | 49 => ⟨S_, .f32⟩
  | 50 => ⟨S20000x128, .f32⟩
  | 51 => ⟨S160000x1, .i32⟩
  | 52 => ⟨S20000x128, .f32⟩
  | 53 => ⟨S_, .f32⟩
  | 54 => ⟨S160000, .f32⟩
  | 55 => ⟨S_, .f32⟩
  | 56 => ⟨S20000, .f32⟩
  | 57 => ⟨S160000x1, .i32⟩
  | 58 => ⟨S20000, .f32⟩
  | 59 => ⟨S_, .f32⟩
  | 60 => ⟨S20000, .f32⟩
  | 61 => ⟨S20000, .f32⟩
  | 62 => ⟨S20000x1, .f32⟩
  | 63 => ⟨S20000x128, .f32⟩
  | 64 => ⟨S20000x128, .f32⟩
  | 65 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_c : Ref sig .tc := ⟨.hbm, 32, rfl⟩
abbrev main_v5 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_1 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_4 : Ref sig .tc := ⟨.hbm, 80, rfl⟩
abbrev main_v47 : Ref sig .tc := ⟨.hbm, 81, rfl⟩
abbrev main_v48 : Ref sig .tc := ⟨.hbm, 82, rfl⟩
abbrev main_c_5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_6 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_7 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_9 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_10 : Ref sig .tc := ⟨.hbm, 108, rfl⟩
abbrev main_v69 : Ref sig .tc := ⟨.hbm, 109, rfl⟩
abbrev main_v70 : Ref sig .tc := ⟨.hbm, 110, rfl⟩
abbrev main_c_11 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_12 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_13 : Ref sig .tc := ⟨.hbm, 124, rfl⟩
abbrev main_v82 : Ref sig .tc := ⟨.hbm, 125, rfl⟩
abbrev main_cst_14 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_15 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_16 : Ref sig .tc := ⟨.hbm, 137, rfl⟩
abbrev main_v92 : Ref sig .tc := ⟨.hbm, 138, rfl⟩
abbrev main_v93 : Ref sig .tc := ⟨.hbm, 139, rfl⟩
abbrev main_c_17 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_18 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_19 : Ref sig .tc := ⟨.hbm, 153, rfl⟩
abbrev main_v105 : Ref sig .tc := ⟨.hbm, 154, rfl⟩
abbrev main_cst_20 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_21 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_22 : Ref sig .tc := ⟨.hbm, 165, rfl⟩
abbrev main_v114 : Ref sig .tc := ⟨.hbm, 166, rfl⟩
abbrev main_v115 : Ref sig .tc := ⟨.hbm, 167, rfl⟩
abbrev main_c_23 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_24 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_25 : Ref sig .tc := ⟨.hbm, 181, rfl⟩
abbrev main_v127 : Ref sig .tc := ⟨.hbm, 182, rfl⟩
abbrev main_cst_26 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_27 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S4000x128_0_1 : S1x128.BroadcastsInDim S4000x128 (![0, 1] : Fin 2 → Fin S4000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S4000x128 : S_.BroadcastsInDim S4000x128 (![] : Fin 0 → Fin S4000x128.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x128_0_1 : S4000x1.BroadcastsInDim S4000x128 (![0, 1] : Fin 2 → Fin S4000x128.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x128_0_1 : S160000x1.BroadcastsInDim S160000x128 (![0, 1] : Fin 2 → Fin S160000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S4000x128_S128x128_S4000x128_1_0_0_1_n_n_wf : DotDims.WF S4000x128 S128x128 S4000x128 [1] [0] [0] [1] [] []
  gather_S50000x128_S400000x1_S400000x128_1_0_n_n_0_1_1128_wf : GatherDims.WF S50000x128 S400000x1 S400000x128 [1] [0] [] [0] [] 1 ![1, 128]
  scatter_S4000x128_S400000x1_S400000x128_1_0_0_1_wf : ScatterDims.WF S4000x128 S400000x1 S400000x128 [1] [0] [0] 1
  scatter_S4000_S400000x1_S400000_n_0_0_1_wf : ScatterDims.WF S4000 S400000x1 S400000 [] [0] [0] 1
  gather_S4000x128_S160000x1_S160000x128_1_0_n_n_0_1_1128_wf : GatherDims.WF S4000x128 S160000x1 S160000x128 [1] [0] [] [0] [] 1 ![1, 128]
  scatter_S4000x128_S160000x1_S160000x128_1_0_0_1_wf : ScatterDims.WF S4000x128 S160000x1 S160000x128 [1] [0] [0] 1
  scatter_S4000_S160000x1_S160000_n_0_0_1_wf : ScatterDims.WF S4000 S160000x1 S160000 [] [0] [0] 1
  scatter_S20000x128_S400000x1_S400000x128_1_0_0_1_wf : ScatterDims.WF S20000x128 S400000x1 S400000x128 [1] [0] [0] 1
  scatter_S20000_S400000x1_S400000_n_0_0_1_wf : ScatterDims.WF S20000 S400000x1 S400000 [] [0] [0] 1
  scatter_S20000x128_S160000x1_S160000x128_1_0_0_1_wf : ScatterDims.WF S20000x128 S160000x1 S160000x128 [1] [0] [0] 1
  scatter_S20000_S160000x1_S160000_n_0_0_1_wf : ScatterDims.WF S20000 S160000x1 S160000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S4000x128_S400000x1_S400000x128_1_0_0_1 : ScatterDims S4000x128 S400000x1 S400000x128 where
  updateWindowDims := [1]
  insertedWindowDims := [0]
  scatterDimsToOperandDims := [0]
  indexVectorDim := 1
  wf := scatter_S4000x128_S400000x1_S400000x128_1_0_0_1_wf
def scatter_S4000_S400000x1_S400000_n_0_0_1 : ScatterDims S4000 S400000x1 S400000 where
  updateWindowDims := []
  insertedWindowDims := [0]
  scatterDimsToOperandDims := [0]
  indexVectorDim := 1
  wf := scatter_S4000_S400000x1_S400000_n_0_0_1_wf
def gather_S4000x128_S160000x1_S160000x128_1_0_n_n_0_1_1128 : GatherDims S4000x128 S160000x1 S160000x128 where
  offsetDims := [1]
  collapsedSliceDims := [0]
  operandBatchingDims := []
  startIndicesBatchingDims := []
  startIndexMap := [0]
  indexVectorDim := 1
  sliceSizes := ![1, 128]
  wf := gather_S4000x128_S160000x1_S160000x128_1_0_n_n_0_1_1128_wf
def scatter_S4000x128_S160000x1_S160000x128_1_0_0_1 : ScatterDims S4000x128 S160000x1 S160000x128 where
  updateWindowDims := [1]
  insertedWindowDims := [0]
  scatterDimsToOperandDims := [0]
  indexVectorDim := 1
  wf := scatter_S4000x128_S160000x1_S160000x128_1_0_0_1_wf
def scatter_S4000_S160000x1_S160000_n_0_0_1 : ScatterDims S4000 S160000x1 S160000 where
  updateWindowDims := []
  insertedWindowDims := [0]
  scatterDimsToOperandDims := [0]
  indexVectorDim := 1
  wf := scatter_S4000_S160000x1_S160000_n_0_0_1_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf

class Facts : Prop extends Facts₀ where

variable [Facts]
-- ==== Proof.K.L0Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The memrefs the run is stated over -/
abbrev VO0_3 : View sig .tc .vmem S2000x128 .f32 := (Memref.whole cc0_stg3_0 : Memref sig .tc .vmem S2000x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x128 .f32 := win0_3.stage (cfg0.slots t 3)
abbrev hs0_3 (t : Fin cfg0.N) : (ms0_3 t).IsWhole := hstage0_3 ((cfg0.slots t 3).cast nbuf0_3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

set_option maxHeartbeats 4000000 in
/-- The pieces the body leaves in the output block (the witness the run finds), with the body's triple on whole
    memrefs: the three inputs at their contents and back, the output from anything. -/
noncomputable def kernelRun0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__linear_kernel i arg1 harg1 arg2 harg2 arg3 harg3 arg4 harg4) K } := by
  refine ⟨?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.H

end
-- ==== Proof.K.L0.lean ====
/-
  The dense-layer launch on the word features: what its output block holds after each grid point, the proof data of
  its pipeline over any entry contents, and the body obligation at every grid point.
-/
import proofs.«407232_j23192823399226_1_alg».proof.Proof.K.L0Run

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH0 (t : Fin cfg0.N) : Prog (TpuEff nD τ sig (Elt F) Λ₀ .tc) PUnit :=
  cc0__linear_kernel (grid0.coords t) (ms0_0 t) (hs0_0 t) (ms0_1 t) (hs0_1 t) (ms0_2 t) (hs0_2 t) (ms0_3 t) (hs0_3 t)

theorem cover0_3 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun0 (F := F) c i arg1 harg1 arg2 harg2 arg3 harg3 arg4 harg4 x0 x1 x2).1, y ∈ pc.1.set :=
  View.cover_of_tiledL (kernelRun0 (F := F) c i arg1 harg1 arg2 harg2 arg3 harg3 arg4 harg4 x0 x1 x2).1 S2000x128.size (by sl_kernel_rfl) y

/-- The output block after the body: the run's pieces read back. -/
def out0_3 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO0_3.read (Elt F) (VO0_3.writes (Elt F) VO0_3.junk (kernelRun0 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt0 (c : Dev nD) (t : Fin cfg0.N) : Vec F S2000x128 .f32 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- The arrays as the region finds them; after the body each input's buffer at its block, the output's at `outsAt0`;
    the class invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks, so the run applies; the invariant and the core's
    `owes` pass through unread. -/
theorem sound_body0 (c : Dev nD) (t : Fin cfg0.N) :
    bodyPre0 V c t ⊢ wp frame (wpE (defs₀ (F := F)) Variants.none c none) Set.univ (bodyAtH0 t) (fun _ => bodyPost0 V c t) := by
  unfold bodyPre0 bodyPost0 bodyAtH0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold outsAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.H

end
-- ==== Proof.K.G1Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The grid's coordinates at a point, the branch conditions in closed form, and where the output block is written back -/

theorem coords1_0 (t : Fin cfg1.N) : ((grid1.coords t) 0).val = t.val / 49 := by
  have hN : grid1.N = 19159 := N_1
  have ht : t.val < 19159 := hN ▸ t.isLt
  show t.val / grid1.stride 0 % 391 = _
  rw [show grid1.stride 0 = 49 from by decide]
  omega
theorem coords1_1 (t : Fin cfg1.N) : ((grid1.coords t) 1).val = t.val % 49 := by
  show t.val / grid1.stride 1 % 49 = _
  rw [show grid1.stride 1 = 1 from by decide]
  omega

/-- "This is the first source tile": the accumulator is zeroed. -/
abbrev cond1_0 (i : grid1.Coords) : Prop := (Scalar.cmpi .ne (Scalar.extui (Scalar.cmpi .eq (BitVec.ofNat 32 (i 1).val) 0#32)) 0#32) = 1#1
/-- "This is the last source tile": the accumulator is stored to the output block. -/
abbrev cond1_1 (i : grid1.Coords) : Prop := k1_cond2 i = 1#1
/-- The two tests read only the second coordinate, which takes 49 values. -/
theorem condw1_0 : ∀ v : Fin 49, ((Scalar.cmpi .ne (Scalar.extui (Scalar.cmpi .eq (BitVec.ofNat 32 v.val) 0#32)) 0#32) = 1#1) ↔ v.val = 0 := by decide
theorem condw1_1 : ∀ v : Fin 49, ((Scalar.cmpi .ne (Scalar.extui (Scalar.cmpi .eq (BitVec.ofNat 32 v.val) 48#32)) 0#32) = 1#1) ↔ v.val = 48 := by decide
theorem hcond1_0 (t : Fin cfg1.N) : cond1_0 (grid1.coords t) ↔ t.val % 49 = 0 := by
  rw [← coords1_1 t]; exact condw1_0 ((grid1.coords t) 1)
theorem hcond1_1 (t : Fin cfg1.N) : cond1_1 (grid1.coords t) ↔ t.val % 49 = 48 := by
  rw [← coords1_1 t]; exact condw1_1 ((grid1.coords t) 1)

/-- The output window's block index at a point: (t / 49, 0). -/
theorem oidx1 (t : Fin cfg1.N) : win1_3.index t (0 : Fin 2) = t.val / 49 ∧ win1_3.index t (1 : Fin 2) = 0 := by
  have hN : grid1.N = 19159 := N_1
  have ht : t.val < 19159 := hN ▸ t.isLt
  have c0 := coords1_0 t
  refine ⟨?_, rfl⟩
  show (BitVec.ofNat 32 ((grid1.coords t) 0).val).toNat = _
  rw [BitVec.toNat_ofNat, c0]; omega

/-- The output block is written back exactly at the points ≡ 48 (mod 49): there the next point's block is another (or
    the grid ends), and nowhere else does the block index move. -/
theorem flushAt1_3 (t : Fin cfg1.N) : (cfg1.win 3).flush t = true ↔ t.val % 49 = 48 := by
  have hN : grid1.N = 19159 := N_1
  have ht : t.val < 19159 := hN ▸ t.isLt
  show win1_3.flush t = true ↔ _
  unfold Pipeline.Window.flush
  rw [show win1_3.isOut = true from rfl]
  simp only [Bool.true_and, Bool.or_eq_true, decide_eq_true_eq]
  constructor
  · rintro (h | ⟨hl, hne⟩)
    · omega
    · by_contra h48
      apply hne
      obtain ⟨a0, a1⟩ := oidx1 ⟨t.val + 1, hl⟩
      obtain ⟨b0, b1⟩ := oidx1 t
      funext a
      match a with
      | ⟨0, _⟩ =>
        show win1_3.index ⟨t.val + 1, hl⟩ (0 : Fin 2) = win1_3.index t (0 : Fin 2)
        rw [a0, b0]
        show (t.val + 1) / 49 = t.val / 49
        omega
      | ⟨1, _⟩ =>
        show win1_3.index ⟨t.val + 1, hl⟩ (1 : Fin 2) = win1_3.index t (1 : Fin 2)
        rw [a1, b1]
  · intro h48
    by_cases hl : t.val + 1 = grid1.N
    · exact Or.inl hl
    · have hl' : t.val + 1 < grid1.N := by omega
      refine Or.inr ⟨hl', fun heq => ?_⟩
      have h0 := congrFun heq (0 : Fin 2)
      rw [(oidx1 ⟨t.val + 1, hl'⟩).1, (oidx1 t).1] at h0
      have h0' : (t.val + 1) / 49 = t.val / 49 := h0
      omega
theorem noFlush1_3 (t : Fin cfg1.N) (h : ¬cond1_1 (grid1.coords t)) : (cfg1.win 3).flush t = false := by
  cases hf : (cfg1.win 3).flush t with
  | false => rfl
  | true => exact absurd ((hcond1_1 t).mpr ((flushAt1_3 t).mp hf)) h

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := fun t h => by
  show (!(k1_cond2 (grid1.coords t) == 1#1)) = true
  simp only [Bool.not_eq_true', beq_eq_false_iff_ne, ne_eq]
  exact h
theorem liveAt1_3 : ∀ t : Fin cfg1.N, cond1_1 (grid1.coords t) → cfg1.idle 3 (grid1.coords t) = false := fun t h => by
  show (!(k1_cond2 (grid1.coords t) == 1#1)) = false
  simp only [Bool.not_eq_false', beq_iff_eq]
  exact h

/-! ## The memrefs the runs are stated over -/
abbrev VO1_3 : View sig .tc .vmem S2048x128 .bf16 := (Memref.whole cc1_stg3_0 : Memref sig .tc .vmem S2048x128 .bf16).view
abbrev ms1_0 (t : Fin cfg1.N) : Memref sig .tc .vmem S2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .bf16 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S2048x128 .f32 := Memref.whole cc1_scratch0
abbrev VS1_0 : View sig .tc .vmem S2048x128 .f32 := scM1_0.view

/-- The class invariant with the accumulator as a memref owned at some contents; the other scoped buffers stay unopened. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1_0, owns_whole]; try rfl

end Cert.Kernel.H

end
-- ==== Proof.K.G1RunB.lean ====
/-
  A gather launch (the first one-hot product of a relation), at a middle source tile (neither the first nor the last): the accumulator, found at what the
  point before left, gets the product added; the output block is not touched.
-/
import proofs.«407232_j23192823399226_1_alg».proof.Proof.K.G1Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun1_B (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G1RunA.lean ====
/-
  A gather launch (the first one-hot product of a relation), at the first source tile: the accumulator, whatever it held, is zeroed and gets the product
  added; the output block is not touched.
-/
import proofs.«407232_j23192823399226_1_alg».proof.Proof.K.G1RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun1_A (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G1RunC.lean ====
/-
  A gather launch (the first one-hot product of a relation), at the last source tile: the accumulator, found at what the point before left, gets the
  product added and is then stored to the output block.
-/
import proofs.«407232_j23192823399226_1_alg».proof.Proof.K.G1RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun1_C (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.G1.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.K.G1RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH1 (t : Fin cfg1.N) : Prog (TpuEff nD τ sig (Elt F) Λ₀ .tc) PUnit :=
  cc1__gather_kernel (grid1.coords t) (ms1_0 t) (hs1_0 t) (ms1_1 t) (hs1_1 t) (ms1_2 t) (hs1_2 t) (ms1_3 t) (hs1_3 t) scM1_0 (Memref.isWhole_whole _)

/-! ## What each case leaves -/

theorem scover1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) (y : S2048x128.Idx) :
    ∃ pc ∈ (kernelRun1_A (F := F) c i arg2 harg2 arg3 harg3 arg4 harg4 arg5 harg5 arg6 harg6 hc0 hc1 x0 x1 x2).2.1, y ∈ pc.1.set :=
  View.cover_of_tiledL (kernelRun1_A (F := F) c i arg2 harg2 arg3 harg3 arg4 harg4 arg5 harg5 arg6 harg6 hc0 hc1 x0 x1 x2).2.1 S2048x128.size (by sl_kernel_rfl) y

/-- The accumulator after a first source tile: the case's pieces read back. -/
def sout1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) : Vec F S2048x128 .f32 :=
  VS1_0.read (Elt F) (VS1_0.writes (Elt F) VS1_0.junk (kernelRun1_A (F := F) c i arg2 harg2 arg3 harg3 arg4 harg4 arg5 harg5 arg6 harg6 hc0 hc1 x0 x1 x2).2.1)

theorem scover1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) (y : S2048x128.Idx) :
    ∃ pc ∈ (kernelRun1_B (F := F) c i arg2 harg2 arg3 harg3 arg4 harg4 arg5 harg5 arg6 harg6 hc0 hc1 x0 x1 x2 xs0).2.1, y ∈ pc.1.set :=
  View.cover_of_tiledL (kernelRun1_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) : Vec F S2048x128 .f32 :=
  VS1_0.read (Elt F) (VS1_0.writes (Elt F) VS1_0.junk (kernelRun1_B (F := F) c i arg2 harg2 arg3 harg3 arg4 harg4 arg5 harg5 arg6 harg6 hc0 hc1 x0 x1 x2 xs0).2.1)

theorem cover1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) (y : S2048x128.Idx) :
    ∃ pc ∈ (kernelRun1_C (F := F) c i arg2 harg2 arg3 harg3 arg4 harg4 arg5 harg5 arg6 harg6 hc0 hc1 x0 x1 x2 xs0).1, y ∈ pc.1.set :=
  View.cover_of_tiledL (kernelRun1_C (F := F) c i arg2 harg2 arg3 harg3 arg4 harg4 arg5 harg5 arg6 harg6 hc0 hc1 x0 x1 x2 xs0).1 S2048x128.size (by sl_kernel_rfl) y

/-- The output block after a last source tile. -/
def out1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) : Vec F S2048x128 .bf16 :=
  VO1_3.read (Elt F) (VO1_3.writes (Elt F) VO1_3.junk (kernelRun1_C (F := F) c i arg2 harg2 arg3 harg3 arg4 harg4 arg5 harg5 arg6 harg6 hc0 hc1 x0 x1 x2 xs0).1)

theorem scover1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) (y : S2048x128.Idx) :
    ∃ pc ∈ (kernelRun1_C (F := F) c i arg2 harg2 arg3 harg3 arg4 harg4 arg5 harg5 arg6 harg6 hc0 hc1 x0 x1 x2 xs0).2.1, y ∈ pc.1.set :=
  View.cover_of_tiledL (kernelRun1_C (F := F) c i arg2 harg2 arg3 harg3 arg4 harg4 arg5 harg5 arg6 harg6 hc0 hc1 x0 x1 x2 xs0).2.1 S2048x128.size (by sl_kernel_rfl) y

/-- The accumulator after a last source tile. -/
def sout1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) : Vec F S2048x128 .f32 :=
  VS1_0.read (Elt F) (VS1_0.writes (Elt F) VS1_0.junk (kernelRun1_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle1_3 : Vec F S2048x128 .bf16 := VO1_3.read (Elt F) VO1_3.junk

/-! ## The accumulation, point by point -/

/-- After the body at position `n`: (the output block, the accumulator) — the case the closed forms select, a later
    source tile's over what position `n - 1` left in the accumulator. -/
def outsAt1 (c : Dev nD) : (n : ℕ) → n < cfg1.N → Vec F S2048x128 .bf16 × Vec F S2048x128 .f32
  | 0, hn => (idle1_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 49 = 0 then
      if h1 : (n + 1) % 49 = 48 then
        False.elim (by omega)
      else
        (idle1_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 49 = 48 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle1_3, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 49 = 0) (h1 : ¬t.val % 49 = 48) :
    outsAt1 V c t.val t.isLt = (idle1_3, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 49 = 0) (h1 : ¬t.val % 49 = 48) :
    outsAt1 V c t.val t.isLt = (idle1_3, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 49 = 0) (h1 : t.val % 49 = 48) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut1 (c : Dev nD) : sProp 𝕄 :=
  Pipeline.scopedRestBut (Ix := Unit) (Name := ℕ) (U := Pipeline.UD sig nD τ) (Lvl := ℕ) (Val := Elt F) spec1 c [cc1_scratch0]

/-- Before position `n`: at the region's entry the class invariant (the accumulator at anything); afterwards the
    accumulator at what position `n - 1` left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-! ## The pipeline's proof data -/

/-- The arrays as the region finds them; after the body each input's buffer at its block, the output's at `outsAt1`'s
    first component; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body1 (c : Dev nD) (t : Fin cfg1.N) :
    bodyPre1 V c t ⊢ wp frame (wpE (defs₀ (F := F)) Variants.none c none) Set.univ (bodyAtH1 t) (fun _ => bodyPost1 V c t) := by
  unfold bodyPre1 bodyPost1 bodyAtH1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 49 = 48
  · have h0 : ¬t.val % 49 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C_3 sout1_C_0; (try dsimp only)
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 49 = 0
    · rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hN : cfg1.N = 19159 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, HR⟩, Hg⟩
  isplitl [HS0 HR]
  · isplitl [HS0]
    · iexists _; iexact HS0
    iexact HR
  iexact Hg

end

end Cert.Kernel.H

end
-- ==== Proof.K.S2Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The grid's coordinates at a point, the branch conditions in closed form, and where the output block is written back -/

theorem coords2_0 (t : Fin cfg2.N) : ((grid2.coords t) 0).val = t.val / 391 := by
  have hN : grid2.N = 19159 := N_2
  have ht : t.val < 19159 := hN ▸ t.isLt
  show t.val / grid2.stride 0 % 49 = _
  rw [show grid2.stride 0 = 391 from by decide]
  omega
theorem coords2_1 (t : Fin cfg2.N) : ((grid2.coords t) 1).val = t.val % 391 := by
  show t.val / grid2.stride 1 % 391 = _
  rw [show grid2.stride 1 = 1 from by decide]
  omega

/-- "This is the first edge chunk": the accumulator is zeroed. -/
abbrev cond2_0 (i : grid2.Coords) : Prop := (Scalar.cmpi .ne (Scalar.extui (Scalar.cmpi .eq (BitVec.ofNat 32 (i 1).val) 0#32)) 0#32) = 1#1
/-- "This is the last edge chunk": the accumulator is stored to the output block. -/
abbrev cond2_1 (i : grid2.Coords) : Prop := k2_cond2 i = 1#1
/-- The two tests read only the second coordinate, which takes 391 values. -/
theorem condw2_0 : ∀ v : Fin 391, ((Scalar.cmpi .ne (Scalar.extui (Scalar.cmpi .eq (BitVec.ofNat 32 v.val) 0#32)) 0#32) = 1#1) ↔ v.val = 0 := by decide
theorem condw2_1 : ∀ v : Fin 391, ((Scalar.cmpi .ne (Scalar.extui (Scalar.cmpi .eq (BitVec.ofNat 32 v.val) 390#32)) 0#32) = 1#1) ↔ v.val = 390 := by decide
theorem hcond2_0 (t : Fin cfg2.N) : cond2_0 (grid2.coords t) ↔ t.val % 391 = 0 := by
  rw [← coords2_1 t]; exact condw2_0 ((grid2.coords t) 1)
theorem hcond2_1 (t : Fin cfg2.N) : cond2_1 (grid2.coords t) ↔ t.val % 391 = 390 := by
  rw [← coords2_1 t]; exact condw2_1 ((grid2.coords t) 1)

/-- The output window's block index at a point: (t / 391, 0). -/
theorem oidx2 (t : Fin cfg2.N) : win2_2.index t (0 : Fin 2) = t.val / 391 ∧ win2_2.index t (1 : Fin 2) = 0 := by
  have hN : grid2.N = 19159 := N_2
  have ht : t.val < 19159 := hN ▸ t.isLt
  have c0 := coords2_0 t
  refine ⟨?_, rfl⟩
  show (BitVec.ofNat 32 ((grid2.coords t) 0).val).toNat = _
  rw [BitVec.toNat_ofNat, c0]; omega

/-- The output block is written back exactly at the points ≡ 390 (mod 391): there the next point's block is another (or
    the grid ends), and nowhere else does the block index move. -/
theorem flushAt2_2 (t : Fin cfg2.N) : (cfg2.win 2).flush t = true ↔ t.val % 391 = 390 := by
  have hN : grid2.N = 19159 := N_2
  have ht : t.val < 19159 := hN ▸ t.isLt
  show win2_2.flush t = true ↔ _
  unfold Pipeline.Window.flush
  rw [show win2_2.isOut = true from rfl]
  simp only [Bool.true_and, Bool.or_eq_true, decide_eq_true_eq]
  constructor
  · rintro (h | ⟨hl, hne⟩)
    · omega
    · by_contra h48
      apply hne
      obtain ⟨a0, a1⟩ := oidx2 ⟨t.val + 1, hl⟩
      obtain ⟨b0, b1⟩ := oidx2 t
      funext a
      match a with
      | ⟨0, _⟩ =>
        show win2_2.index ⟨t.val + 1, hl⟩ (0 : Fin 2) = win2_2.index t (0 : Fin 2)
        rw [a0, b0]
        show (t.val + 1) / 391 = t.val / 391
        omega
      | ⟨1, _⟩ =>
        show win2_2.index ⟨t.val + 1, hl⟩ (1 : Fin 2) = win2_2.index t (1 : Fin 2)
        rw [a1, b1]
  · intro h48
    by_cases hl : t.val + 1 = grid2.N
    · exact Or.inl hl
    · have hl' : t.val + 1 < grid2.N := by omega
      refine Or.inr ⟨hl', fun heq => ?_⟩
      have h0 := congrFun heq (0 : Fin 2)
      rw [(oidx2 ⟨t.val + 1, hl'⟩).1, (oidx2 t).1] at h0
      have h0' : (t.val + 1) / 391 = t.val / 391 := h0
      omega
theorem noFlush2_2 (t : Fin cfg2.N) (h : ¬cond2_1 (grid2.coords t)) : (cfg2.win 2).flush t = false := by
  cases hf : (cfg2.win 2).flush t with
  | false => rfl
  | true => exact absurd ((hcond2_1 t).mpr ((flushAt2_2 t).mp hf)) h

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem idleAt2_2 : ∀ t : Fin cfg2.N, ¬cond2_1 (grid2.coords t) → cfg2.idle 2 (grid2.coords t) = true := fun t h => by
  show (!(k2_cond2 (grid2.coords t) == 1#1)) = true
  simp only [Bool.not_eq_true', beq_eq_false_iff_ne, ne_eq]
  exact h
theorem liveAt2_2 : ∀ t : Fin cfg2.N, cond2_1 (grid2.coords t) → cfg2.idle 2 (grid2.coords t) = false := fun t h => by
  show (!(k2_cond2 (grid2.coords t) == 1#1)) = false
  simp only [Bool.not_eq_false', beq_iff_eq]
  exact h

/-! ## The memrefs the runs are stated over -/
abbrev VO2_2 : View sig .tc .vmem S1024x128 .f32 := (Memref.whole cc2_stg2_0 : Memref sig .tc .vmem S1024x128 .f32).view
abbrev ms2_0 (t : Fin cfg2.N) : Memref sig .tc .vmem S2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2_0 : Memref sig .tc .vmem S1024x128 .f32 := Memref.whole cc2_scratch0
abbrev VS2_0 : View sig .tc .vmem S1024x128 .f32 := scM2_0.view

/-- The class invariant with the accumulator as a memref owned at some contents; the other scoped buffers stay unopened. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2_0, owns_whole]; try rfl

end Cert.Kernel.H

end
-- ==== Proof.K.S2RunB.lean ====
/-
  A scatter launch (the second one-hot product of a relation), at a middle edge chunk (neither the first nor the last): the accumulator, found at what the
  point before left, gets the product added; the output block is not touched.
-/
import proofs.«407232_j23192823399226_1_alg».proof.Proof.K.S2Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun2_B (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨[], ?_, fun xi2 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S2RunA.lean ====
/-
  A scatter launch (the second one-hot product of a relation), at the first edge chunk: the accumulator, whatever it held, is zeroed and gets the product
  added; the output block is not touched.
-/
import proofs.«407232_j23192823399226_1_alg».proof.Proof.K.S2RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun2_A (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨[], ?_, fun xi2 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S2RunC.lean ====
/-
  A scatter launch (the second one-hot product of a relation), at the last edge chunk: the accumulator, found at what the point before left, gets the
  product added and is then stored to the output block.
-/
import proofs.«407232_j23192823399226_1_alg».proof.Proof.K.S2RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun2_C (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.H

end
-- ==== Proof.K.S2.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.K.S2RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH2 (t : Fin cfg2.N) : Prog (TpuEff nD τ sig (Elt F) Λ₀ .tc) PUnit :=
  cc2__scatter_kernel (grid2.coords t) (ms2_0 t) (hs2_0 t) (ms2_1 t) (hs2_1 t) (ms2_2 t) (hs2_2 t) scM2_0 (Memref.isWhole_whole _)

/-! ## What each case leaves -/

theorem scover2_A_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S2048 .i32) (x1 : Vec F S2048x128 .bf16) (y : S1024x128.Idx) :
    ∃ pc ∈ (kernelRun2_A (F := F) c i arg2 harg2 arg3 harg3 arg4 harg4 arg5 harg5 hc0 hc1 x0 x1).2.1, y ∈ pc.1.set :=
  View.cover_of_tiledL (kernelRun2_A (F := F) c i arg2 harg2 arg3 harg3 arg4 harg4 arg5 harg5 hc0 hc1 x0 x1).2.1 S1024x128.size (by sl_kernel_rfl) y

/-- The accumulator after a first edge chunk: the case's pieces read back. -/
def sout2_A_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S2048 .i32) (x1 : Vec F S2048x128 .bf16) : Vec F S1024x128 .f32 :=
  VS2_0.read (Elt F) (VS2_0.writes (Elt F) VS2_0.junk (kernelRun2_A (F := F) c i arg2 harg2 arg3 harg3 arg4 harg4 arg5 harg5 hc0 hc1 x0 x1).2.1)

theorem scover2_B_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S2048 .i32) (x1 : Vec F S2048x128 .bf16) (xs0 : Vec F S1024x128 .f32) (y : S1024x128.Idx) :
    ∃ pc ∈ (kernelRun2_B (F := F) c i arg2 harg2 arg3 harg3 arg4 harg4 arg5 harg5 hc0 hc1 x0 x1 xs0).2.1, y ∈ pc.1.set :=
  View.cover_of_tiledL (kernelRun2_B (F := F) c i arg2 harg2 arg3 harg3 arg4 harg4 arg5 harg5 hc0 hc1 x0 x1 xs0).2.1 S1024x128.size (by sl_kernel_rfl) y

/-- The accumulator after a middle edge chunk, over what the point before left (`xs0`). -/
def sout2_B_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S2048 .i32) (x1 : Vec F S2048x128 .bf16) (xs0 : Vec F S1024x128 .f32) : Vec F S1024x128 .f32 :=
  VS2_0.read (Elt F) (VS2_0.writes (Elt F) VS2_0.junk (kernelRun2_B (F := F) c i arg2 harg2 arg3 harg3 arg4 harg4 arg5 harg5 hc0 hc1 x0 x1 xs0).2.1)

theorem cover2_C_2 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) (y : S1024x128.Idx) :
    ∃ pc ∈ (kernelRun2_C (F := F) c i arg2 harg2 arg3 harg3 arg4 harg4 arg5 harg5 hc0 hc1 x0 x1 xs0).1, y ∈ pc.1.set :=
  View.cover_of_tiledL (kernelRun2_C (F := F) c i arg2 harg2 arg3 harg3 arg4 harg4 arg5 harg5 hc0 hc1 x0 x1 xs0).1 S1024x128.size (by sl_kernel_rfl) y

/-- The output block after a last edge chunk. -/
def out2_C_2 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) : Vec F S1024x128 .f32 :=
  VO2_2.read (Elt F) (VO2_2.writes (Elt F) VO2_2.junk (kernelRun2_C (F := F) c i arg2 harg2 arg3 harg3 arg4 harg4 arg5 harg5 hc0 hc1 x0 x1 xs0).1)

theorem scover2_C_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) (y : S1024x128.Idx) :
    ∃ pc ∈ (kernelRun2_C (F := F) c i arg2 harg2 arg3 harg3 arg4 harg4 arg5 harg5 hc0 hc1 x0 x1 xs0).2.1, y ∈ pc.1.set :=
  View.cover_of_tiledL (kernelRun2_C (F := F) c i arg2 harg2 arg3 harg3 arg4 harg4 arg5 harg5 hc0 hc1 x0 x1 xs0).2.1 S1024x128.size (by sl_kernel_rfl) y

/-- The accumulator after a last edge chunk. -/
def sout2_C_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) : Vec F S1024x128 .f32 :=
  VS2_0.read (Elt F) (VS2_0.writes (Elt F) VS2_0.junk (kernelRun2_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle2_2 : Vec F S1024x128 .f32 := VO2_2.read (Elt F) VO2_2.junk

/-! ## The accumulation, point by point -/

/-- After the body at position `n`: (the output block, the accumulator) — the case the closed forms select, a later
    edge chunk's over what position `n - 1` left in the accumulator. -/
def outsAt2 (c : Dev nD) : (n : ℕ) → n < cfg2.N → Vec F S1024x128 .f32 × Vec F S1024x128 .f32
  | 0, hn => (idle2_2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 391 = 0 then
      if h1 : (n + 1) % 391 = 390 then
        False.elim (by omega)
      else
        (idle2_2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 391 = 390 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idle2_2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 391 = 0) (h1 : ¬t.val % 391 = 390) :
    outsAt2 V c t.val t.isLt = (idle2_2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 391 = 0) (h1 : ¬t.val % 391 = 390) :
    outsAt2 V c t.val t.isLt = (idle2_2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 391 = 0) (h1 : t.val % 391 = 390) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut2 (c : Dev nD) : sProp 𝕄 :=
  Pipeline.scopedRestBut (Ix := Unit) (Name := ℕ) (U := Pipeline.UD sig nD τ) (Lvl := ℕ) (Val := Elt F) spec2 c [cc2_scratch0]

/-- Before position `n`: at the region's entry the class invariant (the accumulator at anything); afterwards the
    accumulator at what position `n - 1` left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-! ## The pipeline's proof data -/

/-- The arrays as the region finds them; after the body each input's buffer at its block, the output's at `outsAt2`'s
    first component; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body2 (c : Dev nD) (t : Fin cfg2.N) :
    bodyPre2 V c t ⊢ wp frame (wpE (defs₀ (F := F)) Variants.none c none) Set.univ (bodyAtH2 t) (fun _ => bodyPost2 V c t) := by
  unfold bodyPre2 bodyPost2 bodyAtH2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 391 = 390
  · have h0 : ¬t.val % 391 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C_2 sout2_C_0; (try dsimp only)
    rw [PhiS2_castSucc V c t, PhiS2_pos V c _ _ hz]
    iintro ⟨⟨⟨HS0, HR⟩, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val % 391 = 0
    · rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have hN : cfg2.N = 19159 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HR⟩, Hg⟩
  isplitl [HS0 HR]
  · isplitl [HS0]
    · iexists _; iexact HS0
    iexact HR
  iexact Hg

end

end Cert.Kernel.H

end
-- ==== Proof.K.L3Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
end

/-! ## The memrefs the run is stated over -/
abbrev VO3_3 : View sig .tc .vmem S2000x128 .f32 := (Memref.whole cc3_stg3_0 : Memref sig .tc .vmem S2000x128 .f32).view
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x128 .f32 := win3_3.stage (cfg3.slots t 3)
abbrev hs3_3 (t : Fin cfg3.N) : (ms3_3 t).IsWhole := hstage3_3 ((cfg3.slots t 3).cast nbuf3_3)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl

set_option maxHeartbeats 4000000 in
/-- The pieces the body leaves in the output block (the witness the run finds), with the body's triple on whole
    memrefs: the three inputs at their contents and back, the output from anything. -/
noncomputable def kernelRun3 (c : Dev nD) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc3__linear_kernel i arg1 harg1 arg2 harg2 arg3 harg3 arg4 harg4) K } := by
  refine ⟨?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.H

end
-- ==== Proof.K.L3.lean ====
/-
  The dense-layer launch on the word features: what its output block holds after each grid point, the proof data of
  its pipeline over any entry contents, and the body obligation at every grid point.
-/
import proofs.«407232_j23192823399226_1_alg».proof.Proof.K.L3Run

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH3 (t : Fin cfg3.N) : Prog (TpuEff nD τ sig (Elt F) Λ₀ .tc) PUnit :=
  cc3__linear_kernel (grid3.coords t) (ms3_0 t) (hs3_0 t) (ms3_1 t) (hs3_1 t) (ms3_2 t) (hs3_2 t) (ms3_3 t) (hs3_3 t)

theorem cover3_3 (c : Dev nD) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun3 (F := F) c i arg1 harg1 arg2 harg2 arg3 harg3 arg4 harg4 x0 x1 x2).1, y ∈ pc.1.set :=
  View.cover_of_tiledL (kernelRun3 (F := F) c i arg1 harg1 arg2 harg2 arg3 harg3 arg4 harg4 x0 x1 x2).1 S2000x128.size (by sl_kernel_rfl) y

/-- The output block after the body: the run's pieces read back. -/
def out3_3 (c : Dev nD) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO3_3.read (Elt F) (VO3_3.writes (Elt F) VO3_3.junk (kernelRun3 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt3 (c : Dev nD) (t : Fin cfg3.N) : Vec F S2000x128 .f32 :=
  out3_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-- The arrays as the region finds them; after the body each input's buffer at its block, the output's at `outsAt3`;
    the class invariant; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks, so the run applies; the invariant and the core's
    `owes` pass through unread. -/
theorem sound_body3 (c : Dev nD) (t : Fin cfg3.N) :
    bodyPre3 V c t ⊢ wp frame (wpE (defs₀ (F := F)) Variants.none c none) Set.univ (bodyAtH3 t) (fun _ => bodyPost3 V c t) := by
  unfold bodyPre3 bodyPost3 bodyAtH3
  simp only [before3_0, before3_1, before3_2]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  unfold outsAt3 out3_3
  iintro ⟨HΦ, Ho, ⟨%d0, H0⟩, ⟨%d1, H1⟩, ⟨%d2, H2⟩, ⟨%d3, H3⟩⟩
  iapply ((kernelRun3 c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_3 c _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end

end Cert.Kernel.H

end
-- ==== Proof.K.L4Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
end

/-! ## The memrefs the run is stated over -/
abbrev VO4_3 : View sig .tc .vmem S2000x128 .f32 := (Memref.whole cc4_stg3_0 : Memref sig .tc .vmem S2000x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl

set_option maxHeartbeats 4000000 in
/-- The pieces the body leaves in the output block (the witness the run finds), with the body's triple on whole
    memrefs: the three inputs at their contents and back, the output from anything. -/
noncomputable def kernelRun4 (c : Dev nD) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc4__linear_kernel i arg1 harg1 arg2 harg2 arg3 harg3 arg4 harg4) K } := by
  refine ⟨?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.H

end
-- ==== Proof.K.L4.lean ====
/-
  The dense-layer launch on the word features: what its output block holds after each grid point, the proof data of
  its pipeline over any entry contents, and the body obligation at every grid point.
-/
import proofs.«407232_j23192823399226_1_alg».proof.Proof.K.L4Run

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH4 (t : Fin cfg4.N) : Prog (TpuEff nD τ sig (Elt F) Λ₀ .tc) PUnit :=
  cc4__linear_kernel (grid4.coords t) (ms4_0 t) (hs4_0 t) (ms4_1 t) (hs4_1 t) (ms4_2 t) (hs4_2 t) (ms4_3 t) (hs4_3 t)

theorem cover4_3 (c : Dev nD) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun4 (F := F) c i arg1 harg1 arg2 harg2 arg3 harg3 arg4 harg4 x0 x1 x2).1, y ∈ pc.1.set :=
  View.cover_of_tiledL (kernelRun4 (F := F) c i arg1 harg1 arg2 harg2 arg3 harg3 arg4 harg4 x0 x1 x2).1 S2000x128.size (by sl_kernel_rfl) y

/-- The output block after the body: the run's pieces read back. -/
def out4_3 (c : Dev nD) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO4_3.read (Elt F) (VO4_3.writes (Elt F) VO4_3.junk (kernelRun4 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt4 (c : Dev nD) (t : Fin cfg4.N) : Vec F S2000x128 .f32 :=
  out4_3 c (grid4.coords t) (ms4_0 t) (hs4_0 t) (ms4_1 t) (hs4_1 t) (ms4_2 t) (hs4_2 t) (ms4_3 t) (hs4_3 t) (iblk4 V c 0 t) (iblk4 V c 1 t) (iblk4 V c 2 t)

/-- The arrays as the region finds them; after the body each input's buffer at its block, the output's at `outsAt4`;
    the class invariant; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outsAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks, so the run applies; the invariant and the core's
    `owes` pass through unread. -/
theorem sound_body4 (c : Dev nD) (t : Fin cfg4.N) :
    bodyPre4 V c t ⊢ wp frame (wpE (defs₀ (F := F)) Variants.none c none) Set.univ (bodyAtH4 t) (fun _ => bodyPost4 V c t) := by
  unfold bodyPre4 bodyPost4 bodyAtH4
  simp only [before4_0, before4_1, before4_2]
  rw [show (dat4 V c).Φ t.succ = (dat4 V c).Φ t.castSucc from rfl,
    show (dat4 V c).owesAt () t.succ = (dat4 V c).owesAt () t.castSucc from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold outsAt4 out4_3
  iintro ⟨HΦ, Ho, ⟨%d0, H0⟩, ⟨%d1, H1⟩, ⟨%d2, H2⟩, ⟨%d3, H3⟩⟩
  iapply ((kernelRun4 c (grid4.coords t) _ _ _ _ _ _ _ _ (iblk4 V c 0 t) (iblk4 V c 1 t) (iblk4 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.H

end
-- ==== Proof.K.L5Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
end

/-! ## The memrefs the run is stated over -/
abbrev VO5_3 : View sig .tc .vmem S2000x128 .f32 := (Memref.whole cc5_stg3_0 : Memref sig .tc .vmem S2000x128 .f32).view
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2000x128 .f32 := win5_3.stage (cfg5.slots t 3)
abbrev hs5_3 (t : Fin cfg5.N) : (ms5_3 t).IsWhole := hstage5_3 ((cfg5.slots t 3).cast nbuf5_3)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl

set_option maxHeartbeats 4000000 in
/-- The pieces the body leaves in the output block (the witness the run finds), with the body's triple on whole
    memrefs: the three inputs at their contents and back, the output from anything. -/
noncomputable def kernelRun5 (c : Dev nD) (i : grid5.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc5__linear_kernel i arg1 harg1 arg2 harg2 arg3 harg3 arg4 harg4) K } := by
  refine ⟨?_, fun E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.H

end
-- ==== Proof.K.L5.lean ====
/-
  The dense-layer launch on the word features: what its output block holds after each grid point, the proof data of
  its pipeline over any entry contents, and the body obligation at every grid point.
-/
import proofs.«407232_j23192823399226_1_alg».proof.Proof.K.L5Run

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH5 (t : Fin cfg5.N) : Prog (TpuEff nD τ sig (Elt F) Λ₀ .tc) PUnit :=
  cc5__linear_kernel (grid5.coords t) (ms5_0 t) (hs5_0 t) (ms5_1 t) (hs5_1 t) (ms5_2 t) (hs5_2 t) (ms5_3 t) (hs5_3 t)

theorem cover5_3 (c : Dev nD) (i : grid5.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun5 (F := F) c i arg1 harg1 arg2 harg2 arg3 harg3 arg4 harg4 x0 x1 x2).1, y ∈ pc.1.set :=
  View.cover_of_tiledL (kernelRun5 (F := F) c i arg1 harg1 arg2 harg2 arg3 harg3 arg4 harg4 x0 x1 x2).1 S2000x128.size (by sl_kernel_rfl) y

/-- The output block after the body: the run's pieces read back. -/
def out5_3 (c : Dev nD) (i : grid5.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO5_3.read (Elt F) (VO5_3.writes (Elt F) VO5_3.junk (kernelRun5 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt5 (c : Dev nD) (t : Fin cfg5.N) : Vec F S2000x128 .f32 :=
  out5_3 c (grid5.coords t) (ms5_0 t) (hs5_0 t) (ms5_1 t) (hs5_1 t) (ms5_2 t) (hs5_2 t) (ms5_3 t) (hs5_3 t) (iblk5 V c 0 t) (iblk5 V c 1 t) (iblk5 V c 2 t)

/-- The arrays as the region finds them; after the body each input's buffer at its block, the output's at `outsAt5`;
    the class invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks, so the run applies; the invariant and the core's
    `owes` pass through unread. -/
theorem sound_body5 (c : Dev nD) (t : Fin cfg5.N) :
    bodyPre5 V c t ⊢ wp frame (wpE (defs₀ (F := F)) Variants.none c none) Set.univ (bodyAtH5 t) (fun _ => bodyPost5 V c t) := by
  unfold bodyPre5 bodyPost5 bodyAtH5
  simp only [before5_0, before5_1, before5_2]
  rw [show (dat5 V c).Φ t.succ = (dat5 V c).Φ t.castSucc from rfl,
    show (dat5 V c).owesAt () t.succ = (dat5 V c).owesAt () t.castSucc from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  unfold outsAt5 out5_3
  iintro ⟨HΦ, Ho, ⟨%d0, H0⟩, ⟨%d1, H1⟩, ⟨%d2, H2⟩, ⟨%d3, H3⟩⟩
  iapply ((kernelRun5 c (grid5.coords t) _ _ _ _ _ _ _ _ (iblk5 V c 0 t) (iblk5 V c 1 t) (iblk5 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_3 c _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end

end Cert.Kernel.H

end
-- ==== Proof.K.L6Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
end

/-! ## The memrefs the run is stated over -/
abbrev VO6_3 : View sig .tc .vmem S2000x128 .f32 := (Memref.whole cc6_stg3_0 : Memref sig .tc .vmem S2000x128 .f32).view
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2000x128 .f32 := win6_3.stage (cfg6.slots t 3)
abbrev hs6_3 (t : Fin cfg6.N) : (ms6_3 t).IsWhole := hstage6_3 ((cfg6.slots t 3).cast nbuf6_3)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl

set_option maxHeartbeats 4000000 in
/-- The pieces the body leaves in the output block (the witness the run finds), with the body's triple on whole
    memrefs: the three inputs at their contents and back, the output from anything. -/
noncomputable def kernelRun6 (c : Dev nD) (i : grid6.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc6__linear_kernel i arg1 harg1 arg2 harg2 arg3 harg3 arg4 harg4) K } := by
  refine ⟨?_, fun E K => ?run⟩
  case run =>
    simp only [cc6__linear_kernel_eq_skeleton]; unfold cc6__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.H

end
-- ==== Proof.K.L6.lean ====
/-
  The dense-layer launch on the word features: what its output block holds after each grid point, the proof data of
  its pipeline over any entry contents, and the body obligation at every grid point.
-/
import proofs.«407232_j23192823399226_1_alg».proof.Proof.K.L6Run

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH6 (t : Fin cfg6.N) : Prog (TpuEff nD τ sig (Elt F) Λ₀ .tc) PUnit :=
  cc6__linear_kernel (grid6.coords t) (ms6_0 t) (hs6_0 t) (ms6_1 t) (hs6_1 t) (ms6_2 t) (hs6_2 t) (ms6_3 t) (hs6_3 t)

theorem cover6_3 (c : Dev nD) (i : grid6.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun6 (F := F) c i arg1 harg1 arg2 harg2 arg3 harg3 arg4 harg4 x0 x1 x2).1, y ∈ pc.1.set :=
  View.cover_of_tiledL (kernelRun6 (F := F) c i arg1 harg1 arg2 harg2 arg3 harg3 arg4 harg4 x0 x1 x2).1 S2000x128.size (by sl_kernel_rfl) y

/-- The output block after the body: the run's pieces read back. -/
def out6_3 (c : Dev nD) (i : grid6.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO6_3.read (Elt F) (VO6_3.writes (Elt F) VO6_3.junk (kernelRun6 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt6 (c : Dev nD) (t : Fin cfg6.N) : Vec F S2000x128 .f32 :=
  out6_3 c (grid6.coords t) (ms6_0 t) (hs6_0 t) (ms6_1 t) (hs6_1 t) (ms6_2 t) (hs6_2 t) (ms6_3 t) (hs6_3 t) (iblk6 V c 0 t) (iblk6 V c 1 t) (iblk6 V c 2 t)

/-- The arrays as the region finds them; after the body each input's buffer at its block, the output's at `outsAt6`;
    the class invariant; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outsAt6 V c t
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outsAt6 V c t := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks, so the run applies; the invariant and the core's
    `owes` pass through unread. -/
theorem sound_body6 (c : Dev nD) (t : Fin cfg6.N) :
    bodyPre6 V c t ⊢ wp frame (wpE (defs₀ (F := F)) Variants.none c none) Set.univ (bodyAtH6 t) (fun _ => bodyPost6 V c t) := by
  unfold bodyPre6 bodyPost6 bodyAtH6
  simp only [before6_0, before6_1, before6_2]
  rw [show (dat6 V c).Φ t.succ = (dat6 V c).Φ t.castSucc from rfl,
    show (dat6 V c).owesAt () t.succ = (dat6 V c).owesAt () t.castSucc from rfl]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  unfold outsAt6 out6_3
  iintro ⟨HΦ, Ho, ⟨%d0, H0⟩, ⟨%d1, H1⟩, ⟨%d2, H2⟩, ⟨%d3, H3⟩⟩
  iapply ((kernelRun6 c (grid6.coords t) _ _ _ _ _ _ _ _ (iblk6 V c 0 t) (iblk6 V c 1 t) (iblk6 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover6_3 c _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end

end Cert.Kernel.H

end
-- ==== Proof.K.G7Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
end

/-! ## The grid's coordinates at a point, the branch conditions in closed form, and where the output block is written back -/

theorem coords7_0 (t : Fin cfg7.N) : ((grid7.coords t) 0).val = t.val / 49 := by
  have hN : grid7.N = 9604 := N_7
  have ht : t.val < 9604 := hN ▸ t.isLt
  show t.val / grid7.stride 0 % 196 = _
  rw [show grid7.stride 0 = 49 from by decide]
  omega
theorem coords7_1 (t : Fin cfg7.N) : ((grid7.coords t) 1).val = t.val % 49 := by
  show t.val / grid7.stride 1 % 49 = _
  rw [show grid7.stride 1 = 1 from by decide]
  omega

/-- "This is the first source tile": the accumulator is zeroed. -/
abbrev cond7_0 (i : grid7.Coords) : Prop := (Scalar.cmpi .ne (Scalar.extui (Scalar.cmpi .eq (BitVec.ofNat 32 (i 1).val) 0#32)) 0#32) = 1#1
/-- "This is the last source tile": the accumulator is stored to the output block. -/
abbrev cond7_1 (i : grid7.Coords) : Prop := k7_cond2 i = 1#1
/-- The two tests read only the second coordinate, which takes 49 values. -/
theorem condw7_0 : ∀ v : Fin 49, ((Scalar.cmpi .ne (Scalar.extui (Scalar.cmpi .eq (BitVec.ofNat 32 v.val) 0#32)) 0#32) = 1#1) ↔ v.val = 0 := by decide
theorem condw7_1 : ∀ v : Fin 49, ((Scalar.cmpi .ne (Scalar.extui (Scalar.cmpi .eq (BitVec.ofNat 32 v.val) 48#32)) 0#32) = 1#1) ↔ v.val = 48 := by decide
theorem hcond7_0 (t : Fin cfg7.N) : cond7_0 (grid7.coords t) ↔ t.val % 49 = 0 := by
  rw [← coords7_1 t]; exact condw7_0 ((grid7.coords t) 1)
theorem hcond7_1 (t : Fin cfg7.N) : cond7_1 (grid7.coords t) ↔ t.val % 49 = 48 := by
  rw [← coords7_1 t]; exact condw7_1 ((grid7.coords t) 1)

/-- The output window's block index at a point: (t / 49, 0). -/
theorem oidx7 (t : Fin cfg7.N) : win7_3.index t (0 : Fin 2) = t.val / 49 ∧ win7_3.index t (1 : Fin 2) = 0 := by
  have hN : grid7.N = 9604 := N_7
  have ht : t.val < 9604 := hN ▸ t.isLt
  have c0 := coords7_0 t
  refine ⟨?_, rfl⟩
  show (BitVec.ofNat 32 ((grid7.coords t) 0).val).toNat = _
  rw [BitVec.toNat_ofNat, c0]; omega

/-- The output block is written back exactly at the points ≡ 48 (mod 49): there the next point's block is another (or
    the grid ends), and nowhere else does the block index move. -/
theorem flushAt7_3 (t : Fin cfg7.N) : (cfg7.win 3).flush t = true ↔ t.val % 49 = 48 := by
  have hN : grid7.N = 9604 := N_7
  have ht : t.val < 9604 := hN ▸ t.isLt
  show win7_3.flush t = true ↔ _
  unfold Pipeline.Window.flush
  rw [show win7_3.isOut = true from rfl]
  simp only [Bool.true_and, Bool.or_eq_true, decide_eq_true_eq]
  constructor
  · rintro (h | ⟨hl, hne⟩)
    · omega
    · by_contra h48
      apply hne
      obtain ⟨a0, a1⟩ := oidx7 ⟨t.val + 1, hl⟩
      obtain ⟨b0, b1⟩ := oidx7 t
      funext a
      match a with
      | ⟨0, _⟩ =>
        show win7_3.index ⟨t.val + 1, hl⟩ (0 : Fin 2) = win7_3.index t (0 : Fin 2)
        rw [a0, b0]
        show (t.val + 1) / 49 = t.val / 49
        omega
      | ⟨1, _⟩ =>
        show win7_3.index ⟨t.val + 1, hl⟩ (1 : Fin 2) = win7_3.index t (1 : Fin 2)
        rw [a1, b1]
  · intro h48
    by_cases hl : t.val + 1 = grid7.N
    · exact Or.inl hl
    · have hl' : t.val + 1 < grid7.N := by omega
      refine Or.inr ⟨hl', fun heq => ?_⟩
      have h0 := congrFun heq (0 : Fin 2)
      rw [(oidx7 ⟨t.val + 1, hl'⟩).1, (oidx7 t).1] at h0
      have h0' : (t.val + 1) / 49 = t.val / 49 := h0
      omega
theorem noFlush7_3 (t : Fin cfg7.N) (h : ¬cond7_1 (grid7.coords t)) : (cfg7.win 3).flush t = false := by
  cases hf : (cfg7.win 3).flush t with
  | false => rfl
  | true => exact absurd ((hcond7_1 t).mpr ((flushAt7_3 t).mp hf)) h

/-! ## Where the windows are idle -/
theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem idleAt7_3 : ∀ t : Fin cfg7.N, ¬cond7_1 (grid7.coords t) → cfg7.idle 3 (grid7.coords t) = true := fun t h => by
  show (!(k7_cond2 (grid7.coords t) == 1#1)) = true
  simp only [Bool.not_eq_true', beq_eq_false_iff_ne, ne_eq]
  exact h
theorem liveAt7_3 : ∀ t : Fin cfg7.N, cond7_1 (grid7.coords t) → cfg7.idle 3 (grid7.coords t) = false := fun t h => by
  show (!(k7_cond2 (grid7.coords t) == 1#1)) = false
  simp only [Bool.not_eq_false', beq_iff_eq]
  exact h

/-! ## The memrefs the runs are stated over -/
abbrev VO7_3 : View sig .tc .vmem S2048x128 .bf16 := (Memref.whole cc7_stg3_0 : Memref sig .tc .vmem S2048x128 .bf16).view
abbrev ms7_0 (t : Fin cfg7.N) : Memref sig .tc .vmem S2048 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x128 .bf16 := win7_3.stage (cfg7.slots t 3)
abbrev hs7_3 (t : Fin cfg7.N) : (ms7_3 t).IsWhole := hstage7_3 ((cfg7.slots t 3).cast nbuf7_3)
/-- The accumulator: a whole scoped buffer of the kernel's own, carried from point to point. -/
abbrev scM7_0 : Memref sig .tc .vmem S2048x128 .f32 := Memref.whole cc7_scratch0
abbrev VS7_0 : View sig .tc .vmem S2048x128 .f32 := scM7_0.view

/-- The class invariant with the accumulator as a memref owned at some contents; the other scoped buffers stay unopened. -/
theorem PhiA7_eq (c : Dev nD) :
    (Pipeline.ΦA spec7 c : sProp 𝕄)
      = iprop(iprop((∃ d, owns (c : Thread nD τ) scM7_0 fullShare d) ∗ Pipeline.scopedRestBut (Ix := Unit) (Name := ℕ) (U := Pipeline.UD sig nD τ) (Lvl := ℕ) (Val := Elt F) spec7 c [cc7_scratch0]) ∗ (∃ r, prngReg c r)) := by
  unfold Pipeline.ΦA; rw [scopedRest7_split]; simp only [scM7_0, owns_whole]; try rfl

end Cert.Kernel.H

end
-- ==== Proof.K.G7RunB.lean ====
/-
  A gather launch (the first one-hot product of a relation), at a middle source tile (neither the first nor the last): the accumulator, found at what the
  point before left, gets the product added; the output block is not touched.
-/
import proofs.«407232_j23192823399226_1_alg».proof.Proof.K.G7Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun7_B (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G7RunA.lean ====
/-
  A gather launch (the first one-hot product of a relation), at the first source tile: the accumulator, whatever it held, is zeroed and gets the product
  added; the output block is not touched.
-/
import proofs.«407232_j23192823399226_1_alg».proof.Proof.K.G7RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun7_A (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G7RunC.lean ====
/-
  A gather launch (the first one-hot product of a relation), at the last source tile: the accumulator, found at what the point before left, gets the
  product added and is then stored to the output block.
-/
import proofs.«407232_j23192823399226_1_alg».proof.Proof.K.G7RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun7_C (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨?_, ?_, fun E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.G7.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.K.G7RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH7 (t : Fin cfg7.N) : Prog (TpuEff nD τ sig (Elt F) Λ₀ .tc) PUnit :=
  cc7__gather_kernel (grid7.coords t) (ms7_0 t) (hs7_0 t) (ms7_1 t) (hs7_1 t) (ms7_2 t) (hs7_2 t) (ms7_3 t) (hs7_3 t) scM7_0 (Memref.isWhole_whole _)

/-! ## What each case leaves -/

theorem scover7_A_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) (y : S2048x128.Idx) :
    ∃ pc ∈ (kernelRun7_A (F := F) c i arg2 harg2 arg3 harg3 arg4 harg4 arg5 harg5 arg6 harg6 hc0 hc1 x0 x1 x2).2.1, y ∈ pc.1.set :=
  View.cover_of_tiledL (kernelRun7_A (F := F) c i arg2 harg2 arg3 harg3 arg4 harg4 arg5 harg5 arg6 harg6 hc0 hc1 x0 x1 x2).2.1 S2048x128.size (by sl_kernel_rfl) y

/-- The accumulator after a first source tile: the case's pieces read back. -/
def sout7_A_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) : Vec F S2048x128 .f32 :=
  VS7_0.read (Elt F) (VS7_0.writes (Elt F) VS7_0.junk (kernelRun7_A (F := F) c i arg2 harg2 arg3 harg3 arg4 harg4 arg5 harg5 arg6 harg6 hc0 hc1 x0 x1 x2).2.1)

theorem scover7_B_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) (y : S2048x128.Idx) :
    ∃ pc ∈ (kernelRun7_B (F := F) c i arg2 harg2 arg3 harg3 arg4 harg4 arg5 harg5 arg6 harg6 hc0 hc1 x0 x1 x2 xs0).2.1, y ∈ pc.1.set :=
  View.cover_of_tiledL (kernelRun7_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout7_B_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) : Vec F S2048x128 .f32 :=
  VS7_0.read (Elt F) (VS7_0.writes (Elt F) VS7_0.junk (kernelRun7_B (F := F) c i arg2 harg2 arg3 harg3 arg4 harg4 arg5 harg5 arg6 harg6 hc0 hc1 x0 x1 x2 xs0).2.1)

theorem cover7_C_3 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) (y : S2048x128.Idx) :
    ∃ pc ∈ (kernelRun7_C (F := F) c i arg2 harg2 arg3 harg3 arg4 harg4 arg5 harg5 arg6 harg6 hc0 hc1 x0 x1 x2 xs0).1, y ∈ pc.1.set :=
  View.cover_of_tiledL (kernelRun7_C (F := F) c i arg2 harg2 arg3 harg3 arg4 harg4 arg5 harg5 arg6 harg6 hc0 hc1 x0 x1 x2 xs0).1 S2048x128.size (by sl_kernel_rfl) y

/-- The output block after a last source tile. -/
def out7_C_3 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) : Vec F S2048x128 .bf16 :=
  VO7_3.read (Elt F) (VO7_3.writes (Elt F) VO7_3.junk (kernelRun7_C (F := F) c i arg2 harg2 arg3 harg3 arg4 harg4 arg5 harg5 arg6 harg6 hc0 hc1 x0 x1 x2 xs0).1)

theorem scover7_C_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) (y : S2048x128.Idx) :
    ∃ pc ∈ (kernelRun7_C (F := F) c i arg2 harg2 arg3 harg3 arg4 harg4 arg5 harg5 arg6 harg6 hc0 hc1 x0 x1 x2 xs0).2.1, y ∈ pc.1.set :=
  View.cover_of_tiledL (kernelRun7_C (F := F) c i arg2 harg2 arg3 harg3 arg4 harg4 arg5 harg5 arg6 harg6 hc0 hc1 x0 x1 x2 xs0).2.1 S2048x128.size (by sl_kernel_rfl) y

/-- The accumulator after a last source tile. -/
def sout7_C_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) : Vec F S2048x128 .f32 :=
  VS7_0.read (Elt F) (VS7_0.writes (Elt F) VS7_0.junk (kernelRun7_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle7_3 : Vec F S2048x128 .bf16 := VO7_3.read (Elt F) VO7_3.junk

/-! ## The accumulation, point by point -/

/-- After the body at position `n`: (the output block, the accumulator) — the case the closed forms select, a later
    source tile's over what position `n - 1` left in the accumulator. -/
def outsAt7 (c : Dev nD) : (n : ℕ) → n < cfg7.N → Vec F S2048x128 .bf16 × Vec F S2048x128 .f32
  | 0, hn => (idle7_3, sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 49 = 0 then
      if h1 : (n + 1) % 49 = 48 then
        False.elim (by omega)
      else
        (idle7_3, sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 49 = 48 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2,
         sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (idle7_3, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

theorem outsAt7_A (c : Dev nD) (t : Fin cfg7.N) (h0 : t.val % 49 = 0) (h1 : ¬t.val % 49 = 48) :
    outsAt7 V c t.val t.isLt = (idle7_3, sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 49 = 0) (h1 : ¬t.val % 49 = 48) :
    outsAt7 V c t.val t.isLt = (idle7_3, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 49 = 0) (h1 : t.val % 49 = 48) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2,
      sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut7 (c : Dev nD) : sProp 𝕄 :=
  Pipeline.scopedRestBut (Ix := Unit) (Name := ℕ) (U := Pipeline.UD sig nD τ) (Lvl := ℕ) (Val := Elt F) spec7 c [cc7_scratch0]

/-- Before position `n`: at the region's entry the class invariant (the accumulator at anything); afterwards the
    accumulator at what position `n - 1` left, the other scoped buffers unopened, the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ restBut7 (F := F) c) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7_0 fullShare ((outsAt7 V c n hn).2) ∗ restBut7 (F := F) c) ∗ (∃ r, prngReg c r)) := rfl
theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ restBut7 (F := F) c) ∗ (∃ r, prngReg c r)) := by
  cases n with
  | zero => exact absurd rfl hz
  | succ n => rfl

/-! ## The pipeline's proof data -/

/-- The arrays as the region finds them; after the body each input's buffer at its block, the output's at `outsAt7`'s
    first component; the invariant `PhiS7`; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body7 (c : Dev nD) (t : Fin cfg7.N) :
    bodyPre7 V c t ⊢ wp frame (wpE (defs₀ (F := F)) Variants.none c none) Set.univ (bodyAtH7 t) (fun _ => bodyPost7 V c t) := by
  unfold bodyPre7 bodyPost7 bodyAtH7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  by_cases h1 : t.val % 49 = 48
  · have h0 : ¬t.val % 49 = 0 := by omega
    have hz : t.val ≠ 0 := by omega
    rw [show (dat7 V c).leavesExact 3 t = owns (c : Thread nD τ) (ms7_3 t) fullShare ((dat7 V c).after 3 t) from by
      unfold Dat.leavesExact; rw [liveAt7_3 t ((hcond7_1 t).mpr h1)], after7_3]
    rw [outsAt7_C V c t h0 h1]
    unfold out7_C_3 sout7_C_0; (try dsimp only)
    rw [PhiS7_castSucc V c t, PhiS7_pos V c _ _ hz]
    iintro ⟨⟨⟨HS0, HR⟩, Hg⟩, Ho, ⟨%d0, H0⟩, ⟨%d1, H1⟩, ⟨%d2, H2⟩, ⟨%d3, H3⟩⟩
    iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover7_C_3 c _ _ _ _ _ _ _ _ _ _ _ _ _ _ _ _ _)
  · rw [Dat.leavesExact_idle (dat7 V c) 3 t (idleAt7_3 t (fun h => h1 ((hcond7_1 t).mp h))) (noFlush7_3 t (fun h => h1 ((hcond7_1 t).mp h)))]
    by_cases h0 : t.val % 49 = 0
    · rw [outsAt7_A V c t h0 h1]
      unfold sout7_A_0; (try dsimp only)
      by_cases hz : t.val = 0
      · rw [PhiS7_castSucc V c t, PhiS7_zero V c _ _ hz, PhiA7_eq]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt7_B V c t h0 h1]
      unfold sout7_B_0; (try dsimp only)
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the class invariant back: the accumulator's contents are forgotten. -/
theorem hout7 (c : Dev nD) : (dat7 V c).Φ (Fin.last cfg7.N) ⊢ Pipeline.ΦA spec7 c := by
  have hN : cfg7.N = 9604 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨HS0, HR⟩, Hg⟩
  isplitl [HS0 HR]
  · isplitl [HS0]
    · iexists _; iexact HS0
    iexact HR
  iexact Hg

end

end Cert.Kernel.H

end
-- ==== Proof.K.S8Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
end

/-! ## The grid's coordinates at a point, the branch conditions in closed form, and where the output block is written back -/

theorem coords8_0 (t : Fin cfg8.N) : ((grid8.coords t) 0).val = t.val / 196 := by
  have hN : grid8.N = 784 := N_8
  have ht : t.val < 784 := hN ▸ t.isLt
  show t.val / grid8.stride 0 % 4 = _
  rw [show grid8.stride 0 = 196 from by decide]
  omega
theorem coords8_1 (t : Fin cfg8.N) : ((grid8.coords t) 1).val = t.val % 196 := by
  show t.val / grid8.stride 1 % 196 = _
  rw [show grid8.stride 1 = 1 from by decide]
  omega

/-- "This is the first edge chunk": the accumulator is zeroed. -/
abbrev cond8_0 (i : grid8.Coords) : Prop := (Scalar.cmpi .ne (Scalar.extui (Scalar.cmpi .eq (BitVec.ofNat 32 (i 1).val) 0#32)) 0#32) = 1#1
/-- "This is the last edge chunk": the accumulator is stored to the output block. -/
abbrev cond8_1 (i : grid8.Coords) : Prop := k8_cond2 i = 1#1
/-- The two tests read only the second coordinate, which takes 196 values. -/
theorem condw8_0 : ∀ v : Fin 196, ((Scalar.cmpi .ne (Scalar.extui (Scalar.cmpi .eq (BitVec.ofNat 32 v.val) 0#32)) 0#32) = 1#1) ↔ v.val = 0 := by decide
theorem condw8_1 : ∀ v : Fin 196, ((Scalar.cmpi .ne (Scalar.extui (Scalar.cmpi .eq (BitVec.ofNat 32 v.val) 195#32)) 0#32) = 1#1) ↔ v.val = 195 := by decide
theorem hcond8_0 (t : Fin cfg8.N) : cond8_0 (grid8.coords t) ↔ t.val % 196 = 0 := by
  rw [← coords8_1 t]; exact condw8_0 ((grid8.coords t) 1)
theorem hcond8_1 (t : Fin cfg8.N) : cond8_1 (grid8.coords t) ↔ t.val % 196 = 195 := by
  rw [← coords8_1 t]; exact condw8_1 ((grid8.coords t) 1)

/-- The output window's block index at a point: (t / 196, 0). -/
theorem oidx8 (t : Fin cfg8.N) : win8_2.index t (0 : Fin 2) = t.val / 196 ∧ win8_2.index t (1 : Fin 2) = 0 := by
  have hN : grid8.N = 784 := N_8
  have ht : t.val < 784 := hN ▸ t.isLt
  have c0 := coords8_0 t
  refine ⟨?_, rfl⟩
  show (BitVec.ofNat 32 ((grid8.coords t) 0).val).toNat = _
  rw [BitVec.toNat_ofNat, c0]; omega

/-- The output block is written back exactly at the points ≡ 195 (mod 196): there the next point's block is another (or
    the grid ends), and nowhere else does the block index move. -/
theorem flushAt8_2 (t : Fin cfg8.N) : (cfg8.win 2).flush t = true ↔ t.val % 196 = 195 := by
  have hN : grid8.N = 784 := N_8
  have ht : t.val < 784 := hN ▸ t.isLt
  show win8_2.flush t = true ↔ _
  unfold Pipeline.Window.flush
  rw [show win8_2.isOut = true from rfl]
  simp only [Bool.true_and, Bool.or_eq_true, decide_eq_true_eq]
  constructor
  · rintro (h | ⟨hl, hne⟩)
    · omega
    · by_contra h48
      apply hne
      obtain ⟨a0, a1⟩ := oidx8 ⟨t.val + 1, hl⟩
      obtain ⟨b0, b1⟩ := oidx8 t
      funext a
      match a with
      | ⟨0, _⟩ =>
        show win8_2.index ⟨t.val + 1, hl⟩ (0 : Fin 2) = win8_2.index t (0 : Fin 2)
        rw [a0, b0]
        show (t.val + 1) / 196 = t.val / 196
        omega
      | ⟨1, _⟩ =>
        show win8_2.index ⟨t.val + 1, hl⟩ (1 : Fin 2) = win8_2.index t (1 : Fin 2)
        rw [a1, b1]
  · intro h48
    by_cases hl : t.val + 1 = grid8.N
    · exact Or.inl hl
    · have hl' : t.val + 1 < grid8.N := by omega
      refine Or.inr ⟨hl', fun heq => ?_⟩
      have h0 := congrFun heq (0 : Fin 2)
      rw [(oidx8 ⟨t.val + 1, hl'⟩).1, (oidx8 t).1] at h0
      have h0' : (t.val + 1) / 196 = t.val / 196 := h0
      omega
theorem noFlush8_2 (t : Fin cfg8.N) (h : ¬cond8_1 (grid8.coords t)) : (cfg8.win 2).flush t = false := by
  cases hf : (cfg8.win 2).flush t with
  | false => rfl
  | true => exact absurd ((hcond8_1 t).mpr ((flushAt8_2 t).mp hf)) h

/-! ## Where the windows are idle -/
theorem liveAt8_0 : ∀ t : Fin cfg8.N, cfg8.idle 0 (grid8.coords t) = false := fun _ => rfl
theorem liveAt8_1 : ∀ t : Fin cfg8.N, cfg8.idle 1 (grid8.coords t) = false := fun _ => rfl
theorem idleAt8_2 : ∀ t : Fin cfg8.N, ¬cond8_1 (grid8.coords t) → cfg8.idle 2 (grid8.coords t) = true := fun t h => by
  show (!(k8_cond2 (grid8.coords t) == 1#1)) = true
  simp only [Bool.not_eq_true', beq_eq_false_iff_ne, ne_eq]
  exact h
theorem liveAt8_2 : ∀ t : Fin cfg8.N, cond8_1 (grid8.coords t) → cfg8.idle 2 (grid8.coords t) = false := fun t h => by
  show (!(k8_cond2 (grid8.coords t) == 1#1)) = false
  simp only [Bool.not_eq_false', beq_iff_eq]
  exact h

/-! ## The memrefs the runs are stated over -/
abbrev VO8_2 : View sig .tc .vmem S1024x128 .f32 := (Memref.whole cc8_stg2_0 : Memref sig .tc .vmem S1024x128 .f32).view
abbrev ms8_0 (t : Fin cfg8.N) : Memref sig .tc .vmem S2048 .i32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x128 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x128 .f32 := win8_2.stage (cfg8.slots t 2)
abbrev hs8_2 (t : Fin cfg8.N) : (ms8_2 t).IsWhole := hstage8_2 ((cfg8.slots t 2).cast nbuf8_2)
/-- The accumulator: a whole scoped buffer of the kernel's own, carried from point to point. -/
abbrev scM8_0 : Memref sig .tc .vmem S1024x128 .f32 := Memref.whole cc8_scratch0
abbrev VS8_0 : View sig .tc .vmem S1024x128 .f32 := scM8_0.view

/-- The class invariant with the accumulator as a memref owned at some contents; the other scoped buffers stay unopened. -/
theorem PhiA8_eq (c : Dev nD) :
    (Pipeline.ΦA spec8 c : sProp 𝕄)
      = iprop(iprop((∃ d, owns (c : Thread nD τ) scM8_0 fullShare d) ∗ Pipeline.scopedRestBut (Ix := Unit) (Name := ℕ) (U := Pipeline.UD sig nD τ) (Lvl := ℕ) (Val := Elt F) spec8 c [cc8_scratch0]) ∗ (∃ r, prngReg c r)) := by
  unfold Pipeline.ΦA; rw [scopedRest8_split]; simp only [scM8_0, owns_whole]; try rfl

end Cert.Kernel.H

end
-- ==== Proof.K.S8RunB.lean ====
/-
  A scatter launch (the second one-hot product of a relation), at a middle edge chunk (neither the first nor the last): the accumulator, found at what the
  point before left, gets the product added; the output block is not touched.
-/
import proofs.«407232_j23192823399226_1_alg».proof.Proof.K.S8Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun8_B (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : ¬cond8_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S8RunA.lean ====
/-
  A scatter launch (the second one-hot product of a relation), at the first edge chunk: the accumulator, whatever it held, is zeroed and gets the product
  added; the output block is not touched.
-/
import proofs.«407232_j23192823399226_1_alg».proof.Proof.K.S8RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun8_A (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond8_0 i) (hc1 : ¬cond8_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S8RunC.lean ====
/-
  A scatter launch (the second one-hot product of a relation), at the last edge chunk: the accumulator, found at what the point before left, gets the
  product added and is then stored to the output block.
-/
import proofs.«407232_j23192823399226_1_alg».proof.Proof.K.S8RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun8_C (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨?_, ?_, fun E K => ?run⟩
  case run =>
    simp only [cc8__scatter_kernel_eq_skeleton]; unfold cc8__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.H

end
-- ==== Proof.K.S8.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.K.S8RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH8 (t : Fin cfg8.N) : Prog (TpuEff nD τ sig (Elt F) Λ₀ .tc) PUnit :=
  cc8__scatter_kernel (grid8.coords t) (ms8_0 t) (hs8_0 t) (ms8_1 t) (hs8_1 t) (ms8_2 t) (hs8_2 t) scM8_0 (Memref.isWhole_whole _)

/-! ## What each case leaves -/

theorem scover8_A_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond8_0 i) (hc1 : ¬cond8_1 i)
    (x0 : Vec F S2048 .i32) (x1 : Vec F S2048x128 .bf16) (y : S1024x128.Idx) :
    ∃ pc ∈ (kernelRun8_A (F := F) c i arg2 harg2 arg3 harg3 arg4 harg4 arg5 harg5 hc0 hc1 x0 x1).2.1, y ∈ pc.1.set :=
  View.cover_of_tiledL (kernelRun8_A (F := F) c i arg2 harg2 arg3 harg3 arg4 harg4 arg5 harg5 hc0 hc1 x0 x1).2.1 S1024x128.size (by sl_kernel_rfl) y

/-- The accumulator after a first edge chunk: the case's pieces read back. -/
def sout8_A_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond8_0 i) (hc1 : ¬cond8_1 i)
    (x0 : Vec F S2048 .i32) (x1 : Vec F S2048x128 .bf16) : Vec F S1024x128 .f32 :=
  VS8_0.read (Elt F) (VS8_0.writes (Elt F) VS8_0.junk (kernelRun8_A (F := F) c i arg2 harg2 arg3 harg3 arg4 harg4 arg5 harg5 hc0 hc1 x0 x1).2.1)

theorem scover8_B_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : ¬cond8_1 i)
    (x0 : Vec F S2048 .i32) (x1 : Vec F S2048x128 .bf16) (xs0 : Vec F S1024x128 .f32) (y : S1024x128.Idx) :
    ∃ pc ∈ (kernelRun8_B (F := F) c i arg2 harg2 arg3 harg3 arg4 harg4 arg5 harg5 hc0 hc1 x0 x1 xs0).2.1, y ∈ pc.1.set :=
  View.cover_of_tiledL (kernelRun8_B (F := F) c i arg2 harg2 arg3 harg3 arg4 harg4 arg5 harg5 hc0 hc1 x0 x1 xs0).2.1 S1024x128.size (by sl_kernel_rfl) y

/-- The accumulator after a middle edge chunk, over what the point before left (`xs0`). -/
def sout8_B_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : ¬cond8_1 i)
    (x0 : Vec F S2048 .i32) (x1 : Vec F S2048x128 .bf16) (xs0 : Vec F S1024x128 .f32) : Vec F S1024x128 .f32 :=
  VS8_0.read (Elt F) (VS8_0.writes (Elt F) VS8_0.junk (kernelRun8_B (F := F) c i arg2 harg2 arg3 harg3 arg4 harg4 arg5 harg5 hc0 hc1 x0 x1 xs0).2.1)

theorem cover8_C_2 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) (y : S1024x128.Idx) :
    ∃ pc ∈ (kernelRun8_C (F := F) c i arg2 harg2 arg3 harg3 arg4 harg4 arg5 harg5 hc0 hc1 x0 x1 xs0).1, y ∈ pc.1.set :=
  View.cover_of_tiledL (kernelRun8_C (F := F) c i arg2 harg2 arg3 harg3 arg4 harg4 arg5 harg5 hc0 hc1 x0 x1 xs0).1 S1024x128.size (by sl_kernel_rfl) y

/-- The output block after a last edge chunk. -/
def out8_C_2 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) : Vec F S1024x128 .f32 :=
  VO8_2.read (Elt F) (VO8_2.writes (Elt F) VO8_2.junk (kernelRun8_C (F := F) c i arg2 harg2 arg3 harg3 arg4 harg4 arg5 harg5 hc0 hc1 x0 x1 xs0).1)

theorem scover8_C_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) (y : S1024x128.Idx) :
    ∃ pc ∈ (kernelRun8_C (F := F) c i arg2 harg2 arg3 harg3 arg4 harg4 arg5 harg5 hc0 hc1 x0 x1 xs0).2.1, y ∈ pc.1.set :=
  View.cover_of_tiledL (kernelRun8_C (F := F) c i arg2 harg2 arg3 harg3 arg4 harg4 arg5 harg5 hc0 hc1 x0 x1 xs0).2.1 S1024x128.size (by sl_kernel_rfl) y

/-- The accumulator after a last edge chunk. -/
def sout8_C_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) : Vec F S1024x128 .f32 :=
  VS8_0.read (Elt F) (VS8_0.writes (Elt F) VS8_0.junk (kernelRun8_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle8_2 : Vec F S1024x128 .f32 := VO8_2.read (Elt F) VO8_2.junk

/-! ## The accumulation, point by point -/

/-- After the body at position `n`: (the output block, the accumulator) — the case the closed forms select, a later
    edge chunk's over what position `n - 1` left in the accumulator. -/
def outsAt8 (c : Dev nD) : (n : ℕ) → n < cfg8.N → Vec F S1024x128 .f32 × Vec F S1024x128 .f32
  | 0, hn => (idle8_2, sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩))
  | n + 1, hn =>
    if h0 : (n + 1) % 196 = 0 then
      if h1 : (n + 1) % 196 = 195 then
        False.elim (by omega)
      else
        (idle8_2, sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩))
    else
      if h1 : (n + 1) % 196 = 195 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2,
         sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (idle8_2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2)

theorem outsAt8_A (c : Dev nD) (t : Fin cfg8.N) (h0 : t.val % 196 = 0) (h1 : ¬t.val % 196 = 195) :
    outsAt8 V c t.val t.isLt = (idle8_2, sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t)) := by
  obtain ⟨n, hn⟩ := t
  cases n with
  | zero => exact rfl
  | succ n => exact (dif_pos h0).trans ((dif_neg h1).trans rfl)

theorem outsAt8_B (c : Dev nD) (t : Fin cfg8.N) (h0 : ¬t.val % 196 = 0) (h1 : ¬t.val % 196 = 195) :
    outsAt8 V c t.val t.isLt = (idle8_2, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 196 = 0) (h1 : t.val % 196 = 195) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2,
      sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut8 (c : Dev nD) : sProp 𝕄 :=
  Pipeline.scopedRestBut (Ix := Unit) (Name := ℕ) (U := Pipeline.UD sig nD τ) (Lvl := ℕ) (Val := Elt F) spec8 c [cc8_scratch0]

/-- Before position `n`: at the region's entry the class invariant (the accumulator at anything); afterwards the
    accumulator at what position `n - 1` left, the other scoped buffers unopened, the generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ restBut8 (F := F) c) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(owns (c : Thread nD τ) scM8_0 fullShare ((outsAt8 V c n hn).2) ∗ restBut8 (F := F) c) ∗ (∃ r, prngReg c r)) := rfl
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ restBut8 (F := F) c) ∗ (∃ r, prngReg c r)) := by
  cases n with
  | zero => exact absurd rfl hz
  | succ n => rfl

/-! ## The pipeline's proof data -/

/-- The arrays as the region finds them; after the body each input's buffer at its block, the output's at `outsAt8`'s
    first component; the invariant `PhiS8`; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body8 (c : Dev nD) (t : Fin cfg8.N) :
    bodyPre8 V c t ⊢ wp frame (wpE (defs₀ (F := F)) Variants.none c none) Set.univ (bodyAtH8 t) (fun _ => bodyPost8 V c t) := by
  unfold bodyPre8 bodyPost8 bodyAtH8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  by_cases h1 : t.val % 196 = 195
  · have h0 : ¬t.val % 196 = 0 := by omega
    have hz : t.val ≠ 0 := by omega
    rw [show (dat8 V c).leavesExact 2 t = owns (c : Thread nD τ) (ms8_2 t) fullShare ((dat8 V c).after 2 t) from by
      unfold Dat.leavesExact; rw [liveAt8_2 t ((hcond8_1 t).mpr h1)], after8_2]
    rw [outsAt8_C V c t h0 h1]
    unfold out8_C_2 sout8_C_0; (try dsimp only)
    rw [PhiS8_castSucc V c t, PhiS8_pos V c _ _ hz]
    iintro ⟨⟨⟨HS0, HR⟩, Hg⟩, Ho, ⟨%d0, H0⟩, ⟨%d1, H1⟩, ⟨%d2, H2⟩⟩
    iapply ((kernelRun8_C c (grid8.coords t) _ _ _ _ _ _ _ _ (fun h => h0 ((hcond8_0 t).mp h)) ((hcond8_1 t).mpr h1) (iblk8 V c 0 t) (iblk8 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover8_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover8_C_2 c _ _ _ _ _ _ _ _ _ _ _ _ _ _)
  · rw [Dat.leavesExact_idle (dat8 V c) 2 t (idleAt8_2 t (fun h => h1 ((hcond8_1 t).mp h))) (noFlush8_2 t (fun h => h1 ((hcond8_1 t).mp h)))]
    by_cases h0 : t.val % 196 = 0
    · rw [outsAt8_A V c t h0 h1]
      unfold sout8_A_0; (try dsimp only)
      by_cases hz : t.val = 0
      · rw [PhiS8_castSucc V c t, PhiS8_zero V c _ _ hz, PhiA8_eq]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt8_B V c t h0 h1]
      unfold sout8_B_0; (try dsimp only)
      rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_B c (grid8.coords t) _ _ _ _ _ _ _ _ (fun h => h0 ((hcond8_0 t).mp h)) (fun h => h1 ((hcond8_1 t).mp h)) (iblk8 V c 0 t) (iblk8 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class invariant back: the accumulator's contents are forgotten. -/
theorem hout8 (c : Dev nD) : (dat8 V c).Φ (Fin.last cfg8.N) ⊢ Pipeline.ΦA spec8 c := by
  have hN : cfg8.N = 784 := N_8
  rw [show (dat8 V c).Φ (Fin.last cfg8.N) = PhiS8 V c (Fin.last cfg8.N).val (Nat.le_of_lt_succ (Fin.last cfg8.N).isLt) from rfl,
    PhiS8_pos V c _ _ (by rw [Fin.val_last]; omega), PhiA8_eq]
  iintro ⟨⟨HS0, HR⟩, Hg⟩
  isplitl [HS0 HR]
  · isplitl [HS0]
    · iexists _; iexact HS0
    iexact HR
  iexact Hg

end

end Cert.Kernel.H

end
-- ==== Proof.K.G9Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
end

/-! ## The grid's coordinates at a point, the branch conditions in closed form, and where the output block is written back -/

theorem coords9_0 (t : Fin cfg9.N) : ((grid9.coords t) 0).val = t.val / 4 := by
  have hN : grid9.N = 316 := N_9
  have ht : t.val < 316 := hN ▸ t.isLt
  show t.val / grid9.stride 0 % 79 = _
  rw [show grid9.stride 0 = 4 from by decide]
  omega
theorem coords9_1 (t : Fin cfg9.N) : ((grid9.coords t) 1).val = t.val % 4 := by
  show t.val / grid9.stride 1 % 4 = _
  rw [show grid9.stride 1 = 1 from by decide]
  omega

/-- "This is the first source tile": the accumulator is zeroed. -/
abbrev cond9_0 (i : grid9.Coords) : Prop := (Scalar.cmpi .ne (Scalar.extui (Scalar.cmpi .eq (BitVec.ofNat 32 (i 1).val) 0#32)) 0#32) = 1#1
/-- "This is the last source tile": the accumulator is stored to the output block. -/
abbrev cond9_1 (i : grid9.Coords) : Prop := k9_cond2 i = 1#1
/-- The two tests read only the second coordinate, which takes 4 values. -/
theorem condw9_0 : ∀ v : Fin 4, ((Scalar.cmpi .ne (Scalar.extui (Scalar.cmpi .eq (BitVec.ofNat 32 v.val) 0#32)) 0#32) = 1#1) ↔ v.val = 0 := by decide
theorem condw9_1 : ∀ v : Fin 4, ((Scalar.cmpi .ne (Scalar.extui (Scalar.cmpi .eq (BitVec.ofNat 32 v.val) 3#32)) 0#32) = 1#1) ↔ v.val = 3 := by decide
theorem hcond9_0 (t : Fin cfg9.N) : cond9_0 (grid9.coords t) ↔ t.val % 4 = 0 := by
  rw [← coords9_1 t]; exact condw9_0 ((grid9.coords t) 1)
theorem hcond9_1 (t : Fin cfg9.N) : cond9_1 (grid9.coords t) ↔ t.val % 4 = 3 := by
  rw [← coords9_1 t]; exact condw9_1 ((grid9.coords t) 1)

/-- The output window's block index at a point: (t / 4, 0). -/
theorem oidx9 (t : Fin cfg9.N) : win9_3.index t (0 : Fin 2) = t.val / 4 ∧ win9_3.index t (1 : Fin 2) = 0 := by
  have hN : grid9.N = 316 := N_9
  have ht : t.val < 316 := hN ▸ t.isLt
  have c0 := coords9_0 t
  refine ⟨?_, rfl⟩
  show (BitVec.ofNat 32 ((grid9.coords t) 0).val).toNat = _
  rw [BitVec.toNat_ofNat, c0]; omega

/-- The output block is written back exactly at the points ≡ 3 (mod 4): there the next point's block is another (or
    the grid ends), and nowhere else does the block index move. -/
theorem flushAt9_3 (t : Fin cfg9.N) : (cfg9.win 3).flush t = true ↔ t.val % 4 = 3 := by
  have hN : grid9.N = 316 := N_9
  have ht : t.val < 316 := hN ▸ t.isLt
  show win9_3.flush t = true ↔ _
  unfold Pipeline.Window.flush
  rw [show win9_3.isOut = true from rfl]
  simp only [Bool.true_and, Bool.or_eq_true, decide_eq_true_eq]
  constructor
  · rintro (h | ⟨hl, hne⟩)
    · omega
    · by_contra h48
      apply hne
      obtain ⟨a0, a1⟩ := oidx9 ⟨t.val + 1, hl⟩
      obtain ⟨b0, b1⟩ := oidx9 t
      funext a
      match a with
      | ⟨0, _⟩ =>
        show win9_3.index ⟨t.val + 1, hl⟩ (0 : Fin 2) = win9_3.index t (0 : Fin 2)
        rw [a0, b0]
        show (t.val + 1) / 4 = t.val / 4
        omega
      | ⟨1, _⟩ =>
        show win9_3.index ⟨t.val + 1, hl⟩ (1 : Fin 2) = win9_3.index t (1 : Fin 2)
        rw [a1, b1]
  · intro h48
    by_cases hl : t.val + 1 = grid9.N
    · exact Or.inl hl
    · have hl' : t.val + 1 < grid9.N := by omega
      refine Or.inr ⟨hl', fun heq => ?_⟩
      have h0 := congrFun heq (0 : Fin 2)
      rw [(oidx9 ⟨t.val + 1, hl'⟩).1, (oidx9 t).1] at h0
      have h0' : (t.val + 1) / 4 = t.val / 4 := h0
      omega
theorem noFlush9_3 (t : Fin cfg9.N) (h : ¬cond9_1 (grid9.coords t)) : (cfg9.win 3).flush t = false := by
  cases hf : (cfg9.win 3).flush t with
  | false => rfl
  | true => exact absurd ((hcond9_1 t).mpr ((flushAt9_3 t).mp hf)) h

/-! ## Where the windows are idle -/
theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl
theorem idleAt9_3 : ∀ t : Fin cfg9.N, ¬cond9_1 (grid9.coords t) → cfg9.idle 3 (grid9.coords t) = true := fun t h => by
  show (!(k9_cond2 (grid9.coords t) == 1#1)) = true
  simp only [Bool.not_eq_true', beq_eq_false_iff_ne, ne_eq]
  exact h
theorem liveAt9_3 : ∀ t : Fin cfg9.N, cond9_1 (grid9.coords t) → cfg9.idle 3 (grid9.coords t) = false := fun t h => by
  show (!(k9_cond2 (grid9.coords t) == 1#1)) = false
  simp only [Bool.not_eq_false', beq_iff_eq]
  exact h

/-! ## The memrefs the runs are stated over -/
abbrev VO9_3 : View sig .tc .vmem S2048x128 .bf16 := (Memref.whole cc9_stg3_0 : Memref sig .tc .vmem S2048x128 .bf16).view
abbrev ms9_0 (t : Fin cfg9.N) : Memref sig .tc .vmem S2048 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2048x128 .bf16 := win9_3.stage (cfg9.slots t 3)
abbrev hs9_3 (t : Fin cfg9.N) : (ms9_3 t).IsWhole := hstage9_3 ((cfg9.slots t 3).cast nbuf9_3)
/-- The accumulator: a whole scoped buffer of the kernel's own, carried from point to point. -/
abbrev scM9_0 : Memref sig .tc .vmem S2048x128 .f32 := Memref.whole cc9_scratch0
abbrev VS9_0 : View sig .tc .vmem S2048x128 .f32 := scM9_0.view

/-- The class invariant with the accumulator as a memref owned at some contents; the other scoped buffers stay unopened. -/
theorem PhiA9_eq (c : Dev nD) :
    (Pipeline.ΦA spec9 c : sProp 𝕄)
      = iprop(iprop((∃ d, owns (c : Thread nD τ) scM9_0 fullShare d) ∗ Pipeline.scopedRestBut (Ix := Unit) (Name := ℕ) (U := Pipeline.UD sig nD τ) (Lvl := ℕ) (Val := Elt F) spec9 c [cc9_scratch0]) ∗ (∃ r, prngReg c r)) := by
  unfold Pipeline.ΦA; rw [scopedRest9_split]; simp only [scM9_0, owns_whole]; try rfl

end Cert.Kernel.H

end
-- ==== Proof.K.G9RunB.lean ====
/-
  A gather launch (the first one-hot product of a relation), at a middle source tile (neither the first nor the last): the accumulator, found at what the
  point before left, gets the product added; the output block is not touched.
-/
import proofs.«407232_j23192823399226_1_alg».proof.Proof.K.G9Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun9_B (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gather_kernel i arg2 harg2 arg3 harg3 arg4 harg4 arg5 harg5 arg6 harg6) K } := by
  refine ⟨[], ?_, fun xi3 E K => ?run⟩
  case run =>
    simp only [cc9__gather_kernel_eq_skeleton]; unfold cc9__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G9RunA.lean ====
/-
  A gather launch (the first one-hot product of a relation), at the first source tile: the accumulator, whatever it held, is zeroed and gets the product
  added; the output block is not touched.
-/
import proofs.«407232_j23192823399226_1_alg».proof.Proof.K.G9RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun9_A (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gather_kernel i arg2 harg2 arg3 harg3 arg4 harg4 arg5 harg5 arg6 harg6) K } := by
  refine ⟨[], ?_, fun xi3 E K => ?run⟩
  case run =>
    simp only [cc9__gather_kernel_eq_skeleton]; unfold cc9__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G9RunC.lean ====
/-
  A gather launch (the first one-hot product of a relation), at the last source tile: the accumulator, found at what the point before left, gets the
  product added and is then stored to the output block.
-/
import proofs.«407232_j23192823399226_1_alg».proof.Proof.K.G9RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun9_C (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc9__gather_kernel i arg2 harg2 arg3 harg3 arg4 harg4 arg5 harg5 arg6 harg6) K } := by
  refine ⟨?_, ?_, fun E K => ?run⟩
  case run =>
    simp only [cc9__gather_kernel_eq_skeleton]; unfold cc9__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.G9.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.K.G9RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH9 (t : Fin cfg9.N) : Prog (TpuEff nD τ sig (Elt F) Λ₀ .tc) PUnit :=
  cc9__gather_kernel (grid9.coords t) (ms9_0 t) (hs9_0 t) (ms9_1 t) (hs9_1 t) (ms9_2 t) (hs9_2 t) (ms9_3 t) (hs9_3 t) scM9_0 (Memref.isWhole_whole _)

/-! ## What each case leaves -/

theorem scover9_A_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) (y : S2048x128.Idx) :
    ∃ pc ∈ (kernelRun9_A (F := F) c i arg2 harg2 arg3 harg3 arg4 harg4 arg5 harg5 arg6 harg6 hc0 hc1 x0 x1 x2).2.1, y ∈ pc.1.set :=
  View.cover_of_tiledL (kernelRun9_A (F := F) c i arg2 harg2 arg3 harg3 arg4 harg4 arg5 harg5 arg6 harg6 hc0 hc1 x0 x1 x2).2.1 S2048x128.size (by sl_kernel_rfl) y

/-- The accumulator after a first source tile: the case's pieces read back. -/
def sout9_A_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) : Vec F S2048x128 .f32 :=
  VS9_0.read (Elt F) (VS9_0.writes (Elt F) VS9_0.junk (kernelRun9_A (F := F) c i arg2 harg2 arg3 harg3 arg4 harg4 arg5 harg5 arg6 harg6 hc0 hc1 x0 x1 x2).2.1)

theorem scover9_B_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) (y : S2048x128.Idx) :
    ∃ pc ∈ (kernelRun9_B (F := F) c i arg2 harg2 arg3 harg3 arg4 harg4 arg5 harg5 arg6 harg6 hc0 hc1 x0 x1 x2 xs0).2.1, y ∈ pc.1.set :=
  View.cover_of_tiledL (kernelRun9_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout9_B_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) : Vec F S2048x128 .f32 :=
  VS9_0.read (Elt F) (VS9_0.writes (Elt F) VS9_0.junk (kernelRun9_B (F := F) c i arg2 harg2 arg3 harg3 arg4 harg4 arg5 harg5 arg6 harg6 hc0 hc1 x0 x1 x2 xs0).2.1)

theorem cover9_C_3 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) (y : S2048x128.Idx) :
    ∃ pc ∈ (kernelRun9_C (F := F) c i arg2 harg2 arg3 harg3 arg4 harg4 arg5 harg5 arg6 harg6 hc0 hc1 x0 x1 x2 xs0).1, y ∈ pc.1.set :=
  View.cover_of_tiledL (kernelRun9_C (F := F) c i arg2 harg2 arg3 harg3 arg4 harg4 arg5 harg5 arg6 harg6 hc0 hc1 x0 x1 x2 xs0).1 S2048x128.size (by sl_kernel_rfl) y

/-- The output block after a last source tile. -/
def out9_C_3 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) : Vec F S2048x128 .bf16 :=
  VO9_3.read (Elt F) (VO9_3.writes (Elt F) VO9_3.junk (kernelRun9_C (F := F) c i arg2 harg2 arg3 harg3 arg4 harg4 arg5 harg5 arg6 harg6 hc0 hc1 x0 x1 x2 xs0).1)

theorem scover9_C_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) (y : S2048x128.Idx) :
    ∃ pc ∈ (kernelRun9_C (F := F) c i arg2 harg2 arg3 harg3 arg4 harg4 arg5 harg5 arg6 harg6 hc0 hc1 x0 x1 x2 xs0).2.1, y ∈ pc.1.set :=
  View.cover_of_tiledL (kernelRun9_C (F := F) c i arg2 harg2 arg3 harg3 arg4 harg4 arg5 harg5 arg6 harg6 hc0 hc1 x0 x1 x2 xs0).2.1 S2048x128.size (by sl_kernel_rfl) y

/-- The accumulator after a last source tile. -/
def sout9_C_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) : Vec F S2048x128 .f32 :=
  VS9_0.read (Elt F) (VS9_0.writes (Elt F) VS9_0.junk (kernelRun9_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle9_3 : Vec F S2048x128 .bf16 := VO9_3.read (Elt F) VO9_3.junk

/-! ## The accumulation, point by point -/

/-- After the body at position `n`: (the output block, the accumulator) — the case the closed forms select, a later
    source tile's over what position `n - 1` left in the accumulator. -/
def outsAt9 (c : Dev nD) : (n : ℕ) → n < cfg9.N → Vec F S2048x128 .bf16 × Vec F S2048x128 .f32
  | 0, hn => (idle9_3, sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 4 = 0 then
      if h1 : (n + 1) % 4 = 3 then
        False.elim (by omega)
      else
        (idle9_3, sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 4 = 3 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2,
         sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (idle9_3, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

theorem outsAt9_A (c : Dev nD) (t : Fin cfg9.N) (h0 : t.val % 4 = 0) (h1 : ¬t.val % 4 = 3) :
    outsAt9 V c t.val t.isLt = (idle9_3, sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

theorem outsAt9_B (c : Dev nD) (t : Fin cfg9.N) (h0 : ¬t.val % 4 = 0) (h1 : ¬t.val % 4 = 3) :
    outsAt9 V c t.val t.isLt = (idle9_3, sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 4 = 0) (h1 : t.val % 4 = 3) :
    outsAt9 V c t.val t.isLt = (out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2,
      sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut9 (c : Dev nD) : sProp 𝕄 :=
  Pipeline.scopedRestBut (Ix := Unit) (Name := ℕ) (U := Pipeline.UD sig nD τ) (Lvl := ℕ) (Val := Elt F) spec9 c [cc9_scratch0]

/-- Before position `n`: at the region's entry the class invariant (the accumulator at anything); afterwards the
    accumulator at what position `n - 1` left, the other scoped buffers unopened, the generator register at some state. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2) ∗ restBut9 (F := F) c) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9_0 fullShare ((outsAt9 V c n hn).2) ∗ restBut9 (F := F) c) ∗ (∃ r, prngReg c r)) := rfl
theorem PhiS9_pos (c : Dev nD) (n : ℕ) (h : n ≤ cfg9.N) (hz : n ≠ 0) :
    PhiS9 V c n h = iprop(iprop(owns (c : Thread nD τ) scM9_0 fullShare ((outsAt9 V c (n - 1) (by omega)).2) ∗ restBut9 (F := F) c) ∗ (∃ r, prngReg c r)) := by
  cases n with
  | zero => exact absurd rfl hz
  | succ n => rfl

/-! ## The pipeline's proof data -/

/-- The arrays as the region finds them; after the body each input's buffer at its block, the output's at `outsAt9`'s
    first component; the invariant `PhiS9`; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body9 (c : Dev nD) (t : Fin cfg9.N) :
    bodyPre9 V c t ⊢ wp frame (wpE (defs₀ (F := F)) Variants.none c none) Set.univ (bodyAtH9 t) (fun _ => bodyPost9 V c t) := by
  unfold bodyPre9 bodyPost9 bodyAtH9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  by_cases h1 : t.val % 4 = 3
  · have h0 : ¬t.val % 4 = 0 := by omega
    have hz : t.val ≠ 0 := by omega
    rw [show (dat9 V c).leavesExact 3 t = owns (c : Thread nD τ) (ms9_3 t) fullShare ((dat9 V c).after 3 t) from by
      unfold Dat.leavesExact; rw [liveAt9_3 t ((hcond9_1 t).mpr h1)], after9_3]
    rw [outsAt9_C V c t h0 h1]
    unfold out9_C_3 sout9_C_0; (try dsimp only)
    rw [PhiS9_castSucc V c t, PhiS9_pos V c _ _ hz]
    iintro ⟨⟨⟨HS0, HR⟩, Hg⟩, Ho, ⟨%d0, H0⟩, ⟨%d1, H1⟩, ⟨%d2, H2⟩, ⟨%d3, H3⟩⟩
    iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover9_C_3 c _ _ _ _ _ _ _ _ _ _ _ _ _ _ _ _ _)
  · rw [Dat.leavesExact_idle (dat9 V c) 3 t (idleAt9_3 t (fun h => h1 ((hcond9_1 t).mp h))) (noFlush9_3 t (fun h => h1 ((hcond9_1 t).mp h)))]
    by_cases h0 : t.val % 4 = 0
    · rw [outsAt9_A V c t h0 h1]
      unfold sout9_A_0; (try dsimp only)
      by_cases hz : t.val = 0
      · rw [PhiS9_castSucc V c t, PhiS9_zero V c _ _ hz, PhiA9_eq]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt9_B V c t h0 h1]
      unfold sout9_B_0; (try dsimp only)
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class invariant back: the accumulator's contents are forgotten. -/
theorem hout9 (c : Dev nD) : (dat9 V c).Φ (Fin.last cfg9.N) ⊢ Pipeline.ΦA spec9 c := by
  have hN : cfg9.N = 316 := N_9
  rw [show (dat9 V c).Φ (Fin.last cfg9.N) = PhiS9 V c (Fin.last cfg9.N).val (Nat.le_of_lt_succ (Fin.last cfg9.N).isLt) from rfl,
    PhiS9_pos V c _ _ (by rw [Fin.val_last]; omega), PhiA9_eq]
  iintro ⟨⟨HS0, HR⟩, Hg⟩
  isplitl [HS0 HR]
  · isplitl [HS0]
    · iexists _; iexact HS0
    iexact HR
  iexact Hg

end

end Cert.Kernel.H

end
-- ==== Proof.K.S10Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
end

/-! ## The grid's coordinates at a point, the branch conditions in closed form, and where the output block is written back -/

theorem coords10_0 (t : Fin cfg10.N) : ((grid10.coords t) 0).val = t.val / 79 := by
  have hN : grid10.N = 316 := N_10
  have ht : t.val < 316 := hN ▸ t.isLt
  show t.val / grid10.stride 0 % 4 = _
  rw [show grid10.stride 0 = 79 from by decide]
  omega
theorem coords10_1 (t : Fin cfg10.N) : ((grid10.coords t) 1).val = t.val % 79 := by
  show t.val / grid10.stride 1 % 79 = _
  rw [show grid10.stride 1 = 1 from by decide]
  omega

/-- "This is the first edge chunk": the accumulator is zeroed. -/
abbrev cond10_0 (i : grid10.Coords) : Prop := (Scalar.cmpi .ne (Scalar.extui (Scalar.cmpi .eq (BitVec.ofNat 32 (i 1).val) 0#32)) 0#32) = 1#1
/-- "This is the last edge chunk": the accumulator is stored to the output block. -/
abbrev cond10_1 (i : grid10.Coords) : Prop := k10_cond2 i = 1#1
/-- The two tests read only the second coordinate, which takes 79 values. -/
theorem condw10_0 : ∀ v : Fin 79, ((Scalar.cmpi .ne (Scalar.extui (Scalar.cmpi .eq (BitVec.ofNat 32 v.val) 0#32)) 0#32) = 1#1) ↔ v.val = 0 := by decide
theorem condw10_1 : ∀ v : Fin 79, ((Scalar.cmpi .ne (Scalar.extui (Scalar.cmpi .eq (BitVec.ofNat 32 v.val) 78#32)) 0#32) = 1#1) ↔ v.val = 78 := by decide
theorem hcond10_0 (t : Fin cfg10.N) : cond10_0 (grid10.coords t) ↔ t.val % 79 = 0 := by
  rw [← coords10_1 t]; exact condw10_0 ((grid10.coords t) 1)
theorem hcond10_1 (t : Fin cfg10.N) : cond10_1 (grid10.coords t) ↔ t.val % 79 = 78 := by
  rw [← coords10_1 t]; exact condw10_1 ((grid10.coords t) 1)

/-- The output window's block index at a point: (t / 79, 0). -/
theorem oidx10 (t : Fin cfg10.N) : win10_2.index t (0 : Fin 2) = t.val / 79 ∧ win10_2.index t (1 : Fin 2) = 0 := by
  have hN : grid10.N = 316 := N_10
  have ht : t.val < 316 := hN ▸ t.isLt
  have c0 := coords10_0 t
  refine ⟨?_, rfl⟩
  show (BitVec.ofNat 32 ((grid10.coords t) 0).val).toNat = _
  rw [BitVec.toNat_ofNat, c0]; omega

/-- The output block is written back exactly at the points ≡ 78 (mod 79): there the next point's block is another (or
    the grid ends), and nowhere else does the block index move. -/
theorem flushAt10_2 (t : Fin cfg10.N) : (cfg10.win 2).flush t = true ↔ t.val % 79 = 78 := by
  have hN : grid10.N = 316 := N_10
  have ht : t.val < 316 := hN ▸ t.isLt
  show win10_2.flush t = true ↔ _
  unfold Pipeline.Window.flush
  rw [show win10_2.isOut = true from rfl]
  simp only [Bool.true_and, Bool.or_eq_true, decide_eq_true_eq]
  constructor
  · rintro (h | ⟨hl, hne⟩)
    · omega
    · by_contra h48
      apply hne
      obtain ⟨a0, a1⟩ := oidx10 ⟨t.val + 1, hl⟩
      obtain ⟨b0, b1⟩ := oidx10 t
      funext a
      match a with
      | ⟨0, _⟩ =>
        show win10_2.index ⟨t.val + 1, hl⟩ (0 : Fin 2) = win10_2.index t (0 : Fin 2)
        rw [a0, b0]
        show (t.val + 1) / 79 = t.val / 79
        omega
      | ⟨1, _⟩ =>
        show win10_2.index ⟨t.val + 1, hl⟩ (1 : Fin 2) = win10_2.index t (1 : Fin 2)
        rw [a1, b1]
  · intro h48
    by_cases hl : t.val + 1 = grid10.N
    · exact Or.inl hl
    · have hl' : t.val + 1 < grid10.N := by omega
      refine Or.inr ⟨hl', fun heq => ?_⟩
      have h0 := congrFun heq (0 : Fin 2)
      rw [(oidx10 ⟨t.val + 1, hl'⟩).1, (oidx10 t).1] at h0
      have h0' : (t.val + 1) / 79 = t.val / 79 := h0
      omega
theorem noFlush10_2 (t : Fin cfg10.N) (h : ¬cond10_1 (grid10.coords t)) : (cfg10.win 2).flush t = false := by
  cases hf : (cfg10.win 2).flush t with
  | false => rfl
  | true => exact absurd ((hcond10_1 t).mpr ((flushAt10_2 t).mp hf)) h

/-! ## Where the windows are idle -/
theorem liveAt10_0 : ∀ t : Fin cfg10.N, cfg10.idle 0 (grid10.coords t) = false := fun _ => rfl
theorem liveAt10_1 : ∀ t : Fin cfg10.N, cfg10.idle 1 (grid10.coords t) = false := fun _ => rfl
theorem idleAt10_2 : ∀ t : Fin cfg10.N, ¬cond10_1 (grid10.coords t) → cfg10.idle 2 (grid10.coords t) = true := fun t h => by
  show (!(k10_cond2 (grid10.coords t) == 1#1)) = true
  simp only [Bool.not_eq_true', beq_eq_false_iff_ne, ne_eq]
  exact h
theorem liveAt10_2 : ∀ t : Fin cfg10.N, cond10_1 (grid10.coords t) → cfg10.idle 2 (grid10.coords t) = false := fun t h => by
  show (!(k10_cond2 (grid10.coords t) == 1#1)) = false
  simp only [Bool.not_eq_false', beq_iff_eq]
  exact h

/-! ## The memrefs the runs are stated over -/
abbrev VO10_2 : View sig .tc .vmem S1024x128 .f32 := (Memref.whole cc10_stg2_0 : Memref sig .tc .vmem S1024x128 .f32).view
abbrev ms10_0 (t : Fin cfg10.N) : Memref sig .tc .vmem S2048 .i32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2048x128 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x128 .f32 := win10_2.stage (cfg10.slots t 2)
abbrev hs10_2 (t : Fin cfg10.N) : (ms10_2 t).IsWhole := hstage10_2 ((cfg10.slots t 2).cast nbuf10_2)
/-- The accumulator: a whole scoped buffer of the kernel's own, carried from point to point. -/
abbrev scM10_0 : Memref sig .tc .vmem S1024x128 .f32 := Memref.whole cc10_scratch0
abbrev VS10_0 : View sig .tc .vmem S1024x128 .f32 := scM10_0.view

/-- The class invariant with the accumulator as a memref owned at some contents; the other scoped buffers stay unopened. -/
theorem PhiA10_eq (c : Dev nD) :
    (Pipeline.ΦA spec10 c : sProp 𝕄)
      = iprop(iprop((∃ d, owns (c : Thread nD τ) scM10_0 fullShare d) ∗ Pipeline.scopedRestBut (Ix := Unit) (Name := ℕ) (U := Pipeline.UD sig nD τ) (Lvl := ℕ) (Val := Elt F) spec10 c [cc10_scratch0]) ∗ (∃ r, prngReg c r)) := by
  unfold Pipeline.ΦA; rw [scopedRest10_split]; simp only [scM10_0, owns_whole]; try rfl

end Cert.Kernel.H

end
-- ==== Proof.K.S10RunB.lean ====
/-
  A scatter launch (the second one-hot product of a relation), at a middle edge chunk (neither the first nor the last): the accumulator, found at what the
  point before left, gets the product added; the output block is not touched.
-/
import proofs.«407232_j23192823399226_1_alg».proof.Proof.K.S10Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun10_B (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : ¬cond10_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__scatter_kernel i arg2 harg2 arg3 harg3 arg4 harg4 arg5 harg5) K } := by
  refine ⟨[], ?_, fun xi2 E K => ?run⟩
  case run =>
    simp only [cc10__scatter_kernel_eq_skeleton]; unfold cc10__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S10RunA.lean ====
/-
  A scatter launch (the second one-hot product of a relation), at the first edge chunk: the accumulator, whatever it held, is zeroed and gets the product
  added; the output block is not touched.
-/
import proofs.«407232_j23192823399226_1_alg».proof.Proof.K.S10RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun10_A (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond10_0 i) (hc1 : ¬cond10_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__scatter_kernel i arg2 harg2 arg3 harg3 arg4 harg4 arg5 harg5) K } := by
  refine ⟨[], ?_, fun xi2 E K => ?run⟩
  case run =>
    simp only [cc10__scatter_kernel_eq_skeleton]; unfold cc10__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S10RunC.lean ====
/-
  A scatter launch (the second one-hot product of a relation), at the last edge chunk: the accumulator, found at what the point before left, gets the
  product added and is then stored to the output block.
-/
import proofs.«407232_j23192823399226_1_alg».proof.Proof.K.S10RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun10_C (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc10__scatter_kernel i arg2 harg2 arg3 harg3 arg4 harg4 arg5 harg5) K } := by
  refine ⟨?_, ?_, fun E K => ?run⟩
  case run =>
    simp only [cc10__scatter_kernel_eq_skeleton]; unfold cc10__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.H

end
-- ==== Proof.K.S10.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.K.S10RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH10 (t : Fin cfg10.N) : Prog (TpuEff nD τ sig (Elt F) Λ₀ .tc) PUnit :=
  cc10__scatter_kernel (grid10.coords t) (ms10_0 t) (hs10_0 t) (ms10_1 t) (hs10_1 t) (ms10_2 t) (hs10_2 t) scM10_0 (Memref.isWhole_whole _)

/-! ## What each case leaves -/

theorem scover10_A_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond10_0 i) (hc1 : ¬cond10_1 i)
    (x0 : Vec F S2048 .i32) (x1 : Vec F S2048x128 .bf16) (y : S1024x128.Idx) :
    ∃ pc ∈ (kernelRun10_A (F := F) c i arg2 harg2 arg3 harg3 arg4 harg4 arg5 harg5 hc0 hc1 x0 x1).2.1, y ∈ pc.1.set :=
  View.cover_of_tiledL (kernelRun10_A (F := F) c i arg2 harg2 arg3 harg3 arg4 harg4 arg5 harg5 hc0 hc1 x0 x1).2.1 S1024x128.size (by sl_kernel_rfl) y

/-- The accumulator after a first edge chunk: the case's pieces read back. -/
def sout10_A_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond10_0 i) (hc1 : ¬cond10_1 i)
    (x0 : Vec F S2048 .i32) (x1 : Vec F S2048x128 .bf16) : Vec F S1024x128 .f32 :=
  VS10_0.read (Elt F) (VS10_0.writes (Elt F) VS10_0.junk (kernelRun10_A (F := F) c i arg2 harg2 arg3 harg3 arg4 harg4 arg5 harg5 hc0 hc1 x0 x1).2.1)

theorem scover10_B_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : ¬cond10_1 i)
    (x0 : Vec F S2048 .i32) (x1 : Vec F S2048x128 .bf16) (xs0 : Vec F S1024x128 .f32) (y : S1024x128.Idx) :
    ∃ pc ∈ (kernelRun10_B (F := F) c i arg2 harg2 arg3 harg3 arg4 harg4 arg5 harg5 hc0 hc1 x0 x1 xs0).2.1, y ∈ pc.1.set :=
  View.cover_of_tiledL (kernelRun10_B (F := F) c i arg2 harg2 arg3 harg3 arg4 harg4 arg5 harg5 hc0 hc1 x0 x1 xs0).2.1 S1024x128.size (by sl_kernel_rfl) y

/-- The accumulator after a middle edge chunk, over what the point before left (`xs0`). -/
def sout10_B_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : ¬cond10_1 i)
    (x0 : Vec F S2048 .i32) (x1 : Vec F S2048x128 .bf16) (xs0 : Vec F S1024x128 .f32) : Vec F S1024x128 .f32 :=
  VS10_0.read (Elt F) (VS10_0.writes (Elt F) VS10_0.junk (kernelRun10_B (F := F) c i arg2 harg2 arg3 harg3 arg4 harg4 arg5 harg5 hc0 hc1 x0 x1 xs0).2.1)

theorem cover10_C_2 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) (y : S1024x128.Idx) :
    ∃ pc ∈ (kernelRun10_C (F := F) c i arg2 harg2 arg3 harg3 arg4 harg4 arg5 harg5 hc0 hc1 x0 x1 xs0).1, y ∈ pc.1.set :=
  View.cover_of_tiledL (kernelRun10_C (F := F) c i arg2 harg2 arg3 harg3 arg4 harg4 arg5 harg5 hc0 hc1 x0 x1 xs0).1 S1024x128.size (by sl_kernel_rfl) y

/-- The output block after a last edge chunk. -/
def out10_C_2 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) : Vec F S1024x128 .f32 :=
  VO10_2.read (Elt F) (VO10_2.writes (Elt F) VO10_2.junk (kernelRun10_C (F := F) c i arg2 harg2 arg3 harg3 arg4 harg4 arg5 harg5 hc0 hc1 x0 x1 xs0).1)

theorem scover10_C_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) (y : S1024x128.Idx) :
    ∃ pc ∈ (kernelRun10_C (F := F) c i arg2 harg2 arg3 harg3 arg4 harg4 arg5 harg5 hc0 hc1 x0 x1 xs0).2.1, y ∈ pc.1.set :=
  View.cover_of_tiledL (kernelRun10_C (F := F) c i arg2 harg2 arg3 harg3 arg4 harg4 arg5 harg5 hc0 hc1 x0 x1 xs0).2.1 S1024x128.size (by sl_kernel_rfl) y

/-- The accumulator after a last edge chunk. -/
def sout10_C_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) : Vec F S1024x128 .f32 :=
  VS10_0.read (Elt F) (VS10_0.writes (Elt F) VS10_0.junk (kernelRun10_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle10_2 : Vec F S1024x128 .f32 := VO10_2.read (Elt F) VO10_2.junk

/-! ## The accumulation, point by point -/

/-- After the body at position `n`: (the output block, the accumulator) — the case the closed forms select, a later
    edge chunk's over what position `n - 1` left in the accumulator. -/
def outsAt10 (c : Dev nD) : (n : ℕ) → n < cfg10.N → Vec F S1024x128 .f32 × Vec F S1024x128 .f32
  | 0, hn => (idle10_2, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 79 = 0 then
      if h1 : (n + 1) % 79 = 78 then
        False.elim (by omega)
      else
        (idle10_2, sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 79 = 78 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2,
         sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (idle10_2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

theorem outsAt10_A (c : Dev nD) (t : Fin cfg10.N) (h0 : t.val % 79 = 0) (h1 : ¬t.val % 79 = 78) :
    outsAt10 V c t.val t.isLt = (idle10_2, sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

theorem outsAt10_B (c : Dev nD) (t : Fin cfg10.N) (h0 : ¬t.val % 79 = 0) (h1 : ¬t.val % 79 = 78) :
    outsAt10 V c t.val t.isLt = (idle10_2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt10_C (c : Dev nD) (t : Fin cfg10.N) (h0 : ¬t.val % 79 = 0) (h1 : t.val % 79 = 78) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2,
      sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut10 (c : Dev nD) : sProp 𝕄 :=
  Pipeline.scopedRestBut (Ix := Unit) (Name := ℕ) (U := Pipeline.UD sig nD τ) (Lvl := ℕ) (Val := Elt F) spec10 c [cc10_scratch0]

/-- Before position `n`: at the region's entry the class invariant (the accumulator at anything); afterwards the
    accumulator at what position `n - 1` left, the other scoped buffers unopened, the generator register at some state. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ restBut10 (F := F) c) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(owns (c : Thread nD τ) scM10_0 fullShare ((outsAt10 V c n hn).2) ∗ restBut10 (F := F) c) ∗ (∃ r, prngReg c r)) := rfl
theorem PhiS10_pos (c : Dev nD) (n : ℕ) (h : n ≤ cfg10.N) (hz : n ≠ 0) :
    PhiS10 V c n h = iprop(iprop(owns (c : Thread nD τ) scM10_0 fullShare ((outsAt10 V c (n - 1) (by omega)).2) ∗ restBut10 (F := F) c) ∗ (∃ r, prngReg c r)) := by
  cases n with
  | zero => exact absurd rfl hz
  | succ n => rfl

/-! ## The pipeline's proof data -/

/-- The arrays as the region finds them; after the body each input's buffer at its block, the output's at `outsAt10`'s
    first component; the invariant `PhiS10`; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body10 (c : Dev nD) (t : Fin cfg10.N) :
    bodyPre10 V c t ⊢ wp frame (wpE (defs₀ (F := F)) Variants.none c none) Set.univ (bodyAtH10 t) (fun _ => bodyPost10 V c t) := by
  unfold bodyPre10 bodyPost10 bodyAtH10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h1 : t.val % 79 = 78
  · have h0 : ¬t.val % 79 = 0 := by omega
    have hz : t.val ≠ 0 := by omega
    rw [show (dat10 V c).leavesExact 2 t = owns (c : Thread nD τ) (ms10_2 t) fullShare ((dat10 V c).after 2 t) from by
      unfold Dat.leavesExact; rw [liveAt10_2 t ((hcond10_1 t).mpr h1)], after10_2]
    rw [outsAt10_C V c t h0 h1]
    unfold out10_C_2 sout10_C_0; (try dsimp only)
    rw [PhiS10_castSucc V c t, PhiS10_pos V c _ _ hz]
    iintro ⟨⟨⟨HS0, HR⟩, Hg⟩, Ho, ⟨%d0, H0⟩, ⟨%d1, H1⟩, ⟨%d2, H2⟩⟩
    iapply ((kernelRun10_C c (grid10.coords t) _ _ _ _ _ _ _ _ (fun h => h0 ((hcond10_0 t).mp h)) ((hcond10_1 t).mpr h1) (iblk10 V c 0 t) (iblk10 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover10_C_2 c _ _ _ _ _ _ _ _ _ _ _ _ _ _)
  · rw [Dat.leavesExact_idle (dat10 V c) 2 t (idleAt10_2 t (fun h => h1 ((hcond10_1 t).mp h))) (noFlush10_2 t (fun h => h1 ((hcond10_1 t).mp h)))]
    by_cases h0 : t.val % 79 = 0
    · rw [outsAt10_A V c t h0 h1]
      unfold sout10_A_0; (try dsimp only)
      by_cases hz : t.val = 0
      · rw [PhiS10_castSucc V c t, PhiS10_zero V c _ _ hz, PhiA10_eq]
        iintro ⟨⟨⟨HS0, HR⟩, Hg⟩, Ho, ⟨%d0, H0⟩, ⟨%d1, H1⟩, ⟨%d2, H2⟩⟩
        iapply ((kernelRun10_A c (grid10.coords t) _ _ _ _ _ _ _ _ ((hcond10_0 t).mpr h0) (fun h => h1 ((hcond10_1 t).mp h)) (iblk10 V c 0 t) (iblk10 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_A_0 c _ _ _ _ _ _ _ _ _ _ _ _ _)
            iexact HR
          iexact Hg
        isplitl [Ho]; · iexact Ho
        isplitl [H0]; · iexact H0
        isplitl [H1]; · iexact H1
        iexists _; iexact H2
      · rw [PhiS10_castSucc V c t, PhiS10_pos V c _ _ hz]
        iintro ⟨⟨⟨HS0, HR⟩, Hg⟩, Ho, ⟨%d0, H0⟩, ⟨%d1, H1⟩, ⟨%d2, H2⟩⟩
        iapply ((kernelRun10_A c (grid10.coords t) _ _ _ _ _ _ _ _ ((hcond10_0 t).mpr h0) (fun h => h1 ((hcond10_1 t).mp h)) (iblk10 V c 0 t) (iblk10 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt10_B V c t h0 h1]
      unfold sout10_B_0; (try dsimp only)
      rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_B c (grid10.coords t) _ _ _ _ _ _ _ _ (fun h => h0 ((hcond10_0 t).mp h)) (fun h => h1 ((hcond10_1 t).mp h)) (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After the last point the invariant gives the class invariant back: the accumulator's contents are forgotten. -/
theorem hout10 (c : Dev nD) : (dat10 V c).Φ (Fin.last cfg10.N) ⊢ Pipeline.ΦA spec10 c := by
  have hN : cfg10.N = 316 := N_10
  rw [show (dat10 V c).Φ (Fin.last cfg10.N) = PhiS10 V c (Fin.last cfg10.N).val (Nat.le_of_lt_succ (Fin.last cfg10.N).isLt) from rfl,
    PhiS10_pos V c _ _ (by rw [Fin.val_last]; omega), PhiA10_eq]
  iintro ⟨⟨HS0, HR⟩, Hg⟩
  isplitl [HS0 HR]
  · isplitl [HS0]
    · iexists _; iexact HS0
    iexact HR
  iexact Hg

end

end Cert.Kernel.H

end
-- ==== Proof.K.G11Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
end

/-! ## The grid's coordinates at a point, the branch conditions in closed form, and where the output block is written back -/

theorem coords11_0 (t : Fin cfg11.N) : ((grid11.coords t) 0).val = t.val / 49 := by
  have hN : grid11.N = 9604 := N_11
  have ht : t.val < 9604 := hN ▸ t.isLt
  show t.val / grid11.stride 0 % 196 = _
  rw [show grid11.stride 0 = 49 from by decide]
  omega
theorem coords11_1 (t : Fin cfg11.N) : ((grid11.coords t) 1).val = t.val % 49 := by
  show t.val / grid11.stride 1 % 49 = _
  rw [show grid11.stride 1 = 1 from by decide]
  omega

/-- "This is the first source tile": the accumulator is zeroed. -/
abbrev cond11_0 (i : grid11.Coords) : Prop := (Scalar.cmpi .ne (Scalar.extui (Scalar.cmpi .eq (BitVec.ofNat 32 (i 1).val) 0#32)) 0#32) = 1#1
/-- "This is the last source tile": the accumulator is stored to the output block. -/
abbrev cond11_1 (i : grid11.Coords) : Prop := k11_cond2 i = 1#1
/-- The two tests read only the second coordinate, which takes 49 values. -/
theorem condw11_0 : ∀ v : Fin 49, ((Scalar.cmpi .ne (Scalar.extui (Scalar.cmpi .eq (BitVec.ofNat 32 v.val) 0#32)) 0#32) = 1#1) ↔ v.val = 0 := by decide
theorem condw11_1 : ∀ v : Fin 49, ((Scalar.cmpi .ne (Scalar.extui (Scalar.cmpi .eq (BitVec.ofNat 32 v.val) 48#32)) 0#32) = 1#1) ↔ v.val = 48 := by decide
theorem hcond11_0 (t : Fin cfg11.N) : cond11_0 (grid11.coords t) ↔ t.val % 49 = 0 := by
  rw [← coords11_1 t]; exact condw11_0 ((grid11.coords t) 1)
theorem hcond11_1 (t : Fin cfg11.N) : cond11_1 (grid11.coords t) ↔ t.val % 49 = 48 := by
  rw [← coords11_1 t]; exact condw11_1 ((grid11.coords t) 1)

/-- The output window's block index at a point: (t / 49, 0). -/
theorem oidx11 (t : Fin cfg11.N) : win11_3.index t (0 : Fin 2) = t.val / 49 ∧ win11_3.index t (1 : Fin 2) = 0 := by
  have hN : grid11.N = 9604 := N_11
  have ht : t.val < 9604 := hN ▸ t.isLt
  have c0 := coords11_0 t
  refine ⟨?_, rfl⟩
  show (BitVec.ofNat 32 ((grid11.coords t) 0).val).toNat = _
  rw [BitVec.toNat_ofNat, c0]; omega

/-- The output block is written back exactly at the points ≡ 48 (mod 49): there the next point's block is another (or
    the grid ends), and nowhere else does the block index move. -/
theorem flushAt11_3 (t : Fin cfg11.N) : (cfg11.win 3).flush t = true ↔ t.val % 49 = 48 := by
  have hN : grid11.N = 9604 := N_11
  have ht : t.val < 9604 := hN ▸ t.isLt
  show win11_3.flush t = true ↔ _
  unfold Pipeline.Window.flush
  rw [show win11_3.isOut = true from rfl]
  simp only [Bool.true_and, Bool.or_eq_true, decide_eq_true_eq]
  constructor
  · rintro (h | ⟨hl, hne⟩)
    · omega
    · by_contra h48
      apply hne
      obtain ⟨a0, a1⟩ := oidx11 ⟨t.val + 1, hl⟩
      obtain ⟨b0, b1⟩ := oidx11 t
      funext a
      match a with
      | ⟨0, _⟩ =>
        show win11_3.index ⟨t.val + 1, hl⟩ (0 : Fin 2) = win11_3.index t (0 : Fin 2)
        rw [a0, b0]
        show (t.val + 1) / 49 = t.val / 49
        omega
      | ⟨1, _⟩ =>
        show win11_3.index ⟨t.val + 1, hl⟩ (1 : Fin 2) = win11_3.index t (1 : Fin 2)
        rw [a1, b1]
  · intro h48
    by_cases hl : t.val + 1 = grid11.N
    · exact Or.inl hl
    · have hl' : t.val + 1 < grid11.N := by omega
      refine Or.inr ⟨hl', fun heq => ?_⟩
      have h0 := congrFun heq (0 : Fin 2)
      rw [(oidx11 ⟨t.val + 1, hl'⟩).1, (oidx11 t).1] at h0
      have h0' : (t.val + 1) / 49 = t.val / 49 := h0
      omega
theorem noFlush11_3 (t : Fin cfg11.N) (h : ¬cond11_1 (grid11.coords t)) : (cfg11.win 3).flush t = false := by
  cases hf : (cfg11.win 3).flush t with
  | false => rfl
  | true => exact absurd ((hcond11_1 t).mpr ((flushAt11_3 t).mp hf)) h

/-! ## Where the windows are idle -/
theorem liveAt11_0 : ∀ t : Fin cfg11.N, cfg11.idle 0 (grid11.coords t) = false := fun _ => rfl
theorem liveAt11_1 : ∀ t : Fin cfg11.N, cfg11.idle 1 (grid11.coords t) = false := fun _ => rfl
theorem liveAt11_2 : ∀ t : Fin cfg11.N, cfg11.idle 2 (grid11.coords t) = false := fun _ => rfl
theorem idleAt11_3 : ∀ t : Fin cfg11.N, ¬cond11_1 (grid11.coords t) → cfg11.idle 3 (grid11.coords t) = true := fun t h => by
  show (!(k11_cond2 (grid11.coords t) == 1#1)) = true
  simp only [Bool.not_eq_true', beq_eq_false_iff_ne, ne_eq]
  exact h
theorem liveAt11_3 : ∀ t : Fin cfg11.N, cond11_1 (grid11.coords t) → cfg11.idle 3 (grid11.coords t) = false := fun t h => by
  show (!(k11_cond2 (grid11.coords t) == 1#1)) = false
  simp only [Bool.not_eq_false', beq_iff_eq]
  exact h

/-! ## The memrefs the runs are stated over -/
abbrev VO11_3 : View sig .tc .vmem S2048x128 .bf16 := (Memref.whole cc11_stg3_0 : Memref sig .tc .vmem S2048x128 .bf16).view
abbrev ms11_0 (t : Fin cfg11.N) : Memref sig .tc .vmem S2048 .i32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S2048 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1024x128 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S2048x128 .bf16 := win11_3.stage (cfg11.slots t 3)
abbrev hs11_3 (t : Fin cfg11.N) : (ms11_3 t).IsWhole := hstage11_3 ((cfg11.slots t 3).cast nbuf11_3)
/-- The accumulator: a whole scoped buffer of the kernel's own, carried from point to point. -/
abbrev scM11_0 : Memref sig .tc .vmem S2048x128 .f32 := Memref.whole cc11_scratch0
abbrev VS11_0 : View sig .tc .vmem S2048x128 .f32 := scM11_0.view

/-- The class invariant with the accumulator as a memref owned at some contents; the other scoped buffers stay unopened. -/
theorem PhiA11_eq (c : Dev nD) :
    (Pipeline.ΦA spec11 c : sProp 𝕄)
      = iprop(iprop((∃ d, owns (c : Thread nD τ) scM11_0 fullShare d) ∗ Pipeline.scopedRestBut (Ix := Unit) (Name := ℕ) (U := Pipeline.UD sig nD τ) (Lvl := ℕ) (Val := Elt F) spec11 c [cc11_scratch0]) ∗ (∃ r, prngReg c r)) := by
  unfold Pipeline.ΦA; rw [scopedRest11_split]; simp only [scM11_0, owns_whole]; try rfl

end Cert.Kernel.H

end
-- ==== Proof.K.G11RunB.lean ====
/-
  A gather launch (the first one-hot product of a relation), at a middle source tile (neither the first nor the last): the accumulator, found at what the
  point before left, gets the product added; the output block is not touched.
-/
import proofs.«407232_j23192823399226_1_alg».proof.Proof.K.G11Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun11_B (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gather_kernel i arg2 harg2 arg3 harg3 arg4 harg4 arg5 harg5 arg6 harg6) K } := by
  refine ⟨[], ?_, fun xi3 E K => ?run⟩
  case run =>
    simp only [cc11__gather_kernel_eq_skeleton]; unfold cc11__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G11RunA.lean ====
/-
  A gather launch (the first one-hot product of a relation), at the first source tile: the accumulator, whatever it held, is zeroed and gets the product
  added; the output block is not touched.
-/
import proofs.«407232_j23192823399226_1_alg».proof.Proof.K.G11RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun11_A (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gather_kernel i arg2 harg2 arg3 harg3 arg4 harg4 arg5 harg5 arg6 harg6) K } := by
  refine ⟨[], ?_, fun xi3 E K => ?run⟩
  case run =>
    simp only [cc11__gather_kernel_eq_skeleton]; unfold cc11__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G11RunC.lean ====
/-
  A gather launch (the first one-hot product of a relation), at the last source tile: the accumulator, found at what the point before left, gets the
  product added and is then stored to the output block.
-/
import proofs.«407232_j23192823399226_1_alg».proof.Proof.K.G11RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun11_C (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc11__gather_kernel i arg2 harg2 arg3 harg3 arg4 harg4 arg5 harg5 arg6 harg6) K } := by
  refine ⟨?_, ?_, fun E K => ?run⟩
  case run =>
    simp only [cc11__gather_kernel_eq_skeleton]; unfold cc11__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.G11.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.K.G11RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH11 (t : Fin cfg11.N) : Prog (TpuEff nD τ sig (Elt F) Λ₀ .tc) PUnit :=
  cc11__gather_kernel (grid11.coords t) (ms11_0 t) (hs11_0 t) (ms11_1 t) (hs11_1 t) (ms11_2 t) (hs11_2 t) (ms11_3 t) (hs11_3 t) scM11_0 (Memref.isWhole_whole _)

/-! ## What each case leaves -/

theorem scover11_A_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) (y : S2048x128.Idx) :
    ∃ pc ∈ (kernelRun11_A (F := F) c i arg2 harg2 arg3 harg3 arg4 harg4 arg5 harg5 arg6 harg6 hc0 hc1 x0 x1 x2).2.1, y ∈ pc.1.set :=
  View.cover_of_tiledL (kernelRun11_A (F := F) c i arg2 harg2 arg3 harg3 arg4 harg4 arg5 harg5 arg6 harg6 hc0 hc1 x0 x1 x2).2.1 S2048x128.size (by sl_kernel_rfl) y

/-- The accumulator after a first source tile: the case's pieces read back. -/
def sout11_A_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) : Vec F S2048x128 .f32 :=
  VS11_0.read (Elt F) (VS11_0.writes (Elt F) VS11_0.junk (kernelRun11_A (F := F) c i arg2 harg2 arg3 harg3 arg4 harg4 arg5 harg5 arg6 harg6 hc0 hc1 x0 x1 x2).2.1)

theorem scover11_B_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) (y : S2048x128.Idx) :
    ∃ pc ∈ (kernelRun11_B (F := F) c i arg2 harg2 arg3 harg3 arg4 harg4 arg5 harg5 arg6 harg6 hc0 hc1 x0 x1 x2 xs0).2.1, y ∈ pc.1.set :=
  View.cover_of_tiledL (kernelRun11_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout11_B_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) : Vec F S2048x128 .f32 :=
  VS11_0.read (Elt F) (VS11_0.writes (Elt F) VS11_0.junk (kernelRun11_B (F := F) c i arg2 harg2 arg3 harg3 arg4 harg4 arg5 harg5 arg6 harg6 hc0 hc1 x0 x1 x2 xs0).2.1)

theorem cover11_C_3 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) (y : S2048x128.Idx) :
    ∃ pc ∈ (kernelRun11_C (F := F) c i arg2 harg2 arg3 harg3 arg4 harg4 arg5 harg5 arg6 harg6 hc0 hc1 x0 x1 x2 xs0).1, y ∈ pc.1.set :=
  View.cover_of_tiledL (kernelRun11_C (F := F) c i arg2 harg2 arg3 harg3 arg4 harg4 arg5 harg5 arg6 harg6 hc0 hc1 x0 x1 x2 xs0).1 S2048x128.size (by sl_kernel_rfl) y

/-- The output block after a last source tile. -/
def out11_C_3 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) : Vec F S2048x128 .bf16 :=
  VO11_3.read (Elt F) (VO11_3.writes (Elt F) VO11_3.junk (kernelRun11_C (F := F) c i arg2 harg2 arg3 harg3 arg4 harg4 arg5 harg5 arg6 harg6 hc0 hc1 x0 x1 x2 xs0).1)

theorem scover11_C_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) (y : S2048x128.Idx) :
    ∃ pc ∈ (kernelRun11_C (F := F) c i arg2 harg2 arg3 harg3 arg4 harg4 arg5 harg5 arg6 harg6 hc0 hc1 x0 x1 x2 xs0).2.1, y ∈ pc.1.set :=
  View.cover_of_tiledL (kernelRun11_C (F := F) c i arg2 harg2 arg3 harg3 arg4 harg4 arg5 harg5 arg6 harg6 hc0 hc1 x0 x1 x2 xs0).2.1 S2048x128.size (by sl_kernel_rfl) y

/-- The accumulator after a last source tile. -/
def sout11_C_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) : Vec F S2048x128 .f32 :=
  VS11_0.read (Elt F) (VS11_0.writes (Elt F) VS11_0.junk (kernelRun11_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle11_3 : Vec F S2048x128 .bf16 := VO11_3.read (Elt F) VO11_3.junk

/-! ## The accumulation, point by point -/

/-- After the body at position `n`: (the output block, the accumulator) — the case the closed forms select, a later
    source tile's over what position `n - 1` left in the accumulator. -/
def outsAt11 (c : Dev nD) : (n : ℕ) → n < cfg11.N → Vec F S2048x128 .bf16 × Vec F S2048x128 .f32
  | 0, hn => (idle11_3, sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if h0 : (n + 1) % 49 = 0 then
      if h1 : (n + 1) % 49 = 48 then
        False.elim (by omega)
      else
        (idle11_3, sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩))
    else
      if h1 : (n + 1) % 49 = 48 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2,
         sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2)
      else
        (idle11_3, sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

theorem outsAt11_A (c : Dev nD) (t : Fin cfg11.N) (h0 : t.val % 49 = 0) (h1 : ¬t.val % 49 = 48) :
    outsAt11 V c t.val t.isLt = (idle11_3, sout11_A_0 c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t)) := by
  obtain ⟨n, hn⟩ := t
  cases n with
  | zero => exact rfl
  | succ n => exact (dif_pos h0).trans ((dif_neg h1).trans rfl)

theorem outsAt11_B (c : Dev nD) (t : Fin cfg11.N) (h0 : ¬t.val % 49 = 0) (h1 : ¬t.val % 49 = 48) :
    outsAt11 V c t.val t.isLt = (idle11_3, sout11_B_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt11_C (c : Dev nD) (t : Fin cfg11.N) (h0 : ¬t.val % 49 = 0) (h1 : t.val % 49 = 48) :
    outsAt11 V c t.val t.isLt = (out11_C_3 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2,
      sout11_C_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut11 (c : Dev nD) : sProp 𝕄 :=
  Pipeline.scopedRestBut (Ix := Unit) (Name := ℕ) (U := Pipeline.UD sig nD τ) (Lvl := ℕ) (Val := Elt F) spec11 c [cc11_scratch0]

/-- Before position `n`: at the region's entry the class invariant (the accumulator at anything); afterwards the
    accumulator at what position `n - 1` left, the other scoped buffers unopened, the generator register at some state. -/
def PhiS11 (c : Dev nD) : (n : ℕ) → n ≤ cfg11.N → sProp 𝕄
  | 0, _ => Pipeline.ΦA spec11 c
  | n + 1, hn => iprop(iprop(owns (c : Thread nD τ) scM11_0 fullShare ((outsAt11 V c n hn).2) ∗ restBut11 (F := F) c) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop(iprop(owns (c : Thread nD τ) scM11_0 fullShare ((outsAt11 V c n hn).2) ∗ restBut11 (F := F) c) ∗ (∃ r, prngReg c r)) := rfl
theorem PhiS11_pos (c : Dev nD) (n : ℕ) (h : n ≤ cfg11.N) (hz : n ≠ 0) :
    PhiS11 V c n h = iprop(iprop(owns (c : Thread nD τ) scM11_0 fullShare ((outsAt11 V c (n - 1) (by omega)).2) ∗ restBut11 (F := F) c) ∗ (∃ r, prngReg c r)) := by
  cases n with
  | zero => exact absurd rfl hz
  | succ n => rfl

/-! ## The pipeline's proof data -/

/-- The arrays as the region finds them; after the body each input's buffer at its block, the output's at `outsAt11`'s
    first component; the invariant `PhiS11`; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation -/

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body11 (c : Dev nD) (t : Fin cfg11.N) :
    bodyPre11 V c t ⊢ wp frame (wpE (defs₀ (F := F)) Variants.none c none) Set.univ (bodyAtH11 t) (fun _ => bodyPost11 V c t) := by
  unfold bodyPre11 bodyPost11 bodyAtH11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  by_cases h1 : t.val % 49 = 48
  · have h0 : ¬t.val % 49 = 0 := by omega
    have hz : t.val ≠ 0 := by omega
    rw [show (dat11 V c).leavesExact 3 t = owns (c : Thread nD τ) (ms11_3 t) fullShare ((dat11 V c).after 3 t) from by
      unfold Dat.leavesExact; rw [liveAt11_3 t ((hcond11_1 t).mpr h1)], after11_3]
    rw [outsAt11_C V c t h0 h1]
    unfold out11_C_3 sout11_C_0; (try dsimp only)
    rw [PhiS11_castSucc V c t, PhiS11_pos V c _ _ hz]
    iintro ⟨⟨⟨HS0, HR⟩, Hg⟩, Ho, ⟨%d0, H0⟩, ⟨%d1, H1⟩, ⟨%d2, H2⟩, ⟨%d3, H3⟩⟩
    iapply ((kernelRun11_C c (grid11.coords t) _ _ _ _ _ _ _ _ _ _ (fun h => h0 ((hcond11_0 t).mp h)) ((hcond11_1 t).mpr h1) (iblk11 V c 0 t) (iblk11 V c 1 t) (iblk11 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover11_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover11_C_3 c _ _ _ _ _ _ _ _ _ _ _ _ _ _ _ _ _)
  · rw [Dat.leavesExact_idle (dat11 V c) 3 t (idleAt11_3 t (fun h => h1 ((hcond11_1 t).mp h))) (noFlush11_3 t (fun h => h1 ((hcond11_1 t).mp h)))]
    by_cases h0 : t.val % 49 = 0
    · rw [outsAt11_A V c t h0 h1]
      unfold sout11_A_0; (try dsimp only)
      by_cases hz : t.val = 0
      · rw [PhiS11_castSucc V c t, PhiS11_zero V c _ _ hz, PhiA11_eq]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt11_B V c t h0 h1]
      unfold sout11_B_0; (try dsimp only)
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩⟩
      iapply ((kernelRun11_B c (grid11.coords t) _ _ _ _ _ _ _ _ _ _ (fun h => h0 ((hcond11_0 t).mp h)) (fun h => h1 ((hcond11_1 t).mp h)) (iblk11 V c 0 t) (iblk11 V c 1 t) (iblk11 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the class invariant back: the accumulator's contents are forgotten. -/
theorem hout11 (c : Dev nD) : (dat11 V c).Φ (Fin.last cfg11.N) ⊢ Pipeline.ΦA spec11 c := by
  have hN : cfg11.N = 9604 := N_11
  rw [show (dat11 V c).Φ (Fin.last cfg11.N) = PhiS11 V c (Fin.last cfg11.N).val (Nat.le_of_lt_succ (Fin.last cfg11.N).isLt) from rfl,
    PhiS11_pos V c _ _ (by rw [Fin.val_last]; omega), PhiA11_eq]
  iintro ⟨⟨HS0, HR⟩, Hg⟩
  isplitl [HS0 HR]
  · isplitl [HS0]
    · iexists _; iexact HS0
    iexact HR
  iexact Hg

end

end Cert.Kernel.H

end
-- ==== Proof.K.S12Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
end

/-! ## The grid's coordinates at a point, the branch conditions in closed form, and where the output block is written back -/

theorem coords12_0 (t : Fin cfg12.N) : ((grid12.coords t) 0).val = t.val / 196 := by
  have hN : grid12.N = 3920 := N_12
  have ht : t.val < 3920 := hN ▸ t.isLt
  show t.val / grid12.stride 0 % 20 = _
  rw [show grid12.stride 0 = 196 from by decide]
  omega
theorem coords12_1 (t : Fin cfg12.N) : ((grid12.coords t) 1).val = t.val % 196 := by
  show t.val / grid12.stride 1 % 196 = _
  rw [show grid12.stride 1 = 1 from by decide]
  omega

/-- "This is the first edge chunk": the accumulator is zeroed. -/
abbrev cond12_0 (i : grid12.Coords) : Prop := (Scalar.cmpi .ne (Scalar.extui (Scalar.cmpi .eq (BitVec.ofNat 32 (i 1).val) 0#32)) 0#32) = 1#1
/-- "This is the last edge chunk": the accumulator is stored to the output block. -/
abbrev cond12_1 (i : grid12.Coords) : Prop := k12_cond2 i = 1#1
/-- The two tests read only the second coordinate, which takes 196 values. -/
theorem condw12_0 : ∀ v : Fin 196, ((Scalar.cmpi .ne (Scalar.extui (Scalar.cmpi .eq (BitVec.ofNat 32 v.val) 0#32)) 0#32) = 1#1) ↔ v.val = 0 := by decide
theorem condw12_1 : ∀ v : Fin 196, ((Scalar.cmpi .ne (Scalar.extui (Scalar.cmpi .eq (BitVec.ofNat 32 v.val) 195#32)) 0#32) = 1#1) ↔ v.val = 195 := by decide
theorem hcond12_0 (t : Fin cfg12.N) : cond12_0 (grid12.coords t) ↔ t.val % 196 = 0 := by
  rw [← coords12_1 t]; exact condw12_0 ((grid12.coords t) 1)
theorem hcond12_1 (t : Fin cfg12.N) : cond12_1 (grid12.coords t) ↔ t.val % 196 = 195 := by
  rw [← coords12_1 t]; exact condw12_1 ((grid12.coords t) 1)

/-- The output window's block index at a point: (t / 196, 0). -/
theorem oidx12 (t : Fin cfg12.N) : win12_2.index t (0 : Fin 2) = t.val / 196 ∧ win12_2.index t (1 : Fin 2) = 0 := by
  have hN : grid12.N = 3920 := N_12
  have ht : t.val < 3920 := hN ▸ t.isLt
  have c0 := coords12_0 t
  refine ⟨?_, rfl⟩
  show (BitVec.ofNat 32 ((grid12.coords t) 0).val).toNat = _
  rw [BitVec.toNat_ofNat, c0]; omega

/-- The output block is written back exactly at the points ≡ 195 (mod 196): there the next point's block is another (or
    the grid ends), and nowhere else does the block index move. -/
theorem flushAt12_2 (t : Fin cfg12.N) : (cfg12.win 2).flush t = true ↔ t.val % 196 = 195 := by
  have hN : grid12.N = 3920 := N_12
  have ht : t.val < 3920 := hN ▸ t.isLt
  show win12_2.flush t = true ↔ _
  unfold Pipeline.Window.flush
  rw [show win12_2.isOut = true from rfl]
  simp only [Bool.true_and, Bool.or_eq_true, decide_eq_true_eq]
  constructor
  · rintro (h | ⟨hl, hne⟩)
    · omega
    · by_contra h48
      apply hne
      obtain ⟨a0, a1⟩ := oidx12 ⟨t.val + 1, hl⟩
      obtain ⟨b0, b1⟩ := oidx12 t
      funext a
      match a with
      | ⟨0, _⟩ =>
        show win12_2.index ⟨t.val + 1, hl⟩ (0 : Fin 2) = win12_2.index t (0 : Fin 2)
        rw [a0, b0]
        show (t.val + 1) / 196 = t.val / 196
        omega
      | ⟨1, _⟩ =>
        show win12_2.index ⟨t.val + 1, hl⟩ (1 : Fin 2) = win12_2.index t (1 : Fin 2)
        rw [a1, b1]
  · intro h48
    by_cases hl : t.val + 1 = grid12.N
    · exact Or.inl hl
    · have hl' : t.val + 1 < grid12.N := by omega
      refine Or.inr ⟨hl', fun heq => ?_⟩
      have h0 := congrFun heq (0 : Fin 2)
      rw [(oidx12 ⟨t.val + 1, hl'⟩).1, (oidx12 t).1] at h0
      have h0' : (t.val + 1) / 196 = t.val / 196 := h0
      omega
theorem noFlush12_2 (t : Fin cfg12.N) (h : ¬cond12_1 (grid12.coords t)) : (cfg12.win 2).flush t = false := by
  cases hf : (cfg12.win 2).flush t with
  | false => rfl
  | true => exact absurd ((hcond12_1 t).mpr ((flushAt12_2 t).mp hf)) h

/-! ## Where the windows are idle -/
theorem liveAt12_0 : ∀ t : Fin cfg12.N, cfg12.idle 0 (grid12.coords t) = false := fun _ => rfl
theorem liveAt12_1 : ∀ t : Fin cfg12.N, cfg12.idle 1 (grid12.coords t) = false := fun _ => rfl
theorem idleAt12_2 : ∀ t : Fin cfg12.N, ¬cond12_1 (grid12.coords t) → cfg12.idle 2 (grid12.coords t) = true := fun t h => by
  show (!(k12_cond2 (grid12.coords t) == 1#1)) = true
  simp only [Bool.not_eq_true', beq_eq_false_iff_ne, ne_eq]
  exact h
theorem liveAt12_2 : ∀ t : Fin cfg12.N, cond12_1 (grid12.coords t) → cfg12.idle 2 (grid12.coords t) = false := fun t h => by
  show (!(k12_cond2 (grid12.coords t) == 1#1)) = false
  simp only [Bool.not_eq_false', beq_iff_eq]
  exact h

/-! ## The memrefs the runs are stated over -/
abbrev VO12_2 : View sig .tc .vmem S1024x128 .f32 := (Memref.whole cc12_stg2_0 : Memref sig .tc .vmem S1024x128 .f32).view
abbrev ms12_0 (t : Fin cfg12.N) : Memref sig .tc .vmem S2048 .i32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2048x128 .bf16 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1024x128 .f32 := win12_2.stage (cfg12.slots t 2)
abbrev hs12_2 (t : Fin cfg12.N) : (ms12_2 t).IsWhole := hstage12_2 ((cfg12.slots t 2).cast nbuf12_2)
/-- The accumulator: a whole scoped buffer of the kernel's own, carried from point to point. -/
abbrev scM12_0 : Memref sig .tc .vmem S1024x128 .f32 := Memref.whole cc12_scratch0
abbrev VS12_0 : View sig .tc .vmem S1024x128 .f32 := scM12_0.view

/-- The class invariant with the accumulator as a memref owned at some contents; the other scoped buffers stay unopened. -/
theorem PhiA12_eq (c : Dev nD) :
    (Pipeline.ΦA spec12 c : sProp 𝕄)
      = iprop(iprop((∃ d, owns (c : Thread nD τ) scM12_0 fullShare d) ∗ Pipeline.scopedRestBut (Ix := Unit) (Name := ℕ) (U := Pipeline.UD sig nD τ) (Lvl := ℕ) (Val := Elt F) spec12 c [cc12_scratch0]) ∗ (∃ r, prngReg c r)) := by
  unfold Pipeline.ΦA; rw [scopedRest12_split]; simp only [scM12_0, owns_whole]; try rfl

end Cert.Kernel.H

end
-- ==== Proof.K.S12RunB.lean ====
/-
  A scatter launch (the second one-hot product of a relation), at a middle edge chunk (neither the first nor the last): the accumulator, found at what the
  point before left, gets the product added; the output block is not touched.
-/
import proofs.«407232_j23192823399226_1_alg».proof.Proof.K.S12Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun12_B (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : ¬cond12_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__scatter_kernel i arg2 harg2 arg3 harg3 arg4 harg4 arg5 harg5) K } := by
  refine ⟨[], ?_, fun xi2 E K => ?run⟩
  case run =>
    simp only [cc12__scatter_kernel_eq_skeleton]; unfold cc12__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S12RunA.lean ====
/-
  A scatter launch (the second one-hot product of a relation), at the first edge chunk: the accumulator, whatever it held, is zeroed and gets the product
  added; the output block is not touched.
-/
import proofs.«407232_j23192823399226_1_alg».proof.Proof.K.S12RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun12_A (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond12_0 i) (hc1 : ¬cond12_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__scatter_kernel i arg2 harg2 arg3 harg3 arg4 harg4 arg5 harg5) K } := by
  refine ⟨[], ?_, fun xi2 E K => ?run⟩
  case run =>
    simp only [cc12__scatter_kernel_eq_skeleton]; unfold cc12__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S12RunC.lean ====
/-
  A scatter launch (the second one-hot product of a relation), at the last edge chunk: the accumulator, found at what the point before left, gets the
  product added and is then stored to the output block.
-/
import proofs.«407232_j23192823399226_1_alg».proof.Proof.K.S12RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun12_C (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc12__scatter_kernel i arg2 harg2 arg3 harg3 arg4 harg4 arg5 harg5) K } := by
  refine ⟨?_, ?_, fun E K => ?run⟩
  case run =>
    simp only [cc12__scatter_kernel_eq_skeleton]; unfold cc12__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.H

end
-- ==== Proof.K.S12.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.K.S12RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH12 (t : Fin cfg12.N) : Prog (TpuEff nD τ sig (Elt F) Λ₀ .tc) PUnit :=
  cc12__scatter_kernel (grid12.coords t) (ms12_0 t) (hs12_0 t) (ms12_1 t) (hs12_1 t) (ms12_2 t) (hs12_2 t) scM12_0 (Memref.isWhole_whole _)

/-! ## What each case leaves -/

theorem scover12_A_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond12_0 i) (hc1 : ¬cond12_1 i)
    (x0 : Vec F S2048 .i32) (x1 : Vec F S2048x128 .bf16) (y : S1024x128.Idx) :
    ∃ pc ∈ (kernelRun12_A (F := F) c i arg2 harg2 arg3 harg3 arg4 harg4 arg5 harg5 hc0 hc1 x0 x1).2.1, y ∈ pc.1.set :=
  View.cover_of_tiledL (kernelRun12_A (F := F) c i arg2 harg2 arg3 harg3 arg4 harg4 arg5 harg5 hc0 hc1 x0 x1).2.1 S1024x128.size (by sl_kernel_rfl) y

/-- The accumulator after a first edge chunk: the case's pieces read back. -/
def sout12_A_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond12_0 i) (hc1 : ¬cond12_1 i)
    (x0 : Vec F S2048 .i32) (x1 : Vec F S2048x128 .bf16) : Vec F S1024x128 .f32 :=
  VS12_0.read (Elt F) (VS12_0.writes (Elt F) VS12_0.junk (kernelRun12_A (F := F) c i arg2 harg2 arg3 harg3 arg4 harg4 arg5 harg5 hc0 hc1 x0 x1).2.1)

theorem scover12_B_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : ¬cond12_1 i)
    (x0 : Vec F S2048 .i32) (x1 : Vec F S2048x128 .bf16) (xs0 : Vec F S1024x128 .f32) (y : S1024x128.Idx) :
    ∃ pc ∈ (kernelRun12_B (F := F) c i arg2 harg2 arg3 harg3 arg4 harg4 arg5 harg5 hc0 hc1 x0 x1 xs0).2.1, y ∈ pc.1.set :=
  View.cover_of_tiledL (kernelRun12_B (F := F) c i arg2 harg2 arg3 harg3 arg4 harg4 arg5 harg5 hc0 hc1 x0 x1 xs0).2.1 S1024x128.size (by sl_kernel_rfl) y

/-- The accumulator after a middle edge chunk, over what the point before left (`xs0`). -/
def sout12_B_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : ¬cond12_1 i)
    (x0 : Vec F S2048 .i32) (x1 : Vec F S2048x128 .bf16) (xs0 : Vec F S1024x128 .f32) : Vec F S1024x128 .f32 :=
  VS12_0.read (Elt F) (VS12_0.writes (Elt F) VS12_0.junk (kernelRun12_B (F := F) c i arg2 harg2 arg3 harg3 arg4 harg4 arg5 harg5 hc0 hc1 x0 x1 xs0).2.1)

theorem cover12_C_2 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) (y : S1024x128.Idx) :
    ∃ pc ∈ (kernelRun12_C (F := F) c i arg2 harg2 arg3 harg3 arg4 harg4 arg5 harg5 hc0 hc1 x0 x1 xs0).1, y ∈ pc.1.set :=
  View.cover_of_tiledL (kernelRun12_C (F := F) c i arg2 harg2 arg3 harg3 arg4 harg4 arg5 harg5 hc0 hc1 x0 x1 xs0).1 S1024x128.size (by sl_kernel_rfl) y

/-- The output block after a last edge chunk. -/
def out12_C_2 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) : Vec F S1024x128 .f32 :=
  VO12_2.read (Elt F) (VO12_2.writes (Elt F) VO12_2.junk (kernelRun12_C (F := F) c i arg2 harg2 arg3 harg3 arg4 harg4 arg5 harg5 hc0 hc1 x0 x1 xs0).1)

theorem scover12_C_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) (y : S1024x128.Idx) :
    ∃ pc ∈ (kernelRun12_C (F := F) c i arg2 harg2 arg3 harg3 arg4 harg4 arg5 harg5 hc0 hc1 x0 x1 xs0).2.1, y ∈ pc.1.set :=
  View.cover_of_tiledL (kernelRun12_C (F := F) c i arg2 harg2 arg3 harg3 arg4 harg4 arg5 harg5 hc0 hc1 x0 x1 xs0).2.1 S1024x128.size (by sl_kernel_rfl) y

/-- The accumulator after a last edge chunk. -/
def sout12_C_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) : Vec F S1024x128 .f32 :=
  VS12_0.read (Elt F) (VS12_0.writes (Elt F) VS12_0.junk (kernelRun12_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle12_2 : Vec F S1024x128 .f32 := VO12_2.read (Elt F) VO12_2.junk

/-! ## The accumulation, point by point -/

/-- After the body at position `n`: (the output block, the accumulator) — the case the closed forms select, a later
    edge chunk's over what position `n - 1` left in the accumulator. -/
def outsAt12 (c : Dev nD) : (n : ℕ) → n < cfg12.N → Vec F S1024x128 .f32 × Vec F S1024x128 .f32
  | 0, hn => (idle12_2, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩) (iblk12 V c 1 ⟨0, hn⟩))
  | n + 1, hn =>
    if h0 : (n + 1) % 196 = 0 then
      if h1 : (n + 1) % 196 = 195 then
        False.elim (by omega)
      else
        (idle12_2, sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩) (iblk12 V c 1 ⟨n + 1, hn⟩))
    else
      if h1 : (n + 1) % 196 = 195 then
        (out12_C_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2,
         sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2)
      else
        (idle12_2, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (iblk12 V c 1 ⟨n + 1, hn⟩) (outsAt12 c n (Nat.lt_of_succ_lt hn)).2)

theorem outsAt12_A (c : Dev nD) (t : Fin cfg12.N) (h0 : t.val % 196 = 0) (h1 : ¬t.val % 196 = 195) :
    outsAt12 V c t.val t.isLt = (idle12_2, sout12_A_0 c (grid12.coords t) (ms12_0 t) (hs12_0 t) (ms12_1 t) (hs12_1 t) (ms12_2 t) (hs12_2 t) scM12_0 (Memref.isWhole_whole _) ((hcond12_0 t).mpr h0) (fun h => h1 ((hcond12_1 t).mp h)) (iblk12 V c 0 t) (iblk12 V c 1 t)) := by
  obtain ⟨n, hn⟩ := t
  cases n with
  | zero => exact rfl
  | succ n => exact (dif_pos h0).trans ((dif_neg h1).trans rfl)

theorem outsAt12_B (c : Dev nD) (t : Fin cfg12.N) (h0 : ¬t.val % 196 = 0) (h1 : ¬t.val % 196 = 195) :
    outsAt12 V c t.val t.isLt = (idle12_2, sout12_B_0 c (grid12.coords t) (ms12_0 t) (hs12_0 t) (ms12_1 t) (hs12_1 t) (ms12_2 t) (hs12_2 t) scM12_0 (Memref.isWhole_whole _) (fun h => h0 ((hcond12_0 t).mp h)) (fun h => h1 ((hcond12_1 t).mp h)) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt12_C (c : Dev nD) (t : Fin cfg12.N) (h0 : ¬t.val % 196 = 0) (h1 : t.val % 196 = 195) :
    outsAt12 V c t.val t.isLt = (out12_C_2 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2,
      sout12_C_0 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut12 (c : Dev nD) : sProp 𝕄 :=
  Pipeline.scopedRestBut (Ix := Unit) (Name := ℕ) (U := Pipeline.UD sig nD τ) (Lvl := ℕ) (Val := Elt F) spec12 c [cc12_scratch0]

/-- Before position `n`: at the region's entry the class invariant (the accumulator at anything); afterwards the
    accumulator at what position `n - 1` left, the other scoped buffers unopened, the generator register at some state. -/
def PhiS12 (c : Dev nD) : (n : ℕ) → n ≤ cfg12.N → sProp 𝕄
  | 0, _ => Pipeline.ΦA spec12 c
  | n + 1, hn => iprop(iprop(owns (c : Thread nD τ) scM12_0 fullShare ((outsAt12 V c n hn).2) ∗ restBut12 (F := F) c) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(owns (c : Thread nD τ) scM12_0 fullShare ((outsAt12 V c n hn).2) ∗ restBut12 (F := F) c) ∗ (∃ r, prngReg c r)) := rfl
theorem PhiS12_pos (c : Dev nD) (n : ℕ) (h : n ≤ cfg12.N) (hz : n ≠ 0) :
    PhiS12 V c n h = iprop(iprop(owns (c : Thread nD τ) scM12_0 fullShare ((outsAt12 V c (n - 1) (by omega)).2) ∗ restBut12 (F := F) c) ∗ (∃ r, prngReg c r)) := by
  cases n with
  | zero => exact absurd rfl hz
  | succ n => rfl

/-! ## The pipeline's proof data -/

/-- The arrays as the region finds them; after the body each input's buffer at its block, the output's at `outsAt12`'s
    first component; the invariant `PhiS12`; nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body12 (c : Dev nD) (t : Fin cfg12.N) :
    bodyPre12 V c t ⊢ wp frame (wpE (defs₀ (F := F)) Variants.none c none) Set.univ (bodyAtH12 t) (fun _ => bodyPost12 V c t) := by
  unfold bodyPre12 bodyPost12 bodyAtH12
  simp only [before12_0, before12_1]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h1 : t.val % 196 = 195
  · have h0 : ¬t.val % 196 = 0 := by omega
    have hz : t.val ≠ 0 := by omega
    rw [show (dat12 V c).leavesExact 2 t = owns (c : Thread nD τ) (ms12_2 t) fullShare ((dat12 V c).after 2 t) from by
      unfold Dat.leavesExact; rw [liveAt12_2 t ((hcond12_1 t).mpr h1)], after12_2]
    rw [outsAt12_C V c t h0 h1]
    unfold out12_C_2 sout12_C_0; (try dsimp only)
    rw [PhiS12_castSucc V c t, PhiS12_pos V c _ _ hz]
    iintro ⟨⟨⟨HS0, HR⟩, Hg⟩, Ho, ⟨%d0, H0⟩, ⟨%d1, H1⟩, ⟨%d2, H2⟩⟩
    iapply ((kernelRun12_C c (grid12.coords t) _ _ _ _ _ _ _ _ (fun h => h0 ((hcond12_0 t).mp h)) ((hcond12_1 t).mpr h1) (iblk12 V c 0 t) (iblk12 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover12_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover12_C_2 c _ _ _ _ _ _ _ _ _ _ _ _ _ _)
  · rw [Dat.leavesExact_idle (dat12 V c) 2 t (idleAt12_2 t (fun h => h1 ((hcond12_1 t).mp h))) (noFlush12_2 t (fun h => h1 ((hcond12_1 t).mp h)))]
    by_cases h0 : t.val % 196 = 0
    · rw [outsAt12_A V c t h0 h1]
      unfold sout12_A_0; (try dsimp only)
      by_cases hz : t.val = 0
      · rw [PhiS12_castSucc V c t, PhiS12_zero V c _ _ hz, PhiA12_eq]
        iintro ⟨⟨⟨HS0, HR⟩, Hg⟩, Ho, ⟨%d0, H0⟩, ⟨%d1, H1⟩, ⟨%d2, H2⟩⟩
        iapply ((kernelRun12_A c (grid12.coords t) _ _ _ _ _ _ _ _ ((hcond12_0 t).mpr h0) (fun h => h1 ((hcond12_1 t).mp h)) (iblk12 V c 0 t) (iblk12 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover12_A_0 c _ _ _ _ _ _ _ _ _ _ _ _ _)
            iexact HR
          iexact Hg
        isplitl [Ho]; · iexact Ho
        isplitl [H0]; · iexact H0
        isplitl [H1]; · iexact H1
        iexists _; iexact H2
      · rw [PhiS12_castSucc V c t, PhiS12_pos V c _ _ hz]
        iintro ⟨⟨⟨HS0, HR⟩, Hg⟩, Ho, ⟨%d0, H0⟩, ⟨%d1, H1⟩, ⟨%d2, H2⟩⟩
        iapply ((kernelRun12_A c (grid12.coords t) _ _ _ _ _ _ _ _ ((hcond12_0 t).mpr h0) (fun h => h1 ((hcond12_1 t).mp h)) (iblk12 V c 0 t) (iblk12 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover12_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt12_B V c t h0 h1]
      unfold sout12_B_0; (try dsimp only)
      rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_B c (grid12.coords t) _ _ _ _ _ _ _ _ (fun h => h0 ((hcond12_0 t).mp h)) (fun h => h1 ((hcond12_1 t).mp h)) (iblk12 V c 0 t) (iblk12 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the class invariant back: the accumulator's contents are forgotten. -/
theorem hout12 (c : Dev nD) : (dat12 V c).Φ (Fin.last cfg12.N) ⊢ Pipeline.ΦA spec12 c := by
  have hN : cfg12.N = 3920 := N_12
  rw [show (dat12 V c).Φ (Fin.last cfg12.N) = PhiS12 V c (Fin.last cfg12.N).val (Nat.le_of_lt_succ (Fin.last cfg12.N).isLt) from rfl,
    PhiS12_pos V c _ _ (by rw [Fin.val_last]; omega), PhiA12_eq]
  iintro ⟨⟨HS0, HR⟩, Hg⟩
  isplitl [HS0 HR]
  · isplitl [HS0]
    · iexists _; iexact HS0
    iexact HR
  iexact Hg

end

end Cert.Kernel.H

end
-- ==== Proof.K.G13Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not. -/
theorem before13_0_of {c : Dev nD} (dat : Dat τ (Elt F) Unit ℕ (Pipeline.UD sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (Pipeline.UD sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (Pipeline.UD sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
end

/-! ## The grid's coordinates at a point, the branch conditions in closed form, and where the output block is written back -/

theorem coords13_0 (t : Fin cfg13.N) : ((grid13.coords t) 0).val = t.val / 4 := by
  have hN : grid13.N = 316 := N_13
  have ht : t.val < 316 := hN ▸ t.isLt
  show t.val / grid13.stride 0 % 79 = _
  rw [show grid13.stride 0 = 4 from by decide]
  omega
theorem coords13_1 (t : Fin cfg13.N) : ((grid13.coords t) 1).val = t.val % 4 := by
  show t.val / grid13.stride 1 % 4 = _
  rw [show grid13.stride 1 = 1 from by decide]
  omega

/-- "This is the first source tile": the accumulator is zeroed. -/
abbrev cond13_0 (i : grid13.Coords) : Prop := (Scalar.cmpi .ne (Scalar.extui (Scalar.cmpi .eq (BitVec.ofNat 32 (i 1).val) 0#32)) 0#32) = 1#1
/-- "This is the last source tile": the accumulator is stored to the output block. -/
abbrev cond13_1 (i : grid13.Coords) : Prop := k13_cond2 i = 1#1
/-- The two tests read only the second coordinate, which takes 4 values. -/
theorem condw13_0 : ∀ v : Fin 4, ((Scalar.cmpi .ne (Scalar.extui (Scalar.cmpi .eq (BitVec.ofNat 32 v.val) 0#32)) 0#32) = 1#1) ↔ v.val = 0 := by decide
theorem condw13_1 : ∀ v : Fin 4, ((Scalar.cmpi .ne (Scalar.extui (Scalar.cmpi .eq (BitVec.ofNat 32 v.val) 3#32)) 0#32) = 1#1) ↔ v.val = 3 := by decide
theorem hcond13_0 (t : Fin cfg13.N) : cond13_0 (grid13.coords t) ↔ t.val % 4 = 0 := by
  rw [← coords13_1 t]; exact condw13_0 ((grid13.coords t) 1)
theorem hcond13_1 (t : Fin cfg13.N) : cond13_1 (grid13.coords t) ↔ t.val % 4 = 3 := by
  rw [← coords13_1 t]; exact condw13_1 ((grid13.coords t) 1)

/-- The output window's block index at a point: (t / 4, 0). -/
theorem oidx13 (t : Fin cfg13.N) : win13_3.index t (0 : Fin 2) = t.val / 4 ∧ win13_3.index t (1 : Fin 2) = 0 := by
  have hN : grid13.N = 316 := N_13
  have ht : t.val < 316 := hN ▸ t.isLt
  have c0 := coords13_0 t
  refine ⟨?_, rfl⟩
  show (BitVec.ofNat 32 ((grid13.coords t) 0).val).toNat = _
  rw [BitVec.toNat_ofNat, c0]; omega

/-- The output block is written back exactly at the points ≡ 3 (mod 4): there the next point's block is another (or
    the grid ends), and nowhere else does the block index move. -/
theorem flushAt13_3 (t : Fin cfg13.N) : (cfg13.win 3).flush t = true ↔ t.val % 4 = 3 := by
  have hN : grid13.N = 316 := N_13
  have ht : t.val < 316 := hN ▸ t.isLt
  show win13_3.flush t = true ↔ _
  unfold Pipeline.Window.flush
  rw [show win13_3.isOut = true from rfl]
  simp only [Bool.true_and, Bool.or_eq_true, decide_eq_true_eq]
  constructor
  · rintro (h | ⟨hl, hne⟩)
    · omega
    · by_contra h48
      apply hne
      obtain ⟨a0, a1⟩ := oidx13 ⟨t.val + 1, hl⟩
      obtain ⟨b0, b1⟩ := oidx13 t
      funext a
      match a with
      | ⟨0, _⟩ =>
        show win13_3.index ⟨t.val + 1, hl⟩ (0 : Fin 2) = win13_3.index t (0 : Fin 2)
        rw [a0, b0]
        show (t.val + 1) / 4 = t.val / 4
        omega
      | ⟨1, _⟩ =>
        show win13_3.index ⟨t.val + 1, hl⟩ (1 : Fin 2) = win13_3.index t (1 : Fin 2)
        rw [a1, b1]
  · intro h48
    by_cases hl : t.val + 1 = grid13.N
    · exact Or.inl hl
    · have hl' : t.val + 1 < grid13.N := by omega
      refine Or.inr ⟨hl', fun heq => ?_⟩
      have h0 := congrFun heq (0 : Fin 2)
      rw [(oidx13 ⟨t.val + 1, hl'⟩).1, (oidx13 t).1] at h0
      have h0' : (t.val + 1) / 4 = t.val / 4 := h0
      omega
theorem noFlush13_3 (t : Fin cfg13.N) (h : ¬cond13_1 (grid13.coords t)) : (cfg13.win 3).flush t = false := by
  cases hf : (cfg13.win 3).flush t with
  | false => rfl
  | true => exact absurd ((hcond13_1 t).mpr ((flushAt13_3 t).mp hf)) h

/-! ## Where the windows are idle -/
theorem liveAt13_0 : ∀ t : Fin cfg13.N, cfg13.idle 0 (grid13.coords t) = false := fun _ => rfl
theorem liveAt13_1 : ∀ t : Fin cfg13.N, cfg13.idle 1 (grid13.coords t) = false := fun _ => rfl
theorem liveAt13_2 : ∀ t : Fin cfg13.N, cfg13.idle 2 (grid13.coords t) = false := fun _ => rfl
theorem idleAt13_3 : ∀ t : Fin cfg13.N, ¬cond13_1 (grid13.coords t) → cfg13.idle 3 (grid13.coords t) = true := fun t h => by
  show (!(k13_cond2 (grid13.coords t) == 1#1)) = true
  simp only [Bool.not_eq_true', beq_eq_false_iff_ne, ne_eq]
  exact h
theorem liveAt13_3 : ∀ t : Fin cfg13.N, cond13_1 (grid13.coords t) → cfg13.idle 3 (grid13.coords t) = false := fun t h => by
  show (!(k13_cond2 (grid13.coords t) == 1#1)) = false
  simp only [Bool.not_eq_false', beq_iff_eq]
  exact h

/-! ## The memrefs the runs are stated over -/
abbrev VO13_3 : View sig .tc .vmem S2048x128 .bf16 := (Memref.whole cc13_stg3_0 : Memref sig .tc .vmem S2048x128 .bf16).view
abbrev ms13_0 (t : Fin cfg13.N) : Memref sig .tc .vmem S2048 .i32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S2048 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1024x128 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S2048x128 .bf16 := win13_3.stage (cfg13.slots t 3)
abbrev hs13_3 (t : Fin cfg13.N) : (ms13_3 t).IsWhole := hstage13_3 ((cfg13.slots t 3).cast nbuf13_3)
/-- The accumulator: a whole scoped buffer of the kernel's own, carried from point to point. -/
abbrev scM13_0 : Memref sig .tc .vmem S2048x128 .f32 := Memref.whole cc13_scratch0
abbrev VS13_0 : View sig .tc .vmem S2048x128 .f32 := scM13_0.view

/-- The class invariant with the accumulator as a memref owned at some contents; the other scoped buffers stay unopened. -/
theorem PhiA13_eq (c : Dev nD) :
    (Pipeline.ΦA spec13 c : sProp 𝕄)
      = iprop(iprop((∃ d, owns (c : Thread nD τ) scM13_0 fullShare d) ∗ Pipeline.scopedRestBut (Ix := Unit) (Name := ℕ) (U := Pipeline.UD sig nD τ) (Lvl := ℕ) (Val := Elt F) spec13 c [cc13_scratch0]) ∗ (∃ r, prngReg c r)) := by
  unfold Pipeline.ΦA; rw [scopedRest13_split]; simp only [scM13_0, owns_whole]; try rfl

end Cert.Kernel.H

end
-- ==== Proof.K.G13RunB.lean ====
/-
  A gather launch (the first one-hot product of a relation), at a middle source tile (neither the first nor the last): the accumulator, found at what the
  point before left, gets the product added; the output block is not touched.
-/
import proofs.«407232_j23192823399226_1_alg».proof.Proof.K.G13Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun13_B (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc13__gather_kernel i arg2 harg2 arg3 harg3 arg4 harg4 arg5 harg5 arg6 harg6) K } := by
  refine ⟨[], ?_, fun xi3 E K => ?run⟩
  case run =>
    simp only [cc13__gather_kernel_eq_skeleton]; unfold cc13__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G13RunA.lean ====
/-
  A gather launch (the first one-hot product of a relation), at the first source tile: the accumulator, whatever it held, is zeroed and gets the product
  added; the output block is not touched.
-/
import proofs.«407232_j23192823399226_1_alg».proof.Proof.K.G13RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun13_A (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc13__gather_kernel i arg2 harg2 arg3 harg3 arg4 harg4 arg5 harg5 arg6 harg6) K } := by
  refine ⟨[], ?_, fun xi3 E K => ?run⟩
  case run =>
    simp only [cc13__gather_kernel_eq_skeleton]; unfold cc13__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.G13RunC.lean ====
/-
  A gather launch (the first one-hot product of a relation), at the last source tile: the accumulator, found at what the point before left, gets the
  product added and is then stored to the output block.
-/
import proofs.«407232_j23192823399226_1_alg».proof.Proof.K.G13RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun13_C (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc13__gather_kernel i arg2 harg2 arg3 harg3 arg4 harg4 arg5 harg5 arg6 harg6) K } := by
  refine ⟨?_, ?_, fun E K => ?run⟩
  case run =>
    simp only [cc13__gather_kernel_eq_skeleton]; unfold cc13__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.G13.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.K.G13RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH13 (t : Fin cfg13.N) : Prog (TpuEff nD τ sig (Elt F) Λ₀ .tc) PUnit :=
  cc13__gather_kernel (grid13.coords t) (ms13_0 t) (hs13_0 t) (ms13_1 t) (hs13_1 t) (ms13_2 t) (hs13_2 t) (ms13_3 t) (hs13_3 t) scM13_0 (Memref.isWhole_whole _)

/-! ## What each case leaves -/

theorem scover13_A_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) (y : S2048x128.Idx) :
    ∃ pc ∈ (kernelRun13_A (F := F) c i arg2 harg2 arg3 harg3 arg4 harg4 arg5 harg5 arg6 harg6 hc0 hc1 x0 x1 x2).2.1, y ∈ pc.1.set :=
  View.cover_of_tiledL (kernelRun13_A (F := F) c i arg2 harg2 arg3 harg3 arg4 harg4 arg5 harg5 arg6 harg6 hc0 hc1 x0 x1 x2).2.1 S2048x128.size (by sl_kernel_rfl) y

/-- The accumulator after a first source tile: the case's pieces read back. -/
def sout13_A_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) : Vec F S2048x128 .f32 :=
  VS13_0.read (Elt F) (VS13_0.writes (Elt F) VS13_0.junk (kernelRun13_A (F := F) c i arg2 harg2 arg3 harg3 arg4 harg4 arg5 harg5 arg6 harg6 hc0 hc1 x0 x1 x2).2.1)

theorem scover13_B_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) (y : S2048x128.Idx) :
    ∃ pc ∈ (kernelRun13_B (F := F) c i arg2 harg2 arg3 harg3 arg4 harg4 arg5 harg5 arg6 harg6 hc0 hc1 x0 x1 x2 xs0).2.1, y ∈ pc.1.set :=
  View.cover_of_tiledL (kernelRun13_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout13_B_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) : Vec F S2048x128 .f32 :=
  VS13_0.read (Elt F) (VS13_0.writes (Elt F) VS13_0.junk (kernelRun13_B (F := F) c i arg2 harg2 arg3 harg3 arg4 harg4 arg5 harg5 arg6 harg6 hc0 hc1 x0 x1 x2 xs0).2.1)

theorem cover13_C_3 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) (y : S2048x128.Idx) :
    ∃ pc ∈ (kernelRun13_C (F := F) c i arg2 harg2 arg3 harg3 arg4 harg4 arg5 harg5 arg6 harg6 hc0 hc1 x0 x1 x2 xs0).1, y ∈ pc.1.set :=
  View.cover_of_tiledL (kernelRun13_C (F := F) c i arg2 harg2 arg3 harg3 arg4 harg4 arg5 harg5 arg6 harg6 hc0 hc1 x0 x1 x2 xs0).1 S2048x128.size (by sl_kernel_rfl) y

/-- The output block after a last source tile. -/
def out13_C_3 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) : Vec F S2048x128 .bf16 :=
  VO13_3.read (Elt F) (VO13_3.writes (Elt F) VO13_3.junk (kernelRun13_C (F := F) c i arg2 harg2 arg3 harg3 arg4 harg4 arg5 harg5 arg6 harg6 hc0 hc1 x0 x1 x2 xs0).1)

theorem scover13_C_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) (y : S2048x128.Idx) :
    ∃ pc ∈ (kernelRun13_C (F := F) c i arg2 harg2 arg3 harg3 arg4 harg4 arg5 harg5 arg6 harg6 hc0 hc1 x0 x1 x2 xs0).2.1, y ∈ pc.1.set :=
  View.cover_of_tiledL (kernelRun13_C (F := F) c i arg2 harg2 arg3 harg3 arg4 harg4 arg5 harg5 arg6 harg6 hc0 hc1 x0 x1 x2 xs0).2.1 S2048x128.size (by sl_kernel_rfl) y

/-- The accumulator after a last source tile. -/
def sout13_C_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) : Vec F S2048x128 .f32 :=
  VS13_0.read (Elt F) (VS13_0.writes (Elt F) VS13_0.junk (kernelRun13_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle13_3 : Vec F S2048x128 .bf16 := VO13_3.read (Elt F) VO13_3.junk

/-! ## The accumulation, point by point -/

/-- After the body at position `n`: (the output block, the accumulator) — the case the closed forms select, a later
    source tile's over what position `n - 1` left in the accumulator. -/
def outsAt13 (c : Dev nD) : (n : ℕ) → n < cfg13.N → Vec F S2048x128 .bf16 × Vec F S2048x128 .f32
  | 0, hn => (idle13_3, sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if h0 : (n + 1) % 4 = 0 then
      if h1 : (n + 1) % 4 = 3 then
        False.elim (by omega)
      else
        (idle13_3, sout13_A_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) ((hcond13_0 ⟨n + 1, hn⟩).mpr h0) (fun h => h1 ((hcond13_1 ⟨n + 1, hn⟩).mp h)) (iblk13 V c 0 ⟨n + 1, hn⟩) (iblk13 V c 1 ⟨n + 1, hn⟩) (iblk13 V c 2 ⟨n + 1, hn⟩))
    else
      if h1 : (n + 1) % 4 = 3 then
        (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2,
         sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2)
      else
        (idle13_3, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => h0 ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

theorem outsAt13_A (c : Dev nD) (t : Fin cfg13.N) (h0 : t.val % 4 = 0) (h1 : ¬t.val % 4 = 3) :
    outsAt13 V c t.val t.isLt = (idle13_3, sout13_A_0 c (grid13.coords t) (ms13_0 t) (hs13_0 t) (ms13_1 t) (hs13_1 t) (ms13_2 t) (hs13_2 t) (ms13_3 t) (hs13_3 t) scM13_0 (Memref.isWhole_whole _) ((hcond13_0 t).mpr h0) (fun h => h1 ((hcond13_1 t).mp h)) (iblk13 V c 0 t) (iblk13 V c 1 t) (iblk13 V c 2 t)) := by
  obtain ⟨n, hn⟩ := t
  cases n with
  | zero => exact rfl
  | succ n => exact (dif_pos h0).trans ((dif_neg h1).trans rfl)

theorem outsAt13_B (c : Dev nD) (t : Fin cfg13.N) (h0 : ¬t.val % 4 = 0) (h1 : ¬t.val % 4 = 3) :
    outsAt13 V c t.val t.isLt = (idle13_3, sout13_B_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt13_C (c : Dev nD) (t : Fin cfg13.N) (h0 : ¬t.val % 4 = 0) (h1 : t.val % 4 = 3) :
    outsAt13 V c t.val t.isLt = (out13_C_3 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2,
      sout13_C_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut13 (c : Dev nD) : sProp 𝕄 :=
  Pipeline.scopedRestBut (Ix := Unit) (Name := ℕ) (U := Pipeline.UD sig nD τ) (Lvl := ℕ) (Val := Elt F) spec13 c [cc13_scratch0]

/-- Before position `n`: at the region's entry the class invariant (the accumulator at anything); afterwards the
    accumulator at what position `n - 1` left, the other scoped buffers unopened, the generator register at some state. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2) ∗ restBut13 (F := F) c) ∗ (∃ r, prngReg c r))

theorem PhiS13_zero (c : Dev nD) (n : ℕ) (h : n ≤ cfg13.N) (hz : n = 0) : PhiS13 V c n h = Pipeline.ΦA spec13 c := by
  subst hz; rfl
theorem PhiS13_succ (c : Dev nD) (n : ℕ) (hn : n < cfg13.N) :
    PhiS13 V c (n + 1) hn = iprop(iprop(owns (c : Thread nD τ) scM13_0 fullShare ((outsAt13 V c n hn).2) ∗ restBut13 (F := F) c) ∗ (∃ r, prngReg c r)) := rfl
theorem PhiS13_pos (c : Dev nD) (n : ℕ) (h : n ≤ cfg13.N) (hz : n ≠ 0) :
    PhiS13 V c n h = iprop(iprop(owns (c : Thread nD τ) scM13_0 fullShare ((outsAt13 V c (n - 1) (by omega)).2) ∗ restBut13 (F := F) c) ∗ (∃ r, prngReg c r)) := by
  cases n with
  | zero => exact absurd rfl hz
  | succ n => rfl

/-! ## The pipeline's proof data -/

/-- The arrays as the region finds them; after the body each input's buffer at its block, the output's at `outsAt13`'s
    first component; the invariant `PhiS13`; nothing owed; full shares. -/
def dat13 (c : Dev nD) : Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem PhiS13_castSucc (c : Dev nD) (t : Fin cfg13.N) :
    (dat13 V c).Φ t.castSucc = PhiS13 V c t.val (Nat.le_of_lt t.isLt) := by
  dsimp only [dat13]; simp only [Fin.coe_castSucc]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body13 (c : Dev nD) (t : Fin cfg13.N) :
    bodyPre13 V c t ⊢ wp frame (wpE (defs₀ (F := F)) Variants.none c none) Set.univ (bodyAtH13 t) (fun _ => bodyPost13 V c t) := by
  unfold bodyPre13 bodyPost13 bodyAtH13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  by_cases h1 : t.val % 4 = 3
  · have h0 : ¬t.val % 4 = 0 := by omega
    have hz : t.val ≠ 0 := by omega
    rw [show (dat13 V c).leavesExact 3 t = owns (c : Thread nD τ) (ms13_3 t) fullShare ((dat13 V c).after 3 t) from by
      unfold Dat.leavesExact; rw [liveAt13_3 t ((hcond13_1 t).mpr h1)], after13_3]
    rw [outsAt13_C V c t h0 h1]
    unfold out13_C_3 sout13_C_0; (try dsimp only)
    rw [PhiS13_castSucc V c t, PhiS13_pos V c _ _ hz]
    iintro ⟨⟨⟨HS0, HR⟩, Hg⟩, Ho, ⟨%d0, H0⟩, ⟨%d1, H1⟩, ⟨%d2, H2⟩, ⟨%d3, H3⟩⟩
    iapply ((kernelRun13_C c (grid13.coords t) _ _ _ _ _ _ _ _ _ _ (fun h => h0 ((hcond13_0 t).mp h)) ((hcond13_1 t).mpr h1) (iblk13 V c 0 t) (iblk13 V c 1 t) (iblk13 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover13_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover13_C_3 c _ _ _ _ _ _ _ _ _ _ _ _ _ _ _ _ _)
  · rw [Dat.leavesExact_idle (dat13 V c) 3 t (idleAt13_3 t (fun h => h1 ((hcond13_1 t).mp h))) (noFlush13_3 t (fun h => h1 ((hcond13_1 t).mp h)))]
    by_cases h0 : t.val % 4 = 0
    · rw [outsAt13_A V c t h0 h1]
      unfold sout13_A_0; (try dsimp only)
      by_cases hz : t.val = 0
      · rw [PhiS13_castSucc V c t, PhiS13_zero V c _ _ hz, PhiA13_eq]
        iintro ⟨⟨⟨HS0, HR⟩, Hg⟩, Ho, ⟨%d0, H0⟩, ⟨%d1, H1⟩, ⟨%d2, H2⟩, ⟨%d3, H3⟩⟩
        iapply ((kernelRun13_A c (grid13.coords t) _ _ _ _ _ _ _ _ _ _ ((hcond13_0 t).mpr h0) (fun h => h1 ((hcond13_1 t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover13_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS13_castSucc V c t, PhiS13_pos V c _ _ hz]
        iintro ⟨⟨⟨HS0, HR⟩, Hg⟩, Ho, ⟨%d0, H0⟩, ⟨%d1, H1⟩, ⟨%d2, H2⟩, ⟨%d3, H3⟩⟩
        iapply ((kernelRun13_A c (grid13.coords t) _ _ _ _ _ _ _ _ _ _ ((hcond13_0 t).mpr h0) (fun h => h1 ((hcond13_1 t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover13_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt13_B V c t h0 h1]
      unfold sout13_B_0; (try dsimp only)
      rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩⟩
      iapply ((kernelRun13_B c (grid13.coords t) _ _ _ _ _ _ _ _ _ _ (fun h => h0 ((hcond13_0 t).mp h)) (fun h => h1 ((hcond13_1 t).mp h)) (iblk13 V c 0 t) (iblk13 V c 1 t) (iblk13 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After the last point the invariant gives the class invariant back: the accumulator's contents are forgotten. -/
theorem hout13 (c : Dev nD) : (dat13 V c).Φ (Fin.last cfg13.N) ⊢ Pipeline.ΦA spec13 c := by
  have hN : cfg13.N = 316 := N_13
  rw [show (dat13 V c).Φ (Fin.last cfg13.N) = PhiS13 V c (Fin.last cfg13.N).val (Nat.le_of_lt_succ (Fin.last cfg13.N).isLt) from rfl,
    PhiS13_pos V c _ _ (by rw [Fin.val_last]; omega), PhiA13_eq]
  iintro ⟨⟨HS0, HR⟩, Hg⟩
  isplitl [HS0 HR]
  · isplitl [HS0]
    · iexists _; iexact HS0
    iexact HR
  iexact Hg

end

end Cert.Kernel.H

end
-- ==== Proof.K.S14Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.Kernel.Launch
import proofs.«407232_j23192823399226_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, fetched there or not. -/
theorem before14_0_of {c : Dev nD} (dat : Dat τ (Elt F) Unit ℕ (Pipeline.UD sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (Pipeline.UD sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
end

/-! ## The grid's coordinates at a point, the branch conditions in closed form, and where the output block is written back -/

theorem coords14_0 (t : Fin cfg14.N) : ((grid14.coords t) 0).val = t.val / 79 := by
  have hN : grid14.N = 1580 := N_14
  have ht : t.val < 1580 := hN ▸ t.isLt
  show t.val / grid14.stride 0 % 20 = _
  rw [show grid14.stride 0 = 79 from by decide]
  omega
theorem coords14_1 (t : Fin cfg14.N) : ((grid14.coords t) 1).val = t.val % 79 := by
  show t.val / grid14.stride 1 % 79 = _
  rw [show grid14.stride 1 = 1 from by decide]
  omega

/-- "This is the first edge chunk": the accumulator is zeroed. -/
abbrev cond14_0 (i : grid14.Coords) : Prop := (Scalar.cmpi .ne (Scalar.extui (Scalar.cmpi .eq (BitVec.ofNat 32 (i 1).val) 0#32)) 0#32) = 1#1
/-- "This is the last edge chunk": the accumulator is stored to the output block. -/
abbrev cond14_1 (i : grid14.Coords) : Prop := k14_cond2 i = 1#1
/-- The two tests read only the second coordinate, which takes 79 values. -/
theorem condw14_0 : ∀ v : Fin 79, ((Scalar.cmpi .ne (Scalar.extui (Scalar.cmpi .eq (BitVec.ofNat 32 v.val) 0#32)) 0#32) = 1#1) ↔ v.val = 0 := by decide
theorem condw14_1 : ∀ v : Fin 79, ((Scalar.cmpi .ne (Scalar.extui (Scalar.cmpi .eq (BitVec.ofNat 32 v.val) 78#32)) 0#32) = 1#1) ↔ v.val = 78 := by decide
theorem hcond14_0 (t : Fin cfg14.N) : cond14_0 (grid14.coords t) ↔ t.val % 79 = 0 := by
  rw [← coords14_1 t]; exact condw14_0 ((grid14.coords t) 1)
theorem hcond14_1 (t : Fin cfg14.N) : cond14_1 (grid14.coords t) ↔ t.val % 79 = 78 := by
  rw [← coords14_1 t]; exact condw14_1 ((grid14.coords t) 1)

/-- The output window's block index at a point: (t / 79, 0). -/
theorem oidx14 (t : Fin cfg14.N) : win14_2.index t (0 : Fin 2) = t.val / 79 ∧ win14_2.index t (1 : Fin 2) = 0 := by
  have hN : grid14.N = 1580 := N_14
  have ht : t.val < 1580 := hN ▸ t.isLt
  have c0 := coords14_0 t
  refine ⟨?_, rfl⟩
  show (BitVec.ofNat 32 ((grid14.coords t) 0).val).toNat = _
  rw [BitVec.toNat_ofNat, c0]; omega

/-- The output block is written back exactly at the points ≡ 78 (mod 79): there the next point's block is another (or
    the grid ends), and nowhere else does the block index move. -/
theorem flushAt14_2 (t : Fin cfg14.N) : (cfg14.win 2).flush t = true ↔ t.val % 79 = 78 := by
  have hN : grid14.N = 1580 := N_14
  have ht : t.val < 1580 := hN ▸ t.isLt
  show win14_2.flush t = true ↔ _
  unfold Pipeline.Window.flush
  rw [show win14_2.isOut = true from rfl]
  simp only [Bool.true_and, Bool.or_eq_true, decide_eq_true_eq]
  constructor
  · rintro (h | ⟨hl, hne⟩)
    · omega
    · by_contra h48
      apply hne
      obtain ⟨a0, a1⟩ := oidx14 ⟨t.val + 1, hl⟩
      obtain ⟨b0, b1⟩ := oidx14 t
      funext a
      match a with
      | ⟨0, _⟩ =>
        show win14_2.index ⟨t.val + 1, hl⟩ (0 : Fin 2) = win14_2.index t (0 : Fin 2)
        rw [a0, b0]
        show (t.val + 1) / 79 = t.val / 79
        omega
      | ⟨1, _⟩ =>
        show win14_2.index ⟨t.val + 1, hl⟩ (1 : Fin 2) = win14_2.index t (1 : Fin 2)
        rw [a1, b1]
  · intro h48
    by_cases hl : t.val + 1 = grid14.N
    · exact Or.inl hl
    · have hl' : t.val + 1 < grid14.N := by omega
      refine Or.inr ⟨hl', fun heq => ?_⟩
      have h0 := congrFun heq (0 : Fin 2)
      rw [(oidx14 ⟨t.val + 1, hl'⟩).1, (oidx14 t).1] at h0
      have h0' : (t.val + 1) / 79 = t.val / 79 := h0
      omega
theorem noFlush14_2 (t : Fin cfg14.N) (h : ¬cond14_1 (grid14.coords t)) : (cfg14.win 2).flush t = false := by
  cases hf : (cfg14.win 2).flush t with
  | false => rfl
  | true => exact absurd ((hcond14_1 t).mpr ((flushAt14_2 t).mp hf)) h

/-! ## Where the windows are idle -/
theorem liveAt14_0 : ∀ t : Fin cfg14.N, cfg14.idle 0 (grid14.coords t) = false := fun _ => rfl
theorem liveAt14_1 : ∀ t : Fin cfg14.N, cfg14.idle 1 (grid14.coords t) = false := fun _ => rfl
theorem idleAt14_2 : ∀ t : Fin cfg14.N, ¬cond14_1 (grid14.coords t) → cfg14.idle 2 (grid14.coords t) = true := fun t h => by
  show (!(k14_cond2 (grid14.coords t) == 1#1)) = true
  simp only [Bool.not_eq_true', beq_eq_false_iff_ne, ne_eq]
  exact h
theorem liveAt14_2 : ∀ t : Fin cfg14.N, cond14_1 (grid14.coords t) → cfg14.idle 2 (grid14.coords t) = false := fun t h => by
  show (!(k14_cond2 (grid14.coords t) == 1#1)) = false
  simp only [Bool.not_eq_false', beq_iff_eq]
  exact h

/-! ## The memrefs the runs are stated over -/
abbrev VO14_2 : View sig .tc .vmem S1024x128 .f32 := (Memref.whole cc14_stg2_0 : Memref sig .tc .vmem S1024x128 .f32).view
abbrev ms14_0 (t : Fin cfg14.N) : Memref sig .tc .vmem S2048 .i32 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S2048x128 .bf16 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1024x128 .f32 := win14_2.stage (cfg14.slots t 2)
abbrev hs14_2 (t : Fin cfg14.N) : (ms14_2 t).IsWhole := hstage14_2 ((cfg14.slots t 2).cast nbuf14_2)
/-- The accumulator: a whole scoped buffer of the kernel's own, carried from point to point. -/
abbrev scM14_0 : Memref sig .tc .vmem S1024x128 .f32 := Memref.whole cc14_scratch0
abbrev VS14_0 : View sig .tc .vmem S1024x128 .f32 := scM14_0.view

/-- The class invariant with the accumulator as a memref owned at some contents; the other scoped buffers stay unopened. -/
theorem PhiA14_eq (c : Dev nD) :
    (Pipeline.ΦA spec14 c : sProp 𝕄)
      = iprop(iprop((∃ d, owns (c : Thread nD τ) scM14_0 fullShare d) ∗ Pipeline.scopedRestBut (Ix := Unit) (Name := ℕ) (U := Pipeline.UD sig nD τ) (Lvl := ℕ) (Val := Elt F) spec14 c [cc14_scratch0]) ∗ (∃ r, prngReg c r)) := by
  unfold Pipeline.ΦA; rw [scopedRest14_split]; simp only [scM14_0, owns_whole]; try rfl

end Cert.Kernel.H

end
-- ==== Proof.K.S14RunB.lean ====
/-
  A scatter launch (the second one-hot product of a relation), at a middle edge chunk (neither the first nor the last): the accumulator, found at what the
  point before left, gets the product added; the output block is not touched.
-/
import proofs.«407232_j23192823399226_1_alg».proof.Proof.K.S14Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun14_B (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : ¬cond14_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__scatter_kernel i arg2 harg2 arg3 harg3 arg4 harg4 arg5 harg5) K } := by
  refine ⟨[], ?_, fun xi2 E K => ?run⟩
  case run =>
    simp only [cc14__scatter_kernel_eq_skeleton]; unfold cc14__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S14RunA.lean ====
/-
  A scatter launch (the second one-hot product of a relation), at the first edge chunk: the accumulator, whatever it held, is zeroed and gets the product
  added; the output block is not touched.
-/
import proofs.«407232_j23192823399226_1_alg».proof.Proof.K.S14RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun14_A (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond14_0 i) (hc1 : ¬cond14_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__scatter_kernel i arg2 harg2 arg3 harg3 arg4 harg4 arg5 harg5) K } := by
  refine ⟨[], ?_, fun xi2 E K => ?run⟩
  case run =>
    simp only [cc14__scatter_kernel_eq_skeleton]; unfold cc14__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.H

end
-- ==== Proof.K.S14RunC.lean ====
/-
  A scatter launch (the second one-hot product of a relation), at the last edge chunk: the accumulator, found at what the point before left, gets the
  product added and is then stored to the output block.
-/
import proofs.«407232_j23192823399226_1_alg».proof.Proof.K.S14RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun14_C (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc14__scatter_kernel i arg2 harg2 arg3 harg3 arg4 harg4 arg5 harg5) K } := by
  refine ⟨?_, ?_, fun E K => ?run⟩
  case run =>
    simp only [cc14__scatter_kernel_eq_skeleton]; unfold cc14__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.H

end
-- ==== Proof.K.S14.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.K.S14RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH14 (t : Fin cfg14.N) : Prog (TpuEff nD τ sig (Elt F) Λ₀ .tc) PUnit :=
  cc14__scatter_kernel (grid14.coords t) (ms14_0 t) (hs14_0 t) (ms14_1 t) (hs14_1 t) (ms14_2 t) (hs14_2 t) scM14_0 (Memref.isWhole_whole _)

/-! ## What each case leaves -/

theorem scover14_A_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond14_0 i) (hc1 : ¬cond14_1 i)
    (x0 : Vec F S2048 .i32) (x1 : Vec F S2048x128 .bf16) (y : S1024x128.Idx) :
    ∃ pc ∈ (kernelRun14_A (F := F) c i arg2 harg2 arg3 harg3 arg4 harg4 arg5 harg5 hc0 hc1 x0 x1).2.1, y ∈ pc.1.set :=
  View.cover_of_tiledL (kernelRun14_A (F := F) c i arg2 harg2 arg3 harg3 arg4 harg4 arg5 harg5 hc0 hc1 x0 x1).2.1 S1024x128.size (by sl_kernel_rfl) y

/-- The accumulator after a first edge chunk: the case's pieces read back. -/
def sout14_A_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond14_0 i) (hc1 : ¬cond14_1 i)
    (x0 : Vec F S2048 .i32) (x1 : Vec F S2048x128 .bf16) : Vec F S1024x128 .f32 :=
  VS14_0.read (Elt F) (VS14_0.writes (Elt F) VS14_0.junk (kernelRun14_A (F := F) c i arg2 harg2 arg3 harg3 arg4 harg4 arg5 harg5 hc0 hc1 x0 x1).2.1)

theorem scover14_B_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : ¬cond14_1 i)
    (x0 : Vec F S2048 .i32) (x1 : Vec F S2048x128 .bf16) (xs0 : Vec F S1024x128 .f32) (y : S1024x128.Idx) :
    ∃ pc ∈ (kernelRun14_B (F := F) c i arg2 harg2 arg3 harg3 arg4 harg4 arg5 harg5 hc0 hc1 x0 x1 xs0).2.1, y ∈ pc.1.set :=
  View.cover_of_tiledL (kernelRun14_B (F := F) c i arg2 harg2 arg3 harg3 arg4 harg4 arg5 harg5 hc0 hc1 x0 x1 xs0).2.1 S1024x128.size (by sl_kernel_rfl) y

/-- The accumulator after a middle edge chunk, over what the point before left (`xs0`). -/
def sout14_B_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : ¬cond14_1 i)
    (x0 : Vec F S2048 .i32) (x1 : Vec F S2048x128 .bf16) (xs0 : Vec F S1024x128 .f32) : Vec F S1024x128 .f32 :=
  VS14_0.read (Elt F) (VS14_0.writes (Elt F) VS14_0.junk (kernelRun14_B (F := F) c i arg2 harg2 arg3 harg3 arg4 harg4 arg5 harg5 hc0 hc1 x0 x1 xs0).2.1)

theorem cover14_C_2 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) (y : S1024x128.Idx) :
    ∃ pc ∈ (kernelRun14_C (F := F) c i arg2 harg2 arg3 harg3 arg4 harg4 arg5 harg5 hc0 hc1 x0 x1 xs0).1, y ∈ pc.1.set :=
  View.cover_of_tiledL (kernelRun14_C (F := F) c i arg2 harg2 arg3 harg3 arg4 harg4 arg5 harg5 hc0 hc1 x0 x1 xs0).1 S1024x128.size (by sl_kernel_rfl) y

/-- The output block after a last edge chunk. -/
def out14_C_2 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) : Vec F S1024x128 .f32 :=
  VO14_2.read (Elt F) (VO14_2.writes (Elt F) VO14_2.junk (kernelRun14_C (F := F) c i arg2 harg2 arg3 harg3 arg4 harg4 arg5 harg5 hc0 hc1 x0 x1 xs0).1)

theorem scover14_C_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) (y : S1024x128.Idx) :
    ∃ pc ∈ (kernelRun14_C (F := F) c i arg2 harg2 arg3 harg3 arg4 harg4 arg5 harg5 hc0 hc1 x0 x1 xs0).2.1, y ∈ pc.1.set :=
  View.cover_of_tiledL (kernelRun14_C (F := F) c i arg2 harg2 arg3 harg3 arg4 harg4 arg5 harg5 hc0 hc1 x0 x1 xs0).2.1 S1024x128.size (by sl_kernel_rfl) y

/-- The accumulator after a last edge chunk. -/
def sout14_C_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) : Vec F S1024x128 .f32 :=
  VS14_0.read (Elt F) (VS14_0.writes (Elt F) VS14_0.junk (kernelRun14_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle14_2 : Vec F S1024x128 .f32 := VO14_2.read (Elt F) VO14_2.junk

/-! ## The accumulation, point by point -/

/-- After the body at position `n`: (the output block, the accumulator) — the case the closed forms select, a later
    edge chunk's over what position `n - 1` left in the accumulator. -/
def outsAt14 (c : Dev nD) : (n : ℕ) → n < cfg14.N → Vec F S1024x128 .f32 × Vec F S1024x128 .f32
  | 0, hn => (idle14_2, sout14_A_0 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩))
  | n + 1, hn =>
    if h0 : (n + 1) % 79 = 0 then
      if h1 : (n + 1) % 79 = 78 then
        False.elim (by omega)
      else
        (idle14_2, sout14_A_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩))
    else
      if h1 : (n + 1) % 79 = 78 then
        (out14_C_2 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2,
         sout14_C_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2)
      else
        (idle14_2, sout14_B_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (outsAt14 c n (Nat.lt_of_succ_lt hn)).2)

theorem outsAt14_A (c : Dev nD) (t : Fin cfg14.N) (h0 : t.val % 79 = 0) (h1 : ¬t.val % 79 = 78) :
    outsAt14 V c t.val t.isLt = (idle14_2, sout14_A_0 c (grid14.coords t) (ms14_0 t) (hs14_0 t) (ms14_1 t) (hs14_1 t) (ms14_2 t) (hs14_2 t) scM14_0 (Memref.isWhole_whole _) ((hcond14_0 t).mpr h0) (fun h => h1 ((hcond14_1 t).mp h)) (iblk14 V c 0 t) (iblk14 V c 1 t)) := by
  obtain ⟨n, hn⟩ := t
  cases n with
  | zero => exact rfl
  | succ n => exact (dif_pos h0).trans ((dif_neg h1).trans rfl)

theorem outsAt14_B (c : Dev nD) (t : Fin cfg14.N) (h0 : ¬t.val % 79 = 0) (h1 : ¬t.val % 79 = 78) :
    outsAt14 V c t.val t.isLt = (idle14_2, sout14_B_0 c (grid14.coords t) (ms14_0 t) (hs14_0 t) (ms14_1 t) (hs14_1 t) (ms14_2 t) (hs14_2 t) scM14_0 (Memref.isWhole_whole _) (fun h => h0 ((hcond14_0 t).mp h)) (fun h => h1 ((hcond14_1 t).mp h)) (iblk14 V c 0 t) (iblk14 V c 1 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt14_C (c : Dev nD) (t : Fin cfg14.N) (h0 : ¬t.val % 79 = 0) (h1 : t.val % 79 = 78) :
    outsAt14 V c t.val t.isLt = (out14_C_2 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2,
      sout14_C_0 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut14 (c : Dev nD) : sProp 𝕄 :=
  Pipeline.scopedRestBut (Ix := Unit) (Name := ℕ) (U := Pipeline.UD sig nD τ) (Lvl := ℕ) (Val := Elt F) spec14 c [cc14_scratch0]

/-- Before position `n`: at the region's entry the class invariant (the accumulator at anything); afterwards the
    accumulator at what position `n - 1` left, the other scoped buffers unopened, the generator register at some state. -/
def PhiS14 (c : Dev nD) : (n : ℕ) → n ≤ cfg14.N → sProp 𝕄
  | 0, _ => Pipeline.ΦA spec14 c
  | n + 1, hn => iprop(iprop(owns (c : Thread nD τ) scM14_0 fullShare ((outsAt14 V c n hn).2) ∗ restBut14 (F := F) c) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(owns (c : Thread nD τ) scM14_0 fullShare ((outsAt14 V c n hn).2) ∗ restBut14 (F := F) c) ∗ (∃ r, prngReg c r)) := rfl
theorem PhiS14_pos (c : Dev nD) (n : ℕ) (h : n ≤ cfg14.N) (hz : n ≠ 0) :
    PhiS14 V c n h = iprop(iprop(owns (c : Thread nD τ) scM14_0 fullShare ((outsAt14 V c (n - 1) (by omega)).2) ∗ restBut14 (F := F) c) ∗ (∃ r, prngReg c r)) := by
  cases n with
  | zero => exact absurd rfl hz
  | succ n => rfl

/-! ## The pipeline's proof data -/

/-- The arrays as the region finds them; after the body each input's buffer at its block, the output's at `outsAt14`'s
    first component; the invariant `PhiS14`; nothing owed; full shares. -/
def dat14 (c : Dev nD) : Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => (outsAt14 V c t.val t.isLt).1
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = (outsAt14 V c t.val t.isLt).1 := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body obligation -/

def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body14 (c : Dev nD) (t : Fin cfg14.N) :
    bodyPre14 V c t ⊢ wp frame (wpE (defs₀ (F := F)) Variants.none c none) Set.univ (bodyAtH14 t) (fun _ => bodyPost14 V c t) := by
  unfold bodyPre14 bodyPost14 bodyAtH14
  simp only [before14_0, before14_1]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (ms14_0 t) fullShare ((dat14 V c).after 0 t) from by
    unfold Dat.leavesExact; rw [liveAt14_0 t], after14_0]
  rw [show (dat14 V c).leavesExact 1 t = owns (c : Thread nD τ) (ms14_1 t) fullShare ((dat14 V c).after 1 t) from by
    unfold Dat.leavesExact; rw [liveAt14_1 t], after14_1]
  by_cases h1 : t.val % 79 = 78
  · have h0 : ¬t.val % 79 = 0 := by omega
    have hz : t.val ≠ 0 := by omega
    rw [show (dat14 V c).leavesExact 2 t = owns (c : Thread nD τ) (ms14_2 t) fullShare ((dat14 V c).after 2 t) from by
      unfold Dat.leavesExact; rw [liveAt14_2 t ((hcond14_1 t).mpr h1)], after14_2]
    rw [outsAt14_C V c t h0 h1]
    unfold out14_C_2 sout14_C_0; (try dsimp only)
    rw [PhiS14_castSucc V c t, PhiS14_pos V c _ _ hz]
    iintro ⟨⟨⟨HS0, HR⟩, Hg⟩, Ho, ⟨%d0, H0⟩, ⟨%d1, H1⟩, ⟨%d2, H2⟩⟩
    iapply ((kernelRun14_C c (grid14.coords t) _ _ _ _ _ _ _ _ (fun h => h0 ((hcond14_0 t).mp h)) ((hcond14_1 t).mpr h1) (iblk14 V c 0 t) (iblk14 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover14_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover14_C_2 c _ _ _ _ _ _ _ _ _ _ _ _ _ _)
  · rw [Dat.leavesExact_idle (dat14 V c) 2 t (idleAt14_2 t (fun h => h1 ((hcond14_1 t).mp h))) (noFlush14_2 t (fun h => h1 ((hcond14_1 t).mp h)))]
    by_cases h0 : t.val % 79 = 0
    · rw [outsAt14_A V c t h0 h1]
      unfold sout14_A_0; (try dsimp only)
      by_cases hz : t.val = 0
      · rw [PhiS14_castSucc V c t, PhiS14_zero V c _ _ hz, PhiA14_eq]
        iintro ⟨⟨⟨HS0, HR⟩, Hg⟩, Ho, ⟨%d0, H0⟩, ⟨%d1, H1⟩, ⟨%d2, H2⟩⟩
        iapply ((kernelRun14_A c (grid14.coords t) _ _ _ _ _ _ _ _ ((hcond14_0 t).mpr h0) (fun h => h1 ((hcond14_1 t).mp h)) (iblk14 V c 0 t) (iblk14 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _)
            iexact HR
          iexact Hg
        isplitl [Ho]; · iexact Ho
        isplitl [H0]; · iexact H0
        isplitl [H1]; · iexact H1
        iexists _; iexact H2
      · rw [PhiS14_castSucc V c t, PhiS14_pos V c _ _ hz]
        iintro ⟨⟨⟨HS0, HR⟩, Hg⟩, Ho, ⟨%d0, H0⟩, ⟨%d1, H1⟩, ⟨%d2, H2⟩⟩
        iapply ((kernelRun14_A c (grid14.coords t) _ _ _ _ _ _ _ _ ((hcond14_0 t).mpr h0) (fun h => h1 ((hcond14_1 t).mp h)) (iblk14 V c 0 t) (iblk14 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt14_B V c t h0 h1]
      unfold sout14_B_0; (try dsimp only)
      rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_B c (grid14.coords t) _ _ _ _ _ _ _ _ (fun h => h0 ((hcond14_0 t).mp h)) (fun h => h1 ((hcond14_1 t).mp h)) (iblk14 V c 0 t) (iblk14 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the launch hands the region is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After the last point the invariant gives the class invariant back: the accumulator's contents are forgotten. -/
theorem hout14 (c : Dev nD) : (dat14 V c).Φ (Fin.last cfg14.N) ⊢ Pipeline.ΦA spec14 c := by
  have hN : cfg14.N = 1580 := N_14
  rw [show (dat14 V c).Φ (Fin.last cfg14.N) = PhiS14 V c (Fin.last cfg14.N).val (Nat.le_of_lt_succ (Fin.last cfg14.N).isLt) from rfl,
    PhiS14_pos V c _ _ (by rw [Fin.val_last]; omega), PhiA14_eq]
  iintro ⟨⟨HS0, HR⟩, Hg⟩
  isplitl [HS0 HR]
  · isplitl [HS0]
    · iexists _; iexact HS0
    iexact HR
  iexact Hg

end

end Cert.Kernel.H

end
-- ==== Proof.K.Vals.lean ====
/-
  The contents of the TensorCore's buffers at every boundary of @main, from the launch memory: a kernel region changes
  exactly its output array (to what its pipeline's write-backs leave), a stretch of host operations what its
  operations write.  Then every pipeline's proof data at its region's entry contents, and the contents each region
  leaves as one function of the boundary's number.
-/
import proofs.«407232_j23192823399226_1_alg».proof.Proof.K.RegionsP
import proofs.«407232_j23192823399226_1_alg».proof.Proof.K.L0
import proofs.«407232_j23192823399226_1_alg».proof.Proof.K.G1
import proofs.«407232_j23192823399226_1_alg».proof.Proof.K.S2
import proofs.«407232_j23192823399226_1_alg».proof.Proof.K.L3
import proofs.«407232_j23192823399226_1_alg».proof.Proof.K.L4
import proofs.«407232_j23192823399226_1_alg».proof.Proof.K.L5
import proofs.«407232_j23192823399226_1_alg».proof.Proof.K.L6
import proofs.«407232_j23192823399226_1_alg».proof.Proof.K.G7
import proofs.«407232_j23192823399226_1_alg».proof.Proof.K.S8
import proofs.«407232_j23192823399226_1_alg».proof.Proof.K.G9
import proofs.«407232_j23192823399226_1_alg».proof.Proof.K.S10
import proofs.«407232_j23192823399226_1_alg».proof.Proof.K.G11
import proofs.«407232_j23192823399226_1_alg».proof.Proof.K.S12
import proofs.«407232_j23192823399226_1_alg».proof.Proof.K.G13
import proofs.«407232_j23192823399226_1_alg».proof.Proof.K.S14

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- No core owes another anything: no level is assigned. -/
abbrev Lv : GSem nD τ sig → Finset Unit := fun _ => ∅
abbrev lvv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- A valuation read at the TensorCore's references: what a region's proof data take. -/
abbrev Vt (W : Dev nD → Valuation τ sig (Elt F)) : (c : Dev nD) → (b : Ref sig .tc) → Buf (Elt F) ((c : Thread nD τ).loc b) :=
  fun c b => W c b

/-- The buffers at launch: region 0's entry. -/
def E0 (c : Dev nD) : Valuation τ sig (Elt F) := fun b => m (c, b)
/-- After region 0: its output array `main_v0` at what the pipeline's write-backs leave, every other buffer as entered. -/
def X0 (c : Dev nD) : Valuation τ sig (Elt F) :=
  Function.update (E0 m c) main_v0 ((dat0 (Vt (E0 m)) c).arrAt 3 cfg0.N)
/-- Region 1's entry: after the host operations since region 0. -/
def E1 (c : Dev nD) : Valuation τ sig (Elt F) :=
  StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (X0 m c))))))))
/-- After region 1: its output array `main_v5` at what the pipeline's write-backs leave, every other buffer as entered. -/
def X1 (c : Dev nD) : Valuation τ sig (Elt F) :=
  Function.update (E1 m c) main_v5 ((dat1 (Vt (E1 m)) c).arrAt 3 cfg1.N)
/-- After region 2: its output array `main_v6` at what the pipeline's write-backs leave, every other buffer as entered. -/
def X2 (c : Dev nD) : Valuation τ sig (Elt F) :=
  Function.update (X1 m c) main_v6 ((dat2 (Vt (X1 m)) c).arrAt 2 cfg2.N)
/-- Region 3's entry: after the host operations since region 2. -/
def E3 (c : Dev nD) : Valuation τ sig (Elt F) :=
  StableHlo.after hostOps3 (X2 m c)
/-- After region 3: its output array `main_v17` at what the pipeline's write-backs leave, every other buffer as entered. -/
def X3 (c : Dev nD) : Valuation τ sig (Elt F) :=
  Function.update (E3 m c) main_v17 ((dat3 (Vt (E3 m)) c).arrAt 3 cfg3.N)
/-- After region 4: its output array `main_v18` at what the pipeline's write-backs leave, every other buffer as entered. -/
def X4 (c : Dev nD) : Valuation τ sig (Elt F) :=
  Function.update (X3 m c) main_v18 ((dat4 (Vt (X3 m)) c).arrAt 3 cfg4.N)
/-- After region 5: its output array `main_v19` at what the pipeline's write-backs leave, every other buffer as entered. -/
def X5 (c : Dev nD) : Valuation τ sig (Elt F) :=
  Function.update (X4 m c) main_v19 ((dat5 (Vt (X4 m)) c).arrAt 3 cfg5.N)
/-- After region 6: its output array `main_v20` at what the pipeline's write-backs leave, every other buffer as entered. -/
def X6 (c : Dev nD) : Valuation τ sig (Elt F) :=
  Function.update (X5 m c) main_v20 ((dat6 (Vt (X5 m)) c).arrAt 3 cfg6.N)
/-- Region 7's entry: after the host operations since region 6. -/
def E7 (c : Dev nD) : Valuation τ sig (Elt F) :=
  StableHlo.after hostOps7_9 (StableHlo.after hostOps7_8 (StableHlo.after hostOps7_7 (StableHlo.after hostOps7_6 (StableHlo.after hostOps7_5 (StableHlo.after hostOps7_4 (StableHlo.after hostOps7_3 (StableHlo.after hostOps7_2 (StableHlo.after hostOps7_1 (StableHlo.after hostOps7 (X6 m c))))))))))
/-- After region 7: its output array `main_v26` at what the pipeline's write-backs leave, every other buffer as entered. -/
def X7 (c : Dev nD) : Valuation τ sig (Elt F) :=
  Function.update (E7 m c) main_v26 ((dat7 (Vt (E7 m)) c).arrAt 3 cfg7.N)
/-- After region 8: its output array `main_v27` at what the pipeline's write-backs leave, every other buffer as entered. -/
def X8 (c : Dev nD) : Valuation τ sig (Elt F) :=
  Function.update (X7 m c) main_v27 ((dat8 (Vt (X7 m)) c).arrAt 2 cfg8.N)
/-- Region 9's entry: after the host operations since region 8. -/
def E9 (c : Dev nD) : Valuation τ sig (Elt F) :=
  StableHlo.after hostOps9_5 (StableHlo.after hostOps9_4 (StableHlo.after hostOps9_3 (StableHlo.after hostOps9_2 (StableHlo.after hostOps9_1 (StableHlo.after hostOps9 (X8 m c))))))
/-- After region 9: its output array `main_v41` at what the pipeline's write-backs leave, every other buffer as entered. -/
def X9 (c : Dev nD) : Valuation τ sig (Elt F) :=
  Function.update (E9 m c) main_v41 ((dat9 (Vt (E9 m)) c).arrAt 3 cfg9.N)
/-- After region 10: its output array `main_v42` at what the pipeline's write-backs leave, every other buffer as entered. -/
def X10 (c : Dev nD) : Valuation τ sig (Elt F) :=
  Function.update (X9 m c) main_v42 ((dat10 (Vt (X9 m)) c).arrAt 2 cfg10.N)
/-- Region 11's entry: after the host operations since region 10. -/
def E11 (c : Dev nD) : Valuation τ sig (Elt F) :=
  StableHlo.after hostOps11_5 (StableHlo.after hostOps11_4 (StableHlo.after hostOps11_3 (StableHlo.after hostOps11_2 (StableHlo.after hostOps11_1 (StableHlo.after hostOps11 (X10 m c))))))
/-- After region 11: its output array `main_v57` at what the pipeline's write-backs leave, every other buffer as entered. -/
def X11 (c : Dev nD) : Valuation τ sig (Elt F) :=
  Function.update (E11 m c) main_v57 ((dat11 (Vt (E11 m)) c).arrAt 3 cfg11.N)
/-- After region 12: its output array `main_v58` at what the pipeline's write-backs leave, every other buffer as entered. -/
def X12 (c : Dev nD) : Valuation τ sig (Elt F) :=
  Function.update (X11 m c) main_v58 ((dat12 (Vt (X11 m)) c).arrAt 2 cfg12.N)
/-- Region 13's entry: after the host operations since region 12. -/
def E13 (c : Dev nD) : Valuation τ sig (Elt F) :=
  StableHlo.after hostOps13_5 (StableHlo.after hostOps13_4 (StableHlo.after hostOps13_3 (StableHlo.after hostOps13_2 (StableHlo.after hostOps13_1 (StableHlo.after hostOps13 (X12 m c))))))
/-- After region 13: its output array `main_v72` at what the pipeline's write-backs leave, every other buffer as entered. -/
def X13 (c : Dev nD) : Valuation τ sig (Elt F) :=
  Function.update (E13 m c) main_v72 ((dat13 (Vt (E13 m)) c).arrAt 3 cfg13.N)
/-- After region 14: its output array `main_v73` at what the pipeline's write-backs leave, every other buffer as entered. -/
def X14 (c : Dev nD) : Valuation τ sig (Elt F) :=
  Function.update (X13 m c) main_v73 ((dat14 (Vt (X13 m)) c).arrAt 2 cfg14.N)
/-- After the last host operations: the end of @main. -/
def E15 (c : Dev nD) : Valuation τ sig (Elt F) := StableHlo.after hostOps15 (X14 m c)

/-- What each region leaves, by the boundary's number (the unknowns of the conditional frame, instantiated). -/
def outs : Outs (F := F) := fun J r c =>
  match J with
  | 1 => X0 m c r
  | 10 => X1 m c r
  | 11 => X2 m c r
  | 13 => X3 m c r
  | 14 => X4 m c r
  | 15 => X5 m c r
  | 16 => X6 m c r
  | 27 => X7 m c r
  | 28 => X8 m c r
  | 35 => X9 m c r
  | 36 => X10 m c r
  | 43 => X11 m c r
  | 44 => X12 m c r
  | 51 => X13 m c r
  | 52 => X14 m c r
  | _ => m (c, r)

/-- Every pipeline's proof data, each at its region's entry contents. -/
def pdats : (p : Fin 15) → (c : Dev nD) → Dat τ (Elt F) Unit ℕ (Pipeline.UD sig nD τ) ℕ (cfgs p) c
  | ⟨0, _⟩ => fun c => dat0 (Vt (E0 m)) c
  | ⟨1, _⟩ => fun c => dat1 (Vt (E1 m)) c
  | ⟨2, _⟩ => fun c => dat2 (Vt (X1 m)) c
  | ⟨3, _⟩ => fun c => dat3 (Vt (E3 m)) c
  | ⟨4, _⟩ => fun c => dat4 (Vt (X3 m)) c
  | ⟨5, _⟩ => fun c => dat5 (Vt (X4 m)) c
  | ⟨6, _⟩ => fun c => dat6 (Vt (X5 m)) c
  | ⟨7, _⟩ => fun c => dat7 (Vt (E7 m)) c
  | ⟨8, _⟩ => fun c => dat8 (Vt (X7 m)) c
  | ⟨9, _⟩ => fun c => dat9 (Vt (E9 m)) c
  | ⟨10, _⟩ => fun c => dat10 (Vt (X9 m)) c
  | ⟨11, _⟩ => fun c => dat11 (Vt (E11 m)) c
  | ⟨12, _⟩ => fun c => dat12 (Vt (X11 m)) c
  | ⟨13, _⟩ => fun c => dat13 (Vt (E13 m)) c
  | ⟨14, _⟩ => fun c => dat14 (Vt (X13 m)) c

/-! ## The conditional frame's valuations are these -/
theorem VE0 (c : Dev nD) : V0 m c = E0 m c := rfl
theorem VX0 (c : Dev nD) : V1 m (outs m) c = X0 m c := by
  show Function.update (V0 m c) main_v0 (X0 m c main_v0) = X0 m c
  rw [VE0 m c]
  unfold X0
  rw [Function.update_self]
theorem VE1 (c : Dev nD) : V9 m (outs m) c = E1 m c :=
  congrArg (fun v => StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v))))))))) (VX0 m c)
theorem VX1 (c : Dev nD) : V10 m (outs m) c = X1 m c := by
  show Function.update (V9 m (outs m) c) main_v5 (X1 m c main_v5) = X1 m c
  rw [VE1 m c]
  unfold X1
  rw [Function.update_self]
theorem VE2 (c : Dev nD) : V10 m (outs m) c = X1 m c := VX1 m c
theorem VX2 (c : Dev nD) : V11 m (outs m) c = X2 m c := by
  show Function.update (V10 m (outs m) c) main_v6 (X2 m c main_v6) = X2 m c
  rw [VE2 m c]
  unfold X2
  rw [Function.update_self]
theorem VE3 (c : Dev nD) : V12 m (outs m) c = E3 m c :=
  congrArg (fun v => StableHlo.after hostOps3 (v)) (VX2 m c)
theorem VX3 (c : Dev nD) : V13 m (outs m) c = X3 m c := by
  show Function.update (V12 m (outs m) c) main_v17 (X3 m c main_v17) = X3 m c
  rw [VE3 m c]
  unfold X3
  rw [Function.update_self]
theorem VE4 (c : Dev nD) : V13 m (outs m) c = X3 m c := VX3 m c
theorem VX4 (c : Dev nD) : V14 m (outs m) c = X4 m c := by
  show Function.update (V13 m (outs m) c) main_v18 (X4 m c main_v18) = X4 m c
  rw [VE4 m c]
  unfold X4
  rw [Function.update_self]
theorem VE5 (c : Dev nD) : V14 m (outs m) c = X4 m c := VX4 m c
theorem VX5 (c : Dev nD) : V15 m (outs m) c = X5 m c := by
  show Function.update (V14 m (outs m) c) main_v19 (X5 m c main_v19) = X5 m c
  rw [VE5 m c]
  unfold X5
  rw [Function.update_self]
theorem VE6 (c : Dev nD) : V15 m (outs m) c = X5 m c := VX5 m c
theorem VX6 (c : Dev nD) : V16 m (outs m) c = X6 m c := by
  show Function.update (V15 m (outs m) c) main_v20 (X6 m c main_v20) = X6 m c
  rw [VE6 m c]
  unfold X6
  rw [Function.update_self]
theorem VE7 (c : Dev nD) : V26 m (outs m) c = E7 m c :=
  congrArg (fun v => StableHlo.after hostOps7_9 (StableHlo.after hostOps7_8 (StableHlo.after hostOps7_7 (StableHlo.after hostOps7_6 (StableHlo.after hostOps7_5 (StableHlo.after hostOps7_4 (StableHlo.after hostOps7_3 (StableHlo.after hostOps7_2 (StableHlo.after hostOps7_1 (StableHlo.after hostOps7 (v))))))))))) (VX6 m c)
theorem VX7 (c : Dev nD) : V27 m (outs m) c = X7 m c := by
  show Function.update (V26 m (outs m) c) main_v26 (X7 m c main_v26) = X7 m c
  rw [VE7 m c]
  unfold X7
  rw [Function.update_self]
theorem VE8 (c : Dev nD) : V27 m (outs m) c = X7 m c := VX7 m c
theorem VX8 (c : Dev nD) : V28 m (outs m) c = X8 m c := by
  show Function.update (V27 m (outs m) c) main_v27 (X8 m c main_v27) = X8 m c
  rw [VE8 m c]
  unfold X8
  rw [Function.update_self]
theorem VE9 (c : Dev nD) : V34 m (outs m) c = E9 m c :=
  congrArg (fun v => StableHlo.after hostOps9_5 (StableHlo.after hostOps9_4 (StableHlo.after hostOps9_3 (StableHlo.after hostOps9_2 (StableHlo.after hostOps9_1 (StableHlo.after hostOps9 (v))))))) (VX8 m c)
theorem VX9 (c : Dev nD) : V35 m (outs m) c = X9 m c := by
  show Function.update (V34 m (outs m) c) main_v41 (X9 m c main_v41) = X9 m c
  rw [VE9 m c]
  unfold X9
  rw [Function.update_self]
theorem VE10 (c : Dev nD) : V35 m (outs m) c = X9 m c := VX9 m c
theorem VX10 (c : Dev nD) : V36 m (outs m) c = X10 m c := by
  show Function.update (V35 m (outs m) c) main_v42 (X10 m c main_v42) = X10 m c
  rw [VE10 m c]
  unfold X10
  rw [Function.update_self]
theorem VE11 (c : Dev nD) : V42 m (outs m) c = E11 m c :=
  congrArg (fun v => StableHlo.after hostOps11_5 (StableHlo.after hostOps11_4 (StableHlo.after hostOps11_3 (StableHlo.after hostOps11_2 (StableHlo.after hostOps11_1 (StableHlo.after hostOps11 (v))))))) (VX10 m c)
theorem VX11 (c : Dev nD) : V43 m (outs m) c = X11 m c := by
  show Function.update (V42 m (outs m) c) main_v57 (X11 m c main_v57) = X11 m c
  rw [VE11 m c]
  unfold X11
  rw [Function.update_self]
theorem VE12 (c : Dev nD) : V43 m (outs m) c = X11 m c := VX11 m c
theorem VX12 (c : Dev nD) : V44 m (outs m) c = X12 m c := by
  show Function.update (V43 m (outs m) c) main_v58 (X12 m c main_v58) = X12 m c
  rw [VE12 m c]
  unfold X12
  rw [Function.update_self]
theorem VE13 (c : Dev nD) : V50 m (outs m) c = E13 m c :=
  congrArg (fun v => StableHlo.after hostOps13_5 (StableHlo.after hostOps13_4 (StableHlo.after hostOps13_3 (StableHlo.after hostOps13_2 (StableHlo.after hostOps13_1 (StableHlo.after hostOps13 (v))))))) (VX12 m c)
theorem VX13 (c : Dev nD) : V51 m (outs m) c = X13 m c := by
  show Function.update (V50 m (outs m) c) main_v72 (X13 m c main_v72) = X13 m c
  rw [VE13 m c]
  unfold X13
  rw [Function.update_self]
theorem VE14 (c : Dev nD) : V51 m (outs m) c = X13 m c := VX13 m c
theorem VX14 (c : Dev nD) : V52 m (outs m) c = X14 m c := by
  show Function.update (V51 m (outs m) c) main_v73 (X14 m c main_v73) = X14 m c
  rw [VE14 m c]
  unfold X14
  rw [Function.update_self]
theorem VE15 (c : Dev nD) : V53 m (outs m) c = E15 m c :=
  congrArg (fun v => StableHlo.after hostOps15 (v)) (VX14 m c)

end Cert.Kernel.H

end
-- ==== Proof.K.Reg0.lean ====
/-
  Region 0 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF0 (c : Dev nD) (w : Fin cfg0.W) :
    (dat0 (Vt (E0 m)) c).arrAt w cfg0.N = Vt (X0 m) c (Pipeline.arrRef spec0 w) := by
  match w with
  | ⟨0, _⟩ => exact ((dat0 (Vt (E0 m)) c).arrAt_in 0 rfl _).trans ((A_eq0 (Vt (E0 m)) c 0).trans (Function.update_of_ne (StableHlo.devRef_ne_of_ne (by decide)) _ _).symm)
  | ⟨1, _⟩ => exact ((dat0 (Vt (E0 m)) c).arrAt_in 1 rfl _).trans ((A_eq0 (Vt (E0 m)) c 1).trans (Function.update_of_ne (StableHlo.devRef_ne_of_ne (by decide)) _ _).symm)
  | ⟨2, _⟩ => exact ((dat0 (Vt (E0 m)) c).arrAt_in 2 rfl _).trans ((A_eq0 (Vt (E0 m)) c 2).trans (Function.update_of_ne (StableHlo.devRef_ne_of_ne (by decide)) _ _).symm)
  | ⟨3, _⟩ =>
    show _ = X0 m c main_v0
    unfold X0
    rw [Function.update_self]
    rfl

/-- Every other buffer holds what it held at entry. -/
theorem hrest0 (c : Dev nD) : ∀ b : Ref sig .tc, b ∉ (Finset.univ.image (Pipeline.arrRef spec0) : Finset (Ref sig .tc)) → Vt (X0 m) c b = Vt (E0 m) c b :=
  fun b hb => by
    unfold X0
    exact Function.update_of_ne (StableHlo.devRef_ne_of_ne fun e => hb (Finset.mem_image.mpr ⟨(3 : Fin cfg0.W), Finset.mem_univ _, by rw [e]⟩)) _ _

set_option backward.isDefEq.respectTransparency.types false in
/-- The region's record for the run over segments. -/
def reg0 : Pipeline.RegionSeg (pcfgs (F := F)) adm (pdats m) () defs₀ Variants.none Lv lvv 0 where
  win := launch0.win.to₀
  block_pos := launch0.block_pos
  stage_whole := launch0.stage_whole
  K := PEmpty
  osem k := k.elim
  ho := Pipeline.OwnSemFacts.none _
  hbody c := (body_obligation0 (Vt (E0 m)) c).loose
  hwaits := Pipeline.hwaits_of_owed_zero _ _ _ _ Lv lvv 0 fun _ _ => rfl
  pre c := iprop(StableHlo.held (c : Thread nD τ) (Pipeline.ucRefs τ sig) (V0 m c) ∗ Rr c)
  post c := iprop(StableHlo.held (c : Thread nD τ) (Pipeline.ucRefs τ sig) (V1 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Vt (E0 m) c)
  hentry c := by
    rw [Pipeline.ownSems0_none, VE0 m c]
    have hsplit := Pipeline.arrays_of_unscopedBufs (p := 0) (pcfgs (F := F)) adm (pdats m) launch0.win launch0.arr_whole c
      ((pdats m 0 c).share_full fun _ => rfl) (Vt (E0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vt (E0 m) c) (Vt (X0 m) c) ((pdats m 0 c).arrAt · cfg0.N) (hF0 m c) (hrest0 m c)
    rw [Pipeline.unscopedBufs_held] at hjoin
    rw [VX0 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg1.lean ====
/-
  Region 1 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF1 (c : Dev nD) (w : Fin cfg1.W) :
    (dat1 (Vt (E1 m)) c).arrAt w cfg1.N = Vt (X1 m) c (Pipeline.arrRef spec1 w) := by
  match w with
  | ⟨0, _⟩ => exact ((dat1 (Vt (E1 m)) c).arrAt_in 0 rfl _).trans ((A_eq1 (Vt (E1 m)) c 0).trans (Function.update_of_ne (StableHlo.devRef_ne_of_ne (by decide)) _ _).symm)
  | ⟨1, _⟩ => exact ((dat1 (Vt (E1 m)) c).arrAt_in 1 rfl _).trans ((A_eq1 (Vt (E1 m)) c 1).trans (Function.update_of_ne (StableHlo.devRef_ne_of_ne (by decide)) _ _).symm)
  | ⟨2, _⟩ => exact ((dat1 (Vt (E1 m)) c).arrAt_in 2 rfl _).trans ((A_eq1 (Vt (E1 m)) c 2).trans (Function.update_of_ne (StableHlo.devRef_ne_of_ne (by decide)) _ _).symm)
  | ⟨3, _⟩ =>
    show _ = X1 m c main_v5
    unfold X1
    rw [Function.update_self]
    rfl

/-- Every other buffer holds what it held at entry. -/
theorem hrest1 (c : Dev nD) : ∀ b : Ref sig .tc, b ∉ (Finset.univ.image (Pipeline.arrRef spec1) : Finset (Ref sig .tc)) → Vt (X1 m) c b = Vt (E1 m) c b :=
  fun b hb => by
    unfold X1
    exact Function.update_of_ne (StableHlo.devRef_ne_of_ne fun e => hb (Finset.mem_image.mpr ⟨(3 : Fin cfg1.W), Finset.mem_univ _, by rw [e]⟩)) _ _

set_option backward.isDefEq.respectTransparency.types false in
/-- The region's record for the run over segments. -/
def reg1 : Pipeline.RegionSeg (pcfgs (F := F)) adm (pdats m) () defs₀ Variants.none Lv lvv 1 where
  win := launch1.win.to₀
  block_pos := launch1.block_pos
  stage_whole := launch1.stage_whole
  K := PEmpty
  osem k := k.elim
  ho := Pipeline.OwnSemFacts.none _
  hbody c := (body_obligation1 (Vt (E1 m)) c).loose
  hwaits := Pipeline.hwaits_of_owed_zero _ _ _ _ Lv lvv 1 fun _ _ => rfl
  pre c := iprop(StableHlo.held (c : Thread nD τ) (Pipeline.ucRefs τ sig) (V9 m (outs m) c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (Vt (E1 m) c)
  hentry c := by
    rw [Pipeline.ownSems0_none, VE1 m c]
    have hsplit := Pipeline.arrays_of_unscopedBufs (p := 1) (pcfgs (F := F)) adm (pdats m) launch1.win launch1.arr_whole c
      ((pdats m 1 c).share_full fun _ => rfl) (Vt (E1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vt (E1 m)) c)
    unfold Pipeline.ΦA
    iintro ⟨Hp, -, Hr⟩
    isplitl [Hr]; · iexact Hr
    iexact Hp
  hout c := by
    rw [Pipeline.ownSems0_none]
    refine BIBase.Entails.trans (hout1 (Vt (E1 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vt (E1 m) c) (Vt (X1 m) c) ((pdats m 1 c).arrAt · cfg1.N) (hF1 m c) (hrest1 m c)
    rw [Pipeline.unscopedBufs_held] at hjoin
    rw [VX1 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg2.lean ====
/-
  Region 2 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF2 (c : Dev nD) (w : Fin cfg2.W) :
    (dat2 (Vt (X1 m)) c).arrAt w cfg2.N = Vt (X2 m) c (Pipeline.arrRef spec2 w) := by
  match w with
  | ⟨0, _⟩ => exact ((dat2 (Vt (X1 m)) c).arrAt_in 0 rfl _).trans ((A_eq2 (Vt (X1 m)) c 0).trans (Function.update_of_ne (StableHlo.devRef_ne_of_ne (by decide)) _ _).symm)
  | ⟨1, _⟩ => exact ((dat2 (Vt (X1 m)) c).arrAt_in 1 rfl _).trans ((A_eq2 (Vt (X1 m)) c 1).trans (Function.update_of_ne (StableHlo.devRef_ne_of_ne (by decide)) _ _).symm)
  | ⟨2, _⟩ =>
    show _ = X2 m c main_v6
    unfold X2
    rw [Function.update_self]
    rfl

/-- Every other buffer holds what it held at entry. -/
theorem hrest2 (c : Dev nD) : ∀ b : Ref sig .tc, b ∉ (Finset.univ.image (Pipeline.arrRef spec2) : Finset (Ref sig .tc)) → Vt (X2 m) c b = Vt (X1 m) c b :=
  fun b hb => by
    unfold X2
    exact Function.update_of_ne (StableHlo.devRef_ne_of_ne fun e => hb (Finset.mem_image.mpr ⟨(2 : Fin cfg2.W), Finset.mem_univ _, by rw [e]⟩)) _ _

set_option backward.isDefEq.respectTransparency.types false in
/-- The region's record for the run over segments. -/
def reg2 : Pipeline.RegionSeg (pcfgs (F := F)) adm (pdats m) () defs₀ Variants.none Lv lvv 2 where
  win := launch2.win.to₀
  block_pos := launch2.block_pos
  stage_whole := launch2.stage_whole
  K := PEmpty
  osem k := k.elim
  ho := Pipeline.OwnSemFacts.none _
  hbody c := (body_obligation2 (Vt (X1 m)) c).loose
  hwaits := Pipeline.hwaits_of_owed_zero _ _ _ _ Lv lvv 2 fun _ _ => rfl
  pre c := iprop(StableHlo.held (c : Thread nD τ) (Pipeline.ucRefs τ sig) (V10 m (outs m) c) ∗ Rr c)
  post c := iprop(StableHlo.held (c : Thread nD τ) (Pipeline.ucRefs τ sig) (V11 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (Vt (X1 m) c)
  hentry c := by
    rw [Pipeline.ownSems0_none, VE2 m c]
    have hsplit := Pipeline.arrays_of_unscopedBufs (p := 2) (pcfgs (F := F)) adm (pdats m) launch2.win launch2.arr_whole c
      ((pdats m 2 c).share_full fun _ => rfl) (Vt (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vt (X1 m)) c)
    unfold Pipeline.ΦA
    iintro ⟨Hp, -, Hr⟩
    isplitl [Hr]; · iexact Hr
    iexact Hp
  hout c := by
    rw [Pipeline.ownSems0_none]
    refine BIBase.Entails.trans (hout2 (Vt (X1 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Vt (X1 m) c) (Vt (X2 m) c) ((pdats m 2 c).arrAt · cfg2.N) (hF2 m c) (hrest2 m c)
    rw [Pipeline.unscopedBufs_held] at hjoin
    rw [VX2 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg3.lean ====
/-
  Region 3 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF3 (c : Dev nD) (w : Fin cfg3.W) :
    (dat3 (Vt (E3 m)) c).arrAt w cfg3.N = Vt (X3 m) c (Pipeline.arrRef spec3 w) := by
  match w with
  | ⟨0, _⟩ => exact ((dat3 (Vt (E3 m)) c).arrAt_in 0 rfl _).trans ((A_eq3 (Vt (E3 m)) c 0).trans (Function.update_of_ne (StableHlo.devRef_ne_of_ne (by decide)) _ _).symm)
  | ⟨1, _⟩ => exact ((dat3 (Vt (E3 m)) c).arrAt_in 1 rfl _).trans ((A_eq3 (Vt (E3 m)) c 1).trans (Function.update_of_ne (StableHlo.devRef_ne_of_ne (by decide)) _ _).symm)
  | ⟨2, _⟩ => exact ((dat3 (Vt (E3 m)) c).arrAt_in 2 rfl _).trans ((A_eq3 (Vt (E3 m)) c 2).trans (Function.update_of_ne (StableHlo.devRef_ne_of_ne (by decide)) _ _).symm)
  | ⟨3, _⟩ =>
    show _ = X3 m c main_v17
    unfold X3
    rw [Function.update_self]
    rfl

/-- Every other buffer holds what it held at entry. -/
theorem hrest3 (c : Dev nD) : ∀ b : Ref sig .tc, b ∉ (Finset.univ.image (Pipeline.arrRef spec3) : Finset (Ref sig .tc)) → Vt (X3 m) c b = Vt (E3 m) c b :=
  fun b hb => by
    unfold X3
    exact Function.update_of_ne (StableHlo.devRef_ne_of_ne fun e => hb (Finset.mem_image.mpr ⟨(3 : Fin cfg3.W), Finset.mem_univ _, by rw [e]⟩)) _ _

set_option backward.isDefEq.respectTransparency.types false in
/-- The region's record for the run over segments. -/
def reg3 : Pipeline.RegionSeg (pcfgs (F := F)) adm (pdats m) () defs₀ Variants.none Lv lvv 3 where
  win := launch3.win.to₀
  block_pos := launch3.block_pos
  stage_whole := launch3.stage_whole
  K := PEmpty
  osem k := k.elim
  ho := Pipeline.OwnSemFacts.none _
  hbody c := (body_obligation3 (Vt (E3 m)) c).loose
  hwaits := Pipeline.hwaits_of_owed_zero _ _ _ _ Lv lvv 3 fun _ _ => rfl
  pre c := iprop(StableHlo.held (c : Thread nD τ) (Pipeline.ucRefs τ sig) (V12 m (outs m) c) ∗ Rr c)
  post c := iprop(StableHlo.held (c : Thread nD τ) (Pipeline.ucRefs τ sig) (V13 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec3 c (Vt (E3 m) c)
  hentry c := by
    rw [Pipeline.ownSems0_none, VE3 m c]
    have hsplit := Pipeline.arrays_of_unscopedBufs (p := 3) (pcfgs (F := F)) adm (pdats m) launch3.win launch3.arr_whole c
      ((pdats m 3 c).share_full fun _ => rfl) (Vt (E3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Vt (E3 m) c) (Vt (X3 m) c) ((pdats m 3 c).arrAt · cfg3.N) (hF3 m c) (hrest3 m c)
    rw [Pipeline.unscopedBufs_held] at hjoin
    rw [VX3 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg4.lean ====
/-
  Region 4 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF4 (c : Dev nD) (w : Fin cfg4.W) :
    (dat4 (Vt (X3 m)) c).arrAt w cfg4.N = Vt (X4 m) c (Pipeline.arrRef spec4 w) := by
  match w with
  | ⟨0, _⟩ => exact ((dat4 (Vt (X3 m)) c).arrAt_in 0 rfl _).trans ((A_eq4 (Vt (X3 m)) c 0).trans (Function.update_of_ne (StableHlo.devRef_ne_of_ne (by decide)) _ _).symm)
  | ⟨1, _⟩ => exact ((dat4 (Vt (X3 m)) c).arrAt_in 1 rfl _).trans ((A_eq4 (Vt (X3 m)) c 1).trans (Function.update_of_ne (StableHlo.devRef_ne_of_ne (by decide)) _ _).symm)
  | ⟨2, _⟩ => exact ((dat4 (Vt (X3 m)) c).arrAt_in 2 rfl _).trans ((A_eq4 (Vt (X3 m)) c 2).trans (Function.update_of_ne (StableHlo.devRef_ne_of_ne (by decide)) _ _).symm)
  | ⟨3, _⟩ =>
    show _ = X4 m c main_v18
    unfold X4
    rw [Function.update_self]
    rfl

/-- Every other buffer holds what it held at entry. -/
theorem hrest4 (c : Dev nD) : ∀ b : Ref sig .tc, b ∉ (Finset.univ.image (Pipeline.arrRef spec4) : Finset (Ref sig .tc)) → Vt (X4 m) c b = Vt (X3 m) c b :=
  fun b hb => by
    unfold X4
    exact Function.update_of_ne (StableHlo.devRef_ne_of_ne fun e => hb (Finset.mem_image.mpr ⟨(3 : Fin cfg4.W), Finset.mem_univ _, by rw [e]⟩)) _ _

set_option backward.isDefEq.respectTransparency.types false in
/-- The region's record for the run over segments. -/
def reg4 : Pipeline.RegionSeg (pcfgs (F := F)) adm (pdats m) () defs₀ Variants.none Lv lvv 4 where
  win := launch4.win.to₀
  block_pos := launch4.block_pos
  stage_whole := launch4.stage_whole
  K := PEmpty
  osem k := k.elim
  ho := Pipeline.OwnSemFacts.none _
  hbody c := (body_obligation4 (Vt (X3 m)) c).loose
  hwaits := Pipeline.hwaits_of_owed_zero _ _ _ _ Lv lvv 4 fun _ _ => rfl
  pre c := iprop(StableHlo.held (c : Thread nD τ) (Pipeline.ucRefs τ sig) (V13 m (outs m) c) ∗ Rr c)
  post c := iprop(StableHlo.held (c : Thread nD τ) (Pipeline.ucRefs τ sig) (V14 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec4 c (Vt (X3 m) c)
  hentry c := by
    rw [Pipeline.ownSems0_none, VE4 m c]
    have hsplit := Pipeline.arrays_of_unscopedBufs (p := 4) (pcfgs (F := F)) adm (pdats m) launch4.win launch4.arr_whole c
      ((pdats m 4 c).share_full fun _ => rfl) (Vt (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Vt (X3 m) c) (Vt (X4 m) c) ((pdats m 4 c).arrAt · cfg4.N) (hF4 m c) (hrest4 m c)
    rw [Pipeline.unscopedBufs_held] at hjoin
    rw [VX4 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg5.lean ====
/-
  Region 5 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF5 (c : Dev nD) (w : Fin cfg5.W) :
    (dat5 (Vt (X4 m)) c).arrAt w cfg5.N = Vt (X5 m) c (Pipeline.arrRef spec5 w) := by
  match w with
  | ⟨0, _⟩ => exact ((dat5 (Vt (X4 m)) c).arrAt_in 0 rfl _).trans ((A_eq5 (Vt (X4 m)) c 0).trans (Function.update_of_ne (StableHlo.devRef_ne_of_ne (by decide)) _ _).symm)
  | ⟨1, _⟩ => exact ((dat5 (Vt (X4 m)) c).arrAt_in 1 rfl _).trans ((A_eq5 (Vt (X4 m)) c 1).trans (Function.update_of_ne (StableHlo.devRef_ne_of_ne (by decide)) _ _).symm)
  | ⟨2, _⟩ => exact ((dat5 (Vt (X4 m)) c).arrAt_in 2 rfl _).trans ((A_eq5 (Vt (X4 m)) c 2).trans (Function.update_of_ne (StableHlo.devRef_ne_of_ne (by decide)) _ _).symm)
  | ⟨3, _⟩ =>
    show _ = X5 m c main_v19
    unfold X5
    rw [Function.update_self]
    rfl

/-- Every other buffer holds what it held at entry. -/
theorem hrest5 (c : Dev nD) : ∀ b : Ref sig .tc, b ∉ (Finset.univ.image (Pipeline.arrRef spec5) : Finset (Ref sig .tc)) → Vt (X5 m) c b = Vt (X4 m) c b :=
  fun b hb => by
    unfold X5
    exact Function.update_of_ne (StableHlo.devRef_ne_of_ne fun e => hb (Finset.mem_image.mpr ⟨(3 : Fin cfg5.W), Finset.mem_univ _, by rw [e]⟩)) _ _

set_option backward.isDefEq.respectTransparency.types false in
/-- The region's record for the run over segments. -/
def reg5 : Pipeline.RegionSeg (pcfgs (F := F)) adm (pdats m) () defs₀ Variants.none Lv lvv 5 where
  win := launch5.win.to₀
  block_pos := launch5.block_pos
  stage_whole := launch5.stage_whole
  K := PEmpty
  osem k := k.elim
  ho := Pipeline.OwnSemFacts.none _
  hbody c := (body_obligation5 (Vt (X4 m)) c).loose
  hwaits := Pipeline.hwaits_of_owed_zero _ _ _ _ Lv lvv 5 fun _ _ => rfl
  pre c := iprop(StableHlo.held (c : Thread nD τ) (Pipeline.ucRefs τ sig) (V14 m (outs m) c) ∗ Rr c)
  post c := iprop(StableHlo.held (c : Thread nD τ) (Pipeline.ucRefs τ sig) (V15 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec5 c (Vt (X4 m) c)
  hentry c := by
    rw [Pipeline.ownSems0_none, VE5 m c]
    have hsplit := Pipeline.arrays_of_unscopedBufs (p := 5) (pcfgs (F := F)) adm (pdats m) launch5.win launch5.arr_whole c
      ((pdats m 5 c).share_full fun _ => rfl) (Vt (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (Vt (X4 m) c) (Vt (X5 m) c) ((pdats m 5 c).arrAt · cfg5.N) (hF5 m c) (hrest5 m c)
    rw [Pipeline.unscopedBufs_held] at hjoin
    rw [VX5 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg6.lean ====
/-
  Region 6 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF6 (c : Dev nD) (w : Fin cfg6.W) :
    (dat6 (Vt (X5 m)) c).arrAt w cfg6.N = Vt (X6 m) c (Pipeline.arrRef spec6 w) := by
  match w with
  | ⟨0, _⟩ => exact ((dat6 (Vt (X5 m)) c).arrAt_in 0 rfl _).trans ((A_eq6 (Vt (X5 m)) c 0).trans (Function.update_of_ne (StableHlo.devRef_ne_of_ne (by decide)) _ _).symm)
  | ⟨1, _⟩ => exact ((dat6 (Vt (X5 m)) c).arrAt_in 1 rfl _).trans ((A_eq6 (Vt (X5 m)) c 1).trans (Function.update_of_ne (StableHlo.devRef_ne_of_ne (by decide)) _ _).symm)
  | ⟨2, _⟩ => exact ((dat6 (Vt (X5 m)) c).arrAt_in 2 rfl _).trans ((A_eq6 (Vt (X5 m)) c 2).trans (Function.update_of_ne (StableHlo.devRef_ne_of_ne (by decide)) _ _).symm)
  | ⟨3, _⟩ =>
    show _ = X6 m c main_v20
    unfold X6
    rw [Function.update_self]
    rfl

/-- Every other buffer holds what it held at entry. -/
theorem hrest6 (c : Dev nD) : ∀ b : Ref sig .tc, b ∉ (Finset.univ.image (Pipeline.arrRef spec6) : Finset (Ref sig .tc)) → Vt (X6 m) c b = Vt (X5 m) c b :=
  fun b hb => by
    unfold X6
    exact Function.update_of_ne (StableHlo.devRef_ne_of_ne fun e => hb (Finset.mem_image.mpr ⟨(3 : Fin cfg6.W), Finset.mem_univ _, by rw [e]⟩)) _ _

set_option backward.isDefEq.respectTransparency.types false in
/-- The region's record for the run over segments. -/
def reg6 : Pipeline.RegionSeg (pcfgs (F := F)) adm (pdats m) () defs₀ Variants.none Lv lvv 6 where
  win := launch6.win.to₀
  block_pos := launch6.block_pos
  stage_whole := launch6.stage_whole
  K := PEmpty
  osem k := k.elim
  ho := Pipeline.OwnSemFacts.none _
  hbody c := (body_obligation6 (Vt (X5 m)) c).loose
  hwaits := Pipeline.hwaits_of_owed_zero _ _ _ _ Lv lvv 6 fun _ _ => rfl
  pre c := iprop(StableHlo.held (c : Thread nD τ) (Pipeline.ucRefs τ sig) (V15 m (outs m) c) ∗ Rr c)
  post c := iprop(StableHlo.held (c : Thread nD τ) (Pipeline.ucRefs τ sig) (V16 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec6 c (Vt (X5 m) c)
  hentry c := by
    rw [Pipeline.ownSems0_none, VE6 m c]
    have hsplit := Pipeline.arrays_of_unscopedBufs (p := 6) (pcfgs (F := F)) adm (pdats m) launch6.win launch6.arr_whole c
      ((pdats m 6 c).share_full fun _ => rfl) (Vt (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (Vt (X5 m) c) (Vt (X6 m) c) ((pdats m 6 c).arrAt · cfg6.N) (hF6 m c) (hrest6 m c)
    rw [Pipeline.unscopedBufs_held] at hjoin
    rw [VX6 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg7.lean ====
/-
  Region 7 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF7 (c : Dev nD) (w : Fin cfg7.W) :
    (dat7 (Vt (E7 m)) c).arrAt w cfg7.N = Vt (X7 m) c (Pipeline.arrRef spec7 w) := by
  match w with
  | ⟨0, _⟩ => exact ((dat7 (Vt (E7 m)) c).arrAt_in 0 rfl _).trans ((A_eq7 (Vt (E7 m)) c 0).trans (Function.update_of_ne (StableHlo.devRef_ne_of_ne (by decide)) _ _).symm)
  | ⟨1, _⟩ => exact ((dat7 (Vt (E7 m)) c).arrAt_in 1 rfl _).trans ((A_eq7 (Vt (E7 m)) c 1).trans (Function.update_of_ne (StableHlo.devRef_ne_of_ne (by decide)) _ _).symm)
  | ⟨2, _⟩ => exact ((dat7 (Vt (E7 m)) c).arrAt_in 2 rfl _).trans ((A_eq7 (Vt (E7 m)) c 2).trans (Function.update_of_ne (StableHlo.devRef_ne_of_ne (by decide)) _ _).symm)
  | ⟨3, _⟩ =>
    show _ = X7 m c main_v26
    unfold X7
    rw [Function.update_self]
    rfl

/-- Every other buffer holds what it held at entry. -/
theorem hrest7 (c : Dev nD) : ∀ b : Ref sig .tc, b ∉ (Finset.univ.image (Pipeline.arrRef spec7) : Finset (Ref sig .tc)) → Vt (X7 m) c b = Vt (E7 m) c b :=
  fun b hb => by
    unfold X7
    exact Function.update_of_ne (StableHlo.devRef_ne_of_ne fun e => hb (Finset.mem_image.mpr ⟨(3 : Fin cfg7.W), Finset.mem_univ _, by rw [e]⟩)) _ _

set_option backward.isDefEq.respectTransparency.types false in
/-- The region's record for the run over segments. -/
def reg7 : Pipeline.RegionSeg (pcfgs (F := F)) adm (pdats m) () defs₀ Variants.none Lv lvv 7 where
  win := launch7.win.to₀
  block_pos := launch7.block_pos
  stage_whole := launch7.stage_whole
  K := PEmpty
  osem k := k.elim
  ho := Pipeline.OwnSemFacts.none _
  hbody c := (body_obligation7 (Vt (E7 m)) c).loose
  hwaits := Pipeline.hwaits_of_owed_zero _ _ _ _ Lv lvv 7 fun _ _ => rfl
  pre c := iprop(StableHlo.held (c : Thread nD τ) (Pipeline.ucRefs τ sig) (V26 m (outs m) c) ∗ Rr c)
  post c := iprop(StableHlo.held (c : Thread nD τ) (Pipeline.ucRefs τ sig) (V27 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec7 c (Vt (E7 m) c)
  hentry c := by
    rw [Pipeline.ownSems0_none, VE7 m c]
    have hsplit := Pipeline.arrays_of_unscopedBufs (p := 7) (pcfgs (F := F)) adm (pdats m) launch7.win launch7.arr_whole c
      ((pdats m 7 c).share_full fun _ => rfl) (Vt (E7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (Vt (E7 m)) c)
    unfold Pipeline.ΦA
    iintro ⟨Hp, -, Hr⟩
    isplitl [Hr]; · iexact Hr
    iexact Hp
  hout c := by
    rw [Pipeline.ownSems0_none]
    refine BIBase.Entails.trans (hout7 (Vt (E7 m)) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (Vt (E7 m) c) (Vt (X7 m) c) ((pdats m 7 c).arrAt · cfg7.N) (hF7 m c) (hrest7 m c)
    rw [Pipeline.unscopedBufs_held] at hjoin
    rw [VX7 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg8.lean ====
/-
  Region 8 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF8 (c : Dev nD) (w : Fin cfg8.W) :
    (dat8 (Vt (X7 m)) c).arrAt w cfg8.N = Vt (X8 m) c (Pipeline.arrRef spec8 w) := by
  match w with
  | ⟨0, _⟩ => exact ((dat8 (Vt (X7 m)) c).arrAt_in 0 rfl _).trans ((A_eq8 (Vt (X7 m)) c 0).trans (Function.update_of_ne (StableHlo.devRef_ne_of_ne (by decide)) _ _).symm)
  | ⟨1, _⟩ => exact ((dat8 (Vt (X7 m)) c).arrAt_in 1 rfl _).trans ((A_eq8 (Vt (X7 m)) c 1).trans (Function.update_of_ne (StableHlo.devRef_ne_of_ne (by decide)) _ _).symm)
  | ⟨2, _⟩ =>
    show _ = X8 m c main_v27
    unfold X8
    rw [Function.update_self]
    rfl

/-- Every other buffer holds what it held at entry. -/
theorem hrest8 (c : Dev nD) : ∀ b : Ref sig .tc, b ∉ (Finset.univ.image (Pipeline.arrRef spec8) : Finset (Ref sig .tc)) → Vt (X8 m) c b = Vt (X7 m) c b :=
  fun b hb => by
    unfold X8
    exact Function.update_of_ne (StableHlo.devRef_ne_of_ne fun e => hb (Finset.mem_image.mpr ⟨(2 : Fin cfg8.W), Finset.mem_univ _, by rw [e]⟩)) _ _

set_option backward.isDefEq.respectTransparency.types false in
/-- The region's record for the run over segments. -/
def reg8 : Pipeline.RegionSeg (pcfgs (F := F)) adm (pdats m) () defs₀ Variants.none Lv lvv 8 where
  win := launch8.win.to₀
  block_pos := launch8.block_pos
  stage_whole := launch8.stage_whole
  K := PEmpty
  osem k := k.elim
  ho := Pipeline.OwnSemFacts.none _
  hbody c := (body_obligation8 (Vt (X7 m)) c).loose
  hwaits := Pipeline.hwaits_of_owed_zero _ _ _ _ Lv lvv 8 fun _ _ => rfl
  pre c := iprop(StableHlo.held (c : Thread nD τ) (Pipeline.ucRefs τ sig) (V27 m (outs m) c) ∗ Rr c)
  post c := iprop(StableHlo.held (c : Thread nD τ) (Pipeline.ucRefs τ sig) (V28 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec8 c (Vt (X7 m) c)
  hentry c := by
    rw [Pipeline.ownSems0_none, VE8 m c]
    have hsplit := Pipeline.arrays_of_unscopedBufs (p := 8) (pcfgs (F := F)) adm (pdats m) launch8.win launch8.arr_whole c
      ((pdats m 8 c).share_full fun _ => rfl) (Vt (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (Vt (X7 m)) c)
    unfold Pipeline.ΦA
    iintro ⟨Hp, -, Hr⟩
    isplitl [Hr]; · iexact Hr
    iexact Hp
  hout c := by
    rw [Pipeline.ownSems0_none]
    refine BIBase.Entails.trans (hout8 (Vt (X7 m)) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (Vt (X7 m) c) (Vt (X8 m) c) ((pdats m 8 c).arrAt · cfg8.N) (hF8 m c) (hrest8 m c)
    rw [Pipeline.unscopedBufs_held] at hjoin
    rw [VX8 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg9.lean ====
/-
  Region 9 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF9 (c : Dev nD) (w : Fin cfg9.W) :
    (dat9 (Vt (E9 m)) c).arrAt w cfg9.N = Vt (X9 m) c (Pipeline.arrRef spec9 w) := by
  match w with
  | ⟨0, _⟩ => exact ((dat9 (Vt (E9 m)) c).arrAt_in 0 rfl _).trans ((A_eq9 (Vt (E9 m)) c 0).trans (Function.update_of_ne (StableHlo.devRef_ne_of_ne (by decide)) _ _).symm)
  | ⟨1, _⟩ => exact ((dat9 (Vt (E9 m)) c).arrAt_in 1 rfl _).trans ((A_eq9 (Vt (E9 m)) c 1).trans (Function.update_of_ne (StableHlo.devRef_ne_of_ne (by decide)) _ _).symm)
  | ⟨2, _⟩ => exact ((dat9 (Vt (E9 m)) c).arrAt_in 2 rfl _).trans ((A_eq9 (Vt (E9 m)) c 2).trans (Function.update_of_ne (StableHlo.devRef_ne_of_ne (by decide)) _ _).symm)
  | ⟨3, _⟩ =>
    show _ = X9 m c main_v41
    unfold X9
    rw [Function.update_self]
    rfl

/-- Every other buffer holds what it held at entry. -/
theorem hrest9 (c : Dev nD) : ∀ b : Ref sig .tc, b ∉ (Finset.univ.image (Pipeline.arrRef spec9) : Finset (Ref sig .tc)) → Vt (X9 m) c b = Vt (E9 m) c b :=
  fun b hb => by
    unfold X9
    exact Function.update_of_ne (StableHlo.devRef_ne_of_ne fun e => hb (Finset.mem_image.mpr ⟨(3 : Fin cfg9.W), Finset.mem_univ _, by rw [e]⟩)) _ _

set_option backward.isDefEq.respectTransparency.types false in
/-- The region's record for the run over segments. -/
def reg9 : Pipeline.RegionSeg (pcfgs (F := F)) adm (pdats m) () defs₀ Variants.none Lv lvv 9 where
  win := launch9.win.to₀
  block_pos := launch9.block_pos
  stage_whole := launch9.stage_whole
  K := PEmpty
  osem k := k.elim
  ho := Pipeline.OwnSemFacts.none _
  hbody c := (body_obligation9 (Vt (E9 m)) c).loose
  hwaits := Pipeline.hwaits_of_owed_zero _ _ _ _ Lv lvv 9 fun _ _ => rfl
  pre c := iprop(StableHlo.held (c : Thread nD τ) (Pipeline.ucRefs τ sig) (V34 m (outs m) c) ∗ Rr c)
  post c := iprop(StableHlo.held (c : Thread nD τ) (Pipeline.ucRefs τ sig) (V35 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec9 c (Vt (E9 m) c)
  hentry c := by
    rw [Pipeline.ownSems0_none, VE9 m c]
    have hsplit := Pipeline.arrays_of_unscopedBufs (p := 9) (pcfgs (F := F)) adm (pdats m) launch9.win launch9.arr_whole c
      ((pdats m 9 c).share_full fun _ => rfl) (Vt (E9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (Vt (E9 m)) c)
    unfold Pipeline.ΦA
    iintro ⟨Hp, -, Hr⟩
    isplitl [Hr]; · iexact Hr
    iexact Hp
  hout c := by
    rw [Pipeline.ownSems0_none]
    refine BIBase.Entails.trans (hout9 (Vt (E9 m)) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (Vt (E9 m) c) (Vt (X9 m) c) ((pdats m 9 c).arrAt · cfg9.N) (hF9 m c) (hrest9 m c)
    rw [Pipeline.unscopedBufs_held] at hjoin
    rw [VX9 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg10.lean ====
/-
  Region 10 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF10 (c : Dev nD) (w : Fin cfg10.W) :
    (dat10 (Vt (X9 m)) c).arrAt w cfg10.N = Vt (X10 m) c (Pipeline.arrRef spec10 w) := by
  match w with
  | ⟨0, _⟩ => exact ((dat10 (Vt (X9 m)) c).arrAt_in 0 rfl _).trans ((A_eq10 (Vt (X9 m)) c 0).trans (Function.update_of_ne (StableHlo.devRef_ne_of_ne (by decide)) _ _).symm)
  | ⟨1, _⟩ => exact ((dat10 (Vt (X9 m)) c).arrAt_in 1 rfl _).trans ((A_eq10 (Vt (X9 m)) c 1).trans (Function.update_of_ne (StableHlo.devRef_ne_of_ne (by decide)) _ _).symm)
  | ⟨2, _⟩ =>
    show _ = X10 m c main_v42
    unfold X10
    rw [Function.update_self]
    rfl

/-- Every other buffer holds what it held at entry. -/
theorem hrest10 (c : Dev nD) : ∀ b : Ref sig .tc, b ∉ (Finset.univ.image (Pipeline.arrRef spec10) : Finset (Ref sig .tc)) → Vt (X10 m) c b = Vt (X9 m) c b :=
  fun b hb => by
    unfold X10
    exact Function.update_of_ne (StableHlo.devRef_ne_of_ne fun e => hb (Finset.mem_image.mpr ⟨(2 : Fin cfg10.W), Finset.mem_univ _, by rw [e]⟩)) _ _

set_option backward.isDefEq.respectTransparency.types false in
/-- The region's record for the run over segments. -/
def reg10 : Pipeline.RegionSeg (pcfgs (F := F)) adm (pdats m) () defs₀ Variants.none Lv lvv 10 where
  win := launch10.win.to₀
  block_pos := launch10.block_pos
  stage_whole := launch10.stage_whole
  K := PEmpty
  osem k := k.elim
  ho := Pipeline.OwnSemFacts.none _
  hbody c := (body_obligation10 (Vt (X9 m)) c).loose
  hwaits := Pipeline.hwaits_of_owed_zero _ _ _ _ Lv lvv 10 fun _ _ => rfl
  pre c := iprop(StableHlo.held (c : Thread nD τ) (Pipeline.ucRefs τ sig) (V35 m (outs m) c) ∗ Rr c)
  post c := iprop(StableHlo.held (c : Thread nD τ) (Pipeline.ucRefs τ sig) (V36 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec10 c (Vt (X9 m) c)
  hentry c := by
    rw [Pipeline.ownSems0_none, VE10 m c]
    have hsplit := Pipeline.arrays_of_unscopedBufs (p := 10) (pcfgs (F := F)) adm (pdats m) launch10.win launch10.arr_whole c
      ((pdats m 10 c).share_full fun _ => rfl) (Vt (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (Vt (X9 m)) c)
    unfold Pipeline.ΦA
    iintro ⟨Hp, -, Hr⟩
    isplitl [Hr]; · iexact Hr
    iexact Hp
  hout c := by
    rw [Pipeline.ownSems0_none]
    refine BIBase.Entails.trans (hout10 (Vt (X9 m)) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (Vt (X9 m) c) (Vt (X10 m) c) ((pdats m 10 c).arrAt · cfg10.N) (hF10 m c) (hrest10 m c)
    rw [Pipeline.unscopedBufs_held] at hjoin
    rw [VX10 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg11.lean ====
/-
  Region 11 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF11 (c : Dev nD) (w : Fin cfg11.W) :
    (dat11 (Vt (E11 m)) c).arrAt w cfg11.N = Vt (X11 m) c (Pipeline.arrRef spec11 w) := by
  match w with
  | ⟨0, _⟩ => exact ((dat11 (Vt (E11 m)) c).arrAt_in 0 rfl _).trans ((A_eq11 (Vt (E11 m)) c 0).trans (Function.update_of_ne (StableHlo.devRef_ne_of_ne (by decide)) _ _).symm)
  | ⟨1, _⟩ => exact ((dat11 (Vt (E11 m)) c).arrAt_in 1 rfl _).trans ((A_eq11 (Vt (E11 m)) c 1).trans (Function.update_of_ne (StableHlo.devRef_ne_of_ne (by decide)) _ _).symm)
  | ⟨2, _⟩ => exact ((dat11 (Vt (E11 m)) c).arrAt_in 2 rfl _).trans ((A_eq11 (Vt (E11 m)) c 2).trans (Function.update_of_ne (StableHlo.devRef_ne_of_ne (by decide)) _ _).symm)
  | ⟨3, _⟩ =>
    show _ = X11 m c main_v57
    unfold X11
    rw [Function.update_self]
    rfl

/-- Every other buffer holds what it held at entry. -/
theorem hrest11 (c : Dev nD) : ∀ b : Ref sig .tc, b ∉ (Finset.univ.image (Pipeline.arrRef spec11) : Finset (Ref sig .tc)) → Vt (X11 m) c b = Vt (E11 m) c b :=
  fun b hb => by
    unfold X11
    exact Function.update_of_ne (StableHlo.devRef_ne_of_ne fun e => hb (Finset.mem_image.mpr ⟨(3 : Fin cfg11.W), Finset.mem_univ _, by rw [e]⟩)) _ _

set_option backward.isDefEq.respectTransparency.types false in
/-- The region's record for the run over segments. -/
def reg11 : Pipeline.RegionSeg (pcfgs (F := F)) adm (pdats m) () defs₀ Variants.none Lv lvv 11 where
  win := launch11.win.to₀
  block_pos := launch11.block_pos
  stage_whole := launch11.stage_whole
  K := PEmpty
  osem k := k.elim
  ho := Pipeline.OwnSemFacts.none _
  hbody c := (body_obligation11 (Vt (E11 m)) c).loose
  hwaits := Pipeline.hwaits_of_owed_zero _ _ _ _ Lv lvv 11 fun _ _ => rfl
  pre c := iprop(StableHlo.held (c : Thread nD τ) (Pipeline.ucRefs τ sig) (V42 m (outs m) c) ∗ Rr c)
  post c := iprop(StableHlo.held (c : Thread nD τ) (Pipeline.ucRefs τ sig) (V43 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec11 c (Vt (E11 m) c)
  hentry c := by
    rw [Pipeline.ownSems0_none, VE11 m c]
    have hsplit := Pipeline.arrays_of_unscopedBufs (p := 11) (pcfgs (F := F)) adm (pdats m) launch11.win launch11.arr_whole c
      ((pdats m 11 c).share_full fun _ => rfl) (Vt (E11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (Vt (E11 m)) c)
    unfold Pipeline.ΦA
    iintro ⟨Hp, -, Hr⟩
    isplitl [Hr]; · iexact Hr
    iexact Hp
  hout c := by
    rw [Pipeline.ownSems0_none]
    refine BIBase.Entails.trans (hout11 (Vt (E11 m)) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (Vt (E11 m) c) (Vt (X11 m) c) ((pdats m 11 c).arrAt · cfg11.N) (hF11 m c) (hrest11 m c)
    rw [Pipeline.unscopedBufs_held] at hjoin
    rw [VX11 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg12.lean ====
/-
  Region 12 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF12 (c : Dev nD) (w : Fin cfg12.W) :
    (dat12 (Vt (X11 m)) c).arrAt w cfg12.N = Vt (X12 m) c (Pipeline.arrRef spec12 w) := by
  match w with
  | ⟨0, _⟩ => exact ((dat12 (Vt (X11 m)) c).arrAt_in 0 rfl _).trans ((A_eq12 (Vt (X11 m)) c 0).trans (Function.update_of_ne (StableHlo.devRef_ne_of_ne (by decide)) _ _).symm)
  | ⟨1, _⟩ => exact ((dat12 (Vt (X11 m)) c).arrAt_in 1 rfl _).trans ((A_eq12 (Vt (X11 m)) c 1).trans (Function.update_of_ne (StableHlo.devRef_ne_of_ne (by decide)) _ _).symm)
  | ⟨2, _⟩ =>
    show _ = X12 m c main_v58
    unfold X12
    rw [Function.update_self]
    rfl

/-- Every other buffer holds what it held at entry. -/
theorem hrest12 (c : Dev nD) : ∀ b : Ref sig .tc, b ∉ (Finset.univ.image (Pipeline.arrRef spec12) : Finset (Ref sig .tc)) → Vt (X12 m) c b = Vt (X11 m) c b :=
  fun b hb => by
    unfold X12
    exact Function.update_of_ne (StableHlo.devRef_ne_of_ne fun e => hb (Finset.mem_image.mpr ⟨(2 : Fin cfg12.W), Finset.mem_univ _, by rw [e]⟩)) _ _

set_option backward.isDefEq.respectTransparency.types false in
/-- The region's record for the run over segments. -/
def reg12 : Pipeline.RegionSeg (pcfgs (F := F)) adm (pdats m) () defs₀ Variants.none Lv lvv 12 where
  win := launch12.win.to₀
  block_pos := launch12.block_pos
  stage_whole := launch12.stage_whole
  K := PEmpty
  osem k := k.elim
  ho := Pipeline.OwnSemFacts.none _
  hbody c := (body_obligation12 (Vt (X11 m)) c).loose
  hwaits := Pipeline.hwaits_of_owed_zero _ _ _ _ Lv lvv 12 fun _ _ => rfl
  pre c := iprop(StableHlo.held (c : Thread nD τ) (Pipeline.ucRefs τ sig) (V43 m (outs m) c) ∗ Rr c)
  post c := iprop(StableHlo.held (c : Thread nD τ) (Pipeline.ucRefs τ sig) (V44 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec12 c (Vt (X11 m) c)
  hentry c := by
    rw [Pipeline.ownSems0_none, VE12 m c]
    have hsplit := Pipeline.arrays_of_unscopedBufs (p := 12) (pcfgs (F := F)) adm (pdats m) launch12.win launch12.arr_whole c
      ((pdats m 12 c).share_full fun _ => rfl) (Vt (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (Vt (X11 m)) c)
    unfold Pipeline.ΦA
    iintro ⟨Hp, -, Hr⟩
    isplitl [Hr]; · iexact Hr
    iexact Hp
  hout c := by
    rw [Pipeline.ownSems0_none]
    refine BIBase.Entails.trans (hout12 (Vt (X11 m)) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m) ((pdats m 12 c).share_full fun _ => rfl)
      (Vt (X11 m) c) (Vt (X12 m) c) ((pdats m 12 c).arrAt · cfg12.N) (hF12 m c) (hrest12 m c)
    rw [Pipeline.unscopedBufs_held] at hjoin
    rw [VX12 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg13.lean ====
/-
  Region 13 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF13 (c : Dev nD) (w : Fin cfg13.W) :
    (dat13 (Vt (E13 m)) c).arrAt w cfg13.N = Vt (X13 m) c (Pipeline.arrRef spec13 w) := by
  match w with
  | ⟨0, _⟩ => exact ((dat13 (Vt (E13 m)) c).arrAt_in 0 rfl _).trans ((A_eq13 (Vt (E13 m)) c 0).trans (Function.update_of_ne (StableHlo.devRef_ne_of_ne (by decide)) _ _).symm)
  | ⟨1, _⟩ => exact ((dat13 (Vt (E13 m)) c).arrAt_in 1 rfl _).trans ((A_eq13 (Vt (E13 m)) c 1).trans (Function.update_of_ne (StableHlo.devRef_ne_of_ne (by decide)) _ _).symm)
  | ⟨2, _⟩ => exact ((dat13 (Vt (E13 m)) c).arrAt_in 2 rfl _).trans ((A_eq13 (Vt (E13 m)) c 2).trans (Function.update_of_ne (StableHlo.devRef_ne_of_ne (by decide)) _ _).symm)
  | ⟨3, _⟩ =>
    show _ = X13 m c main_v72
    unfold X13
    rw [Function.update_self]
    rfl

/-- Every other buffer holds what it held at entry. -/
theorem hrest13 (c : Dev nD) : ∀ b : Ref sig .tc, b ∉ (Finset.univ.image (Pipeline.arrRef spec13) : Finset (Ref sig .tc)) → Vt (X13 m) c b = Vt (E13 m) c b :=
  fun b hb => by
    unfold X13
    exact Function.update_of_ne (StableHlo.devRef_ne_of_ne fun e => hb (Finset.mem_image.mpr ⟨(3 : Fin cfg13.W), Finset.mem_univ _, by rw [e]⟩)) _ _

set_option backward.isDefEq.respectTransparency.types false in
/-- The region's record for the run over segments. -/
def reg13 : Pipeline.RegionSeg (pcfgs (F := F)) adm (pdats m) () defs₀ Variants.none Lv lvv 13 where
  win := launch13.win.to₀
  block_pos := launch13.block_pos
  stage_whole := launch13.stage_whole
  K := PEmpty
  osem k := k.elim
  ho := Pipeline.OwnSemFacts.none _
  hbody c := (body_obligation13 (Vt (E13 m)) c).loose
  hwaits := Pipeline.hwaits_of_owed_zero _ _ _ _ Lv lvv 13 fun _ _ => rfl
  pre c := iprop(StableHlo.held (c : Thread nD τ) (Pipeline.ucRefs τ sig) (V50 m (outs m) c) ∗ Rr c)
  post c := iprop(StableHlo.held (c : Thread nD τ) (Pipeline.ucRefs τ sig) (V51 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec13 c (Vt (E13 m) c)
  hentry c := by
    rw [Pipeline.ownSems0_none, VE13 m c]
    have hsplit := Pipeline.arrays_of_unscopedBufs (p := 13) (pcfgs (F := F)) adm (pdats m) launch13.win launch13.arr_whole c
      ((pdats m 13 c).share_full fun _ => rfl) (Vt (E13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin13 (Vt (E13 m)) c)
    unfold Pipeline.ΦA
    iintro ⟨Hp, -, Hr⟩
    isplitl [Hr]; · iexact Hr
    iexact Hp
  hout c := by
    rw [Pipeline.ownSems0_none]
    refine BIBase.Entails.trans (hout13 (Vt (E13 m)) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := Pipeline.UD sig nD τ) (Lvl := ℕ)
      launch13.win launch13.arr_whole c (pdats m) ((pdats m 13 c).share_full fun _ => rfl)
      (Vt (E13 m) c) (Vt (X13 m) c) ((pdats m 13 c).arrAt · cfg13.N) (hF13 m c) (hrest13 m c)
    rw [Pipeline.unscopedBufs_held] at hjoin
    rw [VX13 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Reg14.lean ====
/-
  Region 14 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.K.Vals
import Idealize.ShloMosaic.Lib.Pipeline.RegionsLoop

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF14 (c : Dev nD) (w : Fin cfg14.W) :
    (dat14 (Vt (X13 m)) c).arrAt w cfg14.N = Vt (X14 m) c (Pipeline.arrRef spec14 w) := by
  match w with
  | ⟨0, _⟩ => exact ((dat14 (Vt (X13 m)) c).arrAt_in 0 rfl _).trans ((A_eq14 (Vt (X13 m)) c 0).trans (Function.update_of_ne (StableHlo.devRef_ne_of_ne (by decide)) _ _).symm)
  | ⟨1, _⟩ => exact ((dat14 (Vt (X13 m)) c).arrAt_in 1 rfl _).trans ((A_eq14 (Vt (X13 m)) c 1).trans (Function.update_of_ne (StableHlo.devRef_ne_of_ne (by decide)) _ _).symm)
  | ⟨2, _⟩ =>
    show _ = X14 m c main_v73
    unfold X14
    rw [Function.update_self]
    rfl

/-- Every other buffer holds what it held at entry. -/
theorem hrest14 (c : Dev nD) : ∀ b : Ref sig .tc, b ∉ (Finset.univ.image (Pipeline.arrRef spec14) : Finset (Ref sig .tc)) → Vt (X14 m) c b = Vt (X13 m) c b :=
  fun b hb => by
    unfold X14
    exact Function.update_of_ne (StableHlo.devRef_ne_of_ne fun e => hb (Finset.mem_image.mpr ⟨(2 : Fin cfg14.W), Finset.mem_univ _, by rw [e]⟩)) _ _

set_option backward.isDefEq.respectTransparency.types false in
/-- The region's record for the run over segments. -/
def reg14 : Pipeline.RegionSeg (pcfgs (F := F)) adm (pdats m) () defs₀ Variants.none Lv lvv 14 where
  win := launch14.win.to₀
  block_pos := launch14.block_pos
  stage_whole := launch14.stage_whole
  K := PEmpty
  osem k := k.elim
  ho := Pipeline.OwnSemFacts.none _
  hbody c := (body_obligation14 (Vt (X13 m)) c).loose
  hwaits := Pipeline.hwaits_of_owed_zero _ _ _ _ Lv lvv 14 fun _ _ => rfl
  pre c := iprop(StableHlo.held (c : Thread nD τ) (Pipeline.ucRefs τ sig) (V51 m (outs m) c) ∗ Rr c)
  post c := iprop(StableHlo.held (c : Thread nD τ) (Pipeline.ucRefs τ sig) (V52 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec14 c (Vt (X13 m) c)
  hentry c := by
    rw [Pipeline.ownSems0_none, VE14 m c]
    have hsplit := Pipeline.arrays_of_unscopedBufs (p := 14) (pcfgs (F := F)) adm (pdats m) launch14.win launch14.arr_whole c
      ((pdats m 14 c).share_full fun _ => rfl) (Vt (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (Vt (X13 m)) c)
    unfold Pipeline.ΦA
    iintro ⟨Hp, -, Hr⟩
    isplitl [Hr]; · iexact Hr
    iexact Hp
  hout c := by
    rw [Pipeline.ownSems0_none]
    refine BIBase.Entails.trans (hout14 (Vt (X13 m)) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := Pipeline.UD sig nD τ) (Lvl := ℕ)
      launch14.win launch14.arr_whole c (pdats m) ((pdats m 14 c).share_full fun _ => rfl)
      (Vt (X13 m) c) (Vt (X14 m) c) ((pdats m 14 c).arrAt · cfg14.N) (hF14 m c) (hrest14 m c)
    rw [Pipeline.unscopedBufs_held] at hjoin
    rw [VX14 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.H

end
-- ==== Proof.K.Run.lean ====
/-
  The run of @main over its 53 segments: the launch makes every core's first thread state, the fifteen regions'
  records and the host stretches chain from boundary to boundary, and the last thread state read against the final
  memory gives every argument array as launched.
-/
import proofs.«407232_j23192823399226_1_alg».proof.Proof.K.Reg0
import proofs.«407232_j23192823399226_1_alg».proof.Proof.K.Reg1
import proofs.«407232_j23192823399226_1_alg».proof.Proof.K.Reg2
import proofs.«407232_j23192823399226_1_alg».proof.Proof.K.Reg3
import proofs.«407232_j23192823399226_1_alg».proof.Proof.K.Reg4
import proofs.«407232_j23192823399226_1_alg».proof.Proof.K.Reg5
import proofs.«407232_j23192823399226_1_alg».proof.Proof.K.Reg6
import proofs.«407232_j23192823399226_1_alg».proof.Proof.K.Reg7
import proofs.«407232_j23192823399226_1_alg».proof.Proof.K.Reg8
import proofs.«407232_j23192823399226_1_alg».proof.Proof.K.Reg9
import proofs.«407232_j23192823399226_1_alg».proof.Proof.K.Reg10
import proofs.«407232_j23192823399226_1_alg».proof.Proof.K.Reg11
import proofs.«407232_j23192823399226_1_alg».proof.Proof.K.Reg12
import proofs.«407232_j23192823399226_1_alg».proof.Proof.K.Reg13
import proofs.«407232_j23192823399226_1_alg».proof.Proof.K.Reg14

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_cond m (Ix := Unit) (U := Pipeline.UD sig nD τ) (Lvl := ℕ) embL () Variants.none Lv lvv (fun _ _ => rfl) ρ (outs m) (pdats m)
    (fun _ => 0) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rr c)
    (Pipeline.initEach Lv lvv fun c => by
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)
    (reg11 m) (fun _ => .rfl) (fun _ => .rfl)
    (reg12 m) (fun _ => .rfl) (fun _ => .rfl)
    (reg13 m) (fun _ => .rfl) (fun _ => .rfl)
    (reg14 m) (fun _ => .rfl) (fun _ => .rfl)

end Cert.Kernel.H

end
-- ==== Proof.KI.L0Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
end

/-! ## The memrefs the run is stated over -/
abbrev VO0_3 : View sig .tc .vmem S2000x128 .f32 := (Memref.whole cc0_stg3_0 : Memref sig .tc .vmem S2000x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x128 .f32 := win0_3.stage (cfg0.slots t 3)
abbrev hs0_3 (t : Fin cfg0.N) : (ms0_3 t).IsWhole := hstage0_3 ((cfg0.slots t 3).cast nbuf0_3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

set_option maxHeartbeats 4000000 in
/-- The pieces the body leaves in the output block (the witness the run finds), with the body's triple on whole
    memrefs: the three inputs at their contents and back, the output from anything. -/
noncomputable def kernelRun0 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__linear_kernel i arg1 harg1 arg2 harg2 arg3 harg3 arg4 harg4) K } := by
  refine ⟨?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.H

end
-- ==== Proof.KI.L0.lean ====
/-
  The dense-layer launch on the word features: what its output block holds after each grid point, the proof data of
  its pipeline over any entry contents, and the body obligation at every grid point.
-/
import proofs.«407232_j23192823399226_1_alg».proof.Proof.KI.L0Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH0 (t : Fin cfg0.N) : Prog (TpuEff nD τ sig (Elt F) Λ₀ .tc) PUnit :=
  cc0__linear_kernel (grid0.coords t) (ms0_0 t) (hs0_0 t) (ms0_1 t) (hs0_1 t) (ms0_2 t) (hs0_2 t) (ms0_3 t) (hs0_3 t)

theorem cover0_3 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun0 (F := F) c i arg1 harg1 arg2 harg2 arg3 harg3 arg4 harg4 x0 x1 x2).1, y ∈ pc.1.set :=
  View.cover_of_tiledL (kernelRun0 (F := F) c i arg1 harg1 arg2 harg2 arg3 harg3 arg4 harg4 x0 x1 x2).1 S2000x128.size (by sl_kernel_rfl) y

/-- The output block after the body: the run's pieces read back. -/
def out0_3 (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO0_3.read (Elt F) (VO0_3.writes (Elt F) VO0_3.junk (kernelRun0 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt0 (c : Dev nD) (t : Fin cfg0.N) : Vec F S2000x128 .f32 :=
  out0_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- The arrays as the region finds them; after the body each input's buffer at its block, the output's at `outsAt0`;
    the class invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outsAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outsAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks, so the run applies; the invariant and the core's
    `owes` pass through unread. -/
theorem sound_body0 (c : Dev nD) (t : Fin cfg0.N) :
    bodyPre0 V c t ⊢ wp frame (wpE (defs₀ (F := F)) Variants.none c none) Set.univ (bodyAtH0 t) (fun _ => bodyPost0 V c t) := by
  unfold bodyPre0 bodyPost0 bodyAtH0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold outsAt0 out0_3
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.H

end
-- ==== Proof.KI.G1Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The grid's coordinates at a point, the branch conditions in closed form, and where the output block is written back -/

theorem coords1_0 (t : Fin cfg1.N) : ((grid1.coords t) 0).val = t.val / 49 := by
  have hN : grid1.N = 19159 := N_1
  have ht : t.val < 19159 := hN ▸ t.isLt
  show t.val / grid1.stride 0 % 391 = _
  rw [show grid1.stride 0 = 49 from by decide]
  omega
theorem coords1_1 (t : Fin cfg1.N) : ((grid1.coords t) 1).val = t.val % 49 := by
  show t.val / grid1.stride 1 % 49 = _
  rw [show grid1.stride 1 = 1 from by decide]
  omega

/-- "This is the first source tile": the accumulator is zeroed. -/
abbrev cond1_0 (i : grid1.Coords) : Prop := (Scalar.cmpi .ne (Scalar.extui (Scalar.cmpi .eq (BitVec.ofNat 32 (i 1).val) 0#32)) 0#32) = 1#1
/-- "This is the last source tile": the accumulator is stored to the output block. -/
abbrev cond1_1 (i : grid1.Coords) : Prop := k1_cond2 i = 1#1
/-- The two tests read only the second coordinate, which takes 49 values. -/
theorem condw1_0 : ∀ v : Fin 49, ((Scalar.cmpi .ne (Scalar.extui (Scalar.cmpi .eq (BitVec.ofNat 32 v.val) 0#32)) 0#32) = 1#1) ↔ v.val = 0 := by decide
theorem condw1_1 : ∀ v : Fin 49, ((Scalar.cmpi .ne (Scalar.extui (Scalar.cmpi .eq (BitVec.ofNat 32 v.val) 48#32)) 0#32) = 1#1) ↔ v.val = 48 := by decide
theorem hcond1_0 (t : Fin cfg1.N) : cond1_0 (grid1.coords t) ↔ t.val % 49 = 0 := by
  rw [← coords1_1 t]; exact condw1_0 ((grid1.coords t) 1)
theorem hcond1_1 (t : Fin cfg1.N) : cond1_1 (grid1.coords t) ↔ t.val % 49 = 48 := by
  rw [← coords1_1 t]; exact condw1_1 ((grid1.coords t) 1)

/-- The output window's block index at a point: (t / 49, 0). -/
theorem oidx1 (t : Fin cfg1.N) : win1_3.index t (0 : Fin 2) = t.val / 49 ∧ win1_3.index t (1 : Fin 2) = 0 := by
  have hN : grid1.N = 19159 := N_1
  have ht : t.val < 19159 := hN ▸ t.isLt
  have c0 := coords1_0 t
  refine ⟨?_, rfl⟩
  show (BitVec.ofNat 32 ((grid1.coords t) 0).val).toNat = _
  rw [BitVec.toNat_ofNat, c0]; omega

/-- The output block is written back exactly at the points ≡ 48 (mod 49): there the next point's block is another (or
    the grid ends), and nowhere else does the block index move. -/
theorem flushAt1_3 (t : Fin cfg1.N) : (cfg1.win 3).flush t = true ↔ t.val % 49 = 48 := by
  have hN : grid1.N = 19159 := N_1
  have ht : t.val < 19159 := hN ▸ t.isLt
  show win1_3.flush t = true ↔ _
  unfold Pipeline.Window.flush
  rw [show win1_3.isOut = true from rfl]
  simp only [Bool.true_and, Bool.or_eq_true, decide_eq_true_eq]
  constructor
  · rintro (h | ⟨hl, hne⟩)
    · omega
    · by_contra h48
      apply hne
      obtain ⟨a0, a1⟩ := oidx1 ⟨t.val + 1, hl⟩
      obtain ⟨b0, b1⟩ := oidx1 t
      funext a
      match a with
      | ⟨0, _⟩ =>
        show win1_3.index ⟨t.val + 1, hl⟩ (0 : Fin 2) = win1_3.index t (0 : Fin 2)
        rw [a0, b0]
        show (t.val + 1) / 49 = t.val / 49
        omega
      | ⟨1, _⟩ =>
        show win1_3.index ⟨t.val + 1, hl⟩ (1 : Fin 2) = win1_3.index t (1 : Fin 2)
        rw [a1, b1]
  · intro h48
    by_cases hl : t.val + 1 = grid1.N
    · exact Or.inl hl
    · have hl' : t.val + 1 < grid1.N := by omega
      refine Or.inr ⟨hl', fun heq => ?_⟩
      have h0 := congrFun heq (0 : Fin 2)
      rw [(oidx1 ⟨t.val + 1, hl'⟩).1, (oidx1 t).1] at h0
      have h0' : (t.val + 1) / 49 = t.val / 49 := h0
      omega
theorem noFlush1_3 (t : Fin cfg1.N) (h : ¬cond1_1 (grid1.coords t)) : (cfg1.win 3).flush t = false := by
  cases hf : (cfg1.win 3).flush t with
  | false => rfl
  | true => exact absurd ((hcond1_1 t).mpr ((flushAt1_3 t).mp hf)) h

/-! ## Where the windows are idle -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := fun t h => by
  show (!(k1_cond2 (grid1.coords t) == 1#1)) = true
  simp only [Bool.not_eq_true', beq_eq_false_iff_ne, ne_eq]
  exact h
theorem liveAt1_3 : ∀ t : Fin cfg1.N, cond1_1 (grid1.coords t) → cfg1.idle 3 (grid1.coords t) = false := fun t h => by
  show (!(k1_cond2 (grid1.coords t) == 1#1)) = false
  simp only [Bool.not_eq_false', beq_iff_eq]
  exact h

/-! ## The memrefs the runs are stated over -/
abbrev VO1_3 : View sig .tc .vmem S2048x128 .bf16 := (Memref.whole cc1_stg3_0 : Memref sig .tc .vmem S2048x128 .bf16).view
abbrev ms1_0 (t : Fin cfg1.N) : Memref sig .tc .vmem S2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .bf16 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S2048x128 .f32 := Memref.whole cc1_scratch0
abbrev VS1_0 : View sig .tc .vmem S2048x128 .f32 := scM1_0.view

/-- The class invariant with the accumulator as a memref owned at some contents; the other scoped buffers stay unopened. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.H

end
-- ==== Proof.KI.G1RunB.lean ====
/-
  A gather launch (the first one-hot product of a relation), at a middle source tile (neither the first nor the last): the accumulator, found at what the
  point before left, gets the product added; the output block is not touched.
-/
import proofs.«407232_j23192823399226_1_alg».proof.Proof.KI.G1Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun1_B (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G1RunA.lean ====
/-
  A gather launch (the first one-hot product of a relation), at the first source tile: the accumulator, whatever it held, is zeroed and gets the product
  added; the output block is not touched.
-/
import proofs.«407232_j23192823399226_1_alg».proof.Proof.KI.G1RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun1_A (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G1RunC.lean ====
/-
  A gather launch (the first one-hot product of a relation), at the last source tile: the accumulator, found at what the point before left, gets the
  product added and is then stored to the output block.
-/
import proofs.«407232_j23192823399226_1_alg».proof.Proof.KI.G1RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun1_C (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.G1.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.KI.G1RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH1 (t : Fin cfg1.N) : Prog (TpuEff nD τ sig (Elt F) Λ₀ .tc) PUnit :=
  cc1__gather_kernel (grid1.coords t) (ms1_0 t) (hs1_0 t) (ms1_1 t) (hs1_1 t) (ms1_2 t) (hs1_2 t) (ms1_3 t) (hs1_3 t) scM1_0 (Memref.isWhole_whole _)

/-! ## What each case leaves -/

theorem scover1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) (y : S2048x128.Idx) :
    ∃ pc ∈ (kernelRun1_A (F := F) c i arg2 harg2 arg3 harg3 arg4 harg4 arg5 harg5 arg6 harg6 hc0 hc1 x0 x1 x2).2.1, y ∈ pc.1.set :=
  View.cover_of_tiledL (kernelRun1_A (F := F) c i arg2 harg2 arg3 harg3 arg4 harg4 arg5 harg5 arg6 harg6 hc0 hc1 x0 x1 x2).2.1 S2048x128.size (by sl_kernel_rfl) y

/-- The accumulator after a first source tile: the case's pieces read back. -/
def sout1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) : Vec F S2048x128 .f32 :=
  VS1_0.read (Elt F) (VS1_0.writes (Elt F) VS1_0.junk (kernelRun1_A (F := F) c i arg2 harg2 arg3 harg3 arg4 harg4 arg5 harg5 arg6 harg6 hc0 hc1 x0 x1 x2).2.1)

theorem scover1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) (y : S2048x128.Idx) :
    ∃ pc ∈ (kernelRun1_B (F := F) c i arg2 harg2 arg3 harg3 arg4 harg4 arg5 harg5 arg6 harg6 hc0 hc1 x0 x1 x2 xs0).2.1, y ∈ pc.1.set :=
  View.cover_of_tiledL (kernelRun1_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) : Vec F S2048x128 .f32 :=
  VS1_0.read (Elt F) (VS1_0.writes (Elt F) VS1_0.junk (kernelRun1_B (F := F) c i arg2 harg2 arg3 harg3 arg4 harg4 arg5 harg5 arg6 harg6 hc0 hc1 x0 x1 x2 xs0).2.1)

theorem cover1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) (y : S2048x128.Idx) :
    ∃ pc ∈ (kernelRun1_C (F := F) c i arg2 harg2 arg3 harg3 arg4 harg4 arg5 harg5 arg6 harg6 hc0 hc1 x0 x1 x2 xs0).1, y ∈ pc.1.set :=
  View.cover_of_tiledL (kernelRun1_C (F := F) c i arg2 harg2 arg3 harg3 arg4 harg4 arg5 harg5 arg6 harg6 hc0 hc1 x0 x1 x2 xs0).1 S2048x128.size (by sl_kernel_rfl) y

/-- The output block after a last source tile. -/
def out1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) : Vec F S2048x128 .bf16 :=
  VO1_3.read (Elt F) (VO1_3.writes (Elt F) VO1_3.junk (kernelRun1_C (F := F) c i arg2 harg2 arg3 harg3 arg4 harg4 arg5 harg5 arg6 harg6 hc0 hc1 x0 x1 x2 xs0).1)

theorem scover1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) (y : S2048x128.Idx) :
    ∃ pc ∈ (kernelRun1_C (F := F) c i arg2 harg2 arg3 harg3 arg4 harg4 arg5 harg5 arg6 harg6 hc0 hc1 x0 x1 x2 xs0).2.1, y ∈ pc.1.set :=
  View.cover_of_tiledL (kernelRun1_C (F := F) c i arg2 harg2 arg3 harg3 arg4 harg4 arg5 harg5 arg6 harg6 hc0 hc1 x0 x1 x2 xs0).2.1 S2048x128.size (by sl_kernel_rfl) y

/-- The accumulator after a last source tile. -/
def sout1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) : Vec F S2048x128 .f32 :=
  VS1_0.read (Elt F) (VS1_0.writes (Elt F) VS1_0.junk (kernelRun1_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle1_3 : Vec F S2048x128 .bf16 := VO1_3.read (Elt F) VO1_3.junk

/-! ## The accumulation, point by point -/

/-- After the body at position `n`: (the output block, the accumulator) — the case the closed forms select, a later
    source tile's over what position `n - 1` left in the accumulator. -/
def outsAt1 (c : Dev nD) : (n : ℕ) → n < cfg1.N → Vec F S2048x128 .bf16 × Vec F S2048x128 .f32
  | 0, hn => (idle1_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 49 = 0 then
      if h1 : (n + 1) % 49 = 48 then
        False.elim (by omega)
      else
        (idle1_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 49 = 48 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle1_3, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 49 = 0) (h1 : ¬t.val % 49 = 48) :
    outsAt1 V c t.val t.isLt = (idle1_3, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 49 = 0) (h1 : ¬t.val % 49 = 48) :
    outsAt1 V c t.val t.isLt = (idle1_3, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 49 = 0) (h1 : t.val % 49 = 48) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut1 (c : Dev nD) : sProp 𝕄 :=
  Pipeline.scopedRestBut (Ix := Unit) (Name := ℕ) (U := Pipeline.UD sig nD τ) (Lvl := ℕ) (Val := Elt F) spec1 c [cc1_scratch0]

/-- Before position `n`: at the region's entry the class invariant (the accumulator at anything); afterwards the
    accumulator at what position `n - 1` left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-! ## The pipeline's proof data -/

/-- The arrays as the region finds them; after the body each input's buffer at its block, the output's at `outsAt1`'s
    first component; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body1 (c : Dev nD) (t : Fin cfg1.N) :
    bodyPre1 V c t ⊢ wp frame (wpE (defs₀ (F := F)) Variants.none c none) Set.univ (bodyAtH1 t) (fun _ => bodyPost1 V c t) := by
  unfold bodyPre1 bodyPost1 bodyAtH1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 49 = 48
  · have h0 : ¬t.val % 49 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C_3 sout1_C_0; (try dsimp only)
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 49 = 0
    · rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have hN : cfg1.N = 19159 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS0, HR⟩, Hg⟩
  isplitl [HS0 HR]
  · isplitl [HS0]
    · iexists _; iexact HS0
    iexact HR
  iexact Hg

end

end Cert.KernelIdeal.H

end
-- ==== Proof.KI.S2Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The grid's coordinates at a point, the branch conditions in closed form, and where the output block is written back -/

theorem coords2_0 (t : Fin cfg2.N) : ((grid2.coords t) 0).val = t.val / 391 := by
  have hN : grid2.N = 19159 := N_2
  have ht : t.val < 19159 := hN ▸ t.isLt
  show t.val / grid2.stride 0 % 49 = _
  rw [show grid2.stride 0 = 391 from by decide]
  omega
theorem coords2_1 (t : Fin cfg2.N) : ((grid2.coords t) 1).val = t.val % 391 := by
  show t.val / grid2.stride 1 % 391 = _
  rw [show grid2.stride 1 = 1 from by decide]
  omega

/-- "This is the first edge chunk": the accumulator is zeroed. -/
abbrev cond2_0 (i : grid2.Coords) : Prop := (Scalar.cmpi .ne (Scalar.extui (Scalar.cmpi .eq (BitVec.ofNat 32 (i 1).val) 0#32)) 0#32) = 1#1
/-- "This is the last edge chunk": the accumulator is stored to the output block. -/
abbrev cond2_1 (i : grid2.Coords) : Prop := k2_cond2 i = 1#1
/-- The two tests read only the second coordinate, which takes 391 values. -/
theorem condw2_0 : ∀ v : Fin 391, ((Scalar.cmpi .ne (Scalar.extui (Scalar.cmpi .eq (BitVec.ofNat 32 v.val) 0#32)) 0#32) = 1#1) ↔ v.val = 0 := by decide
theorem condw2_1 : ∀ v : Fin 391, ((Scalar.cmpi .ne (Scalar.extui (Scalar.cmpi .eq (BitVec.ofNat 32 v.val) 390#32)) 0#32) = 1#1) ↔ v.val = 390 := by decide
theorem hcond2_0 (t : Fin cfg2.N) : cond2_0 (grid2.coords t) ↔ t.val % 391 = 0 := by
  rw [← coords2_1 t]; exact condw2_0 ((grid2.coords t) 1)
theorem hcond2_1 (t : Fin cfg2.N) : cond2_1 (grid2.coords t) ↔ t.val % 391 = 390 := by
  rw [← coords2_1 t]; exact condw2_1 ((grid2.coords t) 1)

/-- The output window's block index at a point: (t / 391, 0). -/
theorem oidx2 (t : Fin cfg2.N) : win2_2.index t (0 : Fin 2) = t.val / 391 ∧ win2_2.index t (1 : Fin 2) = 0 := by
  have hN : grid2.N = 19159 := N_2
  have ht : t.val < 19159 := hN ▸ t.isLt
  have c0 := coords2_0 t
  refine ⟨?_, rfl⟩
  show (BitVec.ofNat 32 ((grid2.coords t) 0).val).toNat = _
  rw [BitVec.toNat_ofNat, c0]; omega

/-- The output block is written back exactly at the points ≡ 390 (mod 391): there the next point's block is another (or
    the grid ends), and nowhere else does the block index move. -/
theorem flushAt2_2 (t : Fin cfg2.N) : (cfg2.win 2).flush t = true ↔ t.val % 391 = 390 := by
  have hN : grid2.N = 19159 := N_2
  have ht : t.val < 19159 := hN ▸ t.isLt
  show win2_2.flush t = true ↔ _
  unfold Pipeline.Window.flush
  rw [show win2_2.isOut = true from rfl]
  simp only [Bool.true_and, Bool.or_eq_true, decide_eq_true_eq]
  constructor
  · rintro (h | ⟨hl, hne⟩)
    · omega
    · by_contra h48
      apply hne
      obtain ⟨a0, a1⟩ := oidx2 ⟨t.val + 1, hl⟩
      obtain ⟨b0, b1⟩ := oidx2 t
      funext a
      match a with
      | ⟨0, _⟩ =>
        show win2_2.index ⟨t.val + 1, hl⟩ (0 : Fin 2) = win2_2.index t (0 : Fin 2)
        rw [a0, b0]
        show (t.val + 1) / 391 = t.val / 391
        omega
      | ⟨1, _⟩ =>
        show win2_2.index ⟨t.val + 1, hl⟩ (1 : Fin 2) = win2_2.index t (1 : Fin 2)
        rw [a1, b1]
  · intro h48
    by_cases hl : t.val + 1 = grid2.N
    · exact Or.inl hl
    · have hl' : t.val + 1 < grid2.N := by omega
      refine Or.inr ⟨hl', fun heq => ?_⟩
      have h0 := congrFun heq (0 : Fin 2)
      rw [(oidx2 ⟨t.val + 1, hl'⟩).1, (oidx2 t).1] at h0
      have h0' : (t.val + 1) / 391 = t.val / 391 := h0
      omega
theorem noFlush2_2 (t : Fin cfg2.N) (h : ¬cond2_1 (grid2.coords t)) : (cfg2.win 2).flush t = false := by
  cases hf : (cfg2.win 2).flush t with
  | false => rfl
  | true => exact absurd ((hcond2_1 t).mpr ((flushAt2_2 t).mp hf)) h

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem idleAt2_2 : ∀ t : Fin cfg2.N, ¬cond2_1 (grid2.coords t) → cfg2.idle 2 (grid2.coords t) = true := fun t h => by
  show (!(k2_cond2 (grid2.coords t) == 1#1)) = true
  simp only [Bool.not_eq_true', beq_eq_false_iff_ne, ne_eq]
  exact h
theorem liveAt2_2 : ∀ t : Fin cfg2.N, cond2_1 (grid2.coords t) → cfg2.idle 2 (grid2.coords t) = false := fun t h => by
  show (!(k2_cond2 (grid2.coords t) == 1#1)) = false
  simp only [Bool.not_eq_false', beq_iff_eq]
  exact h

/-! ## The memrefs the runs are stated over -/
abbrev VO2_2 : View sig .tc .vmem S1024x128 .f32 := (Memref.whole cc2_stg2_0 : Memref sig .tc .vmem S1024x128 .f32).view
abbrev ms2_0 (t : Fin cfg2.N) : Memref sig .tc .vmem S2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
/-- The accumulator: a whole scoped buffer of the kernel's own, carried from point to point. -/
abbrev scM2_0 : Memref sig .tc .vmem S1024x128 .f32 := Memref.whole cc2_scratch0
abbrev VS2_0 : View sig .tc .vmem S1024x128 .f32 := scM2_0.view

/-- The class invariant with the accumulator as a memref owned at some contents; the other scoped buffers stay unopened. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := Pipeline.UD sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.H

end
-- ==== Proof.KI.S2RunB.lean ====
/-
  A scatter launch (the second one-hot product of a relation), at a middle edge chunk (neither the first nor the last): the accumulator, found at what the
  point before left, gets the product added; the output block is not touched.
-/
import proofs.«407232_j23192823399226_1_alg».proof.Proof.KI.S2Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun2_B (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨[], ?_, fun xi2 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S2RunA.lean ====
/-
  A scatter launch (the second one-hot product of a relation), at the first edge chunk: the accumulator, whatever it held, is zeroed and gets the product
  added; the output block is not touched.
-/
import proofs.«407232_j23192823399226_1_alg».proof.Proof.KI.S2RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun2_A (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨[], ?_, fun xi2 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S2RunC.lean ====
/-
  A scatter launch (the second one-hot product of a relation), at the last edge chunk: the accumulator, found at what the point before left, gets the
  product added and is then stored to the output block.
-/
import proofs.«407232_j23192823399226_1_alg».proof.Proof.KI.S2RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun2_C (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__scatter_kernel i arg2 harg2 arg3 harg3 arg4 harg4 arg5 harg5) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.H

end
-- ==== Proof.KI.S2.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.KI.S2RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH2 (t : Fin cfg2.N) : Prog (TpuEff nD τ sig (Elt F) Λ₀ .tc) PUnit :=
  cc2__scatter_kernel (grid2.coords t) (ms2_0 t) (hs2_0 t) (ms2_1 t) (hs2_1 t) (ms2_2 t) (hs2_2 t) scM2_0 (Memref.isWhole_whole _)

/-! ## What each case leaves -/

theorem scover2_A_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S2048 .i32) (x1 : Vec F S2048x128 .bf16) (y : S1024x128.Idx) :
    ∃ pc ∈ (kernelRun2_A (F := F) c i arg2 harg2 arg3 harg3 arg4 harg4 arg5 harg5 hc0 hc1 x0 x1).2.1, y ∈ pc.1.set :=
  View.cover_of_tiledL (kernelRun2_A (F := F) c i arg2 harg2 arg3 harg3 arg4 harg4 arg5 harg5 hc0 hc1 x0 x1).2.1 S1024x128.size (by sl_kernel_rfl) y

/-- The accumulator after a first edge chunk: the case's pieces read back. -/
def sout2_A_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S2048 .i32) (x1 : Vec F S2048x128 .bf16) : Vec F S1024x128 .f32 :=
  VS2_0.read (Elt F) (VS2_0.writes (Elt F) VS2_0.junk (kernelRun2_A (F := F) c i arg2 harg2 arg3 harg3 arg4 harg4 arg5 harg5 hc0 hc1 x0 x1).2.1)

theorem scover2_B_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S2048 .i32) (x1 : Vec F S2048x128 .bf16) (xs0 : Vec F S1024x128 .f32) (y : S1024x128.Idx) :
    ∃ pc ∈ (kernelRun2_B (F := F) c i arg2 harg2 arg3 harg3 arg4 harg4 arg5 harg5 hc0 hc1 x0 x1 xs0).2.1, y ∈ pc.1.set :=
  View.cover_of_tiledL (kernelRun2_B (F := F) c i arg2 harg2 arg3 harg3 arg4 harg4 arg5 harg5 hc0 hc1 x0 x1 xs0).2.1 S1024x128.size (by sl_kernel_rfl) y

/-- The accumulator after a middle edge chunk, over what the point before left (`xs0`). -/
def sout2_B_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S2048 .i32) (x1 : Vec F S2048x128 .bf16) (xs0 : Vec F S1024x128 .f32) : Vec F S1024x128 .f32 :=
  VS2_0.read (Elt F) (VS2_0.writes (Elt F) VS2_0.junk (kernelRun2_B (F := F) c i arg2 harg2 arg3 harg3 arg4 harg4 arg5 harg5 hc0 hc1 x0 x1 xs0).2.1)

theorem cover2_C_2 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) (y : S1024x128.Idx) :
    ∃ pc ∈ (kernelRun2_C (F := F) c i arg2 harg2 arg3 harg3 arg4 harg4 arg5 harg5 hc0 hc1 x0 x1 xs0).1, y ∈ pc.1.set :=
  View.cover_of_tiledL (kernelRun2_C (F := F) c i arg2 harg2 arg3 harg3 arg4 harg4 arg5 harg5 hc0 hc1 x0 x1 xs0).1 S1024x128.size (by sl_kernel_rfl) y

/-- The output block after a last edge chunk. -/
def out2_C_2 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) : Vec F S1024x128 .f32 :=
  VO2_2.read (Elt F) (VO2_2.writes (Elt F) VO2_2.junk (kernelRun2_C (F := F) c i arg2 harg2 arg3 harg3 arg4 harg4 arg5 harg5 hc0 hc1 x0 x1 xs0).1)

theorem scover2_C_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) (y : S1024x128.Idx) :
    ∃ pc ∈ (kernelRun2_C (F := F) c i arg2 harg2 arg3 harg3 arg4 harg4 arg5 harg5 hc0 hc1 x0 x1 xs0).2.1, y ∈ pc.1.set :=
  View.cover_of_tiledL (kernelRun2_C (F := F) c i arg2 harg2 arg3 harg3 arg4 harg4 arg5 harg5 hc0 hc1 x0 x1 xs0).2.1 S1024x128.size (by sl_kernel_rfl) y

/-- The accumulator after a last edge chunk. -/
def sout2_C_0 (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) : Vec F S1024x128 .f32 :=
  VS2_0.read (Elt F) (VS2_0.writes (Elt F) VS2_0.junk (kernelRun2_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle2_2 : Vec F S1024x128 .f32 := VO2_2.read (Elt F) VO2_2.junk

/-! ## The accumulation, point by point -/

/-- After the body at position `n`: (the output block, the accumulator) — the case the closed forms select, a later
    edge chunk's over what position `n - 1` left in the accumulator. -/
def outsAt2 (c : Dev nD) : (n : ℕ) → n < cfg2.N → Vec F S1024x128 .f32 × Vec F S1024x128 .f32
  | 0, hn => (idle2_2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 391 = 0 then
      if h1 : (n + 1) % 391 = 390 then
        False.elim (by omega)
      else
        (idle2_2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 391 = 390 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idle2_2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 391 = 0) (h1 : ¬t.val % 391 = 390) :
    outsAt2 V c t.val t.isLt = (idle2_2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 391 = 0) (h1 : ¬t.val % 391 = 390) :
    outsAt2 V c t.val t.isLt = (idle2_2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 391 = 0) (h1 : t.val % 391 = 390) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut2 (c : Dev nD) : sProp 𝕄 :=
  Pipeline.scopedRestBut (Ix := Unit) (Name := ℕ) (U := Pipeline.UD sig nD τ) (Lvl := ℕ) (Val := Elt F) spec2 c [cc2_scratch0]

/-- Before position `n`: at the region's entry the class invariant (the accumulator at anything); afterwards the
    accumulator at what position `n - 1` left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-! ## The pipeline's proof data -/

/-- The arrays as the region finds them; after the body each input's buffer at its block, the output's at `outsAt2`'s
    first component; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body2 (c : Dev nD) (t : Fin cfg2.N) :
    bodyPre2 V c t ⊢ wp frame (wpE (defs₀ (F := F)) Variants.none c none) Set.univ (bodyAtH2 t) (fun _ => bodyPost2 V c t) := by
  unfold bodyPre2 bodyPost2 bodyAtH2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 391 = 390
  · have h0 : ¬t.val % 391 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C_2 sout2_C_0; (try dsimp only)
    rw [PhiS2_castSucc V c t, PhiS2_pos V c _ _ hz]
    iintro ⟨⟨⟨HS0, HR⟩, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val % 391 = 0
    · rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have hN : cfg2.N = 19159 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HR⟩, Hg⟩
  isplitl [HS0 HR]
  · isplitl [HS0]
    · iexists _; iexact HS0
    iexact HR
  iexact Hg

end

end Cert.KernelIdeal.H

end
-- ==== Proof.KI.L3Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
end

/-! ## The memrefs the run is stated over -/
abbrev VO3_3 : View sig .tc .vmem S2000x128 .f32 := (Memref.whole cc3_stg3_0 : Memref sig .tc .vmem S2000x128 .f32).view
abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x128 .f32 := win3_3.stage (cfg3.slots t 3)
abbrev hs3_3 (t : Fin cfg3.N) : (ms3_3 t).IsWhole := hstage3_3 ((cfg3.slots t 3).cast nbuf3_3)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl

set_option maxHeartbeats 4000000 in
/-- The pieces the body leaves in the output block (the witness the run finds), with the body's triple on whole
    memrefs: the three inputs at their contents and back, the output from anything. -/
noncomputable def kernelRun3 (c : Dev nD) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc3__linear_kernel i arg1 harg1 arg2 harg2 arg3 harg3 arg4 harg4) K } := by
  refine ⟨?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.H

end
-- ==== Proof.KI.L3.lean ====
/-
  The dense-layer launch on the word features: what its output block holds after each grid point, the proof data of
  its pipeline over any entry contents, and the body obligation at every grid point.
-/
import proofs.«407232_j23192823399226_1_alg».proof.Proof.KI.L3Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH3 (t : Fin cfg3.N) : Prog (TpuEff nD τ sig (Elt F) Λ₀ .tc) PUnit :=
  cc3__linear_kernel (grid3.coords t) (ms3_0 t) (hs3_0 t) (ms3_1 t) (hs3_1 t) (ms3_2 t) (hs3_2 t) (ms3_3 t) (hs3_3 t)

theorem cover3_3 (c : Dev nD) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun3 (F := F) c i arg1 harg1 arg2 harg2 arg3 harg3 arg4 harg4 x0 x1 x2).1, y ∈ pc.1.set :=
  View.cover_of_tiledL (kernelRun3 (F := F) c i arg1 harg1 arg2 harg2 arg3 harg3 arg4 harg4 x0 x1 x2).1 S2000x128.size (by sl_kernel_rfl) y

/-- The output block after the body: the run's pieces read back. -/
def out3_3 (c : Dev nD) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO3_3.read (Elt F) (VO3_3.writes (Elt F) VO3_3.junk (kernelRun3 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt3 (c : Dev nD) (t : Fin cfg3.N) : Vec F S2000x128 .f32 :=
  out3_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-- The arrays as the region finds them; after the body each input's buffer at its block, the output's at `outsAt3`;
    the class invariant; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks, so the run applies; the invariant and the core's
    `owes` pass through unread. -/
theorem sound_body3 (c : Dev nD) (t : Fin cfg3.N) :
    bodyPre3 V c t ⊢ wp frame (wpE (defs₀ (F := F)) Variants.none c none) Set.univ (bodyAtH3 t) (fun _ => bodyPost3 V c t) := by
  unfold bodyPre3 bodyPost3 bodyAtH3
  simp only [before3_0, before3_1, before3_2]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  unfold outsAt3 out3_3
  iintro ⟨HΦ, Ho, ⟨%d0, H0⟩, ⟨%d1, H1⟩, ⟨%d2, H2⟩, ⟨%d3, H3⟩⟩
  iapply ((kernelRun3 c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_3 c _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.H

end
-- ==== Proof.KI.L4Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
end

/-! ## The memrefs the run is stated over -/
abbrev VO4_3 : View sig .tc .vmem S2000x128 .f32 := (Memref.whole cc4_stg3_0 : Memref sig .tc .vmem S2000x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2000x128 .f32 := win4_3.stage (cfg4.slots t 3)
abbrev hs4_3 (t : Fin cfg4.N) : (ms4_3 t).IsWhole := hstage4_3 ((cfg4.slots t 3).cast nbuf4_3)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl

set_option maxHeartbeats 4000000 in
/-- The pieces the body leaves in the output block (the witness the run finds), with the body's triple on whole
    memrefs: the three inputs at their contents and back, the output from anything. -/
noncomputable def kernelRun4 (c : Dev nD) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc4__linear_kernel i arg1 harg1 arg2 harg2 arg3 harg3 arg4 harg4) K } := by
  refine ⟨?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.H

end
-- ==== Proof.KI.L4.lean ====
/-
  The dense-layer launch on the word features: what its output block holds after each grid point, the proof data of
  its pipeline over any entry contents, and the body obligation at every grid point.
-/
import proofs.«407232_j23192823399226_1_alg».proof.Proof.KI.L4Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH4 (t : Fin cfg4.N) : Prog (TpuEff nD τ sig (Elt F) Λ₀ .tc) PUnit :=
  cc4__linear_kernel (grid4.coords t) (ms4_0 t) (hs4_0 t) (ms4_1 t) (hs4_1 t) (ms4_2 t) (hs4_2 t) (ms4_3 t) (hs4_3 t)

theorem cover4_3 (c : Dev nD) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun4 (F := F) c i arg1 harg1 arg2 harg2 arg3 harg3 arg4 harg4 x0 x1 x2).1, y ∈ pc.1.set :=
  View.cover_of_tiledL (kernelRun4 (F := F) c i arg1 harg1 arg2 harg2 arg3 harg3 arg4 harg4 x0 x1 x2).1 S2000x128.size (by sl_kernel_rfl) y

/-- The output block after the body: the run's pieces read back. -/
def out4_3 (c : Dev nD) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO4_3.read (Elt F) (VO4_3.writes (Elt F) VO4_3.junk (kernelRun4 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt4 (c : Dev nD) (t : Fin cfg4.N) : Vec F S2000x128 .f32 :=
  out4_3 c (grid4.coords t) (ms4_0 t) (hs4_0 t) (ms4_1 t) (hs4_1 t) (ms4_2 t) (hs4_2 t) (ms4_3 t) (hs4_3 t) (iblk4 V c 0 t) (iblk4 V c 1 t) (iblk4 V c 2 t)

/-- The arrays as the region finds them; after the body each input's buffer at its block, the output's at `outsAt4`;
    the class invariant; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outsAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outsAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks, so the run applies; the invariant and the core's
    `owes` pass through unread. -/
theorem sound_body4 (c : Dev nD) (t : Fin cfg4.N) :
    bodyPre4 V c t ⊢ wp frame (wpE (defs₀ (F := F)) Variants.none c none) Set.univ (bodyAtH4 t) (fun _ => bodyPost4 V c t) := by
  unfold bodyPre4 bodyPost4 bodyAtH4
  simp only [before4_0, before4_1, before4_2]
  rw [show (dat4 V c).Φ t.succ = (dat4 V c).Φ t.castSucc from rfl,
    show (dat4 V c).owesAt () t.succ = (dat4 V c).owesAt () t.castSucc from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold outsAt4 out4_3
  iintro ⟨HΦ, Ho, ⟨%d0, H0⟩, ⟨%d1, H1⟩, ⟨%d2, H2⟩, ⟨%d3, H3⟩⟩
  iapply ((kernelRun4 c (grid4.coords t) _ _ _ _ _ _ _ _ (iblk4 V c 0 t) (iblk4 V c 1 t) (iblk4 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.H

end
-- ==== Proof.KI.L5Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
end

/-! ## The memrefs the run is stated over -/
abbrev VO5_3 : View sig .tc .vmem S2000x128 .f32 := (Memref.whole cc5_stg3_0 : Memref sig .tc .vmem S2000x128 .f32).view
abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2000x128 .f32 := win5_3.stage (cfg5.slots t 3)
abbrev hs5_3 (t : Fin cfg5.N) : (ms5_3 t).IsWhole := hstage5_3 ((cfg5.slots t 3).cast nbuf5_3)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl

set_option maxHeartbeats 4000000 in
/-- The pieces the body leaves in the output block (the witness the run finds), with the body's triple on whole
    memrefs: the three inputs at their contents and back, the output from anything. -/
noncomputable def kernelRun5 (c : Dev nD) (i : grid5.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc5__linear_kernel i arg1 harg1 arg2 harg2 arg3 harg3 arg4 harg4) K } := by
  refine ⟨?_, fun E K => ?run⟩
  case run =>
    simp only [cc5__linear_kernel_eq_skeleton]; unfold cc5__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.H

end
-- ==== Proof.KI.L5.lean ====
/-
  The dense-layer launch on the word features: what its output block holds after each grid point, the proof data of
  its pipeline over any entry contents, and the body obligation at every grid point.
-/
import proofs.«407232_j23192823399226_1_alg».proof.Proof.KI.L5Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH5 (t : Fin cfg5.N) : Prog (TpuEff nD τ sig (Elt F) Λ₀ .tc) PUnit :=
  cc5__linear_kernel (grid5.coords t) (ms5_0 t) (hs5_0 t) (ms5_1 t) (hs5_1 t) (ms5_2 t) (hs5_2 t) (ms5_3 t) (hs5_3 t)

theorem cover5_3 (c : Dev nD) (i : grid5.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun5 (F := F) c i arg1 harg1 arg2 harg2 arg3 harg3 arg4 harg4 x0 x1 x2).1, y ∈ pc.1.set :=
  View.cover_of_tiledL (kernelRun5 (F := F) c i arg1 harg1 arg2 harg2 arg3 harg3 arg4 harg4 x0 x1 x2).1 S2000x128.size (by sl_kernel_rfl) y

/-- The output block after the body: the run's pieces read back. -/
def out5_3 (c : Dev nD) (i : grid5.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO5_3.read (Elt F) (VO5_3.writes (Elt F) VO5_3.junk (kernelRun5 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt5 (c : Dev nD) (t : Fin cfg5.N) : Vec F S2000x128 .f32 :=
  out5_3 c (grid5.coords t) (ms5_0 t) (hs5_0 t) (ms5_1 t) (hs5_1 t) (ms5_2 t) (hs5_2 t) (ms5_3 t) (hs5_3 t) (iblk5 V c 0 t) (iblk5 V c 1 t) (iblk5 V c 2 t)

/-- The arrays as the region finds them; after the body each input's buffer at its block, the output's at `outsAt5`;
    the class invariant; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks, so the run applies; the invariant and the core's
    `owes` pass through unread. -/
theorem sound_body5 (c : Dev nD) (t : Fin cfg5.N) :
    bodyPre5 V c t ⊢ wp frame (wpE (defs₀ (F := F)) Variants.none c none) Set.univ (bodyAtH5 t) (fun _ => bodyPost5 V c t) := by
  unfold bodyPre5 bodyPost5 bodyAtH5
  simp only [before5_0, before5_1, before5_2]
  rw [show (dat5 V c).Φ t.succ = (dat5 V c).Φ t.castSucc from rfl,
    show (dat5 V c).owesAt () t.succ = (dat5 V c).owesAt () t.castSucc from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  unfold outsAt5 out5_3
  iintro ⟨HΦ, Ho, ⟨%d0, H0⟩, ⟨%d1, H1⟩, ⟨%d2, H2⟩, ⟨%d3, H3⟩⟩
  iapply ((kernelRun5 c (grid5.coords t) _ _ _ _ _ _ _ _ (iblk5 V c 0 t) (iblk5 V c 1 t) (iblk5 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_3 c _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end

end Cert.KernelIdeal.H

end
-- ==== Proof.KI.L6Run.lean ====
/-
  The dense-layer launch on the word features (the first pallas_call): each grid point takes a block of 2000 rows,
  the whole weight matrix and the bias, and stores the block of x Wᵀ + b.  Here: the windows' blocks read off the
  arrays as the region finds them, the staging memrefs, and the body's triple on whole memrefs.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
end

/-! ## The memrefs the run is stated over -/
abbrev VO6_3 : View sig .tc .vmem S2000x128 .f32 := (Memref.whole cc6_stg3_0 : Memref sig .tc .vmem S2000x128 .f32).view
abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2000x128 .f32 := win6_3.stage (cfg6.slots t 3)
abbrev hs6_3 (t : Fin cfg6.N) : (ms6_3 t).IsWhole := hstage6_3 ((cfg6.slots t 3).cast nbuf6_3)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl

set_option maxHeartbeats 4000000 in
/-- The pieces the body leaves in the output block (the witness the run finds), with the body's triple on whole
    memrefs: the three inputs at their contents and back, the output from anything. -/
noncomputable def kernelRun6 (c : Dev nD) (i : grid6.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    { L3 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc6__linear_kernel i arg1 harg1 arg2 harg2 arg3 harg3 arg4 harg4) K } := by
  refine ⟨?_, fun E K => ?run⟩
  case run =>
    simp only [cc6__linear_kernel_eq_skeleton]; unfold cc6__linear_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.H

end
-- ==== Proof.KI.L6.lean ====
/-
  The dense-layer launch on the word features: what its output block holds after each grid point, the proof data of
  its pipeline over any entry contents, and the body obligation at every grid point.
-/
import proofs.«407232_j23192823399226_1_alg».proof.Proof.KI.L6Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs. -/
abbrev bodyAtH6 (t : Fin cfg6.N) : Prog (TpuEff nD τ sig (Elt F) Λ₀ .tc) PUnit :=
  cc6__linear_kernel (grid6.coords t) (ms6_0 t) (hs6_0 t) (ms6_1 t) (hs6_1 t) (ms6_2 t) (hs6_2 t) (ms6_3 t) (hs6_3 t)

theorem cover6_3 (c : Dev nD) (i : grid6.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) (y : S2000x128.Idx) :
    ∃ pc ∈ (kernelRun6 (F := F) c i arg1 harg1 arg2 harg2 arg3 harg3 arg4 harg4 x0 x1 x2).1, y ∈ pc.1.set :=
  View.cover_of_tiledL (kernelRun6 (F := F) c i arg1 harg1 arg2 harg2 arg3 harg3 arg4 harg4 x0 x1 x2).1 S2000x128.size (by sl_kernel_rfl) y

/-- The output block after the body: the run's pieces read back. -/
def out6_3 (c : Dev nD) (i : grid6.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) : Vec F S2000x128 .f32 :=
  VO6_3.read (Elt F) (VO6_3.writes (Elt F) VO6_3.junk (kernelRun6 (F := F) c i arg1 harg1 arg2 harg2 arg3 harg3 arg4 harg4 x0 x1 x2).1)

section
variable (V : (c : Dev nD) → (b : Ref sig .tc) → Buf (Elt F) ((c : Thread nD τ).loc b))

/-- The output block after the body at point `t`. -/
def outsAt6 (c : Dev nD) (t : Fin cfg6.N) : Vec F S2000x128 .f32 :=
  out6_3 c (grid6.coords t) (ms6_0 t) (hs6_0 t) (ms6_1 t) (hs6_1 t) (ms6_2 t) (hs6_2 t) (ms6_3 t) (hs6_3 t) (iblk6 V c 0 t) (iblk6 V c 1 t) (iblk6 V c 2 t)

/-- The arrays as the region finds them; after the body each input's buffer at its block, the output's at `outsAt6`;
    the class invariant; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outsAt6 V c t
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outsAt6 V c t := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks, so the run applies; the invariant and the core's
    `owes` pass through unread. -/
theorem sound_body6 (c : Dev nD) (t : Fin cfg6.N) :
    bodyPre6 V c t ⊢ wp frame (wpE (defs₀ (F := F)) Variants.none c none) Set.univ (bodyAtH6 t) (fun _ => bodyPost6 V c t) := by
  unfold bodyPre6 bodyPost6 bodyAtH6
  simp only [before6_0, before6_1, before6_2]
  rw [show (dat6 V c).Φ t.succ = (dat6 V c).Φ t.castSucc from rfl,
    show (dat6 V c).owesAt () t.succ = (dat6 V c).owesAt () t.castSucc from rfl]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  unfold outsAt6 out6_3
  iintro ⟨HΦ, Ho, ⟨%d0, H0⟩, ⟨%d1, H1⟩, ⟨%d2, H2⟩, ⟨%d3, H3⟩⟩
  iapply ((kernelRun6 c (grid6.coords t) _ _ _ _ _ _ _ _ (iblk6 V c 0 t) (iblk6 V c 1 t) (iblk6 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover6_3 c _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end

end Cert.KernelIdeal.H

end
-- ==== Proof.KI.G7Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
end

/-! ## The grid's coordinates at a point, the branch conditions in closed form, and where the output block is written back -/

theorem coords7_0 (t : Fin cfg7.N) : ((grid7.coords t) 0).val = t.val / 49 := by
  have hN : grid7.N = 9604 := N_7
  have ht : t.val < 9604 := hN ▸ t.isLt
  show t.val / grid7.stride 0 % 196 = _
  rw [show grid7.stride 0 = 49 from by decide]
  omega
theorem coords7_1 (t : Fin cfg7.N) : ((grid7.coords t) 1).val = t.val % 49 := by
  show t.val / grid7.stride 1 % 49 = _
  rw [show grid7.stride 1 = 1 from by decide]
  omega

/-- "This is the first source tile": the accumulator is zeroed. -/
abbrev cond7_0 (i : grid7.Coords) : Prop := (Scalar.cmpi .ne (Scalar.extui (Scalar.cmpi .eq (BitVec.ofNat 32 (i 1).val) 0#32)) 0#32) = 1#1
/-- "This is the last source tile": the accumulator is stored to the output block. -/
abbrev cond7_1 (i : grid7.Coords) : Prop := k7_cond2 i = 1#1
/-- The two tests read only the second coordinate, which takes 49 values. -/
theorem condw7_0 : ∀ v : Fin 49, ((Scalar.cmpi .ne (Scalar.extui (Scalar.cmpi .eq (BitVec.ofNat 32 v.val) 0#32)) 0#32) = 1#1) ↔ v.val = 0 := by decide
theorem condw7_1 : ∀ v : Fin 49, ((Scalar.cmpi .ne (Scalar.extui (Scalar.cmpi .eq (BitVec.ofNat 32 v.val) 48#32)) 0#32) = 1#1) ↔ v.val = 48 := by decide
theorem hcond7_0 (t : Fin cfg7.N) : cond7_0 (grid7.coords t) ↔ t.val % 49 = 0 := by
  rw [← coords7_1 t]; exact condw7_0 ((grid7.coords t) 1)
theorem hcond7_1 (t : Fin cfg7.N) : cond7_1 (grid7.coords t) ↔ t.val % 49 = 48 := by
  rw [← coords7_1 t]; exact condw7_1 ((grid7.coords t) 1)

/-- The output window's block index at a point: (t / 49, 0). -/
theorem oidx7 (t : Fin cfg7.N) : win7_3.index t (0 : Fin 2) = t.val / 49 ∧ win7_3.index t (1 : Fin 2) = 0 := by
  have hN : grid7.N = 9604 := N_7
  have ht : t.val < 9604 := hN ▸ t.isLt
  have c0 := coords7_0 t
  refine ⟨?_, rfl⟩
  show (BitVec.ofNat 32 ((grid7.coords t) 0).val).toNat = _
  rw [BitVec.toNat_ofNat, c0]; omega

/-- The output block is written back exactly at the points ≡ 48 (mod 49): there the next point's block is another (or
    the grid ends), and nowhere else does the block index move. -/
theorem flushAt7_3 (t : Fin cfg7.N) : (cfg7.win 3).flush t = true ↔ t.val % 49 = 48 := by
  have hN : grid7.N = 9604 := N_7
  have ht : t.val < 9604 := hN ▸ t.isLt
  show win7_3.flush t = true ↔ _
  unfold Pipeline.Window.flush
  rw [show win7_3.isOut = true from rfl]
  simp only [Bool.true_and, Bool.or_eq_true, decide_eq_true_eq]
  constructor
  · rintro (h | ⟨hl, hne⟩)
    · omega
    · by_contra h48
      apply hne
      obtain ⟨a0, a1⟩ := oidx7 ⟨t.val + 1, hl⟩
      obtain ⟨b0, b1⟩ := oidx7 t
      funext a
      match a with
      | ⟨0, _⟩ =>
        show win7_3.index ⟨t.val + 1, hl⟩ (0 : Fin 2) = win7_3.index t (0 : Fin 2)
        rw [a0, b0]
        show (t.val + 1) / 49 = t.val / 49
        omega
      | ⟨1, _⟩ =>
        show win7_3.index ⟨t.val + 1, hl⟩ (1 : Fin 2) = win7_3.index t (1 : Fin 2)
        rw [a1, b1]
  · intro h48
    by_cases hl : t.val + 1 = grid7.N
    · exact Or.inl hl
    · have hl' : t.val + 1 < grid7.N := by omega
      refine Or.inr ⟨hl', fun heq => ?_⟩
      have h0 := congrFun heq (0 : Fin 2)
      rw [(oidx7 ⟨t.val + 1, hl'⟩).1, (oidx7 t).1] at h0
      have h0' : (t.val + 1) / 49 = t.val / 49 := h0
      omega
theorem noFlush7_3 (t : Fin cfg7.N) (h : ¬cond7_1 (grid7.coords t)) : (cfg7.win 3).flush t = false := by
  cases hf : (cfg7.win 3).flush t with
  | false => rfl
  | true => exact absurd ((hcond7_1 t).mpr ((flushAt7_3 t).mp hf)) h

/-! ## Where the windows are idle -/
theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem idleAt7_3 : ∀ t : Fin cfg7.N, ¬cond7_1 (grid7.coords t) → cfg7.idle 3 (grid7.coords t) = true := fun t h => by
  show (!(k7_cond2 (grid7.coords t) == 1#1)) = true
  simp only [Bool.not_eq_true', beq_eq_false_iff_ne, ne_eq]
  exact h
theorem liveAt7_3 : ∀ t : Fin cfg7.N, cond7_1 (grid7.coords t) → cfg7.idle 3 (grid7.coords t) = false := fun t h => by
  show (!(k7_cond2 (grid7.coords t) == 1#1)) = false
  simp only [Bool.not_eq_false', beq_iff_eq]
  exact h

/-! ## The memrefs the runs are stated over -/
abbrev VO7_3 : View sig .tc .vmem S2048x128 .bf16 := (Memref.whole cc7_stg3_0 : Memref sig .tc .vmem S2048x128 .bf16).view
abbrev ms7_0 (t : Fin cfg7.N) : Memref sig .tc .vmem S2048 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2048 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x128 .bf16 := win7_3.stage (cfg7.slots t 3)
abbrev hs7_3 (t : Fin cfg7.N) : (ms7_3 t).IsWhole := hstage7_3 ((cfg7.slots t 3).cast nbuf7_3)
/-- The accumulator: a whole scoped buffer of the kernel's own, carried from point to point. -/
abbrev scM7_0 : Memref sig .tc .vmem S2048x128 .f32 := Memref.whole cc7_scratch0
abbrev VS7_0 : View sig .tc .vmem S2048x128 .f32 := scM7_0.view

/-- The class invariant with the accumulator as a memref owned at some contents; the other scoped buffers stay unopened. -/
theorem PhiA7_eq (c : Dev nD) :
    (Pipeline.ΦA spec7 c : sProp 𝕄)
      = iprop(iprop((∃ d, owns (c : Thread nD τ) scM7_0 fullShare d) ∗ Pipeline.scopedRestBut (Ix := Unit) (Name := ℕ) (U := Pipeline.UD sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.H

end
-- ==== Proof.KI.G7RunB.lean ====
/-
  A gather launch (the first one-hot product of a relation), at a middle source tile (neither the first nor the last): the accumulator, found at what the
  point before left, gets the product added; the output block is not touched.
-/
import proofs.«407232_j23192823399226_1_alg».proof.Proof.KI.G7Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun7_B (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G7RunA.lean ====
/-
  A gather launch (the first one-hot product of a relation), at the first source tile: the accumulator, whatever it held, is zeroed and gets the product
  added; the output block is not touched.
-/
import proofs.«407232_j23192823399226_1_alg».proof.Proof.KI.G7RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun7_A (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G7RunC.lean ====
/-
  A gather launch (the first one-hot product of a relation), at the last source tile: the accumulator, found at what the point before left, gets the
  product added and is then stored to the output block.
-/
import proofs.«407232_j23192823399226_1_alg».proof.Proof.KI.G7RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun7_C (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨?_, ?_, fun E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.G7.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.KI.G7RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH7 (t : Fin cfg7.N) : Prog (TpuEff nD τ sig (Elt F) Λ₀ .tc) PUnit :=
  cc7__gather_kernel (grid7.coords t) (ms7_0 t) (hs7_0 t) (ms7_1 t) (hs7_1 t) (ms7_2 t) (hs7_2 t) (ms7_3 t) (hs7_3 t) scM7_0 (Memref.isWhole_whole _)

/-! ## What each case leaves -/

theorem scover7_A_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) (y : S2048x128.Idx) :
    ∃ pc ∈ (kernelRun7_A (F := F) c i arg2 harg2 arg3 harg3 arg4 harg4 arg5 harg5 arg6 harg6 hc0 hc1 x0 x1 x2).2.1, y ∈ pc.1.set :=
  View.cover_of_tiledL (kernelRun7_A (F := F) c i arg2 harg2 arg3 harg3 arg4 harg4 arg5 harg5 arg6 harg6 hc0 hc1 x0 x1 x2).2.1 S2048x128.size (by sl_kernel_rfl) y

/-- The accumulator after a first source tile: the case's pieces read back. -/
def sout7_A_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) : Vec F S2048x128 .f32 :=
  VS7_0.read (Elt F) (VS7_0.writes (Elt F) VS7_0.junk (kernelRun7_A (F := F) c i arg2 harg2 arg3 harg3 arg4 harg4 arg5 harg5 arg6 harg6 hc0 hc1 x0 x1 x2).2.1)

theorem scover7_B_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) (y : S2048x128.Idx) :
    ∃ pc ∈ (kernelRun7_B (F := F) c i arg2 harg2 arg3 harg3 arg4 harg4 arg5 harg5 arg6 harg6 hc0 hc1 x0 x1 x2 xs0).2.1, y ∈ pc.1.set :=
  View.cover_of_tiledL (kernelRun7_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout7_B_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) : Vec F S2048x128 .f32 :=
  VS7_0.read (Elt F) (VS7_0.writes (Elt F) VS7_0.junk (kernelRun7_B (F := F) c i arg2 harg2 arg3 harg3 arg4 harg4 arg5 harg5 arg6 harg6 hc0 hc1 x0 x1 x2 xs0).2.1)

theorem cover7_C_3 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) (y : S2048x128.Idx) :
    ∃ pc ∈ (kernelRun7_C (F := F) c i arg2 harg2 arg3 harg3 arg4 harg4 arg5 harg5 arg6 harg6 hc0 hc1 x0 x1 x2 xs0).1, y ∈ pc.1.set :=
  View.cover_of_tiledL (kernelRun7_C (F := F) c i arg2 harg2 arg3 harg3 arg4 harg4 arg5 harg5 arg6 harg6 hc0 hc1 x0 x1 x2 xs0).1 S2048x128.size (by sl_kernel_rfl) y

/-- The output block after a last source tile. -/
def out7_C_3 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) : Vec F S2048x128 .bf16 :=
  VO7_3.read (Elt F) (VO7_3.writes (Elt F) VO7_3.junk (kernelRun7_C (F := F) c i arg2 harg2 arg3 harg3 arg4 harg4 arg5 harg5 arg6 harg6 hc0 hc1 x0 x1 x2 xs0).1)

theorem scover7_C_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) (y : S2048x128.Idx) :
    ∃ pc ∈ (kernelRun7_C (F := F) c i arg2 harg2 arg3 harg3 arg4 harg4 arg5 harg5 arg6 harg6 hc0 hc1 x0 x1 x2 xs0).2.1, y ∈ pc.1.set :=
  View.cover_of_tiledL (kernelRun7_C (F := F) c i arg2 harg2 arg3 harg3 arg4 harg4 arg5 harg5 arg6 harg6 hc0 hc1 x0 x1 x2 xs0).2.1 S2048x128.size (by sl_kernel_rfl) y

/-- The accumulator after a last source tile. -/
def sout7_C_0 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) : Vec F S2048x128 .f32 :=
  VS7_0.read (Elt F) (VS7_0.writes (Elt F) VS7_0.junk (kernelRun7_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle7_3 : Vec F S2048x128 .bf16 := VO7_3.read (Elt F) VO7_3.junk

/-! ## The accumulation, point by point -/

/-- After the body at position `n`: (the output block, the accumulator) — the case the closed forms select, a later
    source tile's over what position `n - 1` left in the accumulator. -/
def outsAt7 (c : Dev nD) : (n : ℕ) → n < cfg7.N → Vec F S2048x128 .bf16 × Vec F S2048x128 .f32
  | 0, hn => (idle7_3, sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 49 = 0 then
      if h1 : (n + 1) % 49 = 48 then
        False.elim (by omega)
      else
        (idle7_3, sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 49 = 48 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2,
         sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (idle7_3, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

theorem outsAt7_A (c : Dev nD) (t : Fin cfg7.N) (h0 : t.val % 49 = 0) (h1 : ¬t.val % 49 = 48) :
    outsAt7 V c t.val t.isLt = (idle7_3, sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

theorem outsAt7_B (c : Dev nD) (t : Fin cfg7.N) (h0 : ¬t.val % 49 = 0) (h1 : ¬t.val % 49 = 48) :
    outsAt7 V c t.val t.isLt = (idle7_3, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 49 = 0) (h1 : t.val % 49 = 48) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2,
      sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut7 (c : Dev nD) : sProp 𝕄 :=
  Pipeline.scopedRestBut (Ix := Unit) (Name := ℕ) (U := Pipeline.UD sig nD τ) (Lvl := ℕ) (Val := Elt F) spec7 c [cc7_scratch0]

/-- Before position `n`: at the region's entry the class invariant (the accumulator at anything); afterwards the
    accumulator at what position `n - 1` left, the other scoped buffers unopened, the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ restBut7 (F := F) c) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7_0 fullShare ((outsAt7 V c n hn).2) ∗ restBut7 (F := F) c) ∗ (∃ r, prngReg c r)) := rfl
theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ restBut7 (F := F) c) ∗ (∃ r, prngReg c r)) := by
  cases n with
  | zero => exact absurd rfl hz
  | succ n => rfl

/-! ## The pipeline's proof data -/

/-- The arrays as the region finds them; after the body each input's buffer at its block, the output's at `outsAt7`'s
    first component; the invariant `PhiS7`; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body7 (c : Dev nD) (t : Fin cfg7.N) :
    bodyPre7 V c t ⊢ wp frame (wpE (defs₀ (F := F)) Variants.none c none) Set.univ (bodyAtH7 t) (fun _ => bodyPost7 V c t) := by
  unfold bodyPre7 bodyPost7 bodyAtH7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  by_cases h1 : t.val % 49 = 48
  · have h0 : ¬t.val % 49 = 0 := by omega
    have hz : t.val ≠ 0 := by omega
    rw [show (dat7 V c).leavesExact 3 t = owns (c : Thread nD τ) (ms7_3 t) fullShare ((dat7 V c).after 3 t) from by
      unfold Dat.leavesExact; rw [liveAt7_3 t ((hcond7_1 t).mpr h1)], after7_3]
    rw [outsAt7_C V c t h0 h1]
    unfold out7_C_3 sout7_C_0; (try dsimp only)
    rw [PhiS7_castSucc V c t, PhiS7_pos V c _ _ hz]
    iintro ⟨⟨⟨HS0, HR⟩, Hg⟩, Ho, ⟨%d0, H0⟩, ⟨%d1, H1⟩, ⟨%d2, H2⟩, ⟨%d3, H3⟩⟩
    iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover7_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover7_C_3 c _ _ _ _ _ _ _ _ _ _ _ _ _ _ _ _ _)
  · rw [Dat.leavesExact_idle (dat7 V c) 3 t (idleAt7_3 t (fun h => h1 ((hcond7_1 t).mp h))) (noFlush7_3 t (fun h => h1 ((hcond7_1 t).mp h)))]
    by_cases h0 : t.val % 49 = 0
    · rw [outsAt7_A V c t h0 h1]
      unfold sout7_A_0; (try dsimp only)
      by_cases hz : t.val = 0
      · rw [PhiS7_castSucc V c t, PhiS7_zero V c _ _ hz, PhiA7_eq]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover7_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt7_B V c t h0 h1]
      unfold sout7_B_0; (try dsimp only)
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover7_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the class invariant back: the accumulator's contents are forgotten. -/
theorem hout7 (c : Dev nD) : (dat7 V c).Φ (Fin.last cfg7.N) ⊢ Pipeline.ΦA spec7 c := by
  have hN : cfg7.N = 9604 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨HS0, HR⟩, Hg⟩
  isplitl [HS0 HR]
  · isplitl [HS0]
    · iexists _; iexact HS0
    iexact HR
  iexact Hg

end

end Cert.KernelIdeal.H

end
-- ==== Proof.KI.S8Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
end

/-! ## The grid's coordinates at a point, the branch conditions in closed form, and where the output block is written back -/

theorem coords8_0 (t : Fin cfg8.N) : ((grid8.coords t) 0).val = t.val / 196 := by
  have hN : grid8.N = 784 := N_8
  have ht : t.val < 784 := hN ▸ t.isLt
  show t.val / grid8.stride 0 % 4 = _
  rw [show grid8.stride 0 = 196 from by decide]
  omega
theorem coords8_1 (t : Fin cfg8.N) : ((grid8.coords t) 1).val = t.val % 196 := by
  show t.val / grid8.stride 1 % 196 = _
  rw [show grid8.stride 1 = 1 from by decide]
  omega

/-- "This is the first edge chunk": the accumulator is zeroed. -/
abbrev cond8_0 (i : grid8.Coords) : Prop := (Scalar.cmpi .ne (Scalar.extui (Scalar.cmpi .eq (BitVec.ofNat 32 (i 1).val) 0#32)) 0#32) = 1#1
/-- "This is the last edge chunk": the accumulator is stored to the output block. -/
abbrev cond8_1 (i : grid8.Coords) : Prop := k8_cond2 i = 1#1
/-- The two tests read only the second coordinate, which takes 196 values. -/
theorem condw8_0 : ∀ v : Fin 196, ((Scalar.cmpi .ne (Scalar.extui (Scalar.cmpi .eq (BitVec.ofNat 32 v.val) 0#32)) 0#32) = 1#1) ↔ v.val = 0 := by decide
theorem condw8_1 : ∀ v : Fin 196, ((Scalar.cmpi .ne (Scalar.extui (Scalar.cmpi .eq (BitVec.ofNat 32 v.val) 195#32)) 0#32) = 1#1) ↔ v.val = 195 := by decide
theorem hcond8_0 (t : Fin cfg8.N) : cond8_0 (grid8.coords t) ↔ t.val % 196 = 0 := by
  rw [← coords8_1 t]; exact condw8_0 ((grid8.coords t) 1)
theorem hcond8_1 (t : Fin cfg8.N) : cond8_1 (grid8.coords t) ↔ t.val % 196 = 195 := by
  rw [← coords8_1 t]; exact condw8_1 ((grid8.coords t) 1)

/-- The output window's block index at a point: (t / 196, 0). -/
theorem oidx8 (t : Fin cfg8.N) : win8_2.index t (0 : Fin 2) = t.val / 196 ∧ win8_2.index t (1 : Fin 2) = 0 := by
  have hN : grid8.N = 784 := N_8
  have ht : t.val < 784 := hN ▸ t.isLt
  have c0 := coords8_0 t
  refine ⟨?_, rfl⟩
  show (BitVec.ofNat 32 ((grid8.coords t) 0).val).toNat = _
  rw [BitVec.toNat_ofNat, c0]; omega

/-- The output block is written back exactly at the points ≡ 195 (mod 196): there the next point's block is another (or
    the grid ends), and nowhere else does the block index move. -/
theorem flushAt8_2 (t : Fin cfg8.N) : (cfg8.win 2).flush t = true ↔ t.val % 196 = 195 := by
  have hN : grid8.N = 784 := N_8
  have ht : t.val < 784 := hN ▸ t.isLt
  show win8_2.flush t = true ↔ _
  unfold Pipeline.Window.flush
  rw [show win8_2.isOut = true from rfl]
  simp only [Bool.true_and, Bool.or_eq_true, decide_eq_true_eq]
  constructor
  · rintro (h | ⟨hl, hne⟩)
    · omega
    · by_contra h48
      apply hne
      obtain ⟨a0, a1⟩ := oidx8 ⟨t.val + 1, hl⟩
      obtain ⟨b0, b1⟩ := oidx8 t
      funext a
      match a with
      | ⟨0, _⟩ =>
        show win8_2.index ⟨t.val + 1, hl⟩ (0 : Fin 2) = win8_2.index t (0 : Fin 2)
        rw [a0, b0]
        show (t.val + 1) / 196 = t.val / 196
        omega
      | ⟨1, _⟩ =>
        show win8_2.index ⟨t.val + 1, hl⟩ (1 : Fin 2) = win8_2.index t (1 : Fin 2)
        rw [a1, b1]
  · intro h48
    by_cases hl : t.val + 1 = grid8.N
    · exact Or.inl hl
    · have hl' : t.val + 1 < grid8.N := by omega
      refine Or.inr ⟨hl', fun heq => ?_⟩
      have h0 := congrFun heq (0 : Fin 2)
      rw [(oidx8 ⟨t.val + 1, hl'⟩).1, (oidx8 t).1] at h0
      have h0' : (t.val + 1) / 196 = t.val / 196 := h0
      omega
theorem noFlush8_2 (t : Fin cfg8.N) (h : ¬cond8_1 (grid8.coords t)) : (cfg8.win 2).flush t = false := by
  cases hf : (cfg8.win 2).flush t with
  | false => rfl
  | true => exact absurd ((hcond8_1 t).mpr ((flushAt8_2 t).mp hf)) h

/-! ## Where the windows are idle -/
theorem liveAt8_0 : ∀ t : Fin cfg8.N, cfg8.idle 0 (grid8.coords t) = false := fun _ => rfl
theorem liveAt8_1 : ∀ t : Fin cfg8.N, cfg8.idle 1 (grid8.coords t) = false := fun _ => rfl
theorem idleAt8_2 : ∀ t : Fin cfg8.N, ¬cond8_1 (grid8.coords t) → cfg8.idle 2 (grid8.coords t) = true := fun t h => by
  show (!(k8_cond2 (grid8.coords t) == 1#1)) = true
  simp only [Bool.not_eq_true', beq_eq_false_iff_ne, ne_eq]
  exact h
theorem liveAt8_2 : ∀ t : Fin cfg8.N, cond8_1 (grid8.coords t) → cfg8.idle 2 (grid8.coords t) = false := fun t h => by
  show (!(k8_cond2 (grid8.coords t) == 1#1)) = false
  simp only [Bool.not_eq_false', beq_iff_eq]
  exact h

/-! ## The memrefs the runs are stated over -/
abbrev VO8_2 : View sig .tc .vmem S1024x128 .f32 := (Memref.whole cc8_stg2_0 : Memref sig .tc .vmem S1024x128 .f32).view
abbrev ms8_0 (t : Fin cfg8.N) : Memref sig .tc .vmem S2048 .i32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x128 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x128 .f32 := win8_2.stage (cfg8.slots t 2)
abbrev hs8_2 (t : Fin cfg8.N) : (ms8_2 t).IsWhole := hstage8_2 ((cfg8.slots t 2).cast nbuf8_2)
/-- The accumulator: a whole scoped buffer of the kernel's own, carried from point to point. -/
abbrev scM8_0 : Memref sig .tc .vmem S1024x128 .f32 := Memref.whole cc8_scratch0
abbrev VS8_0 : View sig .tc .vmem S1024x128 .f32 := scM8_0.view

/-- The class invariant with the accumulator as a memref owned at some contents; the other scoped buffers stay unopened. -/
theorem PhiA8_eq (c : Dev nD) :
    (Pipeline.ΦA spec8 c : sProp 𝕄)
      = iprop(iprop((∃ d, owns (c : Thread nD τ) scM8_0 fullShare d) ∗ Pipeline.scopedRestBut (Ix := Unit) (Name := ℕ) (U := Pipeline.UD sig nD τ) (Lvl := ℕ) (Val := Elt F) spec8 c [cc8_scratch0]) ∗ (∃ r, prngReg c r)) := by
  unfold Pipeline.ΦA; rw [scopedRest8_split]; simp only [scM8_0, owns_whole]; try rfl

end Cert.KernelIdeal.H

end
-- ==== Proof.KI.S8RunB.lean ====
/-
  A scatter launch (the second one-hot product of a relation), at a middle edge chunk (neither the first nor the last): the accumulator, found at what the
  point before left, gets the product added; the output block is not touched.
-/
import proofs.«407232_j23192823399226_1_alg».proof.Proof.KI.S8Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun8_B (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : ¬cond8_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S8RunA.lean ====
/-
  A scatter launch (the second one-hot product of a relation), at the first edge chunk: the accumulator, whatever it held, is zeroed and gets the product
  added; the output block is not touched.
-/
import proofs.«407232_j23192823399226_1_alg».proof.Proof.KI.S8RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun8_A (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond8_0 i) (hc1 : ¬cond8_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨[], ?_, fun xi2 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S8RunC.lean ====
/-
  A scatter launch (the second one-hot product of a relation), at the last edge chunk: the accumulator, found at what the point before left, gets the
  product added and is then stored to the output block.
-/
import proofs.«407232_j23192823399226_1_alg».proof.Proof.KI.S8RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun8_C (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc8__scatter_kernel i arg2 harg2 arg3 harg3 arg4 harg4 arg5 harg5) K } := by
  refine ⟨?_, ?_, fun E K => ?run⟩
  case run =>
    simp only [cc8__scatter_kernel_eq_skeleton]; unfold cc8__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.H

end
-- ==== Proof.KI.S8.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.KI.S8RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH8 (t : Fin cfg8.N) : Prog (TpuEff nD τ sig (Elt F) Λ₀ .tc) PUnit :=
  cc8__scatter_kernel (grid8.coords t) (ms8_0 t) (hs8_0 t) (ms8_1 t) (hs8_1 t) (ms8_2 t) (hs8_2 t) scM8_0 (Memref.isWhole_whole _)

/-! ## What each case leaves -/

theorem scover8_A_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond8_0 i) (hc1 : ¬cond8_1 i)
    (x0 : Vec F S2048 .i32) (x1 : Vec F S2048x128 .bf16) (y : S1024x128.Idx) :
    ∃ pc ∈ (kernelRun8_A (F := F) c i arg2 harg2 arg3 harg3 arg4 harg4 arg5 harg5 hc0 hc1 x0 x1).2.1, y ∈ pc.1.set :=
  View.cover_of_tiledL (kernelRun8_A (F := F) c i arg2 harg2 arg3 harg3 arg4 harg4 arg5 harg5 hc0 hc1 x0 x1).2.1 S1024x128.size (by sl_kernel_rfl) y

/-- The accumulator after a first edge chunk: the case's pieces read back. -/
def sout8_A_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond8_0 i) (hc1 : ¬cond8_1 i)
    (x0 : Vec F S2048 .i32) (x1 : Vec F S2048x128 .bf16) : Vec F S1024x128 .f32 :=
  VS8_0.read (Elt F) (VS8_0.writes (Elt F) VS8_0.junk (kernelRun8_A (F := F) c i arg2 harg2 arg3 harg3 arg4 harg4 arg5 harg5 hc0 hc1 x0 x1).2.1)

theorem scover8_B_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : ¬cond8_1 i)
    (x0 : Vec F S2048 .i32) (x1 : Vec F S2048x128 .bf16) (xs0 : Vec F S1024x128 .f32) (y : S1024x128.Idx) :
    ∃ pc ∈ (kernelRun8_B (F := F) c i arg2 harg2 arg3 harg3 arg4 harg4 arg5 harg5 hc0 hc1 x0 x1 xs0).2.1, y ∈ pc.1.set :=
  View.cover_of_tiledL (kernelRun8_B (F := F) c i arg2 harg2 arg3 harg3 arg4 harg4 arg5 harg5 hc0 hc1 x0 x1 xs0).2.1 S1024x128.size (by sl_kernel_rfl) y

/-- The accumulator after a middle edge chunk, over what the point before left (`xs0`). -/
def sout8_B_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : ¬cond8_1 i)
    (x0 : Vec F S2048 .i32) (x1 : Vec F S2048x128 .bf16) (xs0 : Vec F S1024x128 .f32) : Vec F S1024x128 .f32 :=
  VS8_0.read (Elt F) (VS8_0.writes (Elt F) VS8_0.junk (kernelRun8_B (F := F) c i arg2 harg2 arg3 harg3 arg4 harg4 arg5 harg5 hc0 hc1 x0 x1 xs0).2.1)

theorem cover8_C_2 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) (y : S1024x128.Idx) :
    ∃ pc ∈ (kernelRun8_C (F := F) c i arg2 harg2 arg3 harg3 arg4 harg4 arg5 harg5 hc0 hc1 x0 x1 xs0).1, y ∈ pc.1.set :=
  View.cover_of_tiledL (kernelRun8_C (F := F) c i arg2 harg2 arg3 harg3 arg4 harg4 arg5 harg5 hc0 hc1 x0 x1 xs0).1 S1024x128.size (by sl_kernel_rfl) y

/-- The output block after a last edge chunk. -/
def out8_C_2 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) : Vec F S1024x128 .f32 :=
  VO8_2.read (Elt F) (VO8_2.writes (Elt F) VO8_2.junk (kernelRun8_C (F := F) c i arg2 harg2 arg3 harg3 arg4 harg4 arg5 harg5 hc0 hc1 x0 x1 xs0).1)

theorem scover8_C_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) (y : S1024x128.Idx) :
    ∃ pc ∈ (kernelRun8_C (F := F) c i arg2 harg2 arg3 harg3 arg4 harg4 arg5 harg5 hc0 hc1 x0 x1 xs0).2.1, y ∈ pc.1.set :=
  View.cover_of_tiledL (kernelRun8_C (F := F) c i arg2 harg2 arg3 harg3 arg4 harg4 arg5 harg5 hc0 hc1 x0 x1 xs0).2.1 S1024x128.size (by sl_kernel_rfl) y

/-- The accumulator after a last edge chunk. -/
def sout8_C_0 (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) : Vec F S1024x128 .f32 :=
  VS8_0.read (Elt F) (VS8_0.writes (Elt F) VS8_0.junk (kernelRun8_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle8_2 : Vec F S1024x128 .f32 := VO8_2.read (Elt F) VO8_2.junk

/-! ## The accumulation, point by point -/

/-- After the body at position `n`: (the output block, the accumulator) — the case the closed forms select, a later
    edge chunk's over what position `n - 1` left in the accumulator. -/
def outsAt8 (c : Dev nD) : (n : ℕ) → n < cfg8.N → Vec F S1024x128 .f32 × Vec F S1024x128 .f32
  | 0, hn => (idle8_2, sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩))
  | n + 1, hn =>
    if h0 : (n + 1) % 196 = 0 then
      if h1 : (n + 1) % 196 = 195 then
        False.elim (by omega)
      else
        (idle8_2, sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩))
    else
      if h1 : (n + 1) % 196 = 195 then
        (out8_C_2 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2,
         sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (outsAt8 c n (Nat.lt_of_succ_lt hn)).2)
      else
        (idle8_2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (outsAt8 c n (Nat.lt_of_succ_lt hn)).2)

theorem outsAt8_A (c : Dev nD) (t : Fin cfg8.N) (h0 : t.val % 196 = 0) (h1 : ¬t.val % 196 = 195) :
    outsAt8 V c t.val t.isLt = (idle8_2, sout8_A_0 c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t)) := by
  obtain ⟨n, hn⟩ := t
  cases n with
  | zero => exact rfl
  | succ n => exact (dif_pos h0).trans ((dif_neg h1).trans rfl)

theorem outsAt8_B (c : Dev nD) (t : Fin cfg8.N) (h0 : ¬t.val % 196 = 0) (h1 : ¬t.val % 196 = 195) :
    outsAt8 V c t.val t.isLt = (idle8_2, sout8_B_0 c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 196 = 0) (h1 : t.val % 196 = 195) :
    outsAt8 V c t.val t.isLt = (out8_C_2 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2,
      sout8_C_0 c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut8 (c : Dev nD) : sProp 𝕄 :=
  Pipeline.scopedRestBut (Ix := Unit) (Name := ℕ) (U := Pipeline.UD sig nD τ) (Lvl := ℕ) (Val := Elt F) spec8 c [cc8_scratch0]

/-- Before position `n`: at the region's entry the class invariant (the accumulator at anything); afterwards the
    accumulator at what position `n - 1` left, the other scoped buffers unopened, the generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ restBut8 (F := F) c) ∗ (∃ r, prngReg c r))

theorem PhiS8_zero (c : Dev nD) (n : ℕ) (h : n ≤ cfg8.N) (hz : n = 0) : PhiS8 V c n h = Pipeline.ΦA spec8 c := by
  subst hz; rfl
theorem PhiS8_succ (c : Dev nD) (n : ℕ) (hn : n < cfg8.N) :
    PhiS8 V c (n + 1) hn = iprop(iprop(owns (c : Thread nD τ) scM8_0 fullShare ((outsAt8 V c n hn).2) ∗ restBut8 (F := F) c) ∗ (∃ r, prngReg c r)) := rfl
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ restBut8 (F := F) c) ∗ (∃ r, prngReg c r)) := by
  cases n with
  | zero => exact absurd rfl hz
  | succ n => rfl

/-! ## The pipeline's proof data -/

/-- The arrays as the region finds them; after the body each input's buffer at its block, the output's at `outsAt8`'s
    first component; the invariant `PhiS8`; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem PhiS8_castSucc (c : Dev nD) (t : Fin cfg8.N) :
    (dat8 V c).Φ t.castSucc = PhiS8 V c t.val (Nat.le_of_lt t.isLt) := by
  dsimp only [dat8]; simp only [Fin.coe_castSucc]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = (outsAt8 V c t.val t.isLt).1 := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body8 (c : Dev nD) (t : Fin cfg8.N) :
    bodyPre8 V c t ⊢ wp frame (wpE (defs₀ (F := F)) Variants.none c none) Set.univ (bodyAtH8 t) (fun _ => bodyPost8 V c t) := by
  unfold bodyPre8 bodyPost8 bodyAtH8
  simp only [before8_0, before8_1]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  by_cases h1 : t.val % 196 = 195
  · have h0 : ¬t.val % 196 = 0 := by omega
    have hz : t.val ≠ 0 := by omega
    rw [show (dat8 V c).leavesExact 2 t = owns (c : Thread nD τ) (ms8_2 t) fullShare ((dat8 V c).after 2 t) from by
      unfold Dat.leavesExact; rw [liveAt8_2 t ((hcond8_1 t).mpr h1)], after8_2]
    rw [outsAt8_C V c t h0 h1]
    unfold out8_C_2 sout8_C_0; (try dsimp only)
    rw [PhiS8_castSucc V c t, PhiS8_pos V c _ _ hz]
    iintro ⟨⟨⟨HS0, HR⟩, Hg⟩, Ho, ⟨%d0, H0⟩, ⟨%d1, H1⟩, ⟨%d2, H2⟩⟩
    iapply ((kernelRun8_C c (grid8.coords t) _ _ _ _ _ _ _ _ (fun h => h0 ((hcond8_0 t).mp h)) ((hcond8_1 t).mpr h1) (iblk8 V c 0 t) (iblk8 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover8_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover8_C_2 c _ _ _ _ _ _ _ _ _ _ _ _ _ _)
  · rw [Dat.leavesExact_idle (dat8 V c) 2 t (idleAt8_2 t (fun h => h1 ((hcond8_1 t).mp h))) (noFlush8_2 t (fun h => h1 ((hcond8_1 t).mp h)))]
    by_cases h0 : t.val % 196 = 0
    · rw [outsAt8_A V c t h0 h1]
      unfold sout8_A_0; (try dsimp only)
      by_cases hz : t.val = 0
      · rw [PhiS8_castSucc V c t, PhiS8_zero V c _ _ hz, PhiA8_eq]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
      · rw [PhiS8_castSucc V c t, PhiS8_pos V c _ _ hz]
        iintro ⟨⟨⟨HS0, HR⟩, Hg⟩, Ho, ⟨%d0, H0⟩, ⟨%d1, H1⟩, ⟨%d2, H2⟩⟩
        iapply ((kernelRun8_A c (grid8.coords t) _ _ _ _ _ _ _ _ ((hcond8_0 t).mpr h0) (fun h => h1 ((hcond8_1 t).mp h)) (iblk8 V c 0 t) (iblk8 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt8_B V c t h0 h1]
      unfold sout8_B_0; (try dsimp only)
      rw [PhiS8_castSucc V c t, PhiS8_pos V c _ _ hz]
      iintro ⟨⟨⟨HS0, HR⟩, Hg⟩, Ho, ⟨%d0, H0⟩, ⟨%d1, H1⟩, ⟨%d2, H2⟩⟩
      iapply ((kernelRun8_B c (grid8.coords t) _ _ _ _ _ _ _ _ (fun h => h0 ((hcond8_0 t).mp h)) (fun h => h1 ((hcond8_1 t).mp h)) (iblk8 V c 0 t) (iblk8 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover8_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last point the invariant gives the class invariant back: the accumulator's contents are forgotten. -/
theorem hout8 (c : Dev nD) : (dat8 V c).Φ (Fin.last cfg8.N) ⊢ Pipeline.ΦA spec8 c := by
  have hN : cfg8.N = 784 := N_8
  rw [show (dat8 V c).Φ (Fin.last cfg8.N) = PhiS8 V c (Fin.last cfg8.N).val (Nat.le_of_lt_succ (Fin.last cfg8.N).isLt) from rfl,
    PhiS8_pos V c _ _ (by rw [Fin.val_last]; omega), PhiA8_eq]
  iintro ⟨⟨HS0, HR⟩, Hg⟩
  isplitl [HS0 HR]
  · isplitl [HS0]
    · iexists _; iexact HS0
    iexact HR
  iexact Hg

end

end Cert.KernelIdeal.H

end
-- ==== Proof.KI.G9Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
end

/-! ## The grid's coordinates at a point, the branch conditions in closed form, and where the output block is written back -/

theorem coords9_0 (t : Fin cfg9.N) : ((grid9.coords t) 0).val = t.val / 4 := by
  have hN : grid9.N = 316 := N_9
  have ht : t.val < 316 := hN ▸ t.isLt
  show t.val / grid9.stride 0 % 79 = _
  rw [show grid9.stride 0 = 4 from by decide]
  omega
theorem coords9_1 (t : Fin cfg9.N) : ((grid9.coords t) 1).val = t.val % 4 := by
  show t.val / grid9.stride 1 % 4 = _
  rw [show grid9.stride 1 = 1 from by decide]
  omega

/-- "This is the first source tile": the accumulator is zeroed. -/
abbrev cond9_0 (i : grid9.Coords) : Prop := (Scalar.cmpi .ne (Scalar.extui (Scalar.cmpi .eq (BitVec.ofNat 32 (i 1).val) 0#32)) 0#32) = 1#1
/-- "This is the last source tile": the accumulator is stored to the output block. -/
abbrev cond9_1 (i : grid9.Coords) : Prop := k9_cond2 i = 1#1
/-- The two tests read only the second coordinate, which takes 4 values. -/
theorem condw9_0 : ∀ v : Fin 4, ((Scalar.cmpi .ne (Scalar.extui (Scalar.cmpi .eq (BitVec.ofNat 32 v.val) 0#32)) 0#32) = 1#1) ↔ v.val = 0 := by decide
theorem condw9_1 : ∀ v : Fin 4, ((Scalar.cmpi .ne (Scalar.extui (Scalar.cmpi .eq (BitVec.ofNat 32 v.val) 3#32)) 0#32) = 1#1) ↔ v.val = 3 := by decide
theorem hcond9_0 (t : Fin cfg9.N) : cond9_0 (grid9.coords t) ↔ t.val % 4 = 0 := by
  rw [← coords9_1 t]; exact condw9_0 ((grid9.coords t) 1)
theorem hcond9_1 (t : Fin cfg9.N) : cond9_1 (grid9.coords t) ↔ t.val % 4 = 3 := by
  rw [← coords9_1 t]; exact condw9_1 ((grid9.coords t) 1)

/-- The output window's block index at a point: (t / 4, 0). -/
theorem oidx9 (t : Fin cfg9.N) : win9_3.index t (0 : Fin 2) = t.val / 4 ∧ win9_3.index t (1 : Fin 2) = 0 := by
  have hN : grid9.N = 316 := N_9
  have ht : t.val < 316 := hN ▸ t.isLt
  have c0 := coords9_0 t
  refine ⟨?_, rfl⟩
  show (BitVec.ofNat 32 ((grid9.coords t) 0).val).toNat = _
  rw [BitVec.toNat_ofNat, c0]; omega

/-- The output block is written back exactly at the points ≡ 3 (mod 4): there the next point's block is another (or
    the grid ends), and nowhere else does the block index move. -/
theorem flushAt9_3 (t : Fin cfg9.N) : (cfg9.win 3).flush t = true ↔ t.val % 4 = 3 := by
  have hN : grid9.N = 316 := N_9
  have ht : t.val < 316 := hN ▸ t.isLt
  show win9_3.flush t = true ↔ _
  unfold Pipeline.Window.flush
  rw [show win9_3.isOut = true from rfl]
  simp only [Bool.true_and, Bool.or_eq_true, decide_eq_true_eq]
  constructor
  · rintro (h | ⟨hl, hne⟩)
    · omega
    · by_contra h48
      apply hne
      obtain ⟨a0, a1⟩ := oidx9 ⟨t.val + 1, hl⟩
      obtain ⟨b0, b1⟩ := oidx9 t
      funext a
      match a with
      | ⟨0, _⟩ =>
        show win9_3.index ⟨t.val + 1, hl⟩ (0 : Fin 2) = win9_3.index t (0 : Fin 2)
        rw [a0, b0]
        show (t.val + 1) / 4 = t.val / 4
        omega
      | ⟨1, _⟩ =>
        show win9_3.index ⟨t.val + 1, hl⟩ (1 : Fin 2) = win9_3.index t (1 : Fin 2)
        rw [a1, b1]
  · intro h48
    by_cases hl : t.val + 1 = grid9.N
    · exact Or.inl hl
    · have hl' : t.val + 1 < grid9.N := by omega
      refine Or.inr ⟨hl', fun heq => ?_⟩
      have h0 := congrFun heq (0 : Fin 2)
      rw [(oidx9 ⟨t.val + 1, hl'⟩).1, (oidx9 t).1] at h0
      have h0' : (t.val + 1) / 4 = t.val / 4 := h0
      omega
theorem noFlush9_3 (t : Fin cfg9.N) (h : ¬cond9_1 (grid9.coords t)) : (cfg9.win 3).flush t = false := by
  cases hf : (cfg9.win 3).flush t with
  | false => rfl
  | true => exact absurd ((hcond9_1 t).mpr ((flushAt9_3 t).mp hf)) h

/-! ## Where the windows are idle -/
theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl
theorem idleAt9_3 : ∀ t : Fin cfg9.N, ¬cond9_1 (grid9.coords t) → cfg9.idle 3 (grid9.coords t) = true := fun t h => by
  show (!(k9_cond2 (grid9.coords t) == 1#1)) = true
  simp only [Bool.not_eq_true', beq_eq_false_iff_ne, ne_eq]
  exact h
theorem liveAt9_3 : ∀ t : Fin cfg9.N, cond9_1 (grid9.coords t) → cfg9.idle 3 (grid9.coords t) = false := fun t h => by
  show (!(k9_cond2 (grid9.coords t) == 1#1)) = false
  simp only [Bool.not_eq_false', beq_iff_eq]
  exact h

/-! ## The memrefs the runs are stated over -/
abbrev VO9_3 : View sig .tc .vmem S2048x128 .bf16 := (Memref.whole cc9_stg3_0 : Memref sig .tc .vmem S2048x128 .bf16).view
abbrev ms9_0 (t : Fin cfg9.N) : Memref sig .tc .vmem S2048 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2048 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S2048x128 .bf16 := win9_3.stage (cfg9.slots t 3)
abbrev hs9_3 (t : Fin cfg9.N) : (ms9_3 t).IsWhole := hstage9_3 ((cfg9.slots t 3).cast nbuf9_3)
/-- The accumulator: a whole scoped buffer of the kernel's own, carried from point to point. -/
abbrev scM9_0 : Memref sig .tc .vmem S2048x128 .f32 := Memref.whole cc9_scratch0
abbrev VS9_0 : View sig .tc .vmem S2048x128 .f32 := scM9_0.view

/-- The class invariant with the accumulator as a memref owned at some contents; the other scoped buffers stay unopened. -/
theorem PhiA9_eq (c : Dev nD) :
    (Pipeline.ΦA spec9 c : sProp 𝕄)
      = iprop(iprop((∃ d, owns (c : Thread nD τ) scM9_0 fullShare d) ∗ Pipeline.scopedRestBut (Ix := Unit) (Name := ℕ) (U := Pipeline.UD sig nD τ) (Lvl := ℕ) (Val := Elt F) spec9 c [cc9_scratch0]) ∗ (∃ r, prngReg c r)) := by
  unfold Pipeline.ΦA; rw [scopedRest9_split]; simp only [scM9_0, owns_whole]; try rfl

end Cert.KernelIdeal.H

end
-- ==== Proof.KI.G9RunB.lean ====
/-
  A gather launch (the first one-hot product of a relation), at a middle source tile (neither the first nor the last): the accumulator, found at what the
  point before left, gets the product added; the output block is not touched.
-/
import proofs.«407232_j23192823399226_1_alg».proof.Proof.KI.G9Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun9_B (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gather_kernel i arg2 harg2 arg3 harg3 arg4 harg4 arg5 harg5 arg6 harg6) K } := by
  refine ⟨[], ?_, fun xi3 E K => ?run⟩
  case run =>
    simp only [cc9__gather_kernel_eq_skeleton]; unfold cc9__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G9RunA.lean ====
/-
  A gather launch (the first one-hot product of a relation), at the first source tile: the accumulator, whatever it held, is zeroed and gets the product
  added; the output block is not touched.
-/
import proofs.«407232_j23192823399226_1_alg».proof.Proof.KI.G9RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun9_A (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc9__gather_kernel i arg2 harg2 arg3 harg3 arg4 harg4 arg5 harg5 arg6 harg6) K } := by
  refine ⟨[], ?_, fun xi3 E K => ?run⟩
  case run =>
    simp only [cc9__gather_kernel_eq_skeleton]; unfold cc9__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G9RunC.lean ====
/-
  A gather launch (the first one-hot product of a relation), at the last source tile: the accumulator, found at what the point before left, gets the
  product added and is then stored to the output block.
-/
import proofs.«407232_j23192823399226_1_alg».proof.Proof.KI.G9RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun9_C (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc9__gather_kernel i arg2 harg2 arg3 harg3 arg4 harg4 arg5 harg5 arg6 harg6) K } := by
  refine ⟨?_, ?_, fun E K => ?run⟩
  case run =>
    simp only [cc9__gather_kernel_eq_skeleton]; unfold cc9__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.G9.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.KI.G9RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH9 (t : Fin cfg9.N) : Prog (TpuEff nD τ sig (Elt F) Λ₀ .tc) PUnit :=
  cc9__gather_kernel (grid9.coords t) (ms9_0 t) (hs9_0 t) (ms9_1 t) (hs9_1 t) (ms9_2 t) (hs9_2 t) (ms9_3 t) (hs9_3 t) scM9_0 (Memref.isWhole_whole _)

/-! ## What each case leaves -/

theorem scover9_A_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) (y : S2048x128.Idx) :
    ∃ pc ∈ (kernelRun9_A (F := F) c i arg2 harg2 arg3 harg3 arg4 harg4 arg5 harg5 arg6 harg6 hc0 hc1 x0 x1 x2).2.1, y ∈ pc.1.set :=
  View.cover_of_tiledL (kernelRun9_A (F := F) c i arg2 harg2 arg3 harg3 arg4 harg4 arg5 harg5 arg6 harg6 hc0 hc1 x0 x1 x2).2.1 S2048x128.size (by sl_kernel_rfl) y

/-- The accumulator after a first source tile: the case's pieces read back. -/
def sout9_A_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) : Vec F S2048x128 .f32 :=
  VS9_0.read (Elt F) (VS9_0.writes (Elt F) VS9_0.junk (kernelRun9_A (F := F) c i arg2 harg2 arg3 harg3 arg4 harg4 arg5 harg5 arg6 harg6 hc0 hc1 x0 x1 x2).2.1)

theorem scover9_B_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) (y : S2048x128.Idx) :
    ∃ pc ∈ (kernelRun9_B (F := F) c i arg2 harg2 arg3 harg3 arg4 harg4 arg5 harg5 arg6 harg6 hc0 hc1 x0 x1 x2 xs0).2.1, y ∈ pc.1.set :=
  View.cover_of_tiledL (kernelRun9_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout9_B_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) : Vec F S2048x128 .f32 :=
  VS9_0.read (Elt F) (VS9_0.writes (Elt F) VS9_0.junk (kernelRun9_B (F := F) c i arg2 harg2 arg3 harg3 arg4 harg4 arg5 harg5 arg6 harg6 hc0 hc1 x0 x1 x2 xs0).2.1)

theorem cover9_C_3 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) (y : S2048x128.Idx) :
    ∃ pc ∈ (kernelRun9_C (F := F) c i arg2 harg2 arg3 harg3 arg4 harg4 arg5 harg5 arg6 harg6 hc0 hc1 x0 x1 x2 xs0).1, y ∈ pc.1.set :=
  View.cover_of_tiledL (kernelRun9_C (F := F) c i arg2 harg2 arg3 harg3 arg4 harg4 arg5 harg5 arg6 harg6 hc0 hc1 x0 x1 x2 xs0).1 S2048x128.size (by sl_kernel_rfl) y

/-- The output block after a last source tile. -/
def out9_C_3 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) : Vec F S2048x128 .bf16 :=
  VO9_3.read (Elt F) (VO9_3.writes (Elt F) VO9_3.junk (kernelRun9_C (F := F) c i arg2 harg2 arg3 harg3 arg4 harg4 arg5 harg5 arg6 harg6 hc0 hc1 x0 x1 x2 xs0).1)

theorem scover9_C_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) (y : S2048x128.Idx) :
    ∃ pc ∈ (kernelRun9_C (F := F) c i arg2 harg2 arg3 harg3 arg4 harg4 arg5 harg5 arg6 harg6 hc0 hc1 x0 x1 x2 xs0).2.1, y ∈ pc.1.set :=
  View.cover_of_tiledL (kernelRun9_C (F := F) c i arg2 harg2 arg3 harg3 arg4 harg4 arg5 harg5 arg6 harg6 hc0 hc1 x0 x1 x2 xs0).2.1 S2048x128.size (by sl_kernel_rfl) y

/-- The accumulator after a last source tile. -/
def sout9_C_0 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) : Vec F S2048x128 .f32 :=
  VS9_0.read (Elt F) (VS9_0.writes (Elt F) VS9_0.junk (kernelRun9_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle9_3 : Vec F S2048x128 .bf16 := VO9_3.read (Elt F) VO9_3.junk

/-! ## The accumulation, point by point -/

/-- After the body at position `n`: (the output block, the accumulator) — the case the closed forms select, a later
    source tile's over what position `n - 1` left in the accumulator. -/
def outsAt9 (c : Dev nD) : (n : ℕ) → n < cfg9.N → Vec F S2048x128 .bf16 × Vec F S2048x128 .f32
  | 0, hn => (idle9_3, sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩) (iblk9 V c 2 ⟨0, hn⟩))
  | n + 1, hn =>
    if h0 : (n + 1) % 4 = 0 then
      if h1 : (n + 1) % 4 = 3 then
        False.elim (by omega)
      else
        (idle9_3, sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩) (iblk9 V c 2 ⟨n + 1, hn⟩))
    else
      if h1 : (n + 1) % 4 = 3 then
        (out9_C_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2,
         sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (outsAt9 c n (Nat.lt_of_succ_lt hn)).2)
      else
        (idle9_3, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2)

theorem outsAt9_A (c : Dev nD) (t : Fin cfg9.N) (h0 : t.val % 4 = 0) (h1 : ¬t.val % 4 = 3) :
    outsAt9 V c t.val t.isLt = (idle9_3, sout9_A_0 c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)) := by
  obtain ⟨n, hn⟩ := t
  cases n with
  | zero => exact rfl
  | succ n => exact (dif_pos h0).trans ((dif_neg h1).trans rfl)

theorem outsAt9_B (c : Dev nD) (t : Fin cfg9.N) (h0 : ¬t.val % 4 = 0) (h1 : ¬t.val % 4 = 3) :
    outsAt9 V c t.val t.isLt = (idle9_3, sout9_B_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 4 = 0) (h1 : t.val % 4 = 3) :
    outsAt9 V c t.val t.isLt = (out9_C_3 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2,
      sout9_C_0 c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut9 (c : Dev nD) : sProp 𝕄 :=
  Pipeline.scopedRestBut (Ix := Unit) (Name := ℕ) (U := Pipeline.UD sig nD τ) (Lvl := ℕ) (Val := Elt F) spec9 c [cc9_scratch0]

/-- Before position `n`: at the region's entry the class invariant (the accumulator at anything); afterwards the
    accumulator at what position `n - 1` left, the other scoped buffers unopened, the generator register at some state. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2) ∗ restBut9 (F := F) c) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9_0 fullShare ((outsAt9 V c n hn).2) ∗ restBut9 (F := F) c) ∗ (∃ r, prngReg c r)) := rfl
theorem PhiS9_pos (c : Dev nD) (n : ℕ) (h : n ≤ cfg9.N) (hz : n ≠ 0) :
    PhiS9 V c n h = iprop(iprop(owns (c : Thread nD τ) scM9_0 fullShare ((outsAt9 V c (n - 1) (by omega)).2) ∗ restBut9 (F := F) c) ∗ (∃ r, prngReg c r)) := by
  cases n with
  | zero => exact absurd rfl hz
  | succ n => rfl

/-! ## The pipeline's proof data -/

/-- The arrays as the region finds them; after the body each input's buffer at its block, the output's at `outsAt9`'s
    first component; the invariant `PhiS9`; nothing owed; full shares. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body9 (c : Dev nD) (t : Fin cfg9.N) :
    bodyPre9 V c t ⊢ wp frame (wpE (defs₀ (F := F)) Variants.none c none) Set.univ (bodyAtH9 t) (fun _ => bodyPost9 V c t) := by
  unfold bodyPre9 bodyPost9 bodyAtH9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  by_cases h1 : t.val % 4 = 3
  · have h0 : ¬t.val % 4 = 0 := by omega
    have hz : t.val ≠ 0 := by omega
    rw [show (dat9 V c).leavesExact 3 t = owns (c : Thread nD τ) (ms9_3 t) fullShare ((dat9 V c).after 3 t) from by
      unfold Dat.leavesExact; rw [liveAt9_3 t ((hcond9_1 t).mpr h1)], after9_3]
    rw [outsAt9_C V c t h0 h1]
    unfold out9_C_3 sout9_C_0; (try dsimp only)
    rw [PhiS9_castSucc V c t, PhiS9_pos V c _ _ hz]
    iintro ⟨⟨⟨HS0, HR⟩, Hg⟩, Ho, ⟨%d0, H0⟩, ⟨%d1, H1⟩, ⟨%d2, H2⟩, ⟨%d3, H3⟩⟩
    iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover9_C_3 c _ _ _ _ _ _ _ _ _ _ _ _ _ _ _ _ _)
  · rw [Dat.leavesExact_idle (dat9 V c) 3 t (idleAt9_3 t (fun h => h1 ((hcond9_1 t).mp h))) (noFlush9_3 t (fun h => h1 ((hcond9_1 t).mp h)))]
    by_cases h0 : t.val % 4 = 0
    · rw [outsAt9_A V c t h0 h1]
      unfold sout9_A_0; (try dsimp only)
      by_cases hz : t.val = 0
      · rw [PhiS9_castSucc V c t, PhiS9_zero V c _ _ hz, PhiA9_eq]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun9_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover9_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt9_B V c t h0 h1]
      unfold sout9_B_0; (try dsimp only)
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) (iblk9 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class invariant back: the accumulator's contents are forgotten. -/
theorem hout9 (c : Dev nD) : (dat9 V c).Φ (Fin.last cfg9.N) ⊢ Pipeline.ΦA spec9 c := by
  have hN : cfg9.N = 316 := N_9
  rw [show (dat9 V c).Φ (Fin.last cfg9.N) = PhiS9 V c (Fin.last cfg9.N).val (Nat.le_of_lt_succ (Fin.last cfg9.N).isLt) from rfl,
    PhiS9_pos V c _ _ (by rw [Fin.val_last]; omega), PhiA9_eq]
  iintro ⟨⟨HS0, HR⟩, Hg⟩
  isplitl [HS0 HR]
  · isplitl [HS0]
    · iexists _; iexact HS0
    iexact HR
  iexact Hg

end

end Cert.KernelIdeal.H

end
-- ==== Proof.KI.S10Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
end

/-! ## The grid's coordinates at a point, the branch conditions in closed form, and where the output block is written back -/

theorem coords10_0 (t : Fin cfg10.N) : ((grid10.coords t) 0).val = t.val / 79 := by
  have hN : grid10.N = 316 := N_10
  have ht : t.val < 316 := hN ▸ t.isLt
  show t.val / grid10.stride 0 % 4 = _
  rw [show grid10.stride 0 = 79 from by decide]
  omega
theorem coords10_1 (t : Fin cfg10.N) : ((grid10.coords t) 1).val = t.val % 79 := by
  show t.val / grid10.stride 1 % 79 = _
  rw [show grid10.stride 1 = 1 from by decide]
  omega

/-- "This is the first edge chunk": the accumulator is zeroed. -/
abbrev cond10_0 (i : grid10.Coords) : Prop := (Scalar.cmpi .ne (Scalar.extui (Scalar.cmpi .eq (BitVec.ofNat 32 (i 1).val) 0#32)) 0#32) = 1#1
/-- "This is the last edge chunk": the accumulator is stored to the output block. -/
abbrev cond10_1 (i : grid10.Coords) : Prop := k10_cond2 i = 1#1
/-- The two tests read only the second coordinate, which takes 79 values. -/
theorem condw10_0 : ∀ v : Fin 79, ((Scalar.cmpi .ne (Scalar.extui (Scalar.cmpi .eq (BitVec.ofNat 32 v.val) 0#32)) 0#32) = 1#1) ↔ v.val = 0 := by decide
theorem condw10_1 : ∀ v : Fin 79, ((Scalar.cmpi .ne (Scalar.extui (Scalar.cmpi .eq (BitVec.ofNat 32 v.val) 78#32)) 0#32) = 1#1) ↔ v.val = 78 := by decide
theorem hcond10_0 (t : Fin cfg10.N) : cond10_0 (grid10.coords t) ↔ t.val % 79 = 0 := by
  rw [← coords10_1 t]; exact condw10_0 ((grid10.coords t) 1)
theorem hcond10_1 (t : Fin cfg10.N) : cond10_1 (grid10.coords t) ↔ t.val % 79 = 78 := by
  rw [← coords10_1 t]; exact condw10_1 ((grid10.coords t) 1)

/-- The output window's block index at a point: (t / 79, 0). -/
theorem oidx10 (t : Fin cfg10.N) : win10_2.index t (0 : Fin 2) = t.val / 79 ∧ win10_2.index t (1 : Fin 2) = 0 := by
  have hN : grid10.N = 316 := N_10
  have ht : t.val < 316 := hN ▸ t.isLt
  have c0 := coords10_0 t
  refine ⟨?_, rfl⟩
  show (BitVec.ofNat 32 ((grid10.coords t) 0).val).toNat = _
  rw [BitVec.toNat_ofNat, c0]; omega

/-- The output block is written back exactly at the points ≡ 78 (mod 79): there the next point's block is another (or
    the grid ends), and nowhere else does the block index move. -/
theorem flushAt10_2 (t : Fin cfg10.N) : (cfg10.win 2).flush t = true ↔ t.val % 79 = 78 := by
  have hN : grid10.N = 316 := N_10
  have ht : t.val < 316 := hN ▸ t.isLt
  show win10_2.flush t = true ↔ _
  unfold Pipeline.Window.flush
  rw [show win10_2.isOut = true from rfl]
  simp only [Bool.true_and, Bool.or_eq_true, decide_eq_true_eq]
  constructor
  · rintro (h | ⟨hl, hne⟩)
    · omega
    · by_contra h48
      apply hne
      obtain ⟨a0, a1⟩ := oidx10 ⟨t.val + 1, hl⟩
      obtain ⟨b0, b1⟩ := oidx10 t
      funext a
      match a with
      | ⟨0, _⟩ =>
        show win10_2.index ⟨t.val + 1, hl⟩ (0 : Fin 2) = win10_2.index t (0 : Fin 2)
        rw [a0, b0]
        show (t.val + 1) / 79 = t.val / 79
        omega
      | ⟨1, _⟩ =>
        show win10_2.index ⟨t.val + 1, hl⟩ (1 : Fin 2) = win10_2.index t (1 : Fin 2)
        rw [a1, b1]
  · intro h48
    by_cases hl : t.val + 1 = grid10.N
    · exact Or.inl hl
    · have hl' : t.val + 1 < grid10.N := by omega
      refine Or.inr ⟨hl', fun heq => ?_⟩
      have h0 := congrFun heq (0 : Fin 2)
      rw [(oidx10 ⟨t.val + 1, hl'⟩).1, (oidx10 t).1] at h0
      have h0' : (t.val + 1) / 79 = t.val / 79 := h0
      omega
theorem noFlush10_2 (t : Fin cfg10.N) (h : ¬cond10_1 (grid10.coords t)) : (cfg10.win 2).flush t = false := by
  cases hf : (cfg10.win 2).flush t with
  | false => rfl
  | true => exact absurd ((hcond10_1 t).mpr ((flushAt10_2 t).mp hf)) h

/-! ## Where the windows are idle -/
theorem liveAt10_0 : ∀ t : Fin cfg10.N, cfg10.idle 0 (grid10.coords t) = false := fun _ => rfl
theorem liveAt10_1 : ∀ t : Fin cfg10.N, cfg10.idle 1 (grid10.coords t) = false := fun _ => rfl
theorem idleAt10_2 : ∀ t : Fin cfg10.N, ¬cond10_1 (grid10.coords t) → cfg10.idle 2 (grid10.coords t) = true := fun t h => by
  show (!(k10_cond2 (grid10.coords t) == 1#1)) = true
  simp only [Bool.not_eq_true', beq_eq_false_iff_ne, ne_eq]
  exact h
theorem liveAt10_2 : ∀ t : Fin cfg10.N, cond10_1 (grid10.coords t) → cfg10.idle 2 (grid10.coords t) = false := fun t h => by
  show (!(k10_cond2 (grid10.coords t) == 1#1)) = false
  simp only [Bool.not_eq_false', beq_iff_eq]
  exact h

/-! ## The memrefs the runs are stated over -/
abbrev VO10_2 : View sig .tc .vmem S1024x128 .f32 := (Memref.whole cc10_stg2_0 : Memref sig .tc .vmem S1024x128 .f32).view
abbrev ms10_0 (t : Fin cfg10.N) : Memref sig .tc .vmem S2048 .i32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2048x128 .bf16 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1024x128 .f32 := win10_2.stage (cfg10.slots t 2)
abbrev hs10_2 (t : Fin cfg10.N) : (ms10_2 t).IsWhole := hstage10_2 ((cfg10.slots t 2).cast nbuf10_2)
/-- The accumulator: a whole scoped buffer of the kernel's own, carried from point to point. -/
abbrev scM10_0 : Memref sig .tc .vmem S1024x128 .f32 := Memref.whole cc10_scratch0
abbrev VS10_0 : View sig .tc .vmem S1024x128 .f32 := scM10_0.view

/-- The class invariant with the accumulator as a memref owned at some contents; the other scoped buffers stay unopened. -/
theorem PhiA10_eq (c : Dev nD) :
    (Pipeline.ΦA spec10 c : sProp 𝕄)
      = iprop(iprop((∃ d, owns (c : Thread nD τ) scM10_0 fullShare d) ∗ Pipeline.scopedRestBut (Ix := Unit) (Name := ℕ) (U := Pipeline.UD sig nD τ) (Lvl := ℕ) (Val := Elt F) spec10 c [cc10_scratch0]) ∗ (∃ r, prngReg c r)) := by
  unfold Pipeline.ΦA; rw [scopedRest10_split]; simp only [scM10_0, owns_whole]; try rfl

end Cert.KernelIdeal.H

end
-- ==== Proof.KI.S10RunB.lean ====
/-
  A scatter launch (the second one-hot product of a relation), at a middle edge chunk (neither the first nor the last): the accumulator, found at what the
  point before left, gets the product added; the output block is not touched.
-/
import proofs.«407232_j23192823399226_1_alg».proof.Proof.KI.S10Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun10_B (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : ¬cond10_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__scatter_kernel i arg2 harg2 arg3 harg3 arg4 harg4 arg5 harg5) K } := by
  refine ⟨[], ?_, fun xi2 E K => ?run⟩
  case run =>
    simp only [cc10__scatter_kernel_eq_skeleton]; unfold cc10__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S10RunA.lean ====
/-
  A scatter launch (the second one-hot product of a relation), at the first edge chunk: the accumulator, whatever it held, is zeroed and gets the product
  added; the output block is not touched.
-/
import proofs.«407232_j23192823399226_1_alg».proof.Proof.KI.S10RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun10_A (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond10_0 i) (hc1 : ¬cond10_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc10__scatter_kernel i arg2 harg2 arg3 harg3 arg4 harg4 arg5 harg5) K } := by
  refine ⟨[], ?_, fun xi2 E K => ?run⟩
  case run =>
    simp only [cc10__scatter_kernel_eq_skeleton]; unfold cc10__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S10RunC.lean ====
/-
  A scatter launch (the second one-hot product of a relation), at the last edge chunk: the accumulator, found at what the point before left, gets the
  product added and is then stored to the output block.
-/
import proofs.«407232_j23192823399226_1_alg».proof.Proof.KI.S10RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun10_C (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc10__scatter_kernel i arg2 harg2 arg3 harg3 arg4 harg4 arg5 harg5) K } := by
  refine ⟨?_, ?_, fun E K => ?run⟩
  case run =>
    simp only [cc10__scatter_kernel_eq_skeleton]; unfold cc10__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.H

end
-- ==== Proof.KI.S10.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.KI.S10RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH10 (t : Fin cfg10.N) : Prog (TpuEff nD τ sig (Elt F) Λ₀ .tc) PUnit :=
  cc10__scatter_kernel (grid10.coords t) (ms10_0 t) (hs10_0 t) (ms10_1 t) (hs10_1 t) (ms10_2 t) (hs10_2 t) scM10_0 (Memref.isWhole_whole _)

/-! ## What each case leaves -/

theorem scover10_A_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond10_0 i) (hc1 : ¬cond10_1 i)
    (x0 : Vec F S2048 .i32) (x1 : Vec F S2048x128 .bf16) (y : S1024x128.Idx) :
    ∃ pc ∈ (kernelRun10_A (F := F) c i arg2 harg2 arg3 harg3 arg4 harg4 arg5 harg5 hc0 hc1 x0 x1).2.1, y ∈ pc.1.set :=
  View.cover_of_tiledL (kernelRun10_A (F := F) c i arg2 harg2 arg3 harg3 arg4 harg4 arg5 harg5 hc0 hc1 x0 x1).2.1 S1024x128.size (by sl_kernel_rfl) y

/-- The accumulator after a first edge chunk: the case's pieces read back. -/
def sout10_A_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond10_0 i) (hc1 : ¬cond10_1 i)
    (x0 : Vec F S2048 .i32) (x1 : Vec F S2048x128 .bf16) : Vec F S1024x128 .f32 :=
  VS10_0.read (Elt F) (VS10_0.writes (Elt F) VS10_0.junk (kernelRun10_A (F := F) c i arg2 harg2 arg3 harg3 arg4 harg4 arg5 harg5 hc0 hc1 x0 x1).2.1)

theorem scover10_B_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : ¬cond10_1 i)
    (x0 : Vec F S2048 .i32) (x1 : Vec F S2048x128 .bf16) (xs0 : Vec F S1024x128 .f32) (y : S1024x128.Idx) :
    ∃ pc ∈ (kernelRun10_B (F := F) c i arg2 harg2 arg3 harg3 arg4 harg4 arg5 harg5 hc0 hc1 x0 x1 xs0).2.1, y ∈ pc.1.set :=
  View.cover_of_tiledL (kernelRun10_B (F := F) c i arg2 harg2 arg3 harg3 arg4 harg4 arg5 harg5 hc0 hc1 x0 x1 xs0).2.1 S1024x128.size (by sl_kernel_rfl) y

/-- The accumulator after a middle edge chunk, over what the point before left (`xs0`). -/
def sout10_B_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : ¬cond10_1 i)
    (x0 : Vec F S2048 .i32) (x1 : Vec F S2048x128 .bf16) (xs0 : Vec F S1024x128 .f32) : Vec F S1024x128 .f32 :=
  VS10_0.read (Elt F) (VS10_0.writes (Elt F) VS10_0.junk (kernelRun10_B (F := F) c i arg2 harg2 arg3 harg3 arg4 harg4 arg5 harg5 hc0 hc1 x0 x1 xs0).2.1)

theorem cover10_C_2 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) (y : S1024x128.Idx) :
    ∃ pc ∈ (kernelRun10_C (F := F) c i arg2 harg2 arg3 harg3 arg4 harg4 arg5 harg5 hc0 hc1 x0 x1 xs0).1, y ∈ pc.1.set :=
  View.cover_of_tiledL (kernelRun10_C (F := F) c i arg2 harg2 arg3 harg3 arg4 harg4 arg5 harg5 hc0 hc1 x0 x1 xs0).1 S1024x128.size (by sl_kernel_rfl) y

/-- The output block after a last edge chunk. -/
def out10_C_2 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) : Vec F S1024x128 .f32 :=
  VO10_2.read (Elt F) (VO10_2.writes (Elt F) VO10_2.junk (kernelRun10_C (F := F) c i arg2 harg2 arg3 harg3 arg4 harg4 arg5 harg5 hc0 hc1 x0 x1 xs0).1)

theorem scover10_C_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) (y : S1024x128.Idx) :
    ∃ pc ∈ (kernelRun10_C (F := F) c i arg2 harg2 arg3 harg3 arg4 harg4 arg5 harg5 hc0 hc1 x0 x1 xs0).2.1, y ∈ pc.1.set :=
  View.cover_of_tiledL (kernelRun10_C (F := F) c i arg2 harg2 arg3 harg3 arg4 harg4 arg5 harg5 hc0 hc1 x0 x1 xs0).2.1 S1024x128.size (by sl_kernel_rfl) y

/-- The accumulator after a last edge chunk. -/
def sout10_C_0 (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) : Vec F S1024x128 .f32 :=
  VS10_0.read (Elt F) (VS10_0.writes (Elt F) VS10_0.junk (kernelRun10_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle10_2 : Vec F S1024x128 .f32 := VO10_2.read (Elt F) VO10_2.junk

/-! ## The accumulation, point by point -/

/-- After the body at position `n`: (the output block, the accumulator) — the case the closed forms select, a later
    edge chunk's over what position `n - 1` left in the accumulator. -/
def outsAt10 (c : Dev nD) : (n : ℕ) → n < cfg10.N → Vec F S1024x128 .f32 × Vec F S1024x128 .f32
  | 0, hn => (idle10_2, sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 79 = 0 then
      if h1 : (n + 1) % 79 = 78 then
        False.elim (by omega)
      else
        (idle10_2, sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 79 = 78 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2,
         sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2)
      else
        (idle10_2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2)

theorem outsAt10_A (c : Dev nD) (t : Fin cfg10.N) (h0 : t.val % 79 = 0) (h1 : ¬t.val % 79 = 78) :
    outsAt10 V c t.val t.isLt = (idle10_2, sout10_A_0 c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

theorem outsAt10_B (c : Dev nD) (t : Fin cfg10.N) (h0 : ¬t.val % 79 = 0) (h1 : ¬t.val % 79 = 78) :
    outsAt10 V c t.val t.isLt = (idle10_2, sout10_B_0 c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt10_C (c : Dev nD) (t : Fin cfg10.N) (h0 : ¬t.val % 79 = 0) (h1 : t.val % 79 = 78) :
    outsAt10 V c t.val t.isLt = (out10_C_2 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2,
      sout10_C_0 c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut10 (c : Dev nD) : sProp 𝕄 :=
  Pipeline.scopedRestBut (Ix := Unit) (Name := ℕ) (U := Pipeline.UD sig nD τ) (Lvl := ℕ) (Val := Elt F) spec10 c [cc10_scratch0]

/-- Before position `n`: at the region's entry the class invariant (the accumulator at anything); afterwards the
    accumulator at what position `n - 1` left, the other scoped buffers unopened, the generator register at some state. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ restBut10 (F := F) c) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(owns (c : Thread nD τ) scM10_0 fullShare ((outsAt10 V c n hn).2) ∗ restBut10 (F := F) c) ∗ (∃ r, prngReg c r)) := rfl
theorem PhiS10_pos (c : Dev nD) (n : ℕ) (h : n ≤ cfg10.N) (hz : n ≠ 0) :
    PhiS10 V c n h = iprop(iprop(owns (c : Thread nD τ) scM10_0 fullShare ((outsAt10 V c (n - 1) (by omega)).2) ∗ restBut10 (F := F) c) ∗ (∃ r, prngReg c r)) := by
  cases n with
  | zero => exact absurd rfl hz
  | succ n => rfl

/-! ## The pipeline's proof data -/

/-- The arrays as the region finds them; after the body each input's buffer at its block, the output's at `outsAt10`'s
    first component; the invariant `PhiS10`; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation -/

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body10 (c : Dev nD) (t : Fin cfg10.N) :
    bodyPre10 V c t ⊢ wp frame (wpE (defs₀ (F := F)) Variants.none c none) Set.univ (bodyAtH10 t) (fun _ => bodyPost10 V c t) := by
  unfold bodyPre10 bodyPost10 bodyAtH10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  by_cases h1 : t.val % 79 = 78
  · have h0 : ¬t.val % 79 = 0 := by omega
    have hz : t.val ≠ 0 := by omega
    rw [show (dat10 V c).leavesExact 2 t = owns (c : Thread nD τ) (ms10_2 t) fullShare ((dat10 V c).after 2 t) from by
      unfold Dat.leavesExact; rw [liveAt10_2 t ((hcond10_1 t).mpr h1)], after10_2]
    rw [outsAt10_C V c t h0 h1]
    unfold out10_C_2 sout10_C_0; (try dsimp only)
    rw [PhiS10_castSucc V c t, PhiS10_pos V c _ _ hz]
    iintro ⟨⟨⟨HS0, HR⟩, Hg⟩, Ho, ⟨%d0, H0⟩, ⟨%d1, H1⟩, ⟨%d2, H2⟩⟩
    iapply ((kernelRun10_C c (grid10.coords t) _ _ _ _ _ _ _ _ (fun h => h0 ((hcond10_0 t).mp h)) ((hcond10_1 t).mpr h1) (iblk10 V c 0 t) (iblk10 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover10_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover10_C_2 c _ _ _ _ _ _ _ _ _ _ _ _ _ _)
  · rw [Dat.leavesExact_idle (dat10 V c) 2 t (idleAt10_2 t (fun h => h1 ((hcond10_1 t).mp h))) (noFlush10_2 t (fun h => h1 ((hcond10_1 t).mp h)))]
    by_cases h0 : t.val % 79 = 0
    · rw [outsAt10_A V c t h0 h1]
      unfold sout10_A_0; (try dsimp only)
      by_cases hz : t.val = 0
      · rw [PhiS10_castSucc V c t, PhiS10_zero V c _ _ hz, PhiA10_eq]
        iintro ⟨⟨⟨HS0, HR⟩, Hg⟩, Ho, ⟨%d0, H0⟩, ⟨%d1, H1⟩, ⟨%d2, H2⟩⟩
        iapply ((kernelRun10_A c (grid10.coords t) _ _ _ _ _ _ _ _ ((hcond10_0 t).mpr h0) (fun h => h1 ((hcond10_1 t).mp h)) (iblk10 V c 0 t) (iblk10 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_A_0 c _ _ _ _ _ _ _ _ _ _ _ _ _)
            iexact HR
          iexact Hg
        isplitl [Ho]; · iexact Ho
        isplitl [H0]; · iexact H0
        isplitl [H1]; · iexact H1
        iexists _; iexact H2
      · rw [PhiS10_castSucc V c t, PhiS10_pos V c _ _ hz]
        iintro ⟨⟨⟨HS0, HR⟩, Hg⟩, Ho, ⟨%d0, H0⟩, ⟨%d1, H1⟩, ⟨%d2, H2⟩⟩
        iapply ((kernelRun10_A c (grid10.coords t) _ _ _ _ _ _ _ _ ((hcond10_0 t).mpr h0) (fun h => h1 ((hcond10_1 t).mp h)) (iblk10 V c 0 t) (iblk10 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt10_B V c t h0 h1]
      unfold sout10_B_0; (try dsimp only)
      rw [PhiS10_castSucc V c t, PhiS10_pos V c _ _ hz]
      iintro ⟨⟨⟨HS0, HR⟩, Hg⟩, Ho, ⟨%d0, H0⟩, ⟨%d1, H1⟩, ⟨%d2, H2⟩⟩
      iapply ((kernelRun10_B c (grid10.coords t) _ _ _ _ _ _ _ _ (fun h => h0 ((hcond10_0 t).mp h)) (fun h => h1 ((hcond10_1 t).mp h)) (iblk10 V c 0 t) (iblk10 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover10_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After the last point the invariant gives the class invariant back: the accumulator's contents are forgotten. -/
theorem hout10 (c : Dev nD) : (dat10 V c).Φ (Fin.last cfg10.N) ⊢ Pipeline.ΦA spec10 c := by
  have hN : cfg10.N = 316 := N_10
  rw [show (dat10 V c).Φ (Fin.last cfg10.N) = PhiS10 V c (Fin.last cfg10.N).val (Nat.le_of_lt_succ (Fin.last cfg10.N).isLt) from rfl,
    PhiS10_pos V c _ _ (by rw [Fin.val_last]; omega), PhiA10_eq]
  iintro ⟨⟨HS0, HR⟩, Hg⟩
  isplitl [HS0 HR]
  · isplitl [HS0]
    · iexists _; iexact HS0
    iexact HR
  iexact Hg

end

end Cert.KernelIdeal.H

end
-- ==== Proof.KI.G11Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
end

/-! ## The grid's coordinates at a point, the branch conditions in closed form, and where the output block is written back -/

theorem coords11_0 (t : Fin cfg11.N) : ((grid11.coords t) 0).val = t.val / 49 := by
  have hN : grid11.N = 9604 := N_11
  have ht : t.val < 9604 := hN ▸ t.isLt
  show t.val / grid11.stride 0 % 196 = _
  rw [show grid11.stride 0 = 49 from by decide]
  omega
theorem coords11_1 (t : Fin cfg11.N) : ((grid11.coords t) 1).val = t.val % 49 := by
  show t.val / grid11.stride 1 % 49 = _
  rw [show grid11.stride 1 = 1 from by decide]
  omega

/-- "This is the first source tile": the accumulator is zeroed. -/
abbrev cond11_0 (i : grid11.Coords) : Prop := (Scalar.cmpi .ne (Scalar.extui (Scalar.cmpi .eq (BitVec.ofNat 32 (i 1).val) 0#32)) 0#32) = 1#1
/-- "This is the last source tile": the accumulator is stored to the output block. -/
abbrev cond11_1 (i : grid11.Coords) : Prop := k11_cond2 i = 1#1
/-- The two tests read only the second coordinate, which takes 49 values. -/
theorem condw11_0 : ∀ v : Fin 49, ((Scalar.cmpi .ne (Scalar.extui (Scalar.cmpi .eq (BitVec.ofNat 32 v.val) 0#32)) 0#32) = 1#1) ↔ v.val = 0 := by decide
theorem condw11_1 : ∀ v : Fin 49, ((Scalar.cmpi .ne (Scalar.extui (Scalar.cmpi .eq (BitVec.ofNat 32 v.val) 48#32)) 0#32) = 1#1) ↔ v.val = 48 := by decide
theorem hcond11_0 (t : Fin cfg11.N) : cond11_0 (grid11.coords t) ↔ t.val % 49 = 0 := by
  rw [← coords11_1 t]; exact condw11_0 ((grid11.coords t) 1)
theorem hcond11_1 (t : Fin cfg11.N) : cond11_1 (grid11.coords t) ↔ t.val % 49 = 48 := by
  rw [← coords11_1 t]; exact condw11_1 ((grid11.coords t) 1)

/-- The output window's block index at a point: (t / 49, 0). -/
theorem oidx11 (t : Fin cfg11.N) : win11_3.index t (0 : Fin 2) = t.val / 49 ∧ win11_3.index t (1 : Fin 2) = 0 := by
  have hN : grid11.N = 9604 := N_11
  have ht : t.val < 9604 := hN ▸ t.isLt
  have c0 := coords11_0 t
  refine ⟨?_, rfl⟩
  show (BitVec.ofNat 32 ((grid11.coords t) 0).val).toNat = _
  rw [BitVec.toNat_ofNat, c0]; omega

/-- The output block is written back exactly at the points ≡ 48 (mod 49): there the next point's block is another (or
    the grid ends), and nowhere else does the block index move. -/
theorem flushAt11_3 (t : Fin cfg11.N) : (cfg11.win 3).flush t = true ↔ t.val % 49 = 48 := by
  have hN : grid11.N = 9604 := N_11
  have ht : t.val < 9604 := hN ▸ t.isLt
  show win11_3.flush t = true ↔ _
  unfold Pipeline.Window.flush
  rw [show win11_3.isOut = true from rfl]
  simp only [Bool.true_and, Bool.or_eq_true, decide_eq_true_eq]
  constructor
  · rintro (h | ⟨hl, hne⟩)
    · omega
    · by_contra h48
      apply hne
      obtain ⟨a0, a1⟩ := oidx11 ⟨t.val + 1, hl⟩
      obtain ⟨b0, b1⟩ := oidx11 t
      funext a
      match a with
      | ⟨0, _⟩ =>
        show win11_3.index ⟨t.val + 1, hl⟩ (0 : Fin 2) = win11_3.index t (0 : Fin 2)
        rw [a0, b0]
        show (t.val + 1) / 49 = t.val / 49
        omega
      | ⟨1, _⟩ =>
        show win11_3.index ⟨t.val + 1, hl⟩ (1 : Fin 2) = win11_3.index t (1 : Fin 2)
        rw [a1, b1]
  · intro h48
    by_cases hl : t.val + 1 = grid11.N
    · exact Or.inl hl
    · have hl' : t.val + 1 < grid11.N := by omega
      refine Or.inr ⟨hl', fun heq => ?_⟩
      have h0 := congrFun heq (0 : Fin 2)
      rw [(oidx11 ⟨t.val + 1, hl'⟩).1, (oidx11 t).1] at h0
      have h0' : (t.val + 1) / 49 = t.val / 49 := h0
      omega
theorem noFlush11_3 (t : Fin cfg11.N) (h : ¬cond11_1 (grid11.coords t)) : (cfg11.win 3).flush t = false := by
  cases hf : (cfg11.win 3).flush t with
  | false => rfl
  | true => exact absurd ((hcond11_1 t).mpr ((flushAt11_3 t).mp hf)) h

/-! ## Where the windows are idle -/
theorem liveAt11_0 : ∀ t : Fin cfg11.N, cfg11.idle 0 (grid11.coords t) = false := fun _ => rfl
theorem liveAt11_1 : ∀ t : Fin cfg11.N, cfg11.idle 1 (grid11.coords t) = false := fun _ => rfl
theorem liveAt11_2 : ∀ t : Fin cfg11.N, cfg11.idle 2 (grid11.coords t) = false := fun _ => rfl
theorem idleAt11_3 : ∀ t : Fin cfg11.N, ¬cond11_1 (grid11.coords t) → cfg11.idle 3 (grid11.coords t) = true := fun t h => by
  show (!(k11_cond2 (grid11.coords t) == 1#1)) = true
  simp only [Bool.not_eq_true', beq_eq_false_iff_ne, ne_eq]
  exact h
theorem liveAt11_3 : ∀ t : Fin cfg11.N, cond11_1 (grid11.coords t) → cfg11.idle 3 (grid11.coords t) = false := fun t h => by
  show (!(k11_cond2 (grid11.coords t) == 1#1)) = false
  simp only [Bool.not_eq_false', beq_iff_eq]
  exact h

/-! ## The memrefs the runs are stated over -/
abbrev VO11_3 : View sig .tc .vmem S2048x128 .bf16 := (Memref.whole cc11_stg3_0 : Memref sig .tc .vmem S2048x128 .bf16).view
abbrev ms11_0 (t : Fin cfg11.N) : Memref sig .tc .vmem S2048 .i32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S2048 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1024x128 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S2048x128 .bf16 := win11_3.stage (cfg11.slots t 3)
abbrev hs11_3 (t : Fin cfg11.N) : (ms11_3 t).IsWhole := hstage11_3 ((cfg11.slots t 3).cast nbuf11_3)
/-- The accumulator: a whole scoped buffer of the kernel's own, carried from point to point. -/
abbrev scM11_0 : Memref sig .tc .vmem S2048x128 .f32 := Memref.whole cc11_scratch0
abbrev VS11_0 : View sig .tc .vmem S2048x128 .f32 := scM11_0.view

/-- The class invariant with the accumulator as a memref owned at some contents; the other scoped buffers stay unopened. -/
theorem PhiA11_eq (c : Dev nD) :
    (Pipeline.ΦA spec11 c : sProp 𝕄)
      = iprop(iprop((∃ d, owns (c : Thread nD τ) scM11_0 fullShare d) ∗ Pipeline.scopedRestBut (Ix := Unit) (Name := ℕ) (U := Pipeline.UD sig nD τ) (Lvl := ℕ) (Val := Elt F) spec11 c [cc11_scratch0]) ∗ (∃ r, prngReg c r)) := by
  unfold Pipeline.ΦA; rw [scopedRest11_split]; simp only [scM11_0, owns_whole]; try rfl

end Cert.KernelIdeal.H

end
-- ==== Proof.KI.G11RunB.lean ====
/-
  A gather launch (the first one-hot product of a relation), at a middle source tile (neither the first nor the last): the accumulator, found at what the
  point before left, gets the product added; the output block is not touched.
-/
import proofs.«407232_j23192823399226_1_alg».proof.Proof.KI.G11Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun11_B (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gather_kernel i arg2 harg2 arg3 harg3 arg4 harg4 arg5 harg5 arg6 harg6) K } := by
  refine ⟨[], ?_, fun xi3 E K => ?run⟩
  case run =>
    simp only [cc11__gather_kernel_eq_skeleton]; unfold cc11__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G11RunA.lean ====
/-
  A gather launch (the first one-hot product of a relation), at the first source tile: the accumulator, whatever it held, is zeroed and gets the product
  added; the output block is not touched.
-/
import proofs.«407232_j23192823399226_1_alg».proof.Proof.KI.G11RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun11_A (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc11__gather_kernel i arg2 harg2 arg3 harg3 arg4 harg4 arg5 harg5 arg6 harg6) K } := by
  refine ⟨[], ?_, fun xi3 E K => ?run⟩
  case run =>
    simp only [cc11__gather_kernel_eq_skeleton]; unfold cc11__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G11RunC.lean ====
/-
  A gather launch (the first one-hot product of a relation), at the last source tile: the accumulator, found at what the point before left, gets the
  product added and is then stored to the output block.
-/
import proofs.«407232_j23192823399226_1_alg».proof.Proof.KI.G11RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun11_C (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc11__gather_kernel i arg2 harg2 arg3 harg3 arg4 harg4 arg5 harg5 arg6 harg6) K } := by
  refine ⟨?_, ?_, fun E K => ?run⟩
  case run =>
    simp only [cc11__gather_kernel_eq_skeleton]; unfold cc11__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.G11.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.KI.G11RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH11 (t : Fin cfg11.N) : Prog (TpuEff nD τ sig (Elt F) Λ₀ .tc) PUnit :=
  cc11__gather_kernel (grid11.coords t) (ms11_0 t) (hs11_0 t) (ms11_1 t) (hs11_1 t) (ms11_2 t) (hs11_2 t) (ms11_3 t) (hs11_3 t) scM11_0 (Memref.isWhole_whole _)

/-! ## What each case leaves -/

theorem scover11_A_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) (y : S2048x128.Idx) :
    ∃ pc ∈ (kernelRun11_A (F := F) c i arg2 harg2 arg3 harg3 arg4 harg4 arg5 harg5 arg6 harg6 hc0 hc1 x0 x1 x2).2.1, y ∈ pc.1.set :=
  View.cover_of_tiledL (kernelRun11_A (F := F) c i arg2 harg2 arg3 harg3 arg4 harg4 arg5 harg5 arg6 harg6 hc0 hc1 x0 x1 x2).2.1 S2048x128.size (by sl_kernel_rfl) y

/-- The accumulator after a first source tile: the case's pieces read back. -/
def sout11_A_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) : Vec F S2048x128 .f32 :=
  VS11_0.read (Elt F) (VS11_0.writes (Elt F) VS11_0.junk (kernelRun11_A (F := F) c i arg2 harg2 arg3 harg3 arg4 harg4 arg5 harg5 arg6 harg6 hc0 hc1 x0 x1 x2).2.1)

theorem scover11_B_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) (y : S2048x128.Idx) :
    ∃ pc ∈ (kernelRun11_B (F := F) c i arg2 harg2 arg3 harg3 arg4 harg4 arg5 harg5 arg6 harg6 hc0 hc1 x0 x1 x2 xs0).2.1, y ∈ pc.1.set :=
  View.cover_of_tiledL (kernelRun11_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout11_B_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) : Vec F S2048x128 .f32 :=
  VS11_0.read (Elt F) (VS11_0.writes (Elt F) VS11_0.junk (kernelRun11_B (F := F) c i arg2 harg2 arg3 harg3 arg4 harg4 arg5 harg5 arg6 harg6 hc0 hc1 x0 x1 x2 xs0).2.1)

theorem cover11_C_3 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) (y : S2048x128.Idx) :
    ∃ pc ∈ (kernelRun11_C (F := F) c i arg2 harg2 arg3 harg3 arg4 harg4 arg5 harg5 arg6 harg6 hc0 hc1 x0 x1 x2 xs0).1, y ∈ pc.1.set :=
  View.cover_of_tiledL (kernelRun11_C (F := F) c i arg2 harg2 arg3 harg3 arg4 harg4 arg5 harg5 arg6 harg6 hc0 hc1 x0 x1 x2 xs0).1 S2048x128.size (by sl_kernel_rfl) y

/-- The output block after a last source tile. -/
def out11_C_3 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) : Vec F S2048x128 .bf16 :=
  VO11_3.read (Elt F) (VO11_3.writes (Elt F) VO11_3.junk (kernelRun11_C (F := F) c i arg2 harg2 arg3 harg3 arg4 harg4 arg5 harg5 arg6 harg6 hc0 hc1 x0 x1 x2 xs0).1)

theorem scover11_C_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) (y : S2048x128.Idx) :
    ∃ pc ∈ (kernelRun11_C (F := F) c i arg2 harg2 arg3 harg3 arg4 harg4 arg5 harg5 arg6 harg6 hc0 hc1 x0 x1 x2 xs0).2.1, y ∈ pc.1.set :=
  View.cover_of_tiledL (kernelRun11_C (F := F) c i arg2 harg2 arg3 harg3 arg4 harg4 arg5 harg5 arg6 harg6 hc0 hc1 x0 x1 x2 xs0).2.1 S2048x128.size (by sl_kernel_rfl) y

/-- The accumulator after a last source tile. -/
def sout11_C_0 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) : Vec F S2048x128 .f32 :=
  VS11_0.read (Elt F) (VS11_0.writes (Elt F) VS11_0.junk (kernelRun11_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle11_3 : Vec F S2048x128 .bf16 := VO11_3.read (Elt F) VO11_3.junk

/-! ## The accumulation, point by point -/

/-- After the body at position `n`: (the output block, the accumulator) — the case the closed forms select, a later
    source tile's over what position `n - 1` left in the accumulator. -/
def outsAt11 (c : Dev nD) : (n : ℕ) → n < cfg11.N → Vec F S2048x128 .bf16 × Vec F S2048x128 .f32
  | 0, hn => (idle11_3, sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11_0 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩))
  | n + 1, hn =>
    if h0 : (n + 1) % 49 = 0 then
      if h1 : (n + 1) % 49 = 48 then
        False.elim (by omega)
      else
        (idle11_3, sout11_A_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) ((hcond11_0 ⟨n + 1, hn⟩).mpr h0) (fun h => h1 ((hcond11_1 ⟨n + 1, hn⟩).mp h)) (iblk11 V c 0 ⟨n + 1, hn⟩) (iblk11 V c 1 ⟨n + 1, hn⟩) (iblk11 V c 2 ⟨n + 1, hn⟩))
    else
      if h1 : (n + 1) % 49 = 48 then
        (out11_C_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2,
         sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (outsAt11 c n (Nat.lt_of_succ_lt hn)).2)
      else
        (idle11_3, sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11_0 (Memref.isWhole_whole _) (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2)

theorem outsAt11_A (c : Dev nD) (t : Fin cfg11.N) (h0 : t.val % 49 = 0) (h1 : ¬t.val % 49 = 48) :
    outsAt11 V c t.val t.isLt = (idle11_3, sout11_A_0 c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t)) := by
  obtain ⟨n, hn⟩ := t
  cases n with
  | zero => exact rfl
  | succ n => exact (dif_pos h0).trans ((dif_neg h1).trans rfl)

theorem outsAt11_B (c : Dev nD) (t : Fin cfg11.N) (h0 : ¬t.val % 49 = 0) (h1 : ¬t.val % 49 = 48) :
    outsAt11 V c t.val t.isLt = (idle11_3, sout11_B_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt11_C (c : Dev nD) (t : Fin cfg11.N) (h0 : ¬t.val % 49 = 0) (h1 : t.val % 49 = 48) :
    outsAt11 V c t.val t.isLt = (out11_C_3 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2,
      sout11_C_0 c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut11 (c : Dev nD) : sProp 𝕄 :=
  Pipeline.scopedRestBut (Ix := Unit) (Name := ℕ) (U := Pipeline.UD sig nD τ) (Lvl := ℕ) (Val := Elt F) spec11 c [cc11_scratch0]

/-- Before position `n`: at the region's entry the class invariant (the accumulator at anything); afterwards the
    accumulator at what position `n - 1` left, the other scoped buffers unopened, the generator register at some state. -/
def PhiS11 (c : Dev nD) : (n : ℕ) → n ≤ cfg11.N → sProp 𝕄
  | 0, _ => Pipeline.ΦA spec11 c
  | n + 1, hn => iprop(iprop(owns (c : Thread nD τ) scM11_0 fullShare ((outsAt11 V c n hn).2) ∗ restBut11 (F := F) c) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop(iprop(owns (c : Thread nD τ) scM11_0 fullShare ((outsAt11 V c n hn).2) ∗ restBut11 (F := F) c) ∗ (∃ r, prngReg c r)) := rfl
theorem PhiS11_pos (c : Dev nD) (n : ℕ) (h : n ≤ cfg11.N) (hz : n ≠ 0) :
    PhiS11 V c n h = iprop(iprop(owns (c : Thread nD τ) scM11_0 fullShare ((outsAt11 V c (n - 1) (by omega)).2) ∗ restBut11 (F := F) c) ∗ (∃ r, prngReg c r)) := by
  cases n with
  | zero => exact absurd rfl hz
  | succ n => rfl

/-! ## The pipeline's proof data -/

/-- The arrays as the region finds them; after the body each input's buffer at its block, the output's at `outsAt11`'s
    first component; the invariant `PhiS11`; nothing owed; full shares. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation -/

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body11 (c : Dev nD) (t : Fin cfg11.N) :
    bodyPre11 V c t ⊢ wp frame (wpE (defs₀ (F := F)) Variants.none c none) Set.univ (bodyAtH11 t) (fun _ => bodyPost11 V c t) := by
  unfold bodyPre11 bodyPost11 bodyAtH11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  by_cases h1 : t.val % 49 = 48
  · have h0 : ¬t.val % 49 = 0 := by omega
    have hz : t.val ≠ 0 := by omega
    rw [show (dat11 V c).leavesExact 3 t = owns (c : Thread nD τ) (ms11_3 t) fullShare ((dat11 V c).after 3 t) from by
      unfold Dat.leavesExact; rw [liveAt11_3 t ((hcond11_1 t).mpr h1)], after11_3]
    rw [outsAt11_C V c t h0 h1]
    unfold out11_C_3 sout11_C_0; (try dsimp only)
    rw [PhiS11_castSucc V c t, PhiS11_pos V c _ _ hz]
    iintro ⟨⟨⟨HS0, HR⟩, Hg⟩, Ho, ⟨%d0, H0⟩, ⟨%d1, H1⟩, ⟨%d2, H2⟩, ⟨%d3, H3⟩⟩
    iapply ((kernelRun11_C c (grid11.coords t) _ _ _ _ _ _ _ _ _ _ (fun h => h0 ((hcond11_0 t).mp h)) ((hcond11_1 t).mpr h1) (iblk11 V c 0 t) (iblk11 V c 1 t) (iblk11 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover11_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover11_C_3 c _ _ _ _ _ _ _ _ _ _ _ _ _ _ _ _ _)
  · rw [Dat.leavesExact_idle (dat11 V c) 3 t (idleAt11_3 t (fun h => h1 ((hcond11_1 t).mp h))) (noFlush11_3 t (fun h => h1 ((hcond11_1 t).mp h)))]
    by_cases h0 : t.val % 49 = 0
    · rw [outsAt11_A V c t h0 h1]
      unfold sout11_A_0; (try dsimp only)
      by_cases hz : t.val = 0
      · rw [PhiS11_castSucc V c t, PhiS11_zero V c _ _ hz, PhiA11_eq]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun11_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover11_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt11_B V c t h0 h1]
      unfold sout11_B_0; (try dsimp only)
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩⟩
      iapply ((kernelRun11_B c (grid11.coords t) _ _ _ _ _ _ _ _ _ _ (fun h => h0 ((hcond11_0 t).mp h)) (fun h => h1 ((hcond11_1 t).mp h)) (iblk11 V c 0 t) (iblk11 V c 1 t) (iblk11 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover11_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the class invariant back: the accumulator's contents are forgotten. -/
theorem hout11 (c : Dev nD) : (dat11 V c).Φ (Fin.last cfg11.N) ⊢ Pipeline.ΦA spec11 c := by
  have hN : cfg11.N = 9604 := N_11
  rw [show (dat11 V c).Φ (Fin.last cfg11.N) = PhiS11 V c (Fin.last cfg11.N).val (Nat.le_of_lt_succ (Fin.last cfg11.N).isLt) from rfl,
    PhiS11_pos V c _ _ (by rw [Fin.val_last]; omega), PhiA11_eq]
  iintro ⟨⟨HS0, HR⟩, Hg⟩
  isplitl [HS0 HR]
  · isplitl [HS0]
    · iexists _; iexact HS0
    iexact HR
  iexact Hg

end

end Cert.KernelIdeal.H

end
-- ==== Proof.KI.S12Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
end

/-! ## The grid's coordinates at a point, the branch conditions in closed form, and where the output block is written back -/

theorem coords12_0 (t : Fin cfg12.N) : ((grid12.coords t) 0).val = t.val / 196 := by
  have hN : grid12.N = 3920 := N_12
  have ht : t.val < 3920 := hN ▸ t.isLt
  show t.val / grid12.stride 0 % 20 = _
  rw [show grid12.stride 0 = 196 from by decide]
  omega
theorem coords12_1 (t : Fin cfg12.N) : ((grid12.coords t) 1).val = t.val % 196 := by
  show t.val / grid12.stride 1 % 196 = _
  rw [show grid12.stride 1 = 1 from by decide]
  omega

/-- "This is the first edge chunk": the accumulator is zeroed. -/
abbrev cond12_0 (i : grid12.Coords) : Prop := (Scalar.cmpi .ne (Scalar.extui (Scalar.cmpi .eq (BitVec.ofNat 32 (i 1).val) 0#32)) 0#32) = 1#1
/-- "This is the last edge chunk": the accumulator is stored to the output block. -/
abbrev cond12_1 (i : grid12.Coords) : Prop := k12_cond2 i = 1#1
/-- The two tests read only the second coordinate, which takes 196 values. -/
theorem condw12_0 : ∀ v : Fin 196, ((Scalar.cmpi .ne (Scalar.extui (Scalar.cmpi .eq (BitVec.ofNat 32 v.val) 0#32)) 0#32) = 1#1) ↔ v.val = 0 := by decide
theorem condw12_1 : ∀ v : Fin 196, ((Scalar.cmpi .ne (Scalar.extui (Scalar.cmpi .eq (BitVec.ofNat 32 v.val) 195#32)) 0#32) = 1#1) ↔ v.val = 195 := by decide
theorem hcond12_0 (t : Fin cfg12.N) : cond12_0 (grid12.coords t) ↔ t.val % 196 = 0 := by
  rw [← coords12_1 t]; exact condw12_0 ((grid12.coords t) 1)
theorem hcond12_1 (t : Fin cfg12.N) : cond12_1 (grid12.coords t) ↔ t.val % 196 = 195 := by
  rw [← coords12_1 t]; exact condw12_1 ((grid12.coords t) 1)

/-- The output window's block index at a point: (t / 196, 0). -/
theorem oidx12 (t : Fin cfg12.N) : win12_2.index t (0 : Fin 2) = t.val / 196 ∧ win12_2.index t (1 : Fin 2) = 0 := by
  have hN : grid12.N = 3920 := N_12
  have ht : t.val < 3920 := hN ▸ t.isLt
  have c0 := coords12_0 t
  refine ⟨?_, rfl⟩
  show (BitVec.ofNat 32 ((grid12.coords t) 0).val).toNat = _
  rw [BitVec.toNat_ofNat, c0]; omega

/-- The output block is written back exactly at the points ≡ 195 (mod 196): there the next point's block is another (or
    the grid ends), and nowhere else does the block index move. -/
theorem flushAt12_2 (t : Fin cfg12.N) : (cfg12.win 2).flush t = true ↔ t.val % 196 = 195 := by
  have hN : grid12.N = 3920 := N_12
  have ht : t.val < 3920 := hN ▸ t.isLt
  show win12_2.flush t = true ↔ _
  unfold Pipeline.Window.flush
  rw [show win12_2.isOut = true from rfl]
  simp only [Bool.true_and, Bool.or_eq_true, decide_eq_true_eq]
  constructor
  · rintro (h | ⟨hl, hne⟩)
    · omega
    · by_contra h48
      apply hne
      obtain ⟨a0, a1⟩ := oidx12 ⟨t.val + 1, hl⟩
      obtain ⟨b0, b1⟩ := oidx12 t
      funext a
      match a with
      | ⟨0, _⟩ =>
        show win12_2.index ⟨t.val + 1, hl⟩ (0 : Fin 2) = win12_2.index t (0 : Fin 2)
        rw [a0, b0]
        show (t.val + 1) / 196 = t.val / 196
        omega
      | ⟨1, _⟩ =>
        show win12_2.index ⟨t.val + 1, hl⟩ (1 : Fin 2) = win12_2.index t (1 : Fin 2)
        rw [a1, b1]
  · intro h48
    by_cases hl : t.val + 1 = grid12.N
    · exact Or.inl hl
    · have hl' : t.val + 1 < grid12.N := by omega
      refine Or.inr ⟨hl', fun heq => ?_⟩
      have h0 := congrFun heq (0 : Fin 2)
      rw [(oidx12 ⟨t.val + 1, hl'⟩).1, (oidx12 t).1] at h0
      have h0' : (t.val + 1) / 196 = t.val / 196 := h0
      omega
theorem noFlush12_2 (t : Fin cfg12.N) (h : ¬cond12_1 (grid12.coords t)) : (cfg12.win 2).flush t = false := by
  cases hf : (cfg12.win 2).flush t with
  | false => rfl
  | true => exact absurd ((hcond12_1 t).mpr ((flushAt12_2 t).mp hf)) h

/-! ## Where the windows are idle -/
theorem liveAt12_0 : ∀ t : Fin cfg12.N, cfg12.idle 0 (grid12.coords t) = false := fun _ => rfl
theorem liveAt12_1 : ∀ t : Fin cfg12.N, cfg12.idle 1 (grid12.coords t) = false := fun _ => rfl
theorem idleAt12_2 : ∀ t : Fin cfg12.N, ¬cond12_1 (grid12.coords t) → cfg12.idle 2 (grid12.coords t) = true := fun t h => by
  show (!(k12_cond2 (grid12.coords t) == 1#1)) = true
  simp only [Bool.not_eq_true', beq_eq_false_iff_ne, ne_eq]
  exact h
theorem liveAt12_2 : ∀ t : Fin cfg12.N, cond12_1 (grid12.coords t) → cfg12.idle 2 (grid12.coords t) = false := fun t h => by
  show (!(k12_cond2 (grid12.coords t) == 1#1)) = false
  simp only [Bool.not_eq_false', beq_iff_eq]
  exact h

/-! ## The memrefs the runs are stated over -/
abbrev VO12_2 : View sig .tc .vmem S1024x128 .f32 := (Memref.whole cc12_stg2_0 : Memref sig .tc .vmem S1024x128 .f32).view
abbrev ms12_0 (t : Fin cfg12.N) : Memref sig .tc .vmem S2048 .i32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S2048x128 .bf16 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S1024x128 .f32 := win12_2.stage (cfg12.slots t 2)
abbrev hs12_2 (t : Fin cfg12.N) : (ms12_2 t).IsWhole := hstage12_2 ((cfg12.slots t 2).cast nbuf12_2)
/-- The accumulator: a whole scoped buffer of the kernel's own, carried from point to point. -/
abbrev scM12_0 : Memref sig .tc .vmem S1024x128 .f32 := Memref.whole cc12_scratch0
abbrev VS12_0 : View sig .tc .vmem S1024x128 .f32 := scM12_0.view

/-- The class invariant with the accumulator as a memref owned at some contents; the other scoped buffers stay unopened. -/
theorem PhiA12_eq (c : Dev nD) :
    (Pipeline.ΦA spec12 c : sProp 𝕄)
      = iprop(iprop((∃ d, owns (c : Thread nD τ) scM12_0 fullShare d) ∗ Pipeline.scopedRestBut (Ix := Unit) (Name := ℕ) (U := Pipeline.UD sig nD τ) (Lvl := ℕ) (Val := Elt F) spec12 c [cc12_scratch0]) ∗ (∃ r, prngReg c r)) := by
  unfold Pipeline.ΦA; rw [scopedRest12_split]; simp only [scM12_0, owns_whole]; try rfl

end Cert.KernelIdeal.H

end
-- ==== Proof.KI.S12RunB.lean ====
/-
  A scatter launch (the second one-hot product of a relation), at a middle edge chunk (neither the first nor the last): the accumulator, found at what the
  point before left, gets the product added; the output block is not touched.
-/
import proofs.«407232_j23192823399226_1_alg».proof.Proof.KI.S12Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun12_B (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : ¬cond12_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__scatter_kernel i arg2 harg2 arg3 harg3 arg4 harg4 arg5 harg5) K } := by
  refine ⟨[], ?_, fun xi2 E K => ?run⟩
  case run =>
    simp only [cc12__scatter_kernel_eq_skeleton]; unfold cc12__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S12RunA.lean ====
/-
  A scatter launch (the second one-hot product of a relation), at the first edge chunk: the accumulator, whatever it held, is zeroed and gets the product
  added; the output block is not touched.
-/
import proofs.«407232_j23192823399226_1_alg».proof.Proof.KI.S12RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun12_A (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond12_0 i) (hc1 : ¬cond12_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc12__scatter_kernel i arg2 harg2 arg3 harg3 arg4 harg4 arg5 harg5) K } := by
  refine ⟨[], ?_, fun xi2 E K => ?run⟩
  case run =>
    simp only [cc12__scatter_kernel_eq_skeleton]; unfold cc12__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S12RunC.lean ====
/-
  A scatter launch (the second one-hot product of a relation), at the last edge chunk: the accumulator, found at what the point before left, gets the
  product added and is then stored to the output block.
-/
import proofs.«407232_j23192823399226_1_alg».proof.Proof.KI.S12RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun12_C (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc12__scatter_kernel i arg2 harg2 arg3 harg3 arg4 harg4 arg5 harg5) K } := by
  refine ⟨?_, ?_, fun E K => ?run⟩
  case run =>
    simp only [cc12__scatter_kernel_eq_skeleton]; unfold cc12__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.H

end
-- ==== Proof.KI.S12.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.KI.S12RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH12 (t : Fin cfg12.N) : Prog (TpuEff nD τ sig (Elt F) Λ₀ .tc) PUnit :=
  cc12__scatter_kernel (grid12.coords t) (ms12_0 t) (hs12_0 t) (ms12_1 t) (hs12_1 t) (ms12_2 t) (hs12_2 t) scM12_0 (Memref.isWhole_whole _)

/-! ## What each case leaves -/

theorem scover12_A_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond12_0 i) (hc1 : ¬cond12_1 i)
    (x0 : Vec F S2048 .i32) (x1 : Vec F S2048x128 .bf16) (y : S1024x128.Idx) :
    ∃ pc ∈ (kernelRun12_A (F := F) c i arg2 harg2 arg3 harg3 arg4 harg4 arg5 harg5 hc0 hc1 x0 x1).2.1, y ∈ pc.1.set :=
  View.cover_of_tiledL (kernelRun12_A (F := F) c i arg2 harg2 arg3 harg3 arg4 harg4 arg5 harg5 hc0 hc1 x0 x1).2.1 S1024x128.size (by sl_kernel_rfl) y

/-- The accumulator after a first edge chunk: the case's pieces read back. -/
def sout12_A_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond12_0 i) (hc1 : ¬cond12_1 i)
    (x0 : Vec F S2048 .i32) (x1 : Vec F S2048x128 .bf16) : Vec F S1024x128 .f32 :=
  VS12_0.read (Elt F) (VS12_0.writes (Elt F) VS12_0.junk (kernelRun12_A (F := F) c i arg2 harg2 arg3 harg3 arg4 harg4 arg5 harg5 hc0 hc1 x0 x1).2.1)

theorem scover12_B_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : ¬cond12_1 i)
    (x0 : Vec F S2048 .i32) (x1 : Vec F S2048x128 .bf16) (xs0 : Vec F S1024x128 .f32) (y : S1024x128.Idx) :
    ∃ pc ∈ (kernelRun12_B (F := F) c i arg2 harg2 arg3 harg3 arg4 harg4 arg5 harg5 hc0 hc1 x0 x1 xs0).2.1, y ∈ pc.1.set :=
  View.cover_of_tiledL (kernelRun12_B (F := F) c i arg2 harg2 arg3 harg3 arg4 harg4 arg5 harg5 hc0 hc1 x0 x1 xs0).2.1 S1024x128.size (by sl_kernel_rfl) y

/-- The accumulator after a middle edge chunk, over what the point before left (`xs0`). -/
def sout12_B_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : ¬cond12_1 i)
    (x0 : Vec F S2048 .i32) (x1 : Vec F S2048x128 .bf16) (xs0 : Vec F S1024x128 .f32) : Vec F S1024x128 .f32 :=
  VS12_0.read (Elt F) (VS12_0.writes (Elt F) VS12_0.junk (kernelRun12_B (F := F) c i arg2 harg2 arg3 harg3 arg4 harg4 arg5 harg5 hc0 hc1 x0 x1 xs0).2.1)

theorem cover12_C_2 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) (y : S1024x128.Idx) :
    ∃ pc ∈ (kernelRun12_C (F := F) c i arg2 harg2 arg3 harg3 arg4 harg4 arg5 harg5 hc0 hc1 x0 x1 xs0).1, y ∈ pc.1.set :=
  View.cover_of_tiledL (kernelRun12_C (F := F) c i arg2 harg2 arg3 harg3 arg4 harg4 arg5 harg5 hc0 hc1 x0 x1 xs0).1 S1024x128.size (by sl_kernel_rfl) y

/-- The output block after a last edge chunk. -/
def out12_C_2 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) : Vec F S1024x128 .f32 :=
  VO12_2.read (Elt F) (VO12_2.writes (Elt F) VO12_2.junk (kernelRun12_C (F := F) c i arg2 harg2 arg3 harg3 arg4 harg4 arg5 harg5 hc0 hc1 x0 x1 xs0).1)

theorem scover12_C_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) (y : S1024x128.Idx) :
    ∃ pc ∈ (kernelRun12_C (F := F) c i arg2 harg2 arg3 harg3 arg4 harg4 arg5 harg5 hc0 hc1 x0 x1 xs0).2.1, y ∈ pc.1.set :=
  View.cover_of_tiledL (kernelRun12_C (F := F) c i arg2 harg2 arg3 harg3 arg4 harg4 arg5 harg5 hc0 hc1 x0 x1 xs0).2.1 S1024x128.size (by sl_kernel_rfl) y

/-- The accumulator after a last edge chunk. -/
def sout12_C_0 (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) : Vec F S1024x128 .f32 :=
  VS12_0.read (Elt F) (VS12_0.writes (Elt F) VS12_0.junk (kernelRun12_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle12_2 : Vec F S1024x128 .f32 := VO12_2.read (Elt F) VO12_2.junk

/-! ## The accumulation, point by point -/

/-- After the body at position `n`: (the output block, the accumulator) — the case the closed forms select, a later
    edge chunk's over what position `n - 1` left in the accumulator. -/
def outsAt12 (c : Dev nD) : (n : ℕ) → n < cfg12.N → Vec F S1024x128 .f32 × Vec F S1024x128 .f32
  | 0, hn => (idle12_2, sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) scM12_0 (Memref.isWhole_whole _) ((hcond12_0 ⟨0, hn⟩).mpr (Nat.zero_mod _)) (fun h => (fun h => by (try dsimp only at h); omega) ((hcond12_1 ⟨0, hn⟩).mp h)) (iblk12 V c 0 ⟨0, hn⟩) (iblk12 V c 1 ⟨0, hn⟩))
  | n + 1, hn =>
    if h0 : (n + 1) % 196 = 0 then
      if h1 : (n + 1) % 196 = 195 then
        False.elim (by omega)
      else
        (idle12_2, sout12_A_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) ((hcond12_0 ⟨n + 1, hn⟩).mpr h0) (fun h => h1 ((hcond12_1 ⟨n + 1, hn⟩).mp h)) (iblk12 V c 0 ⟨n + 1, hn⟩) (iblk12 V c 1 ⟨n + 1, hn⟩))
    else
      if h1 : (n + 1) % 196 = 195 then
        (out12_C_2 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2,
         sout12_C_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) ((hcond12_1 ⟨n + 1, hn⟩).mpr h1) (iblk12 V c 0 ⟨n + 1, hn⟩) (iblk12 V c 1 ⟨n + 1, hn⟩) (outsAt12 c n (Nat.lt_of_succ_lt hn)).2)
      else
        (idle12_2, sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) scM12_0 (Memref.isWhole_whole _) (fun h => h0 ((hcond12_0 ⟨n + 1, hn⟩).mp h)) (fun h => h1 ((hcond12_1 ⟨n + 1, hn⟩).mp h)) (iblk12 V c 0 ⟨n + 1, hn⟩) (iblk12 V c 1 ⟨n + 1, hn⟩) (outsAt12 c n (Nat.lt_of_succ_lt hn)).2)

theorem outsAt12_A (c : Dev nD) (t : Fin cfg12.N) (h0 : t.val % 196 = 0) (h1 : ¬t.val % 196 = 195) :
    outsAt12 V c t.val t.isLt = (idle12_2, sout12_A_0 c (grid12.coords t) (ms12_0 t) (hs12_0 t) (ms12_1 t) (hs12_1 t) (ms12_2 t) (hs12_2 t) scM12_0 (Memref.isWhole_whole _) ((hcond12_0 t).mpr h0) (fun h => h1 ((hcond12_1 t).mp h)) (iblk12 V c 0 t) (iblk12 V c 1 t)) := by
  obtain ⟨n, hn⟩ := t
  cases n with
  | zero => exact rfl
  | succ n => exact (dif_pos h0).trans ((dif_neg h1).trans rfl)

theorem outsAt12_B (c : Dev nD) (t : Fin cfg12.N) (h0 : ¬t.val % 196 = 0) (h1 : ¬t.val % 196 = 195) :
    outsAt12 V c t.val t.isLt = (idle12_2, sout12_B_0 c (grid12.coords t) (ms12_0 t) (hs12_0 t) (ms12_1 t) (hs12_1 t) (ms12_2 t) (hs12_2 t) scM12_0 (Memref.isWhole_whole _) (fun h => h0 ((hcond12_0 t).mp h)) (fun h => h1 ((hcond12_1 t).mp h)) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt12_C (c : Dev nD) (t : Fin cfg12.N) (h0 : ¬t.val % 196 = 0) (h1 : t.val % 196 = 195) :
    outsAt12 V c t.val t.isLt = (out12_C_2 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2,
      sout12_C_0 c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut12 (c : Dev nD) : sProp 𝕄 :=
  Pipeline.scopedRestBut (Ix := Unit) (Name := ℕ) (U := Pipeline.UD sig nD τ) (Lvl := ℕ) (Val := Elt F) spec12 c [cc12_scratch0]

/-- Before position `n`: at the region's entry the class invariant (the accumulator at anything); afterwards the
    accumulator at what position `n - 1` left, the other scoped buffers unopened, the generator register at some state. -/
def PhiS12 (c : Dev nD) : (n : ℕ) → n ≤ cfg12.N → sProp 𝕄
  | 0, _ => Pipeline.ΦA spec12 c
  | n + 1, hn => iprop(iprop(owns (c : Thread nD τ) scM12_0 fullShare ((outsAt12 V c n hn).2) ∗ restBut12 (F := F) c) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(owns (c : Thread nD τ) scM12_0 fullShare ((outsAt12 V c n hn).2) ∗ restBut12 (F := F) c) ∗ (∃ r, prngReg c r)) := rfl
theorem PhiS12_pos (c : Dev nD) (n : ℕ) (h : n ≤ cfg12.N) (hz : n ≠ 0) :
    PhiS12 V c n h = iprop(iprop(owns (c : Thread nD τ) scM12_0 fullShare ((outsAt12 V c (n - 1) (by omega)).2) ∗ restBut12 (F := F) c) ∗ (∃ r, prngReg c r)) := by
  cases n with
  | zero => exact absurd rfl hz
  | succ n => rfl

/-! ## The pipeline's proof data -/

/-- The arrays as the region finds them; after the body each input's buffer at its block, the output's at `outsAt12`'s
    first component; the invariant `PhiS12`; nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => (outsAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = (outsAt12 V c t.val t.isLt).1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body12 (c : Dev nD) (t : Fin cfg12.N) :
    bodyPre12 V c t ⊢ wp frame (wpE (defs₀ (F := F)) Variants.none c none) Set.univ (bodyAtH12 t) (fun _ => bodyPost12 V c t) := by
  unfold bodyPre12 bodyPost12 bodyAtH12
  simp only [before12_0, before12_1]
  rw [show (dat12 V c).owesAt () t.succ = (dat12 V c).owesAt () t.castSucc from rfl]
  rw [show (dat12 V c).Φ t.succ = PhiS12 V c (t.val + 1) t.isLt from rfl, PhiS12_succ]
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  by_cases h1 : t.val % 196 = 195
  · have h0 : ¬t.val % 196 = 0 := by omega
    have hz : t.val ≠ 0 := by omega
    rw [show (dat12 V c).leavesExact 2 t = owns (c : Thread nD τ) (ms12_2 t) fullShare ((dat12 V c).after 2 t) from by
      unfold Dat.leavesExact; rw [liveAt12_2 t ((hcond12_1 t).mpr h1)], after12_2]
    rw [outsAt12_C V c t h0 h1]
    unfold out12_C_2 sout12_C_0; (try dsimp only)
    rw [PhiS12_castSucc V c t, PhiS12_pos V c _ _ hz]
    iintro ⟨⟨⟨HS0, HR⟩, Hg⟩, Ho, ⟨%d0, H0⟩, ⟨%d1, H1⟩, ⟨%d2, H2⟩⟩
    iapply ((kernelRun12_C c (grid12.coords t) _ _ _ _ _ _ _ _ (fun h => h0 ((hcond12_0 t).mp h)) ((hcond12_1 t).mpr h1) (iblk12 V c 0 t) (iblk12 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover12_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover12_C_2 c _ _ _ _ _ _ _ _ _ _ _ _ _ _)
  · rw [Dat.leavesExact_idle (dat12 V c) 2 t (idleAt12_2 t (fun h => h1 ((hcond12_1 t).mp h))) (noFlush12_2 t (fun h => h1 ((hcond12_1 t).mp h)))]
    by_cases h0 : t.val % 196 = 0
    · rw [outsAt12_A V c t h0 h1]
      unfold sout12_A_0; (try dsimp only)
      by_cases hz : t.val = 0
      · rw [PhiS12_castSucc V c t, PhiS12_zero V c _ _ hz, PhiA12_eq]
        iintro ⟨⟨⟨HS0, HR⟩, Hg⟩, Ho, ⟨%d0, H0⟩, ⟨%d1, H1⟩, ⟨%d2, H2⟩⟩
        iapply ((kernelRun12_A c (grid12.coords t) _ _ _ _ _ _ _ _ ((hcond12_0 t).mpr h0) (fun h => h1 ((hcond12_1 t).mp h)) (iblk12 V c 0 t) (iblk12 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover12_A_0 c _ _ _ _ _ _ _ _ _ _ _ _ _)
            iexact HR
          iexact Hg
        isplitl [Ho]; · iexact Ho
        isplitl [H0]; · iexact H0
        isplitl [H1]; · iexact H1
        iexists _; iexact H2
      · rw [PhiS12_castSucc V c t, PhiS12_pos V c _ _ hz]
        iintro ⟨⟨⟨HS0, HR⟩, Hg⟩, Ho, ⟨%d0, H0⟩, ⟨%d1, H1⟩, ⟨%d2, H2⟩⟩
        iapply ((kernelRun12_A c (grid12.coords t) _ _ _ _ _ _ _ _ ((hcond12_0 t).mpr h0) (fun h => h1 ((hcond12_1 t).mp h)) (iblk12 V c 0 t) (iblk12 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover12_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt12_B V c t h0 h1]
      unfold sout12_B_0; (try dsimp only)
      rw [PhiS12_castSucc V c t, PhiS12_pos V c _ _ hz]
      iintro ⟨⟨⟨HS0, HR⟩, Hg⟩, Ho, ⟨%d0, H0⟩, ⟨%d1, H1⟩, ⟨%d2, H2⟩⟩
      iapply ((kernelRun12_B c (grid12.coords t) _ _ _ _ _ _ _ _ (fun h => h0 ((hcond12_0 t).mp h)) (fun h => h1 ((hcond12_1 t).mp h)) (iblk12 V c 0 t) (iblk12 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover12_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the class invariant back: the accumulator's contents are forgotten. -/
theorem hout12 (c : Dev nD) : (dat12 V c).Φ (Fin.last cfg12.N) ⊢ Pipeline.ΦA spec12 c := by
  have hN : cfg12.N = 3920 := N_12
  rw [show (dat12 V c).Φ (Fin.last cfg12.N) = PhiS12 V c (Fin.last cfg12.N).val (Nat.le_of_lt_succ (Fin.last cfg12.N).isLt) from rfl,
    PhiS12_pos V c _ _ (by rw [Fin.val_last]; omega), PhiA12_eq]
  iintro ⟨⟨HS0, HR⟩, Hg⟩
  isplitl [HS0 HR]
  · isplitl [HS0]
    · iexists _; iexact HS0
    iexact HR
  iexact Hg

end

end Cert.KernelIdeal.H

end
-- ==== Proof.KI.G13Runs.lean ====
/-
  A gather launch (the first one-hot product of a relation): what its three control cases share.
  A grid point is (edge chunk, source tile); the body zeroes its accumulator at the first source tile, adds the tile's
  one-hot product at every point, and stores the accumulator to the output block at the last source tile.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not. -/
theorem before13_0_of {c : Dev nD} (dat : Dat τ (Elt F) Unit ℕ (Pipeline.UD sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (Pipeline.UD sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (Pipeline.UD sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
end

/-! ## The grid's coordinates at a point, the branch conditions in closed form, and where the output block is written back -/

theorem coords13_0 (t : Fin cfg13.N) : ((grid13.coords t) 0).val = t.val / 4 := by
  have hN : grid13.N = 316 := N_13
  have ht : t.val < 316 := hN ▸ t.isLt
  show t.val / grid13.stride 0 % 79 = _
  rw [show grid13.stride 0 = 4 from by decide]
  omega
theorem coords13_1 (t : Fin cfg13.N) : ((grid13.coords t) 1).val = t.val % 4 := by
  show t.val / grid13.stride 1 % 4 = _
  rw [show grid13.stride 1 = 1 from by decide]
  omega

/-- "This is the first source tile": the accumulator is zeroed. -/
abbrev cond13_0 (i : grid13.Coords) : Prop := (Scalar.cmpi .ne (Scalar.extui (Scalar.cmpi .eq (BitVec.ofNat 32 (i 1).val) 0#32)) 0#32) = 1#1
/-- "This is the last source tile": the accumulator is stored to the output block. -/
abbrev cond13_1 (i : grid13.Coords) : Prop := k13_cond2 i = 1#1
/-- The two tests read only the second coordinate, which takes 4 values. -/
theorem condw13_0 : ∀ v : Fin 4, ((Scalar.cmpi .ne (Scalar.extui (Scalar.cmpi .eq (BitVec.ofNat 32 v.val) 0#32)) 0#32) = 1#1) ↔ v.val = 0 := by decide
theorem condw13_1 : ∀ v : Fin 4, ((Scalar.cmpi .ne (Scalar.extui (Scalar.cmpi .eq (BitVec.ofNat 32 v.val) 3#32)) 0#32) = 1#1) ↔ v.val = 3 := by decide
theorem hcond13_0 (t : Fin cfg13.N) : cond13_0 (grid13.coords t) ↔ t.val % 4 = 0 := by
  rw [← coords13_1 t]; exact condw13_0 ((grid13.coords t) 1)
theorem hcond13_1 (t : Fin cfg13.N) : cond13_1 (grid13.coords t) ↔ t.val % 4 = 3 := by
  rw [← coords13_1 t]; exact condw13_1 ((grid13.coords t) 1)

/-- The output window's block index at a point: (t / 4, 0). -/
theorem oidx13 (t : Fin cfg13.N) : win13_3.index t (0 : Fin 2) = t.val / 4 ∧ win13_3.index t (1 : Fin 2) = 0 := by
  have hN : grid13.N = 316 := N_13
  have ht : t.val < 316 := hN ▸ t.isLt
  have c0 := coords13_0 t
  refine ⟨?_, rfl⟩
  show (BitVec.ofNat 32 ((grid13.coords t) 0).val).toNat = _
  rw [BitVec.toNat_ofNat, c0]; omega

/-- The output block is written back exactly at the points ≡ 3 (mod 4): there the next point's block is another (or
    the grid ends), and nowhere else does the block index move. -/
theorem flushAt13_3 (t : Fin cfg13.N) : (cfg13.win 3).flush t = true ↔ t.val % 4 = 3 := by
  have hN : grid13.N = 316 := N_13
  have ht : t.val < 316 := hN ▸ t.isLt
  show win13_3.flush t = true ↔ _
  unfold Pipeline.Window.flush
  rw [show win13_3.isOut = true from rfl]
  simp only [Bool.true_and, Bool.or_eq_true, decide_eq_true_eq]
  constructor
  · rintro (h | ⟨hl, hne⟩)
    · omega
    · by_contra h48
      apply hne
      obtain ⟨a0, a1⟩ := oidx13 ⟨t.val + 1, hl⟩
      obtain ⟨b0, b1⟩ := oidx13 t
      funext a
      match a with
      | ⟨0, _⟩ =>
        show win13_3.index ⟨t.val + 1, hl⟩ (0 : Fin 2) = win13_3.index t (0 : Fin 2)
        rw [a0, b0]
        show (t.val + 1) / 4 = t.val / 4
        omega
      | ⟨1, _⟩ =>
        show win13_3.index ⟨t.val + 1, hl⟩ (1 : Fin 2) = win13_3.index t (1 : Fin 2)
        rw [a1, b1]
  · intro h48
    by_cases hl : t.val + 1 = grid13.N
    · exact Or.inl hl
    · have hl' : t.val + 1 < grid13.N := by omega
      refine Or.inr ⟨hl', fun heq => ?_⟩
      have h0 := congrFun heq (0 : Fin 2)
      rw [(oidx13 ⟨t.val + 1, hl'⟩).1, (oidx13 t).1] at h0
      have h0' : (t.val + 1) / 4 = t.val / 4 := h0
      omega
theorem noFlush13_3 (t : Fin cfg13.N) (h : ¬cond13_1 (grid13.coords t)) : (cfg13.win 3).flush t = false := by
  cases hf : (cfg13.win 3).flush t with
  | false => rfl
  | true => exact absurd ((hcond13_1 t).mpr ((flushAt13_3 t).mp hf)) h

/-! ## Where the windows are idle -/
theorem liveAt13_0 : ∀ t : Fin cfg13.N, cfg13.idle 0 (grid13.coords t) = false := fun _ => rfl
theorem liveAt13_1 : ∀ t : Fin cfg13.N, cfg13.idle 1 (grid13.coords t) = false := fun _ => rfl
theorem liveAt13_2 : ∀ t : Fin cfg13.N, cfg13.idle 2 (grid13.coords t) = false := fun _ => rfl
theorem idleAt13_3 : ∀ t : Fin cfg13.N, ¬cond13_1 (grid13.coords t) → cfg13.idle 3 (grid13.coords t) = true := fun t h => by
  show (!(k13_cond2 (grid13.coords t) == 1#1)) = true
  simp only [Bool.not_eq_true', beq_eq_false_iff_ne, ne_eq]
  exact h
theorem liveAt13_3 : ∀ t : Fin cfg13.N, cond13_1 (grid13.coords t) → cfg13.idle 3 (grid13.coords t) = false := fun t h => by
  show (!(k13_cond2 (grid13.coords t) == 1#1)) = false
  simp only [Bool.not_eq_false', beq_iff_eq]
  exact h

/-! ## The memrefs the runs are stated over -/
abbrev VO13_3 : View sig .tc .vmem S2048x128 .bf16 := (Memref.whole cc13_stg3_0 : Memref sig .tc .vmem S2048x128 .bf16).view
abbrev ms13_0 (t : Fin cfg13.N) : Memref sig .tc .vmem S2048 .i32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S2048 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1024x128 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S2048x128 .bf16 := win13_3.stage (cfg13.slots t 3)
abbrev hs13_3 (t : Fin cfg13.N) : (ms13_3 t).IsWhole := hstage13_3 ((cfg13.slots t 3).cast nbuf13_3)
/-- The accumulator: a whole scoped buffer of the kernel's own, carried from point to point. -/
abbrev scM13_0 : Memref sig .tc .vmem S2048x128 .f32 := Memref.whole cc13_scratch0
abbrev VS13_0 : View sig .tc .vmem S2048x128 .f32 := scM13_0.view

/-- The class invariant with the accumulator as a memref owned at some contents; the other scoped buffers stay unopened. -/
theorem PhiA13_eq (c : Dev nD) :
    (Pipeline.ΦA spec13 c : sProp 𝕄)
      = iprop(iprop((∃ d, owns (c : Thread nD τ) scM13_0 fullShare d) ∗ Pipeline.scopedRestBut (Ix := Unit) (Name := ℕ) (U := Pipeline.UD sig nD τ) (Lvl := ℕ) (Val := Elt F) spec13 c [cc13_scratch0]) ∗ (∃ r, prngReg c r)) := by
  unfold Pipeline.ΦA; rw [scopedRest13_split]; simp only [scM13_0, owns_whole]; try rfl

end Cert.KernelIdeal.H

end
-- ==== Proof.KI.G13RunB.lean ====
/-
  A gather launch (the first one-hot product of a relation), at a middle source tile (neither the first nor the last): the accumulator, found at what the
  point before left, gets the product added; the output block is not touched.
-/
import proofs.«407232_j23192823399226_1_alg».proof.Proof.KI.G13Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun13_B (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc13__gather_kernel i arg2 harg2 arg3 harg3 arg4 harg4 arg5 harg5 arg6 harg6) K } := by
  refine ⟨[], ?_, fun xi3 E K => ?run⟩
  case run =>
    simp only [cc13__gather_kernel_eq_skeleton]; unfold cc13__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G13RunA.lean ====
/-
  A gather launch (the first one-hot product of a relation), at the first source tile: the accumulator, whatever it held, is zeroed and gets the product
  added; the output block is not touched.
-/
import proofs.«407232_j23192823399226_1_alg».proof.Proof.KI.G13RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun13_A (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) :
    Σ' (L3 : List (View.Piece (Elt F) S2048x128 .bf16)), { LS0 : List (View.Piece (Elt F) S2048x128 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc13__gather_kernel i arg2 harg2 arg3 harg3 arg4 harg4 arg5 harg5 arg6 harg6) K } := by
  refine ⟨[], ?_, fun xi3 E K => ?run⟩
  case run =>
    simp only [cc13__gather_kernel_eq_skeleton]; unfold cc13__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.G13RunC.lean ====
/-
  A gather launch (the first one-hot product of a relation), at the last source tile: the accumulator, found at what the point before left, gets the
  product added and is then stored to the output block.
-/
import proofs.«407232_j23192823399226_1_alg».proof.Proof.KI.G13RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun13_C (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) :
    Σ' (L3 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc13__gather_kernel i arg2 harg2 arg3 harg3 arg4 harg4 arg5 harg5 arg6 harg6) K } := by
  refine ⟨?_, ?_, fun E K => ?run⟩
  case run =>
    simp only [cc13__gather_kernel_eq_skeleton]; unfold cc13__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.G13.lean ====
/-
  A gather launch (the first one-hot product of a relation): what its accumulator and its output block hold point by point, the proof data of its pipeline over any
  entry contents, and the body obligation at every grid point.
  Within an edge chunk the accumulator after a source tile is the sum of the one-hot products of the tiles so far; the
  output block is written only at the last tile, and is idle (neither stored nor written back) before.
-/
import proofs.«407232_j23192823399226_1_alg».proof.Proof.KI.G13RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH13 (t : Fin cfg13.N) : Prog (TpuEff nD τ sig (Elt F) Λ₀ .tc) PUnit :=
  cc13__gather_kernel (grid13.coords t) (ms13_0 t) (hs13_0 t) (ms13_1 t) (hs13_1 t) (ms13_2 t) (hs13_2 t) (ms13_3 t) (hs13_3 t) scM13_0 (Memref.isWhole_whole _)

/-! ## What each case leaves -/

theorem scover13_A_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) (y : S2048x128.Idx) :
    ∃ pc ∈ (kernelRun13_A (F := F) c i arg2 harg2 arg3 harg3 arg4 harg4 arg5 harg5 arg6 harg6 hc0 hc1 x0 x1 x2).2.1, y ∈ pc.1.set :=
  View.cover_of_tiledL (kernelRun13_A (F := F) c i arg2 harg2 arg3 harg3 arg4 harg4 arg5 harg5 arg6 harg6 hc0 hc1 x0 x1 x2).2.1 S2048x128.size (by sl_kernel_rfl) y

/-- The accumulator after a first source tile: the case's pieces read back. -/
def sout13_A_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) : Vec F S2048x128 .f32 :=
  VS13_0.read (Elt F) (VS13_0.writes (Elt F) VS13_0.junk (kernelRun13_A (F := F) c i arg2 harg2 arg3 harg3 arg4 harg4 arg5 harg5 arg6 harg6 hc0 hc1 x0 x1 x2).2.1)

theorem scover13_B_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) (y : S2048x128.Idx) :
    ∃ pc ∈ (kernelRun13_B (F := F) c i arg2 harg2 arg3 harg3 arg4 harg4 arg5 harg5 arg6 harg6 hc0 hc1 x0 x1 x2 xs0).2.1, y ∈ pc.1.set :=
  View.cover_of_tiledL (kernelRun13_B (F := F) c i arg2 harg2 arg3 harg3 arg4 harg4 arg5 harg5 arg6 harg6 hc0 hc1 x0 x1 x2 xs0).2.1 S2048x128.size (by sl_kernel_rfl) y

/-- The accumulator after a middle source tile, over what the point before left (`xs0`). -/
def sout13_B_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) : Vec F S2048x128 .f32 :=
  VS13_0.read (Elt F) (VS13_0.writes (Elt F) VS13_0.junk (kernelRun13_B (F := F) c i arg2 harg2 arg3 harg3 arg4 harg4 arg5 harg5 arg6 harg6 hc0 hc1 x0 x1 x2 xs0).2.1)

theorem cover13_C_3 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) (y : S2048x128.Idx) :
    ∃ pc ∈ (kernelRun13_C (F := F) c i arg2 harg2 arg3 harg3 arg4 harg4 arg5 harg5 arg6 harg6 hc0 hc1 x0 x1 x2 xs0).1, y ∈ pc.1.set :=
  View.cover_of_tiledL (kernelRun13_C (F := F) c i arg2 harg2 arg3 harg3 arg4 harg4 arg5 harg5 arg6 harg6 hc0 hc1 x0 x1 x2 xs0).1 S2048x128.size (by sl_kernel_rfl) y

/-- The output block after a last source tile. -/
def out13_C_3 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) : Vec F S2048x128 .bf16 :=
  VO13_3.read (Elt F) (VO13_3.writes (Elt F) VO13_3.junk (kernelRun13_C (F := F) c i arg2 harg2 arg3 harg3 arg4 harg4 arg5 harg5 arg6 harg6 hc0 hc1 x0 x1 x2 xs0).1)

theorem scover13_C_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) (y : S2048x128.Idx) :
    ∃ pc ∈ (kernelRun13_C (F := F) c i arg2 harg2 arg3 harg3 arg4 harg4 arg5 harg5 arg6 harg6 hc0 hc1 x0 x1 x2 xs0).2.1, y ∈ pc.1.set :=
  View.cover_of_tiledL (kernelRun13_C (F := F) c i arg2 harg2 arg3 harg3 arg4 harg4 arg5 harg5 arg6 harg6 hc0 hc1 x0 x1 x2 xs0).2.1 S2048x128.size (by sl_kernel_rfl) y

/-- The accumulator after a last source tile. -/
def sout13_C_0 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) : Vec F S2048x128 .f32 :=
  VS13_0.read (Elt F) (VS13_0.writes (Elt F) VS13_0.junk (kernelRun13_C (F := F) c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-- What the output block holds where no case stores it: never consulted (the window is idle there). -/
def idle13_3 : Vec F S2048x128 .bf16 := VO13_3.read (Elt F) VO13_3.junk

/-! ## The accumulation, point by point -/

/-- After the body at position `n`: (the output block, the accumulator) — the case the closed forms select, a later
    source tile's over what position `n - 1` left in the accumulator. -/
def outsAt13 (c : Dev nD) : (n : ℕ) → n < cfg13.N → Vec F S2048x128 .bf16 × Vec F S2048x128 .f32
  | 0, hn => (idle13_3, sout13_A_0 c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) (ms13_3 ⟨0, hn⟩) (hs13_3 ⟨0, hn⟩) scM13_0 (Memref.isWhole_whole _) ((hcond13_0 ⟨0, hn⟩).mpr (Nat.zero_mod _)) (fun h => (fun h => by (try dsimp only at h); omega) ((hcond13_1 ⟨0, hn⟩).mp h)) (iblk13 V c 0 ⟨0, hn⟩) (iblk13 V c 1 ⟨0, hn⟩) (iblk13 V c 2 ⟨0, hn⟩))
  | n + 1, hn =>
    if h0 : (n + 1) % 4 = 0 then
      if h1 : (n + 1) % 4 = 3 then
        False.elim (by omega)
      else
        (idle13_3, sout13_A_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) ((hcond13_0 ⟨n + 1, hn⟩).mpr h0) (fun h => h1 ((hcond13_1 ⟨n + 1, hn⟩).mp h)) (iblk13 V c 0 ⟨n + 1, hn⟩) (iblk13 V c 1 ⟨n + 1, hn⟩) (iblk13 V c 2 ⟨n + 1, hn⟩))
    else
      if h1 : (n + 1) % 4 = 3 then
        (out13_C_3 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2,
         sout13_C_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => h0 ((hcond13_0 ⟨n + 1, hn⟩).mp h)) ((hcond13_1 ⟨n + 1, hn⟩).mpr h1) (iblk13 V c 0 ⟨n + 1, hn⟩) (iblk13 V c 1 ⟨n + 1, hn⟩) (iblk13 V c 2 ⟨n + 1, hn⟩) (outsAt13 c n (Nat.lt_of_succ_lt hn)).2)
      else
        (idle13_3, sout13_B_0 c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) (ms13_3 ⟨n + 1, hn⟩) (hs13_3 ⟨n + 1, hn⟩) scM13_0 (Memref.isWhole_whole _) (fun h => h0 ((hcond13_0 ⟨n + 1, hn⟩).mp h)) (fun h => h1 ((hcond13_1 ⟨n + 1, hn⟩).mp h)) (iblk13 V c 0 ⟨n + 1, hn⟩) (iblk13 V c 1 ⟨n + 1, hn⟩) (iblk13 V c 2 ⟨n + 1, hn⟩) (outsAt13 c n (Nat.lt_of_succ_lt hn)).2)

theorem outsAt13_A (c : Dev nD) (t : Fin cfg13.N) (h0 : t.val % 4 = 0) (h1 : ¬t.val % 4 = 3) :
    outsAt13 V c t.val t.isLt = (idle13_3, sout13_A_0 c (grid13.coords t) (ms13_0 t) (hs13_0 t) (ms13_1 t) (hs13_1 t) (ms13_2 t) (hs13_2 t) (ms13_3 t) (hs13_3 t) scM13_0 (Memref.isWhole_whole _) ((hcond13_0 t).mpr h0) (fun h => h1 ((hcond13_1 t).mp h)) (iblk13 V c 0 t) (iblk13 V c 1 t) (iblk13 V c 2 t)) := by
  obtain ⟨n, hn⟩ := t
  cases n with
  | zero => exact rfl
  | succ n => exact (dif_pos h0).trans ((dif_neg h1).trans rfl)

theorem outsAt13_B (c : Dev nD) (t : Fin cfg13.N) (h0 : ¬t.val % 4 = 0) (h1 : ¬t.val % 4 = 3) :
    outsAt13 V c t.val t.isLt = (idle13_3, sout13_B_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt13_C (c : Dev nD) (t : Fin cfg13.N) (h0 : ¬t.val % 4 = 0) (h1 : t.val % 4 = 3) :
    outsAt13 V c t.val t.isLt = (out13_C_3 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2,
      sout13_C_0 c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut13 (c : Dev nD) : sProp 𝕄 :=
  Pipeline.scopedRestBut (Ix := Unit) (Name := ℕ) (U := Pipeline.UD sig nD τ) (Lvl := ℕ) (Val := Elt F) spec13 c [cc13_scratch0]

/-- Before position `n`: at the region's entry the class invariant (the accumulator at anything); afterwards the
    accumulator at what position `n - 1` left, the other scoped buffers unopened, the generator register at some state. -/
def PhiS13 (c : Dev nD) : (n : ℕ) → n ≤ cfg13.N → sProp 𝕄
  | 0, _ => Pipeline.ΦA spec13 c
  | n + 1, hn => iprop(iprop(owns (c : Thread nD τ) scM13_0 fullShare ((outsAt13 V c n hn).2) ∗ restBut13 (F := F) c) ∗ (∃ r, prngReg c r))

theorem PhiS13_zero (c : Dev nD) (n : ℕ) (h : n ≤ cfg13.N) (hz : n = 0) : PhiS13 V c n h = Pipeline.ΦA spec13 c := by
  subst hz; rfl
theorem PhiS13_succ (c : Dev nD) (n : ℕ) (hn : n < cfg13.N) :
    PhiS13 V c (n + 1) hn = iprop(iprop(owns (c : Thread nD τ) scM13_0 fullShare ((outsAt13 V c n hn).2) ∗ restBut13 (F := F) c) ∗ (∃ r, prngReg c r)) := rfl
theorem PhiS13_pos (c : Dev nD) (n : ℕ) (h : n ≤ cfg13.N) (hz : n ≠ 0) :
    PhiS13 V c n h = iprop(iprop(owns (c : Thread nD τ) scM13_0 fullShare ((outsAt13 V c (n - 1) (by omega)).2) ∗ restBut13 (F := F) c) ∗ (∃ r, prngReg c r)) := by
  cases n with
  | zero => exact absurd rfl hz
  | succ n => rfl

/-! ## The pipeline's proof data -/

/-- The arrays as the region finds them; after the body each input's buffer at its block, the output's at `outsAt13`'s
    first component; the invariant `PhiS13`; nothing owed; full shares. -/
def dat13 (c : Dev nD) : Dat τ (Elt F) Unit ℕ (Pipeline.UD sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem PhiS13_castSucc (c : Dev nD) (t : Fin cfg13.N) :
    (dat13 V c).Φ t.castSucc = PhiS13 V c t.val (Nat.le_of_lt t.isLt) := by
  dsimp only [dat13]; simp only [Fin.coe_castSucc]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body13 (c : Dev nD) (t : Fin cfg13.N) :
    bodyPre13 V c t ⊢ wp frame (wpE (defs₀ (F := F)) Variants.none c none) Set.univ (bodyAtH13 t) (fun _ => bodyPost13 V c t) := by
  unfold bodyPre13 bodyPost13 bodyAtH13
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  by_cases h1 : t.val % 4 = 3
  · have h0 : ¬t.val % 4 = 0 := by omega
    have hz : t.val ≠ 0 := by omega
    rw [show (dat13 V c).leavesExact 3 t = owns (c : Thread nD τ) (ms13_3 t) fullShare ((dat13 V c).after 3 t) from by
      unfold Dat.leavesExact; rw [liveAt13_3 t ((hcond13_1 t).mpr h1)], after13_3]
    rw [outsAt13_C V c t h0 h1]
    unfold out13_C_3 sout13_C_0; (try dsimp only)
    rw [PhiS13_castSucc V c t, PhiS13_pos V c _ _ hz]
    iintro ⟨⟨⟨HS0, HR⟩, Hg⟩, Ho, ⟨%d0, H0⟩, ⟨%d1, H1⟩, ⟨%d2, H2⟩, ⟨%d3, H3⟩⟩
    iapply ((kernelRun13_C c (grid13.coords t) _ _ _ _ _ _ _ _ _ _ (fun h => h0 ((hcond13_0 t).mp h)) ((hcond13_1 t).mpr h1) (iblk13 V c 0 t) (iblk13 V c 1 t) (iblk13 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover13_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover13_C_3 c _ _ _ _ _ _ _ _ _ _ _ _ _ _ _ _ _)
  · rw [Dat.leavesExact_idle (dat13 V c) 3 t (idleAt13_3 t (fun h => h1 ((hcond13_1 t).mp h))) (noFlush13_3 t (fun h => h1 ((hcond13_1 t).mp h)))]
    by_cases h0 : t.val % 4 = 0
    · rw [outsAt13_A V c t h0 h1]
      unfold sout13_A_0; (try dsimp only)
      by_cases hz : t.val = 0
      · rw [PhiS13_castSucc V c t, PhiS13_zero V c _ _ hz, PhiA13_eq]
        iintro ⟨⟨⟨HS0, HR⟩, Hg⟩, Ho, ⟨%d0, H0⟩, ⟨%d1, H1⟩, ⟨%d2, H2⟩, ⟨%d3, H3⟩⟩
        iapply ((kernelRun13_A c (grid13.coords t) _ _ _ _ _ _ _ _ _ _ ((hcond13_0 t).mpr h0) (fun h => h1 ((hcond13_1 t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover13_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS13_castSucc V c t, PhiS13_pos V c _ _ hz]
        iintro ⟨⟨⟨HS0, HR⟩, Hg⟩, Ho, ⟨%d0, H0⟩, ⟨%d1, H1⟩, ⟨%d2, H2⟩, ⟨%d3, H3⟩⟩
        iapply ((kernelRun13_A c (grid13.coords t) _ _ _ _ _ _ _ _ _ _ ((hcond13_0 t).mpr h0) (fun h => h1 ((hcond13_1 t).mp h)) (iblk13 V c 0 t) (iblk13 V c 1 t) (iblk13 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover13_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := by omega
      rw [outsAt13_B V c t h0 h1]
      unfold sout13_B_0; (try dsimp only)
      rw [PhiS13_castSucc V c t, PhiS13_pos V c _ _ hz]
      iintro ⟨⟨⟨HS0, HR⟩, Hg⟩, Ho, ⟨%d0, H0⟩, ⟨%d1, H1⟩, ⟨%d2, H2⟩, ⟨%d3, H3⟩⟩
      iapply ((kernelRun13_B c (grid13.coords t) _ _ _ _ _ _ _ _ _ _ (fun h => h0 ((hcond13_0 t).mp h)) (fun h => h1 ((hcond13_1 t).mp h)) (iblk13 V c 0 t) (iblk13 V c 1 t) (iblk13 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover13_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After the last point the invariant gives the class invariant back: the accumulator's contents are forgotten. -/
theorem hout13 (c : Dev nD) : (dat13 V c).Φ (Fin.last cfg13.N) ⊢ Pipeline.ΦA spec13 c := by
  have hN : cfg13.N = 316 := N_13
  rw [show (dat13 V c).Φ (Fin.last cfg13.N) = PhiS13 V c (Fin.last cfg13.N).val (Nat.le_of_lt_succ (Fin.last cfg13.N).isLt) from rfl,
    PhiS13_pos V c _ _ (by rw [Fin.val_last]; omega), PhiA13_eq]
  iintro ⟨⟨HS0, HR⟩, Hg⟩
  isplitl [HS0 HR]
  · isplitl [HS0]
    · iexists _; iexact HS0
    iexact HR
  iexact Hg

end

end Cert.KernelIdeal.H

end
-- ==== Proof.KI.S14Runs.lean ====
/-
  A scatter launch (the second one-hot product of a relation): what its three control cases share.
  A grid point is (destination tile, edge chunk); the body zeroes its accumulator at the first edge chunk, adds the
  chunk's one-hot product at every point, and stores the accumulator to the output block at the last edge chunk.
  Here: each window's block read off the arrays as the region finds them, the two branch conditions in closed form over
  the grid, where the output window is idle, and the staging and scratch memrefs the runs are stated over.
-/
import proofs.«407232_j23192823399226_1_alg».proof.Proof.Gen.KernelIdeal.Launch
import proofs.«407232_j23192823399226_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, fetched there or not. -/
theorem before14_0_of {c : Dev nD} (dat : Dat τ (Elt F) Unit ℕ (Pipeline.UD sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (Pipeline.UD sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
end

/-! ## The grid's coordinates at a point, the branch conditions in closed form, and where the output block is written back -/

theorem coords14_0 (t : Fin cfg14.N) : ((grid14.coords t) 0).val = t.val / 79 := by
  have hN : grid14.N = 1580 := N_14
  have ht : t.val < 1580 := hN ▸ t.isLt
  show t.val / grid14.stride 0 % 20 = _
  rw [show grid14.stride 0 = 79 from by decide]
  omega
theorem coords14_1 (t : Fin cfg14.N) : ((grid14.coords t) 1).val = t.val % 79 := by
  show t.val / grid14.stride 1 % 79 = _
  rw [show grid14.stride 1 = 1 from by decide]
  omega

/-- "This is the first edge chunk": the accumulator is zeroed. -/
abbrev cond14_0 (i : grid14.Coords) : Prop := (Scalar.cmpi .ne (Scalar.extui (Scalar.cmpi .eq (BitVec.ofNat 32 (i 1).val) 0#32)) 0#32) = 1#1
/-- "This is the last edge chunk": the accumulator is stored to the output block. -/
abbrev cond14_1 (i : grid14.Coords) : Prop := k14_cond2 i = 1#1
/-- The two tests read only the second coordinate, which takes 79 values. -/
theorem condw14_0 : ∀ v : Fin 79, ((Scalar.cmpi .ne (Scalar.extui (Scalar.cmpi .eq (BitVec.ofNat 32 v.val) 0#32)) 0#32) = 1#1) ↔ v.val = 0 := by decide
theorem condw14_1 : ∀ v : Fin 79, ((Scalar.cmpi .ne (Scalar.extui (Scalar.cmpi .eq (BitVec.ofNat 32 v.val) 78#32)) 0#32) = 1#1) ↔ v.val = 78 := by decide
theorem hcond14_0 (t : Fin cfg14.N) : cond14_0 (grid14.coords t) ↔ t.val % 79 = 0 := by
  rw [← coords14_1 t]; exact condw14_0 ((grid14.coords t) 1)
theorem hcond14_1 (t : Fin cfg14.N) : cond14_1 (grid14.coords t) ↔ t.val % 79 = 78 := by
  rw [← coords14_1 t]; exact condw14_1 ((grid14.coords t) 1)

/-- The output window's block index at a point: (t / 79, 0). -/
theorem oidx14 (t : Fin cfg14.N) : win14_2.index t (0 : Fin 2) = t.val / 79 ∧ win14_2.index t (1 : Fin 2) = 0 := by
  have hN : grid14.N = 1580 := N_14
  have ht : t.val < 1580 := hN ▸ t.isLt
  have c0 := coords14_0 t
  refine ⟨?_, rfl⟩
  show (BitVec.ofNat 32 ((grid14.coords t) 0).val).toNat = _
  rw [BitVec.toNat_ofNat, c0]; omega

/-- The output block is written back exactly at the points ≡ 78 (mod 79): there the next point's block is another (or
    the grid ends), and nowhere else does the block index move. -/
theorem flushAt14_2 (t : Fin cfg14.N) : (cfg14.win 2).flush t = true ↔ t.val % 79 = 78 := by
  have hN : grid14.N = 1580 := N_14
  have ht : t.val < 1580 := hN ▸ t.isLt
  show win14_2.flush t = true ↔ _
  unfold Pipeline.Window.flush
  rw [show win14_2.isOut = true from rfl]
  simp only [Bool.true_and, Bool.or_eq_true, decide_eq_true_eq]
  constructor
  · rintro (h | ⟨hl, hne⟩)
    · omega
    · by_contra h48
      apply hne
      obtain ⟨a0, a1⟩ := oidx14 ⟨t.val + 1, hl⟩
      obtain ⟨b0, b1⟩ := oidx14 t
      funext a
      match a with
      | ⟨0, _⟩ =>
        show win14_2.index ⟨t.val + 1, hl⟩ (0 : Fin 2) = win14_2.index t (0 : Fin 2)
        rw [a0, b0]
        show (t.val + 1) / 79 = t.val / 79
        omega
      | ⟨1, _⟩ =>
        show win14_2.index ⟨t.val + 1, hl⟩ (1 : Fin 2) = win14_2.index t (1 : Fin 2)
        rw [a1, b1]
  · intro h48
    by_cases hl : t.val + 1 = grid14.N
    · exact Or.inl hl
    · have hl' : t.val + 1 < grid14.N := by omega
      refine Or.inr ⟨hl', fun heq => ?_⟩
      have h0 := congrFun heq (0 : Fin 2)
      rw [(oidx14 ⟨t.val + 1, hl'⟩).1, (oidx14 t).1] at h0
      have h0' : (t.val + 1) / 79 = t.val / 79 := h0
      omega
theorem noFlush14_2 (t : Fin cfg14.N) (h : ¬cond14_1 (grid14.coords t)) : (cfg14.win 2).flush t = false := by
  cases hf : (cfg14.win 2).flush t with
  | false => rfl
  | true => exact absurd ((hcond14_1 t).mpr ((flushAt14_2 t).mp hf)) h

/-! ## Where the windows are idle -/
theorem liveAt14_0 : ∀ t : Fin cfg14.N, cfg14.idle 0 (grid14.coords t) = false := fun _ => rfl
theorem liveAt14_1 : ∀ t : Fin cfg14.N, cfg14.idle 1 (grid14.coords t) = false := fun _ => rfl
theorem idleAt14_2 : ∀ t : Fin cfg14.N, ¬cond14_1 (grid14.coords t) → cfg14.idle 2 (grid14.coords t) = true := fun t h => by
  show (!(k14_cond2 (grid14.coords t) == 1#1)) = true
  simp only [Bool.not_eq_true', beq_eq_false_iff_ne, ne_eq]
  exact h
theorem liveAt14_2 : ∀ t : Fin cfg14.N, cond14_1 (grid14.coords t) → cfg14.idle 2 (grid14.coords t) = false := fun t h => by
  show (!(k14_cond2 (grid14.coords t) == 1#1)) = false
  simp only [Bool.not_eq_false', beq_iff_eq]
  exact h

/-! ## The memrefs the runs are stated over -/
abbrev VO14_2 : View sig .tc .vmem S1024x128 .f32 := (Memref.whole cc14_stg2_0 : Memref sig .tc .vmem S1024x128 .f32).view
abbrev ms14_0 (t : Fin cfg14.N) : Memref sig .tc .vmem S2048 .i32 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S2048x128 .bf16 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1024x128 .f32 := win14_2.stage (cfg14.slots t 2)
abbrev hs14_2 (t : Fin cfg14.N) : (ms14_2 t).IsWhole := hstage14_2 ((cfg14.slots t 2).cast nbuf14_2)
/-- The accumulator: a whole scoped buffer of the kernel's own, carried from point to point. -/
abbrev scM14_0 : Memref sig .tc .vmem S1024x128 .f32 := Memref.whole cc14_scratch0
abbrev VS14_0 : View sig .tc .vmem S1024x128 .f32 := scM14_0.view

/-- The class invariant with the accumulator as a memref owned at some contents; the other scoped buffers stay unopened. -/
theorem PhiA14_eq (c : Dev nD) :
    (Pipeline.ΦA spec14 c : sProp 𝕄)
      = iprop(iprop((∃ d, owns (c : Thread nD τ) scM14_0 fullShare d) ∗ Pipeline.scopedRestBut (Ix := Unit) (Name := ℕ) (U := Pipeline.UD sig nD τ) (Lvl := ℕ) (Val := Elt F) spec14 c [cc14_scratch0]) ∗ (∃ r, prngReg c r)) := by
  unfold Pipeline.ΦA; rw [scopedRest14_split]; simp only [scM14_0, owns_whole]; try rfl

end Cert.KernelIdeal.H

end
-- ==== Proof.KI.S14RunB.lean ====
/-
  A scatter launch (the second one-hot product of a relation), at a middle edge chunk (neither the first nor the last): the accumulator, found at what the
  point before left, gets the product added; the output block is not touched.
-/
import proofs.«407232_j23192823399226_1_alg».proof.Proof.KI.S14Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from `xs0`. -/
noncomputable def kernelRun14_B (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : ¬cond14_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__scatter_kernel i arg2 harg2 arg3 harg3 arg4 harg4 arg5 harg5) K } := by
  refine ⟨[], ?_, fun xi2 E K => ?run⟩
  case run =>
    simp only [cc14__scatter_kernel_eq_skeleton]; unfold cc14__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1
    obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S14RunA.lean ====
/-
  A scatter launch (the second one-hot product of a relation), at the first edge chunk: the accumulator, whatever it held, is zeroed and gets the product
  added; the output block is not touched.
-/
import proofs.«407232_j23192823399226_1_alg».proof.Proof.KI.S14RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the accumulator (the witness the run finds), with the body's triple on whole memrefs: the inputs at their contents and back, the idle output handed back untouched, the accumulator from anything. -/
noncomputable def kernelRun14_A (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond14_0 i) (hc1 : ¬cond14_1 i)
    (x0 : Vec F S2048 .i32) (x1 : Vec F S2048x128 .bf16) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc14__scatter_kernel i arg2 harg2 arg3 harg3 arg4 harg4 arg5 harg5) K } := by
  refine ⟨[], ?_, fun xi2 E K => ?run⟩
  case run =>
    simp only [cc14__scatter_kernel_eq_skeleton]; unfold cc14__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1
    obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.H

end
-- ==== Proof.KI.S14RunC.lean ====
/-
  A scatter launch (the second one-hot product of a relation), at the last edge chunk: the accumulator, found at what the point before left, gets the
  product added and is then stored to the output block.
-/
import proofs.«407232_j23192823399226_1_alg».proof.Proof.KI.S14RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The pieces the body leaves in the output block and in the accumulator (the witness the run finds), with the body's triple on whole memrefs: the inputs at their contents and back, the output from anything, the accumulator from `xs0`. -/
noncomputable def kernelRun14_C (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc14__scatter_kernel i arg2 harg2 arg3 harg3 arg4 harg4 arg5 harg5) K } := by
  refine ⟨?_, ?_, fun E K => ?run⟩
  case run =>
    simp only [cc14__scatter_kernel_eq_skeleton]; unfold cc14__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.H

end
-- ==== Proof.KI.S14.lean ====
/-
  A scatter launch (the second one-hot product of a relation): what its accumulator and its output block hold point by point, the proof data of its pipeline over any
  entry contents, and the body obligation at every grid point.
  Within a destination tile the accumulator after an edge chunk is the sum of the one-hot products of the chunks so
  far; the output block is written only at the last chunk, and is idle (neither stored nor written back) before.
-/
import proofs.«407232_j23192823399226_1_alg».proof.Proof.KI.S14RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The kernel body at point `t`, on what the pipeline calls it with: the point's staging memrefs and the accumulator. -/
abbrev bodyAtH14 (t : Fin cfg14.N) : Prog (TpuEff nD τ sig (Elt F) Λ₀ .tc) PUnit :=
  cc14__scatter_kernel (grid14.coords t) (ms14_0 t) (hs14_0 t) (ms14_1 t) (hs14_1 t) (ms14_2 t) (hs14_2 t) scM14_0 (Memref.isWhole_whole _)

/-! ## What each case leaves -/

theorem scover14_A_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond14_0 i) (hc1 : ¬cond14_1 i)
    (x0 : Vec F S2048 .i32) (x1 : Vec F S2048x128 .bf16) (y : S1024x128.Idx) :
    ∃ pc ∈ (kernelRun14_A (F := F) c i arg2 harg2 arg3 harg3 arg4 harg4 arg5 harg5 hc0 hc1 x0 x1).2.1, y ∈ pc.1.set :=
  View.cover_of_tiledL (kernelRun14_A (F := F) c i arg2 harg2 arg3 harg3 arg4 harg4 arg5 harg5 hc0 hc1 x0 x1).2.1 S1024x128.size (by sl_kernel_rfl) y

/-- The accumulator after a first edge chunk: the case's pieces read back. -/
def sout14_A_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond14_0 i) (hc1 : ¬cond14_1 i)
    (x0 : Vec F S2048 .i32) (x1 : Vec F S2048x128 .bf16) : Vec F S1024x128 .f32 :=
  VS14_0.read (Elt F) (VS14_0.writes (Elt F) VS14_0.junk (kernelRun14_A (F := F) c i arg2 harg2 arg3 harg3 arg4 harg4 arg5 harg5 hc0 hc1 x0 x1).2.1)

theorem scover14_B_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : ¬cond14_1 i)
    (x0 : Vec F S2048 .i32) (x1 : Vec F S2048x128 .bf16) (xs0 : Vec F S1024x128 .f32) (y : S1024x128.Idx) :
    ∃ pc ∈ (kernelRun14_B (F := F) c i arg2 harg2 arg3 harg3 arg4 harg4 arg5 harg5 hc0 hc1 x0 x1 xs0).2.1, y ∈ pc.1.set :=
  View.cover_of_tiledL (kernelRun14_B (F := F) c i arg2 harg2 arg3 harg3 arg4 harg4 arg5 harg5 hc0 hc1 x0 x1 xs0).2.1 S1024x128.size (by sl_kernel_rfl) y

/-- The accumulator after a middle edge chunk, over what the point before left (`xs0`). -/
def sout14_B_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : ¬cond14_1 i)
    (x0 : Vec F S2048 .i32) (x1 : Vec F S2048x128 .bf16) (xs0 : Vec F S1024x128 .f32) : Vec F S1024x128 .f32 :=
  VS14_0.read (Elt F) (VS14_0.writes (Elt F) VS14_0.junk (kernelRun14_B (F := F) c i arg2 harg2 arg3 harg3 arg4 harg4 arg5 harg5 hc0 hc1 x0 x1 xs0).2.1)

theorem cover14_C_2 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) (y : S1024x128.Idx) :
    ∃ pc ∈ (kernelRun14_C (F := F) c i arg2 harg2 arg3 harg3 arg4 harg4 arg5 harg5 hc0 hc1 x0 x1 xs0).1, y ∈ pc.1.set :=
  View.cover_of_tiledL (kernelRun14_C (F := F) c i arg2 harg2 arg3 harg3 arg4 harg4 arg5 harg5 hc0 hc1 x0 x1 xs0).1 S1024x128.size (by sl_kernel_rfl) y

/-- The output block after a last edge chunk. -/
def out14_C_2 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) : Vec F S1024x128 .f32 :=
  VO14_2.read (Elt F) (VO14_2.writes (Elt F) VO14_2.junk (kernelRun14_C (F := F) c i arg2 harg2 arg3 harg3 arg4 harg4 arg5 harg5 hc0 hc1 x0 x1 xs0).1)

theorem scover14_C_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) (y : S1024x128.Idx) :
    ∃ pc ∈ (kernelRun14_C (F := F) c i arg2 harg2 arg3 harg3 arg4 harg4 arg5 harg5 hc0 hc1 x0 x1 xs0).2.1, y ∈ pc.1.set :=
  View.cover_of_tiledL (kernelRun14_C (F := F) c i arg2 harg2 arg3 harg3 arg4 harg4 arg5 harg5 hc0 hc1 x0 x1 xs0).2.1 S1024x128.size (by sl_kernel_rfl) y

/-- The accumulator after a last edge chunk. -/
def sout14_C_0 (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) : Vec F S1024x128 .f32 :=
  VS14_0.read (Elt F) (VS14_0.writes (Elt F) VS14_0.junk (kernelRun14_C (F := F) c i arg2 harg2 arg3 harg3 arg4 harg4 arg5 harg5 hc0 hc1 x0 x1 xs0).2.1)

section
variable (V : (c : Dev nD) → (b : Ref sig .tc) → Buf (Elt F) ((c : Thread nD τ).loc b))

/-- What the output block holds where no case stores it: never consulted (the window is idle there). -/
def idle14_2 : Vec F S1024x128 .f32 := VO14_2.read (Elt F) VO14_2.junk

/-! ## The accumulation, point by point -/

/-- After the body at position `n`: (the output block, the accumulator) — the case the closed forms select, a later
    edge chunk's over what position `n - 1` left in the accumulator. -/
def outsAt14 (c : Dev nD) : (n : ℕ) → n < cfg14.N → Vec F S1024x128 .f32 × Vec F S1024x128 .f32
  | 0, hn => (idle14_2, sout14_A_0 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩))
  | n + 1, hn =>
    if h0 : (n + 1) % 79 = 0 then
      if h1 : (n + 1) % 79 = 78 then
        False.elim (by omega)
      else
        (idle14_2, sout14_A_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩))
    else
      if h1 : (n + 1) % 79 = 78 then
        (out14_C_2 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2,
         sout14_C_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (outsAt14 c n (Nat.lt_of_succ_lt hn)).2)
      else
        (idle14_2, sout14_B_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (outsAt14 c n (Nat.lt_of_succ_lt hn)).2)

theorem outsAt14_A (c : Dev nD) (t : Fin cfg14.N) (h0 : t.val % 79 = 0) (h1 : ¬t.val % 79 = 78) :
    outsAt14 V c t.val t.isLt = (idle14_2, sout14_A_0 c (grid14.coords t) (ms14_0 t) (hs14_0 t) (ms14_1 t) (hs14_1 t) (ms14_2 t) (hs14_2 t) scM14_0 (Memref.isWhole_whole _) ((hcond14_0 t).mpr h0) (fun h => h1 ((hcond14_1 t).mp h)) (iblk14 V c 0 t) (iblk14 V c 1 t)) := by
  obtain ⟨n, hn⟩ := t
  cases n with
  | zero => exact rfl
  | succ n => exact (dif_pos h0).trans ((dif_neg h1).trans rfl)

theorem outsAt14_B (c : Dev nD) (t : Fin cfg14.N) (h0 : ¬t.val % 79 = 0) (h1 : ¬t.val % 79 = 78) :
    outsAt14 V c t.val t.isLt = (idle14_2, sout14_B_0 c (grid14.coords t) (ms14_0 t) (hs14_0 t) (ms14_1 t) (hs14_1 t) (ms14_2 t) (hs14_2 t) scM14_0 (Memref.isWhole_whole _) (fun h => h0 ((hcond14_0 t).mp h)) (fun h => h1 ((hcond14_1 t).mp h)) (iblk14 V c 0 t) (iblk14 V c 1 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt14_C (c : Dev nD) (t : Fin cfg14.N) (h0 : ¬t.val % 79 = 0) (h1 : t.val % 79 = 78) :
    outsAt14 V c t.val t.isLt = (out14_C_2 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2,
      sout14_C_0 c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

abbrev restBut14 (c : Dev nD) : sProp 𝕄 :=
  Pipeline.scopedRestBut (Ix := Unit) (Name := ℕ) (U := Pipeline.UD sig nD τ) (Lvl := ℕ) (Val := Elt F) spec14 c [cc14_scratch0]

/-- Before position `n`: at the region's entry the class invariant (the accumulator at anything); afterwards the
    accumulator at what position `n - 1` left, the other scoped buffers unopened, the generator register at some state. -/
def PhiS14 (c : Dev nD) : (n : ℕ) → n ≤ cfg14.N → sProp 𝕄
  | 0, _ => Pipeline.ΦA spec14 c
  | n + 1, hn => iprop(iprop(owns (c : Thread nD τ) scM14_0 fullShare ((outsAt14 V c n hn).2) ∗ restBut14 (F := F) c) ∗ (∃ r, prngReg c r))

theorem PhiS14_zero (c : Dev nD) (n : ℕ) (h : n ≤ cfg14.N) (hz : n = 0) : PhiS14 V c n h = Pipeline.ΦA spec14 c := by
  subst hz; rfl
theorem PhiS14_succ (c : Dev nD) (n : ℕ) (hn : n < cfg14.N) :
    PhiS14 V c (n + 1) hn = iprop(iprop(owns (c : Thread nD τ) scM14_0 fullShare ((outsAt14 V c n hn).2) ∗ restBut14 (F := F) c) ∗ (∃ r, prngReg c r)) := rfl
theorem PhiS14_pos (c : Dev nD) (n : ℕ) (h : n ≤ cfg14.N) (hz : n ≠ 0) :
    PhiS14 V c n h = iprop(iprop(owns (c : Thread nD τ) scM14_0 fullShare ((outsAt14 V c (n - 1) (by omega)).2) ∗ restBut14 (F := F) c) ∗ (∃ r, prngReg c r)) := by
  cases n with
  | zero => exact absurd rfl hz
  | succ n => rfl

/-! ## The pipeline's proof data -/

/-- The arrays as the region finds them; after the body each input's buffer at its block, the output's at `outsAt14`'s
    first component; the invariant `PhiS14`; nothing owed; full shares. -/
def dat14 (c : Dev nD) : Dat τ (Elt F) Unit ℕ (Pipeline.UD sig nD τ) ℕ cfg14 c where
  A w := V c (Pipeline.arrRef spec14 w)
  after w t := match w with
    | ⟨0, _⟩ => iblk14 V c 0 t
    | ⟨1, _⟩ => iblk14 V c 1 t
    | ⟨2, _⟩ => (outsAt14 V c t.val t.isLt).1
  Φ t := PhiS14 V c t.val (Nat.le_of_lt_succ t.isLt)
  q _ := fullShare
  owed _ := 0

theorem A_eq14 (c : Dev nD) (w : Fin cfg14.W) : (dat14 V c).A w = V c (Pipeline.arrRef spec14 w) := by
  dsimp only [dat14]
theorem PhiS14_castSucc (c : Dev nD) (t : Fin cfg14.N) :
    (dat14 V c).Φ t.castSucc = PhiS14 V c t.val (Nat.le_of_lt t.isLt) := by
  dsimp only [dat14]; simp only [Fin.coe_castSucc]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = (outsAt14 V c t.val t.isLt).1 := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body obligation -/

def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4800000 in
/-- The body at any point: the inputs' memrefs hold their blocks; the closed forms say which case the point is in; the
    invariant hands the body the accumulator (at what the point before left, or at anything at the region's entry) and
    takes it back at this point's contents; the core owes nothing throughout. -/
theorem sound_body14 (c : Dev nD) (t : Fin cfg14.N) :
    bodyPre14 V c t ⊢ wp frame (wpE (defs₀ (F := F)) Variants.none c none) Set.univ (bodyAtH14 t) (fun _ => bodyPost14 V c t) := by
  unfold bodyPre14 bodyPost14 bodyAtH14
  simp only [before14_0, before14_1]
  rw [show (dat14 V c).owesAt () t.succ = (dat14 V c).owesAt () t.castSucc from rfl]
  rw [show (dat14 V c).Φ t.succ = PhiS14 V c (t.val + 1) t.isLt from rfl, PhiS14_succ]
  rw [show (dat14 V c).leavesExact 0 t = owns (c : Thread nD τ) (ms14_0 t) fullShare ((dat14 V c).after 0 t) from by
    unfold Dat.leavesExact; rw [liveAt14_0 t], after14_0]
  rw [show (dat14 V c).leavesExact 1 t = owns (c : Thread nD τ) (ms14_1 t) fullShare ((dat14 V c).after 1 t) from by
    unfold Dat.leavesExact; rw [liveAt14_1 t], after14_1]
  by_cases h1 : t.val % 79 = 78
  · have h0 : ¬t.val % 79 = 0 := by omega
    have hz : t.val ≠ 0 := by omega
    rw [show (dat14 V c).leavesExact 2 t = owns (c : Thread nD τ) (ms14_2 t) fullShare ((dat14 V c).after 2 t) from by
      unfold Dat.leavesExact; rw [liveAt14_2 t ((hcond14_1 t).mpr h1)], after14_2]
    rw [outsAt14_C V c t h0 h1]
    unfold out14_C_2 sout14_C_0; (try dsimp only)
    rw [PhiS14_castSucc V c t, PhiS14_pos V c _ _ hz]
    iintro ⟨⟨⟨HS0, HR⟩, Hg⟩, Ho, ⟨%d0, H0⟩, ⟨%d1, H1⟩, ⟨%d2, H2⟩⟩
    iapply ((kernelRun14_C c (grid14.coords t) _ _ _ _ _ _ _ _ (fun h => h0 ((hcond14_0 t).mp h)) ((hcond14_1 t).mpr h1) (iblk14 V c 0 t) (iblk14 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover14_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover14_C_2 c _ _ _ _ _ _ _ _ _ _ _ _ _ _)
  · rw [Dat.leavesExact_idle (dat14 V c) 2 t (idleAt14_2 t (fun h => h1 ((hcond14_1 t).mp h))) (noFlush14_2 t (fun h => h1 ((hcond14_1 t).mp h)))]
    by_cases h0 : t.val % 79 = 0
    · rw [outsAt14_A V c t h0 h1]
      unfold sout14_A_0; (try dsimp only)
      by_cases hz : t.val = 0
      · rw [PhiS14_castSucc V c t, PhiS14_zero V c _ _ hz, PhiA14_eq]
        iintro ⟨⟨⟨HS0, HR⟩, Hg⟩, Ho, ⟨%d0, H0⟩, ⟨%d1, H1⟩, ⟨%d2, H2⟩⟩
        iapply ((kernelRun14_A c (grid14.coords t) _ _ _ _ _ _ _ _ ((hcond14_0 t).mpr h0) (fun h => h1 ((hcond14_1 t).mp h)) (iblk14 V c 0 t) (iblk14 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _)
            iexact HR
          iexact Hg
        isplitl [Ho]; · iexact Ho
        isplitl [H0]; · iexact H0
        isplitl [H1]; · iexact H1
        iexists _; iexact H2
      · rw [PhiS14_castSucc V c t, PhiS14_pos V c _ _ hz]
        iintro ⟨⟨⟨HS0, HR⟩, Hg⟩, Ho, ⟨%d0, H0⟩, ⟨%d1, H1⟩, ⟨%d2, H2⟩⟩
        iapply ((kernelRun14_A c (grid14.coords t) _ _ _ _ _ _ _ _ ((hcond14_0 t).mpr h0) (fun h => h1 ((hcond14_1 t).mp h)) (iblk14 V c 0 t) (iblk14 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt14_B V c t h0 h1]
      unfold sout14_B_0; (try dsimp only)
      rw [PhiS14_castSucc V c t, PhiS14_pos V c _ _ hz]
      iintro ⟨⟨⟨HS0, HR⟩, Hg⟩, Ho, ⟨%d0, H0⟩, ⟨%d1, H1⟩, ⟨%d2, H2⟩⟩
      iapply ((kernelRun14_B c (grid14.coords t) _ _ _ _ _ _ _ _ (fun h => h0 ((hcond14_0 t).mp h)) (fun h => h1 ((hcond14_1 t).mp h)) (iblk14 V c 0 t) (iblk14 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover14_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the launch hands the region is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After the last point the invariant gives the class invariant back: the accumulator's contents are forgotten. -/
theorem hout14 (c : Dev nD) : (dat14 V c).Φ (Fin.last cfg14.N) ⊢ Pipeline.ΦA spec14 c := by
  have hN : cfg14.N = 1580 := N_14
  rw [show (dat14 V c).Φ (Fin.last cfg14.N) = PhiS14 V c (Fin.last cfg14.N).val (Nat.le_of_lt_succ (Fin.last cfg14.N).isLt) from rfl,
    PhiS14_pos V c _ _ (by rw [Fin.val_last]; omega), PhiA14_eq]
  iintro ⟨⟨HS0, HR⟩, Hg⟩
  isplitl [HS0 HR]
  · isplitl [HS0]
    · iexists _; iexact HS0
    iexact HR
  iexact Hg

end

end Cert.KernelIdeal.H

end
-- ==== Proof.KI.Vals.lean ====
/-
  The contents of the TensorCore's buffers at every boundary of @main, from the launch memory: a kernel region changes
  exactly its output array (to what its pipeline's write-backs leave), a stretch of host operations what its
  operations write.  Then every pipeline's proof data at its region's entry contents, and the contents each region
  leaves as one function of the boundary's number.
-/
import proofs.«407232_j23192823399226_1_alg».proof.Proof.KI.RegionsP
import proofs.«407232_j23192823399226_1_alg».proof.Proof.KI.L0
import proofs.«407232_j23192823399226_1_alg».proof.Proof.KI.G1
import proofs.«407232_j23192823399226_1_alg».proof.Proof.KI.S2
import proofs.«407232_j23192823399226_1_alg».proof.Proof.KI.L3
import proofs.«407232_j23192823399226_1_alg».proof.Proof.KI.L4
import proofs.«407232_j23192823399226_1_alg».proof.Proof.KI.L5
import proofs.«407232_j23192823399226_1_alg».proof.Proof.KI.L6
import proofs.«407232_j23192823399226_1_alg».proof.Proof.KI.G7
import proofs.«407232_j23192823399226_1_alg».proof.Proof.KI.S8
import proofs.«407232_j23192823399226_1_alg».proof.Proof.KI.G9
import proofs.«407232_j23192823399226_1_alg».proof.Proof.KI.S10
import proofs.«407232_j23192823399226_1_alg».proof.Proof.KI.G11
import proofs.«407232_j23192823399226_1_alg».proof.Proof.KI.S12
import proofs.«407232_j23192823399226_1_alg».proof.Proof.KI.G13
import proofs.«407232_j23192823399226_1_alg».proof.Proof.KI.S14

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- No core owes another anything: no level is assigned. -/
abbrev Lv : GSem nD τ sig → Finset Unit := fun _ => ∅
abbrev lvv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- A valuation read at the TensorCore's references: what a region's proof data take. -/
abbrev Vt (W : Dev nD → Valuation τ sig (Elt F)) : (c : Dev nD) → (b : Ref sig .tc) → Buf (Elt F) ((c : Thread nD τ).loc b) :=
  fun c b => W c b

/-- The buffers at launch: region 0's entry. -/
def E0 (c : Dev nD) : Valuation τ sig (Elt F) := fun b => m (c, b)
/-- After region 0: its output array `main_v0` at what the pipeline's write-backs leave, every other buffer as entered. -/
def X0 (c : Dev nD) : Valuation τ sig (Elt F) :=
  Function.update (E0 m c) main_v0 ((dat0 (Vt (E0 m)) c).arrAt 3 cfg0.N)
/-- Region 1's entry: after the host operations since region 0. -/
def E1 (c : Dev nD) : Valuation τ sig (Elt F) :=
  StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (X0 m c))))))))
/-- After region 1: its output array `main_v5` at what the pipeline's write-backs leave, every other buffer as entered. -/
def X1 (c : Dev nD) : Valuation τ sig (Elt F) :=
  Function.update (E1 m c) main_v5 ((dat1 (Vt (E1 m)) c).arrAt 3 cfg1.N)
/-- After region 2: its output array `main_v6` at what the pipeline's write-backs leave, every other buffer as entered. -/
def X2 (c : Dev nD) : Valuation τ sig (Elt F) :=
  Function.update (X1 m c) main_v6 ((dat2 (Vt (X1 m)) c).arrAt 2 cfg2.N)
/-- Region 3's entry: after the host operations since region 2. -/
def E3 (c : Dev nD) : Valuation τ sig (Elt F) :=
  StableHlo.after hostOps3 (X2 m c)
/-- After region 3: its output array `main_v17` at what the pipeline's write-backs leave, every other buffer as entered. -/
def X3 (c : Dev nD) : Valuation τ sig (Elt F) :=
  Function.update (E3 m c) main_v17 ((dat3 (Vt (E3 m)) c).arrAt 3 cfg3.N)
/-- After region 4: its output array `main_v18` at what the pipeline's write-backs leave, every other buffer as entered. -/
def X4 (c : Dev nD) : Valuation τ sig (Elt F) :=
  Function.update (X3 m c) main_v18 ((dat4 (Vt (X3 m)) c).arrAt 3 cfg4.N)
/-- After region 5: its output array `main_v19` at what the pipeline's write-backs leave, every other buffer as entered. -/
def X5 (c : Dev nD) : Valuation τ sig (Elt F) :=
  Function.update (X4 m c) main_v19 ((dat5 (Vt (X4 m)) c).arrAt 3 cfg5.N)
/-- After region 6: its output array `main_v20` at what the pipeline's write-backs leave, every other buffer as entered. -/
def X6 (c : Dev nD) : Valuation τ sig (Elt F) :=
  Function.update (X5 m c) main_v20 ((dat6 (Vt (X5 m)) c).arrAt 3 cfg6.N)
/-- Region 7's entry: after the host operations since region 6. -/
def E7 (c : Dev nD) : Valuation τ sig (Elt F) :=
  StableHlo.after hostOps7_9 (StableHlo.after hostOps7_8 (StableHlo.after hostOps7_7 (StableHlo.after hostOps7_6 (StableHlo.after hostOps7_5 (StableHlo.after hostOps7_4 (StableHlo.after hostOps7_3 (StableHlo.after hostOps7_2 (StableHlo.after hostOps7_1 (StableHlo.after hostOps7 (X6 m c))))))))))
/-- After region 7: its output array `main_v26` at what the pipeline's write-backs leave, every other buffer as entered. -/
def X7 (c : Dev nD) : Valuation τ sig (Elt F) :=
  Function.update (E7 m c) main_v26 ((dat7 (Vt (E7 m)) c).arrAt 3 cfg7.N)
/-- After region 8: its output array `main_v27` at what the pipeline's write-backs leave, every other buffer as entered. -/
def X8 (c : Dev nD) : Valuation τ sig (Elt F) :=
  Function.update (X7 m c) main_v27 ((dat8 (Vt (X7 m)) c).arrAt 2 cfg8.N)
/-- Region 9's entry: after the host operations since region 8. -/
def E9 (c : Dev nD) : Valuation τ sig (Elt F) :=
  StableHlo.after hostOps9_5 (StableHlo.after hostOps9_4 (StableHlo.after hostOps9_3 (StableHlo.after hostOps9_2 (StableHlo.after hostOps9_1 (StableHlo.after hostOps9 (X8 m c))))))
/-- After region 9: its output array `main_v41` at what the pipeline's write-backs leave, every other buffer as entered. -/
def X9 (c : Dev nD) : Valuation τ sig (Elt F) :=
  Function.update (E9 m c) main_v41 ((dat9 (Vt (E9 m)) c).arrAt 3 cfg9.N)
/-- After region 10: its output array `main_v42` at what the pipeline's write-backs leave, every other buffer as entered. -/
def X10 (c : Dev nD) : Valuation τ sig (Elt F) :=
  Function.update (X9 m c) main_v42 ((dat10 (Vt (X9 m)) c).arrAt 2 cfg10.N)
/-- Region 11's entry: after the host operations since region 10. -/
def E11 (c : Dev nD) : Valuation τ sig (Elt F) :=
  StableHlo.after hostOps11_5 (StableHlo.after hostOps11_4 (StableHlo.after hostOps11_3 (StableHlo.after hostOps11_2 (StableHlo.after hostOps11_1 (StableHlo.after hostOps11 (X10 m c))))))
/-- After region 11: its output array `main_v57` at what the pipeline's write-backs leave, every other buffer as entered. -/
def X11 (c : Dev nD) : Valuation τ sig (Elt F) :=
  Function.update (E11 m c) main_v57 ((dat11 (Vt (E11 m)) c).arrAt 3 cfg11.N)
/-- After region 12: its output array `main_v58` at what the pipeline's write-backs leave, every other buffer as entered. -/
def X12 (c : Dev nD) : Valuation τ sig (Elt F) :=
  Function.update (X11 m c) main_v58 ((dat12 (Vt (X11 m)) c).arrAt 2 cfg12.N)
/-- Region 13's entry: after the host operations since region 12. -/
def E13 (c : Dev nD) : Valuation τ sig (Elt F) :=
  StableHlo.after hostOps13_5 (StableHlo.after hostOps13_4 (StableHlo.after hostOps13_3 (StableHlo.after hostOps13_2 (StableHlo.after hostOps13_1 (StableHlo.after hostOps13 (X12 m c))))))
/-- After region 13: its output array `main_v72` at what the pipeline's write-backs leave, every other buffer as entered. -/
def X13 (c : Dev nD) : Valuation τ sig (Elt F) :=
  Function.update (E13 m c) main_v72 ((dat13 (Vt (E13 m)) c).arrAt 3 cfg13.N)
/-- After region 14: its output array `main_v73` at what the pipeline's write-backs leave, every other buffer as entered. -/
def X14 (c : Dev nD) : Valuation τ sig (Elt F) :=
  Function.update (X13 m c) main_v73 ((dat14 (Vt (X13 m)) c).arrAt 2 cfg14.N)
/-- After the last host operations: the end of @main. -/
def E15 (c : Dev nD) : Valuation τ sig (Elt F) := StableHlo.after hostOps15 (X14 m c)

/-- What each region leaves, by the boundary's number (the unknowns of the conditional frame, instantiated). -/
def outs : Outs (F := F) := fun J r c =>
  match J with
  | 1 => X0 m c r
  | 10 => X1 m c r
  | 11 => X2 m c r
  | 13 => X3 m c r
  | 14 => X4 m c r
  | 15 => X5 m c r
  | 16 => X6 m c r
  | 27 => X7 m c r
  | 28 => X8 m c r
  | 35 => X9 m c r
  | 36 => X10 m c r
  | 43 => X11 m c r
  | 44 => X12 m c r
  | 51 => X13 m c r
  | 52 => X14 m c r
  | _ => m (c, r)

/-- Every pipeline's proof data, each at its region's entry contents. -/
def pdats : (p : Fin 15) → (c : Dev nD) → Dat τ (Elt F) Unit ℕ (Pipeline.UD sig nD τ) ℕ (cfgs p) c
  | ⟨0, _⟩ => fun c => dat0 (Vt (E0 m)) c
  | ⟨1, _⟩ => fun c => dat1 (Vt (E1 m)) c
  | ⟨2, _⟩ => fun c => dat2 (Vt (X1 m)) c
  | ⟨3, _⟩ => fun c => dat3 (Vt (E3 m)) c
  | ⟨4, _⟩ => fun c => dat4 (Vt (X3 m)) c
  | ⟨5, _⟩ => fun c => dat5 (Vt (X4 m)) c
  | ⟨6, _⟩ => fun c => dat6 (Vt (X5 m)) c
  | ⟨7, _⟩ => fun c => dat7 (Vt (E7 m)) c
  | ⟨8, _⟩ => fun c => dat8 (Vt (X7 m)) c
  | ⟨9, _⟩ => fun c => dat9 (Vt (E9 m)) c
  | ⟨10, _⟩ => fun c => dat10 (Vt (X9 m)) c
  | ⟨11, _⟩ => fun c => dat11 (Vt (E11 m)) c
  | ⟨12, _⟩ => fun c => dat12 (Vt (X11 m)) c
  | ⟨13, _⟩ => fun c => dat13 (Vt (E13 m)) c
  | ⟨14, _⟩ => fun c => dat14 (Vt (X13 m)) c

/-! ## The conditional frame's valuations are these -/
theorem VE0 (c : Dev nD) : V0 m c = E0 m c := rfl
theorem VX0 (c : Dev nD) : V1 m (outs m) c = X0 m c := by
  show Function.update (V0 m c) main_v0 (X0 m c main_v0) = X0 m c
  rw [VE0 m c]
  unfold X0
  rw [Function.update_self]
theorem VE1 (c : Dev nD) : V9 m (outs m) c = E1 m c :=
  congrArg (fun v => StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (v))))))))) (VX0 m c)
theorem VX1 (c : Dev nD) : V10 m (outs m) c = X1 m c := by
  show Function.update (V9 m (outs m) c) main_v5 (X1 m c main_v5) = X1 m c
  rw [VE1 m c]
  unfold X1
  rw [Function.update_self]
theorem VE2 (c : Dev nD) : V10 m (outs m) c = X1 m c := VX1 m c
theorem VX2 (c : Dev nD) : V11 m (outs m) c = X2 m c := by
  show Function.update (V10 m (outs m) c) main_v6 (X2 m c main_v6) = X2 m c
  rw [VE2 m c]
  unfold X2
  rw [Function.update_self]
theorem VE3 (c : Dev nD) : V12 m (outs m) c = E3 m c :=
  congrArg (fun v => StableHlo.after hostOps3 (v)) (VX2 m c)
theorem VX3 (c : Dev nD) : V13 m (outs m) c = X3 m c := by
  show Function.update (V12 m (outs m) c) main_v17 (X3 m c main_v17) = X3 m c
  rw [VE3 m c]
  unfold X3
  rw [Function.update_self]
theorem VE4 (c : Dev nD) : V13 m (outs m) c = X3 m c := VX3 m c
theorem VX4 (c : Dev nD) : V14 m (outs m) c = X4 m c := by
  show Function.update (V13 m (outs m) c) main_v18 (X4 m c main_v18) = X4 m c
  rw [VE4 m c]
  unfold X4
  rw [Function.update_self]
theorem VE5 (c : Dev nD) : V14 m (outs m) c = X4 m c := VX4 m c
theorem VX5 (c : Dev nD) : V15 m (outs m) c = X5 m c := by
  show Function.update (V14 m (outs m) c) main_v19 (X5 m c main_v19) = X5 m c
  rw [VE5 m c]
  unfold X5
  rw [Function.update_self]
theorem VE6 (c : Dev nD) : V15 m (outs m) c = X5 m c := VX5 m c
theorem VX6 (c : Dev nD) : V16 m (outs m) c = X6 m c := by
  show Function.update (V15 m (outs m) c) main_v20 (X6 m c main_v20) = X6 m c
  rw [VE6 m c]
  unfold X6
  rw [Function.update_self]
theorem VE7 (c : Dev nD) : V26 m (outs m) c = E7 m c :=
  congrArg (fun v => StableHlo.after hostOps7_9 (StableHlo.after hostOps7_8 (StableHlo.after hostOps7_7 (StableHlo.after hostOps7_6 (StableHlo.after hostOps7_5 (StableHlo.after hostOps7_4 (StableHlo.after hostOps7_3 (StableHlo.after hostOps7_2 (StableHlo.after hostOps7_1 (StableHlo.after hostOps7 (v))))))))))) (VX6 m c)
theorem VX7 (c : Dev nD) : V27 m (outs m) c = X7 m c := by
  show Function.update (V26 m (outs m) c) main_v26 (X7 m c main_v26) = X7 m c
  rw [VE7 m c]
  unfold X7
  rw [Function.update_self]
theorem VE8 (c : Dev nD) : V27 m (outs m) c = X7 m c := VX7 m c
theorem VX8 (c : Dev nD) : V28 m (outs m) c = X8 m c := by
  show Function.update (V27 m (outs m) c) main_v27 (X8 m c main_v27) = X8 m c
  rw [VE8 m c]
  unfold X8
  rw [Function.update_self]
theorem VE9 (c : Dev nD) : V34 m (outs m) c = E9 m c :=
  congrArg (fun v => StableHlo.after hostOps9_5 (StableHlo.after hostOps9_4 (StableHlo.after hostOps9_3 (StableHlo.after hostOps9_2 (StableHlo.after hostOps9_1 (StableHlo.after hostOps9 (v))))))) (VX8 m c)
theorem VX9 (c : Dev nD) : V35 m (outs m) c = X9 m c := by
  show Function.update (V34 m (outs m) c) main_v41 (X9 m c main_v41) = X9 m c
  rw [VE9 m c]
  unfold X9
  rw [Function.update_self]
theorem VE10 (c : Dev nD) : V35 m (outs m) c = X9 m c := VX9 m c
theorem VX10 (c : Dev nD) : V36 m (outs m) c = X10 m c := by
  show Function.update (V35 m (outs m) c) main_v42 (X10 m c main_v42) = X10 m c
  rw [VE10 m c]
  unfold X10
  rw [Function.update_self]
theorem VE11 (c : Dev nD) : V42 m (outs m) c = E11 m c :=
  congrArg (fun v => StableHlo.after hostOps11_5 (StableHlo.after hostOps11_4 (StableHlo.after hostOps11_3 (StableHlo.after hostOps11_2 (StableHlo.after hostOps11_1 (StableHlo.after hostOps11 (v))))))) (VX10 m c)
theorem VX11 (c : Dev nD) : V43 m (outs m) c = X11 m c := by
  show Function.update (V42 m (outs m) c) main_v57 (X11 m c main_v57) = X11 m c
  rw [VE11 m c]
  unfold X11
  rw [Function.update_self]
theorem VE12 (c : Dev nD) : V43 m (outs m) c = X11 m c := VX11 m c
theorem VX12 (c : Dev nD) : V44 m (outs m) c = X12 m c := by
  show Function.update (V43 m (outs m) c) main_v58 (X12 m c main_v58) = X12 m c
  rw [VE12 m c]
  unfold X12
  rw [Function.update_self]
theorem VE13 (c : Dev nD) : V50 m (outs m) c = E13 m c :=
  congrArg (fun v => StableHlo.after hostOps13_5 (StableHlo.after hostOps13_4 (StableHlo.after hostOps13_3 (StableHlo.after hostOps13_2 (StableHlo.after hostOps13_1 (StableHlo.after hostOps13 (v))))))) (VX12 m c)
theorem VX13 (c : Dev nD) : V51 m (outs m) c = X13 m c := by
  show Function.update (V50 m (outs m) c) main_v72 (X13 m c main_v72) = X13 m c
  rw [VE13 m c]
  unfold X13
  rw [Function.update_self]
theorem VE14 (c : Dev nD) : V51 m (outs m) c = X13 m c := VX13 m c
theorem VX14 (c : Dev nD) : V52 m (outs m) c = X14 m c := by
  show Function.update (V51 m (outs m) c) main_v73 (X14 m c main_v73) = X14 m c
  rw [VE14 m c]
  unfold X14
  rw [Function.update_self]
theorem VE15 (c : Dev nD) : V53 m (outs m) c = E15 m c :=
  congrArg (fun v => StableHlo.after hostOps15 (v)) (VX14 m c)

end Cert.KernelIdeal.H

end
-- ==== Proof.KI.Reg0.lean ====
/-
  Region 0 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF0 (c : Dev nD) (w : Fin cfg0.W) :
    (dat0 (Vt (E0 m)) c).arrAt w cfg0.N = Vt (X0 m) c (Pipeline.arrRef spec0 w) := by
  match w with
  | ⟨0, _⟩ => exact ((dat0 (Vt (E0 m)) c).arrAt_in 0 rfl _).trans ((A_eq0 (Vt (E0 m)) c 0).trans (Function.update_of_ne (StableHlo.devRef_ne_of_ne (by decide)) _ _).symm)
  | ⟨1, _⟩ => exact ((dat0 (Vt (E0 m)) c).arrAt_in 1 rfl _).trans ((A_eq0 (Vt (E0 m)) c 1).trans (Function.update_of_ne (StableHlo.devRef_ne_of_ne (by decide)) _ _).symm)
  | ⟨2, _⟩ => exact ((dat0 (Vt (E0 m)) c).arrAt_in 2 rfl _).trans ((A_eq0 (Vt (E0 m)) c 2).trans (Function.update_of_ne (StableHlo.devRef_ne_of_ne (by decide)) _ _).symm)
  | ⟨3, _⟩ =>
    show _ = X0 m c main_v0
    unfold X0
    rw [Function.update_self]
    rfl

/-- Every other buffer holds what it held at entry. -/
theorem hrest0 (c : Dev nD) : ∀ b : Ref sig .tc, b ∉ (Finset.univ.image (Pipeline.arrRef spec0) : Finset (Ref sig .tc)) → Vt (X0 m) c b = Vt (E0 m) c b :=
  fun b hb => by
    unfold X0
    exact Function.update_of_ne (StableHlo.devRef_ne_of_ne fun e => hb (Finset.mem_image.mpr ⟨(3 : Fin cfg0.W), Finset.mem_univ _, by rw [e]⟩)) _ _

set_option backward.isDefEq.respectTransparency.types false in
/-- The region's record for the run over segments. -/
def reg0 : Pipeline.RegionSeg (pcfgs (F := F)) adm (pdats m) () defs₀ Variants.none Lv lvv 0 where
  win := launch0.win.to₀
  block_pos := launch0.block_pos
  stage_whole := launch0.stage_whole
  K := PEmpty
  osem k := k.elim
  ho := Pipeline.OwnSemFacts.none _
  hbody c := (body_obligation0 (Vt (E0 m)) c).loose
  hwaits := Pipeline.hwaits_of_owed_zero _ _ _ _ Lv lvv 0 fun _ _ => rfl
  pre c := iprop(StableHlo.held (c : Thread nD τ) (Pipeline.ucRefs τ sig) (V0 m c) ∗ Rr c)
  post c := iprop(StableHlo.held (c : Thread nD τ) (Pipeline.ucRefs τ sig) (V1 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (Vt (E0 m) c)
  hentry c := by
    rw [Pipeline.ownSems0_none, VE0 m c]
    have hsplit := Pipeline.arrays_of_unscopedBufs (p := 0) (pcfgs (F := F)) adm (pdats m) launch0.win launch0.arr_whole c
      ((pdats m 0 c).share_full fun _ => rfl) (Vt (E0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vt (E0 m) c) (Vt (X0 m) c) ((pdats m 0 c).arrAt · cfg0.N) (hF0 m c) (hrest0 m c)
    rw [Pipeline.unscopedBufs_held] at hjoin
    rw [VX0 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg1.lean ====
/-
  Region 1 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF1 (c : Dev nD) (w : Fin cfg1.W) :
    (dat1 (Vt (E1 m)) c).arrAt w cfg1.N = Vt (X1 m) c (Pipeline.arrRef spec1 w) := by
  match w with
  | ⟨0, _⟩ => exact ((dat1 (Vt (E1 m)) c).arrAt_in 0 rfl _).trans ((A_eq1 (Vt (E1 m)) c 0).trans (Function.update_of_ne (StableHlo.devRef_ne_of_ne (by decide)) _ _).symm)
  | ⟨1, _⟩ => exact ((dat1 (Vt (E1 m)) c).arrAt_in 1 rfl _).trans ((A_eq1 (Vt (E1 m)) c 1).trans (Function.update_of_ne (StableHlo.devRef_ne_of_ne (by decide)) _ _).symm)
  | ⟨2, _⟩ => exact ((dat1 (Vt (E1 m)) c).arrAt_in 2 rfl _).trans ((A_eq1 (Vt (E1 m)) c 2).trans (Function.update_of_ne (StableHlo.devRef_ne_of_ne (by decide)) _ _).symm)
  | ⟨3, _⟩ =>
    show _ = X1 m c main_v5
    unfold X1
    rw [Function.update_self]
    rfl

/-- Every other buffer holds what it held at entry. -/
theorem hrest1 (c : Dev nD) : ∀ b : Ref sig .tc, b ∉ (Finset.univ.image (Pipeline.arrRef spec1) : Finset (Ref sig .tc)) → Vt (X1 m) c b = Vt (E1 m) c b :=
  fun b hb => by
    unfold X1
    exact Function.update_of_ne (StableHlo.devRef_ne_of_ne fun e => hb (Finset.mem_image.mpr ⟨(3 : Fin cfg1.W), Finset.mem_univ _, by rw [e]⟩)) _ _

set_option backward.isDefEq.respectTransparency.types false in
/-- The region's record for the run over segments. -/
def reg1 : Pipeline.RegionSeg (pcfgs (F := F)) adm (pdats m) () defs₀ Variants.none Lv lvv 1 where
  win := launch1.win.to₀
  block_pos := launch1.block_pos
  stage_whole := launch1.stage_whole
  K := PEmpty
  osem k := k.elim
  ho := Pipeline.OwnSemFacts.none _
  hbody c := (body_obligation1 (Vt (E1 m)) c).loose
  hwaits := Pipeline.hwaits_of_owed_zero _ _ _ _ Lv lvv 1 fun _ _ => rfl
  pre c := iprop(StableHlo.held (c : Thread nD τ) (Pipeline.ucRefs τ sig) (V9 m (outs m) c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec1 c (Vt (E1 m) c)
  hentry c := by
    rw [Pipeline.ownSems0_none, VE1 m c]
    have hsplit := Pipeline.arrays_of_unscopedBufs (p := 1) (pcfgs (F := F)) adm (pdats m) launch1.win launch1.arr_whole c
      ((pdats m 1 c).share_full fun _ => rfl) (Vt (E1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vt (E1 m)) c)
    unfold Pipeline.ΦA
    iintro ⟨Hp, -, Hr⟩
    isplitl [Hr]; · iexact Hr
    iexact Hp
  hout c := by
    rw [Pipeline.ownSems0_none]
    refine BIBase.Entails.trans (hout1 (Vt (E1 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vt (E1 m) c) (Vt (X1 m) c) ((pdats m 1 c).arrAt · cfg1.N) (hF1 m c) (hrest1 m c)
    rw [Pipeline.unscopedBufs_held] at hjoin
    rw [VX1 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg2.lean ====
/-
  Region 2 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF2 (c : Dev nD) (w : Fin cfg2.W) :
    (dat2 (Vt (X1 m)) c).arrAt w cfg2.N = Vt (X2 m) c (Pipeline.arrRef spec2 w) := by
  match w with
  | ⟨0, _⟩ => exact ((dat2 (Vt (X1 m)) c).arrAt_in 0 rfl _).trans ((A_eq2 (Vt (X1 m)) c 0).trans (Function.update_of_ne (StableHlo.devRef_ne_of_ne (by decide)) _ _).symm)
  | ⟨1, _⟩ => exact ((dat2 (Vt (X1 m)) c).arrAt_in 1 rfl _).trans ((A_eq2 (Vt (X1 m)) c 1).trans (Function.update_of_ne (StableHlo.devRef_ne_of_ne (by decide)) _ _).symm)
  | ⟨2, _⟩ =>
    show _ = X2 m c main_v6
    unfold X2
    rw [Function.update_self]
    rfl

/-- Every other buffer holds what it held at entry. -/
theorem hrest2 (c : Dev nD) : ∀ b : Ref sig .tc, b ∉ (Finset.univ.image (Pipeline.arrRef spec2) : Finset (Ref sig .tc)) → Vt (X2 m) c b = Vt (X1 m) c b :=
  fun b hb => by
    unfold X2
    exact Function.update_of_ne (StableHlo.devRef_ne_of_ne fun e => hb (Finset.mem_image.mpr ⟨(2 : Fin cfg2.W), Finset.mem_univ _, by rw [e]⟩)) _ _

set_option backward.isDefEq.respectTransparency.types false in
/-- The region's record for the run over segments. -/
def reg2 : Pipeline.RegionSeg (pcfgs (F := F)) adm (pdats m) () defs₀ Variants.none Lv lvv 2 where
  win := launch2.win.to₀
  block_pos := launch2.block_pos
  stage_whole := launch2.stage_whole
  K := PEmpty
  osem k := k.elim
  ho := Pipeline.OwnSemFacts.none _
  hbody c := (body_obligation2 (Vt (X1 m)) c).loose
  hwaits := Pipeline.hwaits_of_owed_zero _ _ _ _ Lv lvv 2 fun _ _ => rfl
  pre c := iprop(StableHlo.held (c : Thread nD τ) (Pipeline.ucRefs τ sig) (V10 m (outs m) c) ∗ Rr c)
  post c := iprop(StableHlo.held (c : Thread nD τ) (Pipeline.ucRefs τ sig) (V11 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (Vt (X1 m) c)
  hentry c := by
    rw [Pipeline.ownSems0_none, VE2 m c]
    have hsplit := Pipeline.arrays_of_unscopedBufs (p := 2) (pcfgs (F := F)) adm (pdats m) launch2.win launch2.arr_whole c
      ((pdats m 2 c).share_full fun _ => rfl) (Vt (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vt (X1 m)) c)
    unfold Pipeline.ΦA
    iintro ⟨Hp, -, Hr⟩
    isplitl [Hr]; · iexact Hr
    iexact Hp
  hout c := by
    rw [Pipeline.ownSems0_none]
    refine BIBase.Entails.trans (hout2 (Vt (X1 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Vt (X1 m) c) (Vt (X2 m) c) ((pdats m 2 c).arrAt · cfg2.N) (hF2 m c) (hrest2 m c)
    rw [Pipeline.unscopedBufs_held] at hjoin
    rw [VX2 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg3.lean ====
/-
  Region 3 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF3 (c : Dev nD) (w : Fin cfg3.W) :
    (dat3 (Vt (E3 m)) c).arrAt w cfg3.N = Vt (X3 m) c (Pipeline.arrRef spec3 w) := by
  match w with
  | ⟨0, _⟩ => exact ((dat3 (Vt (E3 m)) c).arrAt_in 0 rfl _).trans ((A_eq3 (Vt (E3 m)) c 0).trans (Function.update_of_ne (StableHlo.devRef_ne_of_ne (by decide)) _ _).symm)
  | ⟨1, _⟩ => exact ((dat3 (Vt (E3 m)) c).arrAt_in 1 rfl _).trans ((A_eq3 (Vt (E3 m)) c 1).trans (Function.update_of_ne (StableHlo.devRef_ne_of_ne (by decide)) _ _).symm)
  | ⟨2, _⟩ => exact ((dat3 (Vt (E3 m)) c).arrAt_in 2 rfl _).trans ((A_eq3 (Vt (E3 m)) c 2).trans (Function.update_of_ne (StableHlo.devRef_ne_of_ne (by decide)) _ _).symm)
  | ⟨3, _⟩ =>
    show _ = X3 m c main_v17
    unfold X3
    rw [Function.update_self]
    rfl

/-- Every other buffer holds what it held at entry. -/
theorem hrest3 (c : Dev nD) : ∀ b : Ref sig .tc, b ∉ (Finset.univ.image (Pipeline.arrRef spec3) : Finset (Ref sig .tc)) → Vt (X3 m) c b = Vt (E3 m) c b :=
  fun b hb => by
    unfold X3
    exact Function.update_of_ne (StableHlo.devRef_ne_of_ne fun e => hb (Finset.mem_image.mpr ⟨(3 : Fin cfg3.W), Finset.mem_univ _, by rw [e]⟩)) _ _

set_option backward.isDefEq.respectTransparency.types false in
/-- The region's record for the run over segments. -/
def reg3 : Pipeline.RegionSeg (pcfgs (F := F)) adm (pdats m) () defs₀ Variants.none Lv lvv 3 where
  win := launch3.win.to₀
  block_pos := launch3.block_pos
  stage_whole := launch3.stage_whole
  K := PEmpty
  osem k := k.elim
  ho := Pipeline.OwnSemFacts.none _
  hbody c := (body_obligation3 (Vt (E3 m)) c).loose
  hwaits := Pipeline.hwaits_of_owed_zero _ _ _ _ Lv lvv 3 fun _ _ => rfl
  pre c := iprop(StableHlo.held (c : Thread nD τ) (Pipeline.ucRefs τ sig) (V12 m (outs m) c) ∗ Rr c)
  post c := iprop(StableHlo.held (c : Thread nD τ) (Pipeline.ucRefs τ sig) (V13 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec3 c (Vt (E3 m) c)
  hentry c := by
    rw [Pipeline.ownSems0_none, VE3 m c]
    have hsplit := Pipeline.arrays_of_unscopedBufs (p := 3) (pcfgs (F := F)) adm (pdats m) launch3.win launch3.arr_whole c
      ((pdats m 3 c).share_full fun _ => rfl) (Vt (E3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Vt (E3 m) c) (Vt (X3 m) c) ((pdats m 3 c).arrAt · cfg3.N) (hF3 m c) (hrest3 m c)
    rw [Pipeline.unscopedBufs_held] at hjoin
    rw [VX3 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg4.lean ====
/-
  Region 4 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF4 (c : Dev nD) (w : Fin cfg4.W) :
    (dat4 (Vt (X3 m)) c).arrAt w cfg4.N = Vt (X4 m) c (Pipeline.arrRef spec4 w) := by
  match w with
  | ⟨0, _⟩ => exact ((dat4 (Vt (X3 m)) c).arrAt_in 0 rfl _).trans ((A_eq4 (Vt (X3 m)) c 0).trans (Function.update_of_ne (StableHlo.devRef_ne_of_ne (by decide)) _ _).symm)
  | ⟨1, _⟩ => exact ((dat4 (Vt (X3 m)) c).arrAt_in 1 rfl _).trans ((A_eq4 (Vt (X3 m)) c 1).trans (Function.update_of_ne (StableHlo.devRef_ne_of_ne (by decide)) _ _).symm)
  | ⟨2, _⟩ => exact ((dat4 (Vt (X3 m)) c).arrAt_in 2 rfl _).trans ((A_eq4 (Vt (X3 m)) c 2).trans (Function.update_of_ne (StableHlo.devRef_ne_of_ne (by decide)) _ _).symm)
  | ⟨3, _⟩ =>
    show _ = X4 m c main_v18
    unfold X4
    rw [Function.update_self]
    rfl

/-- Every other buffer holds what it held at entry. -/
theorem hrest4 (c : Dev nD) : ∀ b : Ref sig .tc, b ∉ (Finset.univ.image (Pipeline.arrRef spec4) : Finset (Ref sig .tc)) → Vt (X4 m) c b = Vt (X3 m) c b :=
  fun b hb => by
    unfold X4
    exact Function.update_of_ne (StableHlo.devRef_ne_of_ne fun e => hb (Finset.mem_image.mpr ⟨(3 : Fin cfg4.W), Finset.mem_univ _, by rw [e]⟩)) _ _

set_option backward.isDefEq.respectTransparency.types false in
/-- The region's record for the run over segments. -/
def reg4 : Pipeline.RegionSeg (pcfgs (F := F)) adm (pdats m) () defs₀ Variants.none Lv lvv 4 where
  win := launch4.win.to₀
  block_pos := launch4.block_pos
  stage_whole := launch4.stage_whole
  K := PEmpty
  osem k := k.elim
  ho := Pipeline.OwnSemFacts.none _
  hbody c := (body_obligation4 (Vt (X3 m)) c).loose
  hwaits := Pipeline.hwaits_of_owed_zero _ _ _ _ Lv lvv 4 fun _ _ => rfl
  pre c := iprop(StableHlo.held (c : Thread nD τ) (Pipeline.ucRefs τ sig) (V13 m (outs m) c) ∗ Rr c)
  post c := iprop(StableHlo.held (c : Thread nD τ) (Pipeline.ucRefs τ sig) (V14 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec4 c (Vt (X3 m) c)
  hentry c := by
    rw [Pipeline.ownSems0_none, VE4 m c]
    have hsplit := Pipeline.arrays_of_unscopedBufs (p := 4) (pcfgs (F := F)) adm (pdats m) launch4.win launch4.arr_whole c
      ((pdats m 4 c).share_full fun _ => rfl) (Vt (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Vt (X3 m) c) (Vt (X4 m) c) ((pdats m 4 c).arrAt · cfg4.N) (hF4 m c) (hrest4 m c)
    rw [Pipeline.unscopedBufs_held] at hjoin
    rw [VX4 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg5.lean ====
/-
  Region 5 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF5 (c : Dev nD) (w : Fin cfg5.W) :
    (dat5 (Vt (X4 m)) c).arrAt w cfg5.N = Vt (X5 m) c (Pipeline.arrRef spec5 w) := by
  match w with
  | ⟨0, _⟩ => exact ((dat5 (Vt (X4 m)) c).arrAt_in 0 rfl _).trans ((A_eq5 (Vt (X4 m)) c 0).trans (Function.update_of_ne (StableHlo.devRef_ne_of_ne (by decide)) _ _).symm)
  | ⟨1, _⟩ => exact ((dat5 (Vt (X4 m)) c).arrAt_in 1 rfl _).trans ((A_eq5 (Vt (X4 m)) c 1).trans (Function.update_of_ne (StableHlo.devRef_ne_of_ne (by decide)) _ _).symm)
  | ⟨2, _⟩ => exact ((dat5 (Vt (X4 m)) c).arrAt_in 2 rfl _).trans ((A_eq5 (Vt (X4 m)) c 2).trans (Function.update_of_ne (StableHlo.devRef_ne_of_ne (by decide)) _ _).symm)
  | ⟨3, _⟩ =>
    show _ = X5 m c main_v19
    unfold X5
    rw [Function.update_self]
    rfl

/-- Every other buffer holds what it held at entry. -/
theorem hrest5 (c : Dev nD) : ∀ b : Ref sig .tc, b ∉ (Finset.univ.image (Pipeline.arrRef spec5) : Finset (Ref sig .tc)) → Vt (X5 m) c b = Vt (X4 m) c b :=
  fun b hb => by
    unfold X5
    exact Function.update_of_ne (StableHlo.devRef_ne_of_ne fun e => hb (Finset.mem_image.mpr ⟨(3 : Fin cfg5.W), Finset.mem_univ _, by rw [e]⟩)) _ _

set_option backward.isDefEq.respectTransparency.types false in
/-- The region's record for the run over segments. -/
def reg5 : Pipeline.RegionSeg (pcfgs (F := F)) adm (pdats m) () defs₀ Variants.none Lv lvv 5 where
  win := launch5.win.to₀
  block_pos := launch5.block_pos
  stage_whole := launch5.stage_whole
  K := PEmpty
  osem k := k.elim
  ho := Pipeline.OwnSemFacts.none _
  hbody c := (body_obligation5 (Vt (X4 m)) c).loose
  hwaits := Pipeline.hwaits_of_owed_zero _ _ _ _ Lv lvv 5 fun _ _ => rfl
  pre c := iprop(StableHlo.held (c : Thread nD τ) (Pipeline.ucRefs τ sig) (V14 m (outs m) c) ∗ Rr c)
  post c := iprop(StableHlo.held (c : Thread nD τ) (Pipeline.ucRefs τ sig) (V15 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec5 c (Vt (X4 m) c)
  hentry c := by
    rw [Pipeline.ownSems0_none, VE5 m c]
    have hsplit := Pipeline.arrays_of_unscopedBufs (p := 5) (pcfgs (F := F)) adm (pdats m) launch5.win launch5.arr_whole c
      ((pdats m 5 c).share_full fun _ => rfl) (Vt (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (Vt (X4 m) c) (Vt (X5 m) c) ((pdats m 5 c).arrAt · cfg5.N) (hF5 m c) (hrest5 m c)
    rw [Pipeline.unscopedBufs_held] at hjoin
    rw [VX5 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg6.lean ====
/-
  Region 6 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF6 (c : Dev nD) (w : Fin cfg6.W) :
    (dat6 (Vt (X5 m)) c).arrAt w cfg6.N = Vt (X6 m) c (Pipeline.arrRef spec6 w) := by
  match w with
  | ⟨0, _⟩ => exact ((dat6 (Vt (X5 m)) c).arrAt_in 0 rfl _).trans ((A_eq6 (Vt (X5 m)) c 0).trans (Function.update_of_ne (StableHlo.devRef_ne_of_ne (by decide)) _ _).symm)
  | ⟨1, _⟩ => exact ((dat6 (Vt (X5 m)) c).arrAt_in 1 rfl _).trans ((A_eq6 (Vt (X5 m)) c 1).trans (Function.update_of_ne (StableHlo.devRef_ne_of_ne (by decide)) _ _).symm)
  | ⟨2, _⟩ => exact ((dat6 (Vt (X5 m)) c).arrAt_in 2 rfl _).trans ((A_eq6 (Vt (X5 m)) c 2).trans (Function.update_of_ne (StableHlo.devRef_ne_of_ne (by decide)) _ _).symm)
  | ⟨3, _⟩ =>
    show _ = X6 m c main_v20
    unfold X6
    rw [Function.update_self]
    rfl

/-- Every other buffer holds what it held at entry. -/
theorem hrest6 (c : Dev nD) : ∀ b : Ref sig .tc, b ∉ (Finset.univ.image (Pipeline.arrRef spec6) : Finset (Ref sig .tc)) → Vt (X6 m) c b = Vt (X5 m) c b :=
  fun b hb => by
    unfold X6
    exact Function.update_of_ne (StableHlo.devRef_ne_of_ne fun e => hb (Finset.mem_image.mpr ⟨(3 : Fin cfg6.W), Finset.mem_univ _, by rw [e]⟩)) _ _

set_option backward.isDefEq.respectTransparency.types false in
/-- The region's record for the run over segments. -/
def reg6 : Pipeline.RegionSeg (pcfgs (F := F)) adm (pdats m) () defs₀ Variants.none Lv lvv 6 where
  win := launch6.win.to₀
  block_pos := launch6.block_pos
  stage_whole := launch6.stage_whole
  K := PEmpty
  osem k := k.elim
  ho := Pipeline.OwnSemFacts.none _
  hbody c := (body_obligation6 (Vt (X5 m)) c).loose
  hwaits := Pipeline.hwaits_of_owed_zero _ _ _ _ Lv lvv 6 fun _ _ => rfl
  pre c := iprop(StableHlo.held (c : Thread nD τ) (Pipeline.ucRefs τ sig) (V15 m (outs m) c) ∗ Rr c)
  post c := iprop(StableHlo.held (c : Thread nD τ) (Pipeline.ucRefs τ sig) (V16 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec6 c (Vt (X5 m) c)
  hentry c := by
    rw [Pipeline.ownSems0_none, VE6 m c]
    have hsplit := Pipeline.arrays_of_unscopedBufs (p := 6) (pcfgs (F := F)) adm (pdats m) launch6.win launch6.arr_whole c
      ((pdats m 6 c).share_full fun _ => rfl) (Vt (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (Vt (X5 m) c) (Vt (X6 m) c) ((pdats m 6 c).arrAt · cfg6.N) (hF6 m c) (hrest6 m c)
    rw [Pipeline.unscopedBufs_held] at hjoin
    rw [VX6 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg7.lean ====
/-
  Region 7 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF7 (c : Dev nD) (w : Fin cfg7.W) :
    (dat7 (Vt (E7 m)) c).arrAt w cfg7.N = Vt (X7 m) c (Pipeline.arrRef spec7 w) := by
  match w with
  | ⟨0, _⟩ => exact ((dat7 (Vt (E7 m)) c).arrAt_in 0 rfl _).trans ((A_eq7 (Vt (E7 m)) c 0).trans (Function.update_of_ne (StableHlo.devRef_ne_of_ne (by decide)) _ _).symm)
  | ⟨1, _⟩ => exact ((dat7 (Vt (E7 m)) c).arrAt_in 1 rfl _).trans ((A_eq7 (Vt (E7 m)) c 1).trans (Function.update_of_ne (StableHlo.devRef_ne_of_ne (by decide)) _ _).symm)
  | ⟨2, _⟩ => exact ((dat7 (Vt (E7 m)) c).arrAt_in 2 rfl _).trans ((A_eq7 (Vt (E7 m)) c 2).trans (Function.update_of_ne (StableHlo.devRef_ne_of_ne (by decide)) _ _).symm)
  | ⟨3, _⟩ =>
    show _ = X7 m c main_v26
    unfold X7
    rw [Function.update_self]
    rfl

/-- Every other buffer holds what it held at entry. -/
theorem hrest7 (c : Dev nD) : ∀ b : Ref sig .tc, b ∉ (Finset.univ.image (Pipeline.arrRef spec7) : Finset (Ref sig .tc)) → Vt (X7 m) c b = Vt (E7 m) c b :=
  fun b hb => by
    unfold X7
    exact Function.update_of_ne (StableHlo.devRef_ne_of_ne fun e => hb (Finset.mem_image.mpr ⟨(3 : Fin cfg7.W), Finset.mem_univ _, by rw [e]⟩)) _ _

set_option backward.isDefEq.respectTransparency.types false in
/-- The region's record for the run over segments. -/
def reg7 : Pipeline.RegionSeg (pcfgs (F := F)) adm (pdats m) () defs₀ Variants.none Lv lvv 7 where
  win := launch7.win.to₀
  block_pos := launch7.block_pos
  stage_whole := launch7.stage_whole
  K := PEmpty
  osem k := k.elim
  ho := Pipeline.OwnSemFacts.none _
  hbody c := (body_obligation7 (Vt (E7 m)) c).loose
  hwaits := Pipeline.hwaits_of_owed_zero _ _ _ _ Lv lvv 7 fun _ _ => rfl
  pre c := iprop(StableHlo.held (c : Thread nD τ) (Pipeline.ucRefs τ sig) (V26 m (outs m) c) ∗ Rr c)
  post c := iprop(StableHlo.held (c : Thread nD τ) (Pipeline.ucRefs τ sig) (V27 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec7 c (Vt (E7 m) c)
  hentry c := by
    rw [Pipeline.ownSems0_none, VE7 m c]
    have hsplit := Pipeline.arrays_of_unscopedBufs (p := 7) (pcfgs (F := F)) adm (pdats m) launch7.win launch7.arr_whole c
      ((pdats m 7 c).share_full fun _ => rfl) (Vt (E7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (Vt (E7 m)) c)
    unfold Pipeline.ΦA
    iintro ⟨Hp, -, Hr⟩
    isplitl [Hr]; · iexact Hr
    iexact Hp
  hout c := by
    rw [Pipeline.ownSems0_none]
    refine BIBase.Entails.trans (hout7 (Vt (E7 m)) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (Vt (E7 m) c) (Vt (X7 m) c) ((pdats m 7 c).arrAt · cfg7.N) (hF7 m c) (hrest7 m c)
    rw [Pipeline.unscopedBufs_held] at hjoin
    rw [VX7 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg8.lean ====
/-
  Region 8 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF8 (c : Dev nD) (w : Fin cfg8.W) :
    (dat8 (Vt (X7 m)) c).arrAt w cfg8.N = Vt (X8 m) c (Pipeline.arrRef spec8 w) := by
  match w with
  | ⟨0, _⟩ => exact ((dat8 (Vt (X7 m)) c).arrAt_in 0 rfl _).trans ((A_eq8 (Vt (X7 m)) c 0).trans (Function.update_of_ne (StableHlo.devRef_ne_of_ne (by decide)) _ _).symm)
  | ⟨1, _⟩ => exact ((dat8 (Vt (X7 m)) c).arrAt_in 1 rfl _).trans ((A_eq8 (Vt (X7 m)) c 1).trans (Function.update_of_ne (StableHlo.devRef_ne_of_ne (by decide)) _ _).symm)
  | ⟨2, _⟩ =>
    show _ = X8 m c main_v27
    unfold X8
    rw [Function.update_self]
    rfl

/-- Every other buffer holds what it held at entry. -/
theorem hrest8 (c : Dev nD) : ∀ b : Ref sig .tc, b ∉ (Finset.univ.image (Pipeline.arrRef spec8) : Finset (Ref sig .tc)) → Vt (X8 m) c b = Vt (X7 m) c b :=
  fun b hb => by
    unfold X8
    exact Function.update_of_ne (StableHlo.devRef_ne_of_ne fun e => hb (Finset.mem_image.mpr ⟨(2 : Fin cfg8.W), Finset.mem_univ _, by rw [e]⟩)) _ _

set_option backward.isDefEq.respectTransparency.types false in
/-- The region's record for the run over segments. -/
def reg8 : Pipeline.RegionSeg (pcfgs (F := F)) adm (pdats m) () defs₀ Variants.none Lv lvv 8 where
  win := launch8.win.to₀
  block_pos := launch8.block_pos
  stage_whole := launch8.stage_whole
  K := PEmpty
  osem k := k.elim
  ho := Pipeline.OwnSemFacts.none _
  hbody c := (body_obligation8 (Vt (X7 m)) c).loose
  hwaits := Pipeline.hwaits_of_owed_zero _ _ _ _ Lv lvv 8 fun _ _ => rfl
  pre c := iprop(StableHlo.held (c : Thread nD τ) (Pipeline.ucRefs τ sig) (V27 m (outs m) c) ∗ Rr c)
  post c := iprop(StableHlo.held (c : Thread nD τ) (Pipeline.ucRefs τ sig) (V28 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec8 c (Vt (X7 m) c)
  hentry c := by
    rw [Pipeline.ownSems0_none, VE8 m c]
    have hsplit := Pipeline.arrays_of_unscopedBufs (p := 8) (pcfgs (F := F)) adm (pdats m) launch8.win launch8.arr_whole c
      ((pdats m 8 c).share_full fun _ => rfl) (Vt (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (Vt (X7 m)) c)
    unfold Pipeline.ΦA
    iintro ⟨Hp, -, Hr⟩
    isplitl [Hr]; · iexact Hr
    iexact Hp
  hout c := by
    rw [Pipeline.ownSems0_none]
    refine BIBase.Entails.trans (hout8 (Vt (X7 m)) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m) ((pdats m 8 c).share_full fun _ => rfl)
      (Vt (X7 m) c) (Vt (X8 m) c) ((pdats m 8 c).arrAt · cfg8.N) (hF8 m c) (hrest8 m c)
    rw [Pipeline.unscopedBufs_held] at hjoin
    rw [VX8 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg9.lean ====
/-
  Region 9 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF9 (c : Dev nD) (w : Fin cfg9.W) :
    (dat9 (Vt (E9 m)) c).arrAt w cfg9.N = Vt (X9 m) c (Pipeline.arrRef spec9 w) := by
  match w with
  | ⟨0, _⟩ => exact ((dat9 (Vt (E9 m)) c).arrAt_in 0 rfl _).trans ((A_eq9 (Vt (E9 m)) c 0).trans (Function.update_of_ne (StableHlo.devRef_ne_of_ne (by decide)) _ _).symm)
  | ⟨1, _⟩ => exact ((dat9 (Vt (E9 m)) c).arrAt_in 1 rfl _).trans ((A_eq9 (Vt (E9 m)) c 1).trans (Function.update_of_ne (StableHlo.devRef_ne_of_ne (by decide)) _ _).symm)
  | ⟨2, _⟩ => exact ((dat9 (Vt (E9 m)) c).arrAt_in 2 rfl _).trans ((A_eq9 (Vt (E9 m)) c 2).trans (Function.update_of_ne (StableHlo.devRef_ne_of_ne (by decide)) _ _).symm)
  | ⟨3, _⟩ =>
    show _ = X9 m c main_v41
    unfold X9
    rw [Function.update_self]
    rfl

/-- Every other buffer holds what it held at entry. -/
theorem hrest9 (c : Dev nD) : ∀ b : Ref sig .tc, b ∉ (Finset.univ.image (Pipeline.arrRef spec9) : Finset (Ref sig .tc)) → Vt (X9 m) c b = Vt (E9 m) c b :=
  fun b hb => by
    unfold X9
    exact Function.update_of_ne (StableHlo.devRef_ne_of_ne fun e => hb (Finset.mem_image.mpr ⟨(3 : Fin cfg9.W), Finset.mem_univ _, by rw [e]⟩)) _ _

set_option backward.isDefEq.respectTransparency.types false in
/-- The region's record for the run over segments. -/
def reg9 : Pipeline.RegionSeg (pcfgs (F := F)) adm (pdats m) () defs₀ Variants.none Lv lvv 9 where
  win := launch9.win.to₀
  block_pos := launch9.block_pos
  stage_whole := launch9.stage_whole
  K := PEmpty
  osem k := k.elim
  ho := Pipeline.OwnSemFacts.none _
  hbody c := (body_obligation9 (Vt (E9 m)) c).loose
  hwaits := Pipeline.hwaits_of_owed_zero _ _ _ _ Lv lvv 9 fun _ _ => rfl
  pre c := iprop(StableHlo.held (c : Thread nD τ) (Pipeline.ucRefs τ sig) (V34 m (outs m) c) ∗ Rr c)
  post c := iprop(StableHlo.held (c : Thread nD τ) (Pipeline.ucRefs τ sig) (V35 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec9 c (Vt (E9 m) c)
  hentry c := by
    rw [Pipeline.ownSems0_none, VE9 m c]
    have hsplit := Pipeline.arrays_of_unscopedBufs (p := 9) (pcfgs (F := F)) adm (pdats m) launch9.win launch9.arr_whole c
      ((pdats m 9 c).share_full fun _ => rfl) (Vt (E9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (Vt (E9 m)) c)
    unfold Pipeline.ΦA
    iintro ⟨Hp, -, Hr⟩
    isplitl [Hr]; · iexact Hr
    iexact Hp
  hout c := by
    rw [Pipeline.ownSems0_none]
    refine BIBase.Entails.trans (hout9 (Vt (E9 m)) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m) ((pdats m 9 c).share_full fun _ => rfl)
      (Vt (E9 m) c) (Vt (X9 m) c) ((pdats m 9 c).arrAt · cfg9.N) (hF9 m c) (hrest9 m c)
    rw [Pipeline.unscopedBufs_held] at hjoin
    rw [VX9 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg10.lean ====
/-
  Region 10 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF10 (c : Dev nD) (w : Fin cfg10.W) :
    (dat10 (Vt (X9 m)) c).arrAt w cfg10.N = Vt (X10 m) c (Pipeline.arrRef spec10 w) := by
  match w with
  | ⟨0, _⟩ => exact ((dat10 (Vt (X9 m)) c).arrAt_in 0 rfl _).trans ((A_eq10 (Vt (X9 m)) c 0).trans (Function.update_of_ne (StableHlo.devRef_ne_of_ne (by decide)) _ _).symm)
  | ⟨1, _⟩ => exact ((dat10 (Vt (X9 m)) c).arrAt_in 1 rfl _).trans ((A_eq10 (Vt (X9 m)) c 1).trans (Function.update_of_ne (StableHlo.devRef_ne_of_ne (by decide)) _ _).symm)
  | ⟨2, _⟩ =>
    show _ = X10 m c main_v42
    unfold X10
    rw [Function.update_self]
    rfl

/-- Every other buffer holds what it held at entry. -/
theorem hrest10 (c : Dev nD) : ∀ b : Ref sig .tc, b ∉ (Finset.univ.image (Pipeline.arrRef spec10) : Finset (Ref sig .tc)) → Vt (X10 m) c b = Vt (X9 m) c b :=
  fun b hb => by
    unfold X10
    exact Function.update_of_ne (StableHlo.devRef_ne_of_ne fun e => hb (Finset.mem_image.mpr ⟨(2 : Fin cfg10.W), Finset.mem_univ _, by rw [e]⟩)) _ _

set_option backward.isDefEq.respectTransparency.types false in
/-- The region's record for the run over segments. -/
def reg10 : Pipeline.RegionSeg (pcfgs (F := F)) adm (pdats m) () defs₀ Variants.none Lv lvv 10 where
  win := launch10.win.to₀
  block_pos := launch10.block_pos
  stage_whole := launch10.stage_whole
  K := PEmpty
  osem k := k.elim
  ho := Pipeline.OwnSemFacts.none _
  hbody c := (body_obligation10 (Vt (X9 m)) c).loose
  hwaits := Pipeline.hwaits_of_owed_zero _ _ _ _ Lv lvv 10 fun _ _ => rfl
  pre c := iprop(StableHlo.held (c : Thread nD τ) (Pipeline.ucRefs τ sig) (V35 m (outs m) c) ∗ Rr c)
  post c := iprop(StableHlo.held (c : Thread nD τ) (Pipeline.ucRefs τ sig) (V36 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec10 c (Vt (X9 m) c)
  hentry c := by
    rw [Pipeline.ownSems0_none, VE10 m c]
    have hsplit := Pipeline.arrays_of_unscopedBufs (p := 10) (pcfgs (F := F)) adm (pdats m) launch10.win launch10.arr_whole c
      ((pdats m 10 c).share_full fun _ => rfl) (Vt (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (Vt (X9 m)) c)
    unfold Pipeline.ΦA
    iintro ⟨Hp, -, Hr⟩
    isplitl [Hr]; · iexact Hr
    iexact Hp
  hout c := by
    rw [Pipeline.ownSems0_none]
    refine BIBase.Entails.trans (hout10 (Vt (X9 m)) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m) ((pdats m 10 c).share_full fun _ => rfl)
      (Vt (X9 m) c) (Vt (X10 m) c) ((pdats m 10 c).arrAt · cfg10.N) (hF10 m c) (hrest10 m c)
    rw [Pipeline.unscopedBufs_held] at hjoin
    rw [VX10 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg11.lean ====
/-
  Region 11 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF11 (c : Dev nD) (w : Fin cfg11.W) :
    (dat11 (Vt (E11 m)) c).arrAt w cfg11.N = Vt (X11 m) c (Pipeline.arrRef spec11 w) := by
  match w with
  | ⟨0, _⟩ => exact ((dat11 (Vt (E11 m)) c).arrAt_in 0 rfl _).trans ((A_eq11 (Vt (E11 m)) c 0).trans (Function.update_of_ne (StableHlo.devRef_ne_of_ne (by decide)) _ _).symm)
  | ⟨1, _⟩ => exact ((dat11 (Vt (E11 m)) c).arrAt_in 1 rfl _).trans ((A_eq11 (Vt (E11 m)) c 1).trans (Function.update_of_ne (StableHlo.devRef_ne_of_ne (by decide)) _ _).symm)
  | ⟨2, _⟩ => exact ((dat11 (Vt (E11 m)) c).arrAt_in 2 rfl _).trans ((A_eq11 (Vt (E11 m)) c 2).trans (Function.update_of_ne (StableHlo.devRef_ne_of_ne (by decide)) _ _).symm)
  | ⟨3, _⟩ =>
    show _ = X11 m c main_v57
    unfold X11
    rw [Function.update_self]
    rfl

/-- Every other buffer holds what it held at entry. -/
theorem hrest11 (c : Dev nD) : ∀ b : Ref sig .tc, b ∉ (Finset.univ.image (Pipeline.arrRef spec11) : Finset (Ref sig .tc)) → Vt (X11 m) c b = Vt (E11 m) c b :=
  fun b hb => by
    unfold X11
    exact Function.update_of_ne (StableHlo.devRef_ne_of_ne fun e => hb (Finset.mem_image.mpr ⟨(3 : Fin cfg11.W), Finset.mem_univ _, by rw [e]⟩)) _ _

set_option backward.isDefEq.respectTransparency.types false in
/-- The region's record for the run over segments. -/
def reg11 : Pipeline.RegionSeg (pcfgs (F := F)) adm (pdats m) () defs₀ Variants.none Lv lvv 11 where
  win := launch11.win.to₀
  block_pos := launch11.block_pos
  stage_whole := launch11.stage_whole
  K := PEmpty
  osem k := k.elim
  ho := Pipeline.OwnSemFacts.none _
  hbody c := (body_obligation11 (Vt (E11 m)) c).loose
  hwaits := Pipeline.hwaits_of_owed_zero _ _ _ _ Lv lvv 11 fun _ _ => rfl
  pre c := iprop(StableHlo.held (c : Thread nD τ) (Pipeline.ucRefs τ sig) (V42 m (outs m) c) ∗ Rr c)
  post c := iprop(StableHlo.held (c : Thread nD τ) (Pipeline.ucRefs τ sig) (V43 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec11 c (Vt (E11 m) c)
  hentry c := by
    rw [Pipeline.ownSems0_none, VE11 m c]
    have hsplit := Pipeline.arrays_of_unscopedBufs (p := 11) (pcfgs (F := F)) adm (pdats m) launch11.win launch11.arr_whole c
      ((pdats m 11 c).share_full fun _ => rfl) (Vt (E11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (Vt (E11 m)) c)
    unfold Pipeline.ΦA
    iintro ⟨Hp, -, Hr⟩
    isplitl [Hr]; · iexact Hr
    iexact Hp
  hout c := by
    rw [Pipeline.ownSems0_none]
    refine BIBase.Entails.trans (hout11 (Vt (E11 m)) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m) ((pdats m 11 c).share_full fun _ => rfl)
      (Vt (E11 m) c) (Vt (X11 m) c) ((pdats m 11 c).arrAt · cfg11.N) (hF11 m c) (hrest11 m c)
    rw [Pipeline.unscopedBufs_held] at hjoin
    rw [VX11 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg12.lean ====
/-
  Region 12 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF12 (c : Dev nD) (w : Fin cfg12.W) :
    (dat12 (Vt (X11 m)) c).arrAt w cfg12.N = Vt (X12 m) c (Pipeline.arrRef spec12 w) := by
  match w with
  | ⟨0, _⟩ => exact ((dat12 (Vt (X11 m)) c).arrAt_in 0 rfl _).trans ((A_eq12 (Vt (X11 m)) c 0).trans (Function.update_of_ne (StableHlo.devRef_ne_of_ne (by decide)) _ _).symm)
  | ⟨1, _⟩ => exact ((dat12 (Vt (X11 m)) c).arrAt_in 1 rfl _).trans ((A_eq12 (Vt (X11 m)) c 1).trans (Function.update_of_ne (StableHlo.devRef_ne_of_ne (by decide)) _ _).symm)
  | ⟨2, _⟩ =>
    show _ = X12 m c main_v58
    unfold X12
    rw [Function.update_self]
    rfl

/-- Every other buffer holds what it held at entry. -/
theorem hrest12 (c : Dev nD) : ∀ b : Ref sig .tc, b ∉ (Finset.univ.image (Pipeline.arrRef spec12) : Finset (Ref sig .tc)) → Vt (X12 m) c b = Vt (X11 m) c b :=
  fun b hb => by
    unfold X12
    exact Function.update_of_ne (StableHlo.devRef_ne_of_ne fun e => hb (Finset.mem_image.mpr ⟨(2 : Fin cfg12.W), Finset.mem_univ _, by rw [e]⟩)) _ _

set_option backward.isDefEq.respectTransparency.types false in
/-- The region's record for the run over segments. -/
def reg12 : Pipeline.RegionSeg (pcfgs (F := F)) adm (pdats m) () defs₀ Variants.none Lv lvv 12 where
  win := launch12.win.to₀
  block_pos := launch12.block_pos
  stage_whole := launch12.stage_whole
  K := PEmpty
  osem k := k.elim
  ho := Pipeline.OwnSemFacts.none _
  hbody c := (body_obligation12 (Vt (X11 m)) c).loose
  hwaits := Pipeline.hwaits_of_owed_zero _ _ _ _ Lv lvv 12 fun _ _ => rfl
  pre c := iprop(StableHlo.held (c : Thread nD τ) (Pipeline.ucRefs τ sig) (V43 m (outs m) c) ∗ Rr c)
  post c := iprop(StableHlo.held (c : Thread nD τ) (Pipeline.ucRefs τ sig) (V44 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec12 c (Vt (X11 m) c)
  hentry c := by
    rw [Pipeline.ownSems0_none, VE12 m c]
    have hsplit := Pipeline.arrays_of_unscopedBufs (p := 12) (pcfgs (F := F)) adm (pdats m) launch12.win launch12.arr_whole c
      ((pdats m 12 c).share_full fun _ => rfl) (Vt (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (Vt (X11 m)) c)
    unfold Pipeline.ΦA
    iintro ⟨Hp, -, Hr⟩
    isplitl [Hr]; · iexact Hr
    iexact Hp
  hout c := by
    rw [Pipeline.ownSems0_none]
    refine BIBase.Entails.trans (hout12 (Vt (X11 m)) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m) ((pdats m 12 c).share_full fun _ => rfl)
      (Vt (X11 m) c) (Vt (X12 m) c) ((pdats m 12 c).arrAt · cfg12.N) (hF12 m c) (hrest12 m c)
    rw [Pipeline.unscopedBufs_held] at hjoin
    rw [VX12 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg13.lean ====
/-
  Region 13 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF13 (c : Dev nD) (w : Fin cfg13.W) :
    (dat13 (Vt (E13 m)) c).arrAt w cfg13.N = Vt (X13 m) c (Pipeline.arrRef spec13 w) := by
  match w with
  | ⟨0, _⟩ => exact ((dat13 (Vt (E13 m)) c).arrAt_in 0 rfl _).trans ((A_eq13 (Vt (E13 m)) c 0).trans (Function.update_of_ne (StableHlo.devRef_ne_of_ne (by decide)) _ _).symm)
  | ⟨1, _⟩ => exact ((dat13 (Vt (E13 m)) c).arrAt_in 1 rfl _).trans ((A_eq13 (Vt (E13 m)) c 1).trans (Function.update_of_ne (StableHlo.devRef_ne_of_ne (by decide)) _ _).symm)
  | ⟨2, _⟩ => exact ((dat13 (Vt (E13 m)) c).arrAt_in 2 rfl _).trans ((A_eq13 (Vt (E13 m)) c 2).trans (Function.update_of_ne (StableHlo.devRef_ne_of_ne (by decide)) _ _).symm)
  | ⟨3, _⟩ =>
    show _ = X13 m c main_v72
    unfold X13
    rw [Function.update_self]
    rfl

/-- Every other buffer holds what it held at entry. -/
theorem hrest13 (c : Dev nD) : ∀ b : Ref sig .tc, b ∉ (Finset.univ.image (Pipeline.arrRef spec13) : Finset (Ref sig .tc)) → Vt (X13 m) c b = Vt (E13 m) c b :=
  fun b hb => by
    unfold X13
    exact Function.update_of_ne (StableHlo.devRef_ne_of_ne fun e => hb (Finset.mem_image.mpr ⟨(3 : Fin cfg13.W), Finset.mem_univ _, by rw [e]⟩)) _ _

set_option backward.isDefEq.respectTransparency.types false in
/-- The region's record for the run over segments. -/
def reg13 : Pipeline.RegionSeg (pcfgs (F := F)) adm (pdats m) () defs₀ Variants.none Lv lvv 13 where
  win := launch13.win.to₀
  block_pos := launch13.block_pos
  stage_whole := launch13.stage_whole
  K := PEmpty
  osem k := k.elim
  ho := Pipeline.OwnSemFacts.none _
  hbody c := (body_obligation13 (Vt (E13 m)) c).loose
  hwaits := Pipeline.hwaits_of_owed_zero _ _ _ _ Lv lvv 13 fun _ _ => rfl
  pre c := iprop(StableHlo.held (c : Thread nD τ) (Pipeline.ucRefs τ sig) (V50 m (outs m) c) ∗ Rr c)
  post c := iprop(StableHlo.held (c : Thread nD τ) (Pipeline.ucRefs τ sig) (V51 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec13 c (Vt (E13 m) c)
  hentry c := by
    rw [Pipeline.ownSems0_none, VE13 m c]
    have hsplit := Pipeline.arrays_of_unscopedBufs (p := 13) (pcfgs (F := F)) adm (pdats m) launch13.win launch13.arr_whole c
      ((pdats m 13 c).share_full fun _ => rfl) (Vt (E13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin13 (Vt (E13 m)) c)
    unfold Pipeline.ΦA
    iintro ⟨Hp, -, Hr⟩
    isplitl [Hr]; · iexact Hr
    iexact Hp
  hout c := by
    rw [Pipeline.ownSems0_none]
    refine BIBase.Entails.trans (hout13 (Vt (E13 m)) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := Pipeline.UD sig nD τ) (Lvl := ℕ)
      launch13.win launch13.arr_whole c (pdats m) ((pdats m 13 c).share_full fun _ => rfl)
      (Vt (E13 m) c) (Vt (X13 m) c) ((pdats m 13 c).arrAt · cfg13.N) (hF13 m c) (hrest13 m c)
    rw [Pipeline.unscopedBufs_held] at hjoin
    rw [VX13 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Reg14.lean ====
/-
  Region 14 of @main as a segment of the run: entered from the buffers' contents at its boundary, left at the next
  boundary's; its arrays are split out of the unscoped buffers at entry and put back, the output at what the pipeline
  leaves, at exit; the generator register goes into the region's invariant and comes back; nothing is owed.
-/
import proofs.«407232_j23192823399226_1_alg».proof.Proof.KI.Vals
import Idealize.ShloMosaic.Lib.Pipeline.RegionsLoop

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 4000000 in
/-- At the region's exit each of its arrays holds what the pipeline leaves: the output what the write-backs fold to, an
    input what it held at entry. -/
theorem hF14 (c : Dev nD) (w : Fin cfg14.W) :
    (dat14 (Vt (X13 m)) c).arrAt w cfg14.N = Vt (X14 m) c (Pipeline.arrRef spec14 w) := by
  match w with
  | ⟨0, _⟩ => exact ((dat14 (Vt (X13 m)) c).arrAt_in 0 rfl _).trans ((A_eq14 (Vt (X13 m)) c 0).trans (Function.update_of_ne (StableHlo.devRef_ne_of_ne (by decide)) _ _).symm)
  | ⟨1, _⟩ => exact ((dat14 (Vt (X13 m)) c).arrAt_in 1 rfl _).trans ((A_eq14 (Vt (X13 m)) c 1).trans (Function.update_of_ne (StableHlo.devRef_ne_of_ne (by decide)) _ _).symm)
  | ⟨2, _⟩ =>
    show _ = X14 m c main_v73
    unfold X14
    rw [Function.update_self]
    rfl

/-- Every other buffer holds what it held at entry. -/
theorem hrest14 (c : Dev nD) : ∀ b : Ref sig .tc, b ∉ (Finset.univ.image (Pipeline.arrRef spec14) : Finset (Ref sig .tc)) → Vt (X14 m) c b = Vt (X13 m) c b :=
  fun b hb => by
    unfold X14
    exact Function.update_of_ne (StableHlo.devRef_ne_of_ne fun e => hb (Finset.mem_image.mpr ⟨(2 : Fin cfg14.W), Finset.mem_univ _, by rw [e]⟩)) _ _

set_option backward.isDefEq.respectTransparency.types false in
/-- The region's record for the run over segments. -/
def reg14 : Pipeline.RegionSeg (pcfgs (F := F)) adm (pdats m) () defs₀ Variants.none Lv lvv 14 where
  win := launch14.win.to₀
  block_pos := launch14.block_pos
  stage_whole := launch14.stage_whole
  K := PEmpty
  osem k := k.elim
  ho := Pipeline.OwnSemFacts.none _
  hbody c := (body_obligation14 (Vt (X13 m)) c).loose
  hwaits := Pipeline.hwaits_of_owed_zero _ _ _ _ Lv lvv 14 fun _ _ => rfl
  pre c := iprop(StableHlo.held (c : Thread nD τ) (Pipeline.ucRefs τ sig) (V51 m (outs m) c) ∗ Rr c)
  post c := iprop(StableHlo.held (c : Thread nD τ) (Pipeline.ucRefs τ sig) (V52 m (outs m) c) ∗ Rr c)
  X c := iprop(∃ r, prngReg c r)
  Y c := iprop(∃ r, prngReg c r)
  Z c := Pipeline.unscopedRest (Ix := Unit) (Name := ℕ) (U := Pipeline.UD sig nD τ) (Lvl := ℕ) spec14 c (Vt (X13 m) c)
  hentry c := by
    rw [Pipeline.ownSems0_none, VE14 m c]
    have hsplit := Pipeline.arrays_of_unscopedBufs (p := 14) (pcfgs (F := F)) adm (pdats m) launch14.win launch14.arr_whole c
      ((pdats m 14 c).share_full fun _ => rfl) (Vt (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (Vt (X13 m)) c)
    unfold Pipeline.ΦA
    iintro ⟨Hp, -, Hr⟩
    isplitl [Hr]; · iexact Hr
    iexact Hp
  hout c := by
    rw [Pipeline.ownSems0_none]
    refine BIBase.Entails.trans (hout14 (Vt (X13 m)) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := Pipeline.UD sig nD τ) (Lvl := ℕ)
      launch14.win launch14.arr_whole c (pdats m) ((pdats m 14 c).share_full fun _ => rfl)
      (Vt (X13 m) c) (Vt (X14 m) c) ((pdats m 14 c).arrAt · cfg14.N) (hF14 m c) (hrest14 m c)
    rw [Pipeline.unscopedBufs_held] at hjoin
    rw [VX14 m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.H

end
-- ==== Proof.KI.Run.lean ====
/-
  The run of @main over its 53 segments: the launch makes every core's first thread state, the fifteen regions'
  records and the host stretches chain from boundary to boundary, and the last thread state read against the final
  memory gives every argument array as launched and the three results at the last boundary's contents.
-/
import proofs.«407232_j23192823399226_1_alg».proof.Proof.KI.Reg0
import proofs.«407232_j23192823399226_1_alg».proof.Proof.KI.Reg1
import proofs.«407232_j23192823399226_1_alg».proof.Proof.KI.Reg2
import proofs.«407232_j23192823399226_1_alg».proof.Proof.KI.Reg3
import proofs.«407232_j23192823399226_1_alg».proof.Proof.KI.Reg4
import proofs.«407232_j23192823399226_1_alg».proof.Proof.KI.Reg5
import proofs.«407232_j23192823399226_1_alg».proof.Proof.KI.Reg6
import proofs.«407232_j23192823399226_1_alg».proof.Proof.KI.Reg7
import proofs.«407232_j23192823399226_1_alg».proof.Proof.KI.Reg8
import proofs.«407232_j23192823399226_1_alg».proof.Proof.KI.Reg9
import proofs.«407232_j23192823399226_1_alg».proof.Proof.KI.Reg10
import proofs.«407232_j23192823399226_1_alg».proof.Proof.KI.Reg11
import proofs.«407232_j23192823399226_1_alg».proof.Proof.KI.Reg12
import proofs.«407232_j23192823399226_1_alg».proof.Proof.KI.Reg13
import proofs.«407232_j23192823399226_1_alg».proof.Proof.KI.Reg14

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_v18) = V53 m (outs m) c main_v18
      ∧ r.2.mem ((c.tc : Thread nD τ).loc main_v53) = V53 m (outs m) c main_v53
      ∧ r.2.mem ((c.tc : Thread nD τ).loc main_v84) = V53 m (outs m) c main_v84) :=
  run_cond m (Ix := Unit) (U := Pipeline.UD sig nD τ) (Lvl := ℕ) embL () Variants.none Lv lvv (fun _ _ => rfl) ρ (outs m) (pdats m)
    (fun _ => 0) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rr c)
    (Pipeline.initEach Lv lvv fun c => by
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)
    (reg11 m) (fun _ => .rfl) (fun _ => .rfl)
    (reg12 m) (fun _ => .rfl) (fun _ => .rfl)
    (reg13 m) (fun _ => .rfl) (fun _ => .rfl)
    (reg14 m) (fun _ => .rfl) (fun _ => .rfl)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2.1, (h c).2.2.2.2.2.2.2.2.2.2.2.2.2.2.2.2.2.2.2.2.2.2.2.2.2.2.1⟩) (run m ρ)

end Cert.KernelIdeal.H

end
-- ==== Proof.Spec.lean ====
/-
  The mathematics of the two programs, over plain index types and the extended reals.

  One relation of the graph layer takes source features X (one row of 128 per source node), and per edge e a source
  node src e, a destination node dst e and a weight w e; destination d receives the sum over the edges into d of
  w e · X (src e), later divided by the number of such edges.  The reference computes this with a row gather and a
  scatter-add.  The kernel computes it with two one-hot matrix products over arrays padded to whole tiles:
  first, per edge, the sum over ALL source rows s of (w e if src e = s, else 0) · X s; then, per destination row d, the
  sum over ALL edges of (1 if dst e = d, else 0) · (that row).  Padded edges carry weight 0 and padded source rows
  are 0.  The two agree whenever every source index names a row of X.
-/
import Mathlib.Data.EReal.Operations
import Mathlib.Data.BitVec
import Mathlib.Algebra.BigOperators.Group.Finset.Basic

noncomputable section

namespace Cert.Spec

open scoped BigOperators

/-- A dense layer: y = x Wᵀ + b, at row r and column j. -/
def lin {N : Nat} (X : Fin N → Fin 128 → EReal) (W : Fin 128 → Fin 128 → EReal) (b : Fin 128 → EReal) :
    Fin N → Fin 128 → EReal :=
  fun r j => (∑ k : Fin 128, X r k * W j k) + b j

/-- Rows beyond the array's end are zero. -/
def padRows {N : Nat} (Np : Nat) (X : Fin N → Fin 128 → EReal) : Fin Np → Fin 128 → EReal :=
  fun s j => if h : s.val < N then X ⟨s.val, h⟩ j else 0

/-- Entries beyond the vector's end are `z`. -/
def pad1 {α : Type} {E : Nat} (Ep : Nat) (v : Fin E → α) (z : α) : Fin Ep → α :=
  fun e => if h : e.val < E then v ⟨e.val, h⟩ else z

/-- The kernel's first product: per edge, the one-hot weighted sum over all source rows. -/
def gat {E Np : Nat} (idx : Fin E → BitVec 32) (w : Fin E → EReal) (X : Fin Np → Fin 128 → EReal) :
    Fin E → Fin 128 → EReal :=
  fun e j => ∑ s : Fin Np, (if idx e = BitVec.ofNat 32 s.val then w e else 0) * X s j

/-- The kernel's second product: per destination row, the one-hot sum over all edges. -/
def sca {E Nd : Nat} (dst : Fin E → BitVec 32) (g : Fin E → Fin 128 → EReal) : Fin Nd → Fin 128 → EReal :=
  fun d j => ∑ e : Fin E, (if BitVec.ofNat 32 d.val = dst e then 1 else 0) * g e j

/-- The kernel's aggregate for one relation: pad, gather product, scatter product, keep the first `Nd` rows.
    (`Ep`, `Np`, `Ndp`: the padded edge count, source rows and destination rows.) -/
def aggK {E N Nd : Nat} (Ep Np Ndp : Nat) (hNd : Nd ≤ Ndp) (src dst : Fin E → BitVec 32) (w : Fin E → EReal)
    (X : Fin N → Fin 128 → EReal) : Fin Nd → Fin 128 → EReal :=
  fun d j => sca (Nd := Ndp) (pad1 Ep dst 0#32) (gat (pad1 Ep src 0#32) (pad1 Ep w 0) (padRows Np X)) ⟨d.val, lt_of_lt_of_le d.isLt hNd⟩ j

/-- The row a source index names, as jnp reads it: a negative index counts from the end, and the result is clamped
    into the table. -/
def rowOf (N : Nat) (i : BitVec 32) : Nat :=
  min (if i.toInt < 0 then i + BitVec.ofNat 32 N else i).toInt.toNat (N - 1)

/-- The reference's aggregate: the sum, over the edges whose destination index is d, of X (src e) · w e. -/
def aggR {E N Nd : Nat} (hN : 0 < N) (src dst : Fin E → BitVec 32) (w : Fin E → EReal)
    (X : Fin N → Fin 128 → EReal) : Fin Nd → Fin 128 → EReal :=
  fun d j => ∑ e ∈ Finset.univ.filter (fun e : Fin E => (dst e).toInt = (d.val : Int)),
    X ⟨rowOf N (src e), by unfold rowOf; omega⟩ j * w e

/-! ## The whole layer, for either program

The five relations: word→word (800000 edges), word→topic (400000), topic→topic (160000), word→doc (400000),
topic→doc (160000); 50000 word rows, 4000 topic rows, 20000 doc rows.  `dv` is the division the programs share. -/

/-- The argument arrays, read at their coordinates. -/
structure Inputs where
  hw : Fin 50000 → Fin 128 → EReal
  ht : Fin 4000 → Fin 128 → EReal
  Www : Fin 128 → Fin 128 → EReal
  bww : Fin 128 → EReal
  Wwt : Fin 128 → Fin 128 → EReal
  bwt : Fin 128 → EReal
  Wwd : Fin 128 → Fin 128 → EReal
  bwd : Fin 128 → EReal
  Wtd : Fin 128 → Fin 128 → EReal
  btd : Fin 128 → EReal
  Wtt : Fin 128 → Fin 128 → EReal
  btt : Fin 128 → EReal
  ww_src : Fin 800000 → BitVec 32
  ww_dst : Fin 800000 → BitVec 32
  ww_w : Fin 800000 → EReal
  wt_src : Fin 400000 → BitVec 32
  wt_dst : Fin 400000 → BitVec 32
  wt_w : Fin 400000 → EReal
  wd_src : Fin 400000 → BitVec 32
  wd_dst : Fin 400000 → BitVec 32
  wd_w : Fin 400000 → EReal
  td_src : Fin 160000 → BitVec 32
  td_dst : Fin 160000 → BitVec 32
  td_w : Fin 160000 → EReal
  tt_src : Fin 160000 → BitVec 32
  tt_dst : Fin 160000 → BitVec 32
  tt_w : Fin 160000 → EReal

/-- The five aggregations (sums over incoming edges, before the division by the edge count), each as an operator on
    the source features: the kernel's (`aggK`) or the reference's (`aggR`). -/
structure Aggs where
  ww : (Fin 50000 → Fin 128 → EReal) → Fin 50000 → Fin 128 → EReal
  wt : (Fin 50000 → Fin 128 → EReal) → Fin 4000 → Fin 128 → EReal
  tt : (Fin 4000 → Fin 128 → EReal) → Fin 4000 → Fin 128 → EReal
  wd : (Fin 50000 → Fin 128 → EReal) → Fin 20000 → Fin 128 → EReal
  td : (Fin 4000 → Fin 128 → EReal) → Fin 20000 → Fin 128 → EReal

/-- The number of edges into destination d, as both programs compute it (a scatter-add of ones into zeros). -/
def cnt {E : Nat} (Nd : Nat) (dst : Fin E → BitVec 32) : Fin Nd → EReal :=
  fun d => 0 + ∑ e ∈ Finset.univ.filter (fun e : Fin E => (dst e).toInt = (d.val : Int)), (1 : EReal)

section Model
variable (dv : EReal → EReal → EReal)

/-- The mean over incoming edges: the sum divided by max(count, 1). -/
def mean {Nd : Nat} (s : Fin Nd → Fin 128 → EReal) (c : Fin Nd → EReal) : Fin Nd → Fin 128 → EReal :=
  fun d j => dv (s d j) (max (c d) 1)

/-- The word features after the word→word step and the two word-side dense layers: the first result. -/
def word (I : Inputs) (A : Aggs) : Fin 50000 → Fin 128 → EReal :=
  lin (lin (mean dv (A.ww (lin I.hw I.Www I.bww)) (cnt 50000 I.ww_dst)) I.Wwt I.bwt) I.Wwd I.bwd

/-- The topic features after the two topic-side dense layers. -/
def topicF (I : Inputs) : Fin 4000 → Fin 128 → EReal :=
  lin (lin I.ht I.Wtd I.btd) I.Wtt I.btt

/-- The second result: what the topics receive from the words and from the topics. -/
def topic (I : Inputs) (A : Aggs) : Fin 4000 → Fin 128 → EReal :=
  fun d j => mean dv (A.wt (word dv I A)) (cnt 4000 I.wt_dst) d j + mean dv (A.tt (topicF I)) (cnt 4000 I.tt_dst) d j

/-- The third result: what the documents receive from the words and from the topics. -/
def doc (I : Inputs) (A : Aggs) : Fin 20000 → Fin 128 → EReal :=
  fun d j => mean dv (A.wd (word dv I A)) (cnt 20000 I.wd_dst) d j + mean dv (A.td (topicF I)) (cnt 20000 I.td_dst) d j

end Model

/-- The kernel's aggregations: one-hot products over arrays padded to 2048 edges, 1024 source rows, 1024 destination rows. -/
def aggsK (I : Inputs) : Aggs where
  ww := aggK 800768 50176 50176 (by decide) I.ww_src I.ww_dst I.ww_w
  wt := aggK 401408 50176 4096 (by decide) I.wt_src I.wt_dst I.wt_w
  tt := aggK 161792 4096 4096 (by decide) I.tt_src I.tt_dst I.tt_w
  wd := aggK 401408 50176 20480 (by decide) I.wd_src I.wd_dst I.wd_w
  td := aggK 161792 4096 20480 (by decide) I.td_src I.td_dst I.td_w

/-- The reference's aggregations: gather, weight, scatter-add. -/
def aggsR (I : Inputs) : Aggs where
  ww := aggR (by decide) I.ww_src I.ww_dst I.ww_w
  wt := aggR (by decide) I.wt_src I.wt_dst I.wt_w
  tt := aggR (by decide) I.tt_src I.tt_dst I.tt_w
  wd := aggR (by decide) I.wd_src I.wd_dst I.wd_w
  td := aggR (by decide) I.td_src I.td_dst I.td_w

/-- Every source index names a row of the table it indexes. -/
def SrcInRange (I : Inputs) : Prop :=
  (∀ e, 0 ≤ (I.ww_src e).toInt ∧ (I.ww_src e).toInt < 50000)
  ∧ (∀ e, 0 ≤ (I.wt_src e).toInt ∧ (I.wt_src e).toInt < 50000)
  ∧ (∀ e, 0 ≤ (I.wd_src e).toInt ∧ (I.wd_src e).toInt < 50000)
  ∧ (∀ e, 0 ≤ (I.td_src e).toInt ∧ (I.td_src e).toInt < 4000)
  ∧ (∀ e, 0 ≤ (I.tt_src e).toInt ∧ (I.tt_src e).toInt < 4000)

end Cert.Spec

end
-- ==== Proof.SpecIdx.lean ====
/-
  Arrays of the programs' literal shapes read at their coordinates: the bridge between an array (a function on a
  shape's indices) and the curried functions the mathematics of `Cert.Spec` is stated over.
-/
import proofs.«407232_j23192823399226_1_alg».proof.Proof.Spec
import Idealize.ShloMosaic.Lib.ValueIdx
import Idealize.ShloMosaic.PureOps.Ideal

noncomputable section

namespace Cert.Spec

open Idealize.ShloMosaic Idealize.ShloMosaic.ValueIdx

/-- A matrix read at (row, column). -/
def cur2 {α : Type} {A B : Nat} (x : (⟨2, ![A, B]⟩ : Shape).Idx → α) : Fin A → Fin B → α := fun r q => x (ix2 r q)
/-- A vector read at its coordinate. -/
def cur1 {α : Type} {A : Nat} (x : (⟨1, ![A]⟩ : Shape).Idx → α) : Fin A → α := fun r => x (ix1 r)
/-- The matrix whose entry (r, q) is `f r q`. -/
def unc2 {α : Type} {A B : Nat} (f : Fin A → Fin B → α) : (⟨2, ![A, B]⟩ : Shape).Idx → α := fun i => f (i 0) (i 1)

theorem unc2_ix2 {α : Type} {A B : Nat} (f : Fin A → Fin B → α) (r : Fin A) (q : Fin B) : unc2 f (ix2 r q) = f r q := rfl
theorem cur2_unc2 {α : Type} {A B : Nat} (f : Fin A → Fin B → α) : cur2 (unc2 f) = f := rfl
/-- Two matrices equal at every (row, column) are equal. -/
theorem ext2 {α : Type} {A B : Nat} (x y : (⟨2, ![A, B]⟩ : Shape).Idx → α) (h : ∀ r q, x (ix2 r q) = y (ix2 r q)) : x = y := by
  funext i
  obtain ⟨r, q, rfl⟩ : ∃ (r : Fin A) (q : Fin B), i = ix2 r q := ⟨i 0, i 1, eq_ix2 i⟩
  exact h r q

/-- The 27 argument arrays, at the ideal instance, as the inputs of the mathematics. -/
def inputsOf
    (a0 : (⟨2, ![50000, 128]⟩ : Shape).Idx → EReal) (a1 : (⟨2, ![4000, 128]⟩ : Shape).Idx → EReal)
    (a2 : (⟨2, ![128, 128]⟩ : Shape).Idx → EReal) (a3 : (⟨1, ![128]⟩ : Shape).Idx → EReal)
    (a4 : (⟨2, ![128, 128]⟩ : Shape).Idx → EReal) (a5 : (⟨1, ![128]⟩ : Shape).Idx → EReal)
    (a6 : (⟨2, ![128, 128]⟩ : Shape).Idx → EReal) (a7 : (⟨1, ![128]⟩ : Shape).Idx → EReal)
    (a8 : (⟨2, ![128, 128]⟩ : Shape).Idx → EReal) (a9 : (⟨1, ![128]⟩ : Shape).Idx → EReal)
    (a10 : (⟨2, ![128, 128]⟩ : Shape).Idx → EReal) (a11 : (⟨1, ![128]⟩ : Shape).Idx → EReal)
    (a12 a13 : (⟨1, ![800000]⟩ : Shape).Idx → BitVec 32) (a14 : (⟨1, ![800000]⟩ : Shape).Idx → EReal)
    (a15 a16 : (⟨1, ![400000]⟩ : Shape).Idx → BitVec 32) (a17 : (⟨1, ![400000]⟩ : Shape).Idx → EReal)
    (a18 a19 : (⟨1, ![400000]⟩ : Shape).Idx → BitVec 32) (a20 : (⟨1, ![400000]⟩ : Shape).Idx → EReal)
    (a21 a22 : (⟨1, ![160000]⟩ : Shape).Idx → BitVec 32) (a23 : (⟨1, ![160000]⟩ : Shape).Idx → EReal)
    (a24 a25 : (⟨1, ![160000]⟩ : Shape).Idx → BitVec 32) (a26 : (⟨1, ![160000]⟩ : Shape).Idx → EReal) : Inputs where
  hw := cur2 a0
  ht := cur2 a1
  Www := cur2 a2
  bww := cur1 a3
  Wwt := cur2 a4
  bwt := cur1 a5
  Wwd := cur2 a6
  bwd := cur1 a7
  Wtd := cur2 a8
  btd := cur1 a9
  Wtt := cur2 a10
  btt := cur1 a11
  ww_src := cur1 a12
  ww_dst := cur1 a13
  ww_w := cur1 a14
  wt_src := cur1 a15
  wt_dst := cur1 a16
  wt_w := cur1 a17
  wd_src := cur1 a18
  wd_dst := cur1 a19
  wd_w := cur1 a20
  td_src := cur1 a21
  td_dst := cur1 a22
  td_w := cur1 a23
  tt_src := cur1 a24
  tt_dst := cur1 a25
  tt_w := cur1 a26

end Cert.Spec

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.LibRowScatter.lean ====
/-
  GENERAL LEMMA (no program imported): a scatter with an add body that accumulates update rows (or update words) into
  a table, read at an element.

  For a table [N, D], a column of n indices (start indices [n, 1], the index vector on axis 1) and updates [n, D],
  the table's row axis inserted and start-indexed and its column axis the updates' window axis, the scatter-add's
  result at (r, q) is the table's entry there plus the sum of the updates' entries (p, q) over the rows p whose index,
  read signed, is r (\`scatterAdd_rows_apply\`). An index outside [0, N) names no row: nothing is clamped, and such an
  update row is dropped. The rank-1 case — a table [N], updates [n], no window axis — is \`scatterAdd_vec_apply\`.

  Both rest on \`resultIdx?_eq_some_iff\`: an update index lands on the operand index i exactly when, on every operand
  axis, the signed start plus the window coordinate is i's coordinate.
-/
import Idealize.ShloMosaic.PureOps.ShapeOps
import Idealize.ShloMosaic.PureOps.Ideal
import Idealize.ShloMosaic.Lib.ValueIdx
import Mathlib.Algebra.BigOperators.Group.Finset.Defs
import Mathlib.Algebra.BigOperators.Group.Finset.Basic
import Mathlib.Algebra.BigOperators.Group.Finset.Piecewise

noncomputable section

open scoped BigOperators

namespace Cert.LibRowScatter

open Idealize.ShloMosaic Idealize.ShloMosaic.ValueIdx

/-- An update index lands on the operand index \`i\` exactly when on every operand axis the start (read signed, not
    clamped) plus the window coordinate is \`i\`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro he a
      have hi := congrFun (Option.some.inj he) a
      have hv : (d.start j idx a + (d.window j a : Int)).toNat = (i a).val := congrArg Fin.val hi
      have := (h a).1
      omega
    · intro he
      refine congrArg some (funext fun a => Fin.ext ?_)
      show (d.start j idx a + (d.window j a : Int)).toNat = (i a).val
      rw [he a]; rfl
  · rw [dif_neg h]
    constructor
    · intro he; cases he
    · intro he
      exact absurd (fun a => by
        have := (i a).isLt
        rw [he a]; constructor <;> omega) h

/-! ## Rows of a matrix -/

/-- The dimension numbers of a row scatter for a table [N, D], scatter indices [n, 1] and updates [n, D]: the updates'
    axis 1 is the window axis, the table's axis 0 is inserted and is the axis the one index component addresses, the
    index vector lies on axis 1 of the scatter indices. `wf` is their well-formedness, a decidable fact of N, D, n. -/
abbrev rowScatterDims (N D n : Nat)
    (wf : ScatterDims.WF ⟨2, ![N, D]⟩ ⟨2, ![n, 1]⟩ ⟨2, ![n, D]⟩ [1] [0] [0] 1) :
    ScatterDims ⟨2, ![N, D]⟩ ⟨2, ![n, 1]⟩ ⟨2, ![n, D]⟩ where
  updateWindowDims := [1]
  insertedWindowDims := [0]
  scatterDimsToOperandDims := [0]
  indexVectorDim := 1
  wf := wf

section Rows
variable {N D n w : Nat} (wf : ScatterDims.WF ⟨2, ![N, D]⟩ ⟨2, ![n, 1]⟩ ⟨2, ![n, D]⟩ [1] [0] [0] 1)

/-- On the row axis the window starts at the signed index of the update's row. -/
theorem rows_start0 (idx : IVec ⟨2, ![n, 1]⟩ w) (p : Fin n) (q' : Fin D) :
    (rowScatterDims N D n wf).start (ix2 p q') idx 0 = (idx (ix2 p (0 : Fin 1))).toInt := by
  unfold ScatterDims.start
  rw [dif_pos (show (0 : Fin 2) ∈ (rowScatterDims N D n wf).scatterDimsToOperandDims from List.mem_singleton.mpr rfl)]
  have hsi : (rowScatterDims N D n wf).siIdx (ix2 p q')
      ⟨List.idxOf (0 : Fin 2) (rowScatterDims N D n wf).scatterDimsToOperandDims,
        List.idxOf_lt_length_iff.2 (List.mem_singleton.mpr rfl)⟩
      = ix2 p (0 : Fin 1) := funext fun b => Fin.ext (by
    match b with
    | ⟨0, _⟩ => rfl
    | ⟨1, _⟩ => rfl)
  rw [hsi]

/-- On the column axis the window starts at 0. -/
theorem rows_start1 (idx : IVec ⟨2, ![n, 1]⟩ w) (p : Fin n) (q' : Fin D) :
    (rowScatterDims N D n wf).start (ix2 p q') idx 1 = 0 := by
  unfold ScatterDims.start
  rw [dif_neg (show (1 : Fin 2) ∉ (rowScatterDims N D n wf).scatterDimsToOperandDims from by
    show (1 : Fin 2) ∉ ([0] : List (Fin 2)); decide)]

/-- The row axis is inserted: no window coordinate. -/
theorem rows_window0 (p : Fin n) (q' : Fin D) : (rowScatterDims N D n wf).window (ix2 p q') 0 = 0 := by
  unfold ScatterDims.window
  rw [dif_neg (show (0 : Fin 2) ∉ (rowScatterDims N D n wf).sKept from by
    show (0 : Fin 2) ∉ ([1] : List (Fin 2)); decide)]

/-- The column axis carries the update's column. -/
theorem rows_window1 (p : Fin n) (q' : Fin D) : (rowScatterDims N D n wf).window (ix2 p q') 1 = q'.val := by
  unfold ScatterDims.window
  rw [dif_pos (show (1 : Fin 2) ∈ (rowScatterDims N D n wf).sKept from by
    show (1 : Fin 2) ∈ ([1] : List (Fin 2)); decide)]
  rfl

/-- The update element (p, q') lands on (r, q) exactly when row p's signed index is r and q' = q. -/
theorem resultIdx?_rows (idx : IVec ⟨2, ![n, 1]⟩ w) (p : Fin n) (q' : Fin D) (r : Fin N) (q : Fin D) :
    (rowScatterDims N D n wf).resultIdx? (ix2 p q') idx = some (ix2 r q)
      ↔ (idx (ix2 p (0 : Fin 1))).toInt = (r.val : Int) ∧ q' = q := by
  rw [resultIdx?_eq_some_iff, Fin.forall_fin_two, rows_start0, rows_start1, rows_window0, rows_window1]
  show (idx (ix2 p (0 : Fin 1))).toInt + ((0 : Nat) : Int) = (r.val : Int) ∧ (0 : Int) + (q'.val : Int) = (q.val : Int) ↔ _
  constructor
  · rintro ⟨h0, h1⟩
    exact ⟨by omega, Fin.ext (by omega)⟩
  · rintro ⟨h0, h1⟩
    subst h1
    exact ⟨by omega, by omega⟩

/-- THE ROW SCATTER-ADD READ AT (r, q): the table's entry plus the updates' entries in column q of the rows whose
    signed index is r. -/
theorem scatterAdd_rows_apply (x : (⟨2, ![N, D]⟩ : Shape).Idx → EReal) (idx : IVec ⟨2, ![n, 1]⟩ w)
    (upd : (⟨2, ![n, D]⟩ : Shape).Idx → EReal) (r : Fin N) (q : Fin D) :
    Ideal.hostScatterAdd (rowScatterDims N D n wf) x idx upd (ix2 r q)
      = x (ix2 r q) + ∑ p ∈ Finset.univ.filter (fun p : Fin n => (idx (ix2 p (0 : Fin 1))).toInt = (r.val : Int)),
          upd (ix2 p q) := by
  unfold Ideal.hostScatterAdd
  congr 1
  rw [Finset.sum_filter, sum_idx2, Finset.sum_filter]
  refine Finset.sum_congr rfl fun p _ => ?_
  simp only [resultIdx?_rows]
  by_cases hr : (idx (ix2 p (0 : Fin 1))).toInt = (r.val : Int)
  · simp only [hr, true_and, if_true]
    rw [Finset.sum_ite_eq' Finset.univ q (fun c => upd (ix2 p c)), if_pos (Finset.mem_univ q)]
  · simp only [hr, false_and, if_false]
    exact Finset.sum_const_zero

end Rows

/-! ## Words of a vector -/

/-- The dimension numbers of a word scatter for a table [N], scatter indices [n, 1] and updates [n]: the updates have
    no window axis, the table's one axis is inserted and is the axis the one index component addresses, the index
    vector lies on axis 1 of the scatter indices. \`wf\` is their well-formedness, a decidable fact of N, n. -/
abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

/-- The window starts at the signed index of the update. -/
theorem vec_start0 (idx : IVec ⟨2, ![n, 1]⟩ w) (p : Fin n) :
    (vecScatterDims N n wf).start (ix1 p) idx 0 = (idx (ix2 p (0 : Fin 1))).toInt := by
  unfold ScatterDims.start
  rw [dif_pos (show (0 : Fin 1) ∈ (vecScatterDims N n wf).scatterDimsToOperandDims from List.mem_singleton.mpr rfl)]
  have hsi : (vecScatterDims N n wf).siIdx (ix1 p)
      ⟨List.idxOf (0 : Fin 1) (vecScatterDims N n wf).scatterDimsToOperandDims,
        List.idxOf_lt_length_iff.2 (List.mem_singleton.mpr rfl)⟩
      = ix2 p (0 : Fin 1) := funext fun b => Fin.ext (by
    match b with
    | ⟨0, _⟩ => rfl
    | ⟨1, _⟩ => rfl)
  rw [hsi]

/-- The one axis is inserted: no window coordinate. -/
theorem vec_window0 (p : Fin n) : (vecScatterDims N n wf).window (ix1 p) 0 = 0 := by
  unfold ScatterDims.window
  rw [dif_neg (show (0 : Fin 1) ∉ (vecScatterDims N n wf).sKept from by
    show (0 : Fin 1) ∉ ([] : List (Fin 1)); decide)]

/-- The update word p lands on r exactly when its signed index is r. -/
theorem resultIdx?_vec (idx : IVec ⟨2, ![n, 1]⟩ w) (p : Fin n) (r : Fin N) :
    (vecScatterDims N n wf).resultIdx? (ix1 p) idx = some (ix1 r)
      ↔ (idx (ix2 p (0 : Fin 1))).toInt = (r.val : Int) := by
  rw [resultIdx?_eq_some_iff, Fin.forall_fin_one, vec_start0, vec_window0]
  show (idx (ix2 p (0 : Fin 1))).toInt + ((0 : Nat) : Int) = (r.val : Int) ↔ _
  constructor <;> intro h <;> omega

/-- A rank-1 index set is its one coordinate's range. -/
def idxEquiv1 {m : Nat} : (⟨1, ![m]⟩ : Shape).Idx ≃ Fin m where
  toFun i := i 0
  invFun p := ix1 p
  left_inv i := (eq_ix1 i).symm
  right_inv _ := rfl

/-- THE WORD SCATTER-ADD READ AT r: the table's word plus the update words whose signed index is r. -/
theorem scatterAdd_vec_apply (x : (⟨1, ![N]⟩ : Shape).Idx → EReal) (idx : IVec ⟨2, ![n, 1]⟩ w)
    (upd : (⟨1, ![n]⟩ : Shape).Idx → EReal) (r : Fin N) :
    Ideal.hostScatterAdd (vecScatterDims N n wf) x idx upd (ix1 r)
      = x (ix1 r) + ∑ p ∈ Finset.univ.filter (fun p : Fin n => (idx (ix2 p (0 : Fin 1))).toInt = (r.val : Int)),
          upd (ix1 p) := by
  unfold Ideal.hostScatterAdd
  congr 1
  rw [Finset.sum_filter, Finset.sum_filter, ← Equiv.sum_comp (idxEquiv1 (m := n)).symm]
  refine Finset.sum_congr rfl fun p _ => ?_
  show (if (vecScatterDims N n wf).resultIdx? (ix1 p) idx = some (ix1 r) then upd (ix1 p) else 0) = _
  simp only [resultIdx?_vec]

end Vec

end Cert.LibRowScatter

end
-- ==== Proof.RefValueOps.lean ====
/-
  The reference's operations, read at an element, over tables and edge lists of any size.

  One relation of the graph layer, as jnp writes it: the source index of every edge is wrapped (a negative index counts from
  the end), the source rows are gathered (the index clamped into the table), every gathered row is multiplied by its edge's
  weight, and the rows are scatter-added into a zero table by destination index; the edge count is a scatter-add of ones into
  zeros, and the mean is the quotient by max(count, 1), the count broadcast along the row.  Here each of these is read at one
  element and identified with the sums of `Cert.Spec`: the aggregate is `Spec.aggR`, the count is `Spec.cnt`, the quotient is
  `Spec.mean` at the extended reals' division.
-/
import proofs.«407232_j23192823399226_1_alg».proof.Proof.SpecIdx
import proofs.«407232_j23192823399226_1_alg».proof.Proof.LibRowGather
import proofs.«407232_j23192823399226_1_alg».proof.Proof.LibRowScatter
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.ValueIdx Cert.Spec Cert.LibRowGather Cert.LibRowScatter

/-! ## Broadcasts read at an element -/

/-- A broadcast scalar reads its one value everywhere. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector made a column: entry (p, 0) is the vector's entry p. -/
theorem bcast_col_apply {α : Type} {E : Nat}
    (h : (⟨1, ![E]⟩ : Shape).BroadcastsInDim ⟨2, ![E, 1]⟩ ![0])
    (x : (⟨1, ![E]⟩ : Shape).Idx → α) (p : Fin E) (z : Fin 1) :
    broadcastInDim (⟨2, ![E, 1]⟩ : Shape) ![0] h x (ix2 p z) = x (ix1 p) :=
  broadcastInDim_apply _ h x (ix2 p z) (ix1 p) (fun a => match a with
    | ⟨0, _⟩ => by
      show p.val = if E = 1 then 0 else p.val
      have := p.isLt
      split_ifs <;> omega)

/-- A column repeated along the row: entry (p, q) is the column's entry (p, 0). -/
theorem bcast_cols_apply {α : Type} {E D : Nat}
    (h : (⟨2, ![E, 1]⟩ : Shape).BroadcastsInDim ⟨2, ![E, D]⟩ ![0, 1])
    (x : (⟨2, ![E, 1]⟩ : Shape).Idx → α) (p : Fin E) (q : Fin D) :
    broadcastInDim (⟨2, ![E, D]⟩ : Shape) ![0, 1] h x (ix2 p q) = x (ix2 p (0 : Fin 1)) :=
  broadcastInDim_apply _ h x (ix2 p q) (ix2 p (0 : Fin 1)) (fun a => match a with
    | ⟨0, _⟩ => by
      show p.val = if E = 1 then 0 else p.val
      have := p.isLt
      split_ifs <;> omega
    | ⟨1, _⟩ => by
      show (0 : Nat) = if (1 : Nat) = 1 then 0 else q.val
      rw [if_pos rfl])

/-! ## The wrapped and clamped source row -/

/-- A signed comparison with zero, selected on: the `if` on the sign. -/
theorem select_slt_zero {α : Type} (a : BitVec 32) (x y : α) :
    Scalar.select (IntOp.cmpi .slt a 0#32) x y = if a.toInt < 0 then x else y := by
  unfold Scalar.select IntOp.cmpi
  by_cases h : a.toInt < 0
  · have hs : a.slt 0#32 = true := by simp [BitVec.slt, h]
    rw [if_pos h, hs]; rfl
  · have hs : a.slt 0#32 = false := by simp [BitVec.slt, h]
    rw [if_neg h, hs]; rfl

/-- jnp's row for a source index: wrapped when negative, then clamped into the table, is `Spec.rowOf`. -/
theorem wrapped_row (N : Nat) (a : BitVec 32) :
    min (Scalar.select (IntOp.cmpi .slt a 0#32) (IntOp.addi a (BitVec.ofNat 32 N)) a).toInt.toNat (N - 1) = rowOf N a := by
  rw [select_slt_zero]; rfl

/-! ## One relation's sum, count and mean -/

/-- One relation's sum at (d, j): the scatter-add, by destination index, of the gathered source rows times the edge
    weights, into a zero table, is the sum over the edges into d of X (row of src e) j · w e. -/
theorem agg_apply {N E Nd : Nat} (hN : 0 < N)
    (wfG : GatherDims.WF ⟨2, ![N, 128]⟩ ⟨2, ![E, 1]⟩ ⟨2, ![E, 128]⟩ [1] [0] [] [0] [] 1 ![1, 128])
    (wfS : ScatterDims.WF ⟨2, ![Nd, 128]⟩ ⟨2, ![E, 1]⟩ ⟨2, ![E, 128]⟩ [1] [0] [0] 1)
    (hz : (⟨0, ![]⟩ : Shape).BroadcastsInDim ⟨2, ![Nd, 128]⟩ ![])
    (hc : (⟨0, ![]⟩ : Shape).BroadcastsInDim ⟨1, ![E]⟩ ![])
    (h1 : (⟨1, ![E]⟩ : Shape).BroadcastsInDim ⟨2, ![E, 1]⟩ ![0])
    (h2 : (⟨2, ![E, 1]⟩ : Shape).BroadcastsInDim ⟨2, ![E, 128]⟩ ![0, 1])
    (X : (⟨2, ![N, 128]⟩ : Shape).Idx → EReal) (src dst : (⟨1, ![E]⟩ : Shape).Idx → BitVec 32)
    (w : (⟨1, ![E]⟩ : Shape).Idx → EReal) (d : Fin Nd) (j : Fin 128) :
    Ideal.hostScatterAdd (rowScatterDims Nd 128 E wfS)
      (broadcastInDim (⟨2, ![Nd, 128]⟩ : Shape) ![] hz (constant (F := Ideal) ⟨0, ![]⟩ .f32 0x00000000#32))
      (broadcastInDim (⟨2, ![E, 1]⟩ : Shape) ![0] h1 dst)
      (mulf (F := Ideal) (φ := .f32) (Host.gather (rowGatherDims N 128 E wfG) X
          (broadcastInDim (⟨2, ![E, 1]⟩ : Shape) ![0] h1
            (select (cmpi .slt src (broadcastInDim (⟨1, ![E]⟩ : Shape) ![] hc (constantI ⟨0, ![]⟩ 32 0#32)))
              (addi src (broadcastInDim (⟨1, ![E]⟩ : Shape) ![] hc (constantI ⟨0, ![]⟩ 32 (BitVec.ofNat 32 N)))) src)))
        (broadcastInDim (⟨2, ![E, 128]⟩ : Shape) ![0, 1] h2 (broadcastInDim (⟨2, ![E, 1]⟩ : Shape) ![0] h1 w)))
      (ix2 d j)
    = aggR hN (cur1 src) (cur1 dst) (cur1 w) (cur2 X) d j := by
  have hidx : ∀ p : Fin E, broadcastInDim (⟨2, ![E, 1]⟩ : Shape) ![0] h1 dst (ix2 p (0 : Fin 1)) = dst (ix1 p) :=
    fun p => bcast_col_apply h1 dst p 0
  rw [scatterAdd_rows_apply, bcast_scalar_apply]
  simp only [hidx]
  show Ideal.ofBits .f32 0x00000000#32 + _ = _
  rw [Ideal.ofBits_zero_f32, zero_add]
  unfold aggR
  refine Finset.sum_congr rfl fun e _ => ?_
  show Host.gather (rowGatherDims N 128 E wfG) X _ (ix2 e j) * broadcastInDim (s := (⟨2, ![E, 1]⟩ : Shape)) (⟨2, ![E, 128]⟩ : Shape) ![0, 1] h2 _ (ix2 e j) = _
  rw [gather_rows_apply hN, bcast_cols_apply]
  show _ = X (ix2 ⟨rowOf N (src (ix1 e)), _⟩ j) * w (ix1 e)
  refine congrArg₂ (· * ·) (congrArg X (congrArg (fun r => ix2 r j) (Fin.ext ?_))) (bcast_col_apply h1 w e 0)
  show min (BitVec.toInt (broadcastInDim (s := (⟨1, ![E]⟩ : Shape)) (α := BitVec 32) (⟨2, ![E, 1]⟩ : Shape) ![0] h1 _ (ix2 e (0 : Fin 1)))).toNat (N - 1) = rowOf N (src (ix1 e))
  rw [bcast_col_apply]
  show min (Scalar.select (IntOp.cmpi .slt (src (ix1 e)) (broadcastInDim (⟨1, ![E]⟩ : Shape) ![] hc (constantI ⟨0, ![]⟩ 32 0#32) (ix1 e)))
      (IntOp.addi (src (ix1 e)) (broadcastInDim (⟨1, ![E]⟩ : Shape) ![] hc (constantI ⟨0, ![]⟩ 32 (BitVec.ofNat 32 N)) (ix1 e))) (src (ix1 e))).toInt.toNat (N - 1) = rowOf N (src (ix1 e))
  rw [bcast_scalar_apply, bcast_scalar_apply]
  exact wrapped_row N (src (ix1 e))

/-- The number of edges into d: a scatter-add of ones into zeros by destination index is `Spec.cnt`. -/
theorem cnt_apply {E Nd : Nat}
    (wfS : ScatterDims.WF ⟨1, ![Nd]⟩ ⟨2, ![E, 1]⟩ ⟨1, ![E]⟩ [] [0] [0] 1)
    (hz : (⟨0, ![]⟩ : Shape).BroadcastsInDim ⟨1, ![Nd]⟩ ![])
    (hc : (⟨0, ![]⟩ : Shape).BroadcastsInDim ⟨1, ![E]⟩ ![])
    (h1 : (⟨1, ![E]⟩ : Shape).BroadcastsInDim ⟨2, ![E, 1]⟩ ![0])
    (dst : (⟨1, ![E]⟩ : Shape).Idx → BitVec 32) (d : Fin Nd) :
    Ideal.hostScatterAdd (vecScatterDims Nd E wfS)
      (broadcastInDim (⟨1, ![Nd]⟩ : Shape) ![] hz (constant (F := Ideal) ⟨0, ![]⟩ .f32 0x00000000#32))
      (broadcastInDim (⟨2, ![E, 1]⟩ : Shape) ![0] h1 dst)
      (broadcastInDim (⟨1, ![E]⟩ : Shape) ![] hc (constant (F := Ideal) ⟨0, ![]⟩ .f32 0x3F800000#32))
      (ix1 d)
    = cnt Nd (cur1 dst) d := by
  have hidx : ∀ p : Fin E, broadcastInDim (⟨2, ![E, 1]⟩ : Shape) ![0] h1 dst (ix2 p (0 : Fin 1)) = dst (ix1 p) :=
    fun p => bcast_col_apply h1 dst p 0
  rw [scatterAdd_vec_apply, bcast_scalar_apply]
  simp only [hidx, bcast_scalar_apply]
  show Ideal.ofBits .f32 0x00000000#32 + ∑ p ∈ _, Ideal.ofBits .f32 0x3F800000#32 = _
  rw [Ideal.ofBits_zero_f32, Ideal.ofBits_one_f32]
  rfl

/-- The mean at (d, j): the quotient by the count, raised to at least one and repeated along the row, is `Spec.mean` at the
    extended reals' division. -/
theorem mean_apply {Nd : Nat}
    (hc : (⟨0, ![]⟩ : Shape).BroadcastsInDim ⟨1, ![Nd]⟩ ![])
    (h1 : (⟨1, ![Nd]⟩ : Shape).BroadcastsInDim ⟨2, ![Nd, 1]⟩ ![0])
    (h2 : (⟨2, ![Nd, 1]⟩ : Shape).BroadcastsInDim ⟨2, ![Nd, 128]⟩ ![0, 1])
    (S : (⟨2, ![Nd, 128]⟩ : Shape).Idx → EReal) (c : (⟨1, ![Nd]⟩ : Shape).Idx → EReal) (d : Fin Nd) (j : Fin 128) :
    Host.divf (F := Ideal) (φ := .f32) S
      (broadcastInDim (⟨2, ![Nd, 128]⟩ : Shape) ![0, 1] h2 (broadcastInDim (⟨2, ![Nd, 1]⟩ : Shape) ![0] h1
        (maximumf (F := Ideal) (φ := .f32) c
          (broadcastInDim (⟨1, ![Nd]⟩ : Shape) ![] hc (constant (F := Ideal) ⟨0, ![]⟩ .f32 0x3F800000#32)))))
      (ix2 d j)
    = mean Ideal.div (cur2 S) (cur1 c) d j := by
  show Ideal.div (S (ix2 d j)) (broadcastInDim (s := (⟨2, ![Nd, 1]⟩ : Shape)) (⟨2, ![Nd, 128]⟩ : Shape) ![0, 1] h2 _ (ix2 d j)) = _
  rw [bcast_cols_apply, bcast_col_apply]
  show Ideal.div (S (ix2 d j)) (max (c (ix1 d)) (broadcastInDim (s := (⟨0, ![]⟩ : Shape)) (⟨1, ![Nd]⟩ : Shape) ![] hc _ (ix1 d))) = _
  rw [bcast_scalar_apply]
  show Ideal.div (S (ix2 d j)) (max (c (ix1 d)) (Ideal.ofBits .f32 0x3F800000#32)) = _
  rw [Ideal.ofBits_one_f32]
  rfl

/-! ## The same, as whole arrays -/

/-- The vector whose entry r is `f r`. -/
def unc1 {α : Type} {A : Nat} (f : Fin A → α) : (⟨1, ![A]⟩ : Shape).Idx → α := fun i => f (i 0)

theorem cur1_unc1 {α : Type} {A : Nat} (f : Fin A → α) : cur1 (unc1 f) = f := rfl

/-- One relation's sum, as an array, is `Spec.aggR` of the arrays read at their coordinates. -/
theorem agg_eq {N E Nd : Nat} (hN : 0 < N)
    (wfG : GatherDims.WF ⟨2, ![N, 128]⟩ ⟨2, ![E, 1]⟩ ⟨2, ![E, 128]⟩ [1] [0] [] [0] [] 1 ![1, 128])
    (wfS : ScatterDims.WF ⟨2, ![Nd, 128]⟩ ⟨2, ![E, 1]⟩ ⟨2, ![E, 128]⟩ [1] [0] [0] 1)
    (hz : (⟨0, ![]⟩ : Shape).BroadcastsInDim ⟨2, ![Nd, 128]⟩ ![])
    (hc : (⟨0, ![]⟩ : Shape).BroadcastsInDim ⟨1, ![E]⟩ ![])
    (h1 : (⟨1, ![E]⟩ : Shape).BroadcastsInDim ⟨2, ![E, 1]⟩ ![0])
    (h2 : (⟨2, ![E, 1]⟩ : Shape).BroadcastsInDim ⟨2, ![E, 128]⟩ ![0, 1])
    (X : (⟨2, ![N, 128]⟩ : Shape).Idx → EReal) (src dst : (⟨1, ![E]⟩ : Shape).Idx → BitVec 32)
    (w : (⟨1, ![E]⟩ : Shape).Idx → EReal) :
    Ideal.hostScatterAdd (rowScatterDims Nd 128 E wfS)
      (broadcastInDim (⟨2, ![Nd, 128]⟩ : Shape) ![] hz (constant (F := Ideal) ⟨0, ![]⟩ .f32 0x00000000#32))
      (broadcastInDim (⟨2, ![E, 1]⟩ : Shape) ![0] h1 dst)
      (mulf (F := Ideal) (φ := .f32) (Host.gather (rowGatherDims N 128 E wfG) X
          (broadcastInDim (⟨2, ![E, 1]⟩ : Shape) ![0] h1
            (select (cmpi .slt src (broadcastInDim (⟨1, ![E]⟩ : Shape) ![] hc (constantI ⟨0, ![]⟩ 32 0#32)))
              (addi src (broadcastInDim (⟨1, ![E]⟩ : Shape) ![] hc (constantI ⟨0, ![]⟩ 32 (BitVec.ofNat 32 N)))) src)))
        (broadcastInDim (⟨2, ![E, 128]⟩ : Shape) ![0, 1] h2 (broadcastInDim (⟨2, ![E, 1]⟩ : Shape) ![0] h1 w)))
    = unc2 (aggR hN (cur1 src) (cur1 dst) (cur1 w) (cur2 X)) :=
  ext2 _ _ fun d j => agg_apply hN wfG wfS hz hc h1 h2 X src dst w d j

/-- The edge counts, as an array, are `Spec.cnt`. -/
theorem cnt_eq {E Nd : Nat}
    (wfS : ScatterDims.WF ⟨1, ![Nd]⟩ ⟨2, ![E, 1]⟩ ⟨1, ![E]⟩ [] [0] [0] 1)
    (hz : (⟨0, ![]⟩ : Shape).BroadcastsInDim ⟨1, ![Nd]⟩ ![])
    (hc : (⟨0, ![]⟩ : Shape).BroadcastsInDim ⟨1, ![E]⟩ ![])
    (h1 : (⟨1, ![E]⟩ : Shape).BroadcastsInDim ⟨2, ![E, 1]⟩ ![0])
    (dst : (⟨1, ![E]⟩ : Shape).Idx → BitVec 32) :
    Ideal.hostScatterAdd (vecScatterDims Nd E wfS)
      (broadcastInDim (⟨1, ![Nd]⟩ : Shape) ![] hz (constant (F := Ideal) ⟨0, ![]⟩ .f32 0x00000000#32))
      (broadcastInDim (⟨2, ![E, 1]⟩ : Shape) ![0] h1 dst)
      (broadcastInDim (⟨1, ![E]⟩ : Shape) ![] hc (constant (F := Ideal) ⟨0, ![]⟩ .f32 0x3F800000#32))
    = unc1 (cnt Nd (cur1 dst)) := by
  funext i
  obtain ⟨d, rfl⟩ : ∃ d : Fin Nd, i = ix1 d := ⟨i 0, eq_ix1 i⟩
  exact cnt_apply wfS hz hc h1 dst d

/-- The mean, as an array, is `Spec.mean` at the extended reals' division. -/
theorem mean_eq {Nd : Nat}
    (hc : (⟨0, ![]⟩ : Shape).BroadcastsInDim ⟨1, ![Nd]⟩ ![])
    (h1 : (⟨1, ![Nd]⟩ : Shape).BroadcastsInDim ⟨2, ![Nd, 1]⟩ ![0])
    (h2 : (⟨2, ![Nd, 1]⟩ : Shape).BroadcastsInDim ⟨2, ![Nd, 128]⟩ ![0, 1])
    (S : (⟨2, ![Nd, 128]⟩ : Shape).Idx → EReal) (c : (⟨1, ![Nd]⟩ : Shape).Idx → EReal) :
    Host.divf (F := Ideal) (φ := .f32) S
      (broadcastInDim (⟨2, ![Nd, 128]⟩ : Shape) ![0, 1] h2 (broadcastInDim (⟨2, ![Nd, 1]⟩ : Shape) ![0] h1
        (maximumf (F := Ideal) (φ := .f32) c
          (broadcastInDim (⟨1, ![Nd]⟩ : Shape) ![] hc (constant (F := Ideal) ⟨0, ![]⟩ .f32 0x3F800000#32)))))
    = unc2 (mean Ideal.div (cur2 S) (cur1 c)) :=
  ext2 _ _ fun d j => mean_apply hc h1 h2 S c d j

end Cert.ReferenceIdeal.RefValue

end
-- ==== Proof.KI.HostLib.lean ====
/-
  The host operations between the kernel regions, read in the vocabulary of the shared mathematics, over tables and
  edge lists of any size: a table padded with zero rows is `Spec.padRows`, an edge vector padded with a constant is
  `Spec.pad1`, the leading rows of a padded table are its rows below the cut, and the mean over incoming edges — the
  quotient by the edge count raised to at least one — is `Spec.mean` of those rows and `Spec.cnt`.
-/
import proofs.«407232_j23192823399226_1_alg».proof.Proof.SpecIdx
import proofs.«407232_j23192823399226_1_alg».proof.Proof.RefValueOps
import Idealize.ShloMosaic.Lib.KernelVsHost
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.H

open Idealize.ShloMosaic Idealize.ShloMosaic.ValueIdx
open Cert.Spec Cert.LibRowScatter
open Cert.ReferenceIdeal.RefValue (cnt_eq mean_eq unc1 cur1_unc1)

/-! ## Padding -/

/-- The integer zero, converted: the padding value of a float table is zero at its one index. -/
theorem sitofp_zero_at (i : (⟨0, ![]⟩ : Shape).Idx) :
    (sitofp (F := Ideal) .f32 (constantI ⟨0, ![]⟩ 32 0#32) : (⟨0, ![]⟩ : Shape).Idx → EReal) i = 0 :=
  sitofp_zero (φ := .f32)

/-- A table padded below with rows of a value that is zero is the table with zero rows beyond its end. -/
theorem pad_rows_eq {N Np : Nat} (hi : Fin 2 → Nat) (x : (⟨2, ![N, 128]⟩ : Shape).Idx → EReal) {u : Shape} (v : u.Idx → EReal)
    (h : (⟨2, ![N, 128]⟩ : Shape).Pads ![0, 0] hi ![0, 0] ⟨2, ![Np, 128]⟩) (hu : 0 < u.numel) (hv : ∀ i, v i = 0) :
    pad ⟨2, ![Np, 128]⟩ ![0, 0] hi ![0, 0] x v h hu = unc2 (padRows Np (cur2 x)) := by
  refine ext2 _ _ fun s q => ?_
  show _ = padRows Np (cur2 x) s q
  unfold padRows
  by_cases hs : s.val < N
  · rw [dif_pos hs]
    exact pad_apply_of_inside ![0, 0] hi ![0, 0] x v h hu (ix2 s q) (ix2 ⟨s.val, hs⟩ q) (fun a => match a with
      | ⟨0, _⟩ => by show s.val = 0 + s.val * (0 + 1); omega
      | ⟨1, _⟩ => by show q.val = 0 + q.val * (0 + 1); omega)
  · rw [dif_neg hs]
    refine (pad_apply_of_not_inside ![0, 0] hi ![0, 0] x v h hu (ix2 s q) (0 : Fin 2) ?_).trans (hv _)
    show ¬(0 ≤ s.val ∧ (s.val - 0) % (0 + 1) = 0 ∧ (s.val - 0) / (0 + 1) < N)
    omega

/-- A vector padded at its end with a value `z` is the vector with `z` beyond its end. -/
theorem pad_vec_eq {α : Type} {E Ep : Nat} (hi : Fin 1 → Nat) (x : (⟨1, ![E]⟩ : Shape).Idx → α) {u : Shape} (v : u.Idx → α) (z : α)
    (h : (⟨1, ![E]⟩ : Shape).Pads ![0] hi ![0] ⟨1, ![Ep]⟩) (hu : 0 < u.numel) (hv : ∀ i, v i = z) :
    cur1 (pad ⟨1, ![Ep]⟩ ![0] hi ![0] x v h hu) = pad1 Ep (cur1 x) z := by
  funext e
  show pad ⟨1, ![Ep]⟩ ![0] hi ![0] x v h hu (ix1 e) = pad1 Ep (cur1 x) z e
  unfold pad1
  by_cases hs : e.val < E
  · rw [dif_pos hs]
    exact pad_apply_of_inside ![0] hi ![0] x v h hu (ix1 e) (ix1 ⟨e.val, hs⟩) (fun a => match a with
      | ⟨0, _⟩ => by show e.val = 0 + e.val * (0 + 1); omega)
  · rw [dif_neg hs]
    refine (pad_apply_of_not_inside ![0] hi ![0] x v h hu (ix1 e) (0 : Fin 1) ?_).trans (hv _)
    show ¬(0 ≤ e.val ∧ (e.val - 0) % (0 + 1) = 0 ∧ (e.val - 0) / (0 + 1) < E)
    omega

/-! ## The leading rows of a padded table -/

/-- The rows of a table below a cut. -/
def topRows {N Np : Nat} (hle : N ≤ Np) (X : Fin Np → Fin 128 → EReal) : Fin N → Fin 128 → EReal :=
  fun d j => X ⟨d.val, lt_of_lt_of_le d.isLt hle⟩ j

/-- The slice of the leading rows, read at (row, column). -/
theorem slice_rows_eq {N Np : Nat} (hle : N ≤ Np) (x : (⟨2, ![Np, 128]⟩ : Shape).Idx → EReal)
    (h : (⟨2, ![Np, 128]⟩ : Shape).Slices ![0, 0] ⟨2, ![N, 128]⟩) :
    cur2 (extractStridedSlice ⟨2, ![N, 128]⟩ ![0, 0] x h) = topRows hle (cur2 x) := by
  funext d j
  show extractStridedSlice ⟨2, ![N, 128]⟩ ![0, 0] x h (ix2 d j) = x (ix2 ⟨d.val, lt_of_lt_of_le d.isLt hle⟩ j)
  exact extractStridedSlice_apply ![0, 0] x h (ix2 d j) (ix2 ⟨d.val, lt_of_lt_of_le d.isLt hle⟩ j) (fun a => match a with
    | ⟨0, _⟩ => by show d.val = 0 + d.val; omega
    | ⟨1, _⟩ => by show j.val = 0 + j.val; omega)

/-- The kernel's aggregate is the leading rows of its second product. -/
theorem aggK_eq_topRows {E N Nd : Nat} (Ep Np Ndp : Nat) (hNd : Nd ≤ Ndp) (src dst : Fin E → BitVec 32) (w : Fin E → EReal)
    (X : Fin N → Fin 128 → EReal) :
    aggK Ep Np Ndp hNd src dst w X
      = topRows hNd (sca (Nd := Ndp) (pad1 Ep dst 0#32) (gat (pad1 Ep src 0#32) (pad1 Ep w 0) (padRows Np X))) := rfl

/-! ## The mean over incoming edges -/

/-- The leading rows of a padded sum, divided by the edge count raised to at least one and repeated along the row — the
    count a scatter-add of ones into zeros by destination index —, is `Spec.mean` of those rows and `Spec.cnt`. -/
theorem mean_rows_eq {E Nd Ndp : Nat} (hle : Nd ≤ Ndp)
    (wfS : ScatterDims.WF ⟨1, ![Nd]⟩ ⟨2, ![E, 1]⟩ ⟨1, ![E]⟩ [] [0] [0] 1)
    (hsl : (⟨2, ![Ndp, 128]⟩ : Shape).Slices ![0, 0] ⟨2, ![Nd, 128]⟩)
    (hz : (⟨0, ![]⟩ : Shape).BroadcastsInDim ⟨1, ![Nd]⟩ ![])
    (hc : (⟨0, ![]⟩ : Shape).BroadcastsInDim ⟨1, ![E]⟩ ![])
    (hi : (⟨1, ![E]⟩ : Shape).BroadcastsInDim ⟨2, ![E, 1]⟩ ![0])
    (h1 : (⟨1, ![Nd]⟩ : Shape).BroadcastsInDim ⟨2, ![Nd, 1]⟩ ![0])
    (h2 : (⟨2, ![Nd, 1]⟩ : Shape).BroadcastsInDim ⟨2, ![Nd, 128]⟩ ![0, 1])
    (S : (⟨2, ![Ndp, 128]⟩ : Shape).Idx → EReal) (dst : (⟨1, ![E]⟩ : Shape).Idx → BitVec 32) :
    Host.divf (F := Ideal) (φ := .f32) (extractStridedSlice ⟨2, ![Nd, 128]⟩ ![0, 0] S hsl)
      (broadcastInDim (⟨2, ![Nd, 128]⟩ : Shape) ![0, 1] h2 (broadcastInDim (⟨2, ![Nd, 1]⟩ : Shape) ![0] h1
        (maximumf (F := Ideal) (φ := .f32)
          (Ideal.hostScatterAdd (vecScatterDims Nd E wfS)
            (broadcastInDim (⟨1, ![Nd]⟩ : Shape) ![] hz (constant (F := Ideal) ⟨0, ![]⟩ .f32 0x00000000#32))
            (broadcastInDim (⟨2, ![E, 1]⟩ : Shape) ![0] hi dst)
            (broadcastInDim (⟨1, ![E]⟩ : Shape) ![] hc (constant (F := Ideal) ⟨0, ![]⟩ .f32 0x3F800000#32)))
          (broadcastInDim (⟨1, ![Nd]⟩ : Shape) ![] hz (constant (F := Ideal) ⟨0, ![]⟩ .f32 0x3F800000#32)))))
    = unc2 (mean Ideal.div (topRows hle (cur2 S)) (cnt Nd (cur1 dst))) := by
  rw [cnt_eq wfS hz hc hi dst, mean_eq hz h1 h2, slice_rows_eq hle S hsl]
  rfl

/-- A sum of two tables, read at (row, column). -/
theorem addf_eq {Nd : Nat} (a b : (⟨2, ![Nd, 128]⟩ : Shape).Idx → EReal) :
    addf (F := Ideal) (φ := .f32) a b = unc2 (fun d j => cur2 a d j + cur2 b d j) :=
  ext2 _ _ fun d j => rfl

end Cert.KernelIdeal.H

end
-- ==== Proof.KI.HostPads.lean ====
/-
  The padding stretches of @main, from any contents of the buffers: before each gather the source table is padded with
  zero rows to whole tiles and the three edge vectors (source index, destination index, weight) with zeros to whole
  tiles of edges.  Each padded buffer is read in the vocabulary of the shared mathematics: a padded table is
  `Spec.padRows` of the table, a padded edge vector is `Spec.pad1` of the vector with the zero word or the zero weight.
-/
import proofs.«407232_j23192823399226_1_alg».proof.Proof.Gen.KernelIdeal.Launch
import proofs.«407232_j23192823399226_1_alg».proof.Proof.KI.HostLib
import Idealize.ShloMosaic.Lib.StableHlo.Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec

variable (W : Valuation τ sig (Elt Ideal))

/-! ## The stretches between two regions, as one step on the buffers' contents -/

/-- After the stretches between regions 0 and 1: the word table and the word→word edges padded. -/
abbrev H1 : Valuation τ sig (Elt Ideal) :=
  StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W))))))))

/-- After the stretches between regions 6 and 7: the word and topic tables and the word→topic edges padded. -/
abbrev H7 : Valuation τ sig (Elt Ideal) :=
  StableHlo.after hostOps7_9 (StableHlo.after hostOps7_8 (StableHlo.after hostOps7_7 (StableHlo.after hostOps7_6 (StableHlo.after hostOps7_5 (StableHlo.after hostOps7_4 (StableHlo.after hostOps7_3 (StableHlo.after hostOps7_2 (StableHlo.after hostOps7_1 (StableHlo.after hostOps7 (W))))))))))

/-- After the stretches between regions 8 and 9: the word→topic mean, and the topic→topic edges padded. -/
abbrev H9 : Valuation τ sig (Elt Ideal) :=
  StableHlo.after hostOps9_5 (StableHlo.after hostOps9_4 (StableHlo.after hostOps9_3 (StableHlo.after hostOps9_2 (StableHlo.after hostOps9_1 (StableHlo.after hostOps9 (W))))))

/-- After the stretches between regions 10 and 11: the second result, and the word→doc edges padded. -/
abbrev H11 : Valuation τ sig (Elt Ideal) :=
  StableHlo.after hostOps11_5 (StableHlo.after hostOps11_4 (StableHlo.after hostOps11_3 (StableHlo.after hostOps11_2 (StableHlo.after hostOps11_1 (StableHlo.after hostOps11 (W))))))

/-- After the stretches between regions 12 and 13: the word→doc mean, and the topic→doc edges padded. -/
abbrev H13 : Valuation τ sig (Elt Ideal) :=
  StableHlo.after hostOps13_5 (StableHlo.after hostOps13_4 (StableHlo.after hostOps13_3 (StableHlo.after hostOps13_2 (StableHlo.after hostOps13_1 (StableHlo.after hostOps13 (W))))))

/-! ## Before region 1 -/

/-- The word table after the first dense layer, padded with zero rows to 50176. -/
theorem H1_v1 : (H1 W main_v1 : S50176x128.Idx → EReal) = unc2 (padRows 50176 (cur2 (W main_v0 : S50000x128.Idx → EReal))) := by
  show StableHlo.after hostOps1_7 _ (Proc.devRef .tc main_v1) = _
  after_results
  exact pad_rows_eq ![176, 0] _ _ pads_S50000x128_S50176x128_01760_000 h_S_ sitofp_zero_at

/-- The word→word source indices, padded with the zero word to 800768. -/
theorem H1_v2 : cur1 (H1 W main_v2 : S800768.Idx → BitVec 32) = pad1 800768 (cur1 (W main_arg12 : S800000.Idx → BitVec 32)) 0#32 := by
  have e : (H1 W main_v2 : S800768.Idx → BitVec 32) = pad S800768 ![0] ![768] ![0] (W main_arg12 : S800000.Idx → BitVec 32) (constantI S_ 32 0#32) pads_S800000_S800768_07680 h_S_ := by
    show StableHlo.after hostOps1_7 _ (Proc.devRef .tc main_v2) = _
    after_results
    rfl
  exact (congrArg cur1 e).trans (pad_vec_eq ![768] _ _ 0#32 pads_S800000_S800768_07680 h_S_ (fun _ => rfl))

/-- The word→word destination indices, padded with the zero word to 800768. -/
theorem H1_v3 : cur1 (H1 W main_v3 : S800768.Idx → BitVec 32) = pad1 800768 (cur1 (W main_arg13 : S800000.Idx → BitVec 32)) 0#32 := by
  have e : (H1 W main_v3 : S800768.Idx → BitVec 32) = pad S800768 ![0] ![768] ![0] (W main_arg13 : S800000.Idx → BitVec 32) (constantI S_ 32 0#32) pads_S800000_S800768_07680 h_S_ := by
    show StableHlo.after hostOps1_7 _ (Proc.devRef .tc main_v3) = _
    after_results
    rfl
  exact (congrArg cur1 e).trans (pad_vec_eq ![768] _ _ 0#32 pads_S800000_S800768_07680 h_S_ (fun _ => rfl))

/-- The word→word weights, padded with zero to 800768. -/
theorem H1_v4 : cur1 (H1 W main_v4 : S800768.Idx → EReal) = pad1 800768 (cur1 (W main_arg14 : S800000.Idx → EReal)) (0 : EReal) := by
  have e : (H1 W main_v4 : S800768.Idx → EReal) = pad S800768 ![0] ![768] ![0] (W main_arg14 : S800000.Idx → EReal) (sitofp (F := Ideal) .f32 (constantI S_ 32 0#32)) pads_S800000_S800768_07680 h_S_ := by
    show StableHlo.after hostOps1_7 _ (Proc.devRef .tc main_v4) = _
    after_results
    rfl
  exact (congrArg cur1 e).trans (pad_vec_eq ![768] _ _ (0 : EReal) pads_S800000_S800768_07680 h_S_ sitofp_zero_at)

/-! ## Before region 7 -/

/-- The word features (the first result), padded with zero rows to 50176. -/
theorem H7_v21 : (H7 W main_v21 : S50176x128.Idx → EReal) = unc2 (padRows 50176 (cur2 (W main_v18 : S50000x128.Idx → EReal))) := by
  show StableHlo.after hostOps7_9 _ (Proc.devRef .tc main_v21) = _
  after_results
  exact pad_rows_eq ![176, 0] _ _ pads_S50000x128_S50176x128_01760_000 h_S_ sitofp_zero_at

/-- The topic features, padded with zero rows to 4096. -/
theorem H7_v22 : (H7 W main_v22 : S4096x128.Idx → EReal) = unc2 (padRows 4096 (cur2 (W main_v20 : S4000x128.Idx → EReal))) := by
  show StableHlo.after hostOps7_9 _ (Proc.devRef .tc main_v22) = _
  after_results
  exact pad_rows_eq ![96, 0] _ _ pads_S4000x128_S4096x128_0960_000 h_S_ sitofp_zero_at

/-- The word→topic source indices, padded with the zero word to 401408. -/
theorem H7_v23 : cur1 (H7 W main_v23 : S401408.Idx → BitVec 32) = pad1 401408 (cur1 (W main_arg15 : S400000.Idx → BitVec 32)) 0#32 := by
  have e : (H7 W main_v23 : S401408.Idx → BitVec 32) = pad S401408 ![0] ![1408] ![0] (W main_arg15 : S400000.Idx → BitVec 32) (constantI S_ 32 0#32) pads_S400000_S401408_014080 h_S_ := by
    show StableHlo.after hostOps7_9 _ (Proc.devRef .tc main_v23) = _
    after_results
    rfl
  exact (congrArg cur1 e).trans (pad_vec_eq ![1408] _ _ 0#32 pads_S400000_S401408_014080 h_S_ (fun _ => rfl))

/-- The word→topic destination indices, padded with the zero word to 401408. -/
theorem H7_v24 : cur1 (H7 W main_v24 : S401408.Idx → BitVec 32) = pad1 401408 (cur1 (W main_arg16 : S400000.Idx → BitVec 32)) 0#32 := by
  have e : (H7 W main_v24 : S401408.Idx → BitVec 32) = pad S401408 ![0] ![1408] ![0] (W main_arg16 : S400000.Idx → BitVec 32) (constantI S_ 32 0#32) pads_S400000_S401408_014080 h_S_ := by
    show StableHlo.after hostOps7_9 _ (Proc.devRef .tc main_v24) = _
    after_results
    rfl
  exact (congrArg cur1 e).trans (pad_vec_eq ![1408] _ _ 0#32 pads_S400000_S401408_014080 h_S_ (fun _ => rfl))

/-- The word→topic weights, padded with zero to 401408. -/
theorem H7_v25 : cur1 (H7 W main_v25 : S401408.Idx → EReal) = pad1 401408 (cur1 (W main_arg17 : S400000.Idx → EReal)) (0 : EReal) := by
  have e : (H7 W main_v25 : S401408.Idx → EReal) = pad S401408 ![0] ![1408] ![0] (W main_arg17 : S400000.Idx → EReal) (sitofp (F := Ideal) .f32 (constantI S_ 32 0#32)) pads_S400000_S401408_014080 h_S_ := by
    show StableHlo.after hostOps7_9 _ (Proc.devRef .tc main_v25) = _
    after_results
    rfl
  exact (congrArg cur1 e).trans (pad_vec_eq ![1408] _ _ (0 : EReal) pads_S400000_S401408_014080 h_S_ sitofp_zero_at)

/-! ## Before region 9 -/

/-- The topic→topic source indices, padded with the zero word to 161792. -/
theorem H9_v38 : cur1 (H9 W main_v38 : S161792.Idx → BitVec 32) = pad1 161792 (cur1 (W main_arg24 : S160000.Idx → BitVec 32)) 0#32 := by
  have e : (H9 W main_v38 : S161792.Idx → BitVec 32) = pad S161792 ![0] ![1792] ![0] (W main_arg24 : S160000.Idx → BitVec 32) (constantI S_ 32 0#32) pads_S160000_S161792_017920 h_S_ := by
    show StableHlo.after hostOps9_5 _ (Proc.devRef .tc main_v38) = _
    after_results
    rfl
  exact (congrArg cur1 e).trans (pad_vec_eq ![1792] _ _ 0#32 pads_S160000_S161792_017920 h_S_ (fun _ => rfl))

/-- The topic→topic destination indices, padded with the zero word to 161792. -/
theorem H9_v39 : cur1 (H9 W main_v39 : S161792.Idx → BitVec 32) = pad1 161792 (cur1 (W main_arg25 : S160000.Idx → BitVec 32)) 0#32 := by
  have e : (H9 W main_v39 : S161792.Idx → BitVec 32) = pad S161792 ![0] ![1792] ![0] (W main_arg25 : S160000.Idx → BitVec 32) (constantI S_ 32 0#32) pads_S160000_S161792_017920 h_S_ := by
    show StableHlo.after hostOps9_5 _ (Proc.devRef .tc main_v39) = _
    after_results
    rfl
  exact (congrArg cur1 e).trans (pad_vec_eq ![1792] _ _ 0#32 pads_S160000_S161792_017920 h_S_ (fun _ => rfl))

/-- The topic→topic weights, padded with zero to 161792. -/
theorem H9_v40 : cur1 (H9 W main_v40 : S161792.Idx → EReal) = pad1 161792 (cur1 (W main_arg26 : S160000.Idx → EReal)) (0 : EReal) := by
  have e : (H9 W main_v40 : S161792.Idx → EReal) = pad S161792 ![0] ![1792] ![0] (W main_arg26 : S160000.Idx → EReal) (sitofp (F := Ideal) .f32 (constantI S_ 32 0#32)) pads_S160000_S161792_017920 h_S_ := by
    show StableHlo.after hostOps9_5 _ (Proc.devRef .tc main_v40) = _
    after_results
    rfl
  exact (congrArg cur1 e).trans (pad_vec_eq ![1792] _ _ (0 : EReal) pads_S160000_S161792_017920 h_S_ sitofp_zero_at)

/-! ## Before region 11 -/

/-- The word→doc source indices, padded with the zero word to 401408. -/
theorem H11_v54 : cur1 (H11 W main_v54 : S401408.Idx → BitVec 32) = pad1 401408 (cur1 (W main_arg18 : S400000.Idx → BitVec 32)) 0#32 := by
  have e : (H11 W main_v54 : S401408.Idx → BitVec 32) = pad S401408 ![0] ![1408] ![0] (W main_arg18 : S400000.Idx → BitVec 32) (constantI S_ 32 0#32) pads_S400000_S401408_014080 h_S_ := by
    show StableHlo.after hostOps11_5 _ (Proc.devRef .tc main_v54) = _
    after_results
    rfl
  exact (congrArg cur1 e).trans (pad_vec_eq ![1408] _ _ 0#32 pads_S400000_S401408_014080 h_S_ (fun _ => rfl))

/-- The word→doc destination indices, padded with the zero word to 401408. -/
theorem H11_v55 : cur1 (H11 W main_v55 : S401408.Idx → BitVec 32) = pad1 401408 (cur1 (W main_arg19 : S400000.Idx → BitVec 32)) 0#32 := by
  have e : (H11 W main_v55 : S401408.Idx → BitVec 32) = pad S401408 ![0] ![1408] ![0] (W main_arg19 : S400000.Idx → BitVec 32) (constantI S_ 32 0#32) pads_S400000_S401408_014080 h_S_ := by
    show StableHlo.after hostOps11_5 _ (Proc.devRef .tc main_v55) = _
    after_results
    rfl
  exact (congrArg cur1 e).trans (pad_vec_eq ![1408] _ _ 0#32 pads_S400000_S401408_014080 h_S_ (fun _ => rfl))

/-- The word→doc weights, padded with zero to 401408. -/
theorem H11_v56 : cur1 (H11 W main_v56 : S401408.Idx → EReal) = pad1 401408 (cur1 (W main_arg20 : S400000.Idx → EReal)) (0 : EReal) := by
  have e : (H11 W main_v56 : S401408.Idx → EReal) = pad S401408 ![0] ![1408] ![0] (W main_arg20 : S400000.Idx → EReal) (sitofp (F := Ideal) .f32 (constantI S_ 32 0#32)) pads_S400000_S401408_014080 h_S_ := by
    show StableHlo.after hostOps11_5 _ (Proc.devRef .tc main_v56) = _
    after_results
    rfl
  exact (congrArg cur1 e).trans (pad_vec_eq ![1408] _ _ (0 : EReal) pads_S400000_S401408_014080 h_S_ sitofp_zero_at)

/-! ## Before region 13 -/

/-- The topic→doc source indices, padded with the zero word to 161792. -/
theorem H13_v69 : cur1 (H13 W main_v69 : S161792.Idx → BitVec 32) = pad1 161792 (cur1 (W main_arg21 : S160000.Idx → BitVec 32)) 0#32 := by
  have e : (H13 W main_v69 : S161792.Idx → BitVec 32) = pad S161792 ![0] ![1792] ![0] (W main_arg21 : S160000.Idx → BitVec 32) (constantI S_ 32 0#32) pads_S160000_S161792_017920 h_S_ := by
    show StableHlo.after hostOps13_5 _ (Proc.devRef .tc main_v69) = _
    after_results
    rfl
  exact (congrArg cur1 e).trans (pad_vec_eq ![1792] _ _ 0#32 pads_S160000_S161792_017920 h_S_ (fun _ => rfl))

/-- The topic→doc destination indices, padded with the zero word to 161792. -/
theorem H13_v70 : cur1 (H13 W main_v70 : S161792.Idx → BitVec 32) = pad1 161792 (cur1 (W main_arg22 : S160000.Idx → BitVec 32)) 0#32 := by
  have e : (H13 W main_v70 : S161792.Idx → BitVec 32) = pad S161792 ![0] ![1792] ![0] (W main_arg22 : S160000.Idx → BitVec 32) (constantI S_ 32 0#32) pads_S160000_S161792_017920 h_S_ := by
    show StableHlo.after hostOps13_5 _ (Proc.devRef .tc main_v70) = _
    after_results
    rfl
  exact (congrArg cur1 e).trans (pad_vec_eq ![1792] _ _ 0#32 pads_S160000_S161792_017920 h_S_ (fun _ => rfl))

/-- The topic→doc weights, padded with zero to 161792. -/
theorem H13_v71 : cur1 (H13 W main_v71 : S161792.Idx → EReal) = pad1 161792 (cur1 (W main_arg23 : S160000.Idx → EReal)) (0 : EReal) := by
  have e : (H13 W main_v71 : S161792.Idx → EReal) = pad S161792 ![0] ![1792] ![0] (W main_arg23 : S160000.Idx → EReal) (sitofp (F := Ideal) .f32 (constantI S_ 32 0#32)) pads_S160000_S161792_017920 h_S_ := by
    show StableHlo.after hostOps13_5 _ (Proc.devRef .tc main_v71) = _
    after_results
    rfl
  exact (congrArg cur1 e).trans (pad_vec_eq ![1792] _ _ (0 : EReal) pads_S160000_S161792_017920 h_S_ sitofp_zero_at)

end Cert.KernelIdeal.H

end
-- ==== Proof.KI.HostMean.lean ====
/-
  The mean stretches of @main, from any contents of the buffers: after each scatter product the leading rows of the
  padded sum are divided by the number of edges into each destination, raised to at least one — the count a scatter-add
  of ones into zeros by the destination indices —, and the second and third results add two such means.  Each is read
  in the vocabulary of the shared mathematics: `Spec.mean` of the leading rows and `Spec.cnt`.
-/
import proofs.«407232_j23192823399226_1_alg».proof.Proof.KI.HostPads

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec

variable (W : Valuation τ sig (Elt Ideal))

/-- The same mean added to a table: the sum, read at (row, column). -/
theorem sum_mean_rows_eq {E Nd Ndp : Nat} (hle : Nd ≤ Ndp)
    (wfS : ScatterDims.WF ⟨1, ![Nd]⟩ ⟨2, ![E, 1]⟩ ⟨1, ![E]⟩ [] [0] [0] 1)
    (hsl : (⟨2, ![Ndp, 128]⟩ : Shape).Slices ![0, 0] ⟨2, ![Nd, 128]⟩)
    (hz : (⟨0, ![]⟩ : Shape).BroadcastsInDim ⟨1, ![Nd]⟩ ![])
    (hc : (⟨0, ![]⟩ : Shape).BroadcastsInDim ⟨1, ![E]⟩ ![])
    (hi : (⟨1, ![E]⟩ : Shape).BroadcastsInDim ⟨2, ![E, 1]⟩ ![0])
    (h1 : (⟨1, ![Nd]⟩ : Shape).BroadcastsInDim ⟨2, ![Nd, 1]⟩ ![0])
    (h2 : (⟨2, ![Nd, 1]⟩ : Shape).BroadcastsInDim ⟨2, ![Nd, 128]⟩ ![0, 1])
    (a : (⟨2, ![Nd, 128]⟩ : Shape).Idx → EReal) (S : (⟨2, ![Ndp, 128]⟩ : Shape).Idx → EReal) (dst : (⟨1, ![E]⟩ : Shape).Idx → BitVec 32) :
    addf (F := Ideal) (φ := .f32) a
      (Host.divf (F := Ideal) (φ := .f32) (extractStridedSlice ⟨2, ![Nd, 128]⟩ ![0, 0] S hsl)
        (broadcastInDim (⟨2, ![Nd, 128]⟩ : Shape) ![0, 1] h2 (broadcastInDim (⟨2, ![Nd, 1]⟩ : Shape) ![0] h1
          (maximumf (F := Ideal) (φ := .f32)
            (Ideal.hostScatterAdd (Cert.LibRowScatter.vecScatterDims Nd E wfS)
              (broadcastInDim (⟨1, ![Nd]⟩ : Shape) ![] hz (constant (F := Ideal) ⟨0, ![]⟩ .f32 0x00000000#32))
              (broadcastInDim (⟨2, ![E, 1]⟩ : Shape) ![0] hi dst)
              (broadcastInDim (⟨1, ![E]⟩ : Shape) ![] hc (constant (F := Ideal) ⟨0, ![]⟩ .f32 0x3F800000#32)))
            (broadcastInDim (⟨1, ![Nd]⟩ : Shape) ![] hz (constant (F := Ideal) ⟨0, ![]⟩ .f32 0x3F800000#32))))))
    = unc2 (fun d j => cur2 a d j + mean Ideal.div (topRows hle (cur2 S)) (cnt Nd (cur1 dst)) d j) := by
  rw [mean_rows_eq hle wfS hsl hz hc hi h1 h2 S dst]
  exact addf_eq _ _

/-- After region 2: the word→word mean, from the padded sum `main_v6` and the destination indices. -/
theorem H3_v16 : (StableHlo.after hostOps3 W main_v16 : S50000x128.Idx → EReal)
    = unc2 (mean Ideal.div (topRows (by decide : 50000 ≤ 50176) (cur2 (W main_v6 : S50176x128.Idx → EReal))) (cnt 50000 (cur1 (W main_arg13 : S800000.Idx → BitVec 32)))) := by
  show StableHlo.after hostOps3 _ (Proc.devRef .tc main_v16) = _
  after_results
  exact mean_rows_eq (by decide) scatter_S50000_S800000x1_S800000_n_0_0_1_wf slices_S50176x128_S50000x128_0_0 bcast_S_S50000 bcast_S_S800000 bcast_S800000_S800000x1_0 bcast_S50000_S50000x1_0 bcast_S50000x1_S50000x128_0_1 _ _

/-- After region 8: the word→topic mean, from the padded sum `main_v27` and the destination indices. -/
theorem H9_v37 : (H9 W main_v37 : S4000x128.Idx → EReal)
    = unc2 (mean Ideal.div (topRows (by decide : 4000 ≤ 4096) (cur2 (W main_v27 : S4096x128.Idx → EReal))) (cnt 4000 (cur1 (W main_arg16 : S400000.Idx → BitVec 32)))) := by
  show StableHlo.after hostOps9_5 _ (Proc.devRef .tc main_v37) = _
  after_results
  exact mean_rows_eq (by decide) scatter_S4000_S400000x1_S400000_n_0_0_1_wf slices_S4096x128_S4000x128_0_0 bcast_S_S4000 bcast_S_S400000 bcast_S400000_S400000x1_0 bcast_S4000_S4000x1_0 bcast_S4000x1_S4000x128_0_1 _ _

set_option maxHeartbeats 1000000 in
/-- After region 10: the second result, the word→topic mean plus the topic→topic mean. -/
theorem H11_v53 : (H11 W main_v53 : S4000x128.Idx → EReal)
    = unc2 (fun d j => cur2 (α := EReal) (A := 4000) (B := 128) (W main_v37) d j
        + mean Ideal.div (topRows (by decide : 4000 ≤ 4096) (cur2 (W main_v42 : S4096x128.Idx → EReal))) (cnt 4000 (cur1 (W main_arg25 : S160000.Idx → BitVec 32))) d j) := by
  show StableHlo.after hostOps11_5 _ (Proc.devRef .tc main_v53) = _
  after_results
  exact sum_mean_rows_eq (by decide) scatter_S4000_S160000x1_S160000_n_0_0_1_wf slices_S4096x128_S4000x128_0_0 bcast_S_S4000 bcast_S_S160000 bcast_S160000_S160000x1_0 bcast_S4000_S4000x1_0 bcast_S4000x1_S4000x128_0_1 _ _ _

/-- After region 12: the word→doc mean, from the padded sum `main_v58` and the destination indices. -/
theorem H13_v68 : (H13 W main_v68 : S20000x128.Idx → EReal)
    = unc2 (mean Ideal.div (topRows (by decide : 20000 ≤ 20480) (cur2 (W main_v58 : S20480x128.Idx → EReal))) (cnt 20000 (cur1 (W main_arg19 : S400000.Idx → BitVec 32)))) := by
  show StableHlo.after hostOps13_5 _ (Proc.devRef .tc main_v68) = _
  after_results
  exact mean_rows_eq (by decide) scatter_S20000_S400000x1_S400000_n_0_0_1_wf slices_S20480x128_S20000x128_0_0 bcast_S_S20000 bcast_S_S400000 bcast_S400000_S400000x1_0 bcast_S20000_S20000x1_0 bcast_S20000x1_S20000x128_0_1 _ _

set_option maxHeartbeats 1000000 in
/-- After region 14: the third result, the word→doc mean plus the topic→doc mean. -/
theorem H15_v84 : (StableHlo.after hostOps15 W main_v84 : S20000x128.Idx → EReal)
    = unc2 (fun d j => cur2 (α := EReal) (A := 20000) (B := 128) (W main_v68) d j
        + mean Ideal.div (topRows (by decide : 20000 ≤ 20480) (cur2 (W main_v73 : S20480x128.Idx → EReal))) (cnt 20000 (cur1 (W main_arg22 : S160000.Idx → BitVec 32))) d j) := by
  show StableHlo.after hostOps15 _ (Proc.devRef .tc main_v84) = _
  after_results
  exact sum_mean_rows_eq (by decide) scatter_S20000_S160000x1_S160000_n_0_0_1_wf slices_S20480x128_S20000x128_0_0 bcast_S_S20000 bcast_S_S160000 bcast_S160000_S160000x1_0 bcast_S20000_S20000x1_0 bcast_S20000x1_S20000x128_0_1 _ _ _

end Cert.KernelIdeal.H

end
-- ==== Proof.KI.HostChain.lean ====
/-
  The contents of the buffers through @main, region by region, in the vocabulary of the shared mathematics, for ANY
  contents at the boundaries that are related as the program relates them: a kernel region changes its output array only
  and leaves there what its equation says of the contents it finds — region 0 the dense layer of its inputs, region 1
  the one-hot gather product, region 2 the one-hot scatter product, and so on —, and between the regions the host
  stretches pad, slice, count and divide (read in HostPads and HostMean).  A buffer an item does not write keeps its
  contents.  Following the buffers from the launch contents to the end, the three result buffers hold the word, topic
  and document features of the kernel's mathematics.
-/
import proofs.«407232_j23192823399226_1_alg».proof.Proof.KI.RegionsP
import proofs.«407232_j23192823399226_1_alg».proof.Proof.KI.HostMean

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec

/-! ## The mathematics' inputs and intermediate tables -/

/-- The argument arrays at launch, as the inputs of the mathematics. -/
abbrev IofW (W0 : Valuation τ sig (Elt Ideal)) : Inputs :=
  inputsOf (W0 main_arg0) (W0 main_arg1) (W0 main_arg2) (W0 main_arg3) (W0 main_arg4) (W0 main_arg5) (W0 main_arg6) (W0 main_arg7)
    (W0 main_arg8) (W0 main_arg9) (W0 main_arg10) (W0 main_arg11) (W0 main_arg12) (W0 main_arg13) (W0 main_arg14) (W0 main_arg15)
    (W0 main_arg16) (W0 main_arg17) (W0 main_arg18) (W0 main_arg19) (W0 main_arg20) (W0 main_arg21) (W0 main_arg22) (W0 main_arg23)
    (W0 main_arg24) (W0 main_arg25) (W0 main_arg26)

/-- The word table after the first dense layer. -/
abbrev x0 (W0 : Valuation τ sig (Elt Ideal)) : Fin 50000 → Fin 128 → EReal := lin (IofW W0).hw (IofW W0).Www (IofW W0).bww
/-- The word features: the first result. -/
abbrev wordK (W0 : Valuation τ sig (Elt Ideal)) : Fin 50000 → Fin 128 → EReal := word Ideal.div (IofW W0) (aggsK (IofW W0))
/-- The topic features after the two topic-side dense layers. -/
abbrev topF (W0 : Valuation τ sig (Elt Ideal)) : Fin 4000 → Fin 128 → EReal := topicF (IofW W0)

/-! ## The kernel's five aggregates, as the leading rows of the scatter products

Each of the kernel's five aggregates is its relation's `aggK` at the relation's padded sizes, that is, the leading rows
of the scatter product of the gather product of the padded arrays. -/

theorem aggsK_ww_def (I : Inputs) : (aggsK I).ww = aggK 800768 50176 50176 (by decide) I.ww_src I.ww_dst I.ww_w := by rw [aggsK]
theorem aggsK_wt_def (I : Inputs) : (aggsK I).wt = aggK 401408 50176 4096 (by decide) I.wt_src I.wt_dst I.wt_w := by rw [aggsK]
theorem aggsK_tt_def (I : Inputs) : (aggsK I).tt = aggK 161792 4096 4096 (by decide) I.tt_src I.tt_dst I.tt_w := by rw [aggsK]
theorem aggsK_wd_def (I : Inputs) : (aggsK I).wd = aggK 401408 50176 20480 (by decide) I.wd_src I.wd_dst I.wd_w := by rw [aggsK]
theorem aggsK_td_def (I : Inputs) : (aggsK I).td = aggK 161792 4096 20480 (by decide) I.td_src I.td_dst I.td_w := by rw [aggsK]

theorem aggsK_ww (I : Inputs) (X : Fin 50000 → Fin 128 → EReal) :
    (aggsK I).ww X = topRows (by decide : 50000 ≤ 50176) (sca (Nd := 50176) (pad1 800768 I.ww_dst 0#32)
      (gat (pad1 800768 I.ww_src 0#32) (pad1 800768 I.ww_w 0) (padRows 50176 X))) :=
  (congrFun (aggsK_ww_def I) X).trans (aggK_eq_topRows 800768 50176 50176 _ I.ww_src I.ww_dst I.ww_w X)
theorem aggsK_wt (I : Inputs) (X : Fin 50000 → Fin 128 → EReal) :
    (aggsK I).wt X = topRows (by decide : 4000 ≤ 4096) (sca (Nd := 4096) (pad1 401408 I.wt_dst 0#32)
      (gat (pad1 401408 I.wt_src 0#32) (pad1 401408 I.wt_w 0) (padRows 50176 X))) :=
  (congrFun (aggsK_wt_def I) X).trans (aggK_eq_topRows 401408 50176 4096 _ I.wt_src I.wt_dst I.wt_w X)
theorem aggsK_tt (I : Inputs) (X : Fin 4000 → Fin 128 → EReal) :
    (aggsK I).tt X = topRows (by decide : 4000 ≤ 4096) (sca (Nd := 4096) (pad1 161792 I.tt_dst 0#32)
      (gat (pad1 161792 I.tt_src 0#32) (pad1 161792 I.tt_w 0) (padRows 4096 X))) :=
  (congrFun (aggsK_tt_def I) X).trans (aggK_eq_topRows 161792 4096 4096 _ I.tt_src I.tt_dst I.tt_w X)
theorem aggsK_wd (I : Inputs) (X : Fin 50000 → Fin 128 → EReal) :
    (aggsK I).wd X = topRows (by decide : 20000 ≤ 20480) (sca (Nd := 20480) (pad1 401408 I.wd_dst 0#32)
      (gat (pad1 401408 I.wd_src 0#32) (pad1 401408 I.wd_w 0) (padRows 50176 X))) :=
  (congrFun (aggsK_wd_def I) X).trans (aggK_eq_topRows 401408 50176 20480 _ I.wd_src I.wd_dst I.wd_w X)
theorem aggsK_td (I : Inputs) (X : Fin 4000 → Fin 128 → EReal) :
    (aggsK I).td X = topRows (by decide : 20000 ≤ 20480) (sca (Nd := 20480) (pad1 161792 I.td_dst 0#32)
      (gat (pad1 161792 I.td_src 0#32) (pad1 161792 I.td_w 0) (padRows 4096 X))) :=
  (congrFun (aggsK_td_def I) X).trans (aggK_eq_topRows 161792 4096 20480 _ I.td_src I.td_dst I.td_w X)

/-- A matrix is the matrix of its entries. -/
theorem eq_unc2_of_cur2 {A B : Nat} (x : (⟨2, ![A, B]⟩ : Shape).Idx → EReal) (f : Fin A → Fin B → EReal) (h : cur2 x = f) : x = unc2 f :=
  ext2 _ _ fun r q => congrFun (congrFun h r) q

/-! ## The buffers' contents between the items -/

/-- The contents of the buffers at the boundaries of @main — at launch `W0`, after region k `Bk`, at the entry of a region
    that follows host stretches `Ak` —, related as the program relates them: a region changes its output array only, and
    leaves there what its equation says of the contents it finds; a group of host stretches acts as read in HostPads. -/
structure Chain (W0 B0 A1 B1 B2 A3 B3 B4 B5 B6 A7 B7 B8 A9 B9 B10 A11 B11 B12 A13 B13 B14 A15 : Valuation τ sig (Elt Ideal)) : Prop where
  b0 : ∀ r : Ref sig .tc, r ≠ main_v0 → B0 r = W0 r
  a1 : A1 = H1 B0
  b1 : ∀ r : Ref sig .tc, r ≠ main_v5 → B1 r = A1 r
  b2 : ∀ r : Ref sig .tc, r ≠ main_v6 → B2 r = B1 r
  a3 : A3 = StableHlo.after hostOps3 B2
  b3 : ∀ r : Ref sig .tc, r ≠ main_v17 → B3 r = A3 r
  b4 : ∀ r : Ref sig .tc, r ≠ main_v18 → B4 r = B3 r
  b5 : ∀ r : Ref sig .tc, r ≠ main_v19 → B5 r = B4 r
  b6 : ∀ r : Ref sig .tc, r ≠ main_v20 → B6 r = B5 r
  a7 : A7 = H7 B6
  b7 : ∀ r : Ref sig .tc, r ≠ main_v26 → B7 r = A7 r
  b8 : ∀ r : Ref sig .tc, r ≠ main_v27 → B8 r = B7 r
  a9 : A9 = H9 B8
  b9 : ∀ r : Ref sig .tc, r ≠ main_v41 → B9 r = A9 r
  b10 : ∀ r : Ref sig .tc, r ≠ main_v42 → B10 r = B9 r
  a11 : A11 = H11 B10
  b11 : ∀ r : Ref sig .tc, r ≠ main_v57 → B11 r = A11 r
  b12 : ∀ r : Ref sig .tc, r ≠ main_v58 → B12 r = B11 r
  a13 : A13 = H13 B12
  b13 : ∀ r : Ref sig .tc, r ≠ main_v72 → B13 r = A13 r
  b14 : ∀ r : Ref sig .tc, r ≠ main_v73 → B14 r = B13 r
  a15 : A15 = StableHlo.after hostOps15 B14
  e0 : (B0 main_v0 : S50000x128.Idx → EReal) = unc2 (lin (cur2 (W0 main_arg0 : S50000x128.Idx → EReal)) (cur2 (W0 main_arg2 : S128x128.Idx → EReal)) (cur1 (W0 main_arg3 : S128.Idx → EReal)))
  e1 : (B1 main_v5 : S800768x128.Idx → EReal) = unc2 (gat (cur1 (A1 main_v2 : S800768.Idx → BitVec 32)) (cur1 (A1 main_v4 : S800768.Idx → EReal)) (cur2 (A1 main_v1 : S50176x128.Idx → EReal)))
  e2 : (B2 main_v6 : S50176x128.Idx → EReal) = unc2 (sca (cur1 (B1 main_v3 : S800768.Idx → BitVec 32)) (cur2 (B1 main_v5 : S800768x128.Idx → EReal)))
  e3 : (B3 main_v17 : S50000x128.Idx → EReal) = unc2 (lin (cur2 (A3 main_v16 : S50000x128.Idx → EReal)) (cur2 (A3 main_arg4 : S128x128.Idx → EReal)) (cur1 (A3 main_arg5 : S128.Idx → EReal)))
  e4 : (B4 main_v18 : S50000x128.Idx → EReal) = unc2 (lin (cur2 (B3 main_v17 : S50000x128.Idx → EReal)) (cur2 (B3 main_arg6 : S128x128.Idx → EReal)) (cur1 (B3 main_arg7 : S128.Idx → EReal)))
  e5 : (B5 main_v19 : S4000x128.Idx → EReal) = unc2 (lin (cur2 (B4 main_arg1 : S4000x128.Idx → EReal)) (cur2 (B4 main_arg8 : S128x128.Idx → EReal)) (cur1 (B4 main_arg9 : S128.Idx → EReal)))
  e6 : (B6 main_v20 : S4000x128.Idx → EReal) = unc2 (lin (cur2 (B5 main_v19 : S4000x128.Idx → EReal)) (cur2 (B5 main_arg10 : S128x128.Idx → EReal)) (cur1 (B5 main_arg11 : S128.Idx → EReal)))
  e7 : (B7 main_v26 : S401408x128.Idx → EReal) = unc2 (gat (cur1 (A7 main_v23 : S401408.Idx → BitVec 32)) (cur1 (A7 main_v25 : S401408.Idx → EReal)) (cur2 (A7 main_v21 : S50176x128.Idx → EReal)))
  e8 : (B8 main_v27 : S4096x128.Idx → EReal) = unc2 (sca (cur1 (B7 main_v24 : S401408.Idx → BitVec 32)) (cur2 (B7 main_v26 : S401408x128.Idx → EReal)))
  e9 : (B9 main_v41 : S161792x128.Idx → EReal) = unc2 (gat (cur1 (A9 main_v38 : S161792.Idx → BitVec 32)) (cur1 (A9 main_v40 : S161792.Idx → EReal)) (cur2 (A9 main_v22 : S4096x128.Idx → EReal)))
  e10 : (B10 main_v42 : S4096x128.Idx → EReal) = unc2 (sca (cur1 (B9 main_v39 : S161792.Idx → BitVec 32)) (cur2 (B9 main_v41 : S161792x128.Idx → EReal)))
  e11 : (B11 main_v57 : S401408x128.Idx → EReal) = unc2 (gat (cur1 (A11 main_v54 : S401408.Idx → BitVec 32)) (cur1 (A11 main_v56 : S401408.Idx → EReal)) (cur2 (A11 main_v21 : S50176x128.Idx → EReal)))
  e12 : (B12 main_v58 : S20480x128.Idx → EReal) = unc2 (sca (cur1 (B11 main_v55 : S401408.Idx → BitVec 32)) (cur2 (B11 main_v57 : S401408x128.Idx → EReal)))
  e13 : (B13 main_v72 : S161792x128.Idx → EReal) = unc2 (gat (cur1 (A13 main_v69 : S161792.Idx → BitVec 32)) (cur1 (A13 main_v71 : S161792.Idx → EReal)) (cur2 (A13 main_v22 : S4096x128.Idx → EReal)))
  e14 : (B14 main_v73 : S20480x128.Idx → EReal) = unc2 (sca (cur1 (B13 main_v70 : S161792.Idx → BitVec 32)) (cur2 (B13 main_v72 : S161792x128.Idx → EReal)))

/-! ## What each item leaves unchanged -/

theorem H1_of (W : Valuation τ sig (Elt Ideal)) (r : Ref sig .tc)
    (h : r ∉ hostOps1_W ∧ r ∉ hostOps1_1_W ∧ r ∉ hostOps1_2_W ∧ r ∉ hostOps1_3_W ∧ r ∉ hostOps1_4_W ∧ r ∉ hostOps1_5_W ∧ r ∉ hostOps1_6_W ∧ r ∉ hostOps1_7_W) :
    H1 W r = W r :=
  (StableHlo.after_of_writes_sub hostOps1_7 _ hostOps1_7_writes h.2.2.2.2.2.2.2).trans <|
  (StableHlo.after_of_writes_sub hostOps1_6 _ hostOps1_6_writes h.2.2.2.2.2.2.1).trans <|
  (StableHlo.after_of_writes_sub hostOps1_5 _ hostOps1_5_writes h.2.2.2.2.2.1).trans <|
  (StableHlo.after_of_writes_sub hostOps1_4 _ hostOps1_4_writes h.2.2.2.2.1).trans <|
  (StableHlo.after_of_writes_sub hostOps1_3 _ hostOps1_3_writes h.2.2.2.1).trans <|
  (StableHlo.after_of_writes_sub hostOps1_2 _ hostOps1_2_writes h.2.2.1).trans <|
  (StableHlo.after_of_writes_sub hostOps1_1 _ hostOps1_1_writes h.2.1).trans <|
  StableHlo.after_of_writes_sub hostOps1 _ hostOps1_writes h.1

theorem H3_of (W : Valuation τ sig (Elt Ideal)) (r : Ref sig .tc) (h : r ∉ hostOps3_W) :
    StableHlo.after hostOps3 W r = W r :=
  StableHlo.after_of_writes_sub hostOps3 _ hostOps3_writes h

theorem H7_of (W : Valuation τ sig (Elt Ideal)) (r : Ref sig .tc)
    (h : r ∉ hostOps7_W ∧ r ∉ hostOps7_1_W ∧ r ∉ hostOps7_2_W ∧ r ∉ hostOps7_3_W ∧ r ∉ hostOps7_4_W ∧ r ∉ hostOps7_5_W ∧ r ∉ hostOps7_6_W ∧ r ∉ hostOps7_7_W ∧ r ∉ hostOps7_8_W ∧ r ∉ hostOps7_9_W) :
    H7 W r = W r :=
  (StableHlo.after_of_writes_sub hostOps7_9 _ hostOps7_9_writes h.2.2.2.2.2.2.2.2.2).trans <|
  (StableHlo.after_of_writes_sub hostOps7_8 _ hostOps7_8_writes h.2.2.2.2.2.2.2.2.1).trans <|
  (StableHlo.after_of_writes_sub hostOps7_7 _ hostOps7_7_writes h.2.2.2.2.2.2.2.1).trans <|
  (StableHlo.after_of_writes_sub hostOps7_6 _ hostOps7_6_writes h.2.2.2.2.2.2.1).trans <|
  (StableHlo.after_of_writes_sub hostOps7_5 _ hostOps7_5_writes h.2.2.2.2.2.1).trans <|
  (StableHlo.after_of_writes_sub hostOps7_4 _ hostOps7_4_writes h.2.2.2.2.1).trans <|
  (StableHlo.after_of_writes_sub hostOps7_3 _ hostOps7_3_writes h.2.2.2.1).trans <|
  (StableHlo.after_of_writes_sub hostOps7_2 _ hostOps7_2_writes h.2.2.1).trans <|
  (StableHlo.after_of_writes_sub hostOps7_1 _ hostOps7_1_writes h.2.1).trans <|
  StableHlo.after_of_writes_sub hostOps7 _ hostOps7_writes h.1

theorem H9_of (W : Valuation τ sig (Elt Ideal)) (r : Ref sig .tc)
    (h : r ∉ hostOps9_W ∧ r ∉ hostOps9_1_W ∧ r ∉ hostOps9_2_W ∧ r ∉ hostOps9_3_W ∧ r ∉ hostOps9_4_W ∧ r ∉ hostOps9_5_W) :
    H9 W r = W r :=
  (StableHlo.after_of_writes_sub hostOps9_5 _ hostOps9_5_writes h.2.2.2.2.2).trans <|
  (StableHlo.after_of_writes_sub hostOps9_4 _ hostOps9_4_writes h.2.2.2.2.1).trans <|
  (StableHlo.after_of_writes_sub hostOps9_3 _ hostOps9_3_writes h.2.2.2.1).trans <|
  (StableHlo.after_of_writes_sub hostOps9_2 _ hostOps9_2_writes h.2.2.1).trans <|
  (StableHlo.after_of_writes_sub hostOps9_1 _ hostOps9_1_writes h.2.1).trans <|
  StableHlo.after_of_writes_sub hostOps9 _ hostOps9_writes h.1

theorem H11_of (W : Valuation τ sig (Elt Ideal)) (r : Ref sig .tc)
    (h : r ∉ hostOps11_W ∧ r ∉ hostOps11_1_W ∧ r ∉ hostOps11_2_W ∧ r ∉ hostOps11_3_W ∧ r ∉ hostOps11_4_W ∧ r ∉ hostOps11_5_W) :
    H11 W r = W r :=
  (StableHlo.after_of_writes_sub hostOps11_5 _ hostOps11_5_writes h.2.2.2.2.2).trans <|
  (StableHlo.after_of_writes_sub hostOps11_4 _ hostOps11_4_writes h.2.2.2.2.1).trans <|
  (StableHlo.after_of_writes_sub hostOps11_3 _ hostOps11_3_writes h.2.2.2.1).trans <|
  (StableHlo.after_of_writes_sub hostOps11_2 _ hostOps11_2_writes h.2.2.1).trans <|
  (StableHlo.after_of_writes_sub hostOps11_1 _ hostOps11_1_writes h.2.1).trans <|
  StableHlo.after_of_writes_sub hostOps11 _ hostOps11_writes h.1

theorem H13_of (W : Valuation τ sig (Elt Ideal)) (r : Ref sig .tc)
    (h : r ∉ hostOps13_W ∧ r ∉ hostOps13_1_W ∧ r ∉ hostOps13_2_W ∧ r ∉ hostOps13_3_W ∧ r ∉ hostOps13_4_W ∧ r ∉ hostOps13_5_W) :
    H13 W r = W r :=
  (StableHlo.after_of_writes_sub hostOps13_5 _ hostOps13_5_writes h.2.2.2.2.2).trans <|
  (StableHlo.after_of_writes_sub hostOps13_4 _ hostOps13_4_writes h.2.2.2.2.1).trans <|
  (StableHlo.after_of_writes_sub hostOps13_3 _ hostOps13_3_writes h.2.2.2.1).trans <|
  (StableHlo.after_of_writes_sub hostOps13_2 _ hostOps13_2_writes h.2.2.1).trans <|
  (StableHlo.after_of_writes_sub hostOps13_1 _ hostOps13_1_writes h.2.1).trans <|
  StableHlo.after_of_writes_sub hostOps13 _ hostOps13_writes h.1

theorem H15_of (W : Valuation τ sig (Elt Ideal)) (r : Ref sig .tc) (h : r ∉ hostOps15_W) :
    StableHlo.after hostOps15 W r = W r :=
  StableHlo.after_of_writes_sub hostOps15 _ hostOps15_writes h

/-- The twenty-seven argument arrays. -/
abbrev args : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26]

/-! ## The buffers an item does not write, along the chain -/

variable {W0 B0 A1 B1 B2 A3 B3 B4 B5 B6 A7 B7 B8 A9 B9 B10 A11 B11 B12 A13 B13 B14 A15 : Valuation τ sig (Elt Ideal)}
variable (hc : Chain W0 B0 A1 B1 B2 A3 B3 B4 B5 B6 A7 B7 B8 A9 B9 B10 A11 B11 B12 A13 B13 B14 A15)
include hc

theorem B0_of (r : Ref sig .tc) (h : r ≠ main_v0) : B0 r = W0 r := hc.b0 r h
theorem A1_of (r : Ref sig .tc)
    (h : r ∉ hostOps1_W ∧ r ∉ hostOps1_1_W ∧ r ∉ hostOps1_2_W ∧ r ∉ hostOps1_3_W ∧ r ∉ hostOps1_4_W ∧ r ∉ hostOps1_5_W ∧ r ∉ hostOps1_6_W ∧ r ∉ hostOps1_7_W) :
    A1 r = B0 r := (congrFun hc.a1 _).trans (H1_of B0 r h)
theorem B1_of (r : Ref sig .tc) (h : r ≠ main_v5) : B1 r = A1 r := hc.b1 r h
theorem B2_of (r : Ref sig .tc) (h : r ≠ main_v6) : B2 r = B1 r := hc.b2 r h
theorem A3_of (r : Ref sig .tc) (h : r ∉ hostOps3_W) : A3 r = B2 r := (congrFun hc.a3 _).trans (H3_of B2 r h)
theorem B3_of (r : Ref sig .tc) (h : r ≠ main_v17) : B3 r = A3 r := hc.b3 r h
theorem B4_of (r : Ref sig .tc) (h : r ≠ main_v18) : B4 r = B3 r := hc.b4 r h
theorem B5_of (r : Ref sig .tc) (h : r ≠ main_v19) : B5 r = B4 r := hc.b5 r h
theorem B6_of (r : Ref sig .tc) (h : r ≠ main_v20) : B6 r = B5 r := hc.b6 r h
theorem A7_of (r : Ref sig .tc)
    (h : r ∉ hostOps7_W ∧ r ∉ hostOps7_1_W ∧ r ∉ hostOps7_2_W ∧ r ∉ hostOps7_3_W ∧ r ∉ hostOps7_4_W ∧ r ∉ hostOps7_5_W ∧ r ∉ hostOps7_6_W ∧ r ∉ hostOps7_7_W ∧ r ∉ hostOps7_8_W ∧ r ∉ hostOps7_9_W) :
    A7 r = B6 r := (congrFun hc.a7 _).trans (H7_of B6 r h)
theorem B7_of (r : Ref sig .tc) (h : r ≠ main_v26) : B7 r = A7 r := hc.b7 r h
theorem B8_of (r : Ref sig .tc) (h : r ≠ main_v27) : B8 r = B7 r := hc.b8 r h
theorem A9_of (r : Ref sig .tc)
    (h : r ∉ hostOps9_W ∧ r ∉ hostOps9_1_W ∧ r ∉ hostOps9_2_W ∧ r ∉ hostOps9_3_W ∧ r ∉ hostOps9_4_W ∧ r ∉ hostOps9_5_W) :
    A9 r = B8 r := (congrFun hc.a9 _).trans (H9_of B8 r h)
theorem B9_of (r : Ref sig .tc) (h : r ≠ main_v41) : B9 r = A9 r := hc.b9 r h
theorem B10_of (r : Ref sig .tc) (h : r ≠ main_v42) : B10 r = B9 r := hc.b10 r h
theorem A11_of (r : Ref sig .tc)
    (h : r ∉ hostOps11_W ∧ r ∉ hostOps11_1_W ∧ r ∉ hostOps11_2_W ∧ r ∉ hostOps11_3_W ∧ r ∉ hostOps11_4_W ∧ r ∉ hostOps11_5_W) :
    A11 r = B10 r := (congrFun hc.a11 _).trans (H11_of B10 r h)
theorem B11_of (r : Ref sig .tc) (h : r ≠ main_v57) : B11 r = A11 r := hc.b11 r h
theorem B12_of (r : Ref sig .tc) (h : r ≠ main_v58) : B12 r = B11 r := hc.b12 r h
theorem A13_of (r : Ref sig .tc)
    (h : r ∉ hostOps13_W ∧ r ∉ hostOps13_1_W ∧ r ∉ hostOps13_2_W ∧ r ∉ hostOps13_3_W ∧ r ∉ hostOps13_4_W ∧ r ∉ hostOps13_5_W) :
    A13 r = B12 r := (congrFun hc.a13 _).trans (H13_of B12 r h)
theorem B13_of (r : Ref sig .tc) (h : r ≠ main_v72) : B13 r = A13 r := hc.b13 r h
theorem B14_of (r : Ref sig .tc) (h : r ≠ main_v73) : B14 r = B13 r := hc.b14 r h
theorem A15_of (r : Ref sig .tc) (h : r ∉ hostOps15_W) : A15 r = B14 r := (congrFun hc.a15 _).trans (H15_of B14 r h)

/-! ## No item writes an argument -/

theorem B0_arg (r : Ref sig .tc) (hr : r ∈ args) : B0 r = W0 r :=
  B0_of hc r ((by decide : ∀ r ∈ args, r ≠ main_v0) r hr)
theorem A1_arg (r : Ref sig .tc) (hr : r ∈ args) : A1 r = W0 r :=
  (A1_of hc r ((by decide : ∀ r ∈ args, r ∉ hostOps1_W ∧ r ∉ hostOps1_1_W ∧ r ∉ hostOps1_2_W ∧ r ∉ hostOps1_3_W ∧ r ∉ hostOps1_4_W ∧ r ∉ hostOps1_5_W ∧ r ∉ hostOps1_6_W ∧ r ∉ hostOps1_7_W) r hr)).trans (B0_arg hc r hr)
theorem B1_arg (r : Ref sig .tc) (hr : r ∈ args) : B1 r = W0 r :=
  (B1_of hc r ((by decide : ∀ r ∈ args, r ≠ main_v5) r hr)).trans (A1_arg hc r hr)
theorem B2_arg (r : Ref sig .tc) (hr : r ∈ args) : B2 r = W0 r :=
  (B2_of hc r ((by decide : ∀ r ∈ args, r ≠ main_v6) r hr)).trans (B1_arg hc r hr)
theorem A3_arg (r : Ref sig .tc) (hr : r ∈ args) : A3 r = W0 r :=
  (A3_of hc r ((by decide : ∀ r ∈ args, r ∉ hostOps3_W) r hr)).trans (B2_arg hc r hr)
theorem B3_arg (r : Ref sig .tc) (hr : r ∈ args) : B3 r = W0 r :=
  (B3_of hc r ((by decide : ∀ r ∈ args, r ≠ main_v17) r hr)).trans (A3_arg hc r hr)
theorem B4_arg (r : Ref sig .tc) (hr : r ∈ args) : B4 r = W0 r :=
  (B4_of hc r ((by decide : ∀ r ∈ args, r ≠ main_v18) r hr)).trans (B3_arg hc r hr)
theorem B5_arg (r : Ref sig .tc) (hr : r ∈ args) : B5 r = W0 r :=
  (B5_of hc r ((by decide : ∀ r ∈ args, r ≠ main_v19) r hr)).trans (B4_arg hc r hr)
theorem B6_arg (r : Ref sig .tc) (hr : r ∈ args) : B6 r = W0 r :=
  (B6_of hc r ((by decide : ∀ r ∈ args, r ≠ main_v20) r hr)).trans (B5_arg hc r hr)
theorem A7_arg (r : Ref sig .tc) (hr : r ∈ args) : A7 r = W0 r :=
  (A7_of hc r ((by decide : ∀ r ∈ args, r ∉ hostOps7_W ∧ r ∉ hostOps7_1_W ∧ r ∉ hostOps7_2_W ∧ r ∉ hostOps7_3_W ∧ r ∉ hostOps7_4_W ∧ r ∉ hostOps7_5_W ∧ r ∉ hostOps7_6_W ∧ r ∉ hostOps7_7_W ∧ r ∉ hostOps7_8_W ∧ r ∉ hostOps7_9_W) r hr)).trans (B6_arg hc r hr)
theorem B7_arg (r : Ref sig .tc) (hr : r ∈ args) : B7 r = W0 r :=
  (B7_of hc r ((by decide : ∀ r ∈ args, r ≠ main_v26) r hr)).trans (A7_arg hc r hr)
theorem B8_arg (r : Ref sig .tc) (hr : r ∈ args) : B8 r = W0 r :=
  (B8_of hc r ((by decide : ∀ r ∈ args, r ≠ main_v27) r hr)).trans (B7_arg hc r hr)
theorem A9_arg (r : Ref sig .tc) (hr : r ∈ args) : A9 r = W0 r :=
  (A9_of hc r ((by decide : ∀ r ∈ args, r ∉ hostOps9_W ∧ r ∉ hostOps9_1_W ∧ r ∉ hostOps9_2_W ∧ r ∉ hostOps9_3_W ∧ r ∉ hostOps9_4_W ∧ r ∉ hostOps9_5_W) r hr)).trans (B8_arg hc r hr)
theorem B9_arg (r : Ref sig .tc) (hr : r ∈ args) : B9 r = W0 r :=
  (B9_of hc r ((by decide : ∀ r ∈ args, r ≠ main_v41) r hr)).trans (A9_arg hc r hr)
theorem B10_arg (r : Ref sig .tc) (hr : r ∈ args) : B10 r = W0 r :=
  (B10_of hc r ((by decide : ∀ r ∈ args, r ≠ main_v42) r hr)).trans (B9_arg hc r hr)
theorem A11_arg (r : Ref sig .tc) (hr : r ∈ args) : A11 r = W0 r :=
  (A11_of hc r ((by decide : ∀ r ∈ args, r ∉ hostOps11_W ∧ r ∉ hostOps11_1_W ∧ r ∉ hostOps11_2_W ∧ r ∉ hostOps11_3_W ∧ r ∉ hostOps11_4_W ∧ r ∉ hostOps11_5_W) r hr)).trans (B10_arg hc r hr)
theorem B11_arg (r : Ref sig .tc) (hr : r ∈ args) : B11 r = W0 r :=
  (B11_of hc r ((by decide : ∀ r ∈ args, r ≠ main_v57) r hr)).trans (A11_arg hc r hr)
theorem B12_arg (r : Ref sig .tc) (hr : r ∈ args) : B12 r = W0 r :=
  (B12_of hc r ((by decide : ∀ r ∈ args, r ≠ main_v58) r hr)).trans (B11_arg hc r hr)
theorem A13_arg (r : Ref sig .tc) (hr : r ∈ args) : A13 r = W0 r :=
  (A13_of hc r ((by decide : ∀ r ∈ args, r ∉ hostOps13_W ∧ r ∉ hostOps13_1_W ∧ r ∉ hostOps13_2_W ∧ r ∉ hostOps13_3_W ∧ r ∉ hostOps13_4_W ∧ r ∉ hostOps13_5_W) r hr)).trans (B12_arg hc r hr)
theorem B13_arg (r : Ref sig .tc) (hr : r ∈ args) : B13 r = W0 r :=
  (B13_of hc r ((by decide : ∀ r ∈ args, r ≠ main_v72) r hr)).trans (A13_arg hc r hr)
theorem B14_arg (r : Ref sig .tc) (hr : r ∈ args) : B14 r = W0 r :=
  (B14_of hc r ((by decide : ∀ r ∈ args, r ≠ main_v73) r hr)).trans (B13_arg hc r hr)

/-! ## Regions 0 to 2 and the word→word mean -/

theorem B0_v0 : cur2 (B0 main_v0 : S50000x128.Idx → EReal) = x0 W0 := by
  rewrite [hc.e0]
  rfl

theorem A1_v1 : cur2 (A1 main_v1 : S50176x128.Idx → EReal) = padRows 50176 (x0 W0) := by
  rewrite [hc.a1, H1_v1, B0_v0 hc]
  rfl
theorem A1_v2 : cur1 (A1 main_v2 : S800768.Idx → BitVec 32) = pad1 800768 (IofW W0).ww_src 0#32 := by
  rewrite [hc.a1, H1_v2, B0_arg hc main_arg12 (by decide)]
  rfl
theorem A1_v3 : cur1 (A1 main_v3 : S800768.Idx → BitVec 32) = pad1 800768 (IofW W0).ww_dst 0#32 := by
  rewrite [hc.a1, H1_v3, B0_arg hc main_arg13 (by decide)]
  rfl
theorem A1_v4 : cur1 (A1 main_v4 : S800768.Idx → EReal) = pad1 800768 (IofW W0).ww_w 0 := by
  rewrite [hc.a1, H1_v4, B0_arg hc main_arg14 (by decide)]
  rfl

theorem B1_v5 : cur2 (B1 main_v5 : S800768x128.Idx → EReal)
    = gat (pad1 800768 (IofW W0).ww_src 0#32) (pad1 800768 (IofW W0).ww_w 0) (padRows 50176 (x0 W0)) := by
  rewrite [hc.e1, A1_v2 hc, A1_v4 hc, A1_v1 hc]
  rfl
theorem B1_v3 : cur1 (B1 main_v3 : S800768.Idx → BitVec 32) = pad1 800768 (IofW W0).ww_dst 0#32 := by
  rewrite [B1_of hc main_v3 (by decide)]
  exact A1_v3 hc

theorem B2_v6 : cur2 (B2 main_v6 : S50176x128.Idx → EReal)
    = sca (Nd := 50176) (pad1 800768 (IofW W0).ww_dst 0#32)
        (gat (pad1 800768 (IofW W0).ww_src 0#32) (pad1 800768 (IofW W0).ww_w 0) (padRows 50176 (x0 W0))) := by
  rewrite [hc.e2, B1_v3 hc, B1_v5 hc]
  rfl

theorem A3_v16 : cur2 (A3 main_v16 : S50000x128.Idx → EReal)
    = mean Ideal.div ((aggsK (IofW W0)).ww (x0 W0)) (cnt 50000 (IofW W0).ww_dst) := by
  rewrite [hc.a3, H3_v16, B2_v6 hc, B2_arg hc main_arg13 (by decide), ← aggsK_ww (IofW W0) (x0 W0)]
  rfl

/-! ## The word-side and topic-side dense layers: regions 3 to 6 -/

theorem B3_v17 : cur2 (B3 main_v17 : S50000x128.Idx → EReal)
    = lin (mean Ideal.div ((aggsK (IofW W0)).ww (x0 W0)) (cnt 50000 (IofW W0).ww_dst)) (IofW W0).Wwt (IofW W0).bwt := by
  rewrite [hc.e3, A3_v16 hc, A3_arg hc main_arg4 (by decide), A3_arg hc main_arg5 (by decide)]
  rfl

theorem B4_v18 : cur2 (B4 main_v18 : S50000x128.Idx → EReal) = wordK W0 := by
  rewrite [hc.e4, B3_v17 hc, B3_arg hc main_arg6 (by decide), B3_arg hc main_arg7 (by decide)]
  rfl

theorem B5_v19 : cur2 (B5 main_v19 : S4000x128.Idx → EReal) = lin (IofW W0).ht (IofW W0).Wtd (IofW W0).btd := by
  rewrite [hc.e5, B4_arg hc main_arg1 (by decide), B4_arg hc main_arg8 (by decide), B4_arg hc main_arg9 (by decide)]
  rfl

theorem B6_v20 : cur2 (B6 main_v20 : S4000x128.Idx → EReal) = topF W0 := by
  rewrite [hc.e6, B5_v19 hc, B5_arg hc main_arg10 (by decide), B5_arg hc main_arg11 (by decide)]
  rfl
theorem B6_v18 : cur2 (B6 main_v18 : S50000x128.Idx → EReal) = wordK W0 := by
  rewrite [B6_of hc main_v18 (by decide), B5_of hc main_v18 (by decide)]
  exact B4_v18 hc

/-! ## The word→topic relation: regions 7 and 8 -/

theorem A7_v21 : cur2 (A7 main_v21 : S50176x128.Idx → EReal) = padRows 50176 (wordK W0) := by
  rewrite [hc.a7, H7_v21, B6_v18 hc]
  rfl
theorem A7_v22 : cur2 (A7 main_v22 : S4096x128.Idx → EReal) = padRows 4096 (topF W0) := by
  rewrite [hc.a7, H7_v22, B6_v20 hc]
  rfl
theorem A7_v23 : cur1 (A7 main_v23 : S401408.Idx → BitVec 32) = pad1 401408 (IofW W0).wt_src 0#32 := by
  rewrite [hc.a7, H7_v23, B6_arg hc main_arg15 (by decide)]
  rfl
theorem A7_v24 : cur1 (A7 main_v24 : S401408.Idx → BitVec 32) = pad1 401408 (IofW W0).wt_dst 0#32 := by
  rewrite [hc.a7, H7_v24, B6_arg hc main_arg16 (by decide)]
  rfl
theorem A7_v25 : cur1 (A7 main_v25 : S401408.Idx → EReal) = pad1 401408 (IofW W0).wt_w 0 := by
  rewrite [hc.a7, H7_v25, B6_arg hc main_arg17 (by decide)]
  rfl

theorem B7_v26 : cur2 (B7 main_v26 : S401408x128.Idx → EReal)
    = gat (pad1 401408 (IofW W0).wt_src 0#32) (pad1 401408 (IofW W0).wt_w 0) (padRows 50176 (wordK W0)) := by
  rewrite [hc.e7, A7_v23 hc, A7_v25 hc, A7_v21 hc]
  rfl
theorem B7_v24 : cur1 (B7 main_v24 : S401408.Idx → BitVec 32) = pad1 401408 (IofW W0).wt_dst 0#32 := by
  rewrite [B7_of hc main_v24 (by decide)]
  exact A7_v24 hc

theorem B8_v27 : cur2 (B8 main_v27 : S4096x128.Idx → EReal)
    = sca (Nd := 4096) (pad1 401408 (IofW W0).wt_dst 0#32)
        (gat (pad1 401408 (IofW W0).wt_src 0#32) (pad1 401408 (IofW W0).wt_w 0) (padRows 50176 (wordK W0))) := by
  rewrite [hc.e8, B7_v24 hc, B7_v26 hc]
  rfl

/-! ## The topic→topic relation: regions 9 and 10, and the second result -/

theorem A9_v37 : cur2 (A9 main_v37 : S4000x128.Idx → EReal)
    = mean Ideal.div ((aggsK (IofW W0)).wt (wordK W0)) (cnt 4000 (IofW W0).wt_dst) := by
  rewrite [hc.a9, H9_v37, B8_v27 hc, B8_arg hc main_arg16 (by decide), ← aggsK_wt (IofW W0) (wordK W0)]
  rfl
theorem A9_v38 : cur1 (A9 main_v38 : S161792.Idx → BitVec 32) = pad1 161792 (IofW W0).tt_src 0#32 := by
  rewrite [hc.a9, H9_v38, B8_arg hc main_arg24 (by decide)]
  rfl
theorem A9_v39 : cur1 (A9 main_v39 : S161792.Idx → BitVec 32) = pad1 161792 (IofW W0).tt_dst 0#32 := by
  rewrite [hc.a9, H9_v39, B8_arg hc main_arg25 (by decide)]
  rfl
theorem A9_v40 : cur1 (A9 main_v40 : S161792.Idx → EReal) = pad1 161792 (IofW W0).tt_w 0 := by
  rewrite [hc.a9, H9_v40, B8_arg hc main_arg26 (by decide)]
  rfl
theorem A9_v22 : cur2 (A9 main_v22 : S4096x128.Idx → EReal) = padRows 4096 (topF W0) := by
  rewrite [A9_of hc main_v22 (by decide), B8_of hc main_v22 (by decide), B7_of hc main_v22 (by decide)]
  exact A7_v22 hc

theorem B9_v41 : cur2 (B9 main_v41 : S161792x128.Idx → EReal)
    = gat (pad1 161792 (IofW W0).tt_src 0#32) (pad1 161792 (IofW W0).tt_w 0) (padRows 4096 (topF W0)) := by
  rewrite [hc.e9, A9_v38 hc, A9_v40 hc, A9_v22 hc]
  rfl
theorem B9_v39 : cur1 (B9 main_v39 : S161792.Idx → BitVec 32) = pad1 161792 (IofW W0).tt_dst 0#32 := by
  rewrite [B9_of hc main_v39 (by decide)]
  exact A9_v39 hc

theorem B10_v42 : cur2 (B10 main_v42 : S4096x128.Idx → EReal)
    = sca (Nd := 4096) (pad1 161792 (IofW W0).tt_dst 0#32)
        (gat (pad1 161792 (IofW W0).tt_src 0#32) (pad1 161792 (IofW W0).tt_w 0) (padRows 4096 (topF W0))) := by
  rewrite [hc.e10, B9_v39 hc, B9_v41 hc]
  rfl
theorem B10_v37 : cur2 (α := EReal) (A := 4000) (B := 128) (B10 main_v37)
    = mean Ideal.div ((aggsK (IofW W0)).wt (wordK W0)) (cnt 4000 (IofW W0).wt_dst) := by
  rewrite [B10_of hc main_v37 (by decide), B9_of hc main_v37 (by decide)]
  exact A9_v37 hc

theorem A11_v53 : cur2 (A11 main_v53 : S4000x128.Idx → EReal) = topic Ideal.div (IofW W0) (aggsK (IofW W0)) := by
  rewrite [hc.a11, H11_v53, B10_v37 hc, B10_v42 hc, B10_arg hc main_arg25 (by decide), ← aggsK_tt (IofW W0) (topF W0)]
  rfl

/-! ## The word→doc relation: regions 11 and 12 -/

theorem A11_v54 : cur1 (A11 main_v54 : S401408.Idx → BitVec 32) = pad1 401408 (IofW W0).wd_src 0#32 := by
  rewrite [hc.a11, H11_v54, B10_arg hc main_arg18 (by decide)]
  rfl
theorem A11_v55 : cur1 (A11 main_v55 : S401408.Idx → BitVec 32) = pad1 401408 (IofW W0).wd_dst 0#32 := by
  rewrite [hc.a11, H11_v55, B10_arg hc main_arg19 (by decide)]
  rfl
theorem A11_v56 : cur1 (A11 main_v56 : S401408.Idx → EReal) = pad1 401408 (IofW W0).wd_w 0 := by
  rewrite [hc.a11, H11_v56, B10_arg hc main_arg20 (by decide)]
  rfl
theorem A11_v21 : cur2 (A11 main_v21 : S50176x128.Idx → EReal) = padRows 50176 (wordK W0) := by
  rewrite [A11_of hc main_v21 (by decide), B10_of hc main_v21 (by decide), B9_of hc main_v21 (by decide),
    A9_of hc main_v21 (by decide), B8_of hc main_v21 (by decide), B7_of hc main_v21 (by decide)]
  exact A7_v21 hc

theorem B11_v57 : cur2 (B11 main_v57 : S401408x128.Idx → EReal)
    = gat (pad1 401408 (IofW W0).wd_src 0#32) (pad1 401408 (IofW W0).wd_w 0) (padRows 50176 (wordK W0)) := by
  rewrite [hc.e11, A11_v54 hc, A11_v56 hc, A11_v21 hc]
  rfl
theorem B11_v55 : cur1 (B11 main_v55 : S401408.Idx → BitVec 32) = pad1 401408 (IofW W0).wd_dst 0#32 := by
  rewrite [B11_of hc main_v55 (by decide)]
  exact A11_v55 hc

theorem B12_v58 : cur2 (B12 main_v58 : S20480x128.Idx → EReal)
    = sca (Nd := 20480) (pad1 401408 (IofW W0).wd_dst 0#32)
        (gat (pad1 401408 (IofW W0).wd_src 0#32) (pad1 401408 (IofW W0).wd_w 0) (padRows 50176 (wordK W0))) := by
  rewrite [hc.e12, B11_v55 hc, B11_v57 hc]
  rfl

/-! ## The topic→doc relation: regions 13 and 14, and the third result -/

theorem A13_v68 : cur2 (A13 main_v68 : S20000x128.Idx → EReal)
    = mean Ideal.div ((aggsK (IofW W0)).wd (wordK W0)) (cnt 20000 (IofW W0).wd_dst) := by
  rewrite [hc.a13, H13_v68, B12_v58 hc, B12_arg hc main_arg19 (by decide), ← aggsK_wd (IofW W0) (wordK W0)]
  rfl
theorem A13_v69 : cur1 (A13 main_v69 : S161792.Idx → BitVec 32) = pad1 161792 (IofW W0).td_src 0#32 := by
  rewrite [hc.a13, H13_v69, B12_arg hc main_arg21 (by decide)]
  rfl
theorem A13_v70 : cur1 (A13 main_v70 : S161792.Idx → BitVec 32) = pad1 161792 (IofW W0).td_dst 0#32 := by
  rewrite [hc.a13, H13_v70, B12_arg hc main_arg22 (by decide)]
  rfl
theorem A13_v71 : cur1 (A13 main_v71 : S161792.Idx → EReal) = pad1 161792 (IofW W0).td_w 0 := by
  rewrite [hc.a13, H13_v71, B12_arg hc main_arg23 (by decide)]
  rfl
theorem A13_v22 : cur2 (A13 main_v22 : S4096x128.Idx → EReal) = padRows 4096 (topF W0) := by
  rewrite [A13_of hc main_v22 (by decide), B12_of hc main_v22 (by decide), B11_of hc main_v22 (by decide),
    A11_of hc main_v22 (by decide), B10_of hc main_v22 (by decide), B9_of hc main_v22 (by decide)]
  exact A9_v22 hc

theorem B13_v72 : cur2 (B13 main_v72 : S161792x128.Idx → EReal)
    = gat (pad1 161792 (IofW W0).td_src 0#32) (pad1 161792 (IofW W0).td_w 0) (padRows 4096 (topF W0)) := by
  rewrite [hc.e13, A13_v69 hc, A13_v71 hc, A13_v22 hc]
  rfl
theorem B13_v70 : cur1 (B13 main_v70 : S161792.Idx → BitVec 32) = pad1 161792 (IofW W0).td_dst 0#32 := by
  rewrite [B13_of hc main_v70 (by decide)]
  exact A13_v70 hc

theorem B14_v73 : cur2 (B14 main_v73 : S20480x128.Idx → EReal)
    = sca (Nd := 20480) (pad1 161792 (IofW W0).td_dst 0#32)
        (gat (pad1 161792 (IofW W0).td_src 0#32) (pad1 161792 (IofW W0).td_w 0) (padRows 4096 (topF W0))) := by
  rewrite [hc.e14, B13_v70 hc, B13_v72 hc]
  rfl
theorem B14_v68 : cur2 (α := EReal) (A := 20000) (B := 128) (B14 main_v68)
    = mean Ideal.div ((aggsK (IofW W0)).wd (wordK W0)) (cnt 20000 (IofW W0).wd_dst) := by
  rewrite [B14_of hc main_v68 (by decide), B13_of hc main_v68 (by decide)]
  exact A13_v68 hc

theorem A15_v84 : cur2 (A15 main_v84 : S20000x128.Idx → EReal) = doc Ideal.div (IofW W0) (aggsK (IofW W0)) := by
  rewrite [hc.a15, H15_v84, B14_v68 hc, B14_v73 hc, B14_arg hc main_arg22 (by decide), ← aggsK_td (IofW W0) (topF W0)]
  rfl

/-! ## The first two results reach the end as they were written -/

theorem A15_v53 : cur2 (A15 main_v53 : S4000x128.Idx → EReal) = topic Ideal.div (IofW W0) (aggsK (IofW W0)) := by
  rewrite [A15_of hc main_v53 (by decide), B14_of hc main_v53 (by decide), B13_of hc main_v53 (by decide),
    A13_of hc main_v53 (by decide), B12_of hc main_v53 (by decide), B11_of hc main_v53 (by decide)]
  exact A11_v53 hc

theorem A15_v18 : cur2 (A15 main_v18 : S50000x128.Idx → EReal) = wordK W0 := by
  rewrite [A15_of hc main_v18 (by decide), B14_of hc main_v18 (by decide), B13_of hc main_v18 (by decide),
    A13_of hc main_v18 (by decide), B12_of hc main_v18 (by decide), B11_of hc main_v18 (by decide),
    A11_of hc main_v18 (by decide), B10_of hc main_v18 (by decide), B9_of hc main_v18 (by decide),
    A9_of hc main_v18 (by decide), B8_of hc main_v18 (by decide), B7_of hc main_v18 (by decide),
    A7_of hc main_v18 (by decide)]
  exact B6_v18 hc

/-! ## The three results -/

/-- At the end of @main the three result buffers hold the word, topic and document features of the kernel's mathematics. -/
theorem chain_values :
    (A15 main_v18 : S50000x128.Idx → EReal) = unc2 (word Ideal.div (IofW W0) (aggsK (IofW W0)))
    ∧ (A15 main_v53 : S4000x128.Idx → EReal) = unc2 (topic Ideal.div (IofW W0) (aggsK (IofW W0)))
    ∧ (A15 main_v84 : S20000x128.Idx → EReal) = unc2 (doc Ideal.div (IofW W0) (aggsK (IofW W0))) :=
  ⟨eq_unc2_of_cur2 _ _ (A15_v18 hc), eq_unc2_of_cur2 _ _ (A15_v53 hc), eq_unc2_of_cur2 _ _ (A15_v84 hc)⟩

end Cert.KernelIdeal.H

end
-- ==== Proof.KI.LV0.lean ====
/-
  The dense-layer launch on the word features, at the ideal values: what its output array holds after the run.
  Each grid point stores, into its block of 2000 rows, the payload of the point's three input blocks; at row r and
  column q of the block the payload is the sum over k of x (r, k) · W (q, k), plus b q; the block of x at point t is
  rows 2000 t … of x and the blocks of W and b are the whole arrays; the 25 blocks cover the 50000 rows.  So the
  array ends holding x Wᵀ + b, row by row.
-/
import proofs.«407232_j23192823399226_1_alg».proof.Proof.KI.L0
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What the body leaves in the output block -/

theorem hz0 : (![0, 0] : Fin 2 → Nat) = fun _ => 0 := funext fun a => by fin_cases a <;> rfl
theorem hzv0 : (![0] : Fin 1 → Nat) = fun _ => 0 := funext fun a => by fin_cases a; rfl

/-- The output block after the body is the dense-layer payload of the three input blocks. -/
theorem out0_3_eq (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    out0_3 c i arg1 harg1 arg2 harg2 arg3 harg3 arg4 harg4 x0 x1 x2 = k0_pay1 x0 x1 x2 := by
  unfold out0_3
  rw [View.read_writes_eq_canon _ _ _ (cover0_3 c i arg1 harg1 arg2 harg2 arg3 harg3 arg4 harg4 x0 x1 x2)]
  unfold kernelRun0
  dsimp only
  sl_unfold_words
  rw [View.canon_unit_zero hz0]
  simp only [View.readAt_eq_ld, harg1.read_unread, harg2.read_unread, harg3.read_unread,
    View.ld_unit_zero (S := S2000x128) hz0, View.ld_unit_zero (S := S128x128) hz0, View.ld_unit_zero (S := S128) hzv0]

/-! ## The payload at an index -/

theorem lhsA_pay0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsB_pay0 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_pay0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsB_pay0 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at row r and column q: the sum over k of x (r, k) · y (k, q). -/
theorem matmul0_apply (x : FVec Ideal S2000x128 .bf16) (y : FVec Ideal S128x128 .bf16) (r : Fin 2000) (q : Fin 128) :
    matmul dot_S2000x128_S128x128_S2000x128_1_0_0_1_n_n none x y (constant (F := Ideal) S2000x128 .f32 0x00000000#32) (ix2 r q)
      = ∑ k : Fin 128, x (ix2 r k) * y (ix2 k q) := by
  refine (Ideal.matmul_constant_zero_apply dot_S2000x128_S128x128_S2000x128_1_0_0_1_n_n none x y (ix2 r q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact lhsA_pay0 _ _
    | ⟨1, _⟩ => exact (lhsB_pay0 _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (rhsA_pay0 _ _).trans hk
    | ⟨1, _⟩ => exact rhsB_pay0 _ _)
  rw [el, er]

/-- The bias row, broadcast down the block, at (r, q). -/
theorem bias0_apply (b : FVec Ideal S128 .f32) (r : Fin 2000) (q : Fin 128) :
    broadcastTo S2000x128 (shapeCast S1x128 b shapeCasts_S128_S1x128) broadcasts_S1x128_S2000x128 (ix2 r q) = b (ix1 q) := by
  refine (broadcastTo_apply _ broadcasts_S1x128_S2000x128 (ix2 r q) (ix2 (0 : Fin 1) q) (fun a => ?_)).trans ?_
  · match a with
    | ⟨0, _⟩ => show 0 = if (1 : Nat) = 1 then 0 else _; rw [if_pos rfl]
    | ⟨1, _⟩ => show q.val = if (128 : Nat) = 1 then 0 else q.val; rw [if_neg (by decide)]
  · refine (shapeCast_addUnit_apply ![128] b shapeCasts_S128_S1x128 (ix2 (0 : Fin 1) q)).trans ?_
    exact congrArg b (funext fun a => by match a with | ⟨0, _⟩ => rfl)

/-- The dense-layer payload at row r and column q of the block: row r of x against row q of W, plus b q. -/
theorem pay0_apply (x0 : Vec Ideal S2000x128 .f32) (x1 : Vec Ideal S128x128 .f32) (x2 : Vec Ideal S128 .f32) (r : Fin 2000) (q : Fin 128) :
    k0_pay1 (F := Ideal) x0 x1 x2 (ix2 r q) = (∑ k : Fin 128, x0 (ix2 r k) * x1 (ix2 q k)) + x2 (ix1 q) := by
  unfold k0_pay1
  refine (addf_apply _ _ (ix2 r q)).trans ?_
  refine congrArg₂ (· + ·) ?_ (bias0_apply x2 r q)
  refine (matmul0_apply _ _ r q).trans ?_
  refine Finset.sum_congr rfl fun k _ => ?_
  refine congrArg₂ (· * ·) rfl ?_
  exact transpose_apply [1, 0] _ transposes_S128x128_p1_0_S128x128 (ix2 k q) (ix2 q k) (fun b => match b with
    | ⟨0, _⟩ => rfl
    | ⟨1, _⟩ => rfl)

/-! ## From the blocks to the array -/

section
variable (V : (c : Dev nD) → (b : Ref sig .tc) → Buf (Elt Ideal) ((c : Thread nD τ).loc b))

/-- The dense layer of the arrays as the region finds them. -/
abbrev G0 (c : Dev nD) : S50000x128.Idx → EReal :=
  Cert.Spec.unc2 (Cert.Spec.lin (Cert.Spec.cur2 (V c main_arg0 : S50000x128.Idx → EReal)) (Cert.Spec.cur2 (V c main_arg2 : S128x128.Idx → EReal)) (Cert.Spec.cur1 (V c main_arg3 : S128.Idx → EReal)))

/-- The index maps over the grid: the blocks of x and of the output are at block row t, W and b are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem flushAt0_3 : ∀ t : Fin cfg0.N, (cfg0.win 3).flush t = true :=
  (by decide +kernel : ∀ t : Fin grid0.N, win0_3.flush t = true)

/-- The block of x at point t is rows 2000 t … of x. -/
theorem xblk0_apply (c : Dev nD) (t : Fin cfg0.N) (r : Fin 2000) (k : Fin 128) (R : Fin 50000) (hR : R.val = 2000 * t.val + r.val) :
    (iblk0 V c 0 t : Vec Ideal S2000x128 .f32) (ix2 r k) = (V c main_arg0 : Vec Ideal S50000x128 .f32) (ix2 R k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * r.val = R.val; rw [e0, hR]; omega
  | ⟨1, _⟩ => show win0_0.index t (1 : Fin 2) * 128 + 1 * k.val = k.val; rw [e1]; omega

/-- The block of W at any point is W. -/
theorem wblk0_eq (c : Dev nD) (t : Fin cfg0.N) :
    (iblk0 V c 1 t : Vec Ideal S128x128 .f32) = (V c main_arg2 : Vec Ideal S128x128 .f32) := by
  obtain ⟨-, -, e0, e1, -⟩ := idx_facts0 t
  funext j
  unfold iblk0
  rw [View.read_apply]
  show V c main_arg2 _ = V c main_arg2 _
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The block of b at any point is b. -/
theorem bblk0_eq (c : Dev nD) (t : Fin cfg0.N) :
    (iblk0 V c 2 t : Vec Ideal S128 .f32) = (V c main_arg3 : Vec Ideal S128 .f32) := by
  obtain ⟨-, -, -, -, e0, -⟩ := idx_facts0 t
  funext j
  unfold iblk0
  rw [View.read_apply]
  show V c main_arg3 _ = V c main_arg3 _
  congr 1
  funext a
  apply Fin.ext
  match a with
  | ⟨0, _⟩ => show win0_2.index t (0 : Fin 1) * 128 + 1 * (j 0).val = (j 0).val; rw [e0]; omega

/-- The payload of blocks that are rows 2000 T … of X, all of W and all of B, at a block index, is the dense layer of
    X, W, B at the array index 2000 T rows further down. -/
theorem pay0_eq_lin (x0 : Vec Ideal S2000x128 .f32) (x1 : Vec Ideal S128x128 .f32) (x2 : Vec Ideal S128 .f32)
    (X : Vec Ideal S50000x128 .f32) (W : Vec Ideal S128x128 .f32) (B : Vec Ideal S128 .f32) (T : Nat)
    (h0 : ∀ (r : Fin 2000) (k : Fin 128) (R : Fin 50000), R.val = 2000 * T + r.val → x0 (ix2 r k) = X (ix2 R k))
    (h1 : x1 = W) (h2 : x2 = B) (j : S2000x128.Idx) (i : S50000x128.Idx)
    (hi0 : (i 0).val = 2000 * T + (j 0).val) (hi1 : (i 1).val = (j 1).val) :
    k0_pay1 (F := Ideal) x0 x1 x2 j = Cert.Spec.unc2 (Cert.Spec.lin (Cert.Spec.cur2 X) (Cert.Spec.cur2 W) (Cert.Spec.cur1 B)) i := by
  obtain ⟨r, q, rfl⟩ : ∃ (r : Fin 2000) (q : Fin 128), j = ix2 r q := ⟨j 0, j 1, eq_ix2 j⟩
  obtain ⟨R, Q, rfl⟩ : ∃ (R : Fin 50000) (Q : Fin 128), i = ix2 R Q := ⟨i 0, i 1, eq_ix2 i⟩
  obtain rfl : Q = q := Fin.ext hi1
  subst h1 h2
  rw [pay0_apply]
  show _ = (∑ k : Fin 128, X (ix2 R k) * x1 (ix2 Q k)) + x2 (ix1 Q)
  refine congrArg₂ (· + ·) (Finset.sum_congr rfl fun k _ => ?_) rfl
  rw [h0 r k R hi0]

/-- What point t writes back is block t of the dense layer of the arrays. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold outsAt0
  rw [out0_3_eq c (grid0.coords t) (ms0_0 t) (hs0_0 t) (ms0_1 t) (hs0_1 t) (ms0_2 t) (hs0_2 t) (ms0_3 t) (hs0_3 t) (iblk0 V c 0 t) (iblk0 V c 1 t) (iblk0 V c 2 t)]
  obtain ⟨-, -, -, -, -, e0, e1⟩ := idx_facts0 t
  funext j
  rw [View.read_apply]
  refine pay0_eq_lin (iblk0 V c 0 t) (iblk0 V c 1 t) (iblk0 V c 2 t) (V c main_arg0) (V c main_arg2) (V c main_arg3) t.val
    (xblk0_apply V c t) (wblk0_eq V c t) (bblk0_eq V c t) j (((cfg0.win 3).blk t).view.emb j) ?_ ?_
  · show win0_3.index t (0 : Fin 2) * 2000 + 1 * (j 0).val = 2000 * t.val + (j 0).val; rw [e0]; omega
  · show win0_3.index t (1 : Fin 2) * 128 + 1 * (j 1).val = (j 1).val; rw [e1]; omega

/-- An index of the array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- Row R of the array is in the block of point R / 2000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flushAt0_3 _, ?_⟩
  obtain ⟨-, -, -, -, -, e0, e1⟩ := idx_facts0 ⟨(i 0).val / 2000, by rw [hN]; omega⟩
  rw [mem_blk0]
  intro a
  match a with
  | ⟨0, _⟩ => show win0_3.index _ (0 : Fin 2) * 2000 ≤ (i 0).val ∧ (i 0).val < win0_3.index _ (0 : Fin 2) * 2000 + 2000; rw [e0]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e1]; omega

/-- The output array after the run is the dense layer of the arrays as the region finds them. -/
theorem lin_val0 (c : Dev nD) :
    ((dat0 (F := Ideal) V c).arrAt 3 cfg0.N : S50000x128.Idx → EReal)
      = Cert.Spec.unc2 (Cert.Spec.lin (Cert.Spec.cur2 (V c main_arg0 : S50000x128.Idx → EReal)) (Cert.Spec.cur2 (V c main_arg2 : S128x128.Idx → EReal)) (Cert.Spec.cur1 (V c main_arg3 : S128.Idx → EReal))) :=
  (dat0 (F := Ideal) V c).arrAt_eq_of_cover 3 (G0 V c) (fun t _ => flushed0_eq V c t) cover0

end

end Cert.KernelIdeal.H

end
-- ==== Proof.KI.LV3.lean ====
/-
  The second of the three dense-layer launches on 50000 rows, at the ideal values: what its
  output array holds after the run.
  Each grid point stores, into its block of 2000 rows, the payload of the point's three input blocks; at row r and
  column q of the block the payload is the sum over k of x (r, k) · W (q, k), plus b q (the block of x passes first
  through a reshape to its own shape, which reads every entry where it is); the block of x at point t is
  rows 2000 t … of x and the blocks of W and b are the whole arrays; the 25 blocks cover the 50000 rows.  So the
  array ends holding x Wᵀ + b, row by row.  The product at an index and the bias row at an index are the first
  dense-layer launch's lemmas: the dimension numbers and the shapes are the same.
-/
import proofs.«407232_j23192823399226_1_alg».proof.Proof.KI.LV0
import proofs.«407232_j23192823399226_1_alg».proof.Proof.KI.L3
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What the body leaves in the output block -/

/-- The output block after the body is the dense-layer payload of the three input blocks. -/
theorem out3_3_eq (c : Dev nD) (i : grid3.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    out3_3 c i arg1 harg1 arg2 harg2 arg3 harg3 arg4 harg4 x0 x1 x2 = k3_pay1 x0 x1 x2 := by
  unfold out3_3
  rw [View.read_writes_eq_canon _ _ _ (cover3_3 c i arg1 harg1 arg2 harg2 arg3 harg3 arg4 harg4 x0 x1 x2)]
  unfold kernelRun3
  dsimp only
  sl_unfold_words
  rw [View.canon_unit_zero hz0]
  simp only [View.readAt_eq_ld, harg1.read_unread, harg2.read_unread, harg3.read_unread,
    View.ld_unit_zero (S := S2000x128) hz0, View.ld_unit_zero (S := S128x128) hz0, View.ld_unit_zero (S := S128) hzv0]

/-! ## The payload at an index -/

/-- The dense-layer payload at row r and column q of the block: row r of x against row q of W, plus b q. -/
theorem pay3_apply (x0 : Vec Ideal S2000x128 .f32) (x1 : Vec Ideal S128x128 .f32) (x2 : Vec Ideal S128 .f32) (r : Fin 2000) (q : Fin 128) :
    k3_pay1 (F := Ideal) x0 x1 x2 (ix2 r q) = (∑ k : Fin 128, x0 (ix2 r k) * x1 (ix2 q k)) + x2 (ix1 q) := by
  unfold k3_pay1
  refine (addf_apply _ _ (ix2 r q)).trans ?_
  refine congrArg₂ (· + ·) ?_ (bias0_apply x2 r q)
  refine (matmul0_apply _ _ r q).trans ?_
  refine Finset.sum_congr rfl fun k _ => ?_
  refine congrArg₂ (· * ·) ?_ ?_
  · first
      | exact congrFun (shapeCast_self x0 shapeCasts_S2000x128_S2000x128) (ix2 r k)
      | rfl
  · exact transpose_apply [1, 0] _ transposes_S128x128_p1_0_S128x128 (ix2 k q) (ix2 q k) (fun b => match b with
      | ⟨0, _⟩ => rfl
      | ⟨1, _⟩ => rfl)

/-! ## From the blocks to the array -/

section
variable (V : (c : Dev nD) → (b : Ref sig .tc) → Buf (Elt Ideal) ((c : Thread nD τ).loc b))

/-- The dense layer of the arrays as the region finds them. -/
abbrev G3 (c : Dev nD) : S50000x128.Idx → EReal :=
  Cert.Spec.unc2 (Cert.Spec.lin (Cert.Spec.cur2 (V c main_v16 : S50000x128.Idx → EReal)) (Cert.Spec.cur2 (V c main_arg4 : S128x128.Idx → EReal)) (Cert.Spec.cur1 (V c main_arg5 : S128.Idx → EReal)))

/-- The index maps over the grid: the blocks of x and of the output are at block row t, W and b are whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

theorem flushAt3_3 : ∀ t : Fin cfg3.N, (cfg3.win 3).flush t = true :=
  (by decide +kernel : ∀ t : Fin grid3.N, win3_3.flush t = true)

/-- The block of x at point t is rows 2000 t … of x. -/
theorem xblk3_apply (c : Dev nD) (t : Fin cfg3.N) (r : Fin 2000) (k : Fin 128) (R : Fin 50000) (hR : R.val = 2000 * t.val + r.val) :
    (iblk3 V c 0 t : Vec Ideal S2000x128 .f32) (ix2 r k) = (V c main_v16 : Vec Ideal S50000x128 .f32) (ix2 R k) := by
  obtain ⟨e0, e1, -⟩ := idx_facts3 t
  unfold iblk3
  rw [View.read_apply]
  show V c main_v16 _ = V c main_v16 _
  congr 1
  funext a
  apply Fin.ext
  match a with
  | ⟨0, _⟩ => show win3_0.index t (0 : Fin 2) * 2000 + 1 * r.val = R.val; rw [e0, hR]; omega
  | ⟨1, _⟩ => show win3_0.index t (1 : Fin 2) * 128 + 1 * k.val = k.val; rw [e1]; omega

/-- The block of W at any point is W. -/
theorem wblk3_eq (c : Dev nD) (t : Fin cfg3.N) :
    (iblk3 V c 1 t : Vec Ideal S128x128 .f32) = (V c main_arg4 : Vec Ideal S128x128 .f32) := by
  obtain ⟨-, -, e0, e1, -⟩ := idx_facts3 t
  funext j
  unfold iblk3
  rw [View.read_apply]
  show V c main_arg4 _ = V c main_arg4 _
  congr 1
  funext a
  apply Fin.ext
  match a with
  | ⟨0, _⟩ => show win3_1.index t (0 : Fin 2) * 128 + 1 * (j 0).val = (j 0).val; rw [e0]; omega
  | ⟨1, _⟩ => show win3_1.index t (1 : Fin 2) * 128 + 1 * (j 1).val = (j 1).val; rw [e1]; omega

/-- The block of b at any point is b. -/
theorem bblk3_eq (c : Dev nD) (t : Fin cfg3.N) :
    (iblk3 V c 2 t : Vec Ideal S128 .f32) = (V c main_arg5 : Vec Ideal S128 .f32) := by
  obtain ⟨-, -, -, -, e0, -⟩ := idx_facts3 t
  funext j
  unfold iblk3
  rw [View.read_apply]
  show V c main_arg5 _ = V c main_arg5 _
  congr 1
  funext a
  apply Fin.ext
  match a with
  | ⟨0, _⟩ => show win3_2.index t (0 : Fin 1) * 128 + 1 * (j 0).val = (j 0).val; rw [e0]; omega

/-- The payload of blocks that are rows 2000 T … of X, all of W and all of B, at a block index, is the dense layer of
    X, W, B at the array index 2000 T rows further down. -/
theorem pay3_eq_lin (x0 : Vec Ideal S2000x128 .f32) (x1 : Vec Ideal S128x128 .f32) (x2 : Vec Ideal S128 .f32)
    (X : Vec Ideal S50000x128 .f32) (W : Vec Ideal S128x128 .f32) (B : Vec Ideal S128 .f32) (T : Nat)
    (h0 : ∀ (r : Fin 2000) (k : Fin 128) (R : Fin 50000), R.val = 2000 * T + r.val → x0 (ix2 r k) = X (ix2 R k))
    (h1 : x1 = W) (h2 : x2 = B) (j : S2000x128.Idx) (i : S50000x128.Idx)
    (hi0 : (i 0).val = 2000 * T + (j 0).val) (hi1 : (i 1).val = (j 1).val) :
    k3_pay1 (F := Ideal) x0 x1 x2 j = Cert.Spec.unc2 (Cert.Spec.lin (Cert.Spec.cur2 X) (Cert.Spec.cur2 W) (Cert.Spec.cur1 B)) i := by
  obtain ⟨r, q, rfl⟩ : ∃ (r : Fin 2000) (q : Fin 128), j = ix2 r q := ⟨j 0, j 1, eq_ix2 j⟩
  obtain ⟨R, Q, rfl⟩ : ∃ (R : Fin 50000) (Q : Fin 128), i = ix2 R Q := ⟨i 0, i 1, eq_ix2 i⟩
  obtain rfl : Q = q := Fin.ext hi1
  subst h1 h2
  rw [pay3_apply]
  show _ = (∑ k : Fin 128, X (ix2 R k) * x1 (ix2 Q k)) + x2 (ix1 Q)
  refine congrArg₂ (· + ·) (Finset.sum_congr rfl fun k _ => ?_) rfl
  rw [h0 r k R hi0]

/-- What point t writes back is block t of the dense layer of the arrays. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  unfold outsAt3
  rw [out3_3_eq c (grid3.coords t) (ms3_0 t) (hs3_0 t) (ms3_1 t) (hs3_1 t) (ms3_2 t) (hs3_2 t) (ms3_3 t) (hs3_3 t) (iblk3 V c 0 t) (iblk3 V c 1 t) (iblk3 V c 2 t)]
  obtain ⟨-, -, -, -, -, e0, e1⟩ := idx_facts3 t
  funext j
  rw [View.read_apply]
  refine pay3_eq_lin (iblk3 V c 0 t) (iblk3 V c 1 t) (iblk3 V c 2 t) (V c main_v16) (V c main_arg4) (V c main_arg5) t.val
    (xblk3_apply V c t) (wblk3_eq V c t) (bblk3_eq V c t) j (((cfg3.win 3).blk t).view.emb j) ?_ ?_
  · show win3_3.index t (0 : Fin 2) * 2000 + 1 * (j 0).val = 2000 * t.val + (j 0).val; rw [e0]; omega
  · show win3_3.index t (1 : Fin 2) * 128 + 1 * (j 1).val = (j 1).val; rw [e1]; omega

/-- An index of the array is in point t's block iff each coordinate is in the block's range on its axis. -/
theorem mem_blk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v17).slice (win3_3.rect t)).set ↔ _
  rw [View.set_slice_whole, Rect.mem_set_unit]
  exact Iff.rfl

/-- Row R of the array is in the block of point R / 2000. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  refine ⟨⟨(i 0).val / 2000, by rw [hN]; omega⟩, flushAt3_3 _, ?_⟩
  obtain ⟨-, -, -, -, -, e0, e1⟩ := idx_facts3 ⟨(i 0).val / 2000, by rw [hN]; omega⟩
  rw [mem_blk3]
  intro a
  match a with
  | ⟨0, _⟩ => show win3_3.index _ (0 : Fin 2) * 2000 ≤ (i 0).val ∧ (i 0).val < win3_3.index _ (0 : Fin 2) * 2000 + 2000; rw [e0]; show (i 0).val / 2000 * 2000 ≤ (i 0).val ∧ (i 0).val < (i 0).val / 2000 * 2000 + 2000; omega
  | ⟨1, _⟩ => show win3_3.index _ (1 : Fin 2) * 128 ≤ (i 1).val ∧ (i 1).val < win3_3.index _ (1 : Fin 2) * 128 + 128; rw [e1]; omega

/-- The output array after the run is the dense layer of the arrays as the region finds them. -/
theorem lin_val3 (c : Dev nD) :
    ((dat3 (F := Ideal) V c).arrAt 3 cfg3.N : S50000x128.Idx → EReal)
      = Cert.Spec.unc2 (Cert.Spec.lin (Cert.Spec.cur2 (V c main_v16 : S50000x128.Idx → EReal)) (Cert.Spec.cur2 (V c main_arg4 : S128x128.Idx → EReal)) (Cert.Spec.cur1 (V c main_arg5 : S128.Idx → EReal))) :=
  (dat3 (F := Ideal) V c).arrAt_eq_of_cover 3 (G3 V c) (fun t _ => flushed3_eq V c t) cover3

end

end Cert.KernelIdeal.H

end
-- ==== Proof.KI.LV4.lean ====
/-
  The third of the three dense-layer launches on 50000 rows, at the ideal values: what its
  output array holds after the run.
  Each grid point stores, into its block of 2000 rows, the payload of the point's three input blocks; at row r and
  column q of the block the payload is the sum over k of x (r, k) · W (q, k), plus b q (the block of x passes first
  through a reshape to its own shape, which reads every entry where it is); the block of x at point t is
  rows 2000 t … of x and the blocks of W and b are the whole arrays; the 25 blocks cover the 50000 rows.  So the
  array ends holding x Wᵀ + b, row by row.  The product at an index and the bias row at an index are the first
  dense-layer launch's lemmas: the dimension numbers and the shapes are the same.
-/
import proofs.«407232_j23192823399226_1_alg».proof.Proof.KI.LV0
import proofs.«407232_j23192823399226_1_alg».proof.Proof.KI.L4
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What the body leaves in the output block -/

/-- The output block after the body is the dense-layer payload of the three input blocks. -/
theorem out4_3_eq (c : Dev nD) (i : grid4.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    out4_3 c i arg1 harg1 arg2 harg2 arg3 harg3 arg4 harg4 x0 x1 x2 = k4_pay1 x0 x1 x2 := by
  unfold out4_3
  rw [View.read_writes_eq_canon _ _ _ (cover4_3 c i arg1 harg1 arg2 harg2 arg3 harg3 arg4 harg4 x0 x1 x2)]
  unfold kernelRun4
  dsimp only
  sl_unfold_words
  rw [View.canon_unit_zero hz0]
  simp only [View.readAt_eq_ld, harg1.read_unread, harg2.read_unread, harg3.read_unread,
    View.ld_unit_zero (S := S2000x128) hz0, View.ld_unit_zero (S := S128x128) hz0, View.ld_unit_zero (S := S128) hzv0]

/-! ## The payload at an index -/

/-- The dense-layer payload at row r and column q of the block: row r of x against row q of W, plus b q. -/
theorem pay4_apply (x0 : Vec Ideal S2000x128 .f32) (x1 : Vec Ideal S128x128 .f32) (x2 : Vec Ideal S128 .f32) (r : Fin 2000) (q : Fin 128) :
    k4_pay1 (F := Ideal) x0 x1 x2 (ix2 r q) = (∑ k : Fin 128, x0 (ix2 r k) * x1 (ix2 q k)) + x2 (ix1 q) := by
  unfold k4_pay1
  refine (addf_apply _ _ (ix2 r q)).trans ?_
  refine congrArg₂ (· + ·) ?_ (bias0_apply x2 r q)
  refine (matmul0_apply _ _ r q).trans ?_
  refine Finset.sum_congr rfl fun k _ => ?_
  refine congrArg₂ (· * ·) ?_ ?_
  · first
      | exact congrFun (shapeCast_self x0 shapeCasts_S2000x128_S2000x128) (ix2 r k)
      | rfl
  · exact transpose_apply [1, 0] _ transposes_S128x128_p1_0_S128x128 (ix2 k q) (ix2 q k) (fun b => match b with
      | ⟨0, _⟩ => rfl
      | ⟨1, _⟩ => rfl)

/-! ## From the blocks to the array -/

section
variable (V : (c : Dev nD) → (b : Ref sig .tc) → Buf (Elt Ideal) ((c : Thread nD τ).loc b))

/-- The dense layer of the arrays as the region finds them. -/
abbrev G4 (c : Dev nD) : S50000x128.Idx → EReal :=
  Cert.Spec.unc2 (Cert.Spec.lin (Cert.Spec.cur2 (V c main_v17 : S50000x128.Idx → EReal)) (Cert.Spec.cur2 (V c main_arg6 : S128x128.Idx → EReal)) (Cert.Spec.cur1 (V c main_arg7 : S128.Idx → EReal)))

/-- The index maps over the grid: the blocks of x and of the output are at block row t, W and b are whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

theorem flushAt4_3 : ∀ t : Fin cfg4.N, (cfg4.win 3).flush t = true :=
  (by decide +kernel : ∀ t : Fin grid4.N, win4_3.flush t = true)

/-- The block of x at point t is rows 2000 t … of x. -/
theorem xblk4_apply (c : Dev nD) (t : Fin cfg4.N) (r : Fin 2000) (k : Fin 128) (R : Fin 50000) (hR : R.val = 2000 * t.val + r.val) :
    (iblk4 V c 0 t : Vec Ideal S2000x128 .f32) (ix2 r k) = (V c main_v17 : Vec Ideal S50000x128 .f32) (ix2 R k) := by
  obtain ⟨e0, e1, -⟩ := idx_facts4 t
  unfold iblk4
  rw [View.read_apply]
  show V c main_v17 _ = V c main_v17 _
  congr 1
  funext a
  apply Fin.ext
  match a with
  | ⟨0, _⟩ => show win4_0.index t (0 : Fin 2) * 2000 + 1 * r.val = R.val; rw [e0, hR]; omega
  | ⟨1, _⟩ => show win4_0.index t (1 : Fin 2) * 128 + 1 * k.val = k.val; rw [e1]; omega

/-- The block of W at any point is W. -/
theorem wblk4_eq (c : Dev nD) (t : Fin cfg4.N) :
    (iblk4 V c 1 t : Vec Ideal S128x128 .f32) = (V c main_arg6 : Vec Ideal S128x128 .f32) := by
  obtain ⟨-, -, e0, e1, -⟩ := idx_facts4 t
  funext j
  unfold iblk4
  rw [View.read_apply]
  show V c main_arg6 _ = V c main_arg6 _
  congr 1
  funext a
  apply Fin.ext
  match a with
  | ⟨0, _⟩ => show win4_1.index t (0 : Fin 2) * 128 + 1 * (j 0).val = (j 0).val; rw [e0]; omega
  | ⟨1, _⟩ => show win4_1.index t (1 : Fin 2) * 128 + 1 * (j 1).val = (j 1).val; rw [e1]; omega

/-- The block of b at any point is b. -/
theorem bblk4_eq (c : Dev nD) (t : Fin cfg4.N) :
    (iblk4 V c 2 t : Vec Ideal S128 .f32) = (V c main_arg7 : Vec Ideal S128 .f32) := by
  obtain ⟨-, -, -, -, e0, -⟩ := idx_facts4 t
  funext j
  unfold iblk4
  rw [View.read_apply]
  show V c main_arg7 _ = V c main_arg7 _
  congr 1
  funext a
  apply Fin.ext
  match a with
  | ⟨0, _⟩ => show win4_2.index t (0 : Fin 1) * 128 + 1 * (j 0).val = (j 0).val; rw [e0]; omega

/-- The payload of blocks that are rows 2000 T … of X, all of W and all of B, at a block index, is the dense layer of
    X, W, B at the array index 2000 T rows further down. -/
theorem pay4_eq_lin (x0 : Vec Ideal S2000x128 .f32) (x1 : Vec Ideal S128x128 .f32) (x2 : Vec Ideal S128 .f32)
    (X : Vec Ideal S50000x128 .f32) (W : Vec Ideal S128x128 .f32) (B : Vec Ideal S128 .f32) (T : Nat)
    (h0 : ∀ (r : Fin 2000) (k : Fin 128) (R : Fin 50000), R.val = 2000 * T + r.val → x0 (ix2 r k) = X (ix2 R k))
    (h1 : x1 = W) (h2 : x2 = B) (j : S2000x128.Idx) (i : S50000x128.Idx)
    (hi0 : (i 0).val = 2000 * T + (j 0).val) (hi1 : (i 1).val = (j 1).val) :
    k4_pay1 (F := Ideal) x0 x1 x2 j = Cert.Spec.unc2 (Cert.Spec.lin (Cert.Spec.cur2 X) (Cert.Spec.cur2 W) (Cert.Spec.cur1 B)) i := by
  obtain ⟨r, q, rfl⟩ : ∃ (r : Fin 2000) (q : Fin 128), j = ix2 r q := ⟨j 0, j 1, eq_ix2 j⟩
  obtain ⟨R, Q, rfl⟩ : ∃ (R : Fin 50000) (Q : Fin 128), i = ix2 R Q := ⟨i 0, i 1, eq_ix2 i⟩
  obtain rfl : Q = q := Fin.ext hi1
  subst h1 h2
  rw [pay4_apply]
  show _ = (∑ k : Fin 128, X (ix2 R k) * x1 (ix2 Q k)) + x2 (ix1 Q)
  refine congrArg₂ (· + ·) (Finset.sum_congr rfl fun k _ => ?_) rfl
  rw [h0 r k R hi0]

/-- What point t writes back is block t of the dense layer of the arrays. -/
theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_3]
  unfold outsAt4
  rw [out4_3_eq c (grid4.coords t) (ms4_0 t) (hs4_0 t) (ms4_1 t) (hs4_1 t) (ms4_2 t) (hs4_2 t) (ms4_3 t) (hs4_3 t) (iblk4 V c 0 t) (iblk4 V c 1 t) (iblk4 V c 2 t)]
  obtain ⟨-, -, -, -, -, e0, e1⟩ := idx_facts4 t
  funext j
  rw [View.read_apply]
  refine pay4_eq_lin (iblk4 V c 0 t) (iblk4 V c 1 t) (iblk4 V c 2 t) (V c main_v17) (V c main_arg6) (V c main_arg7) t.val
    (xblk4_apply V c t) (wblk4_eq V c t) (bblk4_eq V c t) j (((cfg4.win 3).blk t).view.emb j) ?_ ?_
  · show win4_3.index t (0 : Fin 2) * 2000 + 1 * (j 0).val = 2000 * t.val + (j 0).val; rw [e0]; omega
  · show win4_3.index t (1 : Fin 2) * 128 + 1 * (j 1).val = (j 1).val; rw [e1]; omega

/-- An index of the array is in point t's block iff each coordinate is in the block's range on its axis. -/
theorem mem_blk4 (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v18).slice (win4_3.rect t)).set ↔ _
  rw [View.set_slice_whole, Rect.mem_set_unit]
  exact Iff.rfl

/-- Row R of the array is in the block of point R / 2000. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  refine ⟨⟨(i 0).val / 2000, by rw [hN]; omega⟩, flushAt4_3 _, ?_⟩
  obtain ⟨-, -, -, -, -, e0, e1⟩ := idx_facts4 ⟨(i 0).val / 2000, by rw [hN]; omega⟩
  rw [mem_blk4]
  intro a
  match a with
  | ⟨0, _⟩ => show win4_3.index _ (0 : Fin 2) * 2000 ≤ (i 0).val ∧ (i 0).val < win4_3.index _ (0 : Fin 2) * 2000 + 2000; rw [e0]; show (i 0).val / 2000 * 2000 ≤ (i 0).val ∧ (i 0).val < (i 0).val / 2000 * 2000 + 2000; omega
  | ⟨1, _⟩ => show win4_3.index _ (1 : Fin 2) * 128 ≤ (i 1).val ∧ (i 1).val < win4_3.index _ (1 : Fin 2) * 128 + 128; rw [e1]; omega

/-- The output array after the run is the dense layer of the arrays as the region finds them. -/
theorem lin_val4 (c : Dev nD) :
    ((dat4 (F := Ideal) V c).arrAt 3 cfg4.N : S50000x128.Idx → EReal)
      = Cert.Spec.unc2 (Cert.Spec.lin (Cert.Spec.cur2 (V c main_v17 : S50000x128.Idx → EReal)) (Cert.Spec.cur2 (V c main_arg6 : S128x128.Idx → EReal)) (Cert.Spec.cur1 (V c main_arg7 : S128.Idx → EReal))) :=
  (dat4 (F := Ideal) V c).arrAt_eq_of_cover 3 (G4 V c) (fun t _ => flushed4_eq V c t) cover4

end

end Cert.KernelIdeal.H

end
-- ==== Proof.KI.LV5.lean ====
/-
  The first of the two dense-layer launches on 4000 rows (on the topic features), at the ideal values: what its
  output array holds after the run.
  Each grid point stores, into its block of 2000 rows, the payload of the point's three input blocks; at row r and
  column q of the block the payload is the sum over k of x (r, k) · W (q, k), plus b q; the block of x at point t is
  rows 2000 t … of x and the blocks of W and b are the whole arrays; the 2 blocks cover the 4000 rows.  So the
  array ends holding x Wᵀ + b, row by row.  The product at an index and the bias row at an index are the first
  dense-layer launch's lemmas: the dimension numbers and the shapes are the same.
-/
import proofs.«407232_j23192823399226_1_alg».proof.Proof.KI.LV0
import proofs.«407232_j23192823399226_1_alg».proof.Proof.KI.L5
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What the body leaves in the output block -/

/-- The output block after the body is the dense-layer payload of the three input blocks. -/
theorem out5_3_eq (c : Dev nD) (i : grid5.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    out5_3 c i arg1 harg1 arg2 harg2 arg3 harg3 arg4 harg4 x0 x1 x2 = k5_pay1 x0 x1 x2 := by
  unfold out5_3
  rw [View.read_writes_eq_canon _ _ _ (cover5_3 c i arg1 harg1 arg2 harg2 arg3 harg3 arg4 harg4 x0 x1 x2)]
  unfold kernelRun5
  dsimp only
  sl_unfold_words
  rw [View.canon_unit_zero hz0]
  simp only [View.readAt_eq_ld, harg1.read_unread, harg2.read_unread, harg3.read_unread,
    View.ld_unit_zero (S := S2000x128) hz0, View.ld_unit_zero (S := S128x128) hz0, View.ld_unit_zero (S := S128) hzv0]

/-! ## The payload at an index -/

/-- The dense-layer payload at row r and column q of the block: row r of x against row q of W, plus b q. -/
theorem pay5_apply (x0 : Vec Ideal S2000x128 .f32) (x1 : Vec Ideal S128x128 .f32) (x2 : Vec Ideal S128 .f32) (r : Fin 2000) (q : Fin 128) :
    k5_pay1 (F := Ideal) x0 x1 x2 (ix2 r q) = (∑ k : Fin 128, x0 (ix2 r k) * x1 (ix2 q k)) + x2 (ix1 q) := by
  unfold k5_pay1
  refine (addf_apply _ _ (ix2 r q)).trans ?_
  refine congrArg₂ (· + ·) ?_ (bias0_apply x2 r q)
  refine (matmul0_apply _ _ r q).trans ?_
  refine Finset.sum_congr rfl fun k _ => ?_
  refine congrArg₂ (· * ·) ?_ ?_
  · first
      | exact congrFun (shapeCast_self x0 shapeCasts_S2000x128_S2000x128) (ix2 r k)
      | rfl
  · exact transpose_apply [1, 0] _ transposes_S128x128_p1_0_S128x128 (ix2 k q) (ix2 q k) (fun b => match b with
      | ⟨0, _⟩ => rfl
      | ⟨1, _⟩ => rfl)

/-! ## From the blocks to the array -/

section
variable (V : (c : Dev nD) → (b : Ref sig .tc) → Buf (Elt Ideal) ((c : Thread nD τ).loc b))

/-- The dense layer of the arrays as the region finds them. -/
abbrev G5 (c : Dev nD) : S4000x128.Idx → EReal :=
  Cert.Spec.unc2 (Cert.Spec.lin (Cert.Spec.cur2 (V c main_arg1 : S4000x128.Idx → EReal)) (Cert.Spec.cur2 (V c main_arg8 : S128x128.Idx → EReal)) (Cert.Spec.cur1 (V c main_arg9 : S128.Idx → EReal)))

/-- The index maps over the grid: the blocks of x and of the output are at block row t, W and b are whole. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

theorem flushAt5_3 : ∀ t : Fin cfg5.N, (cfg5.win 3).flush t = true :=
  (by decide +kernel : ∀ t : Fin grid5.N, win5_3.flush t = true)

/-- The block of x at point t is rows 2000 t … of x. -/
theorem xblk5_apply (c : Dev nD) (t : Fin cfg5.N) (r : Fin 2000) (k : Fin 128) (R : Fin 4000) (hR : R.val = 2000 * t.val + r.val) :
    (iblk5 V c 0 t : Vec Ideal S2000x128 .f32) (ix2 r k) = (V c main_arg1 : Vec Ideal S4000x128 .f32) (ix2 R k) := by
  obtain ⟨e0, e1, -⟩ := idx_facts5 t
  unfold iblk5
  rw [View.read_apply]
  show V c main_arg1 _ = V c main_arg1 _
  congr 1
  funext a
  apply Fin.ext
  match a with
  | ⟨0, _⟩ => show win5_0.index t (0 : Fin 2) * 2000 + 1 * r.val = R.val; rw [e0, hR]; omega
  | ⟨1, _⟩ => show win5_0.index t (1 : Fin 2) * 128 + 1 * k.val = k.val; rw [e1]; omega

/-- The block of W at any point is W. -/
theorem wblk5_eq (c : Dev nD) (t : Fin cfg5.N) :
    (iblk5 V c 1 t : Vec Ideal S128x128 .f32) = (V c main_arg8 : Vec Ideal S128x128 .f32) := by
  obtain ⟨-, -, e0, e1, -⟩ := idx_facts5 t
  funext j
  unfold iblk5
  rw [View.read_apply]
  show V c main_arg8 _ = V c main_arg8 _
  congr 1
  funext a
  apply Fin.ext
  match a with
  | ⟨0, _⟩ => show win5_1.index t (0 : Fin 2) * 128 + 1 * (j 0).val = (j 0).val; rw [e0]; omega
  | ⟨1, _⟩ => show win5_1.index t (1 : Fin 2) * 128 + 1 * (j 1).val = (j 1).val; rw [e1]; omega

/-- The block of b at any point is b. -/
theorem bblk5_eq (c : Dev nD) (t : Fin cfg5.N) :
    (iblk5 V c 2 t : Vec Ideal S128 .f32) = (V c main_arg9 : Vec Ideal S128 .f32) := by
  obtain ⟨-, -, -, -, e0, -⟩ := idx_facts5 t
  funext j
  unfold iblk5
  rw [View.read_apply]
  show V c main_arg9 _ = V c main_arg9 _
  congr 1
  funext a
  apply Fin.ext
  match a with
  | ⟨0, _⟩ => show win5_2.index t (0 : Fin 1) * 128 + 1 * (j 0).val = (j 0).val; rw [e0]; omega

/-- The payload of blocks that are rows 2000 T … of X, all of W and all of B, at a block index, is the dense layer of
    X, W, B at the array index 2000 T rows further down. -/
theorem pay5_eq_lin (x0 : Vec Ideal S2000x128 .f32) (x1 : Vec Ideal S128x128 .f32) (x2 : Vec Ideal S128 .f32)
    (X : Vec Ideal S4000x128 .f32) (W : Vec Ideal S128x128 .f32) (B : Vec Ideal S128 .f32) (T : Nat)
    (h0 : ∀ (r : Fin 2000) (k : Fin 128) (R : Fin 4000), R.val = 2000 * T + r.val → x0 (ix2 r k) = X (ix2 R k))
    (h1 : x1 = W) (h2 : x2 = B) (j : S2000x128.Idx) (i : S4000x128.Idx)
    (hi0 : (i 0).val = 2000 * T + (j 0).val) (hi1 : (i 1).val = (j 1).val) :
    k5_pay1 (F := Ideal) x0 x1 x2 j = Cert.Spec.unc2 (Cert.Spec.lin (Cert.Spec.cur2 X) (Cert.Spec.cur2 W) (Cert.Spec.cur1 B)) i := by
  obtain ⟨r, q, rfl⟩ : ∃ (r : Fin 2000) (q : Fin 128), j = ix2 r q := ⟨j 0, j 1, eq_ix2 j⟩
  obtain ⟨R, Q, rfl⟩ : ∃ (R : Fin 4000) (Q : Fin 128), i = ix2 R Q := ⟨i 0, i 1, eq_ix2 i⟩
  obtain rfl : Q = q := Fin.ext hi1
  subst h1 h2
  rw [pay5_apply]
  show _ = (∑ k : Fin 128, X (ix2 R k) * x1 (ix2 Q k)) + x2 (ix1 Q)
  refine congrArg₂ (· + ·) (Finset.sum_congr rfl fun k _ => ?_) rfl
  rw [h0 r k R hi0]

/-- What point t writes back is block t of the dense layer of the arrays. -/
theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 (F := Ideal) V c).after 3 t) = _
  rw [after5_3]
  unfold outsAt5
  rw [out5_3_eq c (grid5.coords t) (ms5_0 t) (hs5_0 t) (ms5_1 t) (hs5_1 t) (ms5_2 t) (hs5_2 t) (ms5_3 t) (hs5_3 t) (iblk5 V c 0 t) (iblk5 V c 1 t) (iblk5 V c 2 t)]
  obtain ⟨-, -, -, -, -, e0, e1⟩ := idx_facts5 t
  funext j
  rw [View.read_apply]
  refine pay5_eq_lin (iblk5 V c 0 t) (iblk5 V c 1 t) (iblk5 V c 2 t) (V c main_arg1) (V c main_arg8) (V c main_arg9) t.val
    (xblk5_apply V c t) (wblk5_eq V c t) (bblk5_eq V c t) j (((cfg5.win 3).blk t).view.emb j) ?_ ?_
  · show win5_3.index t (0 : Fin 2) * 2000 + 1 * (j 0).val = 2000 * t.val + (j 0).val; rw [e0]; omega
  · show win5_3.index t (1 : Fin 2) * 128 + 1 * (j 1).val = (j 1).val; rw [e1]; omega

/-- An index of the array is in point t's block iff each coordinate is in the block's range on its axis. -/
theorem mem_blk5 (t : Fin cfg5.N) (i : S4000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v19).slice (win5_3.rect t)).set ↔ _
  rw [View.set_slice_whole, Rect.mem_set_unit]
  exact Iff.rfl

/-- Row R of the array is in the block of point R / 2000. -/
theorem cover5 (i : S4000x128.Idx) : ∃ t : Fin cfg5.N, (cfg5.win 3).flush t = true ∧ i ∈ ((cfg5.win 3).blk t).view.set := by
  have hi0 : (i 0).val < 4000 := (i 0).isLt
  have hi1 : (i 1).val < 128 := (i 1).isLt
  have hN : cfg5.N = 2 := N_5
  refine ⟨⟨(i 0).val / 2000, by rw [hN]; omega⟩, flushAt5_3 _, ?_⟩
  obtain ⟨-, -, -, -, -, e0, e1⟩ := idx_facts5 ⟨(i 0).val / 2000, by rw [hN]; omega⟩
  rw [mem_blk5]
  intro a
  match a with
  | ⟨0, _⟩ => show win5_3.index _ (0 : Fin 2) * 2000 ≤ (i 0).val ∧ (i 0).val < win5_3.index _ (0 : Fin 2) * 2000 + 2000; rw [e0]; show (i 0).val / 2000 * 2000 ≤ (i 0).val ∧ (i 0).val < (i 0).val / 2000 * 2000 + 2000; omega
  | ⟨1, _⟩ => show win5_3.index _ (1 : Fin 2) * 128 ≤ (i 1).val ∧ (i 1).val < win5_3.index _ (1 : Fin 2) * 128 + 128; rw [e1]; omega

/-- The output array after the run is the dense layer of the arrays as the region finds them. -/
theorem lin_val5 (c : Dev nD) :
    ((dat5 (F := Ideal) V c).arrAt 3 cfg5.N : S4000x128.Idx → EReal)
      = Cert.Spec.unc2 (Cert.Spec.lin (Cert.Spec.cur2 (V c main_arg1 : S4000x128.Idx → EReal)) (Cert.Spec.cur2 (V c main_arg8 : S128x128.Idx → EReal)) (Cert.Spec.cur1 (V c main_arg9 : S128.Idx → EReal))) :=
  (dat5 (F := Ideal) V c).arrAt_eq_of_cover 3 (G5 V c) (fun t _ => flushed5_eq V c t) cover5

end

end Cert.KernelIdeal.H

end
-- ==== Proof.KI.LV6.lean ====
/-
  The second of the two dense-layer launches on 4000 rows, at the ideal values: what its
  output array holds after the run.
  Each grid point stores, into its block of 2000 rows, the payload of the point's three input blocks; at row r and
  column q of the block the payload is the sum over k of x (r, k) · W (q, k), plus b q (the block of x passes first
  through a reshape to its own shape, which reads every entry where it is); the block of x at point t is
  rows 2000 t … of x and the blocks of W and b are the whole arrays; the 2 blocks cover the 4000 rows.  So the
  array ends holding x Wᵀ + b, row by row.  The product at an index and the bias row at an index are the first
  dense-layer launch's lemmas: the dimension numbers and the shapes are the same.
-/
import proofs.«407232_j23192823399226_1_alg».proof.Proof.KI.LV0
import proofs.«407232_j23192823399226_1_alg».proof.Proof.KI.L6
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What the body leaves in the output block -/

/-- The output block after the body is the dense-layer payload of the three input blocks. -/
theorem out6_3_eq (c : Dev nD) (i : grid6.Coords) (arg1 : Memref sig .tc .vmem S2000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S2000x128 .f32) (harg4 : arg4.IsWhole)
    (x0 : Vec F S2000x128 .f32) (x1 : Vec F S128x128 .f32) (x2 : Vec F S128 .f32) :
    out6_3 c i arg1 harg1 arg2 harg2 arg3 harg3 arg4 harg4 x0 x1 x2 = k6_pay1 x0 x1 x2 := by
  unfold out6_3
  rw [View.read_writes_eq_canon _ _ _ (cover6_3 c i arg1 harg1 arg2 harg2 arg3 harg3 arg4 harg4 x0 x1 x2)]
  unfold kernelRun6
  dsimp only
  sl_unfold_words
  rw [View.canon_unit_zero hz0]
  simp only [View.readAt_eq_ld, harg1.read_unread, harg2.read_unread, harg3.read_unread,
    View.ld_unit_zero (S := S2000x128) hz0, View.ld_unit_zero (S := S128x128) hz0, View.ld_unit_zero (S := S128) hzv0]

/-! ## The payload at an index -/

/-- The dense-layer payload at row r and column q of the block: row r of x against row q of W, plus b q. -/
theorem pay6_apply (x0 : Vec Ideal S2000x128 .f32) (x1 : Vec Ideal S128x128 .f32) (x2 : Vec Ideal S128 .f32) (r : Fin 2000) (q : Fin 128) :
    k6_pay1 (F := Ideal) x0 x1 x2 (ix2 r q) = (∑ k : Fin 128, x0 (ix2 r k) * x1 (ix2 q k)) + x2 (ix1 q) := by
  unfold k6_pay1
  refine (addf_apply _ _ (ix2 r q)).trans ?_
  refine congrArg₂ (· + ·) ?_ (bias0_apply x2 r q)
  refine (matmul0_apply _ _ r q).trans ?_
  refine Finset.sum_congr rfl fun k _ => ?_
  refine congrArg₂ (· * ·) ?_ ?_
  · first
      | exact congrFun (shapeCast_self x0 shapeCasts_S2000x128_S2000x128) (ix2 r k)
      | rfl
  · exact transpose_apply [1, 0] _ transposes_S128x128_p1_0_S128x128 (ix2 k q) (ix2 q k) (fun b => match b with
      | ⟨0, _⟩ => rfl
      | ⟨1, _⟩ => rfl)

/-! ## From the blocks to the array -/

section
variable (V : (c : Dev nD) → (b : Ref sig .tc) → Buf (Elt Ideal) ((c : Thread nD τ).loc b))

/-- The dense layer of the arrays as the region finds them. -/
abbrev G6 (c : Dev nD) : S4000x128.Idx → EReal :=
  Cert.Spec.unc2 (Cert.Spec.lin (Cert.Spec.cur2 (V c main_v19 : S4000x128.Idx → EReal)) (Cert.Spec.cur2 (V c main_arg10 : S128x128.Idx → EReal)) (Cert.Spec.cur1 (V c main_arg11 : S128.Idx → EReal)))

/-- The index maps over the grid: the blocks of x and of the output are at block row t, W and b are whole. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

theorem flushAt6_3 : ∀ t : Fin cfg6.N, (cfg6.win 3).flush t = true :=
  (by decide +kernel : ∀ t : Fin grid6.N, win6_3.flush t = true)

/-- The block of x at point t is rows 2000 t … of x. -/
theorem xblk6_apply (c : Dev nD) (t : Fin cfg6.N) (r : Fin 2000) (k : Fin 128) (R : Fin 4000) (hR : R.val = 2000 * t.val + r.val) :
    (iblk6 V c 0 t : Vec Ideal S2000x128 .f32) (ix2 r k) = (V c main_v19 : Vec Ideal S4000x128 .f32) (ix2 R k) := by
  obtain ⟨e0, e1, -⟩ := idx_facts6 t
  unfold iblk6
  rw [View.read_apply]
  show V c main_v19 _ = V c main_v19 _
  congr 1
  funext a
  apply Fin.ext
  match a with
  | ⟨0, _⟩ => show win6_0.index t (0 : Fin 2) * 2000 + 1 * r.val = R.val; rw [e0, hR]; omega
  | ⟨1, _⟩ => show win6_0.index t (1 : Fin 2) * 128 + 1 * k.val = k.val; rw [e1]; omega

/-- The block of W at any point is W. -/
theorem wblk6_eq (c : Dev nD) (t : Fin cfg6.N) :
    (iblk6 V c 1 t : Vec Ideal S128x128 .f32) = (V c main_arg10 : Vec Ideal S128x128 .f32) := by
  obtain ⟨-, -, e0, e1, -⟩ := idx_facts6 t
  funext j
  unfold iblk6
  rw [View.read_apply]
  show V c main_arg10 _ = V c main_arg10 _
  congr 1
  funext a
  apply Fin.ext
  match a with
  | ⟨0, _⟩ => show win6_1.index t (0 : Fin 2) * 128 + 1 * (j 0).val = (j 0).val; rw [e0]; omega
  | ⟨1, _⟩ => show win6_1.index t (1 : Fin 2) * 128 + 1 * (j 1).val = (j 1).val; rw [e1]; omega

/-- The block of b at any point is b. -/
theorem bblk6_eq (c : Dev nD) (t : Fin cfg6.N) :
    (iblk6 V c 2 t : Vec Ideal S128 .f32) = (V c main_arg11 : Vec Ideal S128 .f32) := by
  obtain ⟨-, -, -, -, e0, -⟩ := idx_facts6 t
  funext j
  unfold iblk6
  rw [View.read_apply]
  show V c main_arg11 _ = V c main_arg11 _
  congr 1
  funext a
  apply Fin.ext
  match a with
  | ⟨0, _⟩ => show win6_2.index t (0 : Fin 1) * 128 + 1 * (j 0).val = (j 0).val; rw [e0]; omega

/-- The payload of blocks that are rows 2000 T … of X, all of W and all of B, at a block index, is the dense layer of
    X, W, B at the array index 2000 T rows further down. -/
theorem pay6_eq_lin (x0 : Vec Ideal S2000x128 .f32) (x1 : Vec Ideal S128x128 .f32) (x2 : Vec Ideal S128 .f32)
    (X : Vec Ideal S4000x128 .f32) (W : Vec Ideal S128x128 .f32) (B : Vec Ideal S128 .f32) (T : Nat)
    (h0 : ∀ (r : Fin 2000) (k : Fin 128) (R : Fin 4000), R.val = 2000 * T + r.val → x0 (ix2 r k) = X (ix2 R k))
    (h1 : x1 = W) (h2 : x2 = B) (j : S2000x128.Idx) (i : S4000x128.Idx)
    (hi0 : (i 0).val = 2000 * T + (j 0).val) (hi1 : (i 1).val = (j 1).val) :
    k6_pay1 (F := Ideal) x0 x1 x2 j = Cert.Spec.unc2 (Cert.Spec.lin (Cert.Spec.cur2 X) (Cert.Spec.cur2 W) (Cert.Spec.cur1 B)) i := by
  obtain ⟨r, q, rfl⟩ : ∃ (r : Fin 2000) (q : Fin 128), j = ix2 r q := ⟨j 0, j 1, eq_ix2 j⟩
  obtain ⟨R, Q, rfl⟩ : ∃ (R : Fin 4000) (Q : Fin 128), i = ix2 R Q := ⟨i 0, i 1, eq_ix2 i⟩
  obtain rfl : Q = q := Fin.ext hi1
  subst h1 h2
  rw [pay6_apply]
  show _ = (∑ k : Fin 128, X (ix2 R k) * x1 (ix2 Q k)) + x2 (ix1 Q)
  refine congrArg₂ (· + ·) (Finset.sum_congr rfl fun k _ => ?_) rfl
  rw [h0 r k R hi0]

/-- What point t writes back is block t of the dense layer of the arrays. -/
theorem flushed6_eq (c : Dev nD) (t : Fin cfg6.N) :
    (dat6 (F := Ideal) V c).flushed 3 t = ((cfg6.win 3).blk t).view.read (Elt Ideal) (G6 V c) := by
  show (cfg6.win 3).cut (grid6.coords t) ((dat6 (F := Ideal) V c).after 3 t) = _
  rw [after6_3]
  unfold outsAt6
  rw [out6_3_eq c (grid6.coords t) (ms6_0 t) (hs6_0 t) (ms6_1 t) (hs6_1 t) (ms6_2 t) (hs6_2 t) (ms6_3 t) (hs6_3 t) (iblk6 V c 0 t) (iblk6 V c 1 t) (iblk6 V c 2 t)]
  obtain ⟨-, -, -, -, -, e0, e1⟩ := idx_facts6 t
  funext j
  rw [View.read_apply]
  refine pay6_eq_lin (iblk6 V c 0 t) (iblk6 V c 1 t) (iblk6 V c 2 t) (V c main_v19) (V c main_arg10) (V c main_arg11) t.val
    (xblk6_apply V c t) (wblk6_eq V c t) (bblk6_eq V c t) j (((cfg6.win 3).blk t).view.emb j) ?_ ?_
  · show win6_3.index t (0 : Fin 2) * 2000 + 1 * (j 0).val = 2000 * t.val + (j 0).val; rw [e0]; omega
  · show win6_3.index t (1 : Fin 2) * 128 + 1 * (j 1).val = (j 1).val; rw [e1]; omega

/-- An index of the array is in point t's block iff each coordinate is in the block's range on its axis. -/
theorem mem_blk6 (t : Fin cfg6.N) (i : S4000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v20).slice (win6_3.rect t)).set ↔ _
  rw [View.set_slice_whole, Rect.mem_set_unit]
  exact Iff.rfl

/-- Row R of the array is in the block of point R / 2000. -/
theorem cover6 (i : S4000x128.Idx) : ∃ t : Fin cfg6.N, (cfg6.win 3).flush t = true ∧ i ∈ ((cfg6.win 3).blk t).view.set := by
  have hi0 : (i 0).val < 4000 := (i 0).isLt
  have hi1 : (i 1).val < 128 := (i 1).isLt
  have hN : cfg6.N = 2 := N_6
  refine ⟨⟨(i 0).val / 2000, by rw [hN]; omega⟩, flushAt6_3 _, ?_⟩
  obtain ⟨-, -, -, -, -, e0, e1⟩ := idx_facts6 ⟨(i 0).val / 2000, by rw [hN]; omega⟩
  rw [mem_blk6]
  intro a
  match a with
  | ⟨0, _⟩ => show win6_3.index _ (0 : Fin 2) * 2000 ≤ (i 0).val ∧ (i 0).val < win6_3.index _ (0 : Fin 2) * 2000 + 2000; rw [e0]; show (i 0).val / 2000 * 2000 ≤ (i 0).val ∧ (i 0).val < (i 0).val / 2000 * 2000 + 2000; omega
  | ⟨1, _⟩ => show win6_3.index _ (1 : Fin 2) * 128 ≤ (i 1).val ∧ (i 1).val < win6_3.index _ (1 : Fin 2) * 128 + 128; rw [e1]; omega

/-- The output array after the run is the dense layer of the arrays as the region finds them. -/
theorem lin_val6 (c : Dev nD) :
    ((dat6 (F := Ideal) V c).arrAt 3 cfg6.N : S4000x128.Idx → EReal)
      = Cert.Spec.unc2 (Cert.Spec.lin (Cert.Spec.cur2 (V c main_v19 : S4000x128.Idx → EReal)) (Cert.Spec.cur2 (V c main_arg10 : S128x128.Idx → EReal)) (Cert.Spec.cur1 (V c main_arg11 : S128.Idx → EReal))) :=
  (dat6 (F := Ideal) V c).arrAt_eq_of_cover 3 (G6 V c) (fun t _ => flushed6_eq V c t) cover6

end

end Cert.KernelIdeal.H

end
-- ==== Proof.SpecBridge.lean ====
/-
  The bridge between the two descriptions of one relation's aggregate, and the bookkeeping of tiled sums.

  First: the kernel's two one-hot matrix products over padded arrays equal the reference's gather and scatter-add.
  For a real edge whose source index names a row of the table, exactly one padded source row carries a non-zero
  coefficient, so the inner sum is the weight times that row; a padded edge has weight zero, so its row is zero.
  In the outer sum a destination row keeps exactly the real edges whose destination index is that row; a padded
  edge's index 0 may name row 0, but the row it would add is zero.  Only 0 · x = 0 and x + 0 = x are used, so
  nothing needs to be finite.

  Second: a total built tile by tile (each tile's partial sum started from zero and added to the total so far) is
  the flat sum over all the indices the tiles cover.
-/
import proofs.«407232_j23192823399226_1_alg».proof.Proof.Spec
import Mathlib.Algebra.BigOperators.Fin
import Mathlib.Data.Fintype.BigOperators
import Mathlib.Tactic.SplitIfs
import Mathlib.Tactic.ByCases

noncomputable section

namespace Cert.Spec

open scoped BigOperators

/-! ## 32-bit indices as numbers -/

/-- A 32-bit word is the word of a number below 2^32 exactly when its unsigned value is that number. -/
theorem eq_ofNat_iff_toNat (i : BitVec 32) (s : Nat) (hs : s < 2 ^ 32) :
    i = BitVec.ofNat 32 s ↔ i.toNat = s := by
  constructor
  · intro h
    rw [h, BitVec.toNat_ofNat, Nat.mod_eq_of_lt hs]
  · intro h
    apply BitVec.eq_of_toNat_eq
    rw [BitVec.toNat_ofNat, Nat.mod_eq_of_lt hs, h]

/-- A word whose signed value is not negative has the same signed and unsigned value. -/
theorem toInt_eq_toNat_of_nonneg (i : BitVec 32) (h : 0 ≤ i.toInt) : i.toInt = (i.toNat : Int) := by
  have hlt := i.isLt
  rw [BitVec.toInt_eq_toNat_cond] at h ⊢
  split_ifs at h ⊢ with hc
  · rfl
  · exfalso; omega

/-- The word of a number below 2^31 is a given word exactly when that word's signed value is the number. -/
theorem ofNat_eq_iff_toInt (i : BitVec 32) (d : Nat) (hd : d < 2 ^ 31) :
    BitVec.ofNat 32 d = i ↔ i.toInt = (d : Int) := by
  constructor
  · intro h
    have hm : d % 2 ^ 32 = d := Nat.mod_eq_of_lt (by omega)
    rw [← h, BitVec.toInt_eq_toNat_cond, BitVec.toNat_ofNat, hm, if_pos (by omega)]
  · intro h
    have h1 := toInt_eq_toNat_of_nonneg i (by omega)
    exact ((eq_ofNat_iff_toNat i d (by omega)).2 (by omega)).symm

/-- An index inside the table names its own row: nothing wraps and nothing is clamped. -/
theorem rowOf_eq (N : Nat) (i : BitVec 32) (h0 : 0 ≤ i.toInt) (hN : i.toInt < (N : Int)) :
    rowOf N i = i.toNat := by
  have h1 := toInt_eq_toNat_of_nonneg i h0
  unfold rowOf
  rw [if_neg (by omega), h1, Int.toNat_natCast]
  omega

/-! ## Padding -/

theorem pad1_castLE {α : Type} {E Ep : Nat} (hE : E ≤ Ep) (v : Fin E → α) (z : α) (e : Fin E) :
    pad1 Ep v z (Fin.castLE hE e) = v e := by
  unfold pad1
  rw [dif_pos (show (Fin.castLE hE e).val < E from e.isLt)]
  rfl

theorem pad1_of_ge {α : Type} {E Ep : Nat} (v : Fin E → α) (z : α) (e : Fin Ep) (he : E ≤ e.val) :
    pad1 Ep v z e = z := by
  unfold pad1
  rw [dif_neg (by omega)]

theorem padRows_of_lt {N : Nat} (Np : Nat) (X : Fin N → Fin 128 → EReal) (s : Fin Np) (h : s.val < N)
    (j : Fin 128) : padRows Np X s j = X ⟨s.val, h⟩ j := by
  unfold padRows
  rw [dif_pos h]

/-- A sum over a padded range whose terms vanish beyond the real range is the sum over the real range. -/
theorem sum_fin_of_pad {E Ep : Nat} (hE : E ≤ Ep) (F : Fin Ep → EReal)
    (hF : ∀ e : Fin Ep, E ≤ e.val → F e = 0) :
    ∑ e : Fin Ep, F e = ∑ e : Fin E, F (Fin.castLE hE e) := by
  obtain ⟨k, rfl⟩ := Nat.exists_eq_add_of_le hE
  rw [Fin.sum_univ_add, Finset.sum_eq_zero (s := Finset.univ) (f := fun i : Fin k => F (Fin.natAdd E i)),
    add_zero]
  · rfl
  · intro i _
    exact hF _ (by simp)

/-! ## The one-hot products -/

/-- The one-hot row product picks one row: when the index of edge e is the number of row s, every other row
    meets a zero coefficient, and the sum over all rows is the weight times row s. -/
theorem gat_of_toNat_eq {E Np : Nat} (hNp : Np ≤ 2 ^ 32) (idx : Fin E → BitVec 32) (w : Fin E → EReal)
    (X : Fin Np → Fin 128 → EReal) (e : Fin E) (s : Fin Np) (h : (idx e).toNat = s.val) (j : Fin 128) :
    gat idx w X e j = w e * X s j := by
  unfold gat
  rw [Finset.sum_eq_single s]
  · rw [if_pos ((eq_ofNat_iff_toNat _ _ (by have := s.isLt; omega)).2 h)]
  · intro t _ hts
    rw [if_neg, zero_mul]
    intro hc
    have ht := (eq_ofNat_iff_toNat (idx e) t.val (by have := t.isLt; omega)).1 hc
    exact hts (Fin.ext (by omega))
  · intro hn
    exact absurd (Finset.mem_univ _) hn

/-- An edge of weight zero gives a zero row, whatever its index. -/
theorem gat_of_weight_zero {E Np : Nat} (idx : Fin E → BitVec 32) (w : Fin E → EReal)
    (X : Fin Np → Fin 128 → EReal) (e : Fin E) (h : w e = 0) (j : Fin 128) :
    gat idx w X e j = 0 := by
  unfold gat
  refine Finset.sum_eq_zero (fun s _ => ?_)
  rw [h, ite_self, zero_mul]

/-- The two one-hot products over padded arrays compute the reference's gather and scatter-add, whenever every
    source index names a row of the table. -/
theorem aggK_eq_aggR {E N Nd : Nat} (Ep Np Ndp : Nat) (hNd : Nd ≤ Ndp) (hN : 0 < N) (hE : E ≤ Ep) (hNp : N ≤ Np)
    (hNp32 : Np < 2 ^ 31) (hNdp32 : Ndp < 2 ^ 31)
    (src dst : Fin E → BitVec 32) (w : Fin E → EReal) (X : Fin N → Fin 128 → EReal)
    (hsrc : ∀ e, 0 ≤ (src e).toInt ∧ (src e).toInt < (N : Int)) :
    aggK Ep Np Ndp hNd src dst w X = aggR hN src dst w X := by
  funext d j
  unfold aggK aggR sca
  rw [sum_fin_of_pad hE, Finset.sum_filter]
  · refine Finset.sum_congr rfl (fun e _ => ?_)
    have h0 := (hsrc e).1
    have h1 := (hsrc e).2
    have hnat := toInt_eq_toNat_of_nonneg (src e) h0
    have hlt : (src e).toNat < N := by omega
    have hrow : ∀ p, (⟨rowOf N (src e), p⟩ : Fin N) = ⟨(src e).toNat, hlt⟩ :=
      fun p => Fin.ext (rowOf_eq N (src e) h0 h1)
    rw [pad1_castLE,
      gat_of_toNat_eq (by omega) _ _ _ _ (⟨(src e).toNat, by omega⟩ : Fin Np) (by rw [pad1_castLE]),
      pad1_castLE, padRows_of_lt Np X (⟨(src e).toNat, by omega⟩ : Fin Np) hlt, hrow]
    have hdN : d.val < 2 ^ 31 := by have := d.isLt; omega
    by_cases hd : (dst e).toInt = (d.val : Int)
    · rw [if_pos hd, if_pos ((ofNat_eq_iff_toInt _ _ hdN).2 hd), one_mul]
      exact EReal.mul_comm _ _
    · rw [if_neg hd, if_neg (fun h => hd ((ofNat_eq_iff_toInt _ _ hdN).1 h)), zero_mul]
  · intro e he
    rw [gat_of_weight_zero _ _ _ _ (pad1_of_ge _ _ _ he), mul_zero]

/-! ## The whole layer -/

/-- With every source index inside its table, the kernel's five aggregations are the reference's. -/
theorem aggsK_eq_aggsR (I : Inputs) (h : SrcInRange I) : aggsK I = aggsR I := by
  obtain ⟨hww, hwt, hwd, htd, htt⟩ := h
  unfold aggsK aggsR
  rw [Aggs.mk.injEq]
  refine ⟨funext fun X => ?_, funext fun X => ?_, funext fun X => ?_, funext fun X => ?_, funext fun X => ?_⟩
  · exact aggK_eq_aggR 800768 50176 50176 _ _ (by omega) (by omega) (by omega) (by omega) _ _ _ X
      (fun e => ⟨(hww e).1, by have := (hww e).2; omega⟩)
  · exact aggK_eq_aggR 401408 50176 4096 _ _ (by omega) (by omega) (by omega) (by omega) _ _ _ X
      (fun e => ⟨(hwt e).1, by have := (hwt e).2; omega⟩)
  · exact aggK_eq_aggR 161792 4096 4096 _ _ (by omega) (by omega) (by omega) (by omega) _ _ _ X
      (fun e => ⟨(htt e).1, by have := (htt e).2; omega⟩)
  · exact aggK_eq_aggR 401408 50176 20480 _ _ (by omega) (by omega) (by omega) (by omega) _ _ _ X
      (fun e => ⟨(hwd e).1, by have := (hwd e).2; omega⟩)
  · exact aggK_eq_aggR 161792 4096 20480 _ _ (by omega) (by omega) (by omega) (by omega) _ _ _ X
      (fun e => ⟨(htd e).1, by have := (htd e).2; omega⟩)

/-- The three results computed from the kernel's aggregations are those computed from the reference's. -/
theorem word_K_eq_R (dv : EReal → EReal → EReal) (I : Inputs) (h : SrcInRange I) :
    word dv I (aggsK I) = word dv I (aggsR I) := by
  rw [aggsK_eq_aggsR I h]

theorem topic_K_eq_R (dv : EReal → EReal → EReal) (I : Inputs) (h : SrcInRange I) :
    topic dv I (aggsK I) = topic dv I (aggsR I) := by
  rw [aggsK_eq_aggsR I h]

theorem doc_K_eq_R (dv : EReal → EReal → EReal) (I : Inputs) (h : SrcInRange I) :
    doc dv I (aggsK I) = doc dv I (aggsR I) := by
  rw [aggsK_eq_aggsR I h]

/-! ## Accumulation over tiles -/

/-- The running total after tile n, when tile t of width K adds the partial sum of its K terms (each partial sum
    started from zero) to the total of the tiles before it (the first tile adds to zero). -/
def accTiles (K : ℕ) (f : ℕ → EReal) : ℕ → EReal
  | 0 => (0 : EReal) + (0 + ∑ k : Fin K, f k.val)
  | n + 1 => accTiles K f n + (0 + ∑ k : Fin K, f ((n + 1) * K + k.val))

/-- The running total after tile n is the flat sum over the first (n+1)·K indices. -/
theorem accTiles_eq (K : ℕ) (f : ℕ → EReal) (n : ℕ) :
    accTiles K f n = ∑ s : Fin ((n + 1) * K), f s.val := by
  induction n with
  | zero =>
    rw [accTiles, zero_add, zero_add, Nat.zero_add, Nat.one_mul]
  | succ n ih =>
    rw [accTiles, ih, zero_add, Fin.sum_univ_eq_sum_range f,
      Fin.sum_univ_eq_sum_range (fun i => f ((n + 1) * K + i)), Fin.sum_univ_eq_sum_range f,
      Nat.succ_mul (n + 1) K, Finset.sum_range_add]

/-- Over T whole tiles, the running total after the last tile is the sum of all T·K entries. -/
theorem accTiles_flat (T K : ℕ) (hT : 0 < T) (g : Fin (T * K) → EReal) :
    accTiles K (fun s => if h : s < T * K then g ⟨s, h⟩ else 0) (T - 1) = ∑ s : Fin (T * K), g s := by
  obtain ⟨T', rfl⟩ : ∃ T', T = T' + 1 := ⟨T - 1, by omega⟩
  rw [Nat.add_sub_cancel, accTiles_eq]
  refine Finset.sum_congr rfl (fun s _ => ?_)
  rw [dif_pos s.isLt]

end Cert.Spec

end
-- ==== Proof.KI.GV1a.lean ====
/-
  A gather launch (the first one-hot product of a relation), at the ideal values: the body's arithmetic read at an index.
  At row e and column q of the block, the accumulate step stores the accumulator's entry plus the sum, over the 1024
  rows k of the source tile, of (w e if idx e is the tile's global row number si · 1024 + k, else 0) · X (k, q): the
  comparison of the two broadcast words is 1 exactly where they are equal, the select picks the weight or zero, the
  narrowing to bf16 is the identity, and the product into a zero accumulator is the plain sum.  The zero fill is 0
  everywhere and the narrowing of the stored block is the identity.
-/
import proofs.«407232_j23192823399226_1_alg».proof.Proof.KI.G1Runs
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.Lib.Affine
import Idealize.ShloMosaic.PureOps.Ideal.Laws
import Idealize.ShloMosaic.Lib.ValueLayout

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The one-hot product read at an index -/

theorem lhsA_pay1 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhsB_pay1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhsA_pay1 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhsB_pay1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator, at row e and column q: the sum over the tile's rows k of x (e, k) · y (k, q). -/
theorem matmul1_apply (x : FVec Ideal S2048x1024 .bf16) (y : FVec Ideal S1024x128 .bf16) (e : Fin 2048) (q : Fin 128) :
    matmul dot_S2048x1024_S1024x128_S2048x128_1_0_0_1_n_n none x y (constant (F := Ideal) S2048x128 .f32 0x00000000#32) (ix2 e q)
      = ∑ k : Fin 1024, x (ix2 e k) * y (ix2 k q) := by
  refine (Ideal.matmul_constant_zero_apply dot_S2048x1024_S1024x128_S2048x128_1_0_0_1_n_n none x y (ix2 e q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 e q) ((contrEquiv1 dot_S2048x1024_S1024x128_S2048x128_1_0_0_1_n_n 1024 rfl rfl).symm k) = ix2 e k := funext fun a => Fin.ext (by
    match a with
    | ⟨0, _⟩ => exact lhsA_pay1 _ _
    | ⟨1, _⟩ => exact (lhsB_pay1 _ _).trans hk)
  have er : dot_S2048x1024_S1024x128_S2048x128_1_0_0_1_n_n.rhsIdx (ix2 e q) ((contrEquiv1 dot_S2048x1024_S1024x128_S2048x128_1_0_0_1_n_n 1024 rfl rfl).symm k) = ix2 k q := funext fun a => Fin.ext (by
    match a with
    | ⟨0, _⟩ => exact (rhsA_pay1 _ _).trans hk
    | ⟨1, _⟩ => exact rhsB_pay1 _ _)
  rw [el, er]

/-- A vector laid as a column and repeated along the rows: entry (e, k) is the vector's entry e. -/
theorem colRep1_apply {α : Type} (v : S2048.Idx → α) (e : Fin 2048) (k : Fin 1024) :
    broadcastTo S2048x1024 (shapeCast S2048x1 v shapeCasts_S2048_S2048x1) broadcasts_S2048x1_S2048x1024 (ix2 e k) = v (ix1 e) := by
  refine (broadcastTo_apply _ broadcasts_S2048x1_S2048x1024 (ix2 e k) (ix2 e (0 : Fin 1)) (fun a => ?_)).trans ?_
  · match a with
    | ⟨0, _⟩ => show e.val = if (2048 : Nat) = 1 then 0 else e.val; rw [if_neg (by decide)]
    | ⟨1, _⟩ => show 0 = if (1 : Nat) = 1 then 0 else _; rw [if_pos rfl]
  · refine shapeCast_apply v shapeCasts_S2048_S2048x1 (ix2 e (0 : Fin 1)) (ix1 e) ?_
    rw [Shape.rowMajor_val_one, Shape.rowMajor_val_two]
    show e.val = e.val * 1 + 0
    omega

/-- The tile's global row numbers: the tile's first row number (the tile index times 1024, as a word) plus the row's position in the tile is the word of si · 1024 + k. -/
theorem rowWord1 (si : Nat) (k : Nat) :
    IntOp.addi (Scalar.muli (BitVec.ofNat 32 si) 1024#32) (BitVec.ofNat 32 k) = BitVec.ofNat 32 (si * 1024 + k) := by
  show BitVec.ofNat 32 si * BitVec.ofNat 32 1024 + BitVec.ofNat 32 k = _
  rw [BitVec.ofNat_add, BitVec.ofNat_mul]

/-- A select on "the two words are equal" is the `if` on their equality. -/
theorem select_cmpi_eq1 {α : Type} (a b : BitVec 32) (x y : α) :
    Scalar.select (IntOp.cmpi .eq a b) x y = if a = b then x else y := by
  unfold Scalar.select
  exact if_congr IntOp.cmpi_eq rfl rfl

/-- An `if` on an equality of words, rewritten in all four places. -/
theorem ite_eq_congr1 {α : Type} {a a' b b' : BitVec 32} {x x' y y' : α} (ha : a = a') (hb : b = b') (hx : x = x') (hy : y = y') :
    (if a = b then x else y) = if a' = b' then x' else y' := by
  subst ha hb hx hy; rfl

/-- The zero fill, anywhere. -/
theorem pay1_1_apply (j : S2048x128.Idx) : k1_pay1 (F := Ideal) j = 0 := by
  unfold k1_pay1
  refine (congrFun (shapeCast_self _ shapeCasts_S2048x128_S2048x128) j).trans ?_
  exact Ideal.ofBits_zero_f32

/-- The narrowing of the stored block is the identity at the ideal values. -/
theorem pay1_3_eq (x : Vec Ideal S2048x128 .f32) : (k1_pay3 (F := Ideal) x : S2048x128.Idx → EReal) = x := rfl

/-- The accumulate step at row e and column q of the block: the accumulator there, plus the sum over the source tile's
    rows k of (w e if idx e is the tile's row number si · 1024 + k, else 0) · X (k, q). -/
theorem pay1_2_apply (i : grid1.Coords) (x0 : Vec Ideal S2048 .i32) (x1 : Vec Ideal S2048 .f32) (x2 : Vec Ideal S1024x128 .f32) (acc : Vec Ideal S2048x128 .f32)
    (e : Fin 2048) (q : Fin 128) :
    k1_pay2 (F := Ideal) i x0 x1 x2 acc (ix2 e q)
      = acc (ix2 e q) + (0 + ∑ k : Fin 1024, (if x0 (ix1 e) = BitVec.ofNat 32 ((i 1).val * 1024 + k.val) then x1 (ix1 e) else 0) * x2 (ix2 k q)) := by
  unfold k1_pay2
  refine (congrFun (shapeCast_self _ shapeCasts_S2048x128_S2048x128) (ix2 e q)).trans ?_
  refine (addf_apply _ _ (ix2 e q)).trans ?_
  refine congrArg₂ (· + ·) rfl ?_
  refine (matmul1_apply _ _ e q).trans ?_
  refine Eq.trans ?_ (zero_add _).symm
  refine Finset.sum_congr rfl fun k _ => ?_
  refine congrArg₂ (· * ·) ?_ ?_
  · refine (truncf_apply _ bitsLt_bf16_f32 (ix2 e k)).trans ?_
    refine (select_apply _ _ _ (ix2 e k)).trans ?_
    refine (select_cmpi_eq1 _ _ _ _).trans ?_
    refine ite_eq_congr1 ?_ ?_ ?_ ?_
    · exact (colRep1_apply (shapeCast S2048 x0 shapeCasts_S2048_S2048) e k).trans (congrFun (shapeCast_self x0 shapeCasts_S2048_S2048) (ix1 e))
    · refine (broadcastTo_1b_ab_apply _ broadcasts_S1x1024_S2048x1024 e k).trans ?_
      refine (congrArg (IntOp.addi (Scalar.muli (BitVec.ofNat 32 (i 1).val) 1024#32)) (iota_single_apply .tc S1x1024 32 1 iota_S1x1024_d1_w32 (ix2 (0 : Fin 1) k))).trans ?_
      exact rowWord1 (i 1).val k.val
    · refine (congrArg (fun z => broadcastTo S2048x1024 z broadcasts_S2048x1_S2048x1024 (ix2 e k)) (shapeCast_self (shapeCast S2048x1 (shapeCast S2048 x1 shapeCasts_S2048_S2048) shapeCasts_S2048_S2048x1) shapeCasts_S2048x1_S2048x1)).trans ?_
      exact (colRep1_apply (shapeCast S2048 x1 shapeCasts_S2048_S2048) e k).trans (congrFun (shapeCast_self x1 shapeCasts_S2048_S2048) (ix1 e))
    · exact Ideal.ofBits_zero_f32
  · refine (truncf_apply _ bitsLt_bf16_f32 (ix2 k q)).trans ?_
    exact congrFun (shapeCast_self x2 shapeCasts_S1024x128_S1024x128) (ix2 k q)

end Cert.KernelIdeal.H

end
-- ==== Proof.KI.GV1b.lean ====
/-
  A gather launch (the first one-hot product of a relation), at the ideal values: the blocks its input windows read.
  A grid point t is (edge chunk ci, source tile si) = (t / 49, t % 49).  The index maps return the grid coordinates:
  the blocks of idx and of w at t are entries ci · 2048 … of the arrays, the block of X is rows si · 1024 … of X.
-/
import proofs.«407232_j23192823399226_1_alg».proof.Proof.KI.G1Runs
import proofs.«407232_j23192823399226_1_alg».proof.Proof.SpecIdx
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The input windows' index maps, at any point -/

/-- The blocks of idx and of w are at block t / 49, the block of X at block row t % 49 (the index maps return the
    grid coordinates, which are below 2³²). -/
theorem idx_facts1 (t : Fin cfg1.N) :
    win1_0.index t (0 : Fin 1) = t.val / 49 ∧ win1_1.index t (0 : Fin 1) = t.val / 49
    ∧ win1_2.index t (0 : Fin 2) = t.val % 49 ∧ win1_2.index t (1 : Fin 2) = 0 := by
  have hN : grid1.N = 19159 := N_1
  have ht : t.val < 19159 := hN ▸ t.isLt
  have c0 := coords1_0 t
  have c1 := coords1_1 t
  refine ⟨?_, ?_, ?_, rfl⟩
  · show (BitVec.ofNat 32 ((grid1.coords t) 0).val).toNat = _
    rw [BitVec.toNat_ofNat, c0]; omega
  · show (BitVec.ofNat 32 ((grid1.coords t) 0).val).toNat = _
    rw [BitVec.toNat_ofNat, c0]; omega
  · show (BitVec.ofNat 32 ((grid1.coords t) 1).val).toNat = _
    rw [BitVec.toNat_ofNat, c1]; omega

/-! ## The blocks read off the arrays -/

section
variable (V : (c : Dev nD) → (b : Ref sig .tc) → Buf (Elt Ideal) ((c : Thread nD τ).loc b))

/-- The block of idx at point t is entries (t / 49) · 2048 … of idx. -/
theorem idxblk1_apply (c : Dev nD) (t : Fin cfg1.N) (e : Fin 2048) (E : Fin 800768) (hE : E.val = t.val / 49 * 2048 + e.val) :
    (iblk1 V c 0 t : Vec Ideal S2048 .i32) (ix1 e) = (V c main_v2 : Vec Ideal S800768 .i32) (ix1 E) := by
  obtain ⟨e0, -⟩ := idx_facts1 t
  unfold iblk1
  rw [View.read_apply]
  show V c main_v2 _ = V c main_v2 _
  congr 1
  funext a
  apply Fin.ext
  match a with
  | ⟨0, _⟩ => show win1_0.index t (0 : Fin 1) * 2048 + 1 * e.val = E.val; rw [e0, hE]; omega

/-- The block of w at point t is entries (t / 49) · 2048 … of w. -/
theorem wblk1_apply (c : Dev nD) (t : Fin cfg1.N) (e : Fin 2048) (E : Fin 800768) (hE : E.val = t.val / 49 * 2048 + e.val) :
    (iblk1 V c 1 t : Vec Ideal S2048 .f32) (ix1 e) = (V c main_v4 : Vec Ideal S800768 .f32) (ix1 E) := by
  obtain ⟨-, e0, -⟩ := idx_facts1 t
  unfold iblk1
  rw [View.read_apply]
  show V c main_v4 _ = V c main_v4 _
  congr 1
  funext a
  apply Fin.ext
  match a with
  | ⟨0, _⟩ => show win1_1.index t (0 : Fin 1) * 2048 + 1 * e.val = E.val; rw [e0, hE]; omega

/-- The block of X at point t is rows (t % 49) · 1024 … of X. -/
theorem xblk1_apply (c : Dev nD) (t : Fin cfg1.N) (k : Fin 1024) (q : Fin 128) (R : Fin 50176) (hR : R.val = t.val % 49 * 1024 + k.val) :
    (iblk1 V c 2 t : Vec Ideal S1024x128 .f32) (ix2 k q) = (V c main_v1 : Vec Ideal S50176x128 .f32) (ix2 R q) := by
  obtain ⟨-, -, e0, e1⟩ := idx_facts1 t
  unfold iblk1
  rw [View.read_apply]
  show V c main_v1 _ = V c main_v1 _
  congr 1
  funext a
  apply Fin.ext
  match a with
  | ⟨0, _⟩ => show win1_2.index t (0 : Fin 2) * 1024 + 1 * k.val = R.val; rw [e0, hR]; omega
  | ⟨1, _⟩ => show win1_2.index t (1 : Fin 2) * 128 + 1 * q.val = q.val; rw [e1]; omega

end

end Cert.KernelIdeal.H

end
-- ==== Proof.KI.GV1c.lean ====
/-
  A gather launch (the first one-hot product of a relation): what each control case's run leaves in the accumulator and
  in the output block, as the body's arithmetic on the blocks, for any float values.
  At the first source tile the accumulator is filled with zero, read back, and gets the tile's product added; at a
  later tile it gets the product added to what it held; at the last tile the output block receives the narrowing of
  the accumulator.  Each buffer is stored whole, so what it ends holding is the last store's payload.
-/
import proofs.«407232_j23192823399226_1_alg».proof.Proof.KI.G1RunC
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The pieces the body's run found, read back -/

theorem hz1 : (![0, 0] : Fin 2 → Nat) = fun _ => 0 := funext fun a => by fin_cases a <;> rfl
theorem hzv1 : (![0] : Fin 1 → Nat) = fun _ => 0 := funext fun a => by fin_cases a; rfl

/-- At a middle source tile the accumulator ends at the accumulate step over what it held. -/
theorem canon1_B (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) :
    View.canon (kernelRun1_B (F := F) c i arg2 harg2 arg3 harg3 arg4 harg4 arg5 harg5 arg6 harg6 hc0 hc1 x0 x1 x2 xs0).2.1 = k1_pay2 i x0 x1 x2 xs0 := by
  unfold kernelRun1_B
  dsimp only
  sl_unfold_words
  rw [View.canon_unit_zero hz1]
  simp only [View.readAt_eq_ld, harg2.read_unread, harg3.read_unread, harg4.read_unread, harg6.read_unread, View.ld_unit_zero (S := S2048) hzv1, View.ld_unit_zero (S := S1024x128) hz1, View.ld_unit_zero (S := S2048x128) hz1]

/-- At the first source tile the accumulator is zeroed, read back, and ends at the accumulate step over zero. -/
theorem canon1_A (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) :
    View.canon (kernelRun1_A (F := F) c i arg2 harg2 arg3 harg3 arg4 harg4 arg5 harg5 arg6 harg6 hc0 hc1 x0 x1 x2).2.1 = k1_pay2 i x0 x1 x2 (k1_pay1 (F := F)) := by
  unfold kernelRun1_A
  dsimp only
  sl_unfold_words
  rw [View.canon_cons_unit_zero (S := S2048x128) hz1]
  simp only [View.readAt_eq_ld, harg2.read_unread, harg3.read_unread, harg4.read_unread, harg6.read_unread, View.ld_unit_zero (S := S2048) hzv1, View.ld_unit_zero (S := S1024x128) hz1, View.ld_unit_zero (S := S2048x128) hz1, View.readCov_unit_zero (S := S2048x128) _ hz1]

/-- At the last source tile the accumulator ends at the accumulate step over what it held, -/
theorem canon1_C (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) :
    View.canon (kernelRun1_C (F := F) c i arg2 harg2 arg3 harg3 arg4 harg4 arg5 harg5 arg6 harg6 hc0 hc1 x0 x1 x2 xs0).2.1 = k1_pay2 i x0 x1 x2 xs0 := by
  unfold kernelRun1_C
  dsimp only
  sl_unfold_words
  rw [View.canon_unit_zero hz1]
  simp only [View.readAt_eq_ld, harg2.read_unread, harg3.read_unread, harg4.read_unread, harg6.read_unread, View.ld_unit_zero (S := S2048) hzv1, View.ld_unit_zero (S := S1024x128) hz1, View.ld_unit_zero (S := S2048x128) hz1]

/-- and the output block at the narrowing of that. -/
theorem canon1_C3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) :
    View.canon (kernelRun1_C (F := F) c i arg2 harg2 arg3 harg3 arg4 harg4 arg5 harg5 arg6 harg6 hc0 hc1 x0 x1 x2 xs0).1 = k1_pay3 (k1_pay2 i x0 x1 x2 xs0) := by
  unfold kernelRun1_C
  dsimp only
  sl_unfold_words
  rw [View.canon_unit_zero hz1]
  simp only [View.readAt_eq_ld, harg2.read_unread, harg3.read_unread, harg4.read_unread, harg6.read_unread, View.ld_unit_zero (S := S2048) hzv1, View.ld_unit_zero (S := S1024x128) hz1, View.ld_unit_zero (S := S2048x128) hz1, View.readCov_unit_zero (S := S2048x128) _ hz1]

end Cert.KernelIdeal.H

end
-- ==== Proof.KI.GV1.lean ====
/-
  A gather launch (the first one-hot product of a relation), at the ideal values: what its output array holds after the run.
  Within edge chunk ci the accumulator after source tile si holds, at (e, q), the running total over the tiles 0 … si of
  the summands of edge ci · 2048 + e, where the summand of source row s is (w E if idx E is the word of s, else 0) · X (s, q):
  the first tile adds its share to zero, each later tile adds its share to what the point before left (induction on the
  grid point).  After the last of the 49 tiles the running total is the sum over all 50176 source rows, the output block
  receives it unchanged and is written back; the 391 blocks written back cover the 800768 rows.  So the array ends
  holding, per edge, the one-hot weighted sum over all source rows.
-/
import proofs.«407232_j23192823399226_1_alg».proof.Proof.KI.G1
import proofs.«407232_j23192823399226_1_alg».proof.Proof.KI.GV1a
import proofs.«407232_j23192823399226_1_alg».proof.Proof.KI.GV1b
import proofs.«407232_j23192823399226_1_alg».proof.Proof.KI.GV1c

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## One accumulate step, and the last accumulator, in terms of the arrays -/

/-- The summand of source row s, for edge E at column q: (w E if idx E is the word of s, else 0) · X (s, q); 0 past the
    table's 50176 rows. -/
def gterm1 (IDX : Vec Ideal S800768 .i32) (W : Vec Ideal S800768 .f32) (X : Vec Ideal S50176x128 .f32) (E : Fin 800768) (q : Fin 128) : ℕ → EReal :=
  fun s => if h : s < 50176 then (if IDX (ix1 E) = BitVec.ofNat 32 s then W (ix1 E) else 0) * X (ix2 ⟨s, h⟩ q) else 0

/-- The accumulate step on blocks that are entries ci · 2048 … of idx and w and rows si · 1024 … of X: at (e, q) it
    adds tile si's share of the sum over the source rows, for edge ci · 2048 + e. -/
theorem step1_apply (i : grid1.Coords) (x0 : Vec Ideal S2048 .i32) (x1 : Vec Ideal S2048 .f32) (x2 : Vec Ideal S1024x128 .f32) (acc : Vec Ideal S2048x128 .f32)
    (IDX : Vec Ideal S800768 .i32) (W : Vec Ideal S800768 .f32) (X : Vec Ideal S50176x128 .f32) (ci si : ℕ) (hsi : si < 49) (hi : (i 1).val = si)
    (h0 : ∀ (e : Fin 2048) (E : Fin 800768), E.val = ci * 2048 + e.val → x0 (ix1 e) = IDX (ix1 E))
    (h1 : ∀ (e : Fin 2048) (E : Fin 800768), E.val = ci * 2048 + e.val → x1 (ix1 e) = W (ix1 E))
    (h2 : ∀ (k : Fin 1024) (q : Fin 128) (R : Fin 50176), R.val = si * 1024 + k.val → x2 (ix2 k q) = X (ix2 R q))
    (e : Fin 2048) (q : Fin 128) (E : Fin 800768) (hE : E.val = ci * 2048 + e.val) :
    k1_pay2 (F := Ideal) i x0 x1 x2 acc (ix2 e q)
      = acc (ix2 e q) + (0 + ∑ k : Fin 1024, gterm1 IDX W X E q (si * 1024 + k.val)) := by
  refine (pay1_2_apply i x0 x1 x2 acc e q).trans ?_
  refine congrArg (fun z => acc (ix2 e q) + (0 + z)) (Finset.sum_congr rfl fun k _ => ?_)
  have hk : si * 1024 + k.val < 50176 := by have := k.isLt; omega
  unfold gterm1
  rw [dif_pos hk, hi, h0 e E hE, h1 e E hE, h2 k q ⟨si * 1024 + k.val, hk⟩ rfl]

/-- A block whose entry (e, q) is the running total after the last of the 49 source tiles, for edge ci · 2048 + e, is
    block ci of the one-hot product over all 50176 source rows. -/
theorem block1_eq_gat (A : Vec Ideal S2048x128 .f32) (IDX : Vec Ideal S800768 .i32) (W : Vec Ideal S800768 .f32) (X : Vec Ideal S50176x128 .f32) (ci : ℕ)
    (hA : ∀ (e : Fin 2048) (q : Fin 128) (E : Fin 800768), E.val = ci * 2048 + e.val → A (ix2 e q) = Cert.Spec.accTiles 1024 (gterm1 IDX W X E q) 48)
    (j : S2048x128.Idx) (i : S800768x128.Idx) (hi0 : (i 0).val = ci * 2048 + (j 0).val) (hi1 : (i 1).val = (j 1).val) :
    A j = Cert.Spec.unc2 (Cert.Spec.gat (Cert.Spec.cur1 IDX) (Cert.Spec.cur1 W) (Cert.Spec.cur2 X)) i := by
  obtain ⟨e, q, rfl⟩ : ∃ (e : Fin 2048) (q : Fin 128), j = ix2 e q := ⟨j 0, j 1, eq_ix2 j⟩
  obtain ⟨E, Q, rfl⟩ : ∃ (E : Fin 800768) (Q : Fin 128), i = ix2 E Q := ⟨i 0, i 1, eq_ix2 i⟩
  obtain rfl : Q = q := Fin.ext hi1
  rw [hA e Q E hi0]
  show _ = ∑ s : Fin 50176, (if IDX (ix1 E) = BitVec.ofNat 32 s.val then W (ix1 E) else 0) * X (ix2 s Q)
  exact Cert.Spec.accTiles_flat 49 1024 (by decide) (fun s : Fin (49 * 1024) => (if IDX (ix1 E) = BitVec.ofNat 32 s.val then W (ix1 E) else 0) * X (ix2 s Q))

/-! ## What each case leaves, as the body's arithmetic on the blocks -/

theorem sout1_A_0_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S1024x128 .f32) :
    sout1_A_0 c i arg2 harg2 arg3 harg3 arg4 harg4 arg5 harg5 arg6 harg6 hc0 hc1 x0 x1 x2 = k1_pay2 i x0 x1 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  exact canon1_A c i arg2 harg2 arg3 harg3 arg4 harg4 arg5 harg5 arg6 harg6 hc0 hc1 x0 x1 x2

theorem sout1_B_0_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S1024x128 .f32) (xs0 : Vec F S2048x128 .f32) :
    sout1_B_0 c i arg2 harg2 arg3 harg3 arg4 harg4 arg5 harg5 arg6 harg6 hc0 hc1 x0 x1 x2 xs0 = k1_pay2 i x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  exact canon1_B c i arg2 harg2 arg3 harg3 arg4 harg4 arg5 harg5 arg6 harg6 hc0 hc1 x0 x1 x2 xs0

theorem sout1_C_0_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) :
    sout1_C_0 c i arg2 harg2 arg3 harg3 arg4 harg4 arg5 harg5 arg6 harg6 hc0 hc1 x0 x1 x2 xs0 = k1_pay2 i x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  exact canon1_C c i arg2 harg2 arg3 harg3 arg4 harg4 arg5 harg5 arg6 harg6 hc0 hc1 x0 x1 x2 xs0

theorem out1_C_3_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S1024x128 .f32) (xs0 : Vec F S2048x128 .f32) :
    out1_C_3 c i arg2 harg2 arg3 harg3 arg4 harg4 arg5 harg5 arg6 harg6 hc0 hc1 x0 x1 x2 xs0 = k1_pay3 (k1_pay2 i x0 x1 x2 xs0) := by
  unfold out1_C_3
  rw [View.read_writes_eq_canon _ _ _ (cover1_C_3 c i arg2 harg2 arg3 harg3 arg4 harg4 arg5 harg5 arg6 harg6 hc0 hc1 x0 x1 x2 xs0)]
  exact canon1_C3 c i arg2 harg2 arg3 harg3 arg4 harg4 arg5 harg5 arg6 harg6 hc0 hc1 x0 x1 x2 xs0

/-! ## The accumulator, point by point -/

section
variable (V : (c : Dev nD) → (b : Ref sig .tc) → Buf (Elt Ideal) ((c : Thread nD τ).loc b))

/-- The one-hot product of the arrays as the region finds them. -/
abbrev gatG1 (c : Dev nD) : S800768x128.Idx → EReal :=
  Cert.Spec.unc2 (Cert.Spec.gat (Cert.Spec.cur1 (V c main_v2 : S800768.Idx → BitVec 32)) (Cert.Spec.cur1 (V c main_v4 : S800768.Idx → EReal)) (Cert.Spec.cur2 (V c main_v1 : S50176x128.Idx → EReal)))

/-- The accumulate step at point t over an accumulator `acc`, at (e, q), for edge E = (t / 49) · 2048 + e: the share of tile t % 49 is added. -/
theorem stepAt1 (c : Dev nD) (t : Fin cfg1.N) (acc : Vec Ideal S2048x128 .f32) (e : Fin 2048) (q : Fin 128) (E : Fin 800768) (hE : E.val = t.val / 49 * 2048 + e.val) :
    k1_pay2 (F := Ideal) (grid1.coords t) (iblk1 V c 0 t) (iblk1 V c 1 t) (iblk1 V c 2 t) acc (ix2 e q)
      = acc (ix2 e q) + (0 + ∑ k : Fin 1024, gterm1 (V c main_v2) (V c main_v4) (V c main_v1) E q (t.val % 49 * 1024 + k.val)) :=
  step1_apply (grid1.coords t) (iblk1 V c 0 t) (iblk1 V c 1 t) (iblk1 V c 2 t) acc (V c main_v2) (V c main_v4) (V c main_v1) (t.val / 49) (t.val % 49)
    (Nat.mod_lt _ (by decide)) (coords1_1 t) (idxblk1_apply V c t) (wblk1_apply V c t) (xblk1_apply V c t) e q E hE

/-- At a first source tile the accumulator ends at the first tile's share, added to zero. -/
theorem accA1 (c : Dev nD) (t : Fin cfg1.N) (h0 : t.val % 49 = 0) (e : Fin 2048) (q : Fin 128) (E : Fin 800768) (hE : E.val = t.val / 49 * 2048 + e.val) :
    ((outsAt1 V c t.val t.isLt).2 : Vec Ideal S2048x128 .f32) (ix2 e q) = Cert.Spec.accTiles 1024 (gterm1 (V c main_v2) (V c main_v4) (V c main_v1) E q) 0 := by
  have h1 : ¬t.val % 49 = 48 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) (ix2 e q)).trans ?_
  refine (stepAt1 V c t (k1_pay1 (F := Ideal)) e q E hE).trans ?_
  rw [pay1_1_apply, h0]
  show _ = (0 : EReal) + (0 + ∑ k : Fin 1024, gterm1 (V c main_v2) (V c main_v4) (V c main_v1) E q k.val)
  simp only [Nat.zero_mul, Nat.zero_add]

/-- At a later source tile the accumulator ends at what the point before left plus this tile's share. -/
theorem accBC1 (c : Dev nD) (t : Fin cfg1.N) (h0 : ¬t.val % 49 = 0) (e : Fin 2048) (q : Fin 128) (E : Fin 800768) (hE : E.val = t.val / 49 * 2048 + e.val)
    (ih : ((outsAt1 V c (t.val - 1) (Nat.lt_of_le_of_lt (Nat.sub_le _ _) t.isLt)).2 : Vec Ideal S2048x128 .f32) (ix2 e q) = Cert.Spec.accTiles 1024 (gterm1 (V c main_v2) (V c main_v4) (V c main_v1) E q) (t.val % 49 - 1)) :
    ((outsAt1 V c t.val t.isLt).2 : Vec Ideal S2048x128 .f32) (ix2 e q) = Cert.Spec.accTiles 1024 (gterm1 (V c main_v2) (V c main_v4) (V c main_v1) E q) (t.val % 49) := by
  obtain ⟨m, hm⟩ : ∃ m, t.val % 49 = m + 1 := ⟨t.val % 49 - 1, by omega⟩
  by_cases h1 : t.val % 49 = 48
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 e q)).trans ?_
    refine (stepAt1 V c t (outsAt1 V c (t.val - 1) (Nat.lt_of_le_of_lt (Nat.sub_le _ _) t.isLt)).2 e q E hE).trans ?_
    rw [ih, hm, Nat.add_sub_cancel]
    rfl
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) (ix2 e q)).trans ?_
    refine (stepAt1 V c t (outsAt1 V c (t.val - 1) (Nat.lt_of_le_of_lt (Nat.sub_le _ _) t.isLt)).2 e q E hE).trans ?_
    rw [ih, hm, Nat.add_sub_cancel]
    rfl

/-- THE INVARIANT: after point n = ci · 49 + si the accumulator's entry (e, q) is the running total, over the source
    tiles 0 … si, of the summands of edge ci · 2048 + e. -/
theorem acc1_eq (c : Dev nD) : ∀ (n : ℕ) (hn : n < cfg1.N) (e : Fin 2048) (q : Fin 128) (E : Fin 800768), E.val = n / 49 * 2048 + e.val →
    ((outsAt1 V c n hn).2 : Vec Ideal S2048x128 .f32) (ix2 e q) = Cert.Spec.accTiles 1024 (gterm1 (V c main_v2) (V c main_v4) (V c main_v1) E q) (n % 49)
  | 0, hn, e, q, E, hE => accA1 V c ⟨0, hn⟩ (Nat.zero_mod _) e q E hE
  | n + 1, hn, e, q, E, hE => by
    by_cases h0 : (n + 1) % 49 = 0
    · rw [h0]
      exact accA1 V c ⟨n + 1, hn⟩ h0 e q E hE
    · refine accBC1 V c ⟨n + 1, hn⟩ h0 e q E hE ?_
      have hdiv : (n + 1) / 49 = n / 49 := by omega
      have hmod : (n + 1) % 49 - 1 = n % 49 := by omega
      have ih := acc1_eq c n (Nat.lt_of_succ_lt hn) e q E (by rw [← hdiv]; exact hE)
      show ((outsAt1 V c n _).2 : Vec Ideal S2048x128 .f32) (ix2 e q) = Cert.Spec.accTiles 1024 (gterm1 (V c main_v2) (V c main_v4) (V c main_v1) E q) ((n + 1) % 49 - 1)
      rw [hmod]
      exact ih

/-! ## From the blocks to the array -/

/-- At a last source tile the output block is the accumulator (the narrowing is the identity). -/
theorem outC1_fst (c : Dev nD) (t : Fin cfg1.N) (h0 : ¬t.val % 49 = 0) (h1 : t.val % 49 = 48) :
    ((outsAt1 V c t.val t.isLt).1 : S2048x128.Idx → EReal) = ((outsAt1 V c t.val t.isLt).2 : S2048x128.Idx → EReal) := by
  rw [outsAt1_C V c t h0 h1]
  dsimp only
  exact (out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).trans
    ((pay1_3_eq _).trans (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).symm)

/-- What a last source tile's point writes back is block t / 49 of the one-hot product of the arrays. -/
theorem flushed1_eq (c : Dev nD) (t : Fin cfg1.N) (hf : (cfg1.win 3).flush t = true) :
    (dat1 (F := Ideal) V c).flushed 3 t = ((cfg1.win 3).blk t).view.read (Elt Ideal) (gatG1 V c) := by
  have h1 : t.val % 49 = 48 := (flushAt1_3 t).mp hf
  have h0 : ¬t.val % 49 = 0 := by omega
  show (cfg1.win 3).cut (grid1.coords t) ((dat1 (F := Ideal) V c).after 3 t) = _
  rw [after1_3]
  obtain ⟨e0, e1⟩ := oidx1 t
  have hA : ∀ (e : Fin 2048) (q : Fin 128) (E : Fin 800768), E.val = t.val / 49 * 2048 + e.val →
      ((outsAt1 V c t.val t.isLt).2 : Vec Ideal S2048x128 .f32) (ix2 e q) = Cert.Spec.accTiles 1024 (gterm1 (V c main_v2) (V c main_v4) (V c main_v1) E q) 48 := fun e q E hE => by
    have := acc1_eq V c t.val t.isLt e q E hE
    rw [h1] at this
    exact this
  funext j
  have hread : ∀ G : S800768x128.Idx → EReal, ((cfg1.win 3).blk t).view.read (Elt Ideal) G j = G (((cfg1.win 3).blk t).view.emb j) := fun G => rfl
  rw [hread]
  refine (congrFun (outC1_fst V c t h0 h1) j).trans ?_
  refine block1_eq_gat (outsAt1 V c t.val t.isLt).2 (V c main_v2) (V c main_v4) (V c main_v1) (t.val / 49) hA j (((cfg1.win 3).blk t).view.emb j) ?_ ?_
  · show win1_3.index t (0 : Fin 2) * 2048 + 1 * (j 0).val = t.val / 49 * 2048 + (j 0).val; rw [e0]; omega
  · show win1_3.index t (1 : Fin 2) * 128 + 1 * (j 1).val = (j 1).val; rw [e1]; omega

/-- An index of the output array is in point t's block iff each coordinate is in the block's range on its axis. -/
theorem mem_blk1 (t : Fin cfg1.N) (i : S800768x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v5).slice (win1_3.rect t)).set ↔ _
  rw [View.set_slice_whole, Rect.mem_set_unit]
  exact Iff.rfl

/-- Row R of the output array is in the block written back at the last source tile of edge chunk R / 2048. -/
theorem cover1 (i : S800768x128.Idx) : ∃ t : Fin cfg1.N, (cfg1.win 3).flush t = true ∧ i ∈ ((cfg1.win 3).blk t).view.set := by
  have hi0 : (i 0).val < 800768 := (i 0).isLt
  have hi1 : (i 1).val < 128 := (i 1).isLt
  have hN : cfg1.N = 19159 := N_1
  have hlt : (i 0).val / 2048 * 49 + 48 < cfg1.N := by rw [hN]; omega
  refine ⟨⟨(i 0).val / 2048 * 49 + 48, hlt⟩, (flushAt1_3 _).mpr (by show ((i 0).val / 2048 * 49 + 48) % 49 = 48; omega), ?_⟩
  obtain ⟨e0, e1⟩ := oidx1 ⟨(i 0).val / 2048 * 49 + 48, hlt⟩
  rw [mem_blk1]
  intro a
  match a with
  | ⟨0, _⟩ =>
    show win1_3.index _ (0 : Fin 2) * 2048 ≤ (i 0).val ∧ (i 0).val < win1_3.index _ (0 : Fin 2) * 2048 + 2048
    rw [e0]
    show ((i 0).val / 2048 * 49 + 48) / 49 * 2048 ≤ (i 0).val ∧ (i 0).val < ((i 0).val / 2048 * 49 + 48) / 49 * 2048 + 2048
    omega
  | ⟨1, _⟩ =>
    show win1_3.index _ (1 : Fin 2) * 128 ≤ (i 1).val ∧ (i 1).val < win1_3.index _ (1 : Fin 2) * 128 + 128
    rw [e1]
    omega

/-- The output array after the run is the one-hot product of the arrays as the region finds them: per edge, the sum over
    all source rows of (w e if idx e names the row, else 0) · X row. -/
theorem gat_val1 (c : Dev nD) :
    ((dat1 (F := Ideal) V c).arrAt 3 cfg1.N : S800768x128.Idx → EReal)
      = Cert.Spec.unc2 (Cert.Spec.gat (Cert.Spec.cur1 (V c main_v2 : S800768.Idx → BitVec 32)) (Cert.Spec.cur1 (V c main_v4 : S800768.Idx → EReal)) (Cert.Spec.cur2 (V c main_v1 : S50176x128.Idx → EReal))) :=
  (dat1 (F := Ideal) V c).arrAt_eq_of_cover 3 (gatG1 V c) (fun t hf => flushed1_eq V c t hf) cover1

end

end Cert.KernelIdeal.H

end
-- ==== Proof.KI.GV7a.lean ====
/-
  A gather launch (the first one-hot product of a relation), at the ideal values: the body's arithmetic read at an index.
  At row e and column q of the block, the accumulate step stores the accumulator's entry plus the sum, over the 1024
  rows k of the source tile, of (w e if idx e is the tile's global row number si · 1024 + k, else 0) · X (k, q): the
  comparison of the two broadcast words is 1 exactly where they are equal, the select picks the weight or zero, the
  narrowing to bf16 is the identity, and the product into a zero accumulator is the plain sum.  The zero fill is 0
  everywhere and the narrowing of the stored block is the identity.
-/
import proofs.«407232_j23192823399226_1_alg».proof.Proof.KI.G7Runs
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.Lib.Affine
import Idealize.ShloMosaic.PureOps.Ideal.Laws
import Idealize.ShloMosaic.Lib.ValueLayout

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The one-hot product read at an index -/

theorem lhsA_pay7 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhsB_pay7 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhsA_pay7 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhsB_pay7 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator, at row e and column q: the sum over the tile's rows k of x (e, k) · y (k, q). -/
theorem matmul7_apply (x : FVec Ideal S2048x1024 .bf16) (y : FVec Ideal S1024x128 .bf16) (e : Fin 2048) (q : Fin 128) :
    matmul dot_S2048x1024_S1024x128_S2048x128_1_0_0_1_n_n none x y (constant (F := Ideal) S2048x128 .f32 0x00000000#32) (ix2 e q)
      = ∑ k : Fin 1024, x (ix2 e k) * y (ix2 k q) := by
  refine (Ideal.matmul_constant_zero_apply dot_S2048x1024_S1024x128_S2048x128_1_0_0_1_n_n none x y (ix2 e q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 e q) ((contrEquiv1 dot_S2048x1024_S1024x128_S2048x128_1_0_0_1_n_n 1024 rfl rfl).symm k) = ix2 e k := funext fun a => Fin.ext (by
    match a with
    | ⟨0, _⟩ => exact lhsA_pay7 _ _
    | ⟨1, _⟩ => exact (lhsB_pay7 _ _).trans hk)
  have er : dot_S2048x1024_S1024x128_S2048x128_1_0_0_1_n_n.rhsIdx (ix2 e q) ((contrEquiv1 dot_S2048x1024_S1024x128_S2048x128_1_0_0_1_n_n 1024 rfl rfl).symm k) = ix2 k q := funext fun a => Fin.ext (by
    match a with
    | ⟨0, _⟩ => exact (rhsA_pay7 _ _).trans hk
    | ⟨1, _⟩ => exact rhsB_pay7 _ _)
  rw [el, er]

/-- A vector laid as a column and repeated along the rows: entry (e, k) is the vector's entry e. -/
theorem colRep7_apply {α : Type} (v : S2048.Idx → α) (e : Fin 2048) (k : Fin 1024) :
    broadcastTo S2048x1024 (shapeCast S2048x1 v shapeCasts_S2048_S2048x1) broadcasts_S2048x1_S2048x1024 (ix2 e k) = v (ix1 e) := by
  refine (broadcastTo_apply _ broadcasts_S2048x1_S2048x1024 (ix2 e k) (ix2 e (0 : Fin 1)) (fun a => ?_)).trans ?_
  · match a with
    | ⟨0, _⟩ => show e.val = if (2048 : Nat) = 1 then 0 else e.val; rw [if_neg (by decide)]
    | ⟨1, _⟩ => show 0 = if (1 : Nat) = 1 then 0 else _; rw [if_pos rfl]
  · refine shapeCast_apply v shapeCasts_S2048_S2048x1 (ix2 e (0 : Fin 1)) (ix1 e) ?_
    rw [Shape.rowMajor_val_one, Shape.rowMajor_val_two]
    show e.val = e.val * 1 + 0
    omega

/-- The tile's global row numbers: the tile's first row number (the tile index times 1024, as a word) plus the row's position in the tile is the word of si · 1024 + k. -/
theorem rowWord7 (si : Nat) (k : Nat) :
    IntOp.addi (Scalar.muli (BitVec.ofNat 32 si) 1024#32) (BitVec.ofNat 32 k) = BitVec.ofNat 32 (si * 1024 + k) := by
  show BitVec.ofNat 32 si * BitVec.ofNat 32 1024 + BitVec.ofNat 32 k = _
  rw [BitVec.ofNat_add, BitVec.ofNat_mul]

/-- A select on "the two words are equal" is the `if` on their equality. -/
theorem select_cmpi_eq7 {α : Type} (a b : BitVec 32) (x y : α) :
    Scalar.select (IntOp.cmpi .eq a b) x y = if a = b then x else y := by
  unfold Scalar.select
  exact if_congr IntOp.cmpi_eq rfl rfl

/-- An `if` on an equality of words, rewritten in all four places. -/
theorem ite_eq_congr7 {α : Type} {a a' b b' : BitVec 32} {x x' y y' : α} (ha : a = a') (hb : b = b') (hx : x = x') (hy : y = y') :
    (if a = b then x else y) = if a' = b' then x' else y' := by
  subst ha hb hx hy; rfl

/-- The zero fill, anywhere. -/
theorem pay7_1_apply (j : S2048x128.Idx) : k7_pay1 (F := Ideal) j = 0 := by
  unfold k7_pay1
  refine (congrFun (shapeCast_self _ shapeCasts_S2048x128_S2048x128) j).trans ?_
  exact Ideal.ofBits_zero_f32

/-- The narrowing of the stored block is the identity at the ideal values. -/
theorem pay7_3_eq (x : Vec Ideal S2048x128 .f32) : (k7_pay3 (F := Ideal) x : S2048x128.Idx → EReal) = x := rfl

/-- The accumulate step at row e and column q of the block: the accumulator there, plus the sum over the source tile's
    rows k of (w e if idx e is the tile's row number si · 1024 + k, else 0) · X (k, q). -/
theorem pay7_2_apply (i : grid7.Coords) (x0 : Vec Ideal S2048 .i32) (x1 : Vec Ideal S2048 .f32) (x2 : Vec Ideal S1024x128 .f32) (acc : Vec Ideal S2048x128 .f32)
    (e : Fin 2048) (q : Fin 128) :
    k7_pay2 (F := Ideal) i x0 x1 x2 acc (ix2 e q)
      = acc (ix2 e q) + (0 + ∑ k : Fin 1024, (if x0 (ix1 e) = BitVec.ofNat 32 ((i 1).val * 1024 + k.val) then x1 (ix1 e) else 0) * x2 (ix2 k q)) := by
  unfold k7_pay2
  refine (congrFun (shapeCast_self _ shapeCasts_S2048x128_S2048x128) (ix2 e q)).trans ?_
  refine (addf_apply _ _ (ix2 e q)).trans ?_
  refine congrArg₂ (· + ·) rfl ?_
  refine (matmul7_apply _ _ e q).trans ?_
  refine Eq.trans ?_ (zero_add _).symm
  refine Finset.sum_congr rfl fun k _ => ?_
  refine congrArg₂ (· * ·) ?_ ?_
  · refine (truncf_apply _ bitsLt_bf16_f32 (ix2 e k)).trans ?_
    refine (select_apply _ _ _ (ix2 e k)).trans ?_
    refine (select_cmpi_eq7 _ _ _ _).trans ?_
    refine ite_eq_congr7 ?_ ?_ ?_ ?_
    · exact (colRep7_apply (shapeCast S2048 x0 shapeCasts_S2048_S2048) e k).trans (congrFun (shapeCast_self x0 shapeCasts_S2048_S2048) (ix1 e))
    · refine (broadcastTo_1b_ab_apply _ broadcasts_S1x1024_S2048x1024 e k).trans ?_
      refine (congrArg (IntOp.addi (Scalar.muli (BitVec.ofNat 32 (i 1).val) 1024#32)) (iota_single_apply .tc S1x1024 32 1 iota_S1x1024_d1_w32 (ix2 (0 : Fin 1) k))).trans ?_
      exact rowWord7 (i 1).val k.val
    · refine (congrArg (fun z => broadcastTo S2048x1024 z broadcasts_S2048x1_S2048x1024 (ix2 e k)) (shapeCast_self (shapeCast S2048x1 (shapeCast S2048 x1 shapeCasts_S2048_S2048) shapeCasts_S2048_S2048x1) shapeCasts_S2048x1_S2048x1)).trans ?_
      exact (colRep7_apply (shapeCast S2048 x1 shapeCasts_S2048_S2048) e k).trans (congrFun (shapeCast_self x1 shapeCasts_S2048_S2048) (ix1 e))
    · exact Ideal.ofBits_zero_f32
  · refine (truncf_apply _ bitsLt_bf16_f32 (ix2 k q)).trans ?_
    exact congrFun (shapeCast_self x2 shapeCasts_S1024x128_S1024x128) (ix2 k q)

end Cert.KernelIdeal.H

end
-- ==== Proof.KI.GV7b.lean ====
/-
  A gather launch (the first one-hot product of a relation), at the ideal values: the blocks its input windows read.
  A grid point t is (edge chunk ci, source tile si) = (t / 49, t % 49).  The index maps return the grid coordinates:
  the blocks of idx and of w at t are entries ci · 2048 … of the arrays, the block of X is rows si · 1024 … of X.
-/
import proofs.«407232_j23192823399226_1_alg».proof.Proof.KI.G7Runs
import proofs.«407232_j23192823399226_1_alg».proof.Proof.SpecIdx
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The input windows' index maps, at any point -/

/-- The blocks of idx and of w are at block t / 49, the block of X at block row t % 49 (the index maps return the
    grid coordinates, which are below 2³²). -/
theorem idx_facts7 (t : Fin cfg7.N) :
    win7_0.index t (0 : Fin 1) = t.val / 49 ∧ win7_1.index t (0 : Fin 1) = t.val / 49
    ∧ win7_2.index t (0 : Fin 2) = t.val % 49 ∧ win7_2.index t (1 : Fin 2) = 0 := by
  have hN : grid7.N = 9604 := N_7
  have ht : t.val < 9604 := hN ▸ t.isLt
  have c0 := coords7_0 t
  have c1 := coords7_1 t
  refine ⟨?_, ?_, ?_, rfl⟩
  · show (BitVec.ofNat 32 ((grid7.coords t) 0).val).toNat = _
    rw [BitVec.toNat_ofNat, c0]; omega
  · show (BitVec.ofNat 32 ((grid7.coords t) 0).val).toNat = _
    rw [BitVec.toNat_ofNat, c0]; omega
  · show (BitVec.ofNat 32 ((grid7.coords t) 1).val).toNat = _
    rw [BitVec.toNat_ofNat, c1]; omega

/-! ## The blocks read off the arrays -/

section
variable (V : (c : Dev nD) → (b : Ref sig .tc) → Buf (Elt Ideal) ((c : Thread nD τ).loc b))

/-- The block of idx at point t is entries (t / 49) · 2048 … of idx. -/
theorem idxblk7_apply (c : Dev nD) (t : Fin cfg7.N) (e : Fin 2048) (E : Fin 401408) (hE : E.val = t.val / 49 * 2048 + e.val) :
    (iblk7 V c 0 t : Vec Ideal S2048 .i32) (ix1 e) = (V c main_v23 : Vec Ideal S401408 .i32) (ix1 E) := by
  obtain ⟨e0, -⟩ := idx_facts7 t
  unfold iblk7
  rw [View.read_apply]
  show V c main_v23 _ = V c main_v23 _
  congr 1
  funext a
  apply Fin.ext
  match a with
  | ⟨0, _⟩ => show win7_0.index t (0 : Fin 1) * 2048 + 1 * e.val = E.val; rw [e0, hE]; omega

/-- The block of w at point t is entries (t / 49) · 2048 … of w. -/
theorem wblk7_apply (c : Dev nD) (t : Fin cfg7.N) (e : Fin 2048) (E : Fin 401408) (hE : E.val = t.val / 49 * 2048 + e.val) :
    (iblk7 V c 1 t : Vec Ideal S2048 .f32) (ix1 e) = (V c main_v25 : Vec Ideal S401408 .f32) (ix1 E) := by
  obtain ⟨-, e0, -⟩ := idx_facts7 t
  unfold iblk7
  rw [View.read_apply]
  show V c main_v25 _ = V c main_v25 _
  congr 1
  funext a
  apply Fin.ext
  match a with
  | ⟨0, _⟩ => show win7_1.index t (0 : Fin 1) * 2048 + 1 * e.val = E.val; rw [e0, hE]; omega

/-- The block of X at point t is rows (t % 49) · 1024 … of X. -/
theorem xblk7_apply (c : Dev nD) (t : Fin cfg7.N) (k : Fin 1024) (q : Fin 128) (R : Fin 50176) (hR : R.val = t.val % 49 * 1024 + k.val) :
    (iblk7 V c 2 t : Vec Ideal S1024x128 .f32) (ix2 k q) = (V c main_v21 : Vec Ideal S50176x128 .f32) (ix2 R q) := by
  obtain ⟨-, -, e0, e1⟩ := idx_facts7 t
  unfold iblk7
  rw [View.read_apply]
  show V c main_v21 _ = V c main_v21 _
  congr 1
  funext a
  apply Fin.ext
  match a with
  | ⟨0, _⟩ => show win7_2.index t (0 : Fin 2) * 1024 + 1 * k.val = R.val; rw [e0, hR]; omega
  | ⟨1, _⟩ => show win7_2.index t (1 : Fin 2) * 128 + 1 * q.val = q.val; rw [e1]; omega

end

end Cert.KernelIdeal.H

end
-- ==== Proof.KI.GV7c.lean ====
/-
  A gather launch (the first one-hot product of a relation): what each control case's run leaves in the accumulator and
  in the output block, as the body's arithmetic on the blocks, for any float values.
  At the first source tile the accumulator is filled with zero, read back, and gets the tile's product added; at a
  later tile it gets the product added to what it held; at the last tile the output block receives the narrowing of
  the accumulator.  Each buffer is stored whole, so what it ends holding is the last store's payload.
-/
import proofs.«407232_j23192823399226_1_alg».proof.Proof.KI.G7RunC
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The pieces the body's run found, read back -/

theorem hz7 : (![0, 0] : Fin 2 → Nat) = fun _ => 0 := funext fun a => by fin_cases a <;> rfl
theorem hzv7 : (![0] : Fin 1 → Nat) = fun _ => 0 := funext fun a => by fin_cases a; rfl

/-- At a middle source tile the accumulator ends at the accumulate step over what it held. -/
theorem canon7_B (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) :
    View.canon (kernelRun7_B (F := F) c i arg2 harg2 arg3 harg3 arg4 harg4 arg5 harg5 arg6 harg6 hc0 hc1 x0 x1 x2 xs0).2.1 = k7_pay2 i x0 x1 x2 xs0 := by
  unfold kernelRun7_B
  dsimp only
  sl_unfold_words
  rw [View.canon_unit_zero hz7]
  simp only [View.readAt_eq_ld, harg2.read_unread, harg3.read_unread, harg4.read_unread, harg6.read_unread, View.ld_unit_zero (S := S2048) hzv7, View.ld_unit_zero (S := S1024x128) hz7, View.ld_unit_zero (S := S2048x128) hz7]

/-- At the first source tile the accumulator is zeroed, read back, and ends at the accumulate step over zero. -/
theorem canon7_A (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) :
    View.canon (kernelRun7_A (F := F) c i arg2 harg2 arg3 harg3 arg4 harg4 arg5 harg5 arg6 harg6 hc0 hc1 x0 x1 x2).2.1 = k7_pay2 i x0 x1 x2 (k7_pay1 (F := F)) := by
  unfold kernelRun7_A
  dsimp only
  sl_unfold_words
  rw [View.canon_cons_unit_zero (S := S2048x128) hz7]
  simp only [View.readAt_eq_ld, harg2.read_unread, harg3.read_unread, harg4.read_unread, harg6.read_unread, View.ld_unit_zero (S := S2048) hzv7, View.ld_unit_zero (S := S1024x128) hz7, View.ld_unit_zero (S := S2048x128) hz7, View.readCov_unit_zero (S := S2048x128) _ hz7]

/-- At the last source tile the accumulator ends at the accumulate step over what it held, -/
theorem canon7_C (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) :
    View.canon (kernelRun7_C (F := F) c i arg2 harg2 arg3 harg3 arg4 harg4 arg5 harg5 arg6 harg6 hc0 hc1 x0 x1 x2 xs0).2.1 = k7_pay2 i x0 x1 x2 xs0 := by
  unfold kernelRun7_C
  dsimp only
  sl_unfold_words
  rw [View.canon_unit_zero hz7]
  simp only [View.readAt_eq_ld, harg2.read_unread, harg3.read_unread, harg4.read_unread, harg6.read_unread, View.ld_unit_zero (S := S2048) hzv7, View.ld_unit_zero (S := S1024x128) hz7, View.ld_unit_zero (S := S2048x128) hz7]

/-- and the output block at the narrowing of that. -/
theorem canon7_C3 (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) :
    View.canon (kernelRun7_C (F := F) c i arg2 harg2 arg3 harg3 arg4 harg4 arg5 harg5 arg6 harg6 hc0 hc1 x0 x1 x2 xs0).1 = k7_pay3 (k7_pay2 i x0 x1 x2 xs0) := by
  unfold kernelRun7_C
  dsimp only
  sl_unfold_words
  rw [View.canon_unit_zero hz7]
  simp only [View.readAt_eq_ld, harg2.read_unread, harg3.read_unread, harg4.read_unread, harg6.read_unread, View.ld_unit_zero (S := S2048) hzv7, View.ld_unit_zero (S := S1024x128) hz7, View.ld_unit_zero (S := S2048x128) hz7, View.readCov_unit_zero (S := S2048x128) _ hz7]

end Cert.KernelIdeal.H

end
-- ==== Proof.KI.GV7.lean ====
/-
  A gather launch (the first one-hot product of a relation), at the ideal values: what its output array holds after the run.
  Within edge chunk ci the accumulator after source tile si holds, at (e, q), the running total over the tiles 0 … si of
  the summands of edge ci · 2048 + e, where the summand of source row s is (w E if idx E is the word of s, else 0) · X (s, q):
  the first tile adds its share to zero, each later tile adds its share to what the point before left (induction on the
  grid point).  After the last of the 49 tiles the running total is the sum over all 50176 source rows, the output block
  receives it unchanged and is written back; the 196 blocks written back cover the 401408 rows.  So the array ends
  holding, per edge, the one-hot weighted sum over all source rows.
-/
import proofs.«407232_j23192823399226_1_alg».proof.Proof.KI.G7
import proofs.«407232_j23192823399226_1_alg».proof.Proof.KI.GV7a
import proofs.«407232_j23192823399226_1_alg».proof.Proof.KI.GV7b
import proofs.«407232_j23192823399226_1_alg».proof.Proof.KI.GV7c

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## One accumulate step, and the last accumulator, in terms of the arrays -/

/-- The summand of source row s, for edge E at column q: (w E if idx E is the word of s, else 0) · X (s, q); 0 past the
    table's 50176 rows. -/
def gterm7 (IDX : Vec Ideal S401408 .i32) (W : Vec Ideal S401408 .f32) (X : Vec Ideal S50176x128 .f32) (E : Fin 401408) (q : Fin 128) : ℕ → EReal :=
  fun s => if h : s < 50176 then (if IDX (ix1 E) = BitVec.ofNat 32 s then W (ix1 E) else 0) * X (ix2 ⟨s, h⟩ q) else 0

/-- The accumulate step on blocks that are entries ci · 2048 … of idx and w and rows si · 1024 … of X: at (e, q) it
    adds tile si's share of the sum over the source rows, for edge ci · 2048 + e. -/
theorem step7_apply (i : grid7.Coords) (x0 : Vec Ideal S2048 .i32) (x1 : Vec Ideal S2048 .f32) (x2 : Vec Ideal S1024x128 .f32) (acc : Vec Ideal S2048x128 .f32)
    (IDX : Vec Ideal S401408 .i32) (W : Vec Ideal S401408 .f32) (X : Vec Ideal S50176x128 .f32) (ci si : ℕ) (hsi : si < 49) (hi : (i 1).val = si)
    (h0 : ∀ (e : Fin 2048) (E : Fin 401408), E.val = ci * 2048 + e.val → x0 (ix1 e) = IDX (ix1 E))
    (h1 : ∀ (e : Fin 2048) (E : Fin 401408), E.val = ci * 2048 + e.val → x1 (ix1 e) = W (ix1 E))
    (h2 : ∀ (k : Fin 1024) (q : Fin 128) (R : Fin 50176), R.val = si * 1024 + k.val → x2 (ix2 k q) = X (ix2 R q))
    (e : Fin 2048) (q : Fin 128) (E : Fin 401408) (hE : E.val = ci * 2048 + e.val) :
    k7_pay2 (F := Ideal) i x0 x1 x2 acc (ix2 e q)
      = acc (ix2 e q) + (0 + ∑ k : Fin 1024, gterm7 IDX W X E q (si * 1024 + k.val)) := by
  refine (pay7_2_apply i x0 x1 x2 acc e q).trans ?_
  refine congrArg (fun z => acc (ix2 e q) + (0 + z)) (Finset.sum_congr rfl fun k _ => ?_)
  have hk : si * 1024 + k.val < 50176 := by have := k.isLt; omega
  unfold gterm7
  rw [dif_pos hk, hi, h0 e E hE, h1 e E hE, h2 k q ⟨si * 1024 + k.val, hk⟩ rfl]

/-- A block whose entry (e, q) is the running total after the last of the 49 source tiles, for edge ci · 2048 + e, is
    block ci of the one-hot product over all 50176 source rows. -/
theorem block7_eq_gat (A : Vec Ideal S2048x128 .f32) (IDX : Vec Ideal S401408 .i32) (W : Vec Ideal S401408 .f32) (X : Vec Ideal S50176x128 .f32) (ci : ℕ)
    (hA : ∀ (e : Fin 2048) (q : Fin 128) (E : Fin 401408), E.val = ci * 2048 + e.val → A (ix2 e q) = Cert.Spec.accTiles 1024 (gterm7 IDX W X E q) 48)
    (j : S2048x128.Idx) (i : S401408x128.Idx) (hi0 : (i 0).val = ci * 2048 + (j 0).val) (hi1 : (i 1).val = (j 1).val) :
    A j = Cert.Spec.unc2 (Cert.Spec.gat (Cert.Spec.cur1 IDX) (Cert.Spec.cur1 W) (Cert.Spec.cur2 X)) i := by
  obtain ⟨e, q, rfl⟩ : ∃ (e : Fin 2048) (q : Fin 128), j = ix2 e q := ⟨j 0, j 1, eq_ix2 j⟩
  obtain ⟨E, Q, rfl⟩ : ∃ (E : Fin 401408) (Q : Fin 128), i = ix2 E Q := ⟨i 0, i 1, eq_ix2 i⟩
  obtain rfl : Q = q := Fin.ext hi1
  rw [hA e Q E hi0]
  show _ = ∑ s : Fin 50176, (if IDX (ix1 E) = BitVec.ofNat 32 s.val then W (ix1 E) else 0) * X (ix2 s Q)
  exact Cert.Spec.accTiles_flat 49 1024 (by decide) (fun s : Fin (49 * 1024) => (if IDX (ix1 E) = BitVec.ofNat 32 s.val then W (ix1 E) else 0) * X (ix2 s Q))

/-! ## What each case leaves, as the body's arithmetic on the blocks -/

theorem sout7_A_0_eq (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond7_0 i) (hc1 : ¬cond7_1 i)
    (x0 : Vec F S2048 .i32) (x1 : Vec F S2048 .f32) (x2 : Vec F S1024x128 .f32) :
    sout7_A_0 c i arg2 harg2 arg3 harg3 arg4 harg4 arg5 harg5 arg6 harg6 hc0 hc1 x0 x1 x2 = k7_pay2 i x0 x1 x2 (k7_pay1 (F := F)) := by
  unfold sout7_A_0
  rw [View.read_writes_eq_canon _ _ _ (scover7_A_0 c i arg2 harg2 arg3 harg3 arg4 harg4 arg5 harg5 arg6 harg6 hc0 hc1 x0 x1 x2)]
  exact canon7_A c i arg2 harg2 arg3 harg3 arg4 harg4 arg5 harg5 arg6 harg6 hc0 hc1 x0 x1 x2

theorem sout7_B_0_eq (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : ¬cond7_1 i)
    (x0 : Vec F S2048 .i32) (x1 : Vec F S2048 .f32) (x2 : Vec F S1024x128 .f32) (xs0 : Vec F S2048x128 .f32) :
    sout7_B_0 c i arg2 harg2 arg3 harg3 arg4 harg4 arg5 harg5 arg6 harg6 hc0 hc1 x0 x1 x2 xs0 = k7_pay2 i x0 x1 x2 xs0 := by
  unfold sout7_B_0
  rw [View.read_writes_eq_canon _ _ _ (scover7_B_0 c i arg2 harg2 arg3 harg3 arg4 harg4 arg5 harg5 arg6 harg6 hc0 hc1 x0 x1 x2 xs0)]
  exact canon7_B c i arg2 harg2 arg3 harg3 arg4 harg4 arg5 harg5 arg6 harg6 hc0 hc1 x0 x1 x2 xs0

theorem sout7_C_0_eq (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) :
    sout7_C_0 c i arg2 harg2 arg3 harg3 arg4 harg4 arg5 harg5 arg6 harg6 hc0 hc1 x0 x1 x2 xs0 = k7_pay2 i x0 x1 x2 xs0 := by
  unfold sout7_C_0
  rw [View.read_writes_eq_canon _ _ _ (scover7_C_0 c i arg2 harg2 arg3 harg3 arg4 harg4 arg5 harg5 arg6 harg6 hc0 hc1 x0 x1 x2 xs0)]
  exact canon7_C c i arg2 harg2 arg3 harg3 arg4 harg4 arg5 harg5 arg6 harg6 hc0 hc1 x0 x1 x2 xs0

theorem out7_C_3_eq (c : Dev nD) (i : grid7.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond7_0 i) (hc1 : cond7_1 i)
    (x0 : Vec F S2048 .i32) (x1 : Vec F S2048 .f32) (x2 : Vec F S1024x128 .f32) (xs0 : Vec F S2048x128 .f32) :
    out7_C_3 c i arg2 harg2 arg3 harg3 arg4 harg4 arg5 harg5 arg6 harg6 hc0 hc1 x0 x1 x2 xs0 = k7_pay3 (k7_pay2 i x0 x1 x2 xs0) := by
  unfold out7_C_3
  rw [View.read_writes_eq_canon _ _ _ (cover7_C_3 c i arg2 harg2 arg3 harg3 arg4 harg4 arg5 harg5 arg6 harg6 hc0 hc1 x0 x1 x2 xs0)]
  exact canon7_C3 c i arg2 harg2 arg3 harg3 arg4 harg4 arg5 harg5 arg6 harg6 hc0 hc1 x0 x1 x2 xs0

/-! ## The accumulator, point by point -/

section
variable (V : (c : Dev nD) → (b : Ref sig .tc) → Buf (Elt Ideal) ((c : Thread nD τ).loc b))

/-- The one-hot product of the arrays as the region finds them. -/
abbrev gatG7 (c : Dev nD) : S401408x128.Idx → EReal :=
  Cert.Spec.unc2 (Cert.Spec.gat (Cert.Spec.cur1 (V c main_v23 : S401408.Idx → BitVec 32)) (Cert.Spec.cur1 (V c main_v25 : S401408.Idx → EReal)) (Cert.Spec.cur2 (V c main_v21 : S50176x128.Idx → EReal)))

/-- The accumulate step at point t over an accumulator `acc`, at (e, q), for edge E = (t / 49) · 2048 + e: the share of tile t % 49 is added. -/
theorem stepAt7 (c : Dev nD) (t : Fin cfg7.N) (acc : Vec Ideal S2048x128 .f32) (e : Fin 2048) (q : Fin 128) (E : Fin 401408) (hE : E.val = t.val / 49 * 2048 + e.val) :
    k7_pay2 (F := Ideal) (grid7.coords t) (iblk7 V c 0 t) (iblk7 V c 1 t) (iblk7 V c 2 t) acc (ix2 e q)
      = acc (ix2 e q) + (0 + ∑ k : Fin 1024, gterm7 (V c main_v23) (V c main_v25) (V c main_v21) E q (t.val % 49 * 1024 + k.val)) :=
  step7_apply (grid7.coords t) (iblk7 V c 0 t) (iblk7 V c 1 t) (iblk7 V c 2 t) acc (V c main_v23) (V c main_v25) (V c main_v21) (t.val / 49) (t.val % 49)
    (Nat.mod_lt _ (by decide)) (coords7_1 t) (idxblk7_apply V c t) (wblk7_apply V c t) (xblk7_apply V c t) e q E hE

/-- At a first source tile the accumulator ends at the first tile's share, added to zero. -/
theorem accA7 (c : Dev nD) (t : Fin cfg7.N) (h0 : t.val % 49 = 0) (e : Fin 2048) (q : Fin 128) (E : Fin 401408) (hE : E.val = t.val / 49 * 2048 + e.val) :
    ((outsAt7 V c t.val t.isLt).2 : Vec Ideal S2048x128 .f32) (ix2 e q) = Cert.Spec.accTiles 1024 (gterm7 (V c main_v23) (V c main_v25) (V c main_v21) E q) 0 := by
  have h1 : ¬t.val % 49 = 48 := by omega
  rw [outsAt7_A V c t h0 h1]
  dsimp only
  refine (congrFun (sout7_A_0_eq (F := Ideal) c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) (ix2 e q)).trans ?_
  refine (stepAt7 V c t (k7_pay1 (F := Ideal)) e q E hE).trans ?_
  rw [pay7_1_apply, h0]
  show _ = (0 : EReal) + (0 + ∑ k : Fin 1024, gterm7 (V c main_v23) (V c main_v25) (V c main_v21) E q k.val)
  simp only [Nat.zero_mul, Nat.zero_add]

/-- At a later source tile the accumulator ends at what the point before left plus this tile's share. -/
theorem accBC7 (c : Dev nD) (t : Fin cfg7.N) (h0 : ¬t.val % 49 = 0) (e : Fin 2048) (q : Fin 128) (E : Fin 401408) (hE : E.val = t.val / 49 * 2048 + e.val)
    (ih : ((outsAt7 V c (t.val - 1) (Nat.lt_of_le_of_lt (Nat.sub_le _ _) t.isLt)).2 : Vec Ideal S2048x128 .f32) (ix2 e q) = Cert.Spec.accTiles 1024 (gterm7 (V c main_v23) (V c main_v25) (V c main_v21) E q) (t.val % 49 - 1)) :
    ((outsAt7 V c t.val t.isLt).2 : Vec Ideal S2048x128 .f32) (ix2 e q) = Cert.Spec.accTiles 1024 (gterm7 (V c main_v23) (V c main_v25) (V c main_v21) E q) (t.val % 49) := by
  obtain ⟨m, hm⟩ : ∃ m, t.val % 49 = m + 1 := ⟨t.val % 49 - 1, by omega⟩
  by_cases h1 : t.val % 49 = 48
  · rw [outsAt7_C V c t h0 h1]
    dsimp only
    refine (congrFun (sout7_C_0_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) (ix2 e q)).trans ?_
    refine (stepAt7 V c t (outsAt7 V c (t.val - 1) (Nat.lt_of_le_of_lt (Nat.sub_le _ _) t.isLt)).2 e q E hE).trans ?_
    rw [ih, hm, Nat.add_sub_cancel]
    rfl
  · rw [outsAt7_B V c t h0 h1]
    dsimp only
    refine (congrFun (sout7_B_0_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) (ix2 e q)).trans ?_
    refine (stepAt7 V c t (outsAt7 V c (t.val - 1) (Nat.lt_of_le_of_lt (Nat.sub_le _ _) t.isLt)).2 e q E hE).trans ?_
    rw [ih, hm, Nat.add_sub_cancel]
    rfl

/-- THE INVARIANT: after point n = ci · 49 + si the accumulator's entry (e, q) is the running total, over the source
    tiles 0 … si, of the summands of edge ci · 2048 + e. -/
theorem acc7_eq (c : Dev nD) : ∀ (n : ℕ) (hn : n < cfg7.N) (e : Fin 2048) (q : Fin 128) (E : Fin 401408), E.val = n / 49 * 2048 + e.val →
    ((outsAt7 V c n hn).2 : Vec Ideal S2048x128 .f32) (ix2 e q) = Cert.Spec.accTiles 1024 (gterm7 (V c main_v23) (V c main_v25) (V c main_v21) E q) (n % 49)
  | 0, hn, e, q, E, hE => accA7 V c ⟨0, hn⟩ (Nat.zero_mod _) e q E hE
  | n + 1, hn, e, q, E, hE => by
    by_cases h0 : (n + 1) % 49 = 0
    · rw [h0]
      exact accA7 V c ⟨n + 1, hn⟩ h0 e q E hE
    · refine accBC7 V c ⟨n + 1, hn⟩ h0 e q E hE ?_
      have hdiv : (n + 1) / 49 = n / 49 := by omega
      have hmod : (n + 1) % 49 - 1 = n % 49 := by omega
      have ih := acc7_eq c n (Nat.lt_of_succ_lt hn) e q E (by rw [← hdiv]; exact hE)
      show ((outsAt7 V c n _).2 : Vec Ideal S2048x128 .f32) (ix2 e q) = Cert.Spec.accTiles 1024 (gterm7 (V c main_v23) (V c main_v25) (V c main_v21) E q) ((n + 1) % 49 - 1)
      rw [hmod]
      exact ih

/-! ## From the blocks to the array -/

/-- At a last source tile the output block is the accumulator (the narrowing is the identity). -/
theorem outC7_fst (c : Dev nD) (t : Fin cfg7.N) (h0 : ¬t.val % 49 = 0) (h1 : t.val % 49 = 48) :
    ((outsAt7 V c t.val t.isLt).1 : S2048x128.Idx → EReal) = ((outsAt7 V c t.val t.isLt).2 : S2048x128.Idx → EReal) := by
  rw [outsAt7_C V c t h0 h1]
  dsimp only
  exact (out7_C_3_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2).trans
    ((pay7_3_eq _).trans (sout7_C_0_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2).symm)

/-- What a last source tile's point writes back is block t / 49 of the one-hot product of the arrays. -/
theorem flushed7_eq (c : Dev nD) (t : Fin cfg7.N) (hf : (cfg7.win 3).flush t = true) :
    (dat7 (F := Ideal) V c).flushed 3 t = ((cfg7.win 3).blk t).view.read (Elt Ideal) (gatG7 V c) := by
  have h1 : t.val % 49 = 48 := (flushAt7_3 t).mp hf
  have h0 : ¬t.val % 49 = 0 := by omega
  show (cfg7.win 3).cut (grid7.coords t) ((dat7 (F := Ideal) V c).after 3 t) = _
  rw [after7_3]
  obtain ⟨e0, e1⟩ := oidx7 t
  have hA : ∀ (e : Fin 2048) (q : Fin 128) (E : Fin 401408), E.val = t.val / 49 * 2048 + e.val →
      ((outsAt7 V c t.val t.isLt).2 : Vec Ideal S2048x128 .f32) (ix2 e q) = Cert.Spec.accTiles 1024 (gterm7 (V c main_v23) (V c main_v25) (V c main_v21) E q) 48 := fun e q E hE => by
    have := acc7_eq V c t.val t.isLt e q E hE
    rw [h1] at this
    exact this
  funext j
  have hread : ∀ G : S401408x128.Idx → EReal, ((cfg7.win 3).blk t).view.read (Elt Ideal) G j = G (((cfg7.win 3).blk t).view.emb j) := fun G => rfl
  rw [hread]
  refine (congrFun (outC7_fst V c t h0 h1) j).trans ?_
  refine block7_eq_gat (outsAt7 V c t.val t.isLt).2 (V c main_v23) (V c main_v25) (V c main_v21) (t.val / 49) hA j (((cfg7.win 3).blk t).view.emb j) ?_ ?_
  · show win7_3.index t (0 : Fin 2) * 2048 + 1 * (j 0).val = t.val / 49 * 2048 + (j 0).val; rw [e0]; omega
  · show win7_3.index t (1 : Fin 2) * 128 + 1 * (j 1).val = (j 1).val; rw [e1]; omega

/-- An index of the output array is in point t's block iff each coordinate is in the block's range on its axis. -/
theorem mem_blk7 (t : Fin cfg7.N) (i : S401408x128.Idx) :
    i ∈ ((cfg7.win 3).blk t).view.set ↔ ∀ a : Fin 2, win7_3.index t a * S2048x128.size a ≤ (i a).val ∧ (i a).val < win7_3.index t a * S2048x128.size a + S2048x128.size a := by
  show i ∈ ((View.whole main_v26).slice (win7_3.rect t)).set ↔ _
  rw [View.set_slice_whole, Rect.mem_set_unit]
  exact Iff.rfl

/-- Row R of the output array is in the block written back at the last source tile of edge chunk R / 2048. -/
theorem cover7 (i : S401408x128.Idx) : ∃ t : Fin cfg7.N, (cfg7.win 3).flush t = true ∧ i ∈ ((cfg7.win 3).blk t).view.set := by
  have hi0 : (i 0).val < 401408 := (i 0).isLt
  have hi1 : (i 1).val < 128 := (i 1).isLt
  have hN : cfg7.N = 9604 := N_7
  have hlt : (i 0).val / 2048 * 49 + 48 < cfg7.N := by rw [hN]; omega
  refine ⟨⟨(i 0).val / 2048 * 49 + 48, hlt⟩, (flushAt7_3 _).mpr (by show ((i 0).val / 2048 * 49 + 48) % 49 = 48; omega), ?_⟩
  obtain ⟨e0, e1⟩ := oidx7 ⟨(i 0).val / 2048 * 49 + 48, hlt⟩
  rw [mem_blk7]
  intro a
  match a with
  | ⟨0, _⟩ =>
    show win7_3.index _ (0 : Fin 2) * 2048 ≤ (i 0).val ∧ (i 0).val < win7_3.index _ (0 : Fin 2) * 2048 + 2048
    rw [e0]
    show ((i 0).val / 2048 * 49 + 48) / 49 * 2048 ≤ (i 0).val ∧ (i 0).val < ((i 0).val / 2048 * 49 + 48) / 49 * 2048 + 2048
    omega
  | ⟨1, _⟩ =>
    show win7_3.index _ (1 : Fin 2) * 128 ≤ (i 1).val ∧ (i 1).val < win7_3.index _ (1 : Fin 2) * 128 + 128
    rw [e1]
    omega

/-- The output array after the run is the one-hot product of the arrays as the region finds them: per edge, the sum over
    all source rows of (w e if idx e names the row, else 0) · X row. -/
theorem gat_val7 (c : Dev nD) :
    ((dat7 (F := Ideal) V c).arrAt 3 cfg7.N : S401408x128.Idx → EReal)
      = Cert.Spec.unc2 (Cert.Spec.gat (Cert.Spec.cur1 (V c main_v23 : S401408.Idx → BitVec 32)) (Cert.Spec.cur1 (V c main_v25 : S401408.Idx → EReal)) (Cert.Spec.cur2 (V c main_v21 : S50176x128.Idx → EReal))) :=
  (dat7 (F := Ideal) V c).arrAt_eq_of_cover 3 (gatG7 V c) (fun t hf => flushed7_eq V c t hf) cover7

end

end Cert.KernelIdeal.H

end
-- ==== Proof.KI.GV9a.lean ====
/-
  A gather launch (the first one-hot product of a relation), at the ideal values: the body's arithmetic read at an index.
  At row e and column q of the block, the accumulate step stores the accumulator's entry plus the sum, over the 1024
  rows k of the source tile, of (w e if idx e is the tile's global row number si · 1024 + k, else 0) · X (k, q): the
  comparison of the two broadcast words is 1 exactly where they are equal, the select picks the weight or zero, the
  narrowing to bf16 is the identity, and the product into a zero accumulator is the plain sum.  The zero fill is 0
  everywhere and the narrowing of the stored block is the identity.
-/
import proofs.«407232_j23192823399226_1_alg».proof.Proof.KI.G9Runs
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.Lib.Affine
import Idealize.ShloMosaic.PureOps.Ideal.Laws
import Idealize.ShloMosaic.Lib.ValueLayout

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The one-hot product read at an index -/

theorem lhsA_pay9 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhsB_pay9 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhsA_pay9 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhsB_pay9 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator, at row e and column q: the sum over the tile's rows k of x (e, k) · y (k, q). -/
theorem matmul9_apply (x : FVec Ideal S2048x1024 .bf16) (y : FVec Ideal S1024x128 .bf16) (e : Fin 2048) (q : Fin 128) :
    matmul dot_S2048x1024_S1024x128_S2048x128_1_0_0_1_n_n none x y (constant (F := Ideal) S2048x128 .f32 0x00000000#32) (ix2 e q)
      = ∑ k : Fin 1024, x (ix2 e k) * y (ix2 k q) := by
  refine (Ideal.matmul_constant_zero_apply dot_S2048x1024_S1024x128_S2048x128_1_0_0_1_n_n none x y (ix2 e q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 e q) ((contrEquiv1 dot_S2048x1024_S1024x128_S2048x128_1_0_0_1_n_n 1024 rfl rfl).symm k) = ix2 e k := funext fun a => Fin.ext (by
    match a with
    | ⟨0, _⟩ => exact lhsA_pay9 _ _
    | ⟨1, _⟩ => exact (lhsB_pay9 _ _).trans hk)
  have er : dot_S2048x1024_S1024x128_S2048x128_1_0_0_1_n_n.rhsIdx (ix2 e q) ((contrEquiv1 dot_S2048x1024_S1024x128_S2048x128_1_0_0_1_n_n 1024 rfl rfl).symm k) = ix2 k q := funext fun a => Fin.ext (by
    match a with
    | ⟨0, _⟩ => exact (rhsA_pay9 _ _).trans hk
    | ⟨1, _⟩ => exact rhsB_pay9 _ _)
  rw [el, er]

/-- A vector laid as a column and repeated along the rows: entry (e, k) is the vector's entry e. -/
theorem colRep9_apply {α : Type} (v : S2048.Idx → α) (e : Fin 2048) (k : Fin 1024) :
    broadcastTo S2048x1024 (shapeCast S2048x1 v shapeCasts_S2048_S2048x1) broadcasts_S2048x1_S2048x1024 (ix2 e k) = v (ix1 e) := by
  refine (broadcastTo_apply _ broadcasts_S2048x1_S2048x1024 (ix2 e k) (ix2 e (0 : Fin 1)) (fun a => ?_)).trans ?_
  · match a with
    | ⟨0, _⟩ => show e.val = if (2048 : Nat) = 1 then 0 else e.val; rw [if_neg (by decide)]
    | ⟨1, _⟩ => show 0 = if (1 : Nat) = 1 then 0 else _; rw [if_pos rfl]
  · refine shapeCast_apply v shapeCasts_S2048_S2048x1 (ix2 e (0 : Fin 1)) (ix1 e) ?_
    rw [Shape.rowMajor_val_one, Shape.rowMajor_val_two]
    show e.val = e.val * 1 + 0
    omega

/-- The tile's global row numbers: the tile's first row number (the tile index times 1024, as a word) plus the row's position in the tile is the word of si · 1024 + k. -/
theorem rowWord9 (si : Nat) (k : Nat) :
    IntOp.addi (Scalar.muli (BitVec.ofNat 32 si) 1024#32) (BitVec.ofNat 32 k) = BitVec.ofNat 32 (si * 1024 + k) := by
  show BitVec.ofNat 32 si * BitVec.ofNat 32 1024 + BitVec.ofNat 32 k = _
  rw [BitVec.ofNat_add, BitVec.ofNat_mul]

/-- A select on "the two words are equal" is the `if` on their equality. -/
theorem select_cmpi_eq9 {α : Type} (a b : BitVec 32) (x y : α) :
    Scalar.select (IntOp.cmpi .eq a b) x y = if a = b then x else y := by
  unfold Scalar.select
  exact if_congr IntOp.cmpi_eq rfl rfl

/-- An `if` on an equality of words, rewritten in all four places. -/
theorem ite_eq_congr9 {α : Type} {a a' b b' : BitVec 32} {x x' y y' : α} (ha : a = a') (hb : b = b') (hx : x = x') (hy : y = y') :
    (if a = b then x else y) = if a' = b' then x' else y' := by
  subst ha hb hx hy; rfl

/-- The zero fill, anywhere. -/
theorem pay9_1_apply (j : S2048x128.Idx) : k9_pay1 (F := Ideal) j = 0 := by
  unfold k9_pay1
  refine (congrFun (shapeCast_self _ shapeCasts_S2048x128_S2048x128) j).trans ?_
  exact Ideal.ofBits_zero_f32

/-- The narrowing of the stored block is the identity at the ideal values. -/
theorem pay9_3_eq (x : Vec Ideal S2048x128 .f32) : (k9_pay3 (F := Ideal) x : S2048x128.Idx → EReal) = x := rfl

/-- The accumulate step at row e and column q of the block: the accumulator there, plus the sum over the source tile's
    rows k of (w e if idx e is the tile's row number si · 1024 + k, else 0) · X (k, q). -/
theorem pay9_2_apply (i : grid9.Coords) (x0 : Vec Ideal S2048 .i32) (x1 : Vec Ideal S2048 .f32) (x2 : Vec Ideal S1024x128 .f32) (acc : Vec Ideal S2048x128 .f32)
    (e : Fin 2048) (q : Fin 128) :
    k9_pay2 (F := Ideal) i x0 x1 x2 acc (ix2 e q)
      = acc (ix2 e q) + (0 + ∑ k : Fin 1024, (if x0 (ix1 e) = BitVec.ofNat 32 ((i 1).val * 1024 + k.val) then x1 (ix1 e) else 0) * x2 (ix2 k q)) := by
  unfold k9_pay2
  refine (congrFun (shapeCast_self _ shapeCasts_S2048x128_S2048x128) (ix2 e q)).trans ?_
  refine (addf_apply _ _ (ix2 e q)).trans ?_
  refine congrArg₂ (· + ·) rfl ?_
  refine (matmul9_apply _ _ e q).trans ?_
  refine Eq.trans ?_ (zero_add _).symm
  refine Finset.sum_congr rfl fun k _ => ?_
  refine congrArg₂ (· * ·) ?_ ?_
  · refine (truncf_apply _ bitsLt_bf16_f32 (ix2 e k)).trans ?_
    refine (select_apply _ _ _ (ix2 e k)).trans ?_
    refine (select_cmpi_eq9 _ _ _ _).trans ?_
    refine ite_eq_congr9 ?_ ?_ ?_ ?_
    · exact (colRep9_apply (shapeCast S2048 x0 shapeCasts_S2048_S2048) e k).trans (congrFun (shapeCast_self x0 shapeCasts_S2048_S2048) (ix1 e))
    · refine (broadcastTo_1b_ab_apply _ broadcasts_S1x1024_S2048x1024 e k).trans ?_
      refine (congrArg (IntOp.addi (Scalar.muli (BitVec.ofNat 32 (i 1).val) 1024#32)) (iota_single_apply .tc S1x1024 32 1 iota_S1x1024_d1_w32 (ix2 (0 : Fin 1) k))).trans ?_
      exact rowWord9 (i 1).val k.val
    · refine (congrArg (fun z => broadcastTo S2048x1024 z broadcasts_S2048x1_S2048x1024 (ix2 e k)) (shapeCast_self (shapeCast S2048x1 (shapeCast S2048 x1 shapeCasts_S2048_S2048) shapeCasts_S2048_S2048x1) shapeCasts_S2048x1_S2048x1)).trans ?_
      exact (colRep9_apply (shapeCast S2048 x1 shapeCasts_S2048_S2048) e k).trans (congrFun (shapeCast_self x1 shapeCasts_S2048_S2048) (ix1 e))
    · exact Ideal.ofBits_zero_f32
  · refine (truncf_apply _ bitsLt_bf16_f32 (ix2 k q)).trans ?_
    exact congrFun (shapeCast_self x2 shapeCasts_S1024x128_S1024x128) (ix2 k q)

end Cert.KernelIdeal.H

end
-- ==== Proof.KI.GV9b.lean ====
/-
  A gather launch (the first one-hot product of a relation), at the ideal values: the blocks its input windows read.
  A grid point t is (edge chunk ci, source tile si) = (t / 4, t % 4).  The index maps return the grid coordinates:
  the blocks of idx and of w at t are entries ci · 2048 … of the arrays, the block of X is rows si · 1024 … of X.
-/
import proofs.«407232_j23192823399226_1_alg».proof.Proof.KI.G9Runs
import proofs.«407232_j23192823399226_1_alg».proof.Proof.SpecIdx
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The input windows' index maps, at any point -/

/-- The blocks of idx and of w are at block t / 4, the block of X at block row t % 4 (the index maps return the
    grid coordinates, which are below 2³²). -/
theorem idx_facts9 (t : Fin cfg9.N) :
    win9_0.index t (0 : Fin 1) = t.val / 4 ∧ win9_1.index t (0 : Fin 1) = t.val / 4
    ∧ win9_2.index t (0 : Fin 2) = t.val % 4 ∧ win9_2.index t (1 : Fin 2) = 0 := by
  have hN : grid9.N = 316 := N_9
  have ht : t.val < 316 := hN ▸ t.isLt
  have c0 := coords9_0 t
  have c1 := coords9_1 t
  refine ⟨?_, ?_, ?_, rfl⟩
  · show (BitVec.ofNat 32 ((grid9.coords t) 0).val).toNat = _
    rw [BitVec.toNat_ofNat, c0]; omega
  · show (BitVec.ofNat 32 ((grid9.coords t) 0).val).toNat = _
    rw [BitVec.toNat_ofNat, c0]; omega
  · show (BitVec.ofNat 32 ((grid9.coords t) 1).val).toNat = _
    rw [BitVec.toNat_ofNat, c1]; omega

/-! ## The blocks read off the arrays -/

section
variable (V : (c : Dev nD) → (b : Ref sig .tc) → Buf (Elt Ideal) ((c : Thread nD τ).loc b))

/-- The block of idx at point t is entries (t / 4) · 2048 … of idx. -/
theorem idxblk9_apply (c : Dev nD) (t : Fin cfg9.N) (e : Fin 2048) (E : Fin 161792) (hE : E.val = t.val / 4 * 2048 + e.val) :
    (iblk9 V c 0 t : Vec Ideal S2048 .i32) (ix1 e) = (V c main_v38 : Vec Ideal S161792 .i32) (ix1 E) := by
  obtain ⟨e0, -⟩ := idx_facts9 t
  unfold iblk9
  rw [View.read_apply]
  show V c main_v38 _ = V c main_v38 _
  congr 1
  funext a
  apply Fin.ext
  match a with
  | ⟨0, _⟩ => show win9_0.index t (0 : Fin 1) * 2048 + 1 * e.val = E.val; rw [e0, hE]; omega

/-- The block of w at point t is entries (t / 4) · 2048 … of w. -/
theorem wblk9_apply (c : Dev nD) (t : Fin cfg9.N) (e : Fin 2048) (E : Fin 161792) (hE : E.val = t.val / 4 * 2048 + e.val) :
    (iblk9 V c 1 t : Vec Ideal S2048 .f32) (ix1 e) = (V c main_v40 : Vec Ideal S161792 .f32) (ix1 E) := by
  obtain ⟨-, e0, -⟩ := idx_facts9 t
  unfold iblk9
  rw [View.read_apply]
  show V c main_v40 _ = V c main_v40 _
  congr 1
  funext a
  apply Fin.ext
  match a with
  | ⟨0, _⟩ => show win9_1.index t (0 : Fin 1) * 2048 + 1 * e.val = E.val; rw [e0, hE]; omega

/-- The block of X at point t is rows (t % 4) · 1024 … of X. -/
theorem xblk9_apply (c : Dev nD) (t : Fin cfg9.N) (k : Fin 1024) (q : Fin 128) (R : Fin 4096) (hR : R.val = t.val % 4 * 1024 + k.val) :
    (iblk9 V c 2 t : Vec Ideal S1024x128 .f32) (ix2 k q) = (V c main_v22 : Vec Ideal S4096x128 .f32) (ix2 R q) := by
  obtain ⟨-, -, e0, e1⟩ := idx_facts9 t
  unfold iblk9
  rw [View.read_apply]
  show V c main_v22 _ = V c main_v22 _
  congr 1
  funext a
  apply Fin.ext
  match a with
  | ⟨0, _⟩ => show win9_2.index t (0 : Fin 2) * 1024 + 1 * k.val = R.val; rw [e0, hR]; omega
  | ⟨1, _⟩ => show win9_2.index t (1 : Fin 2) * 128 + 1 * q.val = q.val; rw [e1]; omega

end

end Cert.KernelIdeal.H

end
-- ==== Proof.KI.GV9c.lean ====
/-
  A gather launch (the first one-hot product of a relation): what each control case's run leaves in the accumulator and
  in the output block, as the body's arithmetic on the blocks, for any float values.
  At the first source tile the accumulator is filled with zero, read back, and gets the tile's product added; at a
  later tile it gets the product added to what it held; at the last tile the output block receives the narrowing of
  the accumulator.  Each buffer is stored whole, so what it ends holding is the last store's payload.
-/
import proofs.«407232_j23192823399226_1_alg».proof.Proof.KI.G9RunC
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The pieces the body's run found, read back -/

theorem hz9 : (![0, 0] : Fin 2 → Nat) = fun _ => 0 := funext fun a => by fin_cases a <;> rfl
theorem hzv9 : (![0] : Fin 1 → Nat) = fun _ => 0 := funext fun a => by fin_cases a; rfl

/-- At a middle source tile the accumulator ends at the accumulate step over what it held. -/
theorem canon9_B (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) :
    View.canon (kernelRun9_B (F := F) c i arg2 harg2 arg3 harg3 arg4 harg4 arg5 harg5 arg6 harg6 hc0 hc1 x0 x1 x2 xs0).2.1 = k9_pay2 i x0 x1 x2 xs0 := by
  unfold kernelRun9_B
  dsimp only
  sl_unfold_words
  rw [View.canon_unit_zero hz9]
  simp only [View.readAt_eq_ld, harg2.read_unread, harg3.read_unread, harg4.read_unread, harg6.read_unread, View.ld_unit_zero (S := S2048) hzv9, View.ld_unit_zero (S := S1024x128) hz9, View.ld_unit_zero (S := S2048x128) hz9]

/-- At the first source tile the accumulator is zeroed, read back, and ends at the accumulate step over zero. -/
theorem canon9_A (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) :
    View.canon (kernelRun9_A (F := F) c i arg2 harg2 arg3 harg3 arg4 harg4 arg5 harg5 arg6 harg6 hc0 hc1 x0 x1 x2).2.1 = k9_pay2 i x0 x1 x2 (k9_pay1 (F := F)) := by
  unfold kernelRun9_A
  dsimp only
  sl_unfold_words
  rw [View.canon_cons_unit_zero (S := S2048x128) hz9]
  simp only [View.readAt_eq_ld, harg2.read_unread, harg3.read_unread, harg4.read_unread, harg6.read_unread, View.ld_unit_zero (S := S2048) hzv9, View.ld_unit_zero (S := S1024x128) hz9, View.ld_unit_zero (S := S2048x128) hz9, View.readCov_unit_zero (S := S2048x128) _ hz9]

/-- At the last source tile the accumulator ends at the accumulate step over what it held, -/
theorem canon9_C (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) :
    View.canon (kernelRun9_C (F := F) c i arg2 harg2 arg3 harg3 arg4 harg4 arg5 harg5 arg6 harg6 hc0 hc1 x0 x1 x2 xs0).2.1 = k9_pay2 i x0 x1 x2 xs0 := by
  unfold kernelRun9_C
  dsimp only
  sl_unfold_words
  rw [View.canon_unit_zero hz9]
  simp only [View.readAt_eq_ld, harg2.read_unread, harg3.read_unread, harg4.read_unread, harg6.read_unread, View.ld_unit_zero (S := S2048) hzv9, View.ld_unit_zero (S := S1024x128) hz9, View.ld_unit_zero (S := S2048x128) hz9]

/-- and the output block at the narrowing of that. -/
theorem canon9_C3 (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) :
    View.canon (kernelRun9_C (F := F) c i arg2 harg2 arg3 harg3 arg4 harg4 arg5 harg5 arg6 harg6 hc0 hc1 x0 x1 x2 xs0).1 = k9_pay3 (k9_pay2 i x0 x1 x2 xs0) := by
  unfold kernelRun9_C
  dsimp only
  sl_unfold_words
  rw [View.canon_unit_zero hz9]
  simp only [View.readAt_eq_ld, harg2.read_unread, harg3.read_unread, harg4.read_unread, harg6.read_unread, View.ld_unit_zero (S := S2048) hzv9, View.ld_unit_zero (S := S1024x128) hz9, View.ld_unit_zero (S := S2048x128) hz9, View.readCov_unit_zero (S := S2048x128) _ hz9]

end Cert.KernelIdeal.H

end
-- ==== Proof.KI.GV9.lean ====
/-
  A gather launch (the first one-hot product of a relation), at the ideal values: what its output array holds after the run.
  Within edge chunk ci the accumulator after source tile si holds, at (e, q), the running total over the tiles 0 … si of
  the summands of edge ci · 2048 + e, where the summand of source row s is (w E if idx E is the word of s, else 0) · X (s, q):
  the first tile adds its share to zero, each later tile adds its share to what the point before left (induction on the
  grid point).  After the last of the 4 tiles the running total is the sum over all 4096 source rows, the output block
  receives it unchanged and is written back; the 79 blocks written back cover the 161792 rows.  So the array ends
  holding, per edge, the one-hot weighted sum over all source rows.
-/
import proofs.«407232_j23192823399226_1_alg».proof.Proof.KI.G9
import proofs.«407232_j23192823399226_1_alg».proof.Proof.KI.GV9a
import proofs.«407232_j23192823399226_1_alg».proof.Proof.KI.GV9b
import proofs.«407232_j23192823399226_1_alg».proof.Proof.KI.GV9c

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## One accumulate step, and the last accumulator, in terms of the arrays -/

/-- The summand of source row s, for edge E at column q: (w E if idx E is the word of s, else 0) · X (s, q); 0 past the
    table's 4096 rows. -/
def gterm9 (IDX : Vec Ideal S161792 .i32) (W : Vec Ideal S161792 .f32) (X : Vec Ideal S4096x128 .f32) (E : Fin 161792) (q : Fin 128) : ℕ → EReal :=
  fun s => if h : s < 4096 then (if IDX (ix1 E) = BitVec.ofNat 32 s then W (ix1 E) else 0) * X (ix2 ⟨s, h⟩ q) else 0

/-- The accumulate step on blocks that are entries ci · 2048 … of idx and w and rows si · 1024 … of X: at (e, q) it
    adds tile si's share of the sum over the source rows, for edge ci · 2048 + e. -/
theorem step9_apply (i : grid9.Coords) (x0 : Vec Ideal S2048 .i32) (x1 : Vec Ideal S2048 .f32) (x2 : Vec Ideal S1024x128 .f32) (acc : Vec Ideal S2048x128 .f32)
    (IDX : Vec Ideal S161792 .i32) (W : Vec Ideal S161792 .f32) (X : Vec Ideal S4096x128 .f32) (ci si : ℕ) (hsi : si < 4) (hi : (i 1).val = si)
    (h0 : ∀ (e : Fin 2048) (E : Fin 161792), E.val = ci * 2048 + e.val → x0 (ix1 e) = IDX (ix1 E))
    (h1 : ∀ (e : Fin 2048) (E : Fin 161792), E.val = ci * 2048 + e.val → x1 (ix1 e) = W (ix1 E))
    (h2 : ∀ (k : Fin 1024) (q : Fin 128) (R : Fin 4096), R.val = si * 1024 + k.val → x2 (ix2 k q) = X (ix2 R q))
    (e : Fin 2048) (q : Fin 128) (E : Fin 161792) (hE : E.val = ci * 2048 + e.val) :
    k9_pay2 (F := Ideal) i x0 x1 x2 acc (ix2 e q)
      = acc (ix2 e q) + (0 + ∑ k : Fin 1024, gterm9 IDX W X E q (si * 1024 + k.val)) := by
  refine (pay9_2_apply i x0 x1 x2 acc e q).trans ?_
  refine congrArg (fun z => acc (ix2 e q) + (0 + z)) (Finset.sum_congr rfl fun k _ => ?_)
  have hk : si * 1024 + k.val < 4096 := by have := k.isLt; omega
  unfold gterm9
  rw [dif_pos hk, hi, h0 e E hE, h1 e E hE, h2 k q ⟨si * 1024 + k.val, hk⟩ rfl]

/-- A block whose entry (e, q) is the running total after the last of the 4 source tiles, for edge ci · 2048 + e, is
    block ci of the one-hot product over all 4096 source rows. -/
theorem block9_eq_gat (A : Vec Ideal S2048x128 .f32) (IDX : Vec Ideal S161792 .i32) (W : Vec Ideal S161792 .f32) (X : Vec Ideal S4096x128 .f32) (ci : ℕ)
    (hA : ∀ (e : Fin 2048) (q : Fin 128) (E : Fin 161792), E.val = ci * 2048 + e.val → A (ix2 e q) = Cert.Spec.accTiles 1024 (gterm9 IDX W X E q) 3)
    (j : S2048x128.Idx) (i : S161792x128.Idx) (hi0 : (i 0).val = ci * 2048 + (j 0).val) (hi1 : (i 1).val = (j 1).val) :
    A j = Cert.Spec.unc2 (Cert.Spec.gat (Cert.Spec.cur1 IDX) (Cert.Spec.cur1 W) (Cert.Spec.cur2 X)) i := by
  obtain ⟨e, q, rfl⟩ : ∃ (e : Fin 2048) (q : Fin 128), j = ix2 e q := ⟨j 0, j 1, eq_ix2 j⟩
  obtain ⟨E, Q, rfl⟩ : ∃ (E : Fin 161792) (Q : Fin 128), i = ix2 E Q := ⟨i 0, i 1, eq_ix2 i⟩
  obtain rfl : Q = q := Fin.ext hi1
  rw [hA e Q E hi0]
  show _ = ∑ s : Fin 4096, (if IDX (ix1 E) = BitVec.ofNat 32 s.val then W (ix1 E) else 0) * X (ix2 s Q)
  exact Cert.Spec.accTiles_flat 4 1024 (by decide) (fun s : Fin (4 * 1024) => (if IDX (ix1 E) = BitVec.ofNat 32 s.val then W (ix1 E) else 0) * X (ix2 s Q))

/-! ## What each case leaves, as the body's arithmetic on the blocks -/

theorem sout9_A_0_eq (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond9_0 i) (hc1 : ¬cond9_1 i)
    (x0 : Vec F S2048 .i32) (x1 : Vec F S2048 .f32) (x2 : Vec F S1024x128 .f32) :
    sout9_A_0 c i arg2 harg2 arg3 harg3 arg4 harg4 arg5 harg5 arg6 harg6 hc0 hc1 x0 x1 x2 = k9_pay2 i x0 x1 x2 (k9_pay1 (F := F)) := by
  unfold sout9_A_0
  rw [View.read_writes_eq_canon _ _ _ (scover9_A_0 c i arg2 harg2 arg3 harg3 arg4 harg4 arg5 harg5 arg6 harg6 hc0 hc1 x0 x1 x2)]
  exact canon9_A c i arg2 harg2 arg3 harg3 arg4 harg4 arg5 harg5 arg6 harg6 hc0 hc1 x0 x1 x2

theorem sout9_B_0_eq (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : ¬cond9_1 i)
    (x0 : Vec F S2048 .i32) (x1 : Vec F S2048 .f32) (x2 : Vec F S1024x128 .f32) (xs0 : Vec F S2048x128 .f32) :
    sout9_B_0 c i arg2 harg2 arg3 harg3 arg4 harg4 arg5 harg5 arg6 harg6 hc0 hc1 x0 x1 x2 xs0 = k9_pay2 i x0 x1 x2 xs0 := by
  unfold sout9_B_0
  rw [View.read_writes_eq_canon _ _ _ (scover9_B_0 c i arg2 harg2 arg3 harg3 arg4 harg4 arg5 harg5 arg6 harg6 hc0 hc1 x0 x1 x2 xs0)]
  exact canon9_B c i arg2 harg2 arg3 harg3 arg4 harg4 arg5 harg5 arg6 harg6 hc0 hc1 x0 x1 x2 xs0

theorem sout9_C_0_eq (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) :
    sout9_C_0 c i arg2 harg2 arg3 harg3 arg4 harg4 arg5 harg5 arg6 harg6 hc0 hc1 x0 x1 x2 xs0 = k9_pay2 i x0 x1 x2 xs0 := by
  unfold sout9_C_0
  rw [View.read_writes_eq_canon _ _ _ (scover9_C_0 c i arg2 harg2 arg3 harg3 arg4 harg4 arg5 harg5 arg6 harg6 hc0 hc1 x0 x1 x2 xs0)]
  exact canon9_C c i arg2 harg2 arg3 harg3 arg4 harg4 arg5 harg5 arg6 harg6 hc0 hc1 x0 x1 x2 xs0

theorem out9_C_3_eq (c : Dev nD) (i : grid9.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond9_0 i) (hc1 : cond9_1 i)
    (x0 : Vec F S2048 .i32) (x1 : Vec F S2048 .f32) (x2 : Vec F S1024x128 .f32) (xs0 : Vec F S2048x128 .f32) :
    out9_C_3 c i arg2 harg2 arg3 harg3 arg4 harg4 arg5 harg5 arg6 harg6 hc0 hc1 x0 x1 x2 xs0 = k9_pay3 (k9_pay2 i x0 x1 x2 xs0) := by
  unfold out9_C_3
  rw [View.read_writes_eq_canon _ _ _ (cover9_C_3 c i arg2 harg2 arg3 harg3 arg4 harg4 arg5 harg5 arg6 harg6 hc0 hc1 x0 x1 x2 xs0)]
  exact canon9_C3 c i arg2 harg2 arg3 harg3 arg4 harg4 arg5 harg5 arg6 harg6 hc0 hc1 x0 x1 x2 xs0

/-! ## The accumulator, point by point -/

section
variable (V : (c : Dev nD) → (b : Ref sig .tc) → Buf (Elt Ideal) ((c : Thread nD τ).loc b))

/-- The one-hot product of the arrays as the region finds them. -/
abbrev gatG9 (c : Dev nD) : S161792x128.Idx → EReal :=
  Cert.Spec.unc2 (Cert.Spec.gat (Cert.Spec.cur1 (V c main_v38 : S161792.Idx → BitVec 32)) (Cert.Spec.cur1 (V c main_v40 : S161792.Idx → EReal)) (Cert.Spec.cur2 (V c main_v22 : S4096x128.Idx → EReal)))

/-- The accumulate step at point t over an accumulator `acc`, at (e, q), for edge E = (t / 4) · 2048 + e: the share of tile t % 4 is added. -/
theorem stepAt9 (c : Dev nD) (t : Fin cfg9.N) (acc : Vec Ideal S2048x128 .f32) (e : Fin 2048) (q : Fin 128) (E : Fin 161792) (hE : E.val = t.val / 4 * 2048 + e.val) :
    k9_pay2 (F := Ideal) (grid9.coords t) (iblk9 V c 0 t) (iblk9 V c 1 t) (iblk9 V c 2 t) acc (ix2 e q)
      = acc (ix2 e q) + (0 + ∑ k : Fin 1024, gterm9 (V c main_v38) (V c main_v40) (V c main_v22) E q (t.val % 4 * 1024 + k.val)) :=
  step9_apply (grid9.coords t) (iblk9 V c 0 t) (iblk9 V c 1 t) (iblk9 V c 2 t) acc (V c main_v38) (V c main_v40) (V c main_v22) (t.val / 4) (t.val % 4)
    (Nat.mod_lt _ (by decide)) (coords9_1 t) (idxblk9_apply V c t) (wblk9_apply V c t) (xblk9_apply V c t) e q E hE

/-- At a first source tile the accumulator ends at the first tile's share, added to zero. -/
theorem accA9 (c : Dev nD) (t : Fin cfg9.N) (h0 : t.val % 4 = 0) (e : Fin 2048) (q : Fin 128) (E : Fin 161792) (hE : E.val = t.val / 4 * 2048 + e.val) :
    ((outsAt9 V c t.val t.isLt).2 : Vec Ideal S2048x128 .f32) (ix2 e q) = Cert.Spec.accTiles 1024 (gterm9 (V c main_v38) (V c main_v40) (V c main_v22) E q) 0 := by
  have h1 : ¬t.val % 4 = 3 := by omega
  rw [outsAt9_A V c t h0 h1]
  dsimp only
  refine (congrFun (sout9_A_0_eq (F := Ideal) c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)) (ix2 e q)).trans ?_
  refine (stepAt9 V c t (k9_pay1 (F := Ideal)) e q E hE).trans ?_
  rw [pay9_1_apply, h0]
  show _ = (0 : EReal) + (0 + ∑ k : Fin 1024, gterm9 (V c main_v38) (V c main_v40) (V c main_v22) E q k.val)
  simp only [Nat.zero_mul, Nat.zero_add]

/-- At a later source tile the accumulator ends at what the point before left plus this tile's share. -/
theorem accBC9 (c : Dev nD) (t : Fin cfg9.N) (h0 : ¬t.val % 4 = 0) (e : Fin 2048) (q : Fin 128) (E : Fin 161792) (hE : E.val = t.val / 4 * 2048 + e.val)
    (ih : ((outsAt9 V c (t.val - 1) (Nat.lt_of_le_of_lt (Nat.sub_le _ _) t.isLt)).2 : Vec Ideal S2048x128 .f32) (ix2 e q) = Cert.Spec.accTiles 1024 (gterm9 (V c main_v38) (V c main_v40) (V c main_v22) E q) (t.val % 4 - 1)) :
    ((outsAt9 V c t.val t.isLt).2 : Vec Ideal S2048x128 .f32) (ix2 e q) = Cert.Spec.accTiles 1024 (gterm9 (V c main_v38) (V c main_v40) (V c main_v22) E q) (t.val % 4) := by
  obtain ⟨m, hm⟩ : ∃ m, t.val % 4 = m + 1 := ⟨t.val % 4 - 1, by omega⟩
  by_cases h1 : t.val % 4 = 3
  · rw [outsAt9_C V c t h0 h1]
    dsimp only
    refine (congrFun (sout9_C_0_eq (F := Ideal) c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2) (ix2 e q)).trans ?_
    refine (stepAt9 V c t (outsAt9 V c (t.val - 1) (Nat.lt_of_le_of_lt (Nat.sub_le _ _) t.isLt)).2 e q E hE).trans ?_
    rw [ih, hm, Nat.add_sub_cancel]
    rfl
  · rw [outsAt9_B V c t h0 h1]
    dsimp only
    refine (congrFun (sout9_B_0_eq (F := Ideal) c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2) (ix2 e q)).trans ?_
    refine (stepAt9 V c t (outsAt9 V c (t.val - 1) (Nat.lt_of_le_of_lt (Nat.sub_le _ _) t.isLt)).2 e q E hE).trans ?_
    rw [ih, hm, Nat.add_sub_cancel]
    rfl

/-- THE INVARIANT: after point n = ci · 4 + si the accumulator's entry (e, q) is the running total, over the source
    tiles 0 … si, of the summands of edge ci · 2048 + e. -/
theorem acc9_eq (c : Dev nD) : ∀ (n : ℕ) (hn : n < cfg9.N) (e : Fin 2048) (q : Fin 128) (E : Fin 161792), E.val = n / 4 * 2048 + e.val →
    ((outsAt9 V c n hn).2 : Vec Ideal S2048x128 .f32) (ix2 e q) = Cert.Spec.accTiles 1024 (gterm9 (V c main_v38) (V c main_v40) (V c main_v22) E q) (n % 4)
  | 0, hn, e, q, E, hE => accA9 V c ⟨0, hn⟩ (Nat.zero_mod _) e q E hE
  | n + 1, hn, e, q, E, hE => by
    by_cases h0 : (n + 1) % 4 = 0
    · rw [h0]
      exact accA9 V c ⟨n + 1, hn⟩ h0 e q E hE
    · refine accBC9 V c ⟨n + 1, hn⟩ h0 e q E hE ?_
      have hdiv : (n + 1) / 4 = n / 4 := by omega
      have hmod : (n + 1) % 4 - 1 = n % 4 := by omega
      have ih := acc9_eq c n (Nat.lt_of_succ_lt hn) e q E (by rw [← hdiv]; exact hE)
      show ((outsAt9 V c n _).2 : Vec Ideal S2048x128 .f32) (ix2 e q) = Cert.Spec.accTiles 1024 (gterm9 (V c main_v38) (V c main_v40) (V c main_v22) E q) ((n + 1) % 4 - 1)
      rw [hmod]
      exact ih

/-! ## From the blocks to the array -/

/-- At a last source tile the output block is the accumulator (the narrowing is the identity). -/
theorem outC9_fst (c : Dev nD) (t : Fin cfg9.N) (h0 : ¬t.val % 4 = 0) (h1 : t.val % 4 = 3) :
    ((outsAt9 V c t.val t.isLt).1 : S2048x128.Idx → EReal) = ((outsAt9 V c t.val t.isLt).2 : S2048x128.Idx → EReal) := by
  rw [outsAt9_C V c t h0 h1]
  dsimp only
  exact (out9_C_3_eq (F := Ideal) c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2).trans
    ((pay9_3_eq _).trans (sout9_C_0_eq (F := Ideal) c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2).symm)

/-- What a last source tile's point writes back is block t / 4 of the one-hot product of the arrays. -/
theorem flushed9_eq (c : Dev nD) (t : Fin cfg9.N) (hf : (cfg9.win 3).flush t = true) :
    (dat9 (F := Ideal) V c).flushed 3 t = ((cfg9.win 3).blk t).view.read (Elt Ideal) (gatG9 V c) := by
  have h1 : t.val % 4 = 3 := (flushAt9_3 t).mp hf
  have h0 : ¬t.val % 4 = 0 := by omega
  show (cfg9.win 3).cut (grid9.coords t) ((dat9 (F := Ideal) V c).after 3 t) = _
  rw [after9_3]
  obtain ⟨e0, e1⟩ := oidx9 t
  have hA : ∀ (e : Fin 2048) (q : Fin 128) (E : Fin 161792), E.val = t.val / 4 * 2048 + e.val →
      ((outsAt9 V c t.val t.isLt).2 : Vec Ideal S2048x128 .f32) (ix2 e q) = Cert.Spec.accTiles 1024 (gterm9 (V c main_v38) (V c main_v40) (V c main_v22) E q) 3 := fun e q E hE => by
    have := acc9_eq V c t.val t.isLt e q E hE
    rw [h1] at this
    exact this
  funext j
  have hread : ∀ G : S161792x128.Idx → EReal, ((cfg9.win 3).blk t).view.read (Elt Ideal) G j = G (((cfg9.win 3).blk t).view.emb j) := fun G => rfl
  rw [hread]
  refine (congrFun (outC9_fst V c t h0 h1) j).trans ?_
  refine block9_eq_gat (outsAt9 V c t.val t.isLt).2 (V c main_v38) (V c main_v40) (V c main_v22) (t.val / 4) hA j (((cfg9.win 3).blk t).view.emb j) ?_ ?_
  · show win9_3.index t (0 : Fin 2) * 2048 + 1 * (j 0).val = t.val / 4 * 2048 + (j 0).val; rw [e0]; omega
  · show win9_3.index t (1 : Fin 2) * 128 + 1 * (j 1).val = (j 1).val; rw [e1]; omega

/-- An index of the output array is in point t's block iff each coordinate is in the block's range on its axis. -/
theorem mem_blk9 (t : Fin cfg9.N) (i : S161792x128.Idx) :
    i ∈ ((cfg9.win 3).blk t).view.set ↔ ∀ a : Fin 2, win9_3.index t a * S2048x128.size a ≤ (i a).val ∧ (i a).val < win9_3.index t a * S2048x128.size a + S2048x128.size a := by
  show i ∈ ((View.whole main_v41).slice (win9_3.rect t)).set ↔ _
  rw [View.set_slice_whole, Rect.mem_set_unit]
  exact Iff.rfl

/-- Row R of the output array is in the block written back at the last source tile of edge chunk R / 2048. -/
theorem cover9 (i : S161792x128.Idx) : ∃ t : Fin cfg9.N, (cfg9.win 3).flush t = true ∧ i ∈ ((cfg9.win 3).blk t).view.set := by
  have hi0 : (i 0).val < 161792 := (i 0).isLt
  have hi1 : (i 1).val < 128 := (i 1).isLt
  have hN : cfg9.N = 316 := N_9
  have hlt : (i 0).val / 2048 * 4 + 3 < cfg9.N := by rw [hN]; omega
  refine ⟨⟨(i 0).val / 2048 * 4 + 3, hlt⟩, (flushAt9_3 _).mpr (by show ((i 0).val / 2048 * 4 + 3) % 4 = 3; omega), ?_⟩
  obtain ⟨e0, e1⟩ := oidx9 ⟨(i 0).val / 2048 * 4 + 3, hlt⟩
  rw [mem_blk9]
  intro a
  match a with
  | ⟨0, _⟩ =>
    show win9_3.index _ (0 : Fin 2) * 2048 ≤ (i 0).val ∧ (i 0).val < win9_3.index _ (0 : Fin 2) * 2048 + 2048
    rw [e0]
    show ((i 0).val / 2048 * 4 + 3) / 4 * 2048 ≤ (i 0).val ∧ (i 0).val < ((i 0).val / 2048 * 4 + 3) / 4 * 2048 + 2048
    omega
  | ⟨1, _⟩ =>
    show win9_3.index _ (1 : Fin 2) * 128 ≤ (i 1).val ∧ (i 1).val < win9_3.index _ (1 : Fin 2) * 128 + 128
    rw [e1]
    omega

/-- The output array after the run is the one-hot product of the arrays as the region finds them: per edge, the sum over
    all source rows of (w e if idx e names the row, else 0) · X row. -/
theorem gat_val9 (c : Dev nD) :
    ((dat9 (F := Ideal) V c).arrAt 3 cfg9.N : S161792x128.Idx → EReal)
      = Cert.Spec.unc2 (Cert.Spec.gat (Cert.Spec.cur1 (V c main_v38 : S161792.Idx → BitVec 32)) (Cert.Spec.cur1 (V c main_v40 : S161792.Idx → EReal)) (Cert.Spec.cur2 (V c main_v22 : S4096x128.Idx → EReal))) :=
  (dat9 (F := Ideal) V c).arrAt_eq_of_cover 3 (gatG9 V c) (fun t hf => flushed9_eq V c t hf) cover9

end

end Cert.KernelIdeal.H

end
-- ==== Proof.KI.GV11a.lean ====
/-
  A gather launch (the first one-hot product of a relation), at the ideal values: the body's arithmetic read at an index.
  At row e and column q of the block, the accumulate step stores the accumulator's entry plus the sum, over the 1024
  rows k of the source tile, of (w e if idx e is the tile's global row number si · 1024 + k, else 0) · X (k, q): the
  comparison of the two broadcast words is 1 exactly where they are equal, the select picks the weight or zero, the
  narrowing to bf16 is the identity, and the product into a zero accumulator is the plain sum.  The zero fill is 0
  everywhere and the narrowing of the stored block is the identity.
-/
import proofs.«407232_j23192823399226_1_alg».proof.Proof.KI.G11Runs
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.Lib.Affine
import Idealize.ShloMosaic.PureOps.Ideal.Laws
import Idealize.ShloMosaic.Lib.ValueLayout

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The one-hot product read at an index -/

theorem lhsA_pay11 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhsB_pay11 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhsA_pay11 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhsB_pay11 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator, at row e and column q: the sum over the tile's rows k of x (e, k) · y (k, q). -/
theorem matmul11_apply (x : FVec Ideal S2048x1024 .bf16) (y : FVec Ideal S1024x128 .bf16) (e : Fin 2048) (q : Fin 128) :
    matmul dot_S2048x1024_S1024x128_S2048x128_1_0_0_1_n_n none x y (constant (F := Ideal) S2048x128 .f32 0x00000000#32) (ix2 e q)
      = ∑ k : Fin 1024, x (ix2 e k) * y (ix2 k q) := by
  refine (Ideal.matmul_constant_zero_apply dot_S2048x1024_S1024x128_S2048x128_1_0_0_1_n_n none x y (ix2 e q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 e q) ((contrEquiv1 dot_S2048x1024_S1024x128_S2048x128_1_0_0_1_n_n 1024 rfl rfl).symm k) = ix2 e k := funext fun a => Fin.ext (by
    match a with
    | ⟨0, _⟩ => exact lhsA_pay11 _ _
    | ⟨1, _⟩ => exact (lhsB_pay11 _ _).trans hk)
  have er : dot_S2048x1024_S1024x128_S2048x128_1_0_0_1_n_n.rhsIdx (ix2 e q) ((contrEquiv1 dot_S2048x1024_S1024x128_S2048x128_1_0_0_1_n_n 1024 rfl rfl).symm k) = ix2 k q := funext fun a => Fin.ext (by
    match a with
    | ⟨0, _⟩ => exact (rhsA_pay11 _ _).trans hk
    | ⟨1, _⟩ => exact rhsB_pay11 _ _)
  rw [el, er]

/-- A vector laid as a column and repeated along the rows: entry (e, k) is the vector's entry e. -/
theorem colRep11_apply {α : Type} (v : S2048.Idx → α) (e : Fin 2048) (k : Fin 1024) :
    broadcastTo S2048x1024 (shapeCast S2048x1 v shapeCasts_S2048_S2048x1) broadcasts_S2048x1_S2048x1024 (ix2 e k) = v (ix1 e) := by
  refine (broadcastTo_apply _ broadcasts_S2048x1_S2048x1024 (ix2 e k) (ix2 e (0 : Fin 1)) (fun a => ?_)).trans ?_
  · match a with
    | ⟨0, _⟩ => show e.val = if (2048 : Nat) = 1 then 0 else e.val; rw [if_neg (by decide)]
    | ⟨1, _⟩ => show 0 = if (1 : Nat) = 1 then 0 else _; rw [if_pos rfl]
  · refine shapeCast_apply v shapeCasts_S2048_S2048x1 (ix2 e (0 : Fin 1)) (ix1 e) ?_
    rw [Shape.rowMajor_val_one, Shape.rowMajor_val_two]
    show e.val = e.val * 1 + 0
    omega

/-- The tile's global row numbers: the tile's first row number (the tile index times 1024, as a word) plus the row's position in the tile is the word of si · 1024 + k. -/
theorem rowWord11 (si : Nat) (k : Nat) :
    IntOp.addi (Scalar.muli (BitVec.ofNat 32 si) 1024#32) (BitVec.ofNat 32 k) = BitVec.ofNat 32 (si * 1024 + k) := by
  show BitVec.ofNat 32 si * BitVec.ofNat 32 1024 + BitVec.ofNat 32 k = _
  rw [BitVec.ofNat_add, BitVec.ofNat_mul]

/-- A select on "the two words are equal" is the `if` on their equality. -/
theorem select_cmpi_eq11 {α : Type} (a b : BitVec 32) (x y : α) :
    Scalar.select (IntOp.cmpi .eq a b) x y = if a = b then x else y := by
  unfold Scalar.select
  exact if_congr IntOp.cmpi_eq rfl rfl

/-- An `if` on an equality of words, rewritten in all four places. -/
theorem ite_eq_congr11 {α : Type} {a a' b b' : BitVec 32} {x x' y y' : α} (ha : a = a') (hb : b = b') (hx : x = x') (hy : y = y') :
    (if a = b then x else y) = if a' = b' then x' else y' := by
  subst ha hb hx hy; rfl

/-- The zero fill, anywhere. -/
theorem pay11_1_apply (j : S2048x128.Idx) : k11_pay1 (F := Ideal) j = 0 := by
  unfold k11_pay1
  refine (congrFun (shapeCast_self _ shapeCasts_S2048x128_S2048x128) j).trans ?_
  exact Ideal.ofBits_zero_f32

/-- The narrowing of the stored block is the identity at the ideal values. -/
theorem pay11_3_eq (x : Vec Ideal S2048x128 .f32) : (k11_pay3 (F := Ideal) x : S2048x128.Idx → EReal) = x := rfl

/-- The accumulate step at row e and column q of the block: the accumulator there, plus the sum over the source tile's
    rows k of (w e if idx e is the tile's row number si · 1024 + k, else 0) · X (k, q). -/
theorem pay11_2_apply (i : grid11.Coords) (x0 : Vec Ideal S2048 .i32) (x1 : Vec Ideal S2048 .f32) (x2 : Vec Ideal S1024x128 .f32) (acc : Vec Ideal S2048x128 .f32)
    (e : Fin 2048) (q : Fin 128) :
    k11_pay2 (F := Ideal) i x0 x1 x2 acc (ix2 e q)
      = acc (ix2 e q) + (0 + ∑ k : Fin 1024, (if x0 (ix1 e) = BitVec.ofNat 32 ((i 1).val * 1024 + k.val) then x1 (ix1 e) else 0) * x2 (ix2 k q)) := by
  unfold k11_pay2
  refine (congrFun (shapeCast_self _ shapeCasts_S2048x128_S2048x128) (ix2 e q)).trans ?_
  refine (addf_apply _ _ (ix2 e q)).trans ?_
  refine congrArg₂ (· + ·) rfl ?_
  refine (matmul11_apply _ _ e q).trans ?_
  refine Eq.trans ?_ (zero_add _).symm
  refine Finset.sum_congr rfl fun k _ => ?_
  refine congrArg₂ (· * ·) ?_ ?_
  · refine (truncf_apply _ bitsLt_bf16_f32 (ix2 e k)).trans ?_
    refine (select_apply _ _ _ (ix2 e k)).trans ?_
    refine (select_cmpi_eq11 _ _ _ _).trans ?_
    refine ite_eq_congr11 ?_ ?_ ?_ ?_
    · exact (colRep11_apply (shapeCast S2048 x0 shapeCasts_S2048_S2048) e k).trans (congrFun (shapeCast_self x0 shapeCasts_S2048_S2048) (ix1 e))
    · refine (broadcastTo_1b_ab_apply _ broadcasts_S1x1024_S2048x1024 e k).trans ?_
      refine (congrArg (IntOp.addi (Scalar.muli (BitVec.ofNat 32 (i 1).val) 1024#32)) (iota_single_apply .tc S1x1024 32 1 iota_S1x1024_d1_w32 (ix2 (0 : Fin 1) k))).trans ?_
      exact rowWord11 (i 1).val k.val
    · refine (congrArg (fun z => broadcastTo S2048x1024 z broadcasts_S2048x1_S2048x1024 (ix2 e k)) (shapeCast_self (shapeCast S2048x1 (shapeCast S2048 x1 shapeCasts_S2048_S2048) shapeCasts_S2048_S2048x1) shapeCasts_S2048x1_S2048x1)).trans ?_
      exact (colRep11_apply (shapeCast S2048 x1 shapeCasts_S2048_S2048) e k).trans (congrFun (shapeCast_self x1 shapeCasts_S2048_S2048) (ix1 e))
    · exact Ideal.ofBits_zero_f32
  · refine (truncf_apply _ bitsLt_bf16_f32 (ix2 k q)).trans ?_
    exact congrFun (shapeCast_self x2 shapeCasts_S1024x128_S1024x128) (ix2 k q)

end Cert.KernelIdeal.H

end
-- ==== Proof.KI.GV11b.lean ====
/-
  A gather launch (the first one-hot product of a relation), at the ideal values: the blocks its input windows read.
  A grid point t is (edge chunk ci, source tile si) = (t / 49, t % 49).  The index maps return the grid coordinates:
  the blocks of idx and of w at t are entries ci · 2048 … of the arrays, the block of X is rows si · 1024 … of X.
-/
import proofs.«407232_j23192823399226_1_alg».proof.Proof.KI.G11Runs
import proofs.«407232_j23192823399226_1_alg».proof.Proof.SpecIdx
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The input windows' index maps, at any point -/

/-- The blocks of idx and of w are at block t / 49, the block of X at block row t % 49 (the index maps return the
    grid coordinates, which are below 2³²). -/
theorem idx_facts11 (t : Fin cfg11.N) :
    win11_0.index t (0 : Fin 1) = t.val / 49 ∧ win11_1.index t (0 : Fin 1) = t.val / 49
    ∧ win11_2.index t (0 : Fin 2) = t.val % 49 ∧ win11_2.index t (1 : Fin 2) = 0 := by
  have hN : grid11.N = 9604 := N_11
  have ht : t.val < 9604 := hN ▸ t.isLt
  have c0 := coords11_0 t
  have c1 := coords11_1 t
  refine ⟨?_, ?_, ?_, rfl⟩
  · show (BitVec.ofNat 32 ((grid11.coords t) 0).val).toNat = _
    rw [BitVec.toNat_ofNat, c0]; omega
  · show (BitVec.ofNat 32 ((grid11.coords t) 0).val).toNat = _
    rw [BitVec.toNat_ofNat, c0]; omega
  · show (BitVec.ofNat 32 ((grid11.coords t) 1).val).toNat = _
    rw [BitVec.toNat_ofNat, c1]; omega

/-! ## The blocks read off the arrays -/

section
variable (V : (c : Dev nD) → (b : Ref sig .tc) → Buf (Elt Ideal) ((c : Thread nD τ).loc b))

/-- The block of idx at point t is entries (t / 49) · 2048 … of idx. -/
theorem idxblk11_apply (c : Dev nD) (t : Fin cfg11.N) (e : Fin 2048) (E : Fin 401408) (hE : E.val = t.val / 49 * 2048 + e.val) :
    (iblk11 V c 0 t : Vec Ideal S2048 .i32) (ix1 e) = (V c main_v54 : Vec Ideal S401408 .i32) (ix1 E) := by
  obtain ⟨e0, -⟩ := idx_facts11 t
  unfold iblk11
  rw [View.read_apply]
  show V c main_v54 _ = V c main_v54 _
  congr 1
  funext a
  apply Fin.ext
  match a with
  | ⟨0, _⟩ => show win11_0.index t (0 : Fin 1) * 2048 + 1 * e.val = E.val; rw [e0, hE]; omega

/-- The block of w at point t is entries (t / 49) · 2048 … of w. -/
theorem wblk11_apply (c : Dev nD) (t : Fin cfg11.N) (e : Fin 2048) (E : Fin 401408) (hE : E.val = t.val / 49 * 2048 + e.val) :
    (iblk11 V c 1 t : Vec Ideal S2048 .f32) (ix1 e) = (V c main_v56 : Vec Ideal S401408 .f32) (ix1 E) := by
  obtain ⟨-, e0, -⟩ := idx_facts11 t
  unfold iblk11
  rw [View.read_apply]
  show V c main_v56 _ = V c main_v56 _
  congr 1
  funext a
  apply Fin.ext
  match a with
  | ⟨0, _⟩ => show win11_1.index t (0 : Fin 1) * 2048 + 1 * e.val = E.val; rw [e0, hE]; omega

/-- The block of X at point t is rows (t % 49) · 1024 … of X. -/
theorem xblk11_apply (c : Dev nD) (t : Fin cfg11.N) (k : Fin 1024) (q : Fin 128) (R : Fin 50176) (hR : R.val = t.val % 49 * 1024 + k.val) :
    (iblk11 V c 2 t : Vec Ideal S1024x128 .f32) (ix2 k q) = (V c main_v21 : Vec Ideal S50176x128 .f32) (ix2 R q) := by
  obtain ⟨-, -, e0, e1⟩ := idx_facts11 t
  unfold iblk11
  rw [View.read_apply]
  show V c main_v21 _ = V c main_v21 _
  congr 1
  funext a
  apply Fin.ext
  match a with
  | ⟨0, _⟩ => show win11_2.index t (0 : Fin 2) * 1024 + 1 * k.val = R.val; rw [e0, hR]; omega
  | ⟨1, _⟩ => show win11_2.index t (1 : Fin 2) * 128 + 1 * q.val = q.val; rw [e1]; omega

end

end Cert.KernelIdeal.H

end
-- ==== Proof.KI.GV11c.lean ====
/-
  A gather launch (the first one-hot product of a relation): what each control case's run leaves in the accumulator and
  in the output block, as the body's arithmetic on the blocks, for any float values.
  At the first source tile the accumulator is filled with zero, read back, and gets the tile's product added; at a
  later tile it gets the product added to what it held; at the last tile the output block receives the narrowing of
  the accumulator.  Each buffer is stored whole, so what it ends holding is the last store's payload.
-/
import proofs.«407232_j23192823399226_1_alg».proof.Proof.KI.G11RunC
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The pieces the body's run found, read back -/

theorem hz11 : (![0, 0] : Fin 2 → Nat) = fun _ => 0 := funext fun a => by fin_cases a <;> rfl
theorem hzv11 : (![0] : Fin 1 → Nat) = fun _ => 0 := funext fun a => by fin_cases a; rfl

/-- At a middle source tile the accumulator ends at the accumulate step over what it held. -/
theorem canon11_B (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) :
    View.canon (kernelRun11_B (F := F) c i arg2 harg2 arg3 harg3 arg4 harg4 arg5 harg5 arg6 harg6 hc0 hc1 x0 x1 x2 xs0).2.1 = k11_pay2 i x0 x1 x2 xs0 := by
  unfold kernelRun11_B
  dsimp only
  sl_unfold_words
  rw [View.canon_unit_zero hz11]
  simp only [View.readAt_eq_ld, harg2.read_unread, harg3.read_unread, harg4.read_unread, harg6.read_unread, View.ld_unit_zero (S := S2048) hzv11, View.ld_unit_zero (S := S1024x128) hz11, View.ld_unit_zero (S := S2048x128) hz11]

/-- At the first source tile the accumulator is zeroed, read back, and ends at the accumulate step over zero. -/
theorem canon11_A (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) :
    View.canon (kernelRun11_A (F := F) c i arg2 harg2 arg3 harg3 arg4 harg4 arg5 harg5 arg6 harg6 hc0 hc1 x0 x1 x2).2.1 = k11_pay2 i x0 x1 x2 (k11_pay1 (F := F)) := by
  unfold kernelRun11_A
  dsimp only
  sl_unfold_words
  rw [View.canon_cons_unit_zero (S := S2048x128) hz11]
  simp only [View.readAt_eq_ld, harg2.read_unread, harg3.read_unread, harg4.read_unread, harg6.read_unread, View.ld_unit_zero (S := S2048) hzv11, View.ld_unit_zero (S := S1024x128) hz11, View.ld_unit_zero (S := S2048x128) hz11, View.readCov_unit_zero (S := S2048x128) _ hz11]

/-- At the last source tile the accumulator ends at the accumulate step over what it held, -/
theorem canon11_C (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) :
    View.canon (kernelRun11_C (F := F) c i arg2 harg2 arg3 harg3 arg4 harg4 arg5 harg5 arg6 harg6 hc0 hc1 x0 x1 x2 xs0).2.1 = k11_pay2 i x0 x1 x2 xs0 := by
  unfold kernelRun11_C
  dsimp only
  sl_unfold_words
  rw [View.canon_unit_zero hz11]
  simp only [View.readAt_eq_ld, harg2.read_unread, harg3.read_unread, harg4.read_unread, harg6.read_unread, View.ld_unit_zero (S := S2048) hzv11, View.ld_unit_zero (S := S1024x128) hz11, View.ld_unit_zero (S := S2048x128) hz11]

/-- and the output block at the narrowing of that. -/
theorem canon11_C3 (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) :
    View.canon (kernelRun11_C (F := F) c i arg2 harg2 arg3 harg3 arg4 harg4 arg5 harg5 arg6 harg6 hc0 hc1 x0 x1 x2 xs0).1 = k11_pay3 (k11_pay2 i x0 x1 x2 xs0) := by
  unfold kernelRun11_C
  dsimp only
  sl_unfold_words
  rw [View.canon_unit_zero hz11]
  simp only [View.readAt_eq_ld, harg2.read_unread, harg3.read_unread, harg4.read_unread, harg6.read_unread, View.ld_unit_zero (S := S2048) hzv11, View.ld_unit_zero (S := S1024x128) hz11, View.ld_unit_zero (S := S2048x128) hz11, View.readCov_unit_zero (S := S2048x128) _ hz11]

end Cert.KernelIdeal.H

end
-- ==== Proof.KI.GV11.lean ====
/-
  A gather launch (the first one-hot product of a relation), at the ideal values: what its output array holds after the run.
  Within edge chunk ci the accumulator after source tile si holds, at (e, q), the running total over the tiles 0 … si of
  the summands of edge ci · 2048 + e, where the summand of source row s is (w E if idx E is the word of s, else 0) · X (s, q):
  the first tile adds its share to zero, each later tile adds its share to what the point before left (induction on the
  grid point).  After the last of the 49 tiles the running total is the sum over all 50176 source rows, the output block
  receives it unchanged and is written back; the 196 blocks written back cover the 401408 rows.  So the array ends
  holding, per edge, the one-hot weighted sum over all source rows.
-/
import proofs.«407232_j23192823399226_1_alg».proof.Proof.KI.G11
import proofs.«407232_j23192823399226_1_alg».proof.Proof.KI.GV11a
import proofs.«407232_j23192823399226_1_alg».proof.Proof.KI.GV11b
import proofs.«407232_j23192823399226_1_alg».proof.Proof.KI.GV11c

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## One accumulate step, and the last accumulator, in terms of the arrays -/

/-- The summand of source row s, for edge E at column q: (w E if idx E is the word of s, else 0) · X (s, q); 0 past the
    table's 50176 rows. -/
def gterm11 (IDX : Vec Ideal S401408 .i32) (W : Vec Ideal S401408 .f32) (X : Vec Ideal S50176x128 .f32) (E : Fin 401408) (q : Fin 128) : ℕ → EReal :=
  fun s => if h : s < 50176 then (if IDX (ix1 E) = BitVec.ofNat 32 s then W (ix1 E) else 0) * X (ix2 ⟨s, h⟩ q) else 0

/-- The accumulate step on blocks that are entries ci · 2048 … of idx and w and rows si · 1024 … of X: at (e, q) it
    adds tile si's share of the sum over the source rows, for edge ci · 2048 + e. -/
theorem step11_apply (i : grid11.Coords) (x0 : Vec Ideal S2048 .i32) (x1 : Vec Ideal S2048 .f32) (x2 : Vec Ideal S1024x128 .f32) (acc : Vec Ideal S2048x128 .f32)
    (IDX : Vec Ideal S401408 .i32) (W : Vec Ideal S401408 .f32) (X : Vec Ideal S50176x128 .f32) (ci si : ℕ) (hsi : si < 49) (hi : (i 1).val = si)
    (h0 : ∀ (e : Fin 2048) (E : Fin 401408), E.val = ci * 2048 + e.val → x0 (ix1 e) = IDX (ix1 E))
    (h1 : ∀ (e : Fin 2048) (E : Fin 401408), E.val = ci * 2048 + e.val → x1 (ix1 e) = W (ix1 E))
    (h2 : ∀ (k : Fin 1024) (q : Fin 128) (R : Fin 50176), R.val = si * 1024 + k.val → x2 (ix2 k q) = X (ix2 R q))
    (e : Fin 2048) (q : Fin 128) (E : Fin 401408) (hE : E.val = ci * 2048 + e.val) :
    k11_pay2 (F := Ideal) i x0 x1 x2 acc (ix2 e q)
      = acc (ix2 e q) + (0 + ∑ k : Fin 1024, gterm11 IDX W X E q (si * 1024 + k.val)) := by
  refine (pay11_2_apply i x0 x1 x2 acc e q).trans ?_
  refine congrArg (fun z => acc (ix2 e q) + (0 + z)) (Finset.sum_congr rfl fun k _ => ?_)
  have hk : si * 1024 + k.val < 50176 := by have := k.isLt; omega
  unfold gterm11
  rw [dif_pos hk, hi, h0 e E hE, h1 e E hE, h2 k q ⟨si * 1024 + k.val, hk⟩ rfl]

/-- A block whose entry (e, q) is the running total after the last of the 49 source tiles, for edge ci · 2048 + e, is
    block ci of the one-hot product over all 50176 source rows. -/
theorem block11_eq_gat (A : Vec Ideal S2048x128 .f32) (IDX : Vec Ideal S401408 .i32) (W : Vec Ideal S401408 .f32) (X : Vec Ideal S50176x128 .f32) (ci : ℕ)
    (hA : ∀ (e : Fin 2048) (q : Fin 128) (E : Fin 401408), E.val = ci * 2048 + e.val → A (ix2 e q) = Cert.Spec.accTiles 1024 (gterm11 IDX W X E q) 48)
    (j : S2048x128.Idx) (i : S401408x128.Idx) (hi0 : (i 0).val = ci * 2048 + (j 0).val) (hi1 : (i 1).val = (j 1).val) :
    A j = Cert.Spec.unc2 (Cert.Spec.gat (Cert.Spec.cur1 IDX) (Cert.Spec.cur1 W) (Cert.Spec.cur2 X)) i := by
  obtain ⟨e, q, rfl⟩ : ∃ (e : Fin 2048) (q : Fin 128), j = ix2 e q := ⟨j 0, j 1, eq_ix2 j⟩
  obtain ⟨E, Q, rfl⟩ : ∃ (E : Fin 401408) (Q : Fin 128), i = ix2 E Q := ⟨i 0, i 1, eq_ix2 i⟩
  obtain rfl : Q = q := Fin.ext hi1
  rw [hA e Q E hi0]
  show _ = ∑ s : Fin 50176, (if IDX (ix1 E) = BitVec.ofNat 32 s.val then W (ix1 E) else 0) * X (ix2 s Q)
  exact Cert.Spec.accTiles_flat 49 1024 (by decide) (fun s : Fin (49 * 1024) => (if IDX (ix1 E) = BitVec.ofNat 32 s.val then W (ix1 E) else 0) * X (ix2 s Q))

/-! ## What each case leaves, as the body's arithmetic on the blocks -/

theorem sout11_A_0_eq (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond11_0 i) (hc1 : ¬cond11_1 i)
    (x0 : Vec F S2048 .i32) (x1 : Vec F S2048 .f32) (x2 : Vec F S1024x128 .f32) :
    sout11_A_0 c i arg2 harg2 arg3 harg3 arg4 harg4 arg5 harg5 arg6 harg6 hc0 hc1 x0 x1 x2 = k11_pay2 i x0 x1 x2 (k11_pay1 (F := F)) := by
  unfold sout11_A_0
  rw [View.read_writes_eq_canon _ _ _ (scover11_A_0 c i arg2 harg2 arg3 harg3 arg4 harg4 arg5 harg5 arg6 harg6 hc0 hc1 x0 x1 x2)]
  exact canon11_A c i arg2 harg2 arg3 harg3 arg4 harg4 arg5 harg5 arg6 harg6 hc0 hc1 x0 x1 x2

theorem sout11_B_0_eq (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : ¬cond11_1 i)
    (x0 : Vec F S2048 .i32) (x1 : Vec F S2048 .f32) (x2 : Vec F S1024x128 .f32) (xs0 : Vec F S2048x128 .f32) :
    sout11_B_0 c i arg2 harg2 arg3 harg3 arg4 harg4 arg5 harg5 arg6 harg6 hc0 hc1 x0 x1 x2 xs0 = k11_pay2 i x0 x1 x2 xs0 := by
  unfold sout11_B_0
  rw [View.read_writes_eq_canon _ _ _ (scover11_B_0 c i arg2 harg2 arg3 harg3 arg4 harg4 arg5 harg5 arg6 harg6 hc0 hc1 x0 x1 x2 xs0)]
  exact canon11_B c i arg2 harg2 arg3 harg3 arg4 harg4 arg5 harg5 arg6 harg6 hc0 hc1 x0 x1 x2 xs0

theorem sout11_C_0_eq (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) :
    sout11_C_0 c i arg2 harg2 arg3 harg3 arg4 harg4 arg5 harg5 arg6 harg6 hc0 hc1 x0 x1 x2 xs0 = k11_pay2 i x0 x1 x2 xs0 := by
  unfold sout11_C_0
  rw [View.read_writes_eq_canon _ _ _ (scover11_C_0 c i arg2 harg2 arg3 harg3 arg4 harg4 arg5 harg5 arg6 harg6 hc0 hc1 x0 x1 x2 xs0)]
  exact canon11_C c i arg2 harg2 arg3 harg3 arg4 harg4 arg5 harg5 arg6 harg6 hc0 hc1 x0 x1 x2 xs0

theorem out11_C_3_eq (c : Dev nD) (i : grid11.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond11_0 i) (hc1 : cond11_1 i)
    (x0 : Vec F S2048 .i32) (x1 : Vec F S2048 .f32) (x2 : Vec F S1024x128 .f32) (xs0 : Vec F S2048x128 .f32) :
    out11_C_3 c i arg2 harg2 arg3 harg3 arg4 harg4 arg5 harg5 arg6 harg6 hc0 hc1 x0 x1 x2 xs0 = k11_pay3 (k11_pay2 i x0 x1 x2 xs0) := by
  unfold out11_C_3
  rw [View.read_writes_eq_canon _ _ _ (cover11_C_3 c i arg2 harg2 arg3 harg3 arg4 harg4 arg5 harg5 arg6 harg6 hc0 hc1 x0 x1 x2 xs0)]
  exact canon11_C3 c i arg2 harg2 arg3 harg3 arg4 harg4 arg5 harg5 arg6 harg6 hc0 hc1 x0 x1 x2 xs0

/-! ## The accumulator, point by point -/

section
variable (V : (c : Dev nD) → (b : Ref sig .tc) → Buf (Elt Ideal) ((c : Thread nD τ).loc b))

/-- The one-hot product of the arrays as the region finds them. -/
abbrev gatG11 (c : Dev nD) : S401408x128.Idx → EReal :=
  Cert.Spec.unc2 (Cert.Spec.gat (Cert.Spec.cur1 (V c main_v54 : S401408.Idx → BitVec 32)) (Cert.Spec.cur1 (V c main_v56 : S401408.Idx → EReal)) (Cert.Spec.cur2 (V c main_v21 : S50176x128.Idx → EReal)))

/-- The accumulate step at point t over an accumulator `acc`, at (e, q), for edge E = (t / 49) · 2048 + e: the share of tile t % 49 is added. -/
theorem stepAt11 (c : Dev nD) (t : Fin cfg11.N) (acc : Vec Ideal S2048x128 .f32) (e : Fin 2048) (q : Fin 128) (E : Fin 401408) (hE : E.val = t.val / 49 * 2048 + e.val) :
    k11_pay2 (F := Ideal) (grid11.coords t) (iblk11 V c 0 t) (iblk11 V c 1 t) (iblk11 V c 2 t) acc (ix2 e q)
      = acc (ix2 e q) + (0 + ∑ k : Fin 1024, gterm11 (V c main_v54) (V c main_v56) (V c main_v21) E q (t.val % 49 * 1024 + k.val)) :=
  step11_apply (grid11.coords t) (iblk11 V c 0 t) (iblk11 V c 1 t) (iblk11 V c 2 t) acc (V c main_v54) (V c main_v56) (V c main_v21) (t.val / 49) (t.val % 49)
    (Nat.mod_lt _ (by decide)) (coords11_1 t) (idxblk11_apply V c t) (wblk11_apply V c t) (xblk11_apply V c t) e q E hE

/-- At a first source tile the accumulator ends at the first tile's share, added to zero. -/
theorem accA11 (c : Dev nD) (t : Fin cfg11.N) (h0 : t.val % 49 = 0) (e : Fin 2048) (q : Fin 128) (E : Fin 401408) (hE : E.val = t.val / 49 * 2048 + e.val) :
    ((outsAt11 V c t.val t.isLt).2 : Vec Ideal S2048x128 .f32) (ix2 e q) = Cert.Spec.accTiles 1024 (gterm11 (V c main_v54) (V c main_v56) (V c main_v21) E q) 0 := by
  have h1 : ¬t.val % 49 = 48 := by omega
  rw [outsAt11_A V c t h0 h1]
  dsimp only
  refine (congrFun (sout11_A_0_eq (F := Ideal) c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t)) (ix2 e q)).trans ?_
  refine (stepAt11 V c t (k11_pay1 (F := Ideal)) e q E hE).trans ?_
  rw [pay11_1_apply, h0]
  show _ = (0 : EReal) + (0 + ∑ k : Fin 1024, gterm11 (V c main_v54) (V c main_v56) (V c main_v21) E q k.val)
  simp only [Nat.zero_mul, Nat.zero_add]

/-- At a later source tile the accumulator ends at what the point before left plus this tile's share. -/
theorem accBC11 (c : Dev nD) (t : Fin cfg11.N) (h0 : ¬t.val % 49 = 0) (e : Fin 2048) (q : Fin 128) (E : Fin 401408) (hE : E.val = t.val / 49 * 2048 + e.val)
    (ih : ((outsAt11 V c (t.val - 1) (Nat.lt_of_le_of_lt (Nat.sub_le _ _) t.isLt)).2 : Vec Ideal S2048x128 .f32) (ix2 e q) = Cert.Spec.accTiles 1024 (gterm11 (V c main_v54) (V c main_v56) (V c main_v21) E q) (t.val % 49 - 1)) :
    ((outsAt11 V c t.val t.isLt).2 : Vec Ideal S2048x128 .f32) (ix2 e q) = Cert.Spec.accTiles 1024 (gterm11 (V c main_v54) (V c main_v56) (V c main_v21) E q) (t.val % 49) := by
  obtain ⟨m, hm⟩ : ∃ m, t.val % 49 = m + 1 := ⟨t.val % 49 - 1, by omega⟩
  by_cases h1 : t.val % 49 = 48
  · rw [outsAt11_C V c t h0 h1]
    dsimp only
    refine (congrFun (sout11_C_0_eq (F := Ideal) c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2) (ix2 e q)).trans ?_
    refine (stepAt11 V c t (outsAt11 V c (t.val - 1) (Nat.lt_of_le_of_lt (Nat.sub_le _ _) t.isLt)).2 e q E hE).trans ?_
    rw [ih, hm, Nat.add_sub_cancel]
    rfl
  · rw [outsAt11_B V c t h0 h1]
    dsimp only
    refine (congrFun (sout11_B_0_eq (F := Ideal) c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2) (ix2 e q)).trans ?_
    refine (stepAt11 V c t (outsAt11 V c (t.val - 1) (Nat.lt_of_le_of_lt (Nat.sub_le _ _) t.isLt)).2 e q E hE).trans ?_
    rw [ih, hm, Nat.add_sub_cancel]
    rfl

/-- THE INVARIANT: after point n = ci · 49 + si the accumulator's entry (e, q) is the running total, over the source
    tiles 0 … si, of the summands of edge ci · 2048 + e. -/
theorem acc11_eq (c : Dev nD) : ∀ (n : ℕ) (hn : n < cfg11.N) (e : Fin 2048) (q : Fin 128) (E : Fin 401408), E.val = n / 49 * 2048 + e.val →
    ((outsAt11 V c n hn).2 : Vec Ideal S2048x128 .f32) (ix2 e q) = Cert.Spec.accTiles 1024 (gterm11 (V c main_v54) (V c main_v56) (V c main_v21) E q) (n % 49)
  | 0, hn, e, q, E, hE => accA11 V c ⟨0, hn⟩ (Nat.zero_mod _) e q E hE
  | n + 1, hn, e, q, E, hE => by
    by_cases h0 : (n + 1) % 49 = 0
    · rw [h0]
      exact accA11 V c ⟨n + 1, hn⟩ h0 e q E hE
    · refine accBC11 V c ⟨n + 1, hn⟩ h0 e q E hE ?_
      have hdiv : (n + 1) / 49 = n / 49 := by omega
      have hmod : (n + 1) % 49 - 1 = n % 49 := by omega
      have ih := acc11_eq c n (Nat.lt_of_succ_lt hn) e q E (by rw [← hdiv]; exact hE)
      show ((outsAt11 V c n _).2 : Vec Ideal S2048x128 .f32) (ix2 e q) = Cert.Spec.accTiles 1024 (gterm11 (V c main_v54) (V c main_v56) (V c main_v21) E q) ((n + 1) % 49 - 1)
      rw [hmod]
      exact ih

/-! ## From the blocks to the array -/

/-- At a last source tile the output block is the accumulator (the narrowing is the identity). -/
theorem outC11_fst (c : Dev nD) (t : Fin cfg11.N) (h0 : ¬t.val % 49 = 0) (h1 : t.val % 49 = 48) :
    ((outsAt11 V c t.val t.isLt).1 : S2048x128.Idx → EReal) = ((outsAt11 V c t.val t.isLt).2 : S2048x128.Idx → EReal) := by
  rw [outsAt11_C V c t h0 h1]
  dsimp only
  exact (out11_C_3_eq (F := Ideal) c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2).trans
    ((pay11_3_eq _).trans (sout11_C_0_eq (F := Ideal) c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2).symm)

/-- What a last source tile's point writes back is block t / 49 of the one-hot product of the arrays. -/
theorem flushed11_eq (c : Dev nD) (t : Fin cfg11.N) (hf : (cfg11.win 3).flush t = true) :
    (dat11 (F := Ideal) V c).flushed 3 t = ((cfg11.win 3).blk t).view.read (Elt Ideal) (gatG11 V c) := by
  have h1 : t.val % 49 = 48 := (flushAt11_3 t).mp hf
  have h0 : ¬t.val % 49 = 0 := by omega
  show (cfg11.win 3).cut (grid11.coords t) ((dat11 (F := Ideal) V c).after 3 t) = _
  rw [after11_3]
  obtain ⟨e0, e1⟩ := oidx11 t
  have hA : ∀ (e : Fin 2048) (q : Fin 128) (E : Fin 401408), E.val = t.val / 49 * 2048 + e.val →
      ((outsAt11 V c t.val t.isLt).2 : Vec Ideal S2048x128 .f32) (ix2 e q) = Cert.Spec.accTiles 1024 (gterm11 (V c main_v54) (V c main_v56) (V c main_v21) E q) 48 := fun e q E hE => by
    have := acc11_eq V c t.val t.isLt e q E hE
    rw [h1] at this
    exact this
  funext j
  have hread : ∀ G : S401408x128.Idx → EReal, ((cfg11.win 3).blk t).view.read (Elt Ideal) G j = G (((cfg11.win 3).blk t).view.emb j) := fun G => rfl
  rw [hread]
  refine (congrFun (outC11_fst V c t h0 h1) j).trans ?_
  refine block11_eq_gat (outsAt11 V c t.val t.isLt).2 (V c main_v54) (V c main_v56) (V c main_v21) (t.val / 49) hA j (((cfg11.win 3).blk t).view.emb j) ?_ ?_
  · show win11_3.index t (0 : Fin 2) * 2048 + 1 * (j 0).val = t.val / 49 * 2048 + (j 0).val; rw [e0]; omega
  · show win11_3.index t (1 : Fin 2) * 128 + 1 * (j 1).val = (j 1).val; rw [e1]; omega

/-- An index of the output array is in point t's block iff each coordinate is in the block's range on its axis. -/
theorem mem_blk11 (t : Fin cfg11.N) (i : S401408x128.Idx) :
    i ∈ ((cfg11.win 3).blk t).view.set ↔ ∀ a : Fin 2, win11_3.index t a * S2048x128.size a ≤ (i a).val ∧ (i a).val < win11_3.index t a * S2048x128.size a + S2048x128.size a := by
  show i ∈ ((View.whole main_v57).slice (win11_3.rect t)).set ↔ _
  rw [View.set_slice_whole, Rect.mem_set_unit]
  exact Iff.rfl

/-- Row R of the output array is in the block written back at the last source tile of edge chunk R / 2048. -/
theorem cover11 (i : S401408x128.Idx) : ∃ t : Fin cfg11.N, (cfg11.win 3).flush t = true ∧ i ∈ ((cfg11.win 3).blk t).view.set := by
  have hi0 : (i 0).val < 401408 := (i 0).isLt
  have hi1 : (i 1).val < 128 := (i 1).isLt
  have hN : cfg11.N = 9604 := N_11
  have hlt : (i 0).val / 2048 * 49 + 48 < cfg11.N := by rw [hN]; omega
  refine ⟨⟨(i 0).val / 2048 * 49 + 48, hlt⟩, (flushAt11_3 _).mpr (by show ((i 0).val / 2048 * 49 + 48) % 49 = 48; omega), ?_⟩
  obtain ⟨e0, e1⟩ := oidx11 ⟨(i 0).val / 2048 * 49 + 48, hlt⟩
  rw [mem_blk11]
  intro a
  match a with
  | ⟨0, _⟩ =>
    show win11_3.index _ (0 : Fin 2) * 2048 ≤ (i 0).val ∧ (i 0).val < win11_3.index _ (0 : Fin 2) * 2048 + 2048
    rw [e0]
    show ((i 0).val / 2048 * 49 + 48) / 49 * 2048 ≤ (i 0).val ∧ (i 0).val < ((i 0).val / 2048 * 49 + 48) / 49 * 2048 + 2048
    omega
  | ⟨1, _⟩ =>
    show win11_3.index _ (1 : Fin 2) * 128 ≤ (i 1).val ∧ (i 1).val < win11_3.index _ (1 : Fin 2) * 128 + 128
    rw [e1]
    omega

/-- The output array after the run is the one-hot product of the arrays as the region finds them: per edge, the sum over
    all source rows of (w e if idx e names the row, else 0) · X row. -/
theorem gat_val11 (c : Dev nD) :
    ((dat11 (F := Ideal) V c).arrAt 3 cfg11.N : S401408x128.Idx → EReal)
      = Cert.Spec.unc2 (Cert.Spec.gat (Cert.Spec.cur1 (V c main_v54 : S401408.Idx → BitVec 32)) (Cert.Spec.cur1 (V c main_v56 : S401408.Idx → EReal)) (Cert.Spec.cur2 (V c main_v21 : S50176x128.Idx → EReal))) :=
  (dat11 (F := Ideal) V c).arrAt_eq_of_cover 3 (gatG11 V c) (fun t hf => flushed11_eq V c t hf) cover11

end

end Cert.KernelIdeal.H

end
-- ==== Proof.KI.GV13a.lean ====
/-
  A gather launch (the first one-hot product of a relation), at the ideal values: the body's arithmetic read at an index.
  At row e and column q of the block, the accumulate step stores the accumulator's entry plus the sum, over the 1024
  rows k of the source tile, of (w e if idx e is the tile's global row number si · 1024 + k, else 0) · X (k, q): the
  comparison of the two broadcast words is 1 exactly where they are equal, the select picks the weight or zero, the
  narrowing to bf16 is the identity, and the product into a zero accumulator is the plain sum.  The zero fill is 0
  everywhere and the narrowing of the stored block is the identity.
-/
import proofs.«407232_j23192823399226_1_alg».proof.Proof.KI.G13Runs
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.Lib.Affine
import Idealize.ShloMosaic.PureOps.Ideal.Laws
import Idealize.ShloMosaic.Lib.ValueLayout

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The one-hot product read at an index -/

theorem lhsA_pay13 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhsB_pay13 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhsA_pay13 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhsB_pay13 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator, at row e and column q: the sum over the tile's rows k of x (e, k) · y (k, q). -/
theorem matmul13_apply (x : FVec Ideal S2048x1024 .bf16) (y : FVec Ideal S1024x128 .bf16) (e : Fin 2048) (q : Fin 128) :
    matmul dot_S2048x1024_S1024x128_S2048x128_1_0_0_1_n_n none x y (constant (F := Ideal) S2048x128 .f32 0x00000000#32) (ix2 e q)
      = ∑ k : Fin 1024, x (ix2 e k) * y (ix2 k q) := by
  refine (Ideal.matmul_constant_zero_apply dot_S2048x1024_S1024x128_S2048x128_1_0_0_1_n_n none x y (ix2 e q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 e q) ((contrEquiv1 dot_S2048x1024_S1024x128_S2048x128_1_0_0_1_n_n 1024 rfl rfl).symm k) = ix2 e k := funext fun a => Fin.ext (by
    match a with
    | ⟨0, _⟩ => exact lhsA_pay13 _ _
    | ⟨1, _⟩ => exact (lhsB_pay13 _ _).trans hk)
  have er : dot_S2048x1024_S1024x128_S2048x128_1_0_0_1_n_n.rhsIdx (ix2 e q) ((contrEquiv1 dot_S2048x1024_S1024x128_S2048x128_1_0_0_1_n_n 1024 rfl rfl).symm k) = ix2 k q := funext fun a => Fin.ext (by
    match a with
    | ⟨0, _⟩ => exact (rhsA_pay13 _ _).trans hk
    | ⟨1, _⟩ => exact rhsB_pay13 _ _)
  rw [el, er]

/-- A vector laid as a column and repeated along the rows: entry (e, k) is the vector's entry e. -/
theorem colRep13_apply {α : Type} (v : S2048.Idx → α) (e : Fin 2048) (k : Fin 1024) :
    broadcastTo S2048x1024 (shapeCast S2048x1 v shapeCasts_S2048_S2048x1) broadcasts_S2048x1_S2048x1024 (ix2 e k) = v (ix1 e) := by
  refine (broadcastTo_apply _ broadcasts_S2048x1_S2048x1024 (ix2 e k) (ix2 e (0 : Fin 1)) (fun a => ?_)).trans ?_
  · match a with
    | ⟨0, _⟩ => show e.val = if (2048 : Nat) = 1 then 0 else e.val; rw [if_neg (by decide)]
    | ⟨1, _⟩ => show 0 = if (1 : Nat) = 1 then 0 else _; rw [if_pos rfl]
  · refine shapeCast_apply v shapeCasts_S2048_S2048x1 (ix2 e (0 : Fin 1)) (ix1 e) ?_
    rw [Shape.rowMajor_val_one, Shape.rowMajor_val_two]
    show e.val = e.val * 1 + 0
    omega

/-- The tile's global row numbers: the tile's first row number (the tile index times 1024, as a word) plus the row's position in the tile is the word of si · 1024 + k. -/
theorem rowWord13 (si : Nat) (k : Nat) :
    IntOp.addi (Scalar.muli (BitVec.ofNat 32 si) 1024#32) (BitVec.ofNat 32 k) = BitVec.ofNat 32 (si * 1024 + k) := by
  show BitVec.ofNat 32 si * BitVec.ofNat 32 1024 + BitVec.ofNat 32 k = _
  rw [BitVec.ofNat_add, BitVec.ofNat_mul]

/-- A select on "the two words are equal" is the `if` on their equality. -/
theorem select_cmpi_eq13 {α : Type} (a b : BitVec 32) (x y : α) :
    Scalar.select (IntOp.cmpi .eq a b) x y = if a = b then x else y := by
  unfold Scalar.select
  exact if_congr IntOp.cmpi_eq rfl rfl

/-- An `if` on an equality of words, rewritten in all four places. -/
theorem ite_eq_congr13 {α : Type} {a a' b b' : BitVec 32} {x x' y y' : α} (ha : a = a') (hb : b = b') (hx : x = x') (hy : y = y') :
    (if a = b then x else y) = if a' = b' then x' else y' := by
  subst ha hb hx hy; rfl

/-- The zero fill, anywhere. -/
theorem pay13_1_apply (j : S2048x128.Idx) : k13_pay1 (F := Ideal) j = 0 := by
  unfold k13_pay1
  refine (congrFun (shapeCast_self _ shapeCasts_S2048x128_S2048x128) j).trans ?_
  exact Ideal.ofBits_zero_f32

/-- The narrowing of the stored block is the identity at the ideal values. -/
theorem pay13_3_eq (x : Vec Ideal S2048x128 .f32) : (k13_pay3 (F := Ideal) x : S2048x128.Idx → EReal) = x := rfl

/-- The accumulate step at row e and column q of the block: the accumulator there, plus the sum over the source tile's
    rows k of (w e if idx e is the tile's row number si · 1024 + k, else 0) · X (k, q). -/
theorem pay13_2_apply (i : grid13.Coords) (x0 : Vec Ideal S2048 .i32) (x1 : Vec Ideal S2048 .f32) (x2 : Vec Ideal S1024x128 .f32) (acc : Vec Ideal S2048x128 .f32)
    (e : Fin 2048) (q : Fin 128) :
    k13_pay2 (F := Ideal) i x0 x1 x2 acc (ix2 e q)
      = acc (ix2 e q) + (0 + ∑ k : Fin 1024, (if x0 (ix1 e) = BitVec.ofNat 32 ((i 1).val * 1024 + k.val) then x1 (ix1 e) else 0) * x2 (ix2 k q)) := by
  unfold k13_pay2
  refine (congrFun (shapeCast_self _ shapeCasts_S2048x128_S2048x128) (ix2 e q)).trans ?_
  refine (addf_apply _ _ (ix2 e q)).trans ?_
  refine congrArg₂ (· + ·) rfl ?_
  refine (matmul13_apply _ _ e q).trans ?_
  refine Eq.trans ?_ (zero_add _).symm
  refine Finset.sum_congr rfl fun k _ => ?_
  refine congrArg₂ (· * ·) ?_ ?_
  · refine (truncf_apply _ bitsLt_bf16_f32 (ix2 e k)).trans ?_
    refine (select_apply _ _ _ (ix2 e k)).trans ?_
    refine (select_cmpi_eq13 _ _ _ _).trans ?_
    refine ite_eq_congr13 ?_ ?_ ?_ ?_
    · exact (colRep13_apply (shapeCast S2048 x0 shapeCasts_S2048_S2048) e k).trans (congrFun (shapeCast_self x0 shapeCasts_S2048_S2048) (ix1 e))
    · refine (broadcastTo_1b_ab_apply _ broadcasts_S1x1024_S2048x1024 e k).trans ?_
      refine (congrArg (IntOp.addi (Scalar.muli (BitVec.ofNat 32 (i 1).val) 1024#32)) (iota_single_apply .tc S1x1024 32 1 iota_S1x1024_d1_w32 (ix2 (0 : Fin 1) k))).trans ?_
      exact rowWord13 (i 1).val k.val
    · refine (congrArg (fun z => broadcastTo S2048x1024 z broadcasts_S2048x1_S2048x1024 (ix2 e k)) (shapeCast_self (shapeCast S2048x1 (shapeCast S2048 x1 shapeCasts_S2048_S2048) shapeCasts_S2048_S2048x1) shapeCasts_S2048x1_S2048x1)).trans ?_
      exact (colRep13_apply (shapeCast S2048 x1 shapeCasts_S2048_S2048) e k).trans (congrFun (shapeCast_self x1 shapeCasts_S2048_S2048) (ix1 e))
    · exact Ideal.ofBits_zero_f32
  · refine (truncf_apply _ bitsLt_bf16_f32 (ix2 k q)).trans ?_
    exact congrFun (shapeCast_self x2 shapeCasts_S1024x128_S1024x128) (ix2 k q)

end Cert.KernelIdeal.H

end
-- ==== Proof.KI.GV13b.lean ====
/-
  A gather launch (the first one-hot product of a relation), at the ideal values: the blocks its input windows read.
  A grid point t is (edge chunk ci, source tile si) = (t / 4, t % 4).  The index maps return the grid coordinates:
  the blocks of idx and of w at t are entries ci · 2048 … of the arrays, the block of X is rows si · 1024 … of X.
-/
import proofs.«407232_j23192823399226_1_alg».proof.Proof.KI.G13Runs
import proofs.«407232_j23192823399226_1_alg».proof.Proof.SpecIdx
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The input windows' index maps, at any point -/

/-- The blocks of idx and of w are at block t / 4, the block of X at block row t % 4 (the index maps return the
    grid coordinates, which are below 2³²). -/
theorem idx_facts13 (t : Fin cfg13.N) :
    win13_0.index t (0 : Fin 1) = t.val / 4 ∧ win13_1.index t (0 : Fin 1) = t.val / 4
    ∧ win13_2.index t (0 : Fin 2) = t.val % 4 ∧ win13_2.index t (1 : Fin 2) = 0 := by
  have hN : grid13.N = 316 := N_13
  have ht : t.val < 316 := hN ▸ t.isLt
  have c0 := coords13_0 t
  have c1 := coords13_1 t
  refine ⟨?_, ?_, ?_, rfl⟩
  · show (BitVec.ofNat 32 ((grid13.coords t) 0).val).toNat = _
    rw [BitVec.toNat_ofNat, c0]; omega
  · show (BitVec.ofNat 32 ((grid13.coords t) 0).val).toNat = _
    rw [BitVec.toNat_ofNat, c0]; omega
  · show (BitVec.ofNat 32 ((grid13.coords t) 1).val).toNat = _
    rw [BitVec.toNat_ofNat, c1]; omega

/-! ## The blocks read off the arrays -/

section
variable (V : (c : Dev nD) → (b : Ref sig .tc) → Buf (Elt Ideal) ((c : Thread nD τ).loc b))

/-- The block of idx at point t is entries (t / 4) · 2048 … of idx. -/
theorem idxblk13_apply (c : Dev nD) (t : Fin cfg13.N) (e : Fin 2048) (E : Fin 161792) (hE : E.val = t.val / 4 * 2048 + e.val) :
    (iblk13 V c 0 t : Vec Ideal S2048 .i32) (ix1 e) = (V c main_v69 : Vec Ideal S161792 .i32) (ix1 E) := by
  obtain ⟨e0, -⟩ := idx_facts13 t
  unfold iblk13
  rw [View.read_apply]
  show V c main_v69 _ = V c main_v69 _
  congr 1
  funext a
  apply Fin.ext
  match a with
  | ⟨0, _⟩ => show win13_0.index t (0 : Fin 1) * 2048 + 1 * e.val = E.val; rw [e0, hE]; omega

/-- The block of w at point t is entries (t / 4) · 2048 … of w. -/
theorem wblk13_apply (c : Dev nD) (t : Fin cfg13.N) (e : Fin 2048) (E : Fin 161792) (hE : E.val = t.val / 4 * 2048 + e.val) :
    (iblk13 V c 1 t : Vec Ideal S2048 .f32) (ix1 e) = (V c main_v71 : Vec Ideal S161792 .f32) (ix1 E) := by
  obtain ⟨-, e0, -⟩ := idx_facts13 t
  unfold iblk13
  rw [View.read_apply]
  show V c main_v71 _ = V c main_v71 _
  congr 1
  funext a
  apply Fin.ext
  match a with
  | ⟨0, _⟩ => show win13_1.index t (0 : Fin 1) * 2048 + 1 * e.val = E.val; rw [e0, hE]; omega

/-- The block of X at point t is rows (t % 4) · 1024 … of X. -/
theorem xblk13_apply (c : Dev nD) (t : Fin cfg13.N) (k : Fin 1024) (q : Fin 128) (R : Fin 4096) (hR : R.val = t.val % 4 * 1024 + k.val) :
    (iblk13 V c 2 t : Vec Ideal S1024x128 .f32) (ix2 k q) = (V c main_v22 : Vec Ideal S4096x128 .f32) (ix2 R q) := by
  obtain ⟨-, -, e0, e1⟩ := idx_facts13 t
  unfold iblk13
  rw [View.read_apply]
  show V c main_v22 _ = V c main_v22 _
  congr 1
  funext a
  apply Fin.ext
  match a with
  | ⟨0, _⟩ => show win13_2.index t (0 : Fin 2) * 1024 + 1 * k.val = R.val; rw [e0, hR]; omega
  | ⟨1, _⟩ => show win13_2.index t (1 : Fin 2) * 128 + 1 * q.val = q.val; rw [e1]; omega

end

end Cert.KernelIdeal.H

end
-- ==== Proof.KI.GV13c.lean ====
/-
  A gather launch (the first one-hot product of a relation): what each control case's run leaves in the accumulator and
  in the output block, as the body's arithmetic on the blocks, for any float values.
  At the first source tile the accumulator is filled with zero, read back, and gets the tile's product added; at a
  later tile it gets the product added to what it held; at the last tile the output block receives the narrowing of
  the accumulator.  Each buffer is stored whole, so what it ends holding is the last store's payload.
-/
import proofs.«407232_j23192823399226_1_alg».proof.Proof.KI.G13RunC
import Idealize.ShloMosaic.Lib.Pipeline.Value
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The pieces the body's run found, read back -/

theorem hz13 : (![0, 0] : Fin 2 → Nat) = fun _ => 0 := funext fun a => by fin_cases a <;> rfl
theorem hzv13 : (![0] : Fin 1 → Nat) = fun _ => 0 := funext fun a => by fin_cases a; rfl

/-- At a middle source tile the accumulator ends at the accumulate step over what it held. -/
theorem canon13_B (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) :
    View.canon (kernelRun13_B (F := F) c i arg2 harg2 arg3 harg3 arg4 harg4 arg5 harg5 arg6 harg6 hc0 hc1 x0 x1 x2 xs0).2.1 = k13_pay2 i x0 x1 x2 xs0 := by
  unfold kernelRun13_B
  dsimp only
  sl_unfold_words
  rw [View.canon_unit_zero hz13]
  simp only [View.readAt_eq_ld, harg2.read_unread, harg3.read_unread, harg4.read_unread, harg6.read_unread, View.ld_unit_zero (S := S2048) hzv13, View.ld_unit_zero (S := S1024x128) hz13, View.ld_unit_zero (S := S2048x128) hz13]

/-- At the first source tile the accumulator is zeroed, read back, and ends at the accumulate step over zero. -/
theorem canon13_A (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) :
    View.canon (kernelRun13_A (F := F) c i arg2 harg2 arg3 harg3 arg4 harg4 arg5 harg5 arg6 harg6 hc0 hc1 x0 x1 x2).2.1 = k13_pay2 i x0 x1 x2 (k13_pay1 (F := F)) := by
  unfold kernelRun13_A
  dsimp only
  sl_unfold_words
  rw [View.canon_cons_unit_zero (S := S2048x128) hz13]
  simp only [View.readAt_eq_ld, harg2.read_unread, harg3.read_unread, harg4.read_unread, harg6.read_unread, View.ld_unit_zero (S := S2048) hzv13, View.ld_unit_zero (S := S1024x128) hz13, View.ld_unit_zero (S := S2048x128) hz13, View.readCov_unit_zero (S := S2048x128) _ hz13]

/-- At the last source tile the accumulator ends at the accumulate step over what it held, -/
theorem canon13_C (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) :
    View.canon (kernelRun13_C (F := F) c i arg2 harg2 arg3 harg3 arg4 harg4 arg5 harg5 arg6 harg6 hc0 hc1 x0 x1 x2 xs0).2.1 = k13_pay2 i x0 x1 x2 xs0 := by
  unfold kernelRun13_C
  dsimp only
  sl_unfold_words
  rw [View.canon_unit_zero hz13]
  simp only [View.readAt_eq_ld, harg2.read_unread, harg3.read_unread, harg4.read_unread, harg6.read_unread, View.ld_unit_zero (S := S2048) hzv13, View.ld_unit_zero (S := S1024x128) hz13, View.ld_unit_zero (S := S2048x128) hz13]

/-- and the output block at the narrowing of that. -/
theorem canon13_C3 (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) :
    View.canon (kernelRun13_C (F := F) c i arg2 harg2 arg3 harg3 arg4 harg4 arg5 harg5 arg6 harg6 hc0 hc1 x0 x1 x2 xs0).1 = k13_pay3 (k13_pay2 i x0 x1 x2 xs0) := by
  unfold kernelRun13_C
  dsimp only
  sl_unfold_words
  rw [View.canon_unit_zero hz13]
  simp only [View.readAt_eq_ld, harg2.read_unread, harg3.read_unread, harg4.read_unread, harg6.read_unread, View.ld_unit_zero (S := S2048) hzv13, View.ld_unit_zero (S := S1024x128) hz13, View.ld_unit_zero (S := S2048x128) hz13, View.readCov_unit_zero (S := S2048x128) _ hz13]

end Cert.KernelIdeal.H

end
-- ==== Proof.KI.GV13.lean ====
/-
  A gather launch (the first one-hot product of a relation), at the ideal values: what its output array holds after the run.
  Within edge chunk ci the accumulator after source tile si holds, at (e, q), the running total over the tiles 0 … si of
  the summands of edge ci · 2048 + e, where the summand of source row s is (w E if idx E is the word of s, else 0) · X (s, q):
  the first tile adds its share to zero, each later tile adds its share to what the point before left (induction on the
  grid point).  After the last of the 4 tiles the running total is the sum over all 4096 source rows, the output block
  receives it unchanged and is written back; the 79 blocks written back cover the 161792 rows.  So the array ends
  holding, per edge, the one-hot weighted sum over all source rows.
-/
import proofs.«407232_j23192823399226_1_alg».proof.Proof.KI.G13
import proofs.«407232_j23192823399226_1_alg».proof.Proof.KI.GV13a
import proofs.«407232_j23192823399226_1_alg».proof.Proof.KI.GV13b
import proofs.«407232_j23192823399226_1_alg».proof.Proof.KI.GV13c

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## One accumulate step, and the last accumulator, in terms of the arrays -/

/-- The summand of source row s, for edge E at column q: (w E if idx E is the word of s, else 0) · X (s, q); 0 past the
    table's 4096 rows. -/
def gterm13 (IDX : Vec Ideal S161792 .i32) (W : Vec Ideal S161792 .f32) (X : Vec Ideal S4096x128 .f32) (E : Fin 161792) (q : Fin 128) : ℕ → EReal :=
  fun s => if h : s < 4096 then (if IDX (ix1 E) = BitVec.ofNat 32 s then W (ix1 E) else 0) * X (ix2 ⟨s, h⟩ q) else 0

/-- The accumulate step on blocks that are entries ci · 2048 … of idx and w and rows si · 1024 … of X: at (e, q) it
    adds tile si's share of the sum over the source rows, for edge ci · 2048 + e. -/
theorem step13_apply (i : grid13.Coords) (x0 : Vec Ideal S2048 .i32) (x1 : Vec Ideal S2048 .f32) (x2 : Vec Ideal S1024x128 .f32) (acc : Vec Ideal S2048x128 .f32)
    (IDX : Vec Ideal S161792 .i32) (W : Vec Ideal S161792 .f32) (X : Vec Ideal S4096x128 .f32) (ci si : ℕ) (hsi : si < 4) (hi : (i 1).val = si)
    (h0 : ∀ (e : Fin 2048) (E : Fin 161792), E.val = ci * 2048 + e.val → x0 (ix1 e) = IDX (ix1 E))
    (h1 : ∀ (e : Fin 2048) (E : Fin 161792), E.val = ci * 2048 + e.val → x1 (ix1 e) = W (ix1 E))
    (h2 : ∀ (k : Fin 1024) (q : Fin 128) (R : Fin 4096), R.val = si * 1024 + k.val → x2 (ix2 k q) = X (ix2 R q))
    (e : Fin 2048) (q : Fin 128) (E : Fin 161792) (hE : E.val = ci * 2048 + e.val) :
    k13_pay2 (F := Ideal) i x0 x1 x2 acc (ix2 e q)
      = acc (ix2 e q) + (0 + ∑ k : Fin 1024, gterm13 IDX W X E q (si * 1024 + k.val)) := by
  refine (pay13_2_apply i x0 x1 x2 acc e q).trans ?_
  refine congrArg (fun z => acc (ix2 e q) + (0 + z)) (Finset.sum_congr rfl fun k _ => ?_)
  have hk : si * 1024 + k.val < 4096 := by have := k.isLt; omega
  unfold gterm13
  rw [dif_pos hk, hi, h0 e E hE, h1 e E hE, h2 k q ⟨si * 1024 + k.val, hk⟩ rfl]

/-- A block whose entry (e, q) is the running total after the last of the 4 source tiles, for edge ci · 2048 + e, is
    block ci of the one-hot product over all 4096 source rows. -/
theorem block13_eq_gat (A : Vec Ideal S2048x128 .f32) (IDX : Vec Ideal S161792 .i32) (W : Vec Ideal S161792 .f32) (X : Vec Ideal S4096x128 .f32) (ci : ℕ)
    (hA : ∀ (e : Fin 2048) (q : Fin 128) (E : Fin 161792), E.val = ci * 2048 + e.val → A (ix2 e q) = Cert.Spec.accTiles 1024 (gterm13 IDX W X E q) 3)
    (j : S2048x128.Idx) (i : S161792x128.Idx) (hi0 : (i 0).val = ci * 2048 + (j 0).val) (hi1 : (i 1).val = (j 1).val) :
    A j = Cert.Spec.unc2 (Cert.Spec.gat (Cert.Spec.cur1 IDX) (Cert.Spec.cur1 W) (Cert.Spec.cur2 X)) i := by
  obtain ⟨e, q, rfl⟩ : ∃ (e : Fin 2048) (q : Fin 128), j = ix2 e q := ⟨j 0, j 1, eq_ix2 j⟩
  obtain ⟨E, Q, rfl⟩ : ∃ (E : Fin 161792) (Q : Fin 128), i = ix2 E Q := ⟨i 0, i 1, eq_ix2 i⟩
  obtain rfl : Q = q := Fin.ext hi1
  rw [hA e Q E hi0]
  show _ = ∑ s : Fin 4096, (if IDX (ix1 E) = BitVec.ofNat 32 s.val then W (ix1 E) else 0) * X (ix2 s Q)
  exact Cert.Spec.accTiles_flat 4 1024 (by decide) (fun s : Fin (4 * 1024) => (if IDX (ix1 E) = BitVec.ofNat 32 s.val then W (ix1 E) else 0) * X (ix2 s Q))

/-! ## What each case leaves, as the body's arithmetic on the blocks -/

theorem sout13_A_0_eq (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : cond13_0 i) (hc1 : ¬cond13_1 i)
    (x0 : Vec F S2048 .i32) (x1 : Vec F S2048 .f32) (x2 : Vec F S1024x128 .f32) :
    sout13_A_0 c i arg2 harg2 arg3 harg3 arg4 harg4 arg5 harg5 arg6 harg6 hc0 hc1 x0 x1 x2 = k13_pay2 i x0 x1 x2 (k13_pay1 (F := F)) := by
  unfold sout13_A_0
  rw [View.read_writes_eq_canon _ _ _ (scover13_A_0 c i arg2 harg2 arg3 harg3 arg4 harg4 arg5 harg5 arg6 harg6 hc0 hc1 x0 x1 x2)]
  exact canon13_A c i arg2 harg2 arg3 harg3 arg4 harg4 arg5 harg5 arg6 harg6 hc0 hc1 x0 x1 x2

theorem sout13_B_0_eq (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : ¬cond13_1 i)
    (x0 : Vec F S2048 .i32) (x1 : Vec F S2048 .f32) (x2 : Vec F S1024x128 .f32) (xs0 : Vec F S2048x128 .f32) :
    sout13_B_0 c i arg2 harg2 arg3 harg3 arg4 harg4 arg5 harg5 arg6 harg6 hc0 hc1 x0 x1 x2 xs0 = k13_pay2 i x0 x1 x2 xs0 := by
  unfold sout13_B_0
  rw [View.read_writes_eq_canon _ _ _ (scover13_B_0 c i arg2 harg2 arg3 harg3 arg4 harg4 arg5 harg5 arg6 harg6 hc0 hc1 x0 x1 x2 xs0)]
  exact canon13_B c i arg2 harg2 arg3 harg3 arg4 harg4 arg5 harg5 arg6 harg6 hc0 hc1 x0 x1 x2 xs0

theorem sout13_C_0_eq (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) :
    sout13_C_0 c i arg2 harg2 arg3 harg3 arg4 harg4 arg5 harg5 arg6 harg6 hc0 hc1 x0 x1 x2 xs0 = k13_pay2 i x0 x1 x2 xs0 := by
  unfold sout13_C_0
  rw [View.read_writes_eq_canon _ _ _ (scover13_C_0 c i arg2 harg2 arg3 harg3 arg4 harg4 arg5 harg5 arg6 harg6 hc0 hc1 x0 x1 x2 xs0)]
  exact canon13_C c i arg2 harg2 arg3 harg3 arg4 harg4 arg5 harg5 arg6 harg6 hc0 hc1 x0 x1 x2 xs0

theorem out13_C_3_eq (c : Dev nD) (i : grid13.Coords) (arg2 : Memref sig .tc .vmem S2048 .i32) (harg2 : arg2.IsWhole) (arg3 : Memref sig .tc .vmem S2048 .f32) (harg3 : arg3.IsWhole) (arg4 : Memref sig .tc .vmem S1024x128 .f32) (harg4 : arg4.IsWhole) (arg5 : Memref sig .tc .vmem S2048x128 .bf16) (harg5 : arg5.IsWhole) (arg6 : Memref sig .tc .vmem S2048x128 .f32) (harg6 : arg6.IsWhole) (hc0 : ¬cond13_0 i) (hc1 : cond13_1 i)
    (x0 : Vec F S2048 .i32) (x1 : Vec F S2048 .f32) (x2 : Vec F S1024x128 .f32) (xs0 : Vec F S2048x128 .f32) :
    out13_C_3 c i arg2 harg2 arg3 harg3 arg4 harg4 arg5 harg5 arg6 harg6 hc0 hc1 x0 x1 x2 xs0 = k13_pay3 (k13_pay2 i x0 x1 x2 xs0) := by
  unfold out13_C_3
  rw [View.read_writes_eq_canon _ _ _ (cover13_C_3 c i arg2 harg2 arg3 harg3 arg4 harg4 arg5 harg5 arg6 harg6 hc0 hc1 x0 x1 x2 xs0)]
  exact canon13_C3 c i arg2 harg2 arg3 harg3 arg4 harg4 arg5 harg5 arg6 harg6 hc0 hc1 x0 x1 x2 xs0

/-! ## The accumulator, point by point -/

section
variable (V : (c : Dev nD) → (b : Ref sig .tc) → Buf (Elt Ideal) ((c : Thread nD τ).loc b))

/-- The one-hot product of the arrays as the region finds them. -/
abbrev gatG13 (c : Dev nD) : S161792x128.Idx → EReal :=
  Cert.Spec.unc2 (Cert.Spec.gat (Cert.Spec.cur1 (V c main_v69 : S161792.Idx → BitVec 32)) (Cert.Spec.cur1 (V c main_v71 : S161792.Idx → EReal)) (Cert.Spec.cur2 (V c main_v22 : S4096x128.Idx → EReal)))

/-- The accumulate step at point t over an accumulator `acc`, at (e, q), for edge E = (t / 4) · 2048 + e: the share of tile t % 4 is added. -/
theorem stepAt13 (c : Dev nD) (t : Fin cfg13.N) (acc : Vec Ideal S2048x128 .f32) (e : Fin 2048) (q : Fin 128) (E : Fin 161792) (hE : E.val = t.val / 4 * 2048 + e.val) :
    k13_pay2 (F := Ideal) (grid13.coords t) (iblk13 V c 0 t) (iblk13 V c 1 t) (iblk13 V c 2 t) acc (ix2 e q)
      = acc (ix2 e q) + (0 + ∑ k : Fin 1024, gterm13 (V c main_v69) (V c main_v71) (V c main_v22) E q (t.val % 4 * 1024 + k.val)) :=
  step13_apply (grid13.coords t) (iblk13 V c 0 t) (iblk13 V c 1 t) (iblk13 V c 2 t) acc (V c main_v69) (V c main_v71) (V c main_v22) (t.val / 4) (t.val % 4)
    (Nat.mod_lt _ (by decide)) (coords13_1 t) (idxblk13_apply V c t) (wblk13_apply V c t) (xblk13_apply V c t) e q E hE

/-- At a first source tile the accumulator ends at the first tile's share, added to zero. -/
theorem accA13 (c : Dev nD) (t : Fin cfg13.N) (h0 : t.val % 4 = 0) (e : Fin 2048) (q : Fin 128) (E : Fin 161792) (hE : E.val = t.val / 4 * 2048 + e.val) :
    ((outsAt13 V c t.val t.isLt).2 : Vec Ideal S2048x128 .f32) (ix2 e q) = Cert.Spec.accTiles 1024 (gterm13 (V c main_v69) (V c main_v71) (V c main_v22) E q) 0 := by
  have h1 : ¬t.val % 4 = 3 := by omega
  rw [outsAt13_A V c t h0 h1]
  dsimp only
  refine (congrFun (sout13_A_0_eq (F := Ideal) c (grid13.coords t) (ms13_0 t) (hs13_0 t) (ms13_1 t) (hs13_1 t) (ms13_2 t) (hs13_2 t) (ms13_3 t) (hs13_3 t) scM13_0 (Memref.isWhole_whole _) ((hcond13_0 t).mpr h0) (fun h => h1 ((hcond13_1 t).mp h)) (iblk13 V c 0 t) (iblk13 V c 1 t) (iblk13 V c 2 t)) (ix2 e q)).trans ?_
  refine (stepAt13 V c t (k13_pay1 (F := Ideal)) e q E hE).trans ?_
  rw [pay13_1_apply, h0]
  show _ = (0 : EReal) + (0 + ∑ k : Fin 1024, gterm13 (V c main_v69) (V c main_v71) (V c main_v22) E q k.val)
  simp only [Nat.zero_mul, Nat.zero_add]

/-- At a later source tile the accumulator ends at what the point before left plus this tile's share. -/
theorem accBC13 (c : Dev nD) (t : Fin cfg13.N) (h0 : ¬t.val % 4 = 0) (e : Fin 2048) (q : Fin 128) (E : Fin 161792) (hE : E.val = t.val / 4 * 2048 + e.val)
    (ih : ((outsAt13 V c (t.val - 1) (Nat.lt_of_le_of_lt (Nat.sub_le _ _) t.isLt)).2 : Vec Ideal S2048x128 .f32) (ix2 e q) = Cert.Spec.accTiles 1024 (gterm13 (V c main_v69) (V c main_v71) (V c main_v22) E q) (t.val % 4 - 1)) :
    ((outsAt13 V c t.val t.isLt).2 : Vec Ideal S2048x128 .f32) (ix2 e q) = Cert.Spec.accTiles 1024 (gterm13 (V c main_v69) (V c main_v71) (V c main_v22) E q) (t.val % 4) := by
  obtain ⟨m, hm⟩ : ∃ m, t.val % 4 = m + 1 := ⟨t.val % 4 - 1, by omega⟩
  by_cases h1 : t.val % 4 = 3
  · rw [outsAt13_C V c t h0 h1]
    dsimp only
    refine (congrFun (sout13_C_0_eq (F := Ideal) c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2) (ix2 e q)).trans ?_
    refine (stepAt13 V c t (outsAt13 V c (t.val - 1) (Nat.lt_of_le_of_lt (Nat.sub_le _ _) t.isLt)).2 e q E hE).trans ?_
    rw [ih, hm, Nat.add_sub_cancel]
    rfl
  · rw [outsAt13_B V c t h0 h1]
    dsimp only
    refine (congrFun (sout13_B_0_eq (F := Ideal) c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) (fun h => h1 ((hcond13_1 t).mp h)) (iblk13 V c 0 t) (iblk13 V c 1 t) (iblk13 V c 2 t) (outsAt13 V c (t.val - 1) (Nat.lt_of_le_of_lt (Nat.sub_le _ _) t.isLt)).2) (ix2 e q)).trans ?_
    refine (stepAt13 V c t (outsAt13 V c (t.val - 1) (Nat.lt_of_le_of_lt (Nat.sub_le _ _) t.isLt)).2 e q E hE).trans ?_
    rw [ih, hm, Nat.add_sub_cancel]
    rfl

/-- THE INVARIANT: after point n = ci · 4 + si the accumulator's entry (e, q) is the running total, over the source
    tiles 0 … si, of the summands of edge ci · 2048 + e. -/
theorem acc13_eq (c : Dev nD) : ∀ (n : ℕ) (hn : n < cfg13.N) (e : Fin 2048) (q : Fin 128) (E : Fin 161792), E.val = n / 4 * 2048 + e.val →
    ((outsAt13 V c n hn).2 : Vec Ideal S2048x128 .f32) (ix2 e q) = Cert.Spec.accTiles 1024 (gterm13 (V c main_v69) (V c main_v71) (V c main_v22) E q) (n % 4)
  | 0, hn, e, q, E, hE => accA13 V c ⟨0, hn⟩ (Nat.zero_mod _) e q E hE
  | n + 1, hn, e, q, E, hE => by
    by_cases h0 : (n + 1) % 4 = 0
    · rw [h0]
      exact accA13 V c ⟨n + 1, hn⟩ h0 e q E hE
    · refine accBC13 V c ⟨n + 1, hn⟩ h0 e q E hE ?_
      have hdiv : (n + 1) / 4 = n / 4 := by omega
      have hmod : (n + 1) % 4 - 1 = n % 4 := by omega
      have ih := acc13_eq c n (Nat.lt_of_succ_lt hn) e q E (by rw [← hdiv]; exact hE)
      show ((outsAt13 V c n _).2 : Vec Ideal S2048x128 .f32) (ix2 e q) = Cert.Spec.accTiles 1024 (gterm13 (V c main_v69) (V c main_v71) (V c main_v22) E q) ((n + 1) % 4 - 1)
      rw [hmod]
      exact ih

/-! ## From the blocks to the array -/

/-- At a last source tile the output block is the accumulator (the narrowing is the identity). -/
theorem outC13_fst (c : Dev nD) (t : Fin cfg13.N) (h0 : ¬t.val % 4 = 0) (h1 : t.val % 4 = 3) :
    ((outsAt13 V c t.val t.isLt).1 : S2048x128.Idx → EReal) = ((outsAt13 V c t.val t.isLt).2 : S2048x128.Idx → EReal) := by
  rw [outsAt13_C V c t h0 h1]
  dsimp only
  exact (out13_C_3_eq (F := Ideal) c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2).trans
    ((pay13_3_eq _).trans (sout13_C_0_eq (F := Ideal) c (grid13.coords t) (ms13_0 t) (hs13_0 t) (ms13_1 t) (hs13_1 t) (ms13_2 t) (hs13_2 t) (ms13_3 t) (hs13_3 t) scM13_0 (Memref.isWhole_whole _) (fun h => h0 ((hcond13_0 t).mp h)) ((hcond13_1 t).mpr h1) (iblk13 V c 0 t) (iblk13 V c 1 t) (iblk13 V c 2 t) (outsAt13 V c (t.val - 1) (Nat.lt_of_le_of_lt (Nat.sub_le _ _) t.isLt)).2).symm)

/-- What a last source tile's point writes back is block t / 4 of the one-hot product of the arrays. -/
theorem flushed13_eq (c : Dev nD) (t : Fin cfg13.N) (hf : (cfg13.win 3).flush t = true) :
    (dat13 (F := Ideal) V c).flushed 3 t = ((cfg13.win 3).blk t).view.read (Elt Ideal) (gatG13 V c) := by
  have h1 : t.val % 4 = 3 := (flushAt13_3 t).mp hf
  have h0 : ¬t.val % 4 = 0 := by omega
  show (cfg13.win 3).cut (grid13.coords t) ((dat13 (F := Ideal) V c).after 3 t) = _
  rw [after13_3]
  obtain ⟨e0, e1⟩ := oidx13 t
  have hA : ∀ (e : Fin 2048) (q : Fin 128) (E : Fin 161792), E.val = t.val / 4 * 2048 + e.val →
      ((outsAt13 V c t.val t.isLt).2 : Vec Ideal S2048x128 .f32) (ix2 e q) = Cert.Spec.accTiles 1024 (gterm13 (V c main_v69) (V c main_v71) (V c main_v22) E q) 3 := fun e q E hE => by
    have := acc13_eq V c t.val t.isLt e q E hE
    rw [h1] at this
    exact this
  funext j
  have hread : ∀ G : S161792x128.Idx → EReal, ((cfg13.win 3).blk t).view.read (Elt Ideal) G j = G (((cfg13.win 3).blk t).view.emb j) := fun G => rfl
  rw [hread]
  refine (congrFun (outC13_fst V c t h0 h1) j).trans ?_
  refine block13_eq_gat (outsAt13 V c t.val t.isLt).2 (V c main_v69) (V c main_v71) (V c main_v22) (t.val / 4) hA j (((cfg13.win 3).blk t).view.emb j) ?_ ?_
  · show win13_3.index t (0 : Fin 2) * 2048 + 1 * (j 0).val = t.val / 4 * 2048 + (j 0).val; rw [e0]; omega
  · show win13_3.index t (1 : Fin 2) * 128 + 1 * (j 1).val = (j 1).val; rw [e1]; omega

/-- An index of the output array is in point t's block iff each coordinate is in the block's range on its axis. -/
theorem mem_blk13 (t : Fin cfg13.N) (i : S161792x128.Idx) :
    i ∈ ((cfg13.win 3).blk t).view.set ↔ ∀ a : Fin 2, win13_3.index t a * S2048x128.size a ≤ (i a).val ∧ (i a).val < win13_3.index t a * S2048x128.size a + S2048x128.size a := by
  show i ∈ ((View.whole main_v72).slice (win13_3.rect t)).set ↔ _
  rw [View.set_slice_whole, Rect.mem_set_unit]
  exact Iff.rfl

/-- Row R of the output array is in the block written back at the last source tile of edge chunk R / 2048. -/
theorem cover13 (i : S161792x128.Idx) : ∃ t : Fin cfg13.N, (cfg13.win 3).flush t = true ∧ i ∈ ((cfg13.win 3).blk t).view.set := by
  have hi0 : (i 0).val < 161792 := (i 0).isLt
  have hi1 : (i 1).val < 128 := (i 1).isLt
  have hN : cfg13.N = 316 := N_13
  have hlt : (i 0).val / 2048 * 4 + 3 < cfg13.N := by rw [hN]; omega
  refine ⟨⟨(i 0).val / 2048 * 4 + 3, hlt⟩, (flushAt13_3 _).mpr (by show ((i 0).val / 2048 * 4 + 3) % 4 = 3; omega), ?_⟩
  obtain ⟨e0, e1⟩ := oidx13 ⟨(i 0).val / 2048 * 4 + 3, hlt⟩
  rw [mem_blk13]
  intro a
  match a with
  | ⟨0, _⟩ =>
    show win13_3.index _ (0 : Fin 2) * 2048 ≤ (i 0).val ∧ (i 0).val < win13_3.index _ (0 : Fin 2) * 2048 + 2048
    rw [e0]
    show ((i 0).val / 2048 * 4 + 3) / 4 * 2048 ≤ (i 0).val ∧ (i 0).val < ((i 0).val / 2048 * 4 + 3) / 4 * 2048 + 2048
    omega
  | ⟨1, _⟩ =>
    show win13_3.index _ (1 : Fin 2) * 128 ≤ (i 1).val ∧ (i 1).val < win13_3.index _ (1 : Fin 2) * 128 + 128
    rw [e1]
    omega

/-- The output array after the run is the one-hot product of the arrays as the region finds them: per edge, the sum over
    all source rows of (w e if idx e names the row, else 0) · X row. -/
theorem gat_val13 (c : Dev nD) :
    ((dat13 (F := Ideal) V c).arrAt 3 cfg13.N : S161792x128.Idx → EReal)
      = Cert.Spec.unc2 (Cert.Spec.gat (Cert.Spec.cur1 (V c main_v69 : S161792.Idx → BitVec 32)) (Cert.Spec.cur1 (V c main_v71 : S161792.Idx → EReal)) (Cert.Spec.cur2 (V c main_v22 : S4096x128.Idx → EReal))) :=
  (dat13 (F := Ideal) V c).arrAt_eq_of_cover 3 (gatG13 V c) (fun t hf => flushed13_eq V c t hf) cover13

end

end Cert.KernelIdeal.H

end
-- ==== Proof.KI.SV2a.lean ====
/-
  A scatter launch (the second one-hot product of a relation), at the ideal values: the arithmetic of one grid point.
  The body compares, for row d of the destination tile and edge e of the chunk, the word of the row (tile index times
  1024 plus d) with the destination word of the edge; the comparison, widened and converted, is 1 where they agree and
  0 elsewhere; the matrix of these is multiplied with the chunk's rows and the product is added to the accumulator.  So
  at (d, q) the accumulate payload is the accumulator there plus the sum over the chunk's edges e of
  (1 if dst e is the row's word, else 0) · g (e, q); the zero fill is 0 everywhere.
  Then where a point's blocks sit in the arrays: point t is (destination tile t / 391, edge chunk t % 391), the chunk's
  edges are the global edges 2048 (t % 391) … and the tile's rows the global rows 1024 (t / 391) ….
-/
import proofs.«407232_j23192823399226_1_alg».proof.Proof.KI.S2Runs
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The one-hot operand at an index -/

/-- The word of the destination row: tile index times 1024 plus the row inside the tile, as one word. -/
theorem rowWord2 (a d : Nat) : BitVec.ofNat 32 a * 1024#32 + BitVec.ofNat 32 d = BitVec.ofNat 32 (a * 1024 + d) := by
  rw [BitVec.ofNat_add, BitVec.ofNat_mul]

/-- The rows' words, broadcast along the edges, at (d, e): the tile's base word plus d. -/
theorem rows2_apply (w : BitVec 32) (d : Fin 1024) (e : Fin 2048) :
    broadcastTo S1024x2048 (addi (broadcast S1024x1 w) (iota .tc S1024x1 32 [0] iota_S1024x1_d0_w32)) broadcasts_S1024x1_S1024x2048 (ix2 d e)
      = w + BitVec.ofNat 32 d.val := by
  refine (broadcastTo_apply _ broadcasts_S1024x1_S1024x2048 (ix2 d e) (ix2 d (0 : Fin 1)) (fun a => ?_)).trans ?_
  · match a with
    | ⟨0, _⟩ => show d.val = if (1024 : Nat) = 1 then 0 else d.val; rw [if_neg (by decide)]
    | ⟨1, _⟩ => show 0 = if (1 : Nat) = 1 then 0 else _; rw [if_pos rfl]
  · show IntOp.addi w (iota .tc S1024x1 32 [0] iota_S1024x1_d0_w32 (ix2 d (0 : Fin 1))) = _
    rw [iota_single_apply]; rfl

/-- The edges' destination words, broadcast down the rows, at (d, e): the word of edge e. -/
theorem cols2_apply (x0 : IVec S2048 32) (d : Fin 1024) (e : Fin 2048) :
    broadcastTo S1024x2048 (shapeCast S1x2048 (shapeCast S2048 x0 shapeCasts_S2048_S2048) shapeCasts_S2048_S1x2048) broadcasts_S1x2048_S1024x2048 (ix2 d e) = x0 (ix1 e) := by
  refine (broadcastTo_apply _ broadcasts_S1x2048_S1024x2048 (ix2 d e) (ix2 (0 : Fin 1) e) (fun a => ?_)).trans ?_
  · match a with
    | ⟨0, _⟩ => show 0 = if (1 : Nat) = 1 then 0 else _; rw [if_pos rfl]
    | ⟨1, _⟩ => show e.val = if (2048 : Nat) = 1 then 0 else e.val; rw [if_neg (by decide)]
  · refine (shapeCast_addUnit_apply ![2048] _ shapeCasts_S2048_S1x2048 (ix2 (0 : Fin 1) e)).trans ?_
    rw [shapeCast_self]
    exact congrArg x0 (funext fun a => by match a with | ⟨0, _⟩ => rfl)

/-- A compared pair of words, widened and converted, is 1 where they are equal and 0 elsewhere. -/
theorem onehot2_word (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℝ)) : EReal) = 1
    rw [beq_self_eq_true]
    show ((((1#32 : BitVec 32).toInt : ℝ)) : EReal) = 1
    rw [show (1#32 : BitVec 32).toInt = 1 from by decide]
    simp
  · rw [if_neg h]
    show (((((BitVec.ofBool (a == b)).setWidth 32).toInt : ℝ)) : EReal) = 0
    rw [show (a == b) = false from by simpa using h]
    show ((((0#32 : BitVec 32).toInt : ℝ)) : EReal) = 0
    rw [show (0#32 : BitVec 32).toInt = 0 from by decide]
    simp

/-! ## The product at an index -/

theorem lhsA_pay2 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsB_pay2 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsA_pay2 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsB_pay2 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product into a zero accumulator, at row d and column q: the sum over the edges e of x (d, e) · y (e, q). -/
theorem matmul2_apply (x : FVec Ideal S1024x2048 .bf16) (y : FVec Ideal S2048x128 .bf16) (d : Fin 1024) (q : Fin 128) :
    matmul dot_S1024x2048_S2048x128_S1024x128_1_0_0_1_n_n none x y (constant (F := Ideal) S1024x128 .f32 0x00000000#32) (ix2 d q)
      = ∑ e : Fin 2048, x (ix2 d e) * y (ix2 e q) := by
  refine (Ideal.matmul_constant_zero_apply dot_S1024x2048_S2048x128_S1024x128_1_0_0_1_n_n none x y (ix2 d q)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 d q) ((contrEquiv1 dot_S1024x2048_S2048x128_S1024x128_1_0_0_1_n_n 2048 rfl rfl).symm k) = ix2 d k := funext fun a => Fin.ext (by
    match a with
    | ⟨0, _⟩ => exact lhsA_pay2 _ _
    | ⟨1, _⟩ => exact (lhsB_pay2 _ _).trans hk)
  have er : dot_S1024x2048_S2048x128_S1024x128_1_0_0_1_n_n.rhsIdx (ix2 d q) ((contrEquiv1 dot_S1024x2048_S2048x128_S1024x128_1_0_0_1_n_n 2048 rfl rfl).symm k) = ix2 k q := funext fun a => Fin.ext (by
    match a with
    | ⟨0, _⟩ => exact (rhsA_pay2 _ _).trans hk
    | ⟨1, _⟩ => exact rhsB_pay2 _ _)
  rw [el, er]

/-! ## The two payloads at an index -/

/-- The zero fill, at any index. -/
theorem zpay2_apply (j : S1024x128.Idx) : k2_pay1 (F := Ideal) j = 0 := by
  unfold k2_pay1
  (try dsimp only)
  rw [shapeCast_self]
  exact Ideal.ofBits_zero_f32

/-- The accumulate, at row d and column q of the tile: the accumulator there plus the sum, over the chunk's edges e, of
    (1 if the edge's destination word is the row's word, else 0) · g (e, q). -/
theorem pay2_2_apply (i : grid2.Coords) (x0 : Vec Ideal S2048 .i32) (x1 : Vec Ideal S2048x128 .bf16) (acc : Vec Ideal S1024x128 .f32)
    (d : Fin 1024) (q : Fin 128) :
    k2_pay2 (F := Ideal) i x0 x1 acc (ix2 d q)
      = acc (ix2 d q) + (0 + ∑ e : Fin 2048, (if BitVec.ofNat 32 ((i 0).val * 1024 + d.val) = x0 (ix1 e) then (1 : EReal) else 0) * x1 (ix2 e q)) := by
  unfold k2_pay2
  (try dsimp only)
  rw [shapeCast_self]
  refine (addf_apply _ _ (ix2 d q)).trans ?_
  refine congrArg (acc (ix2 d q) + ·) ?_
  refine (matmul2_apply _ _ d q).trans ?_
  rw [zero_add]
  refine Finset.sum_congr rfl fun e _ => ?_
  refine congrArg₂ (· * ·) ?_ ?_
  · refine (onehot2_word _ _).trans ?_
    rw [rows2_apply, cols2_apply]
    show (if Scalar.muli (BitVec.ofNat 32 (i 0).val) 1024#32 + BitVec.ofNat 32 d.val = x0 (ix1 e) then (1 : EReal) else 0) = _
    rw [show Scalar.muli (BitVec.ofNat 32 (i 0).val) 1024#32 = BitVec.ofNat 32 (i 0).val * 1024#32 from rfl, rowWord2]
  · rw [shapeCast_self]

end Cert.KernelIdeal.H

end
-- ==== Proof.KI.SV2b.lean ====
/-
  A scatter launch (the second one-hot product of a relation): its input windows' index maps in closed form.
  Point t is (destination tile t / 391, edge chunk t % 391); the blocks of the destination words and of the rows sit at
  the edge chunk (the index maps return the second grid coordinate, as a 32-bit word read back as a natural: no wrap,
  the coordinate being below 391), the output block at the destination tile.
-/
import proofs.«407232_j23192823399226_1_alg».proof.Proof.KI.S2Runs
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The input windows' block indices at a point: the edge chunk t % 391 (and column block 0). -/
theorem iidx2 (t : Fin cfg2.N) : win2_0.index t (0 : Fin 1) = t.val % 391
    ∧ win2_1.index t (0 : Fin 2) = t.val % 391 ∧ win2_1.index t (1 : Fin 2) = 0 := by
  have c1 := coords2_1 t
  refine ⟨?_, ?_, rfl⟩
  · show (BitVec.ofNat 32 ((grid2.coords t) 1).val).toNat = _
    rw [BitVec.toNat_ofNat, c1]; omega
  · show (BitVec.ofNat 32 ((grid2.coords t) 1).val).toNat = _
    rw [BitVec.toNat_ofNat, c1]; omega

/-- The grid coordinates and the three windows' block indices at a point, together. -/
theorem idx_facts2 (t : Fin cfg2.N) : ((grid2.coords t) 0).val = t.val / 391 ∧ ((grid2.coords t) 1).val = t.val % 391
    ∧ win2_0.index t (0 : Fin 1) = t.val % 391
    ∧ win2_1.index t (0 : Fin 2) = t.val % 391 ∧ win2_1.index t (1 : Fin 2) = 0
    ∧ win2_2.index t (0 : Fin 2) = t.val / 391 ∧ win2_2.index t (1 : Fin 2) = 0 :=
  ⟨coords2_0 t, coords2_1 t, (iidx2 t).1, (iidx2 t).2.1, (iidx2 t).2.2, (oidx2 t).1, (oidx2 t).2⟩

end Cert.KernelIdeal.H

end
-- ==== Proof.KI.SV2.lean ====
/-
  A scatter launch (the second one-hot product of a relation), at the ideal values: what its output array holds after
  the run.  A grid point is (destination tile, edge chunk).  Within a tile the accumulator after edge chunk n holds, at
  row d and column q, the running total over the chunks 0 … n of the terms (1 if dst e is the word of row
  1024·tile + d, else 0) · g (e, q) of the chunks' edges e: the first chunk's payload is its total added to the zero
  fill, each later chunk's adds its total to what the accumulator held.  At the last chunk the total is over all
  800768 edges, the output block is stored from it, and the 49 blocks written back cover the 50176 rows.  So the array
  ends holding, at (R, q), the sum over all edges e of (1 if dst e is the word of R, else 0) · g (e, q).
-/
import proofs.«407232_j23192823399226_1_alg».proof.Proof.KI.S2
import proofs.«407232_j23192823399226_1_alg».proof.Proof.KI.SV2a
import proofs.«407232_j23192823399226_1_alg».proof.Proof.KI.SV2b
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What each case leaves: the pieces the runs found, read back -/

theorem hz2 : (![0, 0] : Fin 2 → Nat) = fun _ => 0 := funext fun a => by fin_cases a <;> rfl
theorem hzv2 : (![0] : Fin 1 → Nat) = fun _ => 0 := funext fun a => by fin_cases a; rfl

/-- At a first edge chunk the accumulator ends at the accumulate payload of the point's blocks over the zero fill:
    the fill's store is covered by the accumulate's, which read the fill back. -/
theorem sout2_A_0_eq (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S2048 .i32) (x1 : Vec F S2048x128 .bf16) :
    sout2_A_0 c i arg2 harg2 arg3 harg3 arg4 harg4 arg5 harg5 hc0 hc1 x0 x1 = k2_pay2 i x0 x1 (k2_pay1 (F := F)) := by
  unfold sout2_A_0
  rw [View.read_writes_eq_canon _ _ _ (scover2_A_0 c i arg2 harg2 arg3 harg3 arg4 harg4 arg5 harg5 hc0 hc1 x0 x1)]
  unfold kernelRun2_A
  dsimp only
  sl_unfold_words
  rw [View.canon_cons_unit_zero (S := S1024x128) hz2]
  simp only [View.readAt_eq_ld, harg2.read_unread, harg3.read_unread, View.readCov_unit_zero (S := S1024x128) _ hz2,
    View.ld_unit_zero (S := S2048) hzv2, View.ld_unit_zero (S := S2048x128) hz2]

/-- At a middle edge chunk the accumulator ends at the accumulate payload of the point's blocks over what it held. -/
theorem sout2_B_0_eq (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S2048 .i32) (x1 : Vec F S2048x128 .bf16) (xs0 : Vec F S1024x128 .f32) :
    sout2_B_0 c i arg2 harg2 arg3 harg3 arg4 harg4 arg5 harg5 hc0 hc1 x0 x1 xs0 = k2_pay2 i x0 x1 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  sl_unfold_words
  rw [View.canon_unit_zero hz2]
  simp only [View.readAt_eq_ld, harg2.read_unread, harg3.read_unread, harg5.read_unread,
    View.ld_unit_zero (S := S2048) hzv2, View.ld_unit_zero (S := S2048x128) hz2, View.ld_unit_zero (S := S1024x128) hz2]

/-- At a last edge chunk the accumulator ends at the accumulate payload of the point's blocks over what it held … -/
theorem sout2_C_0_eq (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) :
    sout2_C_0 c i arg2 harg2 arg3 harg3 arg4 harg4 arg5 harg5 hc0 hc1 x0 x1 xs0 = k2_pay2 i x0 x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero hz2]
  simp only [View.readAt_eq_ld, harg2.read_unread, harg3.read_unread, harg5.read_unread,
    View.ld_unit_zero (S := S2048) hzv2, View.ld_unit_zero (S := S2048x128) hz2, View.ld_unit_zero (S := S1024x128) hz2]

/-- … and the output block at the same: the accumulator just written, loaded back and stored. -/
theorem out2_C_2_eq (c : Dev nD) (i : grid2.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S2048 .i32) (x1 : Vec F S2048x128 .bf16) (xs0 : Vec F S1024x128 .f32) :
    out2_C_2 c i arg2 harg2 arg3 harg3 arg4 harg4 arg5 harg5 hc0 hc1 x0 x1 xs0 = k2_pay2 i x0 x1 xs0 := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero hz2]
  simp only [View.readAt_eq_ld, harg2.read_unread, harg3.read_unread, harg5.read_unread, View.readCov_unit_zero (S := S1024x128) _ hz2,
    View.ld_unit_zero (S := S2048) hzv2, View.ld_unit_zero (S := S2048x128) hz2, View.ld_unit_zero (S := S1024x128) hz2]

/-! ## Where a point's blocks sit in the arrays -/

section
variable (V : (c : Dev nD) → (b : Ref sig .tc) → Buf (Elt Ideal) ((c : Thread nD τ).loc b))

/-- The destination words of the chunk at point t are those of the global edges 2048 (t % 391) …. -/
theorem dblk2_apply (c : Dev nD) (t : Fin cfg2.N) (e : Fin 2048) (E : Fin 800768) (hE : E.val = 2048 * (t.val % 391) + e.val) :
    (iblk2 V c 0 t : Vec Ideal S2048 .i32) (ix1 e) = (V c main_v3 : Vec Ideal S800768 .i32) (ix1 E) := by
  obtain ⟨-, -, e0, -⟩ := idx_facts2 t
  unfold iblk2
  rw [View.read_apply]
  show V c main_v3 _ = V c main_v3 _
  congr 1
  funext a
  apply Fin.ext
  match a with
  | ⟨0, _⟩ => show win2_0.index t (0 : Fin 1) * 2048 + 1 * e.val = E.val; rw [e0, hE]; omega

/-- The rows of the chunk at point t are the rows of the global edges 2048 (t % 391) …. -/
theorem gblk2_apply (c : Dev nD) (t : Fin cfg2.N) (e : Fin 2048) (q : Fin 128) (E : Fin 800768) (hE : E.val = 2048 * (t.val % 391) + e.val) :
    (iblk2 V c 1 t : Vec Ideal S2048x128 .bf16) (ix2 e q) = (V c main_v5 : Vec Ideal S800768x128 .bf16) (ix2 E q) := by
  obtain ⟨-, -, -, e0, e1, -⟩ := idx_facts2 t
  unfold iblk2
  rw [View.read_apply]
  show V c main_v5 _ = V c main_v5 _
  congr 1
  funext a
  apply Fin.ext
  match a with
  | ⟨0, _⟩ => show win2_1.index t (0 : Fin 2) * 2048 + 1 * e.val = E.val; rw [e0, hE]; omega
  | ⟨1, _⟩ => show win2_1.index t (1 : Fin 2) * 128 + 1 * q.val = q.val; rw [e1]; omega

/-- The term of global edge s in destination row R's sum at column q. -/
def edgeTerm2 (c : Dev nD) (R : Nat) (q : Fin 128) (s : Fin (391 * 2048)) : EReal :=
  (if BitVec.ofNat 32 R = (V c main_v3 : Vec Ideal S800768 .i32) (ix1 s) then (1 : EReal) else 0) * (V c main_v5 : Vec Ideal S800768x128 .bf16) (ix2 s q)

/-- The same over the naturals, zero past the arrays' end: the summand the running total is stated over. -/
def term2 (c : Dev nD) (R : Nat) (q : Fin 128) : ℕ → EReal :=
  fun s => if h : s < 391 * 2048 then edgeTerm2 V c R q ⟨s, h⟩ else 0

/-- One chunk's sum at point t, over the point's blocks, is the sum of the terms of the chunk's global edges. -/
theorem chunk2_sum (c : Dev nD) (t : Fin cfg2.N) (d : Fin 1024) (q : Fin 128) :
    (∑ e : Fin 2048, (if BitVec.ofNat 32 (((grid2.coords t) 0).val * 1024 + d.val) = (iblk2 V c 0 t : Vec Ideal S2048 .i32) (ix1 e) then (1 : EReal) else 0) * (iblk2 V c 1 t : Vec Ideal S2048x128 .bf16) (ix2 e q))
      = ∑ k : Fin 2048, term2 V c (t.val / 391 * 1024 + d.val) q (t.val % 391 * 2048 + k.val) := by
  obtain ⟨g0, -⟩ := idx_facts2 t
  refine Finset.sum_congr rfl fun e _ => ?_
  have hlt : t.val % 391 * 2048 + e.val < 391 * 2048 := by
    have := e.isLt; have := Nat.mod_lt t.val (show 0 < 391 by decide); omega
  unfold term2
  rw [dif_pos hlt]
  unfold edgeTerm2
  rw [g0, dblk2_apply V c t e ⟨t.val % 391 * 2048 + e.val, hlt⟩ (by show t.val % 391 * 2048 + e.val = _; omega),
    gblk2_apply V c t e q ⟨t.val % 391 * 2048 + e.val, hlt⟩ (by show t.val % 391 * 2048 + e.val = _; omega)]

end

/-! ## The running total, chunk by chunk -/

/-- After the first chunk: the total of its terms, added to zero. -/
theorem acc2_first (f : ℕ → EReal) :
    (0 : EReal) + (0 + ∑ k : Fin 2048, f (0 * 2048 + k.val)) = Cert.Spec.accTiles 2048 f 0 := by
  simp only [Nat.zero_mul, Nat.zero_add]
  rfl

/-- After a later chunk of the same destination tile: the total so far plus the chunk's terms (the summand given by tile index). -/
theorem acc2_step (n : ℕ) (h0 : ¬n % 391 = 0) (f : ℕ → ℕ → EReal) :
    Cert.Spec.accTiles 2048 (f ((n - 1) / 391)) ((n - 1) % 391) + (0 + ∑ k : Fin 2048, f (n / 391) (n % 391 * 2048 + k.val))
      = Cert.Spec.accTiles 2048 (f (n / 391)) (n % 391) := by
  have e1 : (n - 1) / 391 = n / 391 := by omega
  obtain ⟨m, hm⟩ : ∃ m, n % 391 = m + 1 := ⟨n % 391 - 1, by omega⟩
  have e2 : (n - 1) % 391 = m := by omega
  rw [e1, e2, hm]
  rfl

section
variable (V : (c : Dev nD) → (b : Ref sig .tc) → Buf (Elt Ideal) ((c : Thread nD τ).loc b))

/-- The accumulate payload of point t's blocks over an accumulator, at (d, q): the accumulator there plus the terms
    of the chunk's edges in the sum of destination row 1024 (t / 391) + d. -/
theorem pay2_2_blocks (c : Dev nD) (t : Fin cfg2.N) (acc : Vec Ideal S1024x128 .f32) (d : Fin 1024) (q : Fin 128) :
    k2_pay2 (F := Ideal) (grid2.coords t) (iblk2 V c 0 t) (iblk2 V c 1 t) acc (ix2 d q)
      = acc (ix2 d q) + (0 + ∑ k : Fin 2048, term2 V c (t.val / 391 * 1024 + d.val) q (t.val % 391 * 2048 + k.val)) :=
  (pay2_2_apply (grid2.coords t) (iblk2 V c 0 t) (iblk2 V c 1 t) acc d q).trans
    (congrArg (fun z => acc (ix2 d q) + (0 + z)) (chunk2_sum V c t d q))

/-- The second product of the arrays as the region finds them. -/
abbrev G2 (c : Dev nD) : S50176x128.Idx → EReal :=
  Cert.Spec.unc2 (Cert.Spec.sca (Cert.Spec.cur1 (V c main_v3 : S800768.Idx → BitVec 32)) (Cert.Spec.cur2 (V c main_v5 : S800768x128.Idx → EReal)))

/-- The sum of all the edges' terms for destination row R at column q is the second product at (R, q). -/
theorem sum2_eq_sca (c : Dev nD) (R : Nat) (q : Fin 128) (i : S50176x128.Idx) (hi0 : (i 0).val = R) (hi1 : (i 1).val = q.val) :
    ∑ s : Fin (391 * 2048), edgeTerm2 V c R q s = G2 V c i := by
  obtain ⟨R', Q, rfl⟩ : ∃ (R' : Fin 50176) (Q : Fin 128), i = ix2 R' Q := ⟨i 0, i 1, eq_ix2 i⟩
  obtain rfl : Q = q := Fin.ext hi1
  subst hi0
  rfl

/-- An index of the array is in point t's block iff each coordinate is in the block's range on its axis. -/
theorem mem_blk2 (t : Fin cfg2.N) (i : S50176x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v6).slice (win2_2.rect t)).set ↔ _
  rw [View.set_slice_whole, Rect.mem_set_unit]
  exact Iff.rfl

/-- Row R of the array is in the block written back at the last edge chunk of destination tile R / 1024. -/
theorem cover2 (i : S50176x128.Idx) : ∃ t : Fin cfg2.N, (cfg2.win 2).flush t = true ∧ i ∈ ((cfg2.win 2).blk t).view.set := by
  have hi0 : (i 0).val < 50176 := (i 0).isLt
  have hi1 : (i 1).val < 128 := (i 1).isLt
  have hN : cfg2.N = 19159 := N_2
  have hlt : (i 0).val / 1024 * 391 + 390 < cfg2.N := by rw [hN]; omega
  refine ⟨⟨(i 0).val / 1024 * 391 + 390, hlt⟩, (flushAt2_2 _).mpr (by show ((i 0).val / 1024 * 391 + 390) % 391 = 390; omega), ?_⟩
  obtain ⟨-, -, -, -, -, e0, e1⟩ := idx_facts2 ⟨(i 0).val / 1024 * 391 + 390, hlt⟩
  rw [mem_blk2]
  intro a
  match a with
  | ⟨0, _⟩ => show win2_2.index _ (0 : Fin 2) * 1024 ≤ (i 0).val ∧ (i 0).val < win2_2.index _ (0 : Fin 2) * 1024 + 1024; rw [e0]; show ((i 0).val / 1024 * 391 + 390) / 391 * 1024 ≤ (i 0).val ∧ (i 0).val < ((i 0).val / 1024 * 391 + 390) / 391 * 1024 + 1024; omega
  | ⟨1, _⟩ => show win2_2.index _ (1 : Fin 2) * 128 ≤ (i 1).val ∧ (i 1).val < win2_2.index _ (1 : Fin 2) * 128 + 128; rw [e1]; omega

end

/-! ## The invariant: the accumulator after every point -/

section
variable (V : (c : Dev nD) → (b : Ref sig .tc) → Buf (Elt Ideal) ((c : Thread nD τ).loc b))

/-- At a first edge chunk the accumulator holds the first chunk's total of the tile's rows. -/
theorem acc2_at_A (c : Dev nD) (t : Fin cfg2.N) (h0 : t.val % 391 = 0) (h1 : ¬t.val % 391 = 390) (d : Fin 1024) (q : Fin 128) :
    (outsAt2 V c t.val t.isLt).2 (ix2 d q) = Cert.Spec.accTiles 2048 (term2 V c (t.val / 391 * 1024 + d.val) q) (t.val % 391) := by
  rw [outsAt2_A V c t h0 h1]
  dsimp only
  refine (congrFun (sout2_A_0_eq (F := Ideal) c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) (ix2 d q)).trans ?_
  refine (pay2_2_blocks V c t (k2_pay1 (F := Ideal)) d q).trans ?_
  rw [zpay2_apply, h0]
  exact acc2_first (term2 V c (t.val / 391 * 1024 + d.val) q)

/-- At a middle edge chunk: the total so far plus this chunk's. -/
theorem acc2_at_B (c : Dev nD) (t : Fin cfg2.N) (h0 : ¬t.val % 391 = 0) (h1 : ¬t.val % 391 = 390) (d : Fin 1024) (q : Fin 128)
    (ih : (outsAt2 V c (t.val - 1) (Nat.lt_of_le_of_lt (Nat.sub_le _ _) t.isLt)).2 (ix2 d q) = Cert.Spec.accTiles 2048 (term2 V c ((t.val - 1) / 391 * 1024 + d.val) q) ((t.val - 1) % 391)) :
    (outsAt2 V c t.val t.isLt).2 (ix2 d q) = Cert.Spec.accTiles 2048 (term2 V c (t.val / 391 * 1024 + d.val) q) (t.val % 391) := by
  rw [outsAt2_B V c t h0 h1]
  dsimp only
  refine (congrFun (sout2_B_0_eq (F := Ideal) c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) (ix2 d q)).trans ?_
  refine (pay2_2_blocks V c t (outsAt2 V c (t.val - 1) (Nat.lt_of_le_of_lt (Nat.sub_le _ _) t.isLt)).2 d q).trans ?_
  rw [ih]
  exact acc2_step t.val h0 (fun tile => term2 V c (tile * 1024 + d.val) q)

/-- At a last edge chunk: the same, in the accumulator … -/
theorem acc2_at_C (c : Dev nD) (t : Fin cfg2.N) (h0 : ¬t.val % 391 = 0) (h1 : t.val % 391 = 390) (d : Fin 1024) (q : Fin 128)
    (ih : (outsAt2 V c (t.val - 1) (Nat.lt_of_le_of_lt (Nat.sub_le _ _) t.isLt)).2 (ix2 d q) = Cert.Spec.accTiles 2048 (term2 V c ((t.val - 1) / 391 * 1024 + d.val) q) ((t.val - 1) % 391)) :
    (outsAt2 V c t.val t.isLt).2 (ix2 d q) = Cert.Spec.accTiles 2048 (term2 V c (t.val / 391 * 1024 + d.val) q) (t.val % 391) := by
  rw [outsAt2_C V c t h0 h1]
  dsimp only
  refine (congrFun (sout2_C_0_eq (F := Ideal) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) (ix2 d q)).trans ?_
  refine (pay2_2_blocks V c t (outsAt2 V c (t.val - 1) (Nat.lt_of_le_of_lt (Nat.sub_le _ _) t.isLt)).2 d q).trans ?_
  rw [ih]
  exact acc2_step t.val h0 (fun tile => term2 V c (tile * 1024 + d.val) q)

/-- … and in the output block. -/
theorem out2_at_C (c : Dev nD) (t : Fin cfg2.N) (h0 : ¬t.val % 391 = 0) (h1 : t.val % 391 = 390) (d : Fin 1024) (q : Fin 128)
    (ih : (outsAt2 V c (t.val - 1) (Nat.lt_of_le_of_lt (Nat.sub_le _ _) t.isLt)).2 (ix2 d q) = Cert.Spec.accTiles 2048 (term2 V c ((t.val - 1) / 391 * 1024 + d.val) q) ((t.val - 1) % 391)) :
    (outsAt2 V c t.val t.isLt).1 (ix2 d q) = Cert.Spec.accTiles 2048 (term2 V c (t.val / 391 * 1024 + d.val) q) (t.val % 391) := by
  rw [outsAt2_C V c t h0 h1]
  dsimp only
  refine (congrFun (out2_C_2_eq (F := Ideal) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) (ix2 d q)).trans ?_
  refine (pay2_2_blocks V c t (outsAt2 V c (t.val - 1) (Nat.lt_of_le_of_lt (Nat.sub_le _ _) t.isLt)).2 d q).trans ?_
  rw [ih]
  exact acc2_step t.val h0 (fun tile => term2 V c (tile * 1024 + d.val) q)

/-- THE INVARIANT: after point n the accumulator holds, at (d, q), the running total over the edge chunks 0 … n % 391 of
    the terms of destination row 1024 (n / 391) + d. -/
theorem acc2_inv (c : Dev nD) : ∀ (n : ℕ) (hn : n < cfg2.N) (d : Fin 1024) (q : Fin 128),
    (outsAt2 V c n hn).2 (ix2 d q) = Cert.Spec.accTiles 2048 (term2 V c (n / 391 * 1024 + d.val) q) (n % 391) := by
  intro n
  induction n with
  | zero =>
    intro hn d q
    exact acc2_at_A V c ⟨0, hn⟩ (Nat.zero_mod _) (by show ¬(0 % 391 = 390); omega) d q
  | succ n ih =>
    intro hn d q
    by_cases h0 : (n + 1) % 391 = 0
    · exact acc2_at_A V c ⟨n + 1, hn⟩ h0 (by show ¬((n + 1) % 391 = 390); omega) d q
    · by_cases h1 : (n + 1) % 391 = 390
      · exact acc2_at_C V c ⟨n + 1, hn⟩ h0 h1 d q (ih (Nat.lt_of_succ_lt hn) d q)
      · exact acc2_at_B V c ⟨n + 1, hn⟩ h0 h1 d q (ih (Nat.lt_of_succ_lt hn) d q)

/-- At a last edge chunk the output block holds, at (d, q), the sum of ALL the edges' terms of destination row
    1024 (t / 391) + d. -/
theorem out2_total (c : Dev nD) (t : Fin cfg2.N) (h1 : t.val % 391 = 390) (d : Fin 1024) (q : Fin 128) :
    (outsAt2 V c t.val t.isLt).1 (ix2 d q) = ∑ s : Fin (391 * 2048), edgeTerm2 V c (t.val / 391 * 1024 + d.val) q s := by
  have h0 : ¬t.val % 391 = 0 := by omega
  refine (out2_at_C V c t h0 h1 d q (acc2_inv V c (t.val - 1) (Nat.lt_of_le_of_lt (Nat.sub_le _ _) t.isLt) d q)).trans ?_
  rw [h1]
  exact Cert.Spec.accTiles_flat 391 2048 (by decide) (edgeTerm2 V c (t.val / 391 * 1024 + d.val) q)

/-! ## From the blocks to the array -/

/-- At a last edge chunk the output block, at a block index, is the second product at the array index 1024 (t / 391)
    rows further down. -/
theorem out2_eq_sca (c : Dev nD) (t : Fin cfg2.N) (h1 : t.val % 391 = 390) (j : S1024x128.Idx) (i : S50176x128.Idx)
    (hi0 : (i 0).val = t.val / 391 * 1024 + (j 0).val) (hi1 : (i 1).val = (j 1).val) :
    (outsAt2 V c t.val t.isLt).1 j = G2 V c i := by
  obtain ⟨d, q, rfl⟩ : ∃ (d : Fin 1024) (q : Fin 128), j = ix2 d q := ⟨j 0, j 1, eq_ix2 j⟩
  exact (out2_total V c t h1 d q).trans (sum2_eq_sca V c (t.val / 391 * 1024 + d.val) q i hi0 hi1)

/-- A block X whose every entry is the entry of Gf 1024 (t / 391) rows further down is, cut to what point t writes back,
    point t's block of Gf. -/
theorem flushed2_of (t : Fin cfg2.N) (X : Vec Ideal S1024x128 .f32) (Gf : S50176x128.Idx → EReal)
    (h : ∀ (j : S1024x128.Idx) (i : S50176x128.Idx), (i 0).val = t.val / 391 * 1024 + (j 0).val → (i 1).val = (j 1).val → X j = Gf i) :
    (cfg2.win 2).cut (grid2.coords t) X = ((cfg2.win 2).blk t).view.read (Elt Ideal) Gf := by
  obtain ⟨-, -, -, -, -, e0, e1⟩ := idx_facts2 t
  funext j
  rw [View.read_apply]
  refine h j (((cfg2.win 2).blk t).view.emb j) ?_ ?_
  · show win2_2.index t (0 : Fin 2) * 1024 + 1 * (j 0).val = t.val / 391 * 1024 + (j 0).val; rw [e0]; omega
  · show win2_2.index t (1 : Fin 2) * 128 + 1 * (j 1).val = (j 1).val; rw [e1]; omega

/-- What a flushing point writes back is its block of the second product of the arrays. -/
theorem flushed2_eq (c : Dev nD) (t : Fin cfg2.N) (hf : (cfg2.win 2).flush t = true) :
    (dat2 (F := Ideal) V c).flushed 2 t = ((cfg2.win 2).blk t).view.read (Elt Ideal) (G2 V c) := by
  have h1 : t.val % 391 = 390 := (flushAt2_2 t).mp hf
  show (cfg2.win 2).cut (grid2.coords t) ((dat2 (F := Ideal) V c).after 2 t) = _
  rw [after2_2]
  exact flushed2_of t (outsAt2 V c t.val t.isLt).1 (G2 V c) (out2_eq_sca V c t h1)

/-- The output array after the run is the second product (the one-hot sum over all the edges, per destination row) of
    the destination words and the rows as the region finds them. -/
theorem sca_val2 (c : Dev nD) :
    ((dat2 (F := Ideal) V c).arrAt 2 cfg2.N : S50176x128.Idx → EReal)
      = Cert.Spec.unc2 (Cert.Spec.sca (Cert.Spec.cur1 (V c main_v3 : S800768.Idx → BitVec 32)) (Cert.Spec.cur2 (V c main_v5 : S800768x128.Idx → EReal))) :=
  (dat2 (F := Ideal) V c).arrAt_eq_of_cover 2 (G2 V c) (fun t hf => flushed2_eq V c t hf) cover2

end

end Cert.KernelIdeal.H

end
-- ==== Proof.KI.SV8a.lean ====
/-
  A scatter launch (the second one-hot product of a relation), at the ideal values: the arithmetic of one grid point.
  The body compares, for row d of the destination tile and edge e of the chunk, the word of the row (tile index times
  1024 plus d) with the destination word of the edge; the comparison, widened and converted, is 1 where they agree and
  0 elsewhere; the matrix of these is multiplied with the chunk's rows and the product is added to the accumulator.  So
  at (d, q) the accumulate payload is the accumulator there plus the sum over the chunk's edges e of
  (1 if dst e is the row's word, else 0) · g (e, q); the zero fill is 0 everywhere.
  Then where a point's blocks sit in the arrays: point t is (destination tile t / 196, edge chunk t % 196), the chunk's
  edges are the global edges 2048 (t % 196) … and the tile's rows the global rows 1024 (t / 196) ….
-/
import proofs.«407232_j23192823399226_1_alg».proof.Proof.KI.S8Runs
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The one-hot operand at an index -/

/-- The word of the destination row: tile index times 1024 plus the row inside the tile, as one word. -/
theorem rowWord8 (a d : Nat) : BitVec.ofNat 32 a * 1024#32 + BitVec.ofNat 32 d = BitVec.ofNat 32 (a * 1024 + d) := by
  rw [BitVec.ofNat_add, BitVec.ofNat_mul]

/-- The rows' words, broadcast along the edges, at (d, e): the tile's base word plus d. -/
theorem rows8_apply (w : BitVec 32) (d : Fin 1024) (e : Fin 2048) :
    broadcastTo S1024x2048 (addi (broadcast S1024x1 w) (iota .tc S1024x1 32 [0] iota_S1024x1_d0_w32)) broadcasts_S1024x1_S1024x2048 (ix2 d e)
      = w + BitVec.ofNat 32 d.val := by
  refine (broadcastTo_apply _ broadcasts_S1024x1_S1024x2048 (ix2 d e) (ix2 d (0 : Fin 1)) (fun a => ?_)).trans ?_
  · match a with
    | ⟨0, _⟩ => show d.val = if (1024 : Nat) = 1 then 0 else d.val; rw [if_neg (by decide)]
    | ⟨1, _⟩ => show 0 = if (1 : Nat) = 1 then 0 else _; rw [if_pos rfl]
  · show IntOp.addi w (iota .tc S1024x1 32 [0] iota_S1024x1_d0_w32 (ix2 d (0 : Fin 1))) = _
    rw [iota_single_apply]; rfl

/-- The edges' destination words, broadcast down the rows, at (d, e): the word of edge e. -/
theorem cols8_apply (x0 : IVec S2048 32) (d : Fin 1024) (e : Fin 2048) :
    broadcastTo S1024x2048 (shapeCast S1x2048 (shapeCast S2048 x0 shapeCasts_S2048_S2048) shapeCasts_S2048_S1x2048) broadcasts_S1x2048_S1024x2048 (ix2 d e) = x0 (ix1 e) := by
  refine (broadcastTo_apply _ broadcasts_S1x2048_S1024x2048 (ix2 d e) (ix2 (0 : Fin 1) e) (fun a => ?_)).trans ?_
  · match a with
    | ⟨0, _⟩ => show 0 = if (1 : Nat) = 1 then 0 else _; rw [if_pos rfl]
    | ⟨1, _⟩ => show e.val = if (2048 : Nat) = 1 then 0 else e.val; rw [if_neg (by decide)]
  · refine (shapeCast_addUnit_apply ![2048] _ shapeCasts_S2048_S1x2048 (ix2 (0 : Fin 1) e)).trans ?_
    rw [shapeCast_self]
    exact congrArg x0 (funext fun a => by match a with | ⟨0, _⟩ => rfl)

/-- A compared pair of words, widened and converted, is 1 where they are equal and 0 elsewhere. -/
theorem onehot8_word (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℝ)) : EReal) = 1
    rw [beq_self_eq_true]
    show ((((1#32 : BitVec 32).toInt : ℝ)) : EReal) = 1
    rw [show (1#32 : BitVec 32).toInt = 1 from by decide]
    simp
  · rw [if_neg h]
    show (((((BitVec.ofBool (a == b)).setWidth 32).toInt : ℝ)) : EReal) = 0
    rw [show (a == b) = false from by simpa using h]
    show ((((0#32 : BitVec 32).toInt : ℝ)) : EReal) = 0
    rw [show (0#32 : BitVec 32).toInt = 0 from by decide]
    simp

/-! ## The product at an index -/

theorem lhsA_pay8 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsB_pay8 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsA_pay8 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsB_pay8 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product into a zero accumulator, at row d and column q: the sum over the edges e of x (d, e) · y (e, q). -/
theorem matmul8_apply (x : FVec Ideal S1024x2048 .bf16) (y : FVec Ideal S2048x128 .bf16) (d : Fin 1024) (q : Fin 128) :
    matmul dot_S1024x2048_S2048x128_S1024x128_1_0_0_1_n_n none x y (constant (F := Ideal) S1024x128 .f32 0x00000000#32) (ix2 d q)
      = ∑ e : Fin 2048, x (ix2 d e) * y (ix2 e q) := by
  refine (Ideal.matmul_constant_zero_apply dot_S1024x2048_S2048x128_S1024x128_1_0_0_1_n_n none x y (ix2 d q)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 d q) ((contrEquiv1 dot_S1024x2048_S2048x128_S1024x128_1_0_0_1_n_n 2048 rfl rfl).symm k) = ix2 d k := funext fun a => Fin.ext (by
    match a with
    | ⟨0, _⟩ => exact lhsA_pay8 _ _
    | ⟨1, _⟩ => exact (lhsB_pay8 _ _).trans hk)
  have er : dot_S1024x2048_S2048x128_S1024x128_1_0_0_1_n_n.rhsIdx (ix2 d q) ((contrEquiv1 dot_S1024x2048_S2048x128_S1024x128_1_0_0_1_n_n 2048 rfl rfl).symm k) = ix2 k q := funext fun a => Fin.ext (by
    match a with
    | ⟨0, _⟩ => exact (rhsA_pay8 _ _).trans hk
    | ⟨1, _⟩ => exact rhsB_pay8 _ _)
  rw [el, er]

/-! ## The two payloads at an index -/

/-- The zero fill, at any index. -/
theorem zpay8_apply (j : S1024x128.Idx) : k8_pay1 (F := Ideal) j = 0 := by
  unfold k8_pay1
  (try dsimp only)
  rw [shapeCast_self]
  exact Ideal.ofBits_zero_f32

/-- The accumulate, at row d and column q of the tile: the accumulator there plus the sum, over the chunk's edges e, of
    (1 if the edge's destination word is the row's word, else 0) · g (e, q). -/
theorem pay2_8_apply (i : grid8.Coords) (x0 : Vec Ideal S2048 .i32) (x1 : Vec Ideal S2048x128 .bf16) (acc : Vec Ideal S1024x128 .f32)
    (d : Fin 1024) (q : Fin 128) :
    k8_pay2 (F := Ideal) i x0 x1 acc (ix2 d q)
      = acc (ix2 d q) + (0 + ∑ e : Fin 2048, (if BitVec.ofNat 32 ((i 0).val * 1024 + d.val) = x0 (ix1 e) then (1 : EReal) else 0) * x1 (ix2 e q)) := by
  unfold k8_pay2
  (try dsimp only)
  rw [shapeCast_self]
  refine (addf_apply _ _ (ix2 d q)).trans ?_
  refine congrArg (acc (ix2 d q) + ·) ?_
  refine (matmul8_apply _ _ d q).trans ?_
  rw [zero_add]
  refine Finset.sum_congr rfl fun e _ => ?_
  refine congrArg₂ (· * ·) ?_ ?_
  · refine (onehot8_word _ _).trans ?_
    rw [rows8_apply, cols8_apply]
    show (if Scalar.muli (BitVec.ofNat 32 (i 0).val) 1024#32 + BitVec.ofNat 32 d.val = x0 (ix1 e) then (1 : EReal) else 0) = _
    rw [show Scalar.muli (BitVec.ofNat 32 (i 0).val) 1024#32 = BitVec.ofNat 32 (i 0).val * 1024#32 from rfl, rowWord8]
  · rw [shapeCast_self]

end Cert.KernelIdeal.H

end
-- ==== Proof.KI.SV8b.lean ====
/-
  A scatter launch (the second one-hot product of a relation): its input windows' index maps in closed form.
  Point t is (destination tile t / 196, edge chunk t % 196); the blocks of the destination words and of the rows sit at
  the edge chunk (the index maps return the second grid coordinate, as a 32-bit word read back as a natural: no wrap,
  the coordinate being below 196), the output block at the destination tile.
-/
import proofs.«407232_j23192823399226_1_alg».proof.Proof.KI.S8Runs
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The input windows' block indices at a point: the edge chunk t % 196 (and column block 0). -/
theorem iidx8 (t : Fin cfg8.N) : win8_0.index t (0 : Fin 1) = t.val % 196
    ∧ win8_1.index t (0 : Fin 2) = t.val % 196 ∧ win8_1.index t (1 : Fin 2) = 0 := by
  have c1 := coords8_1 t
  refine ⟨?_, ?_, rfl⟩
  · show (BitVec.ofNat 32 ((grid8.coords t) 1).val).toNat = _
    rw [BitVec.toNat_ofNat, c1]; omega
  · show (BitVec.ofNat 32 ((grid8.coords t) 1).val).toNat = _
    rw [BitVec.toNat_ofNat, c1]; omega

/-- The grid coordinates and the three windows' block indices at a point, together. -/
theorem idx_facts8 (t : Fin cfg8.N) : ((grid8.coords t) 0).val = t.val / 196 ∧ ((grid8.coords t) 1).val = t.val % 196
    ∧ win8_0.index t (0 : Fin 1) = t.val % 196
    ∧ win8_1.index t (0 : Fin 2) = t.val % 196 ∧ win8_1.index t (1 : Fin 2) = 0
    ∧ win8_2.index t (0 : Fin 2) = t.val / 196 ∧ win8_2.index t (1 : Fin 2) = 0 :=
  ⟨coords8_0 t, coords8_1 t, (iidx8 t).1, (iidx8 t).2.1, (iidx8 t).2.2, (oidx8 t).1, (oidx8 t).2⟩

end Cert.KernelIdeal.H

end
-- ==== Proof.KI.SV8.lean ====
/-
  A scatter launch (the second one-hot product of a relation), at the ideal values: what its output array holds after
  the run.  A grid point is (destination tile, edge chunk).  Within a tile the accumulator after edge chunk n holds, at
  row d and column q, the running total over the chunks 0 … n of the terms (1 if dst e is the word of row
  1024·tile + d, else 0) · g (e, q) of the chunks' edges e: the first chunk's payload is its total added to the zero
  fill, each later chunk's adds its total to what the accumulator held.  At the last chunk the total is over all
  401408 edges, the output block is stored from it, and the 4 blocks written back cover the 4096 rows.  So the array
  ends holding, at (R, q), the sum over all edges e of (1 if dst e is the word of R, else 0) · g (e, q).
-/
import proofs.«407232_j23192823399226_1_alg».proof.Proof.KI.S8
import proofs.«407232_j23192823399226_1_alg».proof.Proof.KI.SV8a
import proofs.«407232_j23192823399226_1_alg».proof.Proof.KI.SV8b
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What each case leaves: the pieces the runs found, read back -/

theorem hz8 : (![0, 0] : Fin 2 → Nat) = fun _ => 0 := funext fun a => by fin_cases a <;> rfl
theorem hzv8 : (![0] : Fin 1 → Nat) = fun _ => 0 := funext fun a => by fin_cases a; rfl

/-- At a first edge chunk the accumulator ends at the accumulate payload of the point's blocks over the zero fill:
    the fill's store is covered by the accumulate's, which read the fill back. -/
theorem sout8_A_0_eq (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond8_0 i) (hc1 : ¬cond8_1 i)
    (x0 : Vec F S2048 .i32) (x1 : Vec F S2048x128 .bf16) :
    sout8_A_0 c i arg2 harg2 arg3 harg3 arg4 harg4 arg5 harg5 hc0 hc1 x0 x1 = k8_pay2 i x0 x1 (k8_pay1 (F := F)) := by
  unfold sout8_A_0
  rw [View.read_writes_eq_canon _ _ _ (scover8_A_0 c i arg2 harg2 arg3 harg3 arg4 harg4 arg5 harg5 hc0 hc1 x0 x1)]
  unfold kernelRun8_A
  dsimp only
  sl_unfold_words
  rw [View.canon_cons_unit_zero (S := S1024x128) hz8]
  simp only [View.readAt_eq_ld, harg2.read_unread, harg3.read_unread, View.readCov_unit_zero (S := S1024x128) _ hz8,
    View.ld_unit_zero (S := S2048) hzv8, View.ld_unit_zero (S := S2048x128) hz8]

/-- At a middle edge chunk the accumulator ends at the accumulate payload of the point's blocks over what it held. -/
theorem sout8_B_0_eq (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : ¬cond8_1 i)
    (x0 : Vec F S2048 .i32) (x1 : Vec F S2048x128 .bf16) (xs0 : Vec F S1024x128 .f32) :
    sout8_B_0 c i arg2 harg2 arg3 harg3 arg4 harg4 arg5 harg5 hc0 hc1 x0 x1 xs0 = k8_pay2 i x0 x1 xs0 := by
  unfold sout8_B_0
  rw [View.read_writes_eq_canon _ _ _ (scover8_B_0 c i arg2 harg2 arg3 harg3 arg4 harg4 arg5 harg5 hc0 hc1 x0 x1 xs0)]
  unfold kernelRun8_B
  dsimp only
  sl_unfold_words
  rw [View.canon_unit_zero hz8]
  simp only [View.readAt_eq_ld, harg2.read_unread, harg3.read_unread, harg5.read_unread,
    View.ld_unit_zero (S := S2048) hzv8, View.ld_unit_zero (S := S2048x128) hz8, View.ld_unit_zero (S := S1024x128) hz8]

/-- At a last edge chunk the accumulator ends at the accumulate payload of the point's blocks over what it held … -/
theorem sout8_C_0_eq (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) :
    sout8_C_0 c i arg2 harg2 arg3 harg3 arg4 harg4 arg5 harg5 hc0 hc1 x0 x1 xs0 = k8_pay2 i x0 x1 xs0 := by
  unfold sout8_C_0
  rw [View.read_writes_eq_canon _ _ _ (scover8_C_0 c i arg2 harg2 arg3 harg3 arg4 harg4 arg5 harg5 hc0 hc1 x0 x1 xs0)]
  unfold kernelRun8_C
  dsimp only
  sl_unfold_words
  rw [View.canon_unit_zero hz8]
  simp only [View.readAt_eq_ld, harg2.read_unread, harg3.read_unread, harg5.read_unread,
    View.ld_unit_zero (S := S2048) hzv8, View.ld_unit_zero (S := S2048x128) hz8, View.ld_unit_zero (S := S1024x128) hz8]

/-- … and the output block at the same: the accumulator just written, loaded back and stored. -/
theorem out8_C_2_eq (c : Dev nD) (i : grid8.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond8_0 i) (hc1 : cond8_1 i)
    (x0 : Vec F S2048 .i32) (x1 : Vec F S2048x128 .bf16) (xs0 : Vec F S1024x128 .f32) :
    out8_C_2 c i arg2 harg2 arg3 harg3 arg4 harg4 arg5 harg5 hc0 hc1 x0 x1 xs0 = k8_pay2 i x0 x1 xs0 := by
  unfold out8_C_2
  rw [View.read_writes_eq_canon _ _ _ (cover8_C_2 c i arg2 harg2 arg3 harg3 arg4 harg4 arg5 harg5 hc0 hc1 x0 x1 xs0)]
  unfold kernelRun8_C
  dsimp only
  sl_unfold_words
  rw [View.canon_unit_zero hz8]
  simp only [View.readAt_eq_ld, harg2.read_unread, harg3.read_unread, harg5.read_unread, View.readCov_unit_zero (S := S1024x128) _ hz8,
    View.ld_unit_zero (S := S2048) hzv8, View.ld_unit_zero (S := S2048x128) hz8, View.ld_unit_zero (S := S1024x128) hz8]

/-! ## Where a point's blocks sit in the arrays -/

section
variable (V : (c : Dev nD) → (b : Ref sig .tc) → Buf (Elt Ideal) ((c : Thread nD τ).loc b))

/-- The destination words of the chunk at point t are those of the global edges 2048 (t % 196) …. -/
theorem dblk8_apply (c : Dev nD) (t : Fin cfg8.N) (e : Fin 2048) (E : Fin 401408) (hE : E.val = 2048 * (t.val % 196) + e.val) :
    (iblk8 V c 0 t : Vec Ideal S2048 .i32) (ix1 e) = (V c main_v24 : Vec Ideal S401408 .i32) (ix1 E) := by
  obtain ⟨-, -, e0, -⟩ := idx_facts8 t
  unfold iblk8
  rw [View.read_apply]
  show V c main_v24 _ = V c main_v24 _
  congr 1
  funext a
  apply Fin.ext
  match a with
  | ⟨0, _⟩ => show win8_0.index t (0 : Fin 1) * 2048 + 1 * e.val = E.val; rw [e0, hE]; omega

/-- The rows of the chunk at point t are the rows of the global edges 2048 (t % 196) …. -/
theorem gblk8_apply (c : Dev nD) (t : Fin cfg8.N) (e : Fin 2048) (q : Fin 128) (E : Fin 401408) (hE : E.val = 2048 * (t.val % 196) + e.val) :
    (iblk8 V c 1 t : Vec Ideal S2048x128 .bf16) (ix2 e q) = (V c main_v26 : Vec Ideal S401408x128 .bf16) (ix2 E q) := by
  obtain ⟨-, -, -, e0, e1, -⟩ := idx_facts8 t
  unfold iblk8
  rw [View.read_apply]
  show V c main_v26 _ = V c main_v26 _
  congr 1
  funext a
  apply Fin.ext
  match a with
  | ⟨0, _⟩ => show win8_1.index t (0 : Fin 2) * 2048 + 1 * e.val = E.val; rw [e0, hE]; omega
  | ⟨1, _⟩ => show win8_1.index t (1 : Fin 2) * 128 + 1 * q.val = q.val; rw [e1]; omega

/-- The term of global edge s in destination row R's sum at column q. -/
def edgeTerm8 (c : Dev nD) (R : Nat) (q : Fin 128) (s : Fin (196 * 2048)) : EReal :=
  (if BitVec.ofNat 32 R = (V c main_v24 : Vec Ideal S401408 .i32) (ix1 s) then (1 : EReal) else 0) * (V c main_v26 : Vec Ideal S401408x128 .bf16) (ix2 s q)

/-- The same over the naturals, zero past the arrays' end: the summand the running total is stated over. -/
def term8 (c : Dev nD) (R : Nat) (q : Fin 128) : ℕ → EReal :=
  fun s => if h : s < 196 * 2048 then edgeTerm8 V c R q ⟨s, h⟩ else 0

/-- One chunk's sum at point t, over the point's blocks, is the sum of the terms of the chunk's global edges. -/
theorem chunk8_sum (c : Dev nD) (t : Fin cfg8.N) (d : Fin 1024) (q : Fin 128) :
    (∑ e : Fin 2048, (if BitVec.ofNat 32 (((grid8.coords t) 0).val * 1024 + d.val) = (iblk8 V c 0 t : Vec Ideal S2048 .i32) (ix1 e) then (1 : EReal) else 0) * (iblk8 V c 1 t : Vec Ideal S2048x128 .bf16) (ix2 e q))
      = ∑ k : Fin 2048, term8 V c (t.val / 196 * 1024 + d.val) q (t.val % 196 * 2048 + k.val) := by
  obtain ⟨g0, -⟩ := idx_facts8 t
  refine Finset.sum_congr rfl fun e _ => ?_
  have hlt : t.val % 196 * 2048 + e.val < 196 * 2048 := by
    have := e.isLt; have := Nat.mod_lt t.val (show 0 < 196 by decide); omega
  unfold term8
  rw [dif_pos hlt]
  unfold edgeTerm8
  rw [g0, dblk8_apply V c t e ⟨t.val % 196 * 2048 + e.val, hlt⟩ (by show t.val % 196 * 2048 + e.val = _; omega),
    gblk8_apply V c t e q ⟨t.val % 196 * 2048 + e.val, hlt⟩ (by show t.val % 196 * 2048 + e.val = _; omega)]

end

/-! ## The running total, chunk by chunk -/

/-- After the first chunk: the total of its terms, added to zero. -/
theorem acc8_first (f : ℕ → EReal) :
    (0 : EReal) + (0 + ∑ k : Fin 2048, f (0 * 2048 + k.val)) = Cert.Spec.accTiles 2048 f 0 := by
  simp only [Nat.zero_mul, Nat.zero_add]
  rfl

/-- After a later chunk of the same destination tile: the total so far plus the chunk's terms (the summand given by tile index). -/
theorem acc8_step (n : ℕ) (h0 : ¬n % 196 = 0) (f : ℕ → ℕ → EReal) :
    Cert.Spec.accTiles 2048 (f ((n - 1) / 196)) ((n - 1) % 196) + (0 + ∑ k : Fin 2048, f (n / 196) (n % 196 * 2048 + k.val))
      = Cert.Spec.accTiles 2048 (f (n / 196)) (n % 196) := by
  have e1 : (n - 1) / 196 = n / 196 := by omega
  obtain ⟨m, hm⟩ : ∃ m, n % 196 = m + 1 := ⟨n % 196 - 1, by omega⟩
  have e2 : (n - 1) % 196 = m := by omega
  rw [e1, e2, hm]
  rfl

section
variable (V : (c : Dev nD) → (b : Ref sig .tc) → Buf (Elt Ideal) ((c : Thread nD τ).loc b))

/-- The accumulate payload of point t's blocks over an accumulator, at (d, q): the accumulator there plus the terms
    of the chunk's edges in the sum of destination row 1024 (t / 196) + d. -/
theorem pay2_8_blocks (c : Dev nD) (t : Fin cfg8.N) (acc : Vec Ideal S1024x128 .f32) (d : Fin 1024) (q : Fin 128) :
    k8_pay2 (F := Ideal) (grid8.coords t) (iblk8 V c 0 t) (iblk8 V c 1 t) acc (ix2 d q)
      = acc (ix2 d q) + (0 + ∑ k : Fin 2048, term8 V c (t.val / 196 * 1024 + d.val) q (t.val % 196 * 2048 + k.val)) :=
  (pay2_8_apply (grid8.coords t) (iblk8 V c 0 t) (iblk8 V c 1 t) acc d q).trans
    (congrArg (fun z => acc (ix2 d q) + (0 + z)) (chunk8_sum V c t d q))

/-- The second product of the arrays as the region finds them. -/
abbrev G8 (c : Dev nD) : S4096x128.Idx → EReal :=
  Cert.Spec.unc2 (Cert.Spec.sca (Cert.Spec.cur1 (V c main_v24 : S401408.Idx → BitVec 32)) (Cert.Spec.cur2 (V c main_v26 : S401408x128.Idx → EReal)))

/-- The sum of all the edges' terms for destination row R at column q is the second product at (R, q). -/
theorem sum8_eq_sca (c : Dev nD) (R : Nat) (q : Fin 128) (i : S4096x128.Idx) (hi0 : (i 0).val = R) (hi1 : (i 1).val = q.val) :
    ∑ s : Fin (196 * 2048), edgeTerm8 V c R q s = G8 V c i := by
  obtain ⟨R', Q, rfl⟩ : ∃ (R' : Fin 4096) (Q : Fin 128), i = ix2 R' Q := ⟨i 0, i 1, eq_ix2 i⟩
  obtain rfl : Q = q := Fin.ext hi1
  subst hi0
  rfl

/-- An index of the array is in point t's block iff each coordinate is in the block's range on its axis. -/
theorem mem_blk8 (t : Fin cfg8.N) (i : S4096x128.Idx) :
    i ∈ ((cfg8.win 2).blk t).view.set ↔ ∀ a : Fin 2, win8_2.index t a * S1024x128.size a ≤ (i a).val ∧ (i a).val < win8_2.index t a * S1024x128.size a + S1024x128.size a := by
  show i ∈ ((View.whole main_v27).slice (win8_2.rect t)).set ↔ _
  rw [View.set_slice_whole, Rect.mem_set_unit]
  exact Iff.rfl

/-- Row R of the array is in the block written back at the last edge chunk of destination tile R / 1024. -/
theorem cover8 (i : S4096x128.Idx) : ∃ t : Fin cfg8.N, (cfg8.win 2).flush t = true ∧ i ∈ ((cfg8.win 2).blk t).view.set := by
  have hi0 : (i 0).val < 4096 := (i 0).isLt
  have hi1 : (i 1).val < 128 := (i 1).isLt
  have hN : cfg8.N = 784 := N_8
  have hlt : (i 0).val / 1024 * 196 + 195 < cfg8.N := by rw [hN]; omega
  refine ⟨⟨(i 0).val / 1024 * 196 + 195, hlt⟩, (flushAt8_2 _).mpr (by show ((i 0).val / 1024 * 196 + 195) % 196 = 195; omega), ?_⟩
  obtain ⟨-, -, -, -, -, e0, e1⟩ := idx_facts8 ⟨(i 0).val / 1024 * 196 + 195, hlt⟩
  rw [mem_blk8]
  intro a
  match a with
  | ⟨0, _⟩ => show win8_2.index _ (0 : Fin 2) * 1024 ≤ (i 0).val ∧ (i 0).val < win8_2.index _ (0 : Fin 2) * 1024 + 1024; rw [e0]; show ((i 0).val / 1024 * 196 + 195) / 196 * 1024 ≤ (i 0).val ∧ (i 0).val < ((i 0).val / 1024 * 196 + 195) / 196 * 1024 + 1024; omega
  | ⟨1, _⟩ => show win8_2.index _ (1 : Fin 2) * 128 ≤ (i 1).val ∧ (i 1).val < win8_2.index _ (1 : Fin 2) * 128 + 128; rw [e1]; omega

end

/-! ## The invariant: the accumulator after every point -/

section
variable (V : (c : Dev nD) → (b : Ref sig .tc) → Buf (Elt Ideal) ((c : Thread nD τ).loc b))

/-- At a first edge chunk the accumulator holds the first chunk's total of the tile's rows. -/
theorem acc8_at_A (c : Dev nD) (t : Fin cfg8.N) (h0 : t.val % 196 = 0) (h1 : ¬t.val % 196 = 195) (d : Fin 1024) (q : Fin 128) :
    (outsAt8 V c t.val t.isLt).2 (ix2 d q) = Cert.Spec.accTiles 2048 (term8 V c (t.val / 196 * 1024 + d.val) q) (t.val % 196) := by
  rw [outsAt8_A V c t h0 h1]
  dsimp only
  refine (congrFun (sout8_A_0_eq (F := Ideal) c (grid8.coords t) (ms8_0 t) (hs8_0 t) (ms8_1 t) (hs8_1 t) (ms8_2 t) (hs8_2 t) scM8_0 (Memref.isWhole_whole _) ((hcond8_0 t).mpr h0) (fun h => h1 ((hcond8_1 t).mp h)) (iblk8 V c 0 t) (iblk8 V c 1 t)) (ix2 d q)).trans ?_
  refine (pay2_8_blocks V c t (k8_pay1 (F := Ideal)) d q).trans ?_
  rw [zpay8_apply, h0]
  exact acc8_first (term8 V c (t.val / 196 * 1024 + d.val) q)

/-- At a middle edge chunk: the total so far plus this chunk's. -/
theorem acc8_at_B (c : Dev nD) (t : Fin cfg8.N) (h0 : ¬t.val % 196 = 0) (h1 : ¬t.val % 196 = 195) (d : Fin 1024) (q : Fin 128)
    (ih : (outsAt8 V c (t.val - 1) (Nat.lt_of_le_of_lt (Nat.sub_le _ _) t.isLt)).2 (ix2 d q) = Cert.Spec.accTiles 2048 (term8 V c ((t.val - 1) / 196 * 1024 + d.val) q) ((t.val - 1) % 196)) :
    (outsAt8 V c t.val t.isLt).2 (ix2 d q) = Cert.Spec.accTiles 2048 (term8 V c (t.val / 196 * 1024 + d.val) q) (t.val % 196) := by
  rw [outsAt8_B V c t h0 h1]
  dsimp only
  refine (congrFun (sout8_B_0_eq (F := Ideal) c (grid8.coords t) (ms8_0 t) (hs8_0 t) (ms8_1 t) (hs8_1 t) (ms8_2 t) (hs8_2 t) scM8_0 (Memref.isWhole_whole _) (fun h => h0 ((hcond8_0 t).mp h)) (fun h => h1 ((hcond8_1 t).mp h)) (iblk8 V c 0 t) (iblk8 V c 1 t) (outsAt8 V c (t.val - 1) (Nat.lt_of_le_of_lt (Nat.sub_le _ _) t.isLt)).2) (ix2 d q)).trans ?_
  refine (pay2_8_blocks V c t (outsAt8 V c (t.val - 1) (Nat.lt_of_le_of_lt (Nat.sub_le _ _) t.isLt)).2 d q).trans ?_
  rw [ih]
  exact acc8_step t.val h0 (fun tile => term8 V c (tile * 1024 + d.val) q)

/-- At a last edge chunk: the same, in the accumulator … -/
theorem acc8_at_C (c : Dev nD) (t : Fin cfg8.N) (h0 : ¬t.val % 196 = 0) (h1 : t.val % 196 = 195) (d : Fin 1024) (q : Fin 128)
    (ih : (outsAt8 V c (t.val - 1) (Nat.lt_of_le_of_lt (Nat.sub_le _ _) t.isLt)).2 (ix2 d q) = Cert.Spec.accTiles 2048 (term8 V c ((t.val - 1) / 196 * 1024 + d.val) q) ((t.val - 1) % 196)) :
    (outsAt8 V c t.val t.isLt).2 (ix2 d q) = Cert.Spec.accTiles 2048 (term8 V c (t.val / 196 * 1024 + d.val) q) (t.val % 196) := by
  rw [outsAt8_C V c t h0 h1]
  dsimp only
  refine (congrFun (sout8_C_0_eq (F := Ideal) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) (ix2 d q)).trans ?_
  refine (pay2_8_blocks V c t (outsAt8 V c (t.val - 1) (Nat.lt_of_le_of_lt (Nat.sub_le _ _) t.isLt)).2 d q).trans ?_
  rw [ih]
  exact acc8_step t.val h0 (fun tile => term8 V c (tile * 1024 + d.val) q)

/-- … and in the output block. -/
theorem out8_at_C (c : Dev nD) (t : Fin cfg8.N) (h0 : ¬t.val % 196 = 0) (h1 : t.val % 196 = 195) (d : Fin 1024) (q : Fin 128)
    (ih : (outsAt8 V c (t.val - 1) (Nat.lt_of_le_of_lt (Nat.sub_le _ _) t.isLt)).2 (ix2 d q) = Cert.Spec.accTiles 2048 (term8 V c ((t.val - 1) / 196 * 1024 + d.val) q) ((t.val - 1) % 196)) :
    (outsAt8 V c t.val t.isLt).1 (ix2 d q) = Cert.Spec.accTiles 2048 (term8 V c (t.val / 196 * 1024 + d.val) q) (t.val % 196) := by
  rw [outsAt8_C V c t h0 h1]
  dsimp only
  refine (congrFun (out8_C_2_eq (F := Ideal) c (grid8.coords t) (ms8_0 t) (hs8_0 t) (ms8_1 t) (hs8_1 t) (ms8_2 t) (hs8_2 t) scM8_0 (Memref.isWhole_whole _) (fun h => h0 ((hcond8_0 t).mp h)) ((hcond8_1 t).mpr h1) (iblk8 V c 0 t) (iblk8 V c 1 t) (outsAt8 V c (t.val - 1) (Nat.lt_of_le_of_lt (Nat.sub_le _ _) t.isLt)).2) (ix2 d q)).trans ?_
  refine (pay2_8_blocks V c t (outsAt8 V c (t.val - 1) (Nat.lt_of_le_of_lt (Nat.sub_le _ _) t.isLt)).2 d q).trans ?_
  rw [ih]
  exact acc8_step t.val h0 (fun tile => term8 V c (tile * 1024 + d.val) q)

/-- THE INVARIANT: after point n the accumulator holds, at (d, q), the running total over the edge chunks 0 … n % 196 of
    the terms of destination row 1024 (n / 196) + d. -/
theorem acc8_inv (c : Dev nD) : ∀ (n : ℕ) (hn : n < cfg8.N) (d : Fin 1024) (q : Fin 128),
    (outsAt8 V c n hn).2 (ix2 d q) = Cert.Spec.accTiles 2048 (term8 V c (n / 196 * 1024 + d.val) q) (n % 196) := by
  intro n
  induction n with
  | zero =>
    intro hn d q
    exact acc8_at_A V c ⟨0, hn⟩ (Nat.zero_mod _) (by show ¬(0 % 196 = 195); omega) d q
  | succ n ih =>
    intro hn d q
    by_cases h0 : (n + 1) % 196 = 0
    · exact acc8_at_A V c ⟨n + 1, hn⟩ h0 (by show ¬((n + 1) % 196 = 195); omega) d q
    · by_cases h1 : (n + 1) % 196 = 195
      · exact acc8_at_C V c ⟨n + 1, hn⟩ h0 h1 d q (ih (Nat.lt_of_succ_lt hn) d q)
      · exact acc8_at_B V c ⟨n + 1, hn⟩ h0 h1 d q (ih (Nat.lt_of_succ_lt hn) d q)

/-- At a last edge chunk the output block holds, at (d, q), the sum of ALL the edges' terms of destination row
    1024 (t / 196) + d. -/
theorem out8_total (c : Dev nD) (t : Fin cfg8.N) (h1 : t.val % 196 = 195) (d : Fin 1024) (q : Fin 128) :
    (outsAt8 V c t.val t.isLt).1 (ix2 d q) = ∑ s : Fin (196 * 2048), edgeTerm8 V c (t.val / 196 * 1024 + d.val) q s := by
  have h0 : ¬t.val % 196 = 0 := by omega
  refine (out8_at_C V c t h0 h1 d q (acc8_inv V c (t.val - 1) (Nat.lt_of_le_of_lt (Nat.sub_le _ _) t.isLt) d q)).trans ?_
  rw [h1]
  exact Cert.Spec.accTiles_flat 196 2048 (by decide) (edgeTerm8 V c (t.val / 196 * 1024 + d.val) q)

/-! ## From the blocks to the array -/

/-- At a last edge chunk the output block, at a block index, is the second product at the array index 1024 (t / 196)
    rows further down. -/
theorem out8_eq_sca (c : Dev nD) (t : Fin cfg8.N) (h1 : t.val % 196 = 195) (j : S1024x128.Idx) (i : S4096x128.Idx)
    (hi0 : (i 0).val = t.val / 196 * 1024 + (j 0).val) (hi1 : (i 1).val = (j 1).val) :
    (outsAt8 V c t.val t.isLt).1 j = G8 V c i := by
  obtain ⟨d, q, rfl⟩ : ∃ (d : Fin 1024) (q : Fin 128), j = ix2 d q := ⟨j 0, j 1, eq_ix2 j⟩
  exact (out8_total V c t h1 d q).trans (sum8_eq_sca V c (t.val / 196 * 1024 + d.val) q i hi0 hi1)

/-- A block X whose every entry is the entry of Gf 1024 (t / 196) rows further down is, cut to what point t writes back,
    point t's block of Gf. -/
theorem flushed8_of (t : Fin cfg8.N) (X : Vec Ideal S1024x128 .f32) (Gf : S4096x128.Idx → EReal)
    (h : ∀ (j : S1024x128.Idx) (i : S4096x128.Idx), (i 0).val = t.val / 196 * 1024 + (j 0).val → (i 1).val = (j 1).val → X j = Gf i) :
    (cfg8.win 2).cut (grid8.coords t) X = ((cfg8.win 2).blk t).view.read (Elt Ideal) Gf := by
  obtain ⟨-, -, -, -, -, e0, e1⟩ := idx_facts8 t
  funext j
  rw [View.read_apply]
  refine h j (((cfg8.win 2).blk t).view.emb j) ?_ ?_
  · show win8_2.index t (0 : Fin 2) * 1024 + 1 * (j 0).val = t.val / 196 * 1024 + (j 0).val; rw [e0]; omega
  · show win8_2.index t (1 : Fin 2) * 128 + 1 * (j 1).val = (j 1).val; rw [e1]; omega

/-- What a flushing point writes back is its block of the second product of the arrays. -/
theorem flushed8_eq (c : Dev nD) (t : Fin cfg8.N) (hf : (cfg8.win 2).flush t = true) :
    (dat8 (F := Ideal) V c).flushed 2 t = ((cfg8.win 2).blk t).view.read (Elt Ideal) (G8 V c) := by
  have h1 : t.val % 196 = 195 := (flushAt8_2 t).mp hf
  show (cfg8.win 2).cut (grid8.coords t) ((dat8 (F := Ideal) V c).after 2 t) = _
  rw [after8_2]
  exact flushed8_of t (outsAt8 V c t.val t.isLt).1 (G8 V c) (out8_eq_sca V c t h1)

/-- The output array after the run is the second product (the one-hot sum over all the edges, per destination row) of
    the destination words and the rows as the region finds them. -/
theorem sca_val8 (c : Dev nD) :
    ((dat8 (F := Ideal) V c).arrAt 2 cfg8.N : S4096x128.Idx → EReal)
      = Cert.Spec.unc2 (Cert.Spec.sca (Cert.Spec.cur1 (V c main_v24 : S401408.Idx → BitVec 32)) (Cert.Spec.cur2 (V c main_v26 : S401408x128.Idx → EReal))) :=
  (dat8 (F := Ideal) V c).arrAt_eq_of_cover 2 (G8 V c) (fun t hf => flushed8_eq V c t hf) cover8

end

end Cert.KernelIdeal.H

end
-- ==== Proof.KI.SV10a.lean ====
/-
  A scatter launch (the second one-hot product of a relation), at the ideal values: the arithmetic of one grid point.
  The body compares, for row d of the destination tile and edge e of the chunk, the word of the row (tile index times
  1024 plus d) with the destination word of the edge; the comparison, widened and converted, is 1 where they agree and
  0 elsewhere; the matrix of these is multiplied with the chunk's rows and the product is added to the accumulator.  So
  at (d, q) the accumulate payload is the accumulator there plus the sum over the chunk's edges e of
  (1 if dst e is the row's word, else 0) · g (e, q); the zero fill is 0 everywhere.
  Then where a point's blocks sit in the arrays: point t is (destination tile t / 79, edge chunk t % 79), the chunk's
  edges are the global edges 2048 (t % 79) … and the tile's rows the global rows 1024 (t / 79) ….
-/
import proofs.«407232_j23192823399226_1_alg».proof.Proof.KI.S10Runs
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The one-hot operand at an index -/

/-- The word of the destination row: tile index times 1024 plus the row inside the tile, as one word. -/
theorem rowWord10 (a d : Nat) : BitVec.ofNat 32 a * 1024#32 + BitVec.ofNat 32 d = BitVec.ofNat 32 (a * 1024 + d) := by
  rw [BitVec.ofNat_add, BitVec.ofNat_mul]

/-- The rows' words, broadcast along the edges, at (d, e): the tile's base word plus d. -/
theorem rows10_apply (w : BitVec 32) (d : Fin 1024) (e : Fin 2048) :
    broadcastTo S1024x2048 (addi (broadcast S1024x1 w) (iota .tc S1024x1 32 [0] iota_S1024x1_d0_w32)) broadcasts_S1024x1_S1024x2048 (ix2 d e)
      = w + BitVec.ofNat 32 d.val := by
  refine (broadcastTo_apply _ broadcasts_S1024x1_S1024x2048 (ix2 d e) (ix2 d (0 : Fin 1)) (fun a => ?_)).trans ?_
  · match a with
    | ⟨0, _⟩ => show d.val = if (1024 : Nat) = 1 then 0 else d.val; rw [if_neg (by decide)]
    | ⟨1, _⟩ => show 0 = if (1 : Nat) = 1 then 0 else _; rw [if_pos rfl]
  · show IntOp.addi w (iota .tc S1024x1 32 [0] iota_S1024x1_d0_w32 (ix2 d (0 : Fin 1))) = _
    rw [iota_single_apply]; rfl

/-- The edges' destination words, broadcast down the rows, at (d, e): the word of edge e. -/
theorem cols10_apply (x0 : IVec S2048 32) (d : Fin 1024) (e : Fin 2048) :
    broadcastTo S1024x2048 (shapeCast S1x2048 (shapeCast S2048 x0 shapeCasts_S2048_S2048) shapeCasts_S2048_S1x2048) broadcasts_S1x2048_S1024x2048 (ix2 d e) = x0 (ix1 e) := by
  refine (broadcastTo_apply _ broadcasts_S1x2048_S1024x2048 (ix2 d e) (ix2 (0 : Fin 1) e) (fun a => ?_)).trans ?_
  · match a with
    | ⟨0, _⟩ => show 0 = if (1 : Nat) = 1 then 0 else _; rw [if_pos rfl]
    | ⟨1, _⟩ => show e.val = if (2048 : Nat) = 1 then 0 else e.val; rw [if_neg (by decide)]
  · refine (shapeCast_addUnit_apply ![2048] _ shapeCasts_S2048_S1x2048 (ix2 (0 : Fin 1) e)).trans ?_
    rw [shapeCast_self]
    exact congrArg x0 (funext fun a => by match a with | ⟨0, _⟩ => rfl)

/-- A compared pair of words, widened and converted, is 1 where they are equal and 0 elsewhere. -/
theorem onehot10_word (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℝ)) : EReal) = 1
    rw [beq_self_eq_true]
    show ((((1#32 : BitVec 32).toInt : ℝ)) : EReal) = 1
    rw [show (1#32 : BitVec 32).toInt = 1 from by decide]
    simp
  · rw [if_neg h]
    show (((((BitVec.ofBool (a == b)).setWidth 32).toInt : ℝ)) : EReal) = 0
    rw [show (a == b) = false from by simpa using h]
    show ((((0#32 : BitVec 32).toInt : ℝ)) : EReal) = 0
    rw [show (0#32 : BitVec 32).toInt = 0 from by decide]
    simp

/-! ## The product at an index -/

theorem lhsA_pay10 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsB_pay10 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsA_pay10 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsB_pay10 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product into a zero accumulator, at row d and column q: the sum over the edges e of x (d, e) · y (e, q). -/
theorem matmul10_apply (x : FVec Ideal S1024x2048 .bf16) (y : FVec Ideal S2048x128 .bf16) (d : Fin 1024) (q : Fin 128) :
    matmul dot_S1024x2048_S2048x128_S1024x128_1_0_0_1_n_n none x y (constant (F := Ideal) S1024x128 .f32 0x00000000#32) (ix2 d q)
      = ∑ e : Fin 2048, x (ix2 d e) * y (ix2 e q) := by
  refine (Ideal.matmul_constant_zero_apply dot_S1024x2048_S2048x128_S1024x128_1_0_0_1_n_n none x y (ix2 d q)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 d q) ((contrEquiv1 dot_S1024x2048_S2048x128_S1024x128_1_0_0_1_n_n 2048 rfl rfl).symm k) = ix2 d k := funext fun a => Fin.ext (by
    match a with
    | ⟨0, _⟩ => exact lhsA_pay10 _ _
    | ⟨1, _⟩ => exact (lhsB_pay10 _ _).trans hk)
  have er : dot_S1024x2048_S2048x128_S1024x128_1_0_0_1_n_n.rhsIdx (ix2 d q) ((contrEquiv1 dot_S1024x2048_S2048x128_S1024x128_1_0_0_1_n_n 2048 rfl rfl).symm k) = ix2 k q := funext fun a => Fin.ext (by
    match a with
    | ⟨0, _⟩ => exact (rhsA_pay10 _ _).trans hk
    | ⟨1, _⟩ => exact rhsB_pay10 _ _)
  rw [el, er]

/-! ## The two payloads at an index -/

/-- The zero fill, at any index. -/
theorem zpay10_apply (j : S1024x128.Idx) : k10_pay1 (F := Ideal) j = 0 := by
  unfold k10_pay1
  (try dsimp only)
  rw [shapeCast_self]
  exact Ideal.ofBits_zero_f32

/-- The accumulate, at row d and column q of the tile: the accumulator there plus the sum, over the chunk's edges e, of
    (1 if the edge's destination word is the row's word, else 0) · g (e, q). -/
theorem pay2_10_apply (i : grid10.Coords) (x0 : Vec Ideal S2048 .i32) (x1 : Vec Ideal S2048x128 .bf16) (acc : Vec Ideal S1024x128 .f32)
    (d : Fin 1024) (q : Fin 128) :
    k10_pay2 (F := Ideal) i x0 x1 acc (ix2 d q)
      = acc (ix2 d q) + (0 + ∑ e : Fin 2048, (if BitVec.ofNat 32 ((i 0).val * 1024 + d.val) = x0 (ix1 e) then (1 : EReal) else 0) * x1 (ix2 e q)) := by
  unfold k10_pay2
  (try dsimp only)
  rw [shapeCast_self]
  refine (addf_apply _ _ (ix2 d q)).trans ?_
  refine congrArg (acc (ix2 d q) + ·) ?_
  refine (matmul10_apply _ _ d q).trans ?_
  rw [zero_add]
  refine Finset.sum_congr rfl fun e _ => ?_
  refine congrArg₂ (· * ·) ?_ ?_
  · refine (onehot10_word _ _).trans ?_
    rw [rows10_apply, cols10_apply]
    show (if Scalar.muli (BitVec.ofNat 32 (i 0).val) 1024#32 + BitVec.ofNat 32 d.val = x0 (ix1 e) then (1 : EReal) else 0) = _
    rw [show Scalar.muli (BitVec.ofNat 32 (i 0).val) 1024#32 = BitVec.ofNat 32 (i 0).val * 1024#32 from rfl, rowWord10]
  · rw [shapeCast_self]

end Cert.KernelIdeal.H

end
-- ==== Proof.KI.SV10b.lean ====
/-
  A scatter launch (the second one-hot product of a relation): its input windows' index maps in closed form.
  Point t is (destination tile t / 79, edge chunk t % 79); the blocks of the destination words and of the rows sit at
  the edge chunk (the index maps return the second grid coordinate, as a 32-bit word read back as a natural: no wrap,
  the coordinate being below 79), the output block at the destination tile.
-/
import proofs.«407232_j23192823399226_1_alg».proof.Proof.KI.S10Runs
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The input windows' block indices at a point: the edge chunk t % 79 (and column block 0). -/
theorem iidx10 (t : Fin cfg10.N) : win10_0.index t (0 : Fin 1) = t.val % 79
    ∧ win10_1.index t (0 : Fin 2) = t.val % 79 ∧ win10_1.index t (1 : Fin 2) = 0 := by
  have c1 := coords10_1 t
  refine ⟨?_, ?_, rfl⟩
  · show (BitVec.ofNat 32 ((grid10.coords t) 1).val).toNat = _
    rw [BitVec.toNat_ofNat, c1]; omega
  · show (BitVec.ofNat 32 ((grid10.coords t) 1).val).toNat = _
    rw [BitVec.toNat_ofNat, c1]; omega

/-- The grid coordinates and the three windows' block indices at a point, together. -/
theorem idx_facts10 (t : Fin cfg10.N) : ((grid10.coords t) 0).val = t.val / 79 ∧ ((grid10.coords t) 1).val = t.val % 79
    ∧ win10_0.index t (0 : Fin 1) = t.val % 79
    ∧ win10_1.index t (0 : Fin 2) = t.val % 79 ∧ win10_1.index t (1 : Fin 2) = 0
    ∧ win10_2.index t (0 : Fin 2) = t.val / 79 ∧ win10_2.index t (1 : Fin 2) = 0 :=
  ⟨coords10_0 t, coords10_1 t, (iidx10 t).1, (iidx10 t).2.1, (iidx10 t).2.2, (oidx10 t).1, (oidx10 t).2⟩

end Cert.KernelIdeal.H

end
-- ==== Proof.KI.SV10.lean ====
/-
  A scatter launch (the second one-hot product of a relation), at the ideal values: what its output array holds after
  the run.  A grid point is (destination tile, edge chunk).  Within a tile the accumulator after edge chunk n holds, at
  row d and column q, the running total over the chunks 0 … n of the terms (1 if dst e is the word of row
  1024·tile + d, else 0) · g (e, q) of the chunks' edges e: the first chunk's payload is its total added to the zero
  fill, each later chunk's adds its total to what the accumulator held.  At the last chunk the total is over all
  161792 edges, the output block is stored from it, and the 4 blocks written back cover the 4096 rows.  So the array
  ends holding, at (R, q), the sum over all edges e of (1 if dst e is the word of R, else 0) · g (e, q).
-/
import proofs.«407232_j23192823399226_1_alg».proof.Proof.KI.S10
import proofs.«407232_j23192823399226_1_alg».proof.Proof.KI.SV10a
import proofs.«407232_j23192823399226_1_alg».proof.Proof.KI.SV10b
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What each case leaves: the pieces the runs found, read back -/

theorem hz10 : (![0, 0] : Fin 2 → Nat) = fun _ => 0 := funext fun a => by fin_cases a <;> rfl
theorem hzv10 : (![0] : Fin 1 → Nat) = fun _ => 0 := funext fun a => by fin_cases a; rfl

/-- At a first edge chunk the accumulator ends at the accumulate payload of the point's blocks over the zero fill:
    the fill's store is covered by the accumulate's, which read the fill back. -/
theorem sout10_A_0_eq (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond10_0 i) (hc1 : ¬cond10_1 i)
    (x0 : Vec F S2048 .i32) (x1 : Vec F S2048x128 .bf16) :
    sout10_A_0 c i arg2 harg2 arg3 harg3 arg4 harg4 arg5 harg5 hc0 hc1 x0 x1 = k10_pay2 i x0 x1 (k10_pay1 (F := F)) := by
  unfold sout10_A_0
  rw [View.read_writes_eq_canon _ _ _ (scover10_A_0 c i arg2 harg2 arg3 harg3 arg4 harg4 arg5 harg5 hc0 hc1 x0 x1)]
  unfold kernelRun10_A
  dsimp only
  sl_unfold_words
  rw [View.canon_cons_unit_zero (S := S1024x128) hz10]
  simp only [View.readAt_eq_ld, harg2.read_unread, harg3.read_unread, View.readCov_unit_zero (S := S1024x128) _ hz10,
    View.ld_unit_zero (S := S2048) hzv10, View.ld_unit_zero (S := S2048x128) hz10]

/-- At a middle edge chunk the accumulator ends at the accumulate payload of the point's blocks over what it held. -/
theorem sout10_B_0_eq (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : ¬cond10_1 i)
    (x0 : Vec F S2048 .i32) (x1 : Vec F S2048x128 .bf16) (xs0 : Vec F S1024x128 .f32) :
    sout10_B_0 c i arg2 harg2 arg3 harg3 arg4 harg4 arg5 harg5 hc0 hc1 x0 x1 xs0 = k10_pay2 i x0 x1 xs0 := by
  unfold sout10_B_0
  rw [View.read_writes_eq_canon _ _ _ (scover10_B_0 c i arg2 harg2 arg3 harg3 arg4 harg4 arg5 harg5 hc0 hc1 x0 x1 xs0)]
  unfold kernelRun10_B
  dsimp only
  sl_unfold_words
  rw [View.canon_unit_zero hz10]
  simp only [View.readAt_eq_ld, harg2.read_unread, harg3.read_unread, harg5.read_unread,
    View.ld_unit_zero (S := S2048) hzv10, View.ld_unit_zero (S := S2048x128) hz10, View.ld_unit_zero (S := S1024x128) hz10]

/-- At a last edge chunk the accumulator ends at the accumulate payload of the point's blocks over what it held … -/
theorem sout10_C_0_eq (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) :
    sout10_C_0 c i arg2 harg2 arg3 harg3 arg4 harg4 arg5 harg5 hc0 hc1 x0 x1 xs0 = k10_pay2 i x0 x1 xs0 := by
  unfold sout10_C_0
  rw [View.read_writes_eq_canon _ _ _ (scover10_C_0 c i arg2 harg2 arg3 harg3 arg4 harg4 arg5 harg5 hc0 hc1 x0 x1 xs0)]
  unfold kernelRun10_C
  dsimp only
  sl_unfold_words
  rw [View.canon_unit_zero hz10]
  simp only [View.readAt_eq_ld, harg2.read_unread, harg3.read_unread, harg5.read_unread,
    View.ld_unit_zero (S := S2048) hzv10, View.ld_unit_zero (S := S2048x128) hz10, View.ld_unit_zero (S := S1024x128) hz10]

/-- … and the output block at the same: the accumulator just written, loaded back and stored. -/
theorem out10_C_2_eq (c : Dev nD) (i : grid10.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond10_0 i) (hc1 : cond10_1 i)
    (x0 : Vec F S2048 .i32) (x1 : Vec F S2048x128 .bf16) (xs0 : Vec F S1024x128 .f32) :
    out10_C_2 c i arg2 harg2 arg3 harg3 arg4 harg4 arg5 harg5 hc0 hc1 x0 x1 xs0 = k10_pay2 i x0 x1 xs0 := by
  unfold out10_C_2
  rw [View.read_writes_eq_canon _ _ _ (cover10_C_2 c i arg2 harg2 arg3 harg3 arg4 harg4 arg5 harg5 hc0 hc1 x0 x1 xs0)]
  unfold kernelRun10_C
  dsimp only
  sl_unfold_words
  rw [View.canon_unit_zero hz10]
  simp only [View.readAt_eq_ld, harg2.read_unread, harg3.read_unread, harg5.read_unread, View.readCov_unit_zero (S := S1024x128) _ hz10,
    View.ld_unit_zero (S := S2048) hzv10, View.ld_unit_zero (S := S2048x128) hz10, View.ld_unit_zero (S := S1024x128) hz10]

/-! ## Where a point's blocks sit in the arrays -/

section
variable (V : (c : Dev nD) → (b : Ref sig .tc) → Buf (Elt Ideal) ((c : Thread nD τ).loc b))

/-- The destination words of the chunk at point t are those of the global edges 2048 (t % 79) …. -/
theorem dblk10_apply (c : Dev nD) (t : Fin cfg10.N) (e : Fin 2048) (E : Fin 161792) (hE : E.val = 2048 * (t.val % 79) + e.val) :
    (iblk10 V c 0 t : Vec Ideal S2048 .i32) (ix1 e) = (V c main_v39 : Vec Ideal S161792 .i32) (ix1 E) := by
  obtain ⟨-, -, e0, -⟩ := idx_facts10 t
  unfold iblk10
  rw [View.read_apply]
  show V c main_v39 _ = V c main_v39 _
  congr 1
  funext a
  apply Fin.ext
  match a with
  | ⟨0, _⟩ => show win10_0.index t (0 : Fin 1) * 2048 + 1 * e.val = E.val; rw [e0, hE]; omega

/-- The rows of the chunk at point t are the rows of the global edges 2048 (t % 79) …. -/
theorem gblk10_apply (c : Dev nD) (t : Fin cfg10.N) (e : Fin 2048) (q : Fin 128) (E : Fin 161792) (hE : E.val = 2048 * (t.val % 79) + e.val) :
    (iblk10 V c 1 t : Vec Ideal S2048x128 .bf16) (ix2 e q) = (V c main_v41 : Vec Ideal S161792x128 .bf16) (ix2 E q) := by
  obtain ⟨-, -, -, e0, e1, -⟩ := idx_facts10 t
  unfold iblk10
  rw [View.read_apply]
  show V c main_v41 _ = V c main_v41 _
  congr 1
  funext a
  apply Fin.ext
  match a with
  | ⟨0, _⟩ => show win10_1.index t (0 : Fin 2) * 2048 + 1 * e.val = E.val; rw [e0, hE]; omega
  | ⟨1, _⟩ => show win10_1.index t (1 : Fin 2) * 128 + 1 * q.val = q.val; rw [e1]; omega

/-- The term of global edge s in destination row R's sum at column q. -/
def edgeTerm10 (c : Dev nD) (R : Nat) (q : Fin 128) (s : Fin (79 * 2048)) : EReal :=
  (if BitVec.ofNat 32 R = (V c main_v39 : Vec Ideal S161792 .i32) (ix1 s) then (1 : EReal) else 0) * (V c main_v41 : Vec Ideal S161792x128 .bf16) (ix2 s q)

/-- The same over the naturals, zero past the arrays' end: the summand the running total is stated over. -/
def term10 (c : Dev nD) (R : Nat) (q : Fin 128) : ℕ → EReal :=
  fun s => if h : s < 79 * 2048 then edgeTerm10 V c R q ⟨s, h⟩ else 0

/-- One chunk's sum at point t, over the point's blocks, is the sum of the terms of the chunk's global edges. -/
theorem chunk10_sum (c : Dev nD) (t : Fin cfg10.N) (d : Fin 1024) (q : Fin 128) :
    (∑ e : Fin 2048, (if BitVec.ofNat 32 (((grid10.coords t) 0).val * 1024 + d.val) = (iblk10 V c 0 t : Vec Ideal S2048 .i32) (ix1 e) then (1 : EReal) else 0) * (iblk10 V c 1 t : Vec Ideal S2048x128 .bf16) (ix2 e q))
      = ∑ k : Fin 2048, term10 V c (t.val / 79 * 1024 + d.val) q (t.val % 79 * 2048 + k.val) := by
  obtain ⟨g0, -⟩ := idx_facts10 t
  refine Finset.sum_congr rfl fun e _ => ?_
  have hlt : t.val % 79 * 2048 + e.val < 79 * 2048 := by
    have := e.isLt; have := Nat.mod_lt t.val (show 0 < 79 by decide); omega
  unfold term10
  rw [dif_pos hlt]
  unfold edgeTerm10
  rw [g0, dblk10_apply V c t e ⟨t.val % 79 * 2048 + e.val, hlt⟩ (by show t.val % 79 * 2048 + e.val = _; omega),
    gblk10_apply V c t e q ⟨t.val % 79 * 2048 + e.val, hlt⟩ (by show t.val % 79 * 2048 + e.val = _; omega)]

end

/-! ## The running total, chunk by chunk -/

/-- After the first chunk: the total of its terms, added to zero. -/
theorem acc10_first (f : ℕ → EReal) :
    (0 : EReal) + (0 + ∑ k : Fin 2048, f (0 * 2048 + k.val)) = Cert.Spec.accTiles 2048 f 0 := by
  simp only [Nat.zero_mul, Nat.zero_add]
  rfl

/-- After a later chunk of the same destination tile: the total so far plus the chunk's terms (the summand given by tile index). -/
theorem acc10_step (n : ℕ) (h0 : ¬n % 79 = 0) (f : ℕ → ℕ → EReal) :
    Cert.Spec.accTiles 2048 (f ((n - 1) / 79)) ((n - 1) % 79) + (0 + ∑ k : Fin 2048, f (n / 79) (n % 79 * 2048 + k.val))
      = Cert.Spec.accTiles 2048 (f (n / 79)) (n % 79) := by
  have e1 : (n - 1) / 79 = n / 79 := by omega
  obtain ⟨m, hm⟩ : ∃ m, n % 79 = m + 1 := ⟨n % 79 - 1, by omega⟩
  have e2 : (n - 1) % 79 = m := by omega
  rw [e1, e2, hm]
  rfl

section
variable (V : (c : Dev nD) → (b : Ref sig .tc) → Buf (Elt Ideal) ((c : Thread nD τ).loc b))

/-- The accumulate payload of point t's blocks over an accumulator, at (d, q): the accumulator there plus the terms
    of the chunk's edges in the sum of destination row 1024 (t / 79) + d. -/
theorem pay2_10_blocks (c : Dev nD) (t : Fin cfg10.N) (acc : Vec Ideal S1024x128 .f32) (d : Fin 1024) (q : Fin 128) :
    k10_pay2 (F := Ideal) (grid10.coords t) (iblk10 V c 0 t) (iblk10 V c 1 t) acc (ix2 d q)
      = acc (ix2 d q) + (0 + ∑ k : Fin 2048, term10 V c (t.val / 79 * 1024 + d.val) q (t.val % 79 * 2048 + k.val)) :=
  (pay2_10_apply (grid10.coords t) (iblk10 V c 0 t) (iblk10 V c 1 t) acc d q).trans
    (congrArg (fun z => acc (ix2 d q) + (0 + z)) (chunk10_sum V c t d q))

/-- The second product of the arrays as the region finds them. -/
abbrev G10 (c : Dev nD) : S4096x128.Idx → EReal :=
  Cert.Spec.unc2 (Cert.Spec.sca (Cert.Spec.cur1 (V c main_v39 : S161792.Idx → BitVec 32)) (Cert.Spec.cur2 (V c main_v41 : S161792x128.Idx → EReal)))

/-- The sum of all the edges' terms for destination row R at column q is the second product at (R, q). -/
theorem sum10_eq_sca (c : Dev nD) (R : Nat) (q : Fin 128) (i : S4096x128.Idx) (hi0 : (i 0).val = R) (hi1 : (i 1).val = q.val) :
    ∑ s : Fin (79 * 2048), edgeTerm10 V c R q s = G10 V c i := by
  obtain ⟨R', Q, rfl⟩ : ∃ (R' : Fin 4096) (Q : Fin 128), i = ix2 R' Q := ⟨i 0, i 1, eq_ix2 i⟩
  obtain rfl : Q = q := Fin.ext hi1
  subst hi0
  rfl

/-- An index of the array is in point t's block iff each coordinate is in the block's range on its axis. -/
theorem mem_blk10 (t : Fin cfg10.N) (i : S4096x128.Idx) :
    i ∈ ((cfg10.win 2).blk t).view.set ↔ ∀ a : Fin 2, win10_2.index t a * S1024x128.size a ≤ (i a).val ∧ (i a).val < win10_2.index t a * S1024x128.size a + S1024x128.size a := by
  show i ∈ ((View.whole main_v42).slice (win10_2.rect t)).set ↔ _
  rw [View.set_slice_whole, Rect.mem_set_unit]
  exact Iff.rfl

/-- Row R of the array is in the block written back at the last edge chunk of destination tile R / 1024. -/
theorem cover10 (i : S4096x128.Idx) : ∃ t : Fin cfg10.N, (cfg10.win 2).flush t = true ∧ i ∈ ((cfg10.win 2).blk t).view.set := by
  have hi0 : (i 0).val < 4096 := (i 0).isLt
  have hi1 : (i 1).val < 128 := (i 1).isLt
  have hN : cfg10.N = 316 := N_10
  have hlt : (i 0).val / 1024 * 79 + 78 < cfg10.N := by rw [hN]; omega
  refine ⟨⟨(i 0).val / 1024 * 79 + 78, hlt⟩, (flushAt10_2 _).mpr (by show ((i 0).val / 1024 * 79 + 78) % 79 = 78; omega), ?_⟩
  obtain ⟨-, -, -, -, -, e0, e1⟩ := idx_facts10 ⟨(i 0).val / 1024 * 79 + 78, hlt⟩
  rw [mem_blk10]
  intro a
  match a with
  | ⟨0, _⟩ => show win10_2.index _ (0 : Fin 2) * 1024 ≤ (i 0).val ∧ (i 0).val < win10_2.index _ (0 : Fin 2) * 1024 + 1024; rw [e0]; show ((i 0).val / 1024 * 79 + 78) / 79 * 1024 ≤ (i 0).val ∧ (i 0).val < ((i 0).val / 1024 * 79 + 78) / 79 * 1024 + 1024; omega
  | ⟨1, _⟩ => show win10_2.index _ (1 : Fin 2) * 128 ≤ (i 1).val ∧ (i 1).val < win10_2.index _ (1 : Fin 2) * 128 + 128; rw [e1]; omega

end

/-! ## The invariant: the accumulator after every point -/

section
variable (V : (c : Dev nD) → (b : Ref sig .tc) → Buf (Elt Ideal) ((c : Thread nD τ).loc b))

/-- At a first edge chunk the accumulator holds the first chunk's total of the tile's rows. -/
theorem acc10_at_A (c : Dev nD) (t : Fin cfg10.N) (h0 : t.val % 79 = 0) (h1 : ¬t.val % 79 = 78) (d : Fin 1024) (q : Fin 128) :
    (outsAt10 V c t.val t.isLt).2 (ix2 d q) = Cert.Spec.accTiles 2048 (term10 V c (t.val / 79 * 1024 + d.val) q) (t.val % 79) := by
  rw [outsAt10_A V c t h0 h1]
  dsimp only
  refine (congrFun (sout10_A_0_eq (F := Ideal) c (grid10.coords t) (ms10_0 t) (hs10_0 t) (ms10_1 t) (hs10_1 t) (ms10_2 t) (hs10_2 t) scM10_0 (Memref.isWhole_whole _) ((hcond10_0 t).mpr h0) (fun h => h1 ((hcond10_1 t).mp h)) (iblk10 V c 0 t) (iblk10 V c 1 t)) (ix2 d q)).trans ?_
  refine (pay2_10_blocks V c t (k10_pay1 (F := Ideal)) d q).trans ?_
  rw [zpay10_apply, h0]
  exact acc10_first (term10 V c (t.val / 79 * 1024 + d.val) q)

/-- At a middle edge chunk: the total so far plus this chunk's. -/
theorem acc10_at_B (c : Dev nD) (t : Fin cfg10.N) (h0 : ¬t.val % 79 = 0) (h1 : ¬t.val % 79 = 78) (d : Fin 1024) (q : Fin 128)
    (ih : (outsAt10 V c (t.val - 1) (Nat.lt_of_le_of_lt (Nat.sub_le _ _) t.isLt)).2 (ix2 d q) = Cert.Spec.accTiles 2048 (term10 V c ((t.val - 1) / 79 * 1024 + d.val) q) ((t.val - 1) % 79)) :
    (outsAt10 V c t.val t.isLt).2 (ix2 d q) = Cert.Spec.accTiles 2048 (term10 V c (t.val / 79 * 1024 + d.val) q) (t.val % 79) := by
  rw [outsAt10_B V c t h0 h1]
  dsimp only
  refine (congrFun (sout10_B_0_eq (F := Ideal) c (grid10.coords t) (ms10_0 t) (hs10_0 t) (ms10_1 t) (hs10_1 t) (ms10_2 t) (hs10_2 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2) (ix2 d q)).trans ?_
  refine (pay2_10_blocks V c t (outsAt10 V c (t.val - 1) (Nat.lt_of_le_of_lt (Nat.sub_le _ _) t.isLt)).2 d q).trans ?_
  rw [ih]
  exact acc10_step t.val h0 (fun tile => term10 V c (tile * 1024 + d.val) q)

/-- At a last edge chunk: the same, in the accumulator … -/
theorem acc10_at_C (c : Dev nD) (t : Fin cfg10.N) (h0 : ¬t.val % 79 = 0) (h1 : t.val % 79 = 78) (d : Fin 1024) (q : Fin 128)
    (ih : (outsAt10 V c (t.val - 1) (Nat.lt_of_le_of_lt (Nat.sub_le _ _) t.isLt)).2 (ix2 d q) = Cert.Spec.accTiles 2048 (term10 V c ((t.val - 1) / 79 * 1024 + d.val) q) ((t.val - 1) % 79)) :
    (outsAt10 V c t.val t.isLt).2 (ix2 d q) = Cert.Spec.accTiles 2048 (term10 V c (t.val / 79 * 1024 + d.val) q) (t.val % 79) := by
  rw [outsAt10_C V c t h0 h1]
  dsimp only
  refine (congrFun (sout10_C_0_eq (F := Ideal) c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) (ix2 d q)).trans ?_
  refine (pay2_10_blocks V c t (outsAt10 V c (t.val - 1) (Nat.lt_of_le_of_lt (Nat.sub_le _ _) t.isLt)).2 d q).trans ?_
  rw [ih]
  exact acc10_step t.val h0 (fun tile => term10 V c (tile * 1024 + d.val) q)

/-- … and in the output block. -/
theorem out10_at_C (c : Dev nD) (t : Fin cfg10.N) (h0 : ¬t.val % 79 = 0) (h1 : t.val % 79 = 78) (d : Fin 1024) (q : Fin 128)
    (ih : (outsAt10 V c (t.val - 1) (Nat.lt_of_le_of_lt (Nat.sub_le _ _) t.isLt)).2 (ix2 d q) = Cert.Spec.accTiles 2048 (term10 V c ((t.val - 1) / 79 * 1024 + d.val) q) ((t.val - 1) % 79)) :
    (outsAt10 V c t.val t.isLt).1 (ix2 d q) = Cert.Spec.accTiles 2048 (term10 V c (t.val / 79 * 1024 + d.val) q) (t.val % 79) := by
  rw [outsAt10_C V c t h0 h1]
  dsimp only
  refine (congrFun (out10_C_2_eq (F := Ideal) c (grid10.coords t) (ms10_0 t) (hs10_0 t) (ms10_1 t) (hs10_1 t) (ms10_2 t) (hs10_2 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2) (ix2 d q)).trans ?_
  refine (pay2_10_blocks V c t (outsAt10 V c (t.val - 1) (Nat.lt_of_le_of_lt (Nat.sub_le _ _) t.isLt)).2 d q).trans ?_
  rw [ih]
  exact acc10_step t.val h0 (fun tile => term10 V c (tile * 1024 + d.val) q)

/-- THE INVARIANT: after point n the accumulator holds, at (d, q), the running total over the edge chunks 0 … n % 79 of
    the terms of destination row 1024 (n / 79) + d. -/
theorem acc10_inv (c : Dev nD) : ∀ (n : ℕ) (hn : n < cfg10.N) (d : Fin 1024) (q : Fin 128),
    (outsAt10 V c n hn).2 (ix2 d q) = Cert.Spec.accTiles 2048 (term10 V c (n / 79 * 1024 + d.val) q) (n % 79) := by
  intro n
  induction n with
  | zero =>
    intro hn d q
    exact acc10_at_A V c ⟨0, hn⟩ (Nat.zero_mod _) (by show ¬(0 % 79 = 78); omega) d q
  | succ n ih =>
    intro hn d q
    by_cases h0 : (n + 1) % 79 = 0
    · exact acc10_at_A V c ⟨n + 1, hn⟩ h0 (by show ¬((n + 1) % 79 = 78); omega) d q
    · by_cases h1 : (n + 1) % 79 = 78
      · exact acc10_at_C V c ⟨n + 1, hn⟩ h0 h1 d q (ih (Nat.lt_of_succ_lt hn) d q)
      · exact acc10_at_B V c ⟨n + 1, hn⟩ h0 h1 d q (ih (Nat.lt_of_succ_lt hn) d q)

/-- At a last edge chunk the output block holds, at (d, q), the sum of ALL the edges' terms of destination row
    1024 (t / 79) + d. -/
theorem out10_total (c : Dev nD) (t : Fin cfg10.N) (h1 : t.val % 79 = 78) (d : Fin 1024) (q : Fin 128) :
    (outsAt10 V c t.val t.isLt).1 (ix2 d q) = ∑ s : Fin (79 * 2048), edgeTerm10 V c (t.val / 79 * 1024 + d.val) q s := by
  have h0 : ¬t.val % 79 = 0 := by omega
  refine (out10_at_C V c t h0 h1 d q (acc10_inv V c (t.val - 1) (Nat.lt_of_le_of_lt (Nat.sub_le _ _) t.isLt) d q)).trans ?_
  rw [h1]
  exact Cert.Spec.accTiles_flat 79 2048 (by decide) (edgeTerm10 V c (t.val / 79 * 1024 + d.val) q)

/-! ## From the blocks to the array -/

/-- At a last edge chunk the output block, at a block index, is the second product at the array index 1024 (t / 79)
    rows further down. -/
theorem out10_eq_sca (c : Dev nD) (t : Fin cfg10.N) (h1 : t.val % 79 = 78) (j : S1024x128.Idx) (i : S4096x128.Idx)
    (hi0 : (i 0).val = t.val / 79 * 1024 + (j 0).val) (hi1 : (i 1).val = (j 1).val) :
    (outsAt10 V c t.val t.isLt).1 j = G10 V c i := by
  obtain ⟨d, q, rfl⟩ : ∃ (d : Fin 1024) (q : Fin 128), j = ix2 d q := ⟨j 0, j 1, eq_ix2 j⟩
  exact (out10_total V c t h1 d q).trans (sum10_eq_sca V c (t.val / 79 * 1024 + d.val) q i hi0 hi1)

/-- A block X whose every entry is the entry of Gf 1024 (t / 79) rows further down is, cut to what point t writes back,
    point t's block of Gf. -/
theorem flushed10_of (t : Fin cfg10.N) (X : Vec Ideal S1024x128 .f32) (Gf : S4096x128.Idx → EReal)
    (h : ∀ (j : S1024x128.Idx) (i : S4096x128.Idx), (i 0).val = t.val / 79 * 1024 + (j 0).val → (i 1).val = (j 1).val → X j = Gf i) :
    (cfg10.win 2).cut (grid10.coords t) X = ((cfg10.win 2).blk t).view.read (Elt Ideal) Gf := by
  obtain ⟨-, -, -, -, -, e0, e1⟩ := idx_facts10 t
  funext j
  rw [View.read_apply]
  refine h j (((cfg10.win 2).blk t).view.emb j) ?_ ?_
  · show win10_2.index t (0 : Fin 2) * 1024 + 1 * (j 0).val = t.val / 79 * 1024 + (j 0).val; rw [e0]; omega
  · show win10_2.index t (1 : Fin 2) * 128 + 1 * (j 1).val = (j 1).val; rw [e1]; omega

/-- What a flushing point writes back is its block of the second product of the arrays. -/
theorem flushed10_eq (c : Dev nD) (t : Fin cfg10.N) (hf : (cfg10.win 2).flush t = true) :
    (dat10 (F := Ideal) V c).flushed 2 t = ((cfg10.win 2).blk t).view.read (Elt Ideal) (G10 V c) := by
  have h1 : t.val % 79 = 78 := (flushAt10_2 t).mp hf
  show (cfg10.win 2).cut (grid10.coords t) ((dat10 (F := Ideal) V c).after 2 t) = _
  rw [after10_2]
  exact flushed10_of t (outsAt10 V c t.val t.isLt).1 (G10 V c) (out10_eq_sca V c t h1)

/-- The output array after the run is the second product (the one-hot sum over all the edges, per destination row) of
    the destination words and the rows as the region finds them. -/
theorem sca_val10 (c : Dev nD) :
    ((dat10 (F := Ideal) V c).arrAt 2 cfg10.N : S4096x128.Idx → EReal)
      = Cert.Spec.unc2 (Cert.Spec.sca (Cert.Spec.cur1 (V c main_v39 : S161792.Idx → BitVec 32)) (Cert.Spec.cur2 (V c main_v41 : S161792x128.Idx → EReal))) :=
  (dat10 (F := Ideal) V c).arrAt_eq_of_cover 2 (G10 V c) (fun t hf => flushed10_eq V c t hf) cover10

end

end Cert.KernelIdeal.H

end
-- ==== Proof.KI.SV12a.lean ====
/-
  A scatter launch (the second one-hot product of a relation), at the ideal values: the arithmetic of one grid point.
  The body compares, for row d of the destination tile and edge e of the chunk, the word of the row (tile index times
  1024 plus d) with the destination word of the edge; the comparison, widened and converted, is 1 where they agree and
  0 elsewhere; the matrix of these is multiplied with the chunk's rows and the product is added to the accumulator.  So
  at (d, q) the accumulate payload is the accumulator there plus the sum over the chunk's edges e of
  (1 if dst e is the row's word, else 0) · g (e, q); the zero fill is 0 everywhere.
  Then where a point's blocks sit in the arrays: point t is (destination tile t / 196, edge chunk t % 196), the chunk's
  edges are the global edges 2048 (t % 196) … and the tile's rows the global rows 1024 (t / 196) ….
-/
import proofs.«407232_j23192823399226_1_alg».proof.Proof.KI.S12Runs
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The one-hot operand at an index -/

/-- The word of the destination row: tile index times 1024 plus the row inside the tile, as one word. -/
theorem rowWord12 (a d : Nat) : BitVec.ofNat 32 a * 1024#32 + BitVec.ofNat 32 d = BitVec.ofNat 32 (a * 1024 + d) := by
  rw [BitVec.ofNat_add, BitVec.ofNat_mul]

/-- The rows' words, broadcast along the edges, at (d, e): the tile's base word plus d. -/
theorem rows12_apply (w : BitVec 32) (d : Fin 1024) (e : Fin 2048) :
    broadcastTo S1024x2048 (addi (broadcast S1024x1 w) (iota .tc S1024x1 32 [0] iota_S1024x1_d0_w32)) broadcasts_S1024x1_S1024x2048 (ix2 d e)
      = w + BitVec.ofNat 32 d.val := by
  refine (broadcastTo_apply _ broadcasts_S1024x1_S1024x2048 (ix2 d e) (ix2 d (0 : Fin 1)) (fun a => ?_)).trans ?_
  · match a with
    | ⟨0, _⟩ => show d.val = if (1024 : Nat) = 1 then 0 else d.val; rw [if_neg (by decide)]
    | ⟨1, _⟩ => show 0 = if (1 : Nat) = 1 then 0 else _; rw [if_pos rfl]
  · show IntOp.addi w (iota .tc S1024x1 32 [0] iota_S1024x1_d0_w32 (ix2 d (0 : Fin 1))) = _
    rw [iota_single_apply]; rfl

/-- The edges' destination words, broadcast down the rows, at (d, e): the word of edge e. -/
theorem cols12_apply (x0 : IVec S2048 32) (d : Fin 1024) (e : Fin 2048) :
    broadcastTo S1024x2048 (shapeCast S1x2048 (shapeCast S2048 x0 shapeCasts_S2048_S2048) shapeCasts_S2048_S1x2048) broadcasts_S1x2048_S1024x2048 (ix2 d e) = x0 (ix1 e) := by
  refine (broadcastTo_apply _ broadcasts_S1x2048_S1024x2048 (ix2 d e) (ix2 (0 : Fin 1) e) (fun a => ?_)).trans ?_
  · match a with
    | ⟨0, _⟩ => show 0 = if (1 : Nat) = 1 then 0 else _; rw [if_pos rfl]
    | ⟨1, _⟩ => show e.val = if (2048 : Nat) = 1 then 0 else e.val; rw [if_neg (by decide)]
  · refine (shapeCast_addUnit_apply ![2048] _ shapeCasts_S2048_S1x2048 (ix2 (0 : Fin 1) e)).trans ?_
    rw [shapeCast_self]
    exact congrArg x0 (funext fun a => by match a with | ⟨0, _⟩ => rfl)

/-- A compared pair of words, widened and converted, is 1 where they are equal and 0 elsewhere. -/
theorem onehot12_word (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℝ)) : EReal) = 1
    rw [beq_self_eq_true]
    show ((((1#32 : BitVec 32).toInt : ℝ)) : EReal) = 1
    rw [show (1#32 : BitVec 32).toInt = 1 from by decide]
    simp
  · rw [if_neg h]
    show (((((BitVec.ofBool (a == b)).setWidth 32).toInt : ℝ)) : EReal) = 0
    rw [show (a == b) = false from by simpa using h]
    show ((((0#32 : BitVec 32).toInt : ℝ)) : EReal) = 0
    rw [show (0#32 : BitVec 32).toInt = 0 from by decide]
    simp

/-! ## The product at an index -/

theorem lhsA_pay12 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsB_pay12 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsA_pay12 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsB_pay12 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product into a zero accumulator, at row d and column q: the sum over the edges e of x (d, e) · y (e, q). -/
theorem matmul12_apply (x : FVec Ideal S1024x2048 .bf16) (y : FVec Ideal S2048x128 .bf16) (d : Fin 1024) (q : Fin 128) :
    matmul dot_S1024x2048_S2048x128_S1024x128_1_0_0_1_n_n none x y (constant (F := Ideal) S1024x128 .f32 0x00000000#32) (ix2 d q)
      = ∑ e : Fin 2048, x (ix2 d e) * y (ix2 e q) := by
  refine (Ideal.matmul_constant_zero_apply dot_S1024x2048_S2048x128_S1024x128_1_0_0_1_n_n none x y (ix2 d q)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 d q) ((contrEquiv1 dot_S1024x2048_S2048x128_S1024x128_1_0_0_1_n_n 2048 rfl rfl).symm k) = ix2 d k := funext fun a => Fin.ext (by
    match a with
    | ⟨0, _⟩ => exact lhsA_pay12 _ _
    | ⟨1, _⟩ => exact (lhsB_pay12 _ _).trans hk)
  have er : dot_S1024x2048_S2048x128_S1024x128_1_0_0_1_n_n.rhsIdx (ix2 d q) ((contrEquiv1 dot_S1024x2048_S2048x128_S1024x128_1_0_0_1_n_n 2048 rfl rfl).symm k) = ix2 k q := funext fun a => Fin.ext (by
    match a with
    | ⟨0, _⟩ => exact (rhsA_pay12 _ _).trans hk
    | ⟨1, _⟩ => exact rhsB_pay12 _ _)
  rw [el, er]

/-! ## The two payloads at an index -/

/-- The zero fill, at any index. -/
theorem zpay12_apply (j : S1024x128.Idx) : k12_pay1 (F := Ideal) j = 0 := by
  unfold k12_pay1
  (try dsimp only)
  rw [shapeCast_self]
  exact Ideal.ofBits_zero_f32

/-- The accumulate, at row d and column q of the tile: the accumulator there plus the sum, over the chunk's edges e, of
    (1 if the edge's destination word is the row's word, else 0) · g (e, q). -/
theorem pay2_12_apply (i : grid12.Coords) (x0 : Vec Ideal S2048 .i32) (x1 : Vec Ideal S2048x128 .bf16) (acc : Vec Ideal S1024x128 .f32)
    (d : Fin 1024) (q : Fin 128) :
    k12_pay2 (F := Ideal) i x0 x1 acc (ix2 d q)
      = acc (ix2 d q) + (0 + ∑ e : Fin 2048, (if BitVec.ofNat 32 ((i 0).val * 1024 + d.val) = x0 (ix1 e) then (1 : EReal) else 0) * x1 (ix2 e q)) := by
  unfold k12_pay2
  (try dsimp only)
  rw [shapeCast_self]
  refine (addf_apply _ _ (ix2 d q)).trans ?_
  refine congrArg (acc (ix2 d q) + ·) ?_
  refine (matmul12_apply _ _ d q).trans ?_
  rw [zero_add]
  refine Finset.sum_congr rfl fun e _ => ?_
  refine congrArg₂ (· * ·) ?_ ?_
  · refine (onehot12_word _ _).trans ?_
    rw [rows12_apply, cols12_apply]
    show (if Scalar.muli (BitVec.ofNat 32 (i 0).val) 1024#32 + BitVec.ofNat 32 d.val = x0 (ix1 e) then (1 : EReal) else 0) = _
    rw [show Scalar.muli (BitVec.ofNat 32 (i 0).val) 1024#32 = BitVec.ofNat 32 (i 0).val * 1024#32 from rfl, rowWord12]
  · rw [shapeCast_self]

end Cert.KernelIdeal.H

end
-- ==== Proof.KI.SV12b.lean ====
/-
  A scatter launch (the second one-hot product of a relation): its input windows' index maps in closed form.
  Point t is (destination tile t / 196, edge chunk t % 196); the blocks of the destination words and of the rows sit at
  the edge chunk (the index maps return the second grid coordinate, as a 32-bit word read back as a natural: no wrap,
  the coordinate being below 196), the output block at the destination tile.
-/
import proofs.«407232_j23192823399226_1_alg».proof.Proof.KI.S12Runs
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The input windows' block indices at a point: the edge chunk t % 196 (and column block 0). -/
theorem iidx12 (t : Fin cfg12.N) : win12_0.index t (0 : Fin 1) = t.val % 196
    ∧ win12_1.index t (0 : Fin 2) = t.val % 196 ∧ win12_1.index t (1 : Fin 2) = 0 := by
  have c1 := coords12_1 t
  refine ⟨?_, ?_, rfl⟩
  · show (BitVec.ofNat 32 ((grid12.coords t) 1).val).toNat = _
    rw [BitVec.toNat_ofNat, c1]; omega
  · show (BitVec.ofNat 32 ((grid12.coords t) 1).val).toNat = _
    rw [BitVec.toNat_ofNat, c1]; omega

/-- The grid coordinates and the three windows' block indices at a point, together. -/
theorem idx_facts12 (t : Fin cfg12.N) : ((grid12.coords t) 0).val = t.val / 196 ∧ ((grid12.coords t) 1).val = t.val % 196
    ∧ win12_0.index t (0 : Fin 1) = t.val % 196
    ∧ win12_1.index t (0 : Fin 2) = t.val % 196 ∧ win12_1.index t (1 : Fin 2) = 0
    ∧ win12_2.index t (0 : Fin 2) = t.val / 196 ∧ win12_2.index t (1 : Fin 2) = 0 :=
  ⟨coords12_0 t, coords12_1 t, (iidx12 t).1, (iidx12 t).2.1, (iidx12 t).2.2, (oidx12 t).1, (oidx12 t).2⟩

end Cert.KernelIdeal.H

end
-- ==== Proof.KI.SV12.lean ====
/-
  A scatter launch (the second one-hot product of a relation), at the ideal values: what its output array holds after
  the run.  A grid point is (destination tile, edge chunk).  Within a tile the accumulator after edge chunk n holds, at
  row d and column q, the running total over the chunks 0 … n of the terms (1 if dst e is the word of row
  1024·tile + d, else 0) · g (e, q) of the chunks' edges e: the first chunk's payload is its total added to the zero
  fill, each later chunk's adds its total to what the accumulator held.  At the last chunk the total is over all
  401408 edges, the output block is stored from it, and the 20 blocks written back cover the 20480 rows.  So the array
  ends holding, at (R, q), the sum over all edges e of (1 if dst e is the word of R, else 0) · g (e, q).
-/
import proofs.«407232_j23192823399226_1_alg».proof.Proof.KI.S12
import proofs.«407232_j23192823399226_1_alg».proof.Proof.KI.SV12a
import proofs.«407232_j23192823399226_1_alg».proof.Proof.KI.SV12b
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What each case leaves: the pieces the runs found, read back -/

theorem hz12 : (![0, 0] : Fin 2 → Nat) = fun _ => 0 := funext fun a => by fin_cases a <;> rfl
theorem hzv12 : (![0] : Fin 1 → Nat) = fun _ => 0 := funext fun a => by fin_cases a; rfl

/-- At a first edge chunk the accumulator ends at the accumulate payload of the point's blocks over the zero fill:
    the fill's store is covered by the accumulate's, which read the fill back. -/
theorem sout12_A_0_eq (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond12_0 i) (hc1 : ¬cond12_1 i)
    (x0 : Vec F S2048 .i32) (x1 : Vec F S2048x128 .bf16) :
    sout12_A_0 c i arg2 harg2 arg3 harg3 arg4 harg4 arg5 harg5 hc0 hc1 x0 x1 = k12_pay2 i x0 x1 (k12_pay1 (F := F)) := by
  unfold sout12_A_0
  rw [View.read_writes_eq_canon _ _ _ (scover12_A_0 c i arg2 harg2 arg3 harg3 arg4 harg4 arg5 harg5 hc0 hc1 x0 x1)]
  unfold kernelRun12_A
  dsimp only
  sl_unfold_words
  rw [View.canon_cons_unit_zero (S := S1024x128) hz12]
  simp only [View.readAt_eq_ld, harg2.read_unread, harg3.read_unread, View.readCov_unit_zero (S := S1024x128) _ hz12,
    View.ld_unit_zero (S := S2048) hzv12, View.ld_unit_zero (S := S2048x128) hz12]

/-- At a middle edge chunk the accumulator ends at the accumulate payload of the point's blocks over what it held. -/
theorem sout12_B_0_eq (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : ¬cond12_1 i)
    (x0 : Vec F S2048 .i32) (x1 : Vec F S2048x128 .bf16) (xs0 : Vec F S1024x128 .f32) :
    sout12_B_0 c i arg2 harg2 arg3 harg3 arg4 harg4 arg5 harg5 hc0 hc1 x0 x1 xs0 = k12_pay2 i x0 x1 xs0 := by
  unfold sout12_B_0
  rw [View.read_writes_eq_canon _ _ _ (scover12_B_0 c i arg2 harg2 arg3 harg3 arg4 harg4 arg5 harg5 hc0 hc1 x0 x1 xs0)]
  unfold kernelRun12_B
  dsimp only
  sl_unfold_words
  rw [View.canon_unit_zero hz12]
  simp only [View.readAt_eq_ld, harg2.read_unread, harg3.read_unread, harg5.read_unread,
    View.ld_unit_zero (S := S2048) hzv12, View.ld_unit_zero (S := S2048x128) hz12, View.ld_unit_zero (S := S1024x128) hz12]

/-- At a last edge chunk the accumulator ends at the accumulate payload of the point's blocks over what it held … -/
theorem sout12_C_0_eq (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) :
    sout12_C_0 c i arg2 harg2 arg3 harg3 arg4 harg4 arg5 harg5 hc0 hc1 x0 x1 xs0 = k12_pay2 i x0 x1 xs0 := by
  unfold sout12_C_0
  rw [View.read_writes_eq_canon _ _ _ (scover12_C_0 c i arg2 harg2 arg3 harg3 arg4 harg4 arg5 harg5 hc0 hc1 x0 x1 xs0)]
  unfold kernelRun12_C
  dsimp only
  sl_unfold_words
  rw [View.canon_unit_zero hz12]
  simp only [View.readAt_eq_ld, harg2.read_unread, harg3.read_unread, harg5.read_unread,
    View.ld_unit_zero (S := S2048) hzv12, View.ld_unit_zero (S := S2048x128) hz12, View.ld_unit_zero (S := S1024x128) hz12]

/-- … and the output block at the same: the accumulator just written, loaded back and stored. -/
theorem out12_C_2_eq (c : Dev nD) (i : grid12.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond12_0 i) (hc1 : cond12_1 i)
    (x0 : Vec F S2048 .i32) (x1 : Vec F S2048x128 .bf16) (xs0 : Vec F S1024x128 .f32) :
    out12_C_2 c i arg2 harg2 arg3 harg3 arg4 harg4 arg5 harg5 hc0 hc1 x0 x1 xs0 = k12_pay2 i x0 x1 xs0 := by
  unfold out12_C_2
  rw [View.read_writes_eq_canon _ _ _ (cover12_C_2 c i arg2 harg2 arg3 harg3 arg4 harg4 arg5 harg5 hc0 hc1 x0 x1 xs0)]
  unfold kernelRun12_C
  dsimp only
  sl_unfold_words
  rw [View.canon_unit_zero hz12]
  simp only [View.readAt_eq_ld, harg2.read_unread, harg3.read_unread, harg5.read_unread, View.readCov_unit_zero (S := S1024x128) _ hz12,
    View.ld_unit_zero (S := S2048) hzv12, View.ld_unit_zero (S := S2048x128) hz12, View.ld_unit_zero (S := S1024x128) hz12]

/-! ## Where a point's blocks sit in the arrays -/

section
variable (V : (c : Dev nD) → (b : Ref sig .tc) → Buf (Elt Ideal) ((c : Thread nD τ).loc b))

/-- The destination words of the chunk at point t are those of the global edges 2048 (t % 196) …. -/
theorem dblk12_apply (c : Dev nD) (t : Fin cfg12.N) (e : Fin 2048) (E : Fin 401408) (hE : E.val = 2048 * (t.val % 196) + e.val) :
    (iblk12 V c 0 t : Vec Ideal S2048 .i32) (ix1 e) = (V c main_v55 : Vec Ideal S401408 .i32) (ix1 E) := by
  obtain ⟨-, -, e0, -⟩ := idx_facts12 t
  unfold iblk12
  rw [View.read_apply]
  show V c main_v55 _ = V c main_v55 _
  congr 1
  funext a
  apply Fin.ext
  match a with
  | ⟨0, _⟩ => show win12_0.index t (0 : Fin 1) * 2048 + 1 * e.val = E.val; rw [e0, hE]; omega

/-- The rows of the chunk at point t are the rows of the global edges 2048 (t % 196) …. -/
theorem gblk12_apply (c : Dev nD) (t : Fin cfg12.N) (e : Fin 2048) (q : Fin 128) (E : Fin 401408) (hE : E.val = 2048 * (t.val % 196) + e.val) :
    (iblk12 V c 1 t : Vec Ideal S2048x128 .bf16) (ix2 e q) = (V c main_v57 : Vec Ideal S401408x128 .bf16) (ix2 E q) := by
  obtain ⟨-, -, -, e0, e1, -⟩ := idx_facts12 t
  unfold iblk12
  rw [View.read_apply]
  show V c main_v57 _ = V c main_v57 _
  congr 1
  funext a
  apply Fin.ext
  match a with
  | ⟨0, _⟩ => show win12_1.index t (0 : Fin 2) * 2048 + 1 * e.val = E.val; rw [e0, hE]; omega
  | ⟨1, _⟩ => show win12_1.index t (1 : Fin 2) * 128 + 1 * q.val = q.val; rw [e1]; omega

/-- The term of global edge s in destination row R's sum at column q. -/
def edgeTerm12 (c : Dev nD) (R : Nat) (q : Fin 128) (s : Fin (196 * 2048)) : EReal :=
  (if BitVec.ofNat 32 R = (V c main_v55 : Vec Ideal S401408 .i32) (ix1 s) then (1 : EReal) else 0) * (V c main_v57 : Vec Ideal S401408x128 .bf16) (ix2 s q)

/-- The same over the naturals, zero past the arrays' end: the summand the running total is stated over. -/
def term12 (c : Dev nD) (R : Nat) (q : Fin 128) : ℕ → EReal :=
  fun s => if h : s < 196 * 2048 then edgeTerm12 V c R q ⟨s, h⟩ else 0

/-- One chunk's sum at point t, over the point's blocks, is the sum of the terms of the chunk's global edges. -/
theorem chunk12_sum (c : Dev nD) (t : Fin cfg12.N) (d : Fin 1024) (q : Fin 128) :
    (∑ e : Fin 2048, (if BitVec.ofNat 32 (((grid12.coords t) 0).val * 1024 + d.val) = (iblk12 V c 0 t : Vec Ideal S2048 .i32) (ix1 e) then (1 : EReal) else 0) * (iblk12 V c 1 t : Vec Ideal S2048x128 .bf16) (ix2 e q))
      = ∑ k : Fin 2048, term12 V c (t.val / 196 * 1024 + d.val) q (t.val % 196 * 2048 + k.val) := by
  obtain ⟨g0, -⟩ := idx_facts12 t
  refine Finset.sum_congr rfl fun e _ => ?_
  have hlt : t.val % 196 * 2048 + e.val < 196 * 2048 := by
    have := e.isLt; have := Nat.mod_lt t.val (show 0 < 196 by decide); omega
  unfold term12
  rw [dif_pos hlt]
  unfold edgeTerm12
  rw [g0, dblk12_apply V c t e ⟨t.val % 196 * 2048 + e.val, hlt⟩ (by show t.val % 196 * 2048 + e.val = _; omega),
    gblk12_apply V c t e q ⟨t.val % 196 * 2048 + e.val, hlt⟩ (by show t.val % 196 * 2048 + e.val = _; omega)]

end

/-! ## The running total, chunk by chunk -/

/-- After the first chunk: the total of its terms, added to zero. -/
theorem acc12_first (f : ℕ → EReal) :
    (0 : EReal) + (0 + ∑ k : Fin 2048, f (0 * 2048 + k.val)) = Cert.Spec.accTiles 2048 f 0 := by
  simp only [Nat.zero_mul, Nat.zero_add]
  rfl

/-- After a later chunk of the same destination tile: the total so far plus the chunk's terms (the summand given by tile index). -/
theorem acc12_step (n : ℕ) (h0 : ¬n % 196 = 0) (f : ℕ → ℕ → EReal) :
    Cert.Spec.accTiles 2048 (f ((n - 1) / 196)) ((n - 1) % 196) + (0 + ∑ k : Fin 2048, f (n / 196) (n % 196 * 2048 + k.val))
      = Cert.Spec.accTiles 2048 (f (n / 196)) (n % 196) := by
  have e1 : (n - 1) / 196 = n / 196 := by omega
  obtain ⟨m, hm⟩ : ∃ m, n % 196 = m + 1 := ⟨n % 196 - 1, by omega⟩
  have e2 : (n - 1) % 196 = m := by omega
  rw [e1, e2, hm]
  rfl

section
variable (V : (c : Dev nD) → (b : Ref sig .tc) → Buf (Elt Ideal) ((c : Thread nD τ).loc b))

/-- The accumulate payload of point t's blocks over an accumulator, at (d, q): the accumulator there plus the terms
    of the chunk's edges in the sum of destination row 1024 (t / 196) + d. -/
theorem pay2_12_blocks (c : Dev nD) (t : Fin cfg12.N) (acc : Vec Ideal S1024x128 .f32) (d : Fin 1024) (q : Fin 128) :
    k12_pay2 (F := Ideal) (grid12.coords t) (iblk12 V c 0 t) (iblk12 V c 1 t) acc (ix2 d q)
      = acc (ix2 d q) + (0 + ∑ k : Fin 2048, term12 V c (t.val / 196 * 1024 + d.val) q (t.val % 196 * 2048 + k.val)) :=
  (pay2_12_apply (grid12.coords t) (iblk12 V c 0 t) (iblk12 V c 1 t) acc d q).trans
    (congrArg (fun z => acc (ix2 d q) + (0 + z)) (chunk12_sum V c t d q))

/-- The second product of the arrays as the region finds them. -/
abbrev G12 (c : Dev nD) : S20480x128.Idx → EReal :=
  Cert.Spec.unc2 (Cert.Spec.sca (Cert.Spec.cur1 (V c main_v55 : S401408.Idx → BitVec 32)) (Cert.Spec.cur2 (V c main_v57 : S401408x128.Idx → EReal)))

/-- The sum of all the edges' terms for destination row R at column q is the second product at (R, q). -/
theorem sum12_eq_sca (c : Dev nD) (R : Nat) (q : Fin 128) (i : S20480x128.Idx) (hi0 : (i 0).val = R) (hi1 : (i 1).val = q.val) :
    ∑ s : Fin (196 * 2048), edgeTerm12 V c R q s = G12 V c i := by
  obtain ⟨R', Q, rfl⟩ : ∃ (R' : Fin 20480) (Q : Fin 128), i = ix2 R' Q := ⟨i 0, i 1, eq_ix2 i⟩
  obtain rfl : Q = q := Fin.ext hi1
  subst hi0
  rfl

/-- An index of the array is in point t's block iff each coordinate is in the block's range on its axis. -/
theorem mem_blk12 (t : Fin cfg12.N) (i : S20480x128.Idx) :
    i ∈ ((cfg12.win 2).blk t).view.set ↔ ∀ a : Fin 2, win12_2.index t a * S1024x128.size a ≤ (i a).val ∧ (i a).val < win12_2.index t a * S1024x128.size a + S1024x128.size a := by
  show i ∈ ((View.whole main_v58).slice (win12_2.rect t)).set ↔ _
  rw [View.set_slice_whole, Rect.mem_set_unit]
  exact Iff.rfl

/-- Row R of the array is in the block written back at the last edge chunk of destination tile R / 1024. -/
theorem cover12 (i : S20480x128.Idx) : ∃ t : Fin cfg12.N, (cfg12.win 2).flush t = true ∧ i ∈ ((cfg12.win 2).blk t).view.set := by
  have hi0 : (i 0).val < 20480 := (i 0).isLt
  have hi1 : (i 1).val < 128 := (i 1).isLt
  have hN : cfg12.N = 3920 := N_12
  have hlt : (i 0).val / 1024 * 196 + 195 < cfg12.N := by rw [hN]; omega
  refine ⟨⟨(i 0).val / 1024 * 196 + 195, hlt⟩, (flushAt12_2 _).mpr (by show ((i 0).val / 1024 * 196 + 195) % 196 = 195; omega), ?_⟩
  obtain ⟨-, -, -, -, -, e0, e1⟩ := idx_facts12 ⟨(i 0).val / 1024 * 196 + 195, hlt⟩
  rw [mem_blk12]
  intro a
  match a with
  | ⟨0, _⟩ => show win12_2.index _ (0 : Fin 2) * 1024 ≤ (i 0).val ∧ (i 0).val < win12_2.index _ (0 : Fin 2) * 1024 + 1024; rw [e0]; show ((i 0).val / 1024 * 196 + 195) / 196 * 1024 ≤ (i 0).val ∧ (i 0).val < ((i 0).val / 1024 * 196 + 195) / 196 * 1024 + 1024; omega
  | ⟨1, _⟩ => show win12_2.index _ (1 : Fin 2) * 128 ≤ (i 1).val ∧ (i 1).val < win12_2.index _ (1 : Fin 2) * 128 + 128; rw [e1]; omega

end

/-! ## The invariant: the accumulator after every point -/

section
variable (V : (c : Dev nD) → (b : Ref sig .tc) → Buf (Elt Ideal) ((c : Thread nD τ).loc b))

/-- At a first edge chunk the accumulator holds the first chunk's total of the tile's rows. -/
theorem acc12_at_A (c : Dev nD) (t : Fin cfg12.N) (h0 : t.val % 196 = 0) (h1 : ¬t.val % 196 = 195) (d : Fin 1024) (q : Fin 128) :
    (outsAt12 V c t.val t.isLt).2 (ix2 d q) = Cert.Spec.accTiles 2048 (term12 V c (t.val / 196 * 1024 + d.val) q) (t.val % 196) := by
  rw [outsAt12_A V c t h0 h1]
  dsimp only
  refine (congrFun (sout12_A_0_eq (F := Ideal) c (grid12.coords t) (ms12_0 t) (hs12_0 t) (ms12_1 t) (hs12_1 t) (ms12_2 t) (hs12_2 t) scM12_0 (Memref.isWhole_whole _) ((hcond12_0 t).mpr h0) (fun h => h1 ((hcond12_1 t).mp h)) (iblk12 V c 0 t) (iblk12 V c 1 t)) (ix2 d q)).trans ?_
  refine (pay2_12_blocks V c t (k12_pay1 (F := Ideal)) d q).trans ?_
  rw [zpay12_apply, h0]
  exact acc12_first (term12 V c (t.val / 196 * 1024 + d.val) q)

/-- At a middle edge chunk: the total so far plus this chunk's. -/
theorem acc12_at_B (c : Dev nD) (t : Fin cfg12.N) (h0 : ¬t.val % 196 = 0) (h1 : ¬t.val % 196 = 195) (d : Fin 1024) (q : Fin 128)
    (ih : (outsAt12 V c (t.val - 1) (Nat.lt_of_le_of_lt (Nat.sub_le _ _) t.isLt)).2 (ix2 d q) = Cert.Spec.accTiles 2048 (term12 V c ((t.val - 1) / 196 * 1024 + d.val) q) ((t.val - 1) % 196)) :
    (outsAt12 V c t.val t.isLt).2 (ix2 d q) = Cert.Spec.accTiles 2048 (term12 V c (t.val / 196 * 1024 + d.val) q) (t.val % 196) := by
  rw [outsAt12_B V c t h0 h1]
  dsimp only
  refine (congrFun (sout12_B_0_eq (F := Ideal) c (grid12.coords t) (ms12_0 t) (hs12_0 t) (ms12_1 t) (hs12_1 t) (ms12_2 t) (hs12_2 t) scM12_0 (Memref.isWhole_whole _) (fun h => h0 ((hcond12_0 t).mp h)) (fun h => h1 ((hcond12_1 t).mp h)) (iblk12 V c 0 t) (iblk12 V c 1 t) (outsAt12 V c (t.val - 1) (Nat.lt_of_le_of_lt (Nat.sub_le _ _) t.isLt)).2) (ix2 d q)).trans ?_
  refine (pay2_12_blocks V c t (outsAt12 V c (t.val - 1) (Nat.lt_of_le_of_lt (Nat.sub_le _ _) t.isLt)).2 d q).trans ?_
  rw [ih]
  exact acc12_step t.val h0 (fun tile => term12 V c (tile * 1024 + d.val) q)

/-- At a last edge chunk: the same, in the accumulator … -/
theorem acc12_at_C (c : Dev nD) (t : Fin cfg12.N) (h0 : ¬t.val % 196 = 0) (h1 : t.val % 196 = 195) (d : Fin 1024) (q : Fin 128)
    (ih : (outsAt12 V c (t.val - 1) (Nat.lt_of_le_of_lt (Nat.sub_le _ _) t.isLt)).2 (ix2 d q) = Cert.Spec.accTiles 2048 (term12 V c ((t.val - 1) / 196 * 1024 + d.val) q) ((t.val - 1) % 196)) :
    (outsAt12 V c t.val t.isLt).2 (ix2 d q) = Cert.Spec.accTiles 2048 (term12 V c (t.val / 196 * 1024 + d.val) q) (t.val % 196) := by
  rw [outsAt12_C V c t h0 h1]
  dsimp only
  refine (congrFun (sout12_C_0_eq (F := Ideal) c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) (ix2 d q)).trans ?_
  refine (pay2_12_blocks V c t (outsAt12 V c (t.val - 1) (Nat.lt_of_le_of_lt (Nat.sub_le _ _) t.isLt)).2 d q).trans ?_
  rw [ih]
  exact acc12_step t.val h0 (fun tile => term12 V c (tile * 1024 + d.val) q)

/-- … and in the output block. -/
theorem out12_at_C (c : Dev nD) (t : Fin cfg12.N) (h0 : ¬t.val % 196 = 0) (h1 : t.val % 196 = 195) (d : Fin 1024) (q : Fin 128)
    (ih : (outsAt12 V c (t.val - 1) (Nat.lt_of_le_of_lt (Nat.sub_le _ _) t.isLt)).2 (ix2 d q) = Cert.Spec.accTiles 2048 (term12 V c ((t.val - 1) / 196 * 1024 + d.val) q) ((t.val - 1) % 196)) :
    (outsAt12 V c t.val t.isLt).1 (ix2 d q) = Cert.Spec.accTiles 2048 (term12 V c (t.val / 196 * 1024 + d.val) q) (t.val % 196) := by
  rw [outsAt12_C V c t h0 h1]
  dsimp only
  refine (congrFun (out12_C_2_eq (F := Ideal) c (grid12.coords t) (ms12_0 t) (hs12_0 t) (ms12_1 t) (hs12_1 t) (ms12_2 t) (hs12_2 t) scM12_0 (Memref.isWhole_whole _) (fun h => h0 ((hcond12_0 t).mp h)) ((hcond12_1 t).mpr h1) (iblk12 V c 0 t) (iblk12 V c 1 t) (outsAt12 V c (t.val - 1) (Nat.lt_of_le_of_lt (Nat.sub_le _ _) t.isLt)).2) (ix2 d q)).trans ?_
  refine (pay2_12_blocks V c t (outsAt12 V c (t.val - 1) (Nat.lt_of_le_of_lt (Nat.sub_le _ _) t.isLt)).2 d q).trans ?_
  rw [ih]
  exact acc12_step t.val h0 (fun tile => term12 V c (tile * 1024 + d.val) q)

/-- THE INVARIANT: after point n the accumulator holds, at (d, q), the running total over the edge chunks 0 … n % 196 of
    the terms of destination row 1024 (n / 196) + d. -/
theorem acc12_inv (c : Dev nD) : ∀ (n : ℕ) (hn : n < cfg12.N) (d : Fin 1024) (q : Fin 128),
    (outsAt12 V c n hn).2 (ix2 d q) = Cert.Spec.accTiles 2048 (term12 V c (n / 196 * 1024 + d.val) q) (n % 196) := by
  intro n
  induction n with
  | zero =>
    intro hn d q
    exact acc12_at_A V c ⟨0, hn⟩ (Nat.zero_mod _) (by show ¬(0 % 196 = 195); omega) d q
  | succ n ih =>
    intro hn d q
    by_cases h0 : (n + 1) % 196 = 0
    · exact acc12_at_A V c ⟨n + 1, hn⟩ h0 (by show ¬((n + 1) % 196 = 195); omega) d q
    · by_cases h1 : (n + 1) % 196 = 195
      · exact acc12_at_C V c ⟨n + 1, hn⟩ h0 h1 d q (ih (Nat.lt_of_succ_lt hn) d q)
      · exact acc12_at_B V c ⟨n + 1, hn⟩ h0 h1 d q (ih (Nat.lt_of_succ_lt hn) d q)

/-- At a last edge chunk the output block holds, at (d, q), the sum of ALL the edges' terms of destination row
    1024 (t / 196) + d. -/
theorem out12_total (c : Dev nD) (t : Fin cfg12.N) (h1 : t.val % 196 = 195) (d : Fin 1024) (q : Fin 128) :
    (outsAt12 V c t.val t.isLt).1 (ix2 d q) = ∑ s : Fin (196 * 2048), edgeTerm12 V c (t.val / 196 * 1024 + d.val) q s := by
  have h0 : ¬t.val % 196 = 0 := by omega
  refine (out12_at_C V c t h0 h1 d q (acc12_inv V c (t.val - 1) (Nat.lt_of_le_of_lt (Nat.sub_le _ _) t.isLt) d q)).trans ?_
  rw [h1]
  exact Cert.Spec.accTiles_flat 196 2048 (by decide) (edgeTerm12 V c (t.val / 196 * 1024 + d.val) q)

/-! ## From the blocks to the array -/

/-- At a last edge chunk the output block, at a block index, is the second product at the array index 1024 (t / 196)
    rows further down. -/
theorem out12_eq_sca (c : Dev nD) (t : Fin cfg12.N) (h1 : t.val % 196 = 195) (j : S1024x128.Idx) (i : S20480x128.Idx)
    (hi0 : (i 0).val = t.val / 196 * 1024 + (j 0).val) (hi1 : (i 1).val = (j 1).val) :
    (outsAt12 V c t.val t.isLt).1 j = G12 V c i := by
  obtain ⟨d, q, rfl⟩ : ∃ (d : Fin 1024) (q : Fin 128), j = ix2 d q := ⟨j 0, j 1, eq_ix2 j⟩
  exact (out12_total V c t h1 d q).trans (sum12_eq_sca V c (t.val / 196 * 1024 + d.val) q i hi0 hi1)

/-- A block X whose every entry is the entry of Gf 1024 (t / 196) rows further down is, cut to what point t writes back,
    point t's block of Gf. -/
theorem flushed12_of (t : Fin cfg12.N) (X : Vec Ideal S1024x128 .f32) (Gf : S20480x128.Idx → EReal)
    (h : ∀ (j : S1024x128.Idx) (i : S20480x128.Idx), (i 0).val = t.val / 196 * 1024 + (j 0).val → (i 1).val = (j 1).val → X j = Gf i) :
    (cfg12.win 2).cut (grid12.coords t) X = ((cfg12.win 2).blk t).view.read (Elt Ideal) Gf := by
  obtain ⟨-, -, -, -, -, e0, e1⟩ := idx_facts12 t
  funext j
  rw [View.read_apply]
  refine h j (((cfg12.win 2).blk t).view.emb j) ?_ ?_
  · show win12_2.index t (0 : Fin 2) * 1024 + 1 * (j 0).val = t.val / 196 * 1024 + (j 0).val; rw [e0]; omega
  · show win12_2.index t (1 : Fin 2) * 128 + 1 * (j 1).val = (j 1).val; rw [e1]; omega

/-- What a flushing point writes back is its block of the second product of the arrays. -/
theorem flushed12_eq (c : Dev nD) (t : Fin cfg12.N) (hf : (cfg12.win 2).flush t = true) :
    (dat12 (F := Ideal) V c).flushed 2 t = ((cfg12.win 2).blk t).view.read (Elt Ideal) (G12 V c) := by
  have h1 : t.val % 196 = 195 := (flushAt12_2 t).mp hf
  show (cfg12.win 2).cut (grid12.coords t) ((dat12 (F := Ideal) V c).after 2 t) = _
  rw [after12_2]
  exact flushed12_of t (outsAt12 V c t.val t.isLt).1 (G12 V c) (out12_eq_sca V c t h1)

/-- The output array after the run is the second product (the one-hot sum over all the edges, per destination row) of
    the destination words and the rows as the region finds them. -/
theorem sca_val12 (c : Dev nD) :
    ((dat12 (F := Ideal) V c).arrAt 2 cfg12.N : S20480x128.Idx → EReal)
      = Cert.Spec.unc2 (Cert.Spec.sca (Cert.Spec.cur1 (V c main_v55 : S401408.Idx → BitVec 32)) (Cert.Spec.cur2 (V c main_v57 : S401408x128.Idx → EReal))) :=
  (dat12 (F := Ideal) V c).arrAt_eq_of_cover 2 (G12 V c) (fun t hf => flushed12_eq V c t hf) cover12

end

end Cert.KernelIdeal.H

end
-- ==== Proof.KI.SV14a.lean ====
/-
  A scatter launch (the second one-hot product of a relation), at the ideal values: the arithmetic of one grid point.
  The body compares, for row d of the destination tile and edge e of the chunk, the word of the row (tile index times
  1024 plus d) with the destination word of the edge; the comparison, widened and converted, is 1 where they agree and
  0 elsewhere; the matrix of these is multiplied with the chunk's rows and the product is added to the accumulator.  So
  at (d, q) the accumulate payload is the accumulator there plus the sum over the chunk's edges e of
  (1 if dst e is the row's word, else 0) · g (e, q); the zero fill is 0 everywhere.
  Then where a point's blocks sit in the arrays: point t is (destination tile t / 79, edge chunk t % 79), the chunk's
  edges are the global edges 2048 (t % 79) … and the tile's rows the global rows 1024 (t / 79) ….
-/
import proofs.«407232_j23192823399226_1_alg».proof.Proof.KI.S14Runs
import proofs.«407232_j23192823399226_1_alg».proof.Proof.SpecIdx
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The one-hot operand at an index -/

/-- The word of the destination row: tile index times 1024 plus the row inside the tile, as one word. -/
theorem rowWord14 (a d : Nat) : BitVec.ofNat 32 a * 1024#32 + BitVec.ofNat 32 d = BitVec.ofNat 32 (a * 1024 + d) := by
  rw [BitVec.ofNat_add, BitVec.ofNat_mul]

/-- The rows' words, broadcast along the edges, at (d, e): the tile's base word plus d. -/
theorem rows14_apply (w : BitVec 32) (d : Fin 1024) (e : Fin 2048) :
    broadcastTo S1024x2048 (addi (broadcast S1024x1 w) (iota .tc S1024x1 32 [0] iota_S1024x1_d0_w32)) broadcasts_S1024x1_S1024x2048 (ix2 d e)
      = w + BitVec.ofNat 32 d.val := by
  refine (broadcastTo_apply _ broadcasts_S1024x1_S1024x2048 (ix2 d e) (ix2 d (0 : Fin 1)) (fun a => ?_)).trans ?_
  · match a with
    | ⟨0, _⟩ => show d.val = if (1024 : Nat) = 1 then 0 else d.val; rw [if_neg (by decide)]
    | ⟨1, _⟩ => show 0 = if (1 : Nat) = 1 then 0 else _; rw [if_pos rfl]
  · show IntOp.addi w (iota .tc S1024x1 32 [0] iota_S1024x1_d0_w32 (ix2 d (0 : Fin 1))) = _
    rw [iota_single_apply]; rfl

/-- The edges' destination words, broadcast down the rows, at (d, e): the word of edge e. -/
theorem cols14_apply (x0 : IVec S2048 32) (d : Fin 1024) (e : Fin 2048) :
    broadcastTo S1024x2048 (shapeCast S1x2048 (shapeCast S2048 x0 shapeCasts_S2048_S2048) shapeCasts_S2048_S1x2048) broadcasts_S1x2048_S1024x2048 (ix2 d e) = x0 (ix1 e) := by
  refine (broadcastTo_apply _ broadcasts_S1x2048_S1024x2048 (ix2 d e) (ix2 (0 : Fin 1) e) (fun a => ?_)).trans ?_
  · match a with
    | ⟨0, _⟩ => show 0 = if (1 : Nat) = 1 then 0 else _; rw [if_pos rfl]
    | ⟨1, _⟩ => show e.val = if (2048 : Nat) = 1 then 0 else e.val; rw [if_neg (by decide)]
  · refine (shapeCast_addUnit_apply ![2048] _ shapeCasts_S2048_S1x2048 (ix2 (0 : Fin 1) e)).trans ?_
    rw [shapeCast_self]
    exact congrArg x0 (funext fun a => by match a with | ⟨0, _⟩ => rfl)

/-- A compared pair of words, widened and converted, is 1 where they are equal and 0 elsewhere. -/
theorem onehot14_word (a b : BitVec 32) :
    (FloatOps.sitofp (F := Ideal) .f32 ((IntOp.cmpi .eq a b).setWidth 32) : EReal) = if a = b then 1 else 0 := by
  by_cases h : a = b
  · subst h
    rw [if_pos rfl]
    show (((((BitVec.ofBool (a == a)).setWidth 32).toInt : ℝ)) : EReal) = 1
    rw [beq_self_eq_true]
    show ((((1#32 : BitVec 32).toInt : ℝ)) : EReal) = 1
    rw [show (1#32 : BitVec 32).toInt = 1 from by decide]
    simp
  · rw [if_neg h]
    show (((((BitVec.ofBool (a == b)).setWidth 32).toInt : ℝ)) : EReal) = 0
    rw [show (a == b) = false from by simpa using h]
    show ((((0#32 : BitVec 32).toInt : ℝ)) : EReal) = 0
    rw [show (0#32 : BitVec 32).toInt = 0 from by decide]
    simp

/-! ## The product at an index -/

theorem lhsA_pay14 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsB_pay14 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsA_pay14 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsB_pay14 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product into a zero accumulator, at row d and column q: the sum over the edges e of x (d, e) · y (e, q). -/
theorem matmul14_apply (x : FVec Ideal S1024x2048 .bf16) (y : FVec Ideal S2048x128 .bf16) (d : Fin 1024) (q : Fin 128) :
    matmul dot_S1024x2048_S2048x128_S1024x128_1_0_0_1_n_n none x y (constant (F := Ideal) S1024x128 .f32 0x00000000#32) (ix2 d q)
      = ∑ e : Fin 2048, x (ix2 d e) * y (ix2 e q) := by
  refine (Ideal.matmul_constant_zero_apply dot_S1024x2048_S2048x128_S1024x128_1_0_0_1_n_n none x y (ix2 d q)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 d q) ((contrEquiv1 dot_S1024x2048_S2048x128_S1024x128_1_0_0_1_n_n 2048 rfl rfl).symm k) = ix2 d k := funext fun a => Fin.ext (by
    match a with
    | ⟨0, _⟩ => exact lhsA_pay14 _ _
    | ⟨1, _⟩ => exact (lhsB_pay14 _ _).trans hk)
  have er : dot_S1024x2048_S2048x128_S1024x128_1_0_0_1_n_n.rhsIdx (ix2 d q) ((contrEquiv1 dot_S1024x2048_S2048x128_S1024x128_1_0_0_1_n_n 2048 rfl rfl).symm k) = ix2 k q := funext fun a => Fin.ext (by
    match a with
    | ⟨0, _⟩ => exact (rhsA_pay14 _ _).trans hk
    | ⟨1, _⟩ => exact rhsB_pay14 _ _)
  rw [el, er]

/-! ## The two payloads at an index -/

/-- The zero fill, at any index. -/
theorem zpay14_apply (j : S1024x128.Idx) : k14_pay1 (F := Ideal) j = 0 := by
  unfold k14_pay1
  (try dsimp only)
  rw [shapeCast_self]
  exact Ideal.ofBits_zero_f32

/-- The accumulate, at row d and column q of the tile: the accumulator there plus the sum, over the chunk's edges e, of
    (1 if the edge's destination word is the row's word, else 0) · g (e, q). -/
theorem pay2_14_apply (i : grid14.Coords) (x0 : Vec Ideal S2048 .i32) (x1 : Vec Ideal S2048x128 .bf16) (acc : Vec Ideal S1024x128 .f32)
    (d : Fin 1024) (q : Fin 128) :
    k14_pay2 (F := Ideal) i x0 x1 acc (ix2 d q)
      = acc (ix2 d q) + (0 + ∑ e : Fin 2048, (if BitVec.ofNat 32 ((i 0).val * 1024 + d.val) = x0 (ix1 e) then (1 : EReal) else 0) * x1 (ix2 e q)) := by
  unfold k14_pay2
  (try dsimp only)
  rw [shapeCast_self]
  refine (addf_apply _ _ (ix2 d q)).trans ?_
  refine congrArg (acc (ix2 d q) + ·) ?_
  refine (matmul14_apply _ _ d q).trans ?_
  rw [zero_add]
  refine Finset.sum_congr rfl fun e _ => ?_
  refine congrArg₂ (· * ·) ?_ ?_
  · refine (onehot14_word _ _).trans ?_
    rw [rows14_apply, cols14_apply]
    show (if Scalar.muli (BitVec.ofNat 32 (i 0).val) 1024#32 + BitVec.ofNat 32 d.val = x0 (ix1 e) then (1 : EReal) else 0) = _
    rw [show Scalar.muli (BitVec.ofNat 32 (i 0).val) 1024#32 = BitVec.ofNat 32 (i 0).val * 1024#32 from rfl, rowWord14]
  · rw [shapeCast_self]

end Cert.KernelIdeal.H

end
-- ==== Proof.KI.SV14b.lean ====
/-
  A scatter launch (the second one-hot product of a relation): its input windows' index maps in closed form.
  Point t is (destination tile t / 79, edge chunk t % 79); the blocks of the destination words and of the rows sit at
  the edge chunk (the index maps return the second grid coordinate, as a 32-bit word read back as a natural: no wrap,
  the coordinate being below 79), the output block at the destination tile.
-/
import proofs.«407232_j23192823399226_1_alg».proof.Proof.KI.S14Runs
import Idealize.ShloMosaic.Lib.ValueIdx

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The input windows' block indices at a point: the edge chunk t % 79 (and column block 0). -/
theorem iidx14 (t : Fin cfg14.N) : win14_0.index t (0 : Fin 1) = t.val % 79
    ∧ win14_1.index t (0 : Fin 2) = t.val % 79 ∧ win14_1.index t (1 : Fin 2) = 0 := by
  have c1 := coords14_1 t
  refine ⟨?_, ?_, rfl⟩
  · show (BitVec.ofNat 32 ((grid14.coords t) 1).val).toNat = _
    rw [BitVec.toNat_ofNat, c1]; omega
  · show (BitVec.ofNat 32 ((grid14.coords t) 1).val).toNat = _
    rw [BitVec.toNat_ofNat, c1]; omega

/-- The grid coordinates and the three windows' block indices at a point, together. -/
theorem idx_facts14 (t : Fin cfg14.N) : ((grid14.coords t) 0).val = t.val / 79 ∧ ((grid14.coords t) 1).val = t.val % 79
    ∧ win14_0.index t (0 : Fin 1) = t.val % 79
    ∧ win14_1.index t (0 : Fin 2) = t.val % 79 ∧ win14_1.index t (1 : Fin 2) = 0
    ∧ win14_2.index t (0 : Fin 2) = t.val / 79 ∧ win14_2.index t (1 : Fin 2) = 0 :=
  ⟨coords14_0 t, coords14_1 t, (iidx14 t).1, (iidx14 t).2.1, (iidx14 t).2.2, (oidx14 t).1, (oidx14 t).2⟩

end Cert.KernelIdeal.H

end
-- ==== Proof.KI.SV14.lean ====
/-
  A scatter launch (the second one-hot product of a relation), at the ideal values: what its output array holds after
  the run.  A grid point is (destination tile, edge chunk).  Within a tile the accumulator after edge chunk n holds, at
  row d and column q, the running total over the chunks 0 … n of the terms (1 if dst e is the word of row
  1024·tile + d, else 0) · g (e, q) of the chunks' edges e: the first chunk's payload is its total added to the zero
  fill, each later chunk's adds its total to what the accumulator held.  At the last chunk the total is over all
  161792 edges, the output block is stored from it, and the 20 blocks written back cover the 20480 rows.  So the array
  ends holding, at (R, q), the sum over all edges e of (1 if dst e is the word of R, else 0) · g (e, q).
-/
import proofs.«407232_j23192823399226_1_alg».proof.Proof.KI.S14
import proofs.«407232_j23192823399226_1_alg».proof.Proof.KI.SV14a
import proofs.«407232_j23192823399226_1_alg».proof.Proof.KI.SV14b
import proofs.«407232_j23192823399226_1_alg».proof.Proof.SpecIdx
import proofs.«407232_j23192823399226_1_alg».proof.Proof.SpecBridge
import Idealize.ShloMosaic.Lib.Pipeline.Value
import Idealize.ShloMosaic.Lib.ValueIdx
import Idealize.ShloMosaic.PureOps.Ideal.Laws

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## What each case leaves: the pieces the runs found, read back -/

theorem hz14 : (![0, 0] : Fin 2 → Nat) = fun _ => 0 := funext fun a => by fin_cases a <;> rfl
theorem hzv14 : (![0] : Fin 1 → Nat) = fun _ => 0 := funext fun a => by fin_cases a; rfl

/-- At a first edge chunk the accumulator ends at the accumulate payload of the point's blocks over the zero fill:
    the fill's store is covered by the accumulate's, which read the fill back. -/
theorem sout14_A_0_eq (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : cond14_0 i) (hc1 : ¬cond14_1 i)
    (x0 : Vec F S2048 .i32) (x1 : Vec F S2048x128 .bf16) :
    sout14_A_0 c i arg2 harg2 arg3 harg3 arg4 harg4 arg5 harg5 hc0 hc1 x0 x1 = k14_pay2 i x0 x1 (k14_pay1 (F := F)) := by
  unfold sout14_A_0
  rw [View.read_writes_eq_canon _ _ _ (scover14_A_0 c i arg2 harg2 arg3 harg3 arg4 harg4 arg5 harg5 hc0 hc1 x0 x1)]
  unfold kernelRun14_A
  dsimp only
  sl_unfold_words
  rw [View.canon_cons_unit_zero (S := S1024x128) hz14]
  simp only [View.readAt_eq_ld, harg2.read_unread, harg3.read_unread, View.readCov_unit_zero (S := S1024x128) _ hz14,
    View.ld_unit_zero (S := S2048) hzv14, View.ld_unit_zero (S := S2048x128) hz14]

/-- At a middle edge chunk the accumulator ends at the accumulate payload of the point's blocks over what it held. -/
theorem sout14_B_0_eq (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : ¬cond14_1 i)
    (x0 : Vec F S2048 .i32) (x1 : Vec F S2048x128 .bf16) (xs0 : Vec F S1024x128 .f32) :
    sout14_B_0 c i arg2 harg2 arg3 harg3 arg4 harg4 arg5 harg5 hc0 hc1 x0 x1 xs0 = k14_pay2 i x0 x1 xs0 := by
  unfold sout14_B_0
  rw [View.read_writes_eq_canon _ _ _ (scover14_B_0 c i arg2 harg2 arg3 harg3 arg4 harg4 arg5 harg5 hc0 hc1 x0 x1 xs0)]
  unfold kernelRun14_B
  dsimp only
  sl_unfold_words
  rw [View.canon_unit_zero hz14]
  simp only [View.readAt_eq_ld, harg2.read_unread, harg3.read_unread, harg5.read_unread,
    View.ld_unit_zero (S := S2048) hzv14, View.ld_unit_zero (S := S2048x128) hz14, View.ld_unit_zero (S := S1024x128) hz14]

/-- At a last edge chunk the accumulator ends at the accumulate payload of the point's blocks over what it held … -/
theorem sout14_C_0_eq (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) :
    sout14_C_0 c i arg2 harg2 arg3 harg3 arg4 harg4 arg5 harg5 hc0 hc1 x0 x1 xs0 = k14_pay2 i x0 x1 xs0 := by
  unfold sout14_C_0
  rw [View.read_writes_eq_canon _ _ _ (scover14_C_0 c i arg2 harg2 arg3 harg3 arg4 harg4 arg5 harg5 hc0 hc1 x0 x1 xs0)]
  unfold kernelRun14_C
  dsimp only
  sl_unfold_words
  rw [View.canon_unit_zero hz14]
  simp only [View.readAt_eq_ld, harg2.read_unread, harg3.read_unread, harg5.read_unread,
    View.ld_unit_zero (S := S2048) hzv14, View.ld_unit_zero (S := S2048x128) hz14, View.ld_unit_zero (S := S1024x128) hz14]

/-- … and the output block at the same: the accumulator just written, loaded back and stored. -/
theorem out14_C_2_eq (c : Dev nD) (i : grid14.Coords) (arg2 : Memref sig .tc .vmem S2048 .i32) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x128 .f32) (harg5 : arg5.IsWhole) (hc0 : ¬cond14_0 i) (hc1 : cond14_1 i)
    (x0 : Vec F S2048 .i32) (x1 : Vec F S2048x128 .bf16) (xs0 : Vec F S1024x128 .f32) :
    out14_C_2 c i arg2 harg2 arg3 harg3 arg4 harg4 arg5 harg5 hc0 hc1 x0 x1 xs0 = k14_pay2 i x0 x1 xs0 := by
  unfold out14_C_2
  rw [View.read_writes_eq_canon _ _ _ (cover14_C_2 c i arg2 harg2 arg3 harg3 arg4 harg4 arg5 harg5 hc0 hc1 x0 x1 xs0)]
  unfold kernelRun14_C
  dsimp only
  sl_unfold_words
  rw [View.canon_unit_zero hz14]
  simp only [View.readAt_eq_ld, harg2.read_unread, harg3.read_unread, harg5.read_unread, View.readCov_unit_zero (S := S1024x128) _ hz14,
    View.ld_unit_zero (S := S2048) hzv14, View.ld_unit_zero (S := S2048x128) hz14, View.ld_unit_zero (S := S1024x128) hz14]

/-! ## Where a point's blocks sit in the arrays -/

section
variable (V : (c : Dev nD) → (b : Ref sig .tc) → Buf (Elt Ideal) ((c : Thread nD τ).loc b))

/-- The destination words of the chunk at point t are those of the global edges 2048 (t % 79) …. -/
theorem dblk14_apply (c : Dev nD) (t : Fin cfg14.N) (e : Fin 2048) (E : Fin 161792) (hE : E.val = 2048 * (t.val % 79) + e.val) :
    (iblk14 V c 0 t : Vec Ideal S2048 .i32) (ix1 e) = (V c main_v70 : Vec Ideal S161792 .i32) (ix1 E) := by
  obtain ⟨-, -, e0, -⟩ := idx_facts14 t
  unfold iblk14
  rw [View.read_apply]
  show V c main_v70 _ = V c main_v70 _
  congr 1
  funext a
  apply Fin.ext
  match a with
  | ⟨0, _⟩ => show win14_0.index t (0 : Fin 1) * 2048 + 1 * e.val = E.val; rw [e0, hE]; omega

/-- The rows of the chunk at point t are the rows of the global edges 2048 (t % 79) …. -/
theorem gblk14_apply (c : Dev nD) (t : Fin cfg14.N) (e : Fin 2048) (q : Fin 128) (E : Fin 161792) (hE : E.val = 2048 * (t.val % 79) + e.val) :
    (iblk14 V c 1 t : Vec Ideal S2048x128 .bf16) (ix2 e q) = (V c main_v72 : Vec Ideal S161792x128 .bf16) (ix2 E q) := by
  obtain ⟨-, -, -, e0, e1, -⟩ := idx_facts14 t
  unfold iblk14
  rw [View.read_apply]
  show V c main_v72 _ = V c main_v72 _
  congr 1
  funext a
  apply Fin.ext
  match a with
  | ⟨0, _⟩ => show win14_1.index t (0 : Fin 2) * 2048 + 1 * e.val = E.val; rw [e0, hE]; omega
  | ⟨1, _⟩ => show win14_1.index t (1 : Fin 2) * 128 + 1 * q.val = q.val; rw [e1]; omega

/-- The term of global edge s in destination row R's sum at column q. -/
def edgeTerm14 (c : Dev nD) (R : Nat) (q : Fin 128) (s : Fin (79 * 2048)) : EReal :=
  (if BitVec.ofNat 32 R = (V c main_v70 : Vec Ideal S161792 .i32) (ix1 s) then (1 : EReal) else 0) * (V c main_v72 : Vec Ideal S161792x128 .bf16) (ix2 s q)

/-- The same over the naturals, zero past the arrays' end: the summand the running total is stated over. -/
def term14 (c : Dev nD) (R : Nat) (q : Fin 128) : ℕ → EReal :=
  fun s => if h : s < 79 * 2048 then edgeTerm14 V c R q ⟨s, h⟩ else 0

/-- One chunk's sum at point t, over the point's blocks, is the sum of the terms of the chunk's global edges. -/
theorem chunk14_sum (c : Dev nD) (t : Fin cfg14.N) (d : Fin 1024) (q : Fin 128) :
    (∑ e : Fin 2048, (if BitVec.ofNat 32 (((grid14.coords t) 0).val * 1024 + d.val) = (iblk14 V c 0 t : Vec Ideal S2048 .i32) (ix1 e) then (1 : EReal) else 0) * (iblk14 V c 1 t : Vec Ideal S2048x128 .bf16) (ix2 e q))
      = ∑ k : Fin 2048, term14 V c (t.val / 79 * 1024 + d.val) q (t.val % 79 * 2048 + k.val) := by
  obtain ⟨g0, -⟩ := idx_facts14 t
  refine Finset.sum_congr rfl fun e _ => ?_
  have hlt : t.val % 79 * 2048 + e.val < 79 * 2048 := by
    have := e.isLt; have := Nat.mod_lt t.val (show 0 < 79 by decide); omega
  unfold term14
  rw [dif_pos hlt]
  unfold edgeTerm14
  rw [g0, dblk14_apply V c t e ⟨t.val % 79 * 2048 + e.val, hlt⟩ (by show t.val % 79 * 2048 + e.val = _; omega),
    gblk14_apply V c t e q ⟨t.val % 79 * 2048 + e.val, hlt⟩ (by show t.val % 79 * 2048 + e.val = _; omega)]

end

/-! ## The running total, chunk by chunk -/

/-- After the first chunk: the total of its terms, added to zero. -/
theorem acc14_first (f : ℕ → EReal) :
    (0 : EReal) + (0 + ∑ k : Fin 2048, f (0 * 2048 + k.val)) = Cert.Spec.accTiles 2048 f 0 := by
  simp only [Nat.zero_mul, Nat.zero_add]
  rfl

/-- After a later chunk of the same destination tile: the total so far plus the chunk's terms (the summand given by tile index). -/
theorem acc14_step (n : ℕ) (h0 : ¬n % 79 = 0) (f : ℕ → ℕ → EReal) :
    Cert.Spec.accTiles 2048 (f ((n - 1) / 79)) ((n - 1) % 79) + (0 + ∑ k : Fin 2048, f (n / 79) (n % 79 * 2048 + k.val))
      = Cert.Spec.accTiles 2048 (f (n / 79)) (n % 79) := by
  have e1 : (n - 1) / 79 = n / 79 := by omega
  obtain ⟨m, hm⟩ : ∃ m, n % 79 = m + 1 := ⟨n % 79 - 1, by omega⟩
  have e2 : (n - 1) % 79 = m := by omega
  rw [e1, e2, hm]
  rfl

section
variable (V : (c : Dev nD) → (b : Ref sig .tc) → Buf (Elt Ideal) ((c : Thread nD τ).loc b))

/-- The accumulate payload of point t's blocks over an accumulator, at (d, q): the accumulator there plus the terms
    of the chunk's edges in the sum of destination row 1024 (t / 79) + d. -/
theorem pay2_14_blocks (c : Dev nD) (t : Fin cfg14.N) (acc : Vec Ideal S1024x128 .f32) (d : Fin 1024) (q : Fin 128) :
    k14_pay2 (F := Ideal) (grid14.coords t) (iblk14 V c 0 t) (iblk14 V c 1 t) acc (ix2 d q)
      = acc (ix2 d q) + (0 + ∑ k : Fin 2048, term14 V c (t.val / 79 * 1024 + d.val) q (t.val % 79 * 2048 + k.val)) :=
  (pay2_14_apply (grid14.coords t) (iblk14 V c 0 t) (iblk14 V c 1 t) acc d q).trans
    (congrArg (fun z => acc (ix2 d q) + (0 + z)) (chunk14_sum V c t d q))

/-- The second product of the arrays as the region finds them. -/
abbrev G14 (c : Dev nD) : S20480x128.Idx → EReal :=
  Cert.Spec.unc2 (Cert.Spec.sca (Cert.Spec.cur1 (V c main_v70 : S161792.Idx → BitVec 32)) (Cert.Spec.cur2 (V c main_v72 : S161792x128.Idx → EReal)))

/-- The sum of all the edges' terms for destination row R at column q is the second product at (R, q). -/
theorem sum14_eq_sca (c : Dev nD) (R : Nat) (q : Fin 128) (i : S20480x128.Idx) (hi0 : (i 0).val = R) (hi1 : (i 1).val = q.val) :
    ∑ s : Fin (79 * 2048), edgeTerm14 V c R q s = G14 V c i := by
  obtain ⟨R', Q, rfl⟩ : ∃ (R' : Fin 20480) (Q : Fin 128), i = ix2 R' Q := ⟨i 0, i 1, eq_ix2 i⟩
  obtain rfl : Q = q := Fin.ext hi1
  subst hi0
  rfl

/-- An index of the array is in point t's block iff each coordinate is in the block's range on its axis. -/
theorem mem_blk14 (t : Fin cfg14.N) (i : S20480x128.Idx) :
    i ∈ ((cfg14.win 2).blk t).view.set ↔ ∀ a : Fin 2, win14_2.index t a * S1024x128.size a ≤ (i a).val ∧ (i a).val < win14_2.index t a * S1024x128.size a + S1024x128.size a := by
  show i ∈ ((View.whole main_v73).slice (win14_2.rect t)).set ↔ _
  rw [View.set_slice_whole, Rect.mem_set_unit]
  exact Iff.rfl

/-- Row R of the array is in the block written back at the last edge chunk of destination tile R / 1024. -/
theorem cover14 (i : S20480x128.Idx) : ∃ t : Fin cfg14.N, (cfg14.win 2).flush t = true ∧ i ∈ ((cfg14.win 2).blk t).view.set := by
  have hi0 : (i 0).val < 20480 := (i 0).isLt
  have hi1 : (i 1).val < 128 := (i 1).isLt
  have hN : cfg14.N = 1580 := N_14
  have hlt : (i 0).val / 1024 * 79 + 78 < cfg14.N := by rw [hN]; omega
  refine ⟨⟨(i 0).val / 1024 * 79 + 78, hlt⟩, (flushAt14_2 _).mpr (by show ((i 0).val / 1024 * 79 + 78) % 79 = 78; omega), ?_⟩
  obtain ⟨-, -, -, -, -, e0, e1⟩ := idx_facts14 ⟨(i 0).val / 1024 * 79 + 78, hlt⟩
  rw [mem_blk14]
  intro a
  match a with
  | ⟨0, _⟩ => show win14_2.index _ (0 : Fin 2) * 1024 ≤ (i 0).val ∧ (i 0).val < win14_2.index _ (0 : Fin 2) * 1024 + 1024; rw [e0]; show ((i 0).val / 1024 * 79 + 78) / 79 * 1024 ≤ (i 0).val ∧ (i 0).val < ((i 0).val / 1024 * 79 + 78) / 79 * 1024 + 1024; omega
  | ⟨1, _⟩ => show win14_2.index _ (1 : Fin 2) * 128 ≤ (i 1).val ∧ (i 1).val < win14_2.index _ (1 : Fin 2) * 128 + 128; rw [e1]; omega

end

/-! ## The invariant: the accumulator after every point -/

section
variable (V : (c : Dev nD) → (b : Ref sig .tc) → Buf (Elt Ideal) ((c : Thread nD τ).loc b))

/-- At a first edge chunk the accumulator holds the first chunk's total of the tile's rows. -/
theorem acc14_at_A (c : Dev nD) (t : Fin cfg14.N) (h0 : t.val % 79 = 0) (h1 : ¬t.val % 79 = 78) (d : Fin 1024) (q : Fin 128) :
    (outsAt14 V c t.val t.isLt).2 (ix2 d q) = Cert.Spec.accTiles 2048 (term14 V c (t.val / 79 * 1024 + d.val) q) (t.val % 79) := by
  rw [outsAt14_A V c t h0 h1]
  dsimp only
  refine (congrFun (sout14_A_0_eq (F := Ideal) c (grid14.coords t) (ms14_0 t) (hs14_0 t) (ms14_1 t) (hs14_1 t) (ms14_2 t) (hs14_2 t) scM14_0 (Memref.isWhole_whole _) ((hcond14_0 t).mpr h0) (fun h => h1 ((hcond14_1 t).mp h)) (iblk14 V c 0 t) (iblk14 V c 1 t)) (ix2 d q)).trans ?_
  refine (pay2_14_blocks V c t (k14_pay1 (F := Ideal)) d q).trans ?_
  rw [zpay14_apply, h0]
  exact acc14_first (term14 V c (t.val / 79 * 1024 + d.val) q)

/-- At a middle edge chunk: the total so far plus this chunk's. -/
theorem acc14_at_B (c : Dev nD) (t : Fin cfg14.N) (h0 : ¬t.val % 79 = 0) (h1 : ¬t.val % 79 = 78) (d : Fin 1024) (q : Fin 128)
    (ih : (outsAt14 V c (t.val - 1) (Nat.lt_of_le_of_lt (Nat.sub_le _ _) t.isLt)).2 (ix2 d q) = Cert.Spec.accTiles 2048 (term14 V c ((t.val - 1) / 79 * 1024 + d.val) q) ((t.val - 1) % 79)) :
    (outsAt14 V c t.val t.isLt).2 (ix2 d q) = Cert.Spec.accTiles 2048 (term14 V c (t.val / 79 * 1024 + d.val) q) (t.val % 79) := by
  rw [outsAt14_B V c t h0 h1]
  dsimp only
  refine (congrFun (sout14_B_0_eq (F := Ideal) c (grid14.coords t) (ms14_0 t) (hs14_0 t) (ms14_1 t) (hs14_1 t) (ms14_2 t) (hs14_2 t) scM14_0 (Memref.isWhole_whole _) (fun h => h0 ((hcond14_0 t).mp h)) (fun h => h1 ((hcond14_1 t).mp h)) (iblk14 V c 0 t) (iblk14 V c 1 t) (outsAt14 V c (t.val - 1) (Nat.lt_of_le_of_lt (Nat.sub_le _ _) t.isLt)).2) (ix2 d q)).trans ?_
  refine (pay2_14_blocks V c t (outsAt14 V c (t.val - 1) (Nat.lt_of_le_of_lt (Nat.sub_le _ _) t.isLt)).2 d q).trans ?_
  rw [ih]
  exact acc14_step t.val h0 (fun tile => term14 V c (tile * 1024 + d.val) q)

/-- At a last edge chunk: the same, in the accumulator … -/
theorem acc14_at_C (c : Dev nD) (t : Fin cfg14.N) (h0 : ¬t.val % 79 = 0) (h1 : t.val % 79 = 78) (d : Fin 1024) (q : Fin 128)
    (ih : (outsAt14 V c (t.val - 1) (Nat.lt_of_le_of_lt (Nat.sub_le _ _) t.isLt)).2 (ix2 d q) = Cert.Spec.accTiles 2048 (term14 V c ((t.val - 1) / 79 * 1024 + d.val) q) ((t.val - 1) % 79)) :
    (outsAt14 V c t.val t.isLt).2 (ix2 d q) = Cert.Spec.accTiles 2048 (term14 V c (t.val / 79 * 1024 + d.val) q) (t.val % 79) := by
  rw [outsAt14_C V c t h0 h1]
  dsimp only
  refine (congrFun (sout14_C_0_eq (F := Ideal) c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2) (ix2 d q)).trans ?_
  refine (pay2_14_blocks V c t (outsAt14 V c (t.val - 1) (Nat.lt_of_le_of_lt (Nat.sub_le _ _) t.isLt)).2 d q).trans ?_
  rw [ih]
  exact acc14_step t.val h0 (fun tile => term14 V c (tile * 1024 + d.val) q)

/-- … and in the output block. -/
theorem out14_at_C (c : Dev nD) (t : Fin cfg14.N) (h0 : ¬t.val % 79 = 0) (h1 : t.val % 79 = 78) (d : Fin 1024) (q : Fin 128)
    (ih : (outsAt14 V c (t.val - 1) (Nat.lt_of_le_of_lt (Nat.sub_le _ _) t.isLt)).2 (ix2 d q) = Cert.Spec.accTiles 2048 (term14 V c ((t.val - 1) / 79 * 1024 + d.val) q) ((t.val - 1) % 79)) :
    (outsAt14 V c t.val t.isLt).1 (ix2 d q) = Cert.Spec.accTiles 2048 (term14 V c (t.val / 79 * 1024 + d.val) q) (t.val % 79) := by
  rw [outsAt14_C V c t h0 h1]
  dsimp only
  refine (congrFun (out14_C_2_eq (F := Ideal) c (grid14.coords t) (ms14_0 t) (hs14_0 t) (ms14_1 t) (hs14_1 t) (ms14_2 t) (hs14_2 t) scM14_0 (Memref.isWhole_whole _) (fun h => h0 ((hcond14_0 t).mp h)) ((hcond14_1 t).mpr h1) (iblk14 V c 0 t) (iblk14 V c 1 t) (outsAt14 V c (t.val - 1) (Nat.lt_of_le_of_lt (Nat.sub_le _ _) t.isLt)).2) (ix2 d q)).trans ?_
  refine (pay2_14_blocks V c t (outsAt14 V c (t.val - 1) (Nat.lt_of_le_of_lt (Nat.sub_le _ _) t.isLt)).2 d q).trans ?_
  rw [ih]
  exact acc14_step t.val h0 (fun tile => term14 V c (tile * 1024 + d.val) q)

/-- THE INVARIANT: after point n the accumulator holds, at (d, q), the running total over the edge chunks 0 … n % 79 of
    the terms of destination row 1024 (n / 79) + d. -/
theorem acc14_inv (c : Dev nD) : ∀ (n : ℕ) (hn : n < cfg14.N) (d : Fin 1024) (q : Fin 128),
    (outsAt14 V c n hn).2 (ix2 d q) = Cert.Spec.accTiles 2048 (term14 V c (n / 79 * 1024 + d.val) q) (n % 79) := by
  intro n
  induction n with
  | zero =>
    intro hn d q
    exact acc14_at_A V c ⟨0, hn⟩ (Nat.zero_mod _) (by show ¬(0 % 79 = 78); omega) d q
  | succ n ih =>
    intro hn d q
    by_cases h0 : (n + 1) % 79 = 0
    · exact acc14_at_A V c ⟨n + 1, hn⟩ h0 (by show ¬((n + 1) % 79 = 78); omega) d q
    · by_cases h1 : (n + 1) % 79 = 78
      · exact acc14_at_C V c ⟨n + 1, hn⟩ h0 h1 d q (ih (Nat.lt_of_succ_lt hn) d q)
      · exact acc14_at_B V c ⟨n + 1, hn⟩ h0 h1 d q (ih (Nat.lt_of_succ_lt hn) d q)

/-- At a last edge chunk the output block holds, at (d, q), the sum of ALL the edges' terms of destination row
    1024 (t / 79) + d. -/
theorem out14_total (c : Dev nD) (t : Fin cfg14.N) (h1 : t.val % 79 = 78) (d : Fin 1024) (q : Fin 128) :
    (outsAt14 V c t.val t.isLt).1 (ix2 d q) = ∑ s : Fin (79 * 2048), edgeTerm14 V c (t.val / 79 * 1024 + d.val) q s := by
  have h0 : ¬t.val % 79 = 0 := by omega
  refine (out14_at_C V c t h0 h1 d q (acc14_inv V c (t.val - 1) (Nat.lt_of_le_of_lt (Nat.sub_le _ _) t.isLt) d q)).trans ?_
  rw [h1]
  exact Cert.Spec.accTiles_flat 79 2048 (by decide) (edgeTerm14 V c (t.val / 79 * 1024 + d.val) q)

/-! ## From the blocks to the array -/

/-- At a last edge chunk the output block, at a block index, is the second product at the array index 1024 (t / 79)
    rows further down. -/
theorem out14_eq_sca (c : Dev nD) (t : Fin cfg14.N) (h1 : t.val % 79 = 78) (j : S1024x128.Idx) (i : S20480x128.Idx)
    (hi0 : (i 0).val = t.val / 79 * 1024 + (j 0).val) (hi1 : (i 1).val = (j 1).val) :
    (outsAt14 V c t.val t.isLt).1 j = G14 V c i := by
  obtain ⟨d, q, rfl⟩ : ∃ (d : Fin 1024) (q : Fin 128), j = ix2 d q := ⟨j 0, j 1, eq_ix2 j⟩
  exact (out14_total V c t h1 d q).trans (sum14_eq_sca V c (t.val / 79 * 1024 + d.val) q i hi0 hi1)

/-- A block X whose every entry is the entry of Gf 1024 (t / 79) rows further down is, cut to what point t writes back,
    point t's block of Gf. -/
theorem flushed14_of (t : Fin cfg14.N) (X : Vec Ideal S1024x128 .f32) (Gf : S20480x128.Idx → EReal)
    (h : ∀ (j : S1024x128.Idx) (i : S20480x128.Idx), (i 0).val = t.val / 79 * 1024 + (j 0).val → (i 1).val = (j 1).val → X j = Gf i) :
    (cfg14.win 2).cut (grid14.coords t) X = ((cfg14.win 2).blk t).view.read (Elt Ideal) Gf := by
  obtain ⟨-, -, -, -, -, e0, e1⟩ := idx_facts14 t
  funext j
  rw [View.read_apply]
  refine h j (((cfg14.win 2).blk t).view.emb j) ?_ ?_
  · show win14_2.index t (0 : Fin 2) * 1024 + 1 * (j 0).val = t.val / 79 * 1024 + (j 0).val; rw [e0]; omega
  · show win14_2.index t (1 : Fin 2) * 128 + 1 * (j 1).val = (j 1).val; rw [e1]; omega

/-- What a flushing point writes back is its block of the second product of the arrays. -/
theorem flushed14_eq (c : Dev nD) (t : Fin cfg14.N) (hf : (cfg14.win 2).flush t = true) :
    (dat14 (F := Ideal) V c).flushed 2 t = ((cfg14.win 2).blk t).view.read (Elt Ideal) (G14 V c) := by
  have h1 : t.val % 79 = 78 := (flushAt14_2 t).mp hf
  show (cfg14.win 2).cut (grid14.coords t) ((dat14 (F := Ideal) V c).after 2 t) = _
  rw [after14_2]
  exact flushed14_of t (outsAt14 V c t.val t.isLt).1 (G14 V c) (out14_eq_sca V c t h1)

/-- The output array after the run is the second product (the one-hot sum over all the edges, per destination row) of
    the destination words and the rows as the region finds them. -/
theorem sca_val14 (c : Dev nD) :
    ((dat14 (F := Ideal) V c).arrAt 2 cfg14.N : S20480x128.Idx → EReal)
      = Cert.Spec.unc2 (Cert.Spec.sca (Cert.Spec.cur1 (V c main_v70 : S161792.Idx → BitVec 32)) (Cert.Spec.cur2 (V c main_v72 : S161792x128.Idx → EReal))) :=
  (dat14 (F := Ideal) V c).arrAt_eq_of_cover 2 (G14 V c) (fun t hf => flushed14_eq V c t hf) cover14

end

end Cert.KernelIdeal.H

end
-- ==== Proof.KI.KVal.lean ====
/-
  The kernel's three results at the end of @main, as the shared mathematics: the contents of the buffers at the
  boundaries of @main, from the launch memory, are related as the program relates them — each region changes its output
  array only and leaves there what its value lemma says of the contents it finds (the dense layer, the one-hot gather
  product, the one-hot scatter product), each group of host stretches acts as read —, so following the buffers along
  the chain the three result buffers hold the word, topic and document features.
-/
import proofs.«407232_j23192823399226_1_alg».proof.Proof.KI.Vals
import proofs.«407232_j23192823399226_1_alg».proof.Proof.KI.HostChain
import proofs.«407232_j23192823399226_1_alg».proof.Proof.KI.LV0
import proofs.«407232_j23192823399226_1_alg».proof.Proof.KI.LV3
import proofs.«407232_j23192823399226_1_alg».proof.Proof.KI.LV4
import proofs.«407232_j23192823399226_1_alg».proof.Proof.KI.LV5
import proofs.«407232_j23192823399226_1_alg».proof.Proof.KI.LV6
import proofs.«407232_j23192823399226_1_alg».proof.Proof.KI.GV1
import proofs.«407232_j23192823399226_1_alg».proof.Proof.KI.GV7
import proofs.«407232_j23192823399226_1_alg».proof.Proof.KI.GV9
import proofs.«407232_j23192823399226_1_alg».proof.Proof.KI.GV11
import proofs.«407232_j23192823399226_1_alg».proof.Proof.KI.GV13
import proofs.«407232_j23192823399226_1_alg».proof.Proof.KI.SV2
import proofs.«407232_j23192823399226_1_alg».proof.Proof.KI.SV8
import proofs.«407232_j23192823399226_1_alg».proof.Proof.KI.SV10
import proofs.«407232_j23192823399226_1_alg».proof.Proof.KI.SV12
import proofs.«407232_j23192823399226_1_alg».proof.Proof.KI.SV14

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec

variable (m : (ℓ : Loc nD τ sig) → Buf (Elt Ideal) ℓ)

/-- The 27 argument arrays of core `c` at launch, as the inputs of the mathematics. -/
abbrev Iof (c : Dev nD) : Inputs :=
  inputsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))
    (m ((c : Thread nD τ).loc main_arg21)) (m ((c : Thread nD τ).loc main_arg22)) (m ((c : Thread nD τ).loc main_arg23))
    (m ((c : Thread nD τ).loc main_arg24)) (m ((c : Thread nD τ).loc main_arg25)) (m ((c : Thread nD τ).loc main_arg26))

/-! ## The contents at every boundary of @main are related as the chain asks -/

/-- The launch inputs read off the launch contents are the launch memory's. -/
theorem IofW_E0 (c : Dev nD) : IofW (E0 m c) = Iof m c := rfl

set_option maxHeartbeats 8000000 in
/-- The contents at the boundaries of @main, from the launch memory, are related as the program relates them: each
    region changes its output array only, leaving there what its value lemma says of its entry contents, and each
    region entry after host stretches is those stretches applied. -/
theorem chainOf (c : Dev nD) :
    Chain (E0 m c) (X0 m c) (E1 m c) (X1 m c) (X2 m c) (E3 m c) (X3 m c) (X4 m c) (X5 m c) (X6 m c) (E7 m c) (X7 m c) (X8 m c)
      (E9 m c) (X9 m c) (X10 m c) (E11 m c) (X11 m c) (X12 m c) (E13 m c) (X13 m c) (X14 m c) (E15 m c) where
  b0 := fun r h => by unfold X0; exact Function.update_of_ne (StableHlo.devRef_ne_of_ne h) _ _
  a1 := by unfold E1; rfl
  b1 := fun r h => by unfold X1; exact Function.update_of_ne (StableHlo.devRef_ne_of_ne h) _ _
  b2 := fun r h => by unfold X2; exact Function.update_of_ne (StableHlo.devRef_ne_of_ne h) _ _
  a3 := by unfold E3; rfl
  b3 := fun r h => by unfold X3; exact Function.update_of_ne (StableHlo.devRef_ne_of_ne h) _ _
  b4 := fun r h => by unfold X4; exact Function.update_of_ne (StableHlo.devRef_ne_of_ne h) _ _
  b5 := fun r h => by unfold X5; exact Function.update_of_ne (StableHlo.devRef_ne_of_ne h) _ _
  b6 := fun r h => by unfold X6; exact Function.update_of_ne (StableHlo.devRef_ne_of_ne h) _ _
  a7 := by unfold E7; rfl
  b7 := fun r h => by unfold X7; exact Function.update_of_ne (StableHlo.devRef_ne_of_ne h) _ _
  b8 := fun r h => by unfold X8; exact Function.update_of_ne (StableHlo.devRef_ne_of_ne h) _ _
  a9 := by unfold E9; rfl
  b9 := fun r h => by unfold X9; exact Function.update_of_ne (StableHlo.devRef_ne_of_ne h) _ _
  b10 := fun r h => by unfold X10; exact Function.update_of_ne (StableHlo.devRef_ne_of_ne h) _ _
  a11 := by unfold E11; rfl
  b11 := fun r h => by unfold X11; exact Function.update_of_ne (StableHlo.devRef_ne_of_ne h) _ _
  b12 := fun r h => by unfold X12; exact Function.update_of_ne (StableHlo.devRef_ne_of_ne h) _ _
  a13 := by unfold E13; rfl
  b13 := fun r h => by unfold X13; exact Function.update_of_ne (StableHlo.devRef_ne_of_ne h) _ _
  b14 := fun r h => by unfold X14; exact Function.update_of_ne (StableHlo.devRef_ne_of_ne h) _ _
  a15 := by unfold E15; rfl
  e0 := by unfold X0; rw [Function.update_self]; exact lin_val0 (Vt (E0 m)) c
  e1 := by unfold X1; rw [Function.update_self]; exact gat_val1 (Vt (E1 m)) c
  e2 := by unfold X2; rw [Function.update_self]; exact sca_val2 (Vt (X1 m)) c
  e3 := by unfold X3; rw [Function.update_self]; exact lin_val3 (Vt (E3 m)) c
  e4 := by unfold X4; rw [Function.update_self]; exact lin_val4 (Vt (X3 m)) c
  e5 := by unfold X5; rw [Function.update_self]; exact lin_val5 (Vt (X4 m)) c
  e6 := by unfold X6; rw [Function.update_self]; exact lin_val6 (Vt (X5 m)) c
  e7 := by unfold X7; rw [Function.update_self]; exact gat_val7 (Vt (E7 m)) c
  e8 := by unfold X8; rw [Function.update_self]; exact sca_val8 (Vt (X7 m)) c
  e9 := by unfold X9; rw [Function.update_self]; exact gat_val9 (Vt (E9 m)) c
  e10 := by unfold X10; rw [Function.update_self]; exact sca_val10 (Vt (X9 m)) c
  e11 := by unfold X11; rw [Function.update_self]; exact gat_val11 (Vt (E11 m)) c
  e12 := by unfold X12; rw [Function.update_self]; exact sca_val12 (Vt (X11 m)) c
  e13 := by unfold X13; rw [Function.update_self]; exact gat_val13 (Vt (E13 m)) c
  e14 := by unfold X14; rw [Function.update_self]; exact sca_val14 (Vt (X13 m)) c

/-- The kernel's three results at the end of @main are the word, topic and document features of the kernel's
    mathematics. -/
theorem kernel_values (c : Dev nD) :
    (E15 m c main_v18 : S50000x128.Idx → EReal) = unc2 (word Ideal.div (Iof m c) (aggsK (Iof m c)))
    ∧ (E15 m c main_v53 : S4000x128.Idx → EReal) = unc2 (topic Ideal.div (Iof m c) (aggsK (Iof m c)))
    ∧ (E15 m c main_v84 : S20000x128.Idx → EReal) = unc2 (doc Ideal.div (Iof m c) (aggsK (Iof m c))) := by
  rw [← IofW_E0 m c]
  exact chain_values (chainOf m c)

end Cert.KernelIdeal.H

end
-- ==== Proof.RefValueLin.lean ====
/-
  The reference's dense layers, read at an element.

  jnp's x @ W.T + b prints as a transpose of W, a dot_general contracting x's columns with the transposed W's rows, the bias
  broadcast to a row and then to every row, and an add.  At (r, j) that is the sum over k of x[r, k] · W[j, k], plus b[j]:
  `Spec.lin`.  Stated once for the 50000 word rows and once for the 4000 topic rows; every later dense layer of the
  program is one of these two at other arguments.
-/
import proofs.«407232_j23192823399226_1_alg».proof.Proof.Gen.ReferenceIdeal.Read
import proofs.«407232_j23192823399226_1_alg».proof.Proof.SpecIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-! ## Word rows -/

/-- The left operand's element: row r of x, column k. -/
theorem lidx_word (r : Fin 50000) (j k : Fin 128) : lidx_main_v1 (ix2 r j) k = ix2 r k :=
  funext fun a => Fin.ext (by
    match a with
    | ⟨0, _⟩ => rfl
    | ⟨1, _⟩ => rfl)

/-- The right operand's element through the transpose: row j of W, column k. -/
theorem ridx_word (r : Fin 50000) (j k : Fin 128) : idx_main_v0 (ridx_main_v1 (ix2 r j) k) = ix2 j k :=
  funext fun a => Fin.ext (by
    match a with
    | ⟨0, _⟩ => rfl
    | ⟨1, _⟩ => rfl)

/-- The bias's element through its two broadcasts: entry j. -/
theorem bidx_word (r : Fin 50000) (j : Fin 128) : idx_main_v2 (idx_main_v3 (ix2 r j)) = ix1 j :=
  funext fun a => Fin.ext (by
    match a with
    | ⟨0, _⟩ => rfl)

/-- A dense layer over the word rows is `Spec.lin`. -/
theorem lin_word (X : (⟨S50000x128, .f32⟩ : BufTy).Contents (Elt Ideal)) (W : (⟨S128x128, .f32⟩ : BufTy).Contents (Elt Ideal)) (b : (⟨S128, .f32⟩ : BufTy).Contents (Elt Ideal)) :
    val_main_v4 (F := Ideal) X W b = unc2 (lin (cur2 X) (cur2 W) (cur1 b)) := by
  refine ext2 _ _ fun r j => ?_
  rw [val_main_v4_apply, val_main_v1_apply, val_main_v3_apply, val_main_v2_apply]
  simp only [val_main_v0_apply, lidx_word, ridx_word, bidx_word]
  rfl

/-! ## Topic rows -/

theorem lidx_topic (r : Fin 4000) (j k : Fin 128) : lidx_main_v38 (ix2 r j) k = ix2 r k :=
  funext fun a => Fin.ext (by
    match a with
    | ⟨0, _⟩ => rfl
    | ⟨1, _⟩ => rfl)

theorem ridx_topic (r : Fin 4000) (j k : Fin 128) : idx_main_v37 (ridx_main_v38 (ix2 r j) k) = ix2 j k :=
  funext fun a => Fin.ext (by
    match a with
    | ⟨0, _⟩ => rfl
    | ⟨1, _⟩ => rfl)

theorem bidx_topic (r : Fin 4000) (j : Fin 128) : idx_main_v39 (idx_main_v40 (ix2 r j)) = ix1 j :=
  funext fun a => Fin.ext (by
    match a with
    | ⟨0, _⟩ => rfl)

/-- A dense layer over the topic rows is `Spec.lin`. -/
theorem lin_topic (X : (⟨S4000x128, .f32⟩ : BufTy).Contents (Elt Ideal)) (W : (⟨S128x128, .f32⟩ : BufTy).Contents (Elt Ideal)) (b : (⟨S128, .f32⟩ : BufTy).Contents (Elt Ideal)) :
    val_main_v41 (F := Ideal) X W b = unc2 (lin (cur2 X) (cur2 W) (cur1 b)) := by
  refine ext2 _ _ fun r j => ?_
  rw [val_main_v41_apply, val_main_v38_apply, val_main_v40_apply, val_main_v39_apply]
  simp only [val_main_v37_apply, lidx_topic, ridx_topic, bidx_topic]
  rfl

end Cert.ReferenceIdeal.RefValue

end
-- ==== Proof.RefValueAgg.lean ====
/-
  The reference's five aggregations, each read as the mathematics' sum, count and mean.

  Each relation (word→word, word→topic, topic→topic, word→doc, topic→doc) is the same four steps at its own sizes: wrap and
  gather the source rows, multiply by the edge weights, scatter-add by destination into zeros; scatter-add ones for the edge
  count; divide by max(count, 1).  The statements are over any source table and any index and weight vectors of the
  relation's sizes, so that the table may later be the result of the layers before it.
-/
import proofs.«407232_j23192823399226_1_alg».proof.Proof.Gen.ReferenceIdeal.Read
import proofs.«407232_j23192823399226_1_alg».proof.Proof.RefValueOps

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-! ## word→word -/

/-- The word→word sum is `Spec.aggR`: over the edges into d, the source row's entry times the edge's weight. -/
theorem sum_ww (X : (⟨S50000x128, .f32⟩ : BufTy).Contents (Elt Ideal)) (src dst : (⟨S800000, .i32⟩ : BufTy).Contents (Elt Ideal)) (w : (⟨S800000, .f32⟩ : BufTy).Contents (Elt Ideal)) :
    Host.scatterAdd (F := Ideal) (φ := .f32) scatter_S50000x128_S800000x1_S800000x128_1_0_0_1 (val_main_v15 (F := Ideal)) (val_main_v16 (F := Ideal) dst)
      (mulf (F := Ideal) (φ := .f32) (Host.gather gather_S50000x128_S800000x1_S800000x128_1_0_n_n_0_1_1128 X (val_main_v10 (F := Ideal) src)) (val_main_v13 (F := Ideal) w))
    = unc2 (aggR (N := 50000) (by decide) (cur1 src) (cur1 dst) (cur1 w) (cur2 X)) :=
  agg_eq (N := 50000) (E := 800000) (Nd := 50000) (by decide) gather_S50000x128_S800000x1_S800000x128_1_0_n_n_0_1_1128_wf
    scatter_S50000x128_S800000x1_S800000x128_1_0_0_1_wf bcast_S_S50000x128 bcast_S_S800000 bcast_S800000_S800000x1_0 bcast_S800000x1_S800000x128_0_1 X src dst w

/-- The word→word edge count is `Spec.cnt`. -/
theorem count_ww (dst : (⟨S800000, .i32⟩ : BufTy).Contents (Elt Ideal)) : val_main_v21 (F := Ideal) dst = unc1 (cnt 50000 (cur1 dst)) :=
  cnt_eq (E := 800000) (Nd := 50000) scatter_S50000_S800000x1_S800000_n_0_0_1_wf bcast_S_S50000 bcast_S_S800000 bcast_S800000_S800000x1_0 dst

/-- The word→word quotient by max(count, 1) is `Spec.mean`. -/
theorem mean_ww (S : (⟨S50000x128, .f32⟩ : BufTy).Contents (Elt Ideal)) (dst : (⟨S800000, .i32⟩ : BufTy).Contents (Elt Ideal)) :
    Host.divf (F := Ideal) (φ := .f32) S (val_main_v25 (F := Ideal) dst) = unc2 (mean Ideal.div (cur2 S) (cnt 50000 (cur1 dst))) :=
  (mean_eq (Nd := 50000) bcast_S_S50000 bcast_S50000_S50000x1_0 bcast_S50000x1_S50000x128_0_1 S (val_main_v21 (F := Ideal) dst)).trans
    (by rw [count_ww]; rfl)

/-! ## word→topic -/

/-- The word→topic sum is `Spec.aggR`: over the edges into d, the source row's entry times the edge's weight. -/
theorem sum_wt (X : (⟨S50000x128, .f32⟩ : BufTy).Contents (Elt Ideal)) (src dst : (⟨S400000, .i32⟩ : BufTy).Contents (Elt Ideal)) (w : (⟨S400000, .f32⟩ : BufTy).Contents (Elt Ideal)) :
    Host.scatterAdd (F := Ideal) (φ := .f32) scatter_S4000x128_S400000x1_S400000x128_1_0_0_1 (val_main_v57 (F := Ideal)) (val_main_v58 (F := Ideal) dst)
      (mulf (F := Ideal) (φ := .f32) (Host.gather gather_S50000x128_S400000x1_S400000x128_1_0_n_n_0_1_1128 X (val_main_v52 (F := Ideal) src)) (val_main_v55 (F := Ideal) w))
    = unc2 (aggR (N := 50000) (by decide) (cur1 src) (cur1 dst) (cur1 w) (cur2 X)) :=
  agg_eq (N := 50000) (E := 400000) (Nd := 4000) (by decide) gather_S50000x128_S400000x1_S400000x128_1_0_n_n_0_1_1128_wf
    scatter_S4000x128_S400000x1_S400000x128_1_0_0_1_wf bcast_S_S4000x128 bcast_S_S400000 bcast_S400000_S400000x1_0 bcast_S400000x1_S400000x128_0_1 X src dst w

/-- The word→topic edge count is `Spec.cnt`. -/
theorem count_wt (dst : (⟨S400000, .i32⟩ : BufTy).Contents (Elt Ideal)) : val_main_v63 (F := Ideal) dst = unc1 (cnt 4000 (cur1 dst)) :=
  cnt_eq (E := 400000) (Nd := 4000) scatter_S4000_S400000x1_S400000_n_0_0_1_wf bcast_S_S4000 bcast_S_S400000 bcast_S400000_S400000x1_0 dst

/-- The word→topic quotient by max(count, 1) is `Spec.mean`. -/
theorem mean_wt (S : (⟨S4000x128, .f32⟩ : BufTy).Contents (Elt Ideal)) (dst : (⟨S400000, .i32⟩ : BufTy).Contents (Elt Ideal)) :
    Host.divf (F := Ideal) (φ := .f32) S (val_main_v67 (F := Ideal) dst) = unc2 (mean Ideal.div (cur2 S) (cnt 4000 (cur1 dst))) :=
  (mean_eq (Nd := 4000) bcast_S_S4000 bcast_S4000_S4000x1_0 bcast_S4000x1_S4000x128_0_1 S (val_main_v63 (F := Ideal) dst)).trans
    (by rw [count_wt]; rfl)

/-! ## topic→topic -/

/-- The topic→topic sum is `Spec.aggR`: over the edges into d, the source row's entry times the edge's weight. -/
theorem sum_tt (X : (⟨S4000x128, .f32⟩ : BufTy).Contents (Elt Ideal)) (src dst : (⟨S160000, .i32⟩ : BufTy).Contents (Elt Ideal)) (w : (⟨S160000, .f32⟩ : BufTy).Contents (Elt Ideal)) :
    Host.scatterAdd (F := Ideal) (φ := .f32) scatter_S4000x128_S160000x1_S160000x128_1_0_0_1 (val_main_v79 (F := Ideal)) (val_main_v80 (F := Ideal) dst)
      (mulf (F := Ideal) (φ := .f32) (Host.gather gather_S4000x128_S160000x1_S160000x128_1_0_n_n_0_1_1128 X (val_main_v74 (F := Ideal) src)) (val_main_v77 (F := Ideal) w))
    = unc2 (aggR (N := 4000) (by decide) (cur1 src) (cur1 dst) (cur1 w) (cur2 X)) :=
  agg_eq (N := 4000) (E := 160000) (Nd := 4000) (by decide) gather_S4000x128_S160000x1_S160000x128_1_0_n_n_0_1_1128_wf
    scatter_S4000x128_S160000x1_S160000x128_1_0_0_1_wf bcast_S_S4000x128 bcast_S_S160000 bcast_S160000_S160000x1_0 bcast_S160000x1_S160000x128_0_1 X src dst w

/-- The topic→topic edge count is `Spec.cnt`. -/
theorem count_tt (dst : (⟨S160000, .i32⟩ : BufTy).Contents (Elt Ideal)) : val_main_v85 (F := Ideal) dst = unc1 (cnt 4000 (cur1 dst)) :=
  cnt_eq (E := 160000) (Nd := 4000) scatter_S4000_S160000x1_S160000_n_0_0_1_wf bcast_S_S4000 bcast_S_S160000 bcast_S160000_S160000x1_0 dst

/-- The topic→topic quotient by max(count, 1) is `Spec.mean`. -/
theorem mean_tt (S : (⟨S4000x128, .f32⟩ : BufTy).Contents (Elt Ideal)) (dst : (⟨S160000, .i32⟩ : BufTy).Contents (Elt Ideal)) :
    Host.divf (F := Ideal) (φ := .f32) S (val_main_v89 (F := Ideal) dst) = unc2 (mean Ideal.div (cur2 S) (cnt 4000 (cur1 dst))) :=
  (mean_eq (Nd := 4000) bcast_S_S4000 bcast_S4000_S4000x1_0 bcast_S4000x1_S4000x128_0_1 S (val_main_v85 (F := Ideal) dst)).trans
    (by rw [count_tt]; rfl)

/-! ## word→doc -/

/-- The word→doc sum is `Spec.aggR`: over the edges into d, the source row's entry times the edge's weight. -/
theorem sum_wd (X : (⟨S50000x128, .f32⟩ : BufTy).Contents (Elt Ideal)) (src dst : (⟨S400000, .i32⟩ : BufTy).Contents (Elt Ideal)) (w : (⟨S400000, .f32⟩ : BufTy).Contents (Elt Ideal)) :
    Host.scatterAdd (F := Ideal) (φ := .f32) scatter_S20000x128_S400000x1_S400000x128_1_0_0_1 (val_main_v102 (F := Ideal)) (val_main_v103 (F := Ideal) dst)
      (mulf (F := Ideal) (φ := .f32) (Host.gather gather_S50000x128_S400000x1_S400000x128_1_0_n_n_0_1_1128 X (val_main_v97 (F := Ideal) src)) (val_main_v100 (F := Ideal) w))
    = unc2 (aggR (N := 50000) (by decide) (cur1 src) (cur1 dst) (cur1 w) (cur2 X)) :=
  agg_eq (N := 50000) (E := 400000) (Nd := 20000) (by decide) gather_S50000x128_S400000x1_S400000x128_1_0_n_n_0_1_1128_wf
    scatter_S20000x128_S400000x1_S400000x128_1_0_0_1_wf bcast_S_S20000x128 bcast_S_S400000 bcast_S400000_S400000x1_0 bcast_S400000x1_S400000x128_0_1 X src dst w

/-- The word→doc edge count is `Spec.cnt`. -/
theorem count_wd (dst : (⟨S400000, .i32⟩ : BufTy).Contents (Elt Ideal)) : val_main_v108 (F := Ideal) dst = unc1 (cnt 20000 (cur1 dst)) :=
  cnt_eq (E := 400000) (Nd := 20000) scatter_S20000_S400000x1_S400000_n_0_0_1_wf bcast_S_S20000 bcast_S_S400000 bcast_S400000_S400000x1_0 dst

/-- The word→doc quotient by max(count, 1) is `Spec.mean`. -/
theorem mean_wd (S : (⟨S20000x128, .f32⟩ : BufTy).Contents (Elt Ideal)) (dst : (⟨S400000, .i32⟩ : BufTy).Contents (Elt Ideal)) :
    Host.divf (F := Ideal) (φ := .f32) S (val_main_v112 (F := Ideal) dst) = unc2 (mean Ideal.div (cur2 S) (cnt 20000 (cur1 dst))) :=
  (mean_eq (Nd := 20000) bcast_S_S20000 bcast_S20000_S20000x1_0 bcast_S20000x1_S20000x128_0_1 S (val_main_v108 (F := Ideal) dst)).trans
    (by rw [count_wd]; rfl)

/-! ## topic→doc -/

/-- The topic→doc sum is `Spec.aggR`: over the edges into d, the source row's entry times the edge's weight. -/
theorem sum_td (X : (⟨S4000x128, .f32⟩ : BufTy).Contents (Elt Ideal)) (src dst : (⟨S160000, .i32⟩ : BufTy).Contents (Elt Ideal)) (w : (⟨S160000, .f32⟩ : BufTy).Contents (Elt Ideal)) :
    Host.scatterAdd (F := Ideal) (φ := .f32) scatter_S20000x128_S160000x1_S160000x128_1_0_0_1 (val_main_v124 (F := Ideal)) (val_main_v125 (F := Ideal) dst)
      (mulf (F := Ideal) (φ := .f32) (Host.gather gather_S4000x128_S160000x1_S160000x128_1_0_n_n_0_1_1128 X (val_main_v119 (F := Ideal) src)) (val_main_v122 (F := Ideal) w))
    = unc2 (aggR (N := 4000) (by decide) (cur1 src) (cur1 dst) (cur1 w) (cur2 X)) :=
  agg_eq (N := 4000) (E := 160000) (Nd := 20000) (by decide) gather_S4000x128_S160000x1_S160000x128_1_0_n_n_0_1_1128_wf
    scatter_S20000x128_S160000x1_S160000x128_1_0_0_1_wf bcast_S_S20000x128 bcast_S_S160000 bcast_S160000_S160000x1_0 bcast_S160000x1_S160000x128_0_1 X src dst w

/-- The topic→doc edge count is `Spec.cnt`. -/
theorem count_td (dst : (⟨S160000, .i32⟩ : BufTy).Contents (Elt Ideal)) : val_main_v130 (F := Ideal) dst = unc1 (cnt 20000 (cur1 dst)) :=
  cnt_eq (E := 160000) (Nd := 20000) scatter_S20000_S160000x1_S160000_n_0_0_1_wf bcast_S_S20000 bcast_S_S160000 bcast_S160000_S160000x1_0 dst

/-- The topic→doc quotient by max(count, 1) is `Spec.mean`. -/
theorem mean_td (S : (⟨S20000x128, .f32⟩ : BufTy).Contents (Elt Ideal)) (dst : (⟨S160000, .i32⟩ : BufTy).Contents (Elt Ideal)) :
    Host.divf (F := Ideal) (φ := .f32) S (val_main_v134 (F := Ideal) dst) = unc2 (mean Ideal.div (cur2 S) (cnt 20000 (cur1 dst))) :=
  (mean_eq (Nd := 20000) bcast_S_S20000 bcast_S20000_S20000x1_0 bcast_S20000x1_S20000x128_0_1 S (val_main_v130 (F := Ideal) dst)).trans
    (by rw [count_td]; rfl)

end Cert.ReferenceIdeal.RefValue

end
-- ==== Proof.RefValue.lean ====
/-
  The reference's three results as functions of its argument arrays (the mathematics of `Cert.Spec`).

  The word result is three dense layers around the word→word mean; the topic result is the word→topic mean of the word
  result plus the topic→topic mean of the twice-layered topic features; the doc result likewise with the word→doc and
  topic→doc relations.  Each stage of the program is one of the dense-layer or aggregation forms already read, at the
  stage before it as its table; composing them gives `Spec.word`, `Spec.topic`, `Spec.doc` at the reference's aggregations
  `Spec.aggsR` and the extended reals' division.
-/
import proofs.«407232_j23192823399226_1_alg».proof.Proof.Gen.ReferenceIdeal.Run
import proofs.«407232_j23192823399226_1_alg».proof.Proof.Gen.ReferenceIdeal.Read
import proofs.«407232_j23192823399226_1_alg».proof.Proof.Spec
import proofs.«407232_j23192823399226_1_alg».proof.Proof.SpecIdx
import proofs.«407232_j23192823399226_1_alg».proof.Proof.LibRowGather
import proofs.«407232_j23192823399226_1_alg».proof.Proof.LibRowScatter
import proofs.«407232_j23192823399226_1_alg».proof.Proof.RefValueLin
import proofs.«407232_j23192823399226_1_alg».proof.Proof.RefValueAgg

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Spec

/-! ## The three results over any argument arrays -/

/-- The sum of two matrices given by their entries is the matrix of the entries' sums. -/
theorem addf_unc2 {A B : Nat} (f g : Fin A → Fin B → EReal) :
    addf (F := Ideal) (φ := .f32) (unc2 f) (unc2 g) = unc2 (fun d j => f d j + g d j) := rfl

/-- The topic result, entry by entry. -/
theorem topic_entries (dv : EReal → EReal → EReal) (I : Inputs) (A : Aggs) :
    topic dv I A = fun d j => mean dv (A.wt (word dv I A)) (cnt 4000 I.wt_dst) d j + mean dv (A.tt (topicF I)) (cnt 4000 I.tt_dst) d j := rfl

/-- The doc result, entry by entry. -/
theorem doc_entries (dv : EReal → EReal → EReal) (I : Inputs) (A : Aggs) :
    doc dv I A = fun d j => mean dv (A.wd (word dv I A)) (cnt 20000 I.wd_dst) d j + mean dv (A.td (topicF I)) (cnt 20000 I.td_dst) d j := rfl

section Results
variable
  (a0 : (⟨S50000x128, .f32⟩ : BufTy).Contents (Elt Ideal))
  (a1 : (⟨S4000x128, .f32⟩ : BufTy).Contents (Elt Ideal))
  (a2 : (⟨S128x128, .f32⟩ : BufTy).Contents (Elt Ideal))
  (a3 : (⟨S128, .f32⟩ : BufTy).Contents (Elt Ideal))
  (a4 : (⟨S128x128, .f32⟩ : BufTy).Contents (Elt Ideal))
  (a5 : (⟨S128, .f32⟩ : BufTy).Contents (Elt Ideal))
  (a6 : (⟨S128x128, .f32⟩ : BufTy).Contents (Elt Ideal))
  (a7 : (⟨S128, .f32⟩ : BufTy).Contents (Elt Ideal))
  (a8 : (⟨S128x128, .f32⟩ : BufTy).Contents (Elt Ideal))
  (a9 : (⟨S128, .f32⟩ : BufTy).Contents (Elt Ideal))
  (a10 : (⟨S128x128, .f32⟩ : BufTy).Contents (Elt Ideal))
  (a11 : (⟨S128, .f32⟩ : BufTy).Contents (Elt Ideal))
  (a12 : (⟨S800000, .i32⟩ : BufTy).Contents (Elt Ideal))
  (a13 : (⟨S800000, .i32⟩ : BufTy).Contents (Elt Ideal))
  (a14 : (⟨S800000, .f32⟩ : BufTy).Contents (Elt Ideal))
  (a15 : (⟨S400000, .i32⟩ : BufTy).Contents (Elt Ideal))
  (a16 : (⟨S400000, .i32⟩ : BufTy).Contents (Elt Ideal))
  (a17 : (⟨S400000, .f32⟩ : BufTy).Contents (Elt Ideal))
  (a18 : (⟨S400000, .i32⟩ : BufTy).Contents (Elt Ideal))
  (a19 : (⟨S400000, .i32⟩ : BufTy).Contents (Elt Ideal))
  (a20 : (⟨S400000, .f32⟩ : BufTy).Contents (Elt Ideal))
  (a21 : (⟨S160000, .i32⟩ : BufTy).Contents (Elt Ideal))
  (a22 : (⟨S160000, .i32⟩ : BufTy).Contents (Elt Ideal))
  (a23 : (⟨S160000, .f32⟩ : BufTy).Contents (Elt Ideal))
  (a24 : (⟨S160000, .i32⟩ : BufTy).Contents (Elt Ideal))
  (a25 : (⟨S160000, .i32⟩ : BufTy).Contents (Elt Ideal))
  (a26 : (⟨S160000, .f32⟩ : BufTy).Contents (Elt Ideal))

/-- The word features after the word→word mean and the two word-side layers. -/
theorem word_eq : val_main_v36 (F := Ideal) a0 a2 a3 a4 a5 a6 a7 a12 a13 a14 = unc2 (word Ideal.div (inputsOf a0 a1 a2 a3 a4 a5 a6 a7 a8 a9 a10 a11 a12 a13 a14 a15 a16 a17 a18 a19 a20 a21 a22 a23 a24 a25 a26) (aggsR (inputsOf a0 a1 a2 a3 a4 a5 a6 a7 a8 a9 a10 a11 a12 a13 a14 a15 a16 a17 a18 a19 a20 a21 a22 a23 a24 a25 a26))) := by
  have h4 : val_main_v4 (F := Ideal) a0 a2 a3 = _ := lin_word a0 a2 a3
  have h17 : val_main_v17 (F := Ideal) a0 a2 a3 a12 a13 a14 = _ := sum_ww (val_main_v4 (F := Ideal) a0 a2 a3) a12 a13 a14
  have h26 : val_main_v26 (F := Ideal) a0 a2 a3 a12 a13 a14 = _ := mean_ww (val_main_v17 (F := Ideal) a0 a2 a3 a12 a13 a14) a13
  have h31 : val_main_v31 (F := Ideal) a0 a2 a3 a4 a5 a12 a13 a14 = _ := lin_word (val_main_v26 (F := Ideal) a0 a2 a3 a12 a13 a14) a4 a5
  have h36 : val_main_v36 (F := Ideal) a0 a2 a3 a4 a5 a6 a7 a12 a13 a14 = _ := lin_word (val_main_v31 (F := Ideal) a0 a2 a3 a4 a5 a12 a13 a14) a6 a7
  rw [h36, h31, h26, h17, h4]
  simp only [cur2_unc2]
  dsimp only [word, aggsR, inputsOf]

/-- The topic features after the two topic-side layers. -/
theorem topicF_eq : val_main_v46 (F := Ideal) a1 a8 a9 a10 a11 = unc2 (topicF (inputsOf a0 a1 a2 a3 a4 a5 a6 a7 a8 a9 a10 a11 a12 a13 a14 a15 a16 a17 a18 a19 a20 a21 a22 a23 a24 a25 a26)) := by
  have h41 : val_main_v41 (F := Ideal) a1 a8 a9 = _ := lin_topic a1 a8 a9
  have h46 : val_main_v46 (F := Ideal) a1 a8 a9 a10 a11 = _ := lin_topic (val_main_v41 (F := Ideal) a1 a8 a9) a10 a11
  rw [h46, h41]
  simp only [cur2_unc2]
  rfl

/-- What the topics receive: the word→topic mean of the word result plus the topic→topic mean of the topic features. -/
theorem topic_eq : val_main_v91 (F := Ideal) a0 a1 a2 a3 a4 a5 a6 a7 a8 a9 a10 a11 a12 a13 a14 a15 a16 a17 a24 a25 a26 = unc2 (topic Ideal.div (inputsOf a0 a1 a2 a3 a4 a5 a6 a7 a8 a9 a10 a11 a12 a13 a14 a15 a16 a17 a18 a19 a20 a21 a22 a23 a24 a25 a26) (aggsR (inputsOf a0 a1 a2 a3 a4 a5 a6 a7 a8 a9 a10 a11 a12 a13 a14 a15 a16 a17 a18 a19 a20 a21 a22 a23 a24 a25 a26))) := by
  have h59 : val_main_v59 (F := Ideal) a0 a2 a3 a4 a5 a6 a7 a12 a13 a14 a15 a16 a17 = _ := sum_wt (val_main_v36 (F := Ideal) a0 a2 a3 a4 a5 a6 a7 a12 a13 a14) a15 a16 a17
  have h68 : val_main_v68 (F := Ideal) a0 a2 a3 a4 a5 a6 a7 a12 a13 a14 a15 a16 a17 = _ := mean_wt (val_main_v59 (F := Ideal) a0 a2 a3 a4 a5 a6 a7 a12 a13 a14 a15 a16 a17) a16
  have h81 : val_main_v81 (F := Ideal) a1 a8 a9 a10 a11 a24 a25 a26 = _ := sum_tt (val_main_v46 (F := Ideal) a1 a8 a9 a10 a11) a24 a25 a26
  have h90 : val_main_v90 (F := Ideal) a1 a8 a9 a10 a11 a24 a25 a26 = _ := mean_tt (val_main_v81 (F := Ideal) a1 a8 a9 a10 a11 a24 a25 a26) a25
  have h91 : val_main_v91 (F := Ideal) a0 a1 a2 a3 a4 a5 a6 a7 a8 a9 a10 a11 a12 a13 a14 a15 a16 a17 a24 a25 a26 = addf (F := Ideal) (φ := .f32) (val_main_v68 (F := Ideal) a0 a2 a3 a4 a5 a6 a7 a12 a13 a14 a15 a16 a17) (val_main_v90 (F := Ideal) a1 a8 a9 a10 a11 a24 a25 a26) := rfl
  rw [h91, h68, h59, h90, h81, word_eq a0 a1 a2 a3 a4 a5 a6 a7 a8 a9 a10 a11 a12 a13 a14 a15 a16 a17 a18 a19 a20 a21 a22 a23 a24 a25 a26, topicF_eq a0 a1 a2 a3 a4 a5 a6 a7 a8 a9 a10 a11 a12 a13 a14 a15 a16 a17 a18 a19 a20 a21 a22 a23 a24 a25 a26]
  simp only [cur2_unc2, addf_unc2, topic_entries]
  dsimp only [aggsR, inputsOf]

/-- What the documents receive: the word→doc mean of the word result plus the topic→doc mean of the topic features. -/
theorem doc_eq : val_main_v136 (F := Ideal) a0 a1 a2 a3 a4 a5 a6 a7 a8 a9 a10 a11 a12 a13 a14 a18 a19 a20 a21 a22 a23 = unc2 (doc Ideal.div (inputsOf a0 a1 a2 a3 a4 a5 a6 a7 a8 a9 a10 a11 a12 a13 a14 a15 a16 a17 a18 a19 a20 a21 a22 a23 a24 a25 a26) (aggsR (inputsOf a0 a1 a2 a3 a4 a5 a6 a7 a8 a9 a10 a11 a12 a13 a14 a15 a16 a17 a18 a19 a20 a21 a22 a23 a24 a25 a26))) := by
  have h104 : val_main_v104 (F := Ideal) a0 a2 a3 a4 a5 a6 a7 a12 a13 a14 a18 a19 a20 = _ := sum_wd (val_main_v36 (F := Ideal) a0 a2 a3 a4 a5 a6 a7 a12 a13 a14) a18 a19 a20
  have h113 : val_main_v113 (F := Ideal) a0 a2 a3 a4 a5 a6 a7 a12 a13 a14 a18 a19 a20 = _ := mean_wd (val_main_v104 (F := Ideal) a0 a2 a3 a4 a5 a6 a7 a12 a13 a14 a18 a19 a20) a19
  have h126 : val_main_v126 (F := Ideal) a1 a8 a9 a10 a11 a21 a22 a23 = _ := sum_td (val_main_v46 (F := Ideal) a1 a8 a9 a10 a11) a21 a22 a23
  have h135 : val_main_v135 (F := Ideal) a1 a8 a9 a10 a11 a21 a22 a23 = _ := mean_td (val_main_v126 (F := Ideal) a1 a8 a9 a10 a11 a21 a22 a23) a22
  have h136 : val_main_v136 (F := Ideal) a0 a1 a2 a3 a4 a5 a6 a7 a8 a9 a10 a11 a12 a13 a14 a18 a19 a20 a21 a22 a23 = addf (F := Ideal) (φ := .f32) (val_main_v113 (F := Ideal) a0 a2 a3 a4 a5 a6 a7 a12 a13 a14 a18 a19 a20) (val_main_v135 (F := Ideal) a1 a8 a9 a10 a11 a21 a22 a23) := rfl
  rw [h136, h113, h104, h135, h126, word_eq a0 a1 a2 a3 a4 a5 a6 a7 a8 a9 a10 a11 a12 a13 a14 a15 a16 a17 a18 a19 a20 a21 a22 a23 a24 a25 a26, topicF_eq a0 a1 a2 a3 a4 a5 a6 a7 a8 a9 a10 a11 a12 a13 a14 a15 a16 a17 a18 a19 a20 a21 a22 a23 a24 a25 a26]
  simp only [cur2_unc2, addf_unc2, doc_entries]
  dsimp only [aggsR, inputsOf]

end Results

/-! ## The run -/

/-- The argument arrays as the run finds them, as the inputs of the mathematics. -/
abbrev I' (m' : (ℓ : Loc nD τ sig) → Buf (Elt Ideal) ℓ) (c : Dev nD) : Cert.Spec.Inputs :=
  Cert.Spec.inputsOf (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))
    (m' ((c.tc : Thread nD τ).loc main_arg11))
    (m' ((c.tc : Thread nD τ).loc main_arg12))
    (m' ((c.tc : Thread nD τ).loc main_arg13))
    (m' ((c.tc : Thread nD τ).loc main_arg14))
    (m' ((c.tc : Thread nD τ).loc main_arg15))
    (m' ((c.tc : Thread nD τ).loc main_arg16))
    (m' ((c.tc : Thread nD τ).loc main_arg17))
    (m' ((c.tc : Thread nD τ).loc main_arg18))
    (m' ((c.tc : Thread nD τ).loc main_arg19))
    (m' ((c.tc : Thread nD τ).loc main_arg20))
    (m' ((c.tc : Thread nD τ).loc main_arg21))
    (m' ((c.tc : Thread nD τ).loc main_arg22))
    (m' ((c.tc : Thread nD τ).loc main_arg23))
    (m' ((c.tc : Thread nD τ).loc main_arg24))
    (m' ((c.tc : Thread nD τ).loc main_arg25))
    (m' ((c.tc : Thread nD τ).loc main_arg26))

/-- Every weakly fair execution of the reference terminates with its three results at `Spec.word`, `Spec.topic`, `Spec.doc`
    of its arguments (at the reference's aggregations and the extended reals' division), the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
        r.2.mem ((c.tc : Thread nD τ).loc main_v36) = Cert.Spec.unc2 (Cert.Spec.word Ideal.div (I' m' c) (Cert.Spec.aggsR (I' m' c)))
      ∧ r.2.mem ((c.tc : Thread nD τ).loc main_v91) = Cert.Spec.unc2 (Cert.Spec.topic Ideal.div (I' m' c) (Cert.Spec.aggsR (I' m' c)))
      ∧ r.2.mem ((c.tc : Thread nD τ).loc main_v136) = Cert.Spec.unc2 (Cert.Spec.doc Ideal.div (I' m' c) (Cert.Spec.aggsR (I' m' c)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)) :=
  (θ_run defs _ _).mono (fun _ h c =>
      ⟨(h c).1.trans ((val_main_v36_eq (F := Ideal) (m' ((c.tc : Thread nD τ).loc main_arg0)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg12)) (m' ((c.tc : Thread nD τ).loc main_arg13)) (m' ((c.tc : Thread nD τ).loc main_arg14))).trans (word_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)))),
       (h c).2.1.trans ((val_main_v91_eq m' c).trans (topic_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)))),
       (h c).2.2.1.trans ((val_main_v136_eq m' c).trans (doc_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)) (m' ((c.tc : Thread nD τ).loc main_arg26)))),
       (h c).2.2.2⟩)
    (Cert.ReferenceIdeal.Value.run (F := Ideal) m' ρ')

end Cert.ReferenceIdeal.RefValue

end
-- ==== Proof.PreDecode.lean ====
/-
  The printed precondition `finite_inputs`, read back at the five source-index arrays.

  The printed function is a scalar conjunction (a left-nested chain of `and`s of `i1` scalars) of 22 `jnp.all`s: 17 say
  that a float array is finite, the last five say that every word of an index array lies in a range [0, N), each as the
  all-reduction by `and` of `(src ≥ 0) ∧ (src < N)`, the bounds broadcast scalars and the comparisons signed. When the
  conjunction is 1, each conjunct is 1 (`peel`); an all-reduction by `and` that is 1 had a 1 at every element
  (`Host.reduce_andi_all`); and a signed comparison that is 1 orders the signed readings of its operands
  (`IntOp.cmpi_sge`, `IntOp.cmpi_slt`). So every word of the five arrays reads, signed, in [0, N) (`src_in_range`).
-/
import proofs.«407232_j23192823399226_1_alg».proof.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- A scalar `and` that is 1 had both operands 1. -/
theorem peel {a b : IVec S_ 1} {j : S_.Idx} (h : andi a b j = 1#1) : a j = 1#1 ∧ b j = 1#1 :=
  IntOp.andi_eq_one.1 h

/-- ONE INDEX-RANGE CONJUNCT. `jnp.all((src ≥ 0) & (src < c))` over an array of any shape, the two bounds broadcast
    scalars: when it is 1, every word of `src` reads, signed, at least 0 and below the signed reading of `c`. -/
theorem range_of_all {s : Shape} {axes : List (Fin s.rank)} (src : IVec s 32) (c : BitVec 32)
    (hb : S_.BroadcastsInDim s (![] : Fin 0 → Fin s.rank)) (hr : s.ReducesTo axes S_) (h0 : 0 < S_.numel) (j : S_.Idx)
    (e : Host.reduce IntOp.andi
          (andi (cmpi .sge src (broadcastInDim s ![] hb (constantI S_ 32 0#32)))
                (cmpi .slt src (broadcastInDim s ![] hb (constantI S_ 32 c))))
          (constantI S_ 1 1#1) hr h0 j = 1#1) (i : s.Idx) :
    0 ≤ (src i).toInt ∧ (src i).toInt < c.toInt := by
  have hi := Host.reduce_andi_all _ _ hr h0 j e i
  obtain ⟨hge, hlt⟩ := IntOp.andi_eq_one.1 hi
  have hge' : (0#32 : BitVec 32).toInt ≤ (src i).toInt := IntOp.cmpi_sge.1 hge
  have hlt' : (src i).toInt < c.toInt := IntOp.cmpi_slt.1 hlt
  have hz : (0#32 : BitVec 32).toInt = 0 := by decide
  rw [hz] at hge'
  exact ⟨hge', hlt'⟩

/-- The signed readings of the two bounds the precondition prints. -/
theorem toInt_50000 : (50000#32 : BitVec 32).toInt = 50000 := by decide
theorem toInt_4000 : (4000#32 : BitVec 32).toInt = 4000 := by decide

/-- THE PRECONDITION DECODED. When the printed `finite_inputs` is all ones, every word of the five source-index arrays
    reads, signed, inside its table: arguments 12, 15 and 18 in [0, 50000), arguments 21 and 24 in [0, 4000). -/
theorem src_in_range {F : FTy → Type} [FloatOps F] [Cert.Pre_finite_inputs.Facts]
    (a0 : FVec F S50000x128 .f32) (a1 : FVec F S4000x128 .f32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (a12 : IVec S800000 32) (a13 : IVec S800000 32) (a14 : FVec F S800000 .f32)
    (a15 : IVec S400000 32) (a16 : IVec S400000 32) (a17 : FVec F S400000 .f32)
    (a18 : IVec S400000 32) (a19 : IVec S400000 32) (a20 : FVec F S400000 .f32)
    (a21 : IVec S160000 32) (a22 : IVec S160000 32) (a23 : FVec F S160000 .f32)
    (a24 : IVec S160000 32) (a25 : IVec S160000 32) (a26 : FVec F S160000 .f32)
    (h : Cert.Pre_finite_inputs.fn (F := F) a0 a1 a2 a3 a4 a5 a6 a7 a8 a9 a10 a11 a12 a13 a14 a15 a16 a17 a18 a19 a20
          a21 a22 a23 a24 a25 a26 = (fun _ => 1#1)) :
    (∀ e : Fin 800000, 0 ≤ (a12 (ValueIdx.ix1 e)).toInt ∧ (a12 (ValueIdx.ix1 e)).toInt < 50000)
    ∧ (∀ e : Fin 400000, 0 ≤ (a15 (ValueIdx.ix1 e)).toInt ∧ (a15 (ValueIdx.ix1 e)).toInt < 50000)
    ∧ (∀ e : Fin 400000, 0 ≤ (a18 (ValueIdx.ix1 e)).toInt ∧ (a18 (ValueIdx.ix1 e)).toInt < 50000)
    ∧ (∀ e : Fin 160000, 0 ≤ (a21 (ValueIdx.ix1 e)).toInt ∧ (a21 (ValueIdx.ix1 e)).toInt < 4000)
    ∧ (∀ e : Fin 160000, 0 ≤ (a24 (ValueIdx.ix1 e)).toInt ∧ (a24 (ValueIdx.ix1 e)).toInt < 4000) := by
  have e := congrFun h ix0
  -- the chain of parts, unfolded: the 22-fold scalar conjunction, read at the scalar's one index
  dsimp only [fn, fn_part1, fn_part2, fn_part3, fn_part4, fn_part5, fn_part6] at e
  -- the last five conjuncts, peeled off from the right; the float conjuncts are dropped
  obtain ⟨e, h24⟩ := peel e
  obtain ⟨e, h21⟩ := peel e
  obtain ⟨e, h18⟩ := peel e
  obtain ⟨e, h15⟩ := peel e
  obtain ⟨-, h12⟩ := peel e
  have r12 := range_of_all a12 _ _ _ _ _ h12
  have r15 := range_of_all a15 _ _ _ _ _ h15
  have r18 := range_of_all a18 _ _ _ _ _ h18
  have r21 := range_of_all a21 _ _ _ _ _ h21
  have r24 := range_of_all a24 _ _ _ _ _ h24
  rw [toInt_50000] at r12 r15 r18
  rw [toInt_4000] at r21 r24
  exact ⟨fun k => r12 (ix1 k), fun k => r15 (ix1 k), fun k => r18 (ix1 k), fun k => r21 (ix1 k), fun k => r24 (ix1 k)⟩

end Cert.PreDecode

end
-- ==== Proof.lean ====
/-
  The certificate of the graph layer: the kernel's fifteen launches against the jnp reference.

  Frames.  The kernel program (as printed, and idealized) runs its fifteen regions and the host operations between
  them to the end with every argument array unchanged: each region's body is run once per control case, the scratch
  accumulator of a gather or scatter launch being carried from grid point to grid point, and the regions are chained
  through the contents of the buffers at every boundary of @main.  The reference is a straight line of host operations.

  Values, over the extended reals.  A dense launch computes x Wᵀ + b block by block; a gather launch computes, per edge,
  the sum over all padded source rows of (weight if the edge's source is that row, else 0) times the row; a scatter
  launch computes, per destination row, the sum over all padded edges of (1 if the edge's destination is that row, else
  0) times the gathered row.  Under the precondition that every source index names a row of its table these two
  one-hot sums are the reference's gather and scatter-add (`Cert.Spec.aggK_eq_aggR`): exactly one source row matches an
  edge, padded edges carry weight zero, and zero times anything is zero on the extended reals, so no finiteness is
  used.  The edge counts, the division and the final sums are the same host operations on both sides.
-/
import proofs.«407232_j23192823399226_1_alg».proof.Defs
import proofs.«407232_j23192823399226_1_alg».proof.Proof.Gen.Kernel
import proofs.«407232_j23192823399226_1_alg».proof.Proof.Gen.KernelIdeal
import proofs.«407232_j23192823399226_1_alg».proof.Proof.Gen.ReferenceIdeal
import proofs.«407232_j23192823399226_1_alg».proof.Proof.Gen.Pre_finite_inputs
import proofs.«407232_j23192823399226_1_alg».proof.Proof.K.Run
import proofs.«407232_j23192823399226_1_alg».proof.Proof.KI.Run
import proofs.«407232_j23192823399226_1_alg».proof.Proof.KI.KVal
import proofs.«407232_j23192823399226_1_alg».proof.Proof.RefValue
import proofs.«407232_j23192823399226_1_alg».proof.Proof.PreDecode
import proofs.«407232_j23192823399226_1_alg».proof.Proof.SpecBridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.H.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.H.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.RefValue.ref_run m ρ)

/-- The two programs' results are the same functions of the arguments: the kernel's one-hot aggregations are the
    reference's wherever every source index is in range, which the precondition says. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hI : ∀ c, Cert.ReferenceIdeal.RefValue.I' m' c = Cert.KernelIdeal.H.Iof m c := fun c => by
    unfold Cert.ReferenceIdeal.RefValue.I' Cert.KernelIdeal.H.Iof
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2]
  have hsrc : ∀ c, Cert.Spec.SrcInRange (Cert.KernelIdeal.H.Iof m c) := fun c =>
    Cert.PreDecode.src_in_range (F := Ideal) _ _ _ _ _ _ _ _ _ _ _ _ _ _ _ _ _ _ _ _ _ _ _ _ _ _ _ (hpre c)
  refine ⟨fun c => Cert.Spec.unc2 (Cert.Spec.word Ideal.div (Cert.KernelIdeal.H.Iof m c) (Cert.Spec.aggsK (Cert.KernelIdeal.H.Iof m c))),
    fun c => Cert.Spec.unc2 (Cert.Spec.topic Ideal.div (Cert.KernelIdeal.H.Iof m c) (Cert.Spec.aggsK (Cert.KernelIdeal.H.Iof m c))),
    fun c => Cert.Spec.unc2 (Cert.Spec.doc Ideal.div (Cert.KernelIdeal.H.Iof m c) (Cert.Spec.aggsK (Cert.KernelIdeal.H.Iof m c))), ?_, ?_⟩
  · refine (θ_run Cert.KernelIdeal.defs _ _).mono (fun _ h c => ?_) (Cert.KernelIdeal.H.run (F := Ideal) m g)
    have hv := Cert.KernelIdeal.H.kernel_values m c
    have he := Cert.KernelIdeal.H.VE15 (F := Ideal) m c
    exact ⟨((h c).2.2.2.2.2.2.2.2.2.2.2.2.2.2.2.2.2.2.2.2.2.2.2.2.2.2.2.1).trans ((congrFun he _).trans hv.1), ((h c).2.2.2.2.2.2.2.2.2.2.2.2.2.2.2.2.2.2.2.2.2.2.2.2.2.2.2.2.1).trans ((congrFun he _).trans hv.2.1), ((h c).2.2.2.2.2.2.2.2.2.2.2.2.2.2.2.2.2.2.2.2.2.2.2.2.2.2.2.2.2).trans ((congrFun he _).trans hv.2.2),
      (h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2.1, (h c).2.2.2.2.2.2.2.2.2.2.2.2.2.2.2.2.2.2.2.2.2.2.2.2.2.2.1⟩
  · refine (θ_run Cert.ReferenceIdeal.defs _ _).mono (fun _ h c => ?_) (Cert.ReferenceIdeal.RefValue.ref_run m' g')
    refine ⟨(h c).1.trans ?_, (h c).2.1.trans ?_, (h c).2.2.1.trans ?_, (h c).2.2.2⟩
    · rw [hI c]; exact congrArg Cert.Spec.unc2 (Cert.Spec.word_K_eq_R Ideal.div _ (hsrc c)).symm
    · rw [hI c]; exact congrArg Cert.Spec.unc2 (Cert.Spec.topic_K_eq_R Ideal.div _ (hsrc c)).symm
    · rw [hI c]; exact congrArg Cert.Spec.unc2 (Cert.Spec.doc_K_eq_R Ideal.div _ (hsrc c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
